-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S512x256 .f32) (main_arg1 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Pre_finite_inputs_ReferenceIdeal.lean ====
abbrev S512x1024 : Shape := ⟨2, ![512, 1024]⟩
abbrev S1024x512 : Shape := ⟨2, ![1024, 512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S512x1024 .f32) (main_arg1 : FVec F S1024x512 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S512x256 : Shape := ⟨2, ![512, 256]⟩
abbrev S256x512 : Shape := ⟨2, ![256, 512]⟩
abbrev S512x512 : Shape := ⟨2, ![512, 512]⟩
abbrev S4x128x512 : Shape := ⟨3, ![4, 128, 512]⟩
abbrev S4x4 : Shape := ⟨2, ![4, 4]⟩
abbrev S_ : Shape := ⟨0, ![]⟩
abbrev S1x1 : Shape := ⟨2, ![1, 1]⟩
abbrev S1x32x512 : Shape := ⟨3, ![1, 32, 512]⟩
abbrev S32x512 : Shape := ⟨2, ![32, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .bf16⟩
  | .local _ .vmem, ⟨0, _⟩ => ⟨S512x256, .f32⟩
  | .local _ .vmem, ⟨1, _⟩ => ⟨S256x512, .f32⟩
  | .local _ .vmem, ⟨2, _⟩ => ⟨S512x512, .bf16⟩
  | .local _ .vmem, ⟨3, _⟩ => ⟨S4x128x512, .bf16⟩
  | .local _ .vmem, ⟨4, _⟩ => ⟨S4x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_19 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : BitVec 32 := Scalar.addi v2 c2_i32_19
  let c4_i32_20 : BitVec 32 := 4#32
  let v29 : BitVec 32 := Scalar.remsi v28 c4_i32_20
  let c0_i32_30 : BitVec 32 := 0#32
  let c0_i32_31 : BitVec 32 := 0#32
  ![v29.toNat, 0, 0]
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_19 : BitVec 32 := 2#32
  let v28 : BitVec 32 := Scalar.addi v2 c2_i32_19
  let c4_i32_20 : BitVec 32 := 4#32
  let v29 : BitVec 32 := Scalar.remsi v28 c4_i32_20
  let c1_i32_26 : BitVec 32 := 1#32
  let v30 : BitVec 32 := Scalar.muli v29 c1_i32_26
  let v31 : BitVec 32 := Scalar.addi c0_i32_27 v30
  v31.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v40 : BitVec 32 := Scalar.addi v2 c1_i32_32
  let c4_i32_33 : BitVec 32 := 4#32
  let v41 : BitVec 32 := Scalar.remsi v40 c4_i32_33
  let c1_i32_39 : BitVec 32 := 1#32
  let v42 : BitVec 32 := Scalar.muli v41 c1_i32_39
  let v43 : BitVec 32 := Scalar.addi c0_i32_40 v42
  v43.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_45 : BitVec 32 := 3#32
  let v52 : BitVec 32 := Scalar.addi v2 c3_i32_45
  let c4_i32_46 : BitVec 32 := 4#32
  let v53 : BitVec 32 := Scalar.remsi v52 c4_i32_46
  let c1_i32_52 : BitVec 32 := 1#32
  let v54 : BitVec 32 := Scalar.muli v53 c1_i32_52
  let v55 : BitVec 32 := Scalar.addi c0_i32_53 v54
  v55.toNat
def k0_off2 (d0 : Dev nD) (c2_i32_58 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.addi v2 c2_i32_58
  let c4_i32_59 : BitVec 32 := 4#32
  let v65 : BitVec 32 := Scalar.remsi v64 c4_i32_59
  let c32_i32_68 : BitVec 32 := 32#32
  let c0_i32_69 : BitVec 32 := 0#32
  ![v65.toNat, 32, 0]
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_58 : BitVec 32 := 2#32
  let v64 : BitVec 32 := Scalar.addi v2 c2_i32_58
  let c4_i32_59 : BitVec 32 := 4#32
  let v65 : BitVec 32 := Scalar.remsi v64 c4_i32_59
  let c1_i32_65 : BitVec 32 := 1#32
  let v66 : BitVec 32 := Scalar.muli v65 c1_i32_65
  let v67 : BitVec 32 := Scalar.addi c0_i32_66 v66
  v67.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v76 : BitVec 32 := Scalar.addi v2 c1_i32_70
  let c4_i32_71 : BitVec 32 := 4#32
  let v77 : BitVec 32 := Scalar.remsi v76 c4_i32_71
  let c1_i32_77 : BitVec 32 := 1#32
  let v78 : BitVec 32 := Scalar.muli v77 c1_i32_77
  let v79 : BitVec 32 := Scalar.addi c0_i32_78 v78
  v79.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_83 : BitVec 32 := 3#32
  let v88 : BitVec 32 := Scalar.addi v2 c3_i32_83
  let c4_i32_84 : BitVec 32 := 4#32
  let v89 : BitVec 32 := Scalar.remsi v88 c4_i32_84
  let c1_i32_90 : BitVec 32 := 1#32
  let v90 : BitVec 32 := Scalar.muli v89 c1_i32_90
  let v91 : BitVec 32 := Scalar.addi c0_i32_91 v90
  v91.toNat
def k0_off3 (d0 : Dev nD) (c2_i32_96 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v100 : BitVec 32 := Scalar.addi v2 c2_i32_96
  let c4_i32_97 : BitVec 32 := 4#32
  let v101 : BitVec 32 := Scalar.remsi v100 c4_i32_97
  let c64_i32_106 : BitVec 32 := 64#32
  let c0_i32_107 : BitVec 32 := 0#32
  ![v101.toNat, 64, 0]
def k0_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_96 : BitVec 32 := 2#32
  let v100 : BitVec 32 := Scalar.addi v2 c2_i32_96
  let c4_i32_97 : BitVec 32 := 4#32
  let v101 : BitVec 32 := Scalar.remsi v100 c4_i32_97
  let c1_i32_103 : BitVec 32 := 1#32
  let v102 : BitVec 32 := Scalar.muli v101 c1_i32_103
  let v103 : BitVec 32 := Scalar.addi c0_i32_104 v102
  v103.toNat
def k0_dev11 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_108 : BitVec 32 := 1#32
  let v112 : BitVec 32 := Scalar.addi v2 c1_i32_108
  let c4_i32_109 : BitVec 32 := 4#32
  let v113 : BitVec 32 := Scalar.remsi v112 c4_i32_109
  let c1_i32_115 : BitVec 32 := 1#32
  let v114 : BitVec 32 := Scalar.muli v113 c1_i32_115
  let v115 : BitVec 32 := Scalar.addi c0_i32_116 v114
  v115.toNat
def k0_dev12 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_121 : BitVec 32 := 3#32
  let v124 : BitVec 32 := Scalar.addi v2 c3_i32_121
  let c4_i32_122 : BitVec 32 := 4#32
  let v125 : BitVec 32 := Scalar.remsi v124 c4_i32_122
  let c1_i32_128 : BitVec 32 := 1#32
  let v126 : BitVec 32 := Scalar.muli v125 c1_i32_128
  let v127 : BitVec 32 := Scalar.addi c0_i32_129 v126
  v127.toNat
def k0_off4 (d0 : Dev nD) (c2_i32_134 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v136 : BitVec 32 := Scalar.addi v2 c2_i32_134
  let c4_i32_135 : BitVec 32 := 4#32
  let v137 : BitVec 32 := Scalar.remsi v136 c4_i32_135
  let c96_i32_144 : BitVec 32 := 96#32
  let c0_i32_145 : BitVec 32 := 0#32
  ![v137.toNat, 96, 0]
def k0_dev13 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_134 : BitVec 32 := 2#32
  let v136 : BitVec 32 := Scalar.addi v2 c2_i32_134
  let c4_i32_135 : BitVec 32 := 4#32
  let v137 : BitVec 32 := Scalar.remsi v136 c4_i32_135
  let c1_i32_141 : BitVec 32 := 1#32
  let v138 : BitVec 32 := Scalar.muli v137 c1_i32_141
  let v139 : BitVec 32 := Scalar.addi c0_i32_142 v138
  v139.toNat
def k0_dev14 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_146 : BitVec 32 := 1#32
  let v148 : BitVec 32 := Scalar.addi v2 c1_i32_146
  let c4_i32_147 : BitVec 32 := 4#32
  let v149 : BitVec 32 := Scalar.remsi v148 c4_i32_147
  let c1_i32_153 : BitVec 32 := 1#32
  let v150 : BitVec 32 := Scalar.muli v149 c1_i32_153
  let v151 : BitVec 32 := Scalar.addi c0_i32_154 v150
  v151.toNat
def k0_dev15 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_159 : BitVec 32 := 3#32
  let v160 : BitVec 32 := Scalar.addi v2 c3_i32_159
  let c4_i32_160 : BitVec 32 := 4#32
  let v161 : BitVec 32 := Scalar.remsi v160 c4_i32_160
  let c1_i32_166 : BitVec 32 := 1#32
  let v162 : BitVec 32 := Scalar.muli v161 c1_i32_166
  let v163 : BitVec 32 := Scalar.addi c0_i32_167 v162
  v163.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v172 : Index := Scalar.indexCast v2
  let c0_172 : Index := 0#32
  let c0_173 : Index := 0#32
  ![v172.toNat, 0, 0]
def k0_off6 (d0 : Dev nD) (c0_i32_220 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v225 : BitVec 32 := Scalar.muli v2 c128_i32
  let v226 : BitVec 32 := Scalar.addi v225 c0_i32_220
  let c0_i32_221 : BitVec 32 := 0#32
  ![v226.toNat, 0]
def k0_dev16 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_224 : BitVec 32 := 2#32
  let v230 : BitVec 32 := Scalar.addi v2 c2_i32_224
  let c4_i32_225 : BitVec 32 := 4#32
  let v231 : BitVec 32 := Scalar.remsi v230 c4_i32_225
  let c1_i32_230 : BitVec 32 := 1#32
  let v232 : BitVec 32 := Scalar.muli v231 c1_i32_230
  let v233 : BitVec 32 := Scalar.addi c0_i32_231 v232
  v233.toNat
def k0_dev17 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_234 : BitVec 32 := 1#32
  let v240 : BitVec 32 := Scalar.addi v2 c1_i32_234
  let c4_i32_235 : BitVec 32 := 4#32
  let v241 : BitVec 32 := Scalar.remsi v240 c4_i32_235
  let c1_i32_240 : BitVec 32 := 1#32
  let v242 : BitVec 32 := Scalar.muli v241 c1_i32_240
  let v243 : BitVec 32 := Scalar.addi c0_i32_241 v242
  v243.toNat
def k0_dev18 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_244 : BitVec 32 := 3#32
  let v250 : BitVec 32 := Scalar.addi v2 c3_i32_244
  let c4_i32_245 : BitVec 32 := 4#32
  let v251 : BitVec 32 := Scalar.remsi v250 c4_i32_245
  let c1_i32_250 : BitVec 32 := 1#32
  let v252 : BitVec 32 := Scalar.muli v251 c1_i32_250
  let v253 : BitVec 32 := Scalar.addi c0_i32_251 v252
  v253.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v260 : Index := Scalar.indexCast v2
  let c32 : Index := 32#32
  let c0_254 : Index := 0#32
  ![v260.toNat, 32, 0]
def k0_dev19 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_309 : BitVec 32 := 2#32
  let v318 : BitVec 32 := Scalar.addi v2 c2_i32_309
  let c4_i32_310 : BitVec 32 := 4#32
  let v319 : BitVec 32 := Scalar.remsi v318 c4_i32_310
  let c1_i32_315 : BitVec 32 := 1#32
  let v320 : BitVec 32 := Scalar.muli v319 c1_i32_315
  let v321 : BitVec 32 := Scalar.addi c0_i32_316 v320
  v321.toNat
def k0_dev20 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_319 : BitVec 32 := 1#32
  let v328 : BitVec 32 := Scalar.addi v2 c1_i32_319
  let c4_i32_320 : BitVec 32 := 4#32
  let v329 : BitVec 32 := Scalar.remsi v328 c4_i32_320
  let c1_i32_325 : BitVec 32 := 1#32
  let v330 : BitVec 32 := Scalar.muli v329 c1_i32_325
  let v331 : BitVec 32 := Scalar.addi c0_i32_326 v330
  v331.toNat
def k0_dev21 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_329 : BitVec 32 := 3#32
  let v338 : BitVec 32 := Scalar.addi v2 c3_i32_329
  let c4_i32_330 : BitVec 32 := 4#32
  let v339 : BitVec 32 := Scalar.remsi v338 c4_i32_330
  let c1_i32_335 : BitVec 32 := 1#32
  let v340 : BitVec 32 := Scalar.muli v339 c1_i32_335
  let v341 : BitVec 32 := Scalar.addi c0_i32_336 v340
  v341.toNat
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v348 : Index := Scalar.indexCast v2
  let c64 : Index := 64#32
  let c0_339 : Index := 0#32
  ![v348.toNat, 64, 0]
def k0_dev22 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_394 : BitVec 32 := 2#32
  let v406 : BitVec 32 := Scalar.addi v2 c2_i32_394
  let c4_i32_395 : BitVec 32 := 4#32
  let v407 : BitVec 32 := Scalar.remsi v406 c4_i32_395
  let c1_i32_400 : BitVec 32 := 1#32
  let v408 : BitVec 32 := Scalar.muli v407 c1_i32_400
  let v409 : BitVec 32 := Scalar.addi c0_i32_401 v408
  v409.toNat
def k0_dev23 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_404 : BitVec 32 := 1#32
  let v416 : BitVec 32 := Scalar.addi v2 c1_i32_404
  let c4_i32_405 : BitVec 32 := 4#32
  let v417 : BitVec 32 := Scalar.remsi v416 c4_i32_405
  let c1_i32_410 : BitVec 32 := 1#32
  let v418 : BitVec 32 := Scalar.muli v417 c1_i32_410
  let v419 : BitVec 32 := Scalar.addi c0_i32_411 v418
  v419.toNat
def k0_dev24 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_414 : BitVec 32 := 3#32
  let v426 : BitVec 32 := Scalar.addi v2 c3_i32_414
  let c4_i32_415 : BitVec 32 := 4#32
  let v427 : BitVec 32 := Scalar.remsi v426 c4_i32_415
  let c1_i32_420 : BitVec 32 := 1#32
  let v428 : BitVec 32 := Scalar.muli v427 c1_i32_420
  let v429 : BitVec 32 := Scalar.addi c0_i32_421 v428
  v429.toNat
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v436 : Index := Scalar.indexCast v2
  let c96 : Index := 96#32
  let c0_424 : Index := 0#32
  ![v436.toNat, 96, 0]
def k0_dev25 (d0 : Dev nD) : Nat :=
  let c0_i32_486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_479 : BitVec 32 := 2#32
  let v494 : BitVec 32 := Scalar.addi v2 c2_i32_479
  let c4_i32_480 : BitVec 32 := 4#32
  let v495 : BitVec 32 := Scalar.remsi v494 c4_i32_480
  let c1_i32_485 : BitVec 32 := 1#32
  let v496 : BitVec 32 := Scalar.muli v495 c1_i32_485
  let v497 : BitVec 32 := Scalar.addi c0_i32_486 v496
  v497.toNat
def k0_dev26 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_489 : BitVec 32 := 1#32
  let v504 : BitVec 32 := Scalar.addi v2 c1_i32_489
  let c4_i32_490 : BitVec 32 := 4#32
  let v505 : BitVec 32 := Scalar.remsi v504 c4_i32_490
  let c1_i32_495 : BitVec 32 := 1#32
  let v506 : BitVec 32 := Scalar.muli v505 c1_i32_495
  let v507 : BitVec 32 := Scalar.addi c0_i32_496 v506
  v507.toNat
def k0_dev27 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_499 : BitVec 32 := 3#32
  let v514 : BitVec 32 := Scalar.addi v2 c3_i32_499
  let c4_i32_500 : BitVec 32 := 4#32
  let v515 : BitVec 32 := Scalar.remsi v514 c4_i32_500
  let c1_i32_505 : BitVec 32 := 1#32
  let v516 : BitVec 32 := Scalar.muli v515 c1_i32_505
  let v517 : BitVec 32 := Scalar.addi c0_i32_506 v516
  v517.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S512x512_S4x128x512 : S512x512.ShapeCasts S4x128x512
  inb_S4x128x512_S4x128x512_0_0_0 : ∀ a, (![0, 0, 0] : Fin 3 → Nat) a + S4x128x512.size a ≤ S4x128x512.size a
  h_S4x128x512 : 0 < S4x128x512.numel
  shapeCasts_S4x128x512_S4x128x512 : S4x128x512.ShapeCasts S4x128x512
  packedbf16_S4x128x512_S4x128x512_0_0_0 : (Rect.unit (s := S4x128x512) ![0, 0, 0] S4x128x512.size inb_S4x128x512_S4x128x512_0_0_0).PackedRows (EltTy.packing .bf16)
  hamt_3 : (3#32 : BitVec 32).msb = false
  inb_S4x4_S1x1_2_0 : ∀ a, (![2, 0] : Fin 2 → Nat) a + S1x1.size a ≤ S4x4.size a
  squeezes_S1x1_S_ : S1x1.Squeezes S_
  inb_S4x128x512_S1x32x512_2_0_0 : ∀ a, (![2, 0, 0] : Fin 3 → Nat) a + S1x32x512.size a ≤ S4x128x512.size a
  squeezes_S1x32x512_S32x512 : S1x32x512.Squeezes S32x512
  wordsbf16_S4x128x512_S1x32x512_2_0_0 : (Rect.unit (s := S4x128x512) ![2, 0, 0] S1x32x512.size inb_S4x128x512_S1x32x512_2_0_0).WholeWords (EltTy.packing .bf16)
  inb_S4x4_S1x1_1_0 : ∀ a, (![1, 0] : Fin 2 → Nat) a + S1x1.size a ≤ S4x4.size a
  inb_S4x4_S1x1_3_0 : ∀ a, (![3, 0] : Fin 2 → Nat) a + S1x1.size a ≤ S4x4.size a
  inb_S4x128x512_S1x32x512_3_0_0 : ∀ a, (![3, 0, 0] : Fin 3 → Nat) a + S1x32x512.size a ≤ S4x128x512.size a
  wordsbf16_S4x128x512_S1x32x512_3_0_0 : (Rect.unit (s := S4x128x512) ![3, 0, 0] S1x32x512.size inb_S4x128x512_S1x32x512_3_0_0).WholeWords (EltTy.packing .bf16)
  inb_S4x128x512_S1x32x512_1_0_0 : ∀ a, (![1, 0, 0] : Fin 3 → Nat) a + S1x32x512.size a ≤ S4x128x512.size a
  wordsbf16_S4x128x512_S1x32x512_1_0_0 : (Rect.unit (s := S4x128x512) ![1, 0, 0] S1x32x512.size inb_S4x128x512_S1x32x512_1_0_0).WholeWords (EltTy.packing .bf16)
  inb_S4x4_S1x1_2_1 : ∀ a, (![2, 1] : Fin 2 → Nat) a + S1x1.size a ≤ S4x4.size a
  inb_S4x128x512_S1x32x512_2_32_0 : ∀ a, (![2, 32, 0] : Fin 3 → Nat) a + S1x32x512.size a ≤ S4x128x512.size a
  wordsbf16_S4x128x512_S1x32x512_2_32_0 : (Rect.unit (s := S4x128x512) ![2, 32, 0] S1x32x512.size inb_S4x128x512_S1x32x512_2_32_0).WholeWords (EltTy.packing .bf16)
  inb_S4x4_S1x1_1_1 : ∀ a, (![1, 1] : Fin 2 → Nat) a + S1x1.size a ≤ S4x4.size a
  inb_S4x4_S1x1_3_1 : ∀ a, (![3, 1] : Fin 2 → Nat) a + S1x1.size a ≤ S4x4.size a
  inb_S4x128x512_S1x32x512_3_32_0 : ∀ a, (![3, 32, 0] : Fin 3 → Nat) a + S1x32x512.size a ≤ S4x128x512.size a
  wordsbf16_S4x128x512_S1x32x512_3_32_0 : (Rect.unit (s := S4x128x512) ![3, 32, 0] S1x32x512.size inb_S4x128x512_S1x32x512_3_32_0).WholeWords (EltTy.packing .bf16)
  inb_S4x128x512_S1x32x512_1_32_0 : ∀ a, (![1, 32, 0] : Fin 3 → Nat) a + S1x32x512.size a ≤ S4x128x512.size a
  wordsbf16_S4x128x512_S1x32x512_1_32_0 : (Rect.unit (s := S4x128x512) ![1, 32, 0] S1x32x512.size inb_S4x128x512_S1x32x512_1_32_0).WholeWords (EltTy.packing .bf16)
  inb_S4x4_S1x1_2_2 : ∀ a, (![2, 2] : Fin 2 → Nat) a + S1x1.size a ≤ S4x4.size a
  inb_S4x128x512_S1x32x512_2_64_0 : ∀ a, (![2, 64, 0] : Fin 3 → Nat) a + S1x32x512.size a ≤ S4x128x512.size a
  wordsbf16_S4x128x512_S1x32x512_2_64_0 : (Rect.unit (s := S4x128x512) ![2, 64, 0] S1x32x512.size inb_S4x128x512_S1x32x512_2_64_0).WholeWords (EltTy.packing .bf16)
  inb_S4x4_S1x1_1_2 : ∀ a, (![1, 2] : Fin 2 → Nat) a + S1x1.size a ≤ S4x4.size a
  inb_S4x4_S1x1_3_2 : ∀ a, (![3, 2] : Fin 2 → Nat) a + S1x1.size a ≤ S4x4.size a
  inb_S4x128x512_S1x32x512_3_64_0 : ∀ a, (![3, 64, 0] : Fin 3 → Nat) a + S1x32x512.size a ≤ S4x128x512.size a
  wordsbf16_S4x128x512_S1x32x512_3_64_0 : (Rect.unit (s := S4x128x512) ![3, 64, 0] S1x32x512.size inb_S4x128x512_S1x32x512_3_64_0).WholeWords (EltTy.packing .bf16)
  inb_S4x128x512_S1x32x512_1_64_0 : ∀ a, (![1, 64, 0] : Fin 3 → Nat) a + S1x32x512.size a ≤ S4x128x512.size a
  wordsbf16_S4x128x512_S1x32x512_1_64_0 : (Rect.unit (s := S4x128x512) ![1, 64, 0] S1x32x512.size inb_S4x128x512_S1x32x512_1_64_0).WholeWords (EltTy.packing .bf16)
  inb_S4x4_S1x1_2_3 : ∀ a, (![2, 3] : Fin 2 → Nat) a + S1x1.size a ≤ S4x4.size a
  inb_S4x128x512_S1x32x512_2_96_0 : ∀ a, (![2, 96, 0] : Fin 3 → Nat) a + S1x32x512.size a ≤ S4x128x512.size a
  wordsbf16_S4x128x512_S1x32x512_2_96_0 : (Rect.unit (s := S4x128x512) ![2, 96, 0] S1x32x512.size inb_S4x128x512_S1x32x512_2_96_0).WholeWords (EltTy.packing .bf16)
  inb_S4x4_S1x1_1_3 : ∀ a, (![1, 3] : Fin 2 → Nat) a + S1x1.size a ≤ S4x4.size a
  inb_S4x4_S1x1_3_3 : ∀ a, (![3, 3] : Fin 2 → Nat) a + S1x1.size a ≤ S4x4.size a
  inb_S4x128x512_S1x32x512_3_96_0 : ∀ a, (![3, 96, 0] : Fin 3 → Nat) a + S1x32x512.size a ≤ S4x128x512.size a
  wordsbf16_S4x128x512_S1x32x512_3_96_0 : (Rect.unit (s := S4x128x512) ![3, 96, 0] S1x32x512.size inb_S4x128x512_S1x32x512_3_96_0).WholeWords (EltTy.packing .bf16)
  inb_S4x128x512_S1x32x512_1_96_0 : ∀ a, (![1, 96, 0] : Fin 3 → Nat) a + S1x32x512.size a ≤ S4x128x512.size a
  wordsbf16_S4x128x512_S1x32x512_1_96_0 : (Rect.unit (s := S4x128x512) ![1, 96, 0] S1x32x512.size inb_S4x128x512_S1x32x512_1_96_0).WholeWords (EltTy.packing .bf16)
  h_S1x32x512 : 0 < S1x32x512.numel
  shapeCasts_S1x32x512_S32x512 : S1x32x512.ShapeCasts S32x512
  inb_S4x128x512_S1x32x512_0_0_0 : ∀ a, (![0, 0, 0] : Fin 3 → Nat) a + S1x32x512.size a ≤ S4x128x512.size a
  wordsbf16_S4x128x512_S1x32x512_0_0_0 : (Rect.unit (s := S4x128x512) ![0, 0, 0] S1x32x512.size inb_S4x128x512_S1x32x512_0_0_0).WholeWords (EltTy.packing .bf16)
  inb_S32x512_S32x512_0_0 : ∀ a, (![0, 0] : Fin 2 → Nat) a + S32x512.size a ≤ S32x512.size a
  h_S32x512 : 0 < S32x512.numel
  inb_S4x128x512_S1x32x512_0_32_0 : ∀ a, (![0, 32, 0] : Fin 3 → Nat) a + S1x32x512.size a ≤ S4x128x512.size a
  wordsbf16_S4x128x512_S1x32x512_0_32_0 : (Rect.unit (s := S4x128x512) ![0, 32, 0] S1x32x512.size inb_S4x128x512_S1x32x512_0_32_0).WholeWords (EltTy.packing .bf16)
  inb_S4x128x512_S1x32x512_0_64_0 : ∀ a, (![0, 64, 0] : Fin 3 → Nat) a + S1x32x512.size a ≤ S4x128x512.size a
  wordsbf16_S4x128x512_S1x32x512_0_64_0 : (Rect.unit (s := S4x128x512) ![0, 64, 0] S1x32x512.size inb_S4x128x512_S1x32x512_0_64_0).WholeWords (EltTy.packing .bf16)
  inb_S4x128x512_S1x32x512_0_96_0 : ∀ a, (![0, 96, 0] : Fin 3 → Nat) a + S1x32x512.size a ≤ S4x128x512.size a
  wordsbf16_S4x128x512_S1x32x512_0_96_0 : (Rect.unit (s := S4x128x512) ![0, 96, 0] S1x32x512.size inb_S4x128x512_S1x32x512_0_96_0).WholeWords (EltTy.packing .bf16)
  dot_S512x256_S256x512_S512x512_1_0_0_1_n_n_wf : DotDims.WF S512x256 S256x512 S512x512 [1] [0] [0] [1] [] []
  hcc0_scratch2 : 3 + S4x4.numel ≤ 67
  hcc0_scratch3 : 19 + S4x4.numel ≤ 67
  hcc0_scratch4 : 35 + S4x4.numel ≤ 67
  hcc0_scratch5 : 51 + S4x4.numel ≤ 67
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 3), ∀ a, (k0_off1 d0 (BitVec.ofNat 32 (1 + r.val))) a + S1x32x512.size a ≤ S4x128x512.size a
  k0_off1_wordsbf16 : ∀ d0 : Dev nD, ∀ (r : Fin 3), (Rect.unit (s := S4x128x512) (k0_off1 d0 (BitVec.ofNat 32 (1 + r.val))) S1x32x512.size (k0_off1_inb d0 r)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off2_inb : ∀ d0 : Dev nD, ∀ (r : Fin 3), ∀ a, (k0_off2 d0 (BitVec.ofNat 32 (1 + r.val))) a + S1x32x512.size a ≤ S4x128x512.size a
  k0_off2_wordsbf16 : ∀ d0 : Dev nD, ∀ (r : Fin 3), (Rect.unit (s := S4x128x512) (k0_off2 d0 (BitVec.ofNat 32 (1 + r.val))) S1x32x512.size (k0_off2_inb d0 r)).WholeWords (EltTy.packing .bf16)
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off3_inb : ∀ d0 : Dev nD, ∀ (r : Fin 3), ∀ a, (k0_off3 d0 (BitVec.ofNat 32 (1 + r.val))) a + S1x32x512.size a ≤ S4x128x512.size a
  k0_off3_wordsbf16 : ∀ d0 : Dev nD, ∀ (r : Fin 3), (Rect.unit (s := S4x128x512) (k0_off3 d0 (BitVec.ofNat 32 (1 + r.val))) S1x32x512.size (k0_off3_inb d0 r)).WholeWords (EltTy.packing .bf16)
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_off4_inb : ∀ d0 : Dev nD, ∀ (r : Fin 3), ∀ a, (k0_off4 d0 (BitVec.ofNat 32 (1 + r.val))) a + S1x32x512.size a ≤ S4x128x512.size a
  k0_off4_wordsbf16 : ∀ d0 : Dev nD, ∀ (r : Fin 3), (Rect.unit (s := S4x128x512) (k0_off4 d0 (BitVec.ofNat 32 (1 + r.val))) S1x32x512.size (k0_off4_inb d0 r)).WholeWords (EltTy.packing .bf16)
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off5_inb : ∀ d0 : Dev nD, ∀ a, (k0_off5 d0) a + S1x32x512.size a ≤ S4x128x512.size a
  k0_off6_inb : ∀ d0 : Dev nD, ∀ (r : Fin 4), ∀ a, (k0_off6 d0 (BitVec.ofNat 32 (32 * r.val))) a + S32x512.size a ≤ S512x512.size a
  k0_off6_packedbf16 : ∀ d0 : Dev nD, ∀ (r : Fin 4), (Rect.unit (s := S512x512) (k0_off6 d0 (BitVec.ofNat 32 (32 * r.val))) S32x512.size (k0_off6_inb d0 r)).PackedRows (EltTy.packing .bf16)
  k0_off6_wordsbf16 : ∀ d0 : Dev nD, ∀ (r : Fin 4), (Rect.unit (s := S512x512) (k0_off6 d0 (BitVec.ofNat 32 (32 * r.val))) S32x512.size (k0_off6_inb d0 r)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off7_inb : ∀ d0 : Dev nD, ∀ a, (k0_off7 d0) a + S1x32x512.size a ≤ S4x128x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off8_inb : ∀ d0 : Dev nD, ∀ a, (k0_off8 d0) a + S1x32x512.size a ≤ S4x128x512.size a
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_off9_inb : ∀ d0 : Dev nD, ∀ a, (k0_off9 d0) a + S1x32x512.size a ≤ S4x128x512.size a
  k0_dev25_lt : ∀ d0 : Dev nD, (k0_dev25 d0) < nD
  k0_dev26_lt : ∀ d0 : Dev nD, (k0_dev26 d0) < nD
  k0_dev27_lt : ∀ d0 : Dev nD, (k0_dev27 d0) < nD
  hstage0_0 : ∀ j, (stage0_0 j).IsWhole
  hstage0_1 : ∀ j, (stage0_1 j).IsWhole
  hstage0_2 : ∀ j, (stage0_2 j).IsWhole

variable [Facts₀]

abbrev cc0_scratch2 : DmaSems sig S4x4 := SemArray.consecutive 3 S4x4 hcc0_scratch2
abbrev cc0_scratch3 : DmaSems sig S4x4 := SemArray.consecutive 19 S4x4 hcc0_scratch3
abbrev cc0_scratch4 : DmaSems sig S4x4 := SemArray.consecutive 35 S4x4 hcc0_scratch4
abbrev cc0_scratch5 : DmaSems sig S4x4 := SemArray.consecutive 51 S4x4 hcc0_scratch5
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x1024 : Shape := ⟨2, ![512, 1024]⟩
abbrev S1024x512 : Shape := ⟨2, ![1024, 512]⟩
abbrev S512x512 : Shape := ⟨2, ![512, 512]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .hbm, ⟨2, _⟩ => ⟨S512x512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bitsLt_bf16_f32 : FTy.bits .bf16 < FTy.bits .f32
  dot_S512x1024_S1024x512_S512x512_1_0_0_1_n_n_wf : DotDims.WF S512x1024 S1024x512 S512x512 [1] [0] [0] [1] [] []

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

class Facts : Prop extends Facts₀ where

variable [Facts]
-- ==== Proof.KernelContents.lean ====
/-
  The data of the sharded matmul with a fused GELU, as pure functions of what each device is launched with.

  Four devices hold column blocks `A_c` (512×256) of `A` and row blocks `B_c` (256×512) of `B`. Device `c` forms the
  partial product `P_c = A_c · B_c` (512×512, kept as four slabs of 128 rows). Row slab `s` of the full product is
  the sum over the four devices of slab `s` of their partials; device `s` gathers it in the order own, `s+1`,
  `s+3`, `s+2`, thirty-two rows at a time, applies the GELU, and every device ends with all sixteen 32-row pieces.
-/
import proofs.«900554_g7700000000000555_dist_matmul_gelu_kshard_i_m512_n512_k256_v7x_i4_bf16_1_alg».proof.Proof.Gen.Kernel.Skeleton
import proofs.«900554_g7700000000000555_dist_matmul_gelu_kshard_i_m512_n512_k256_v7x_i4_bf16_1_alg».proof.Proof.Gen.Kernel.Frame
import Idealize.ShloMosaic.Lib.ValueIdx

noncomputable section

namespace Cert.Kernel.Hand

open Cert.Kernel Cert.Kernel.Gen
open Idealize.ShloMosaic Idealize.ShloMosaic.TcCoe Idealize.ShloMosaic.ValueIdx

variable {F : FTy → Type} [FloatOps F]

/-- The device `d` places after `c` on the ring of four. -/
def pl (c : Dev nD) (d : ℕ) : Dev nD := ⟨(c.val + d) % 4, Nat.mod_lt _ (by decide)⟩

variable (m : (ℓ : Loc nD τ sig) → Buf (Elt F) ℓ)

/-- Device `c`'s column block of `A` and row block of `B`, as the region finds them. -/
abbrev Ablk (c : Dev nD) : Vec F S512x256 .f32 := iblk m c 0 t0_0
abbrev Bblk (c : Dev nD) : Vec F S256x512 .f32 := iblk m c 1 t0_0

/-- Device `c`'s partial product, four slabs of 128 rows. -/
def Pblk (c : Dev nD) : Vec F S4x128x512 .bf16 := k0_pay1 (Ablk m c) (Bblk m c)

/-- What device `c`'s receive buffer holds once everything has landed: slab `k` is slab `c` of the partial of the
    device `k` places after `c`. -/
def RSfun (c : Dev nD) : Vec F S4x128x512 .bf16 :=
  fun i => Pblk m (pl c (i 0).val) (ix3 (n0 := 4) (n1 := 128) (n2 := 512) c (i 1) (i 2))

/-- Thirty-two rows `32·ch …` of slab `s` of a partial. -/
def slab (P : Vec F S4x128x512 .bf16) (s : Fin 4) (ch : Fin 4) : Vec F S1x32x512 .bf16 :=
  fun i => P (ix3 (n0 := 4) (n1 := 128) (n2 := 512) s ⟨32 * ch.val + ((i 1 : Fin 32)).val, by have h1 : ((i 1 : Fin 32)).val < 32 := (i 1 : Fin 32).isLt; have h2 : ch.val < 4 := ch.isLt; omega⟩ (i 2))

/-- One 32-row piece of the result from the four partial pieces, summed in the order the kernel sums them, then the GELU. -/
def chunkVal (x0 x1 x3 x2 : Vec F S1x32x512 .bf16) : Vec F S32x512 .bf16 := k0_pay4 (k0_pay3 (k0_pay2 x0 x1) x3 x2)

/-- The whole result, the same on every device. -/
def OUT : Vec F S512x512 .bf16 := fun i =>
  let s : Dev nD := ⟨((i 0 : Fin 512)).val / 128, by have h0 : ((i 0 : Fin 512)).val < 512 := (i 0 : Fin 512).isLt; show _ < 4; omega⟩
  let ch : Fin 4 := ⟨((i 0 : Fin 512)).val % 128 / 32, by omega⟩
  let r : Fin 32 := ⟨((i 0 : Fin 512)).val % 32, Nat.mod_lt _ (by decide)⟩
  chunkVal (slab (Pblk m s) s ch) (slab (Pblk m (pl s 1)) s ch) (slab (Pblk m (pl s 3)) s ch) (slab (Pblk m (pl s 2)) s ch)
    (ix2 (n0 := 32) (n1 := 512) r (i 1))

end Cert.Kernel.Hand

end
-- ==== Proof.KernelProto.lean ====
/-
  The cross-device protocol of the sharded matmul with a fused GELU, stated once for a symbolic device.

  Every device signals the other three at entry and waits for their three signals: after that wait each peer is
  inside the kernel and has handed over the pieces of its receive buffer and of its result rows that this device
  will write. Then, per 32-row piece, three copies of partial products go out (the reduce-scatter), three come in
  and are added, the GELU is applied, and the finished piece goes to the other three devices (the all-gather).
  Each copy has a send cell on the sender (the source comes back on it) and a receive cell on the target (the
  written piece arrives on it). Every cell has one round.
-/
import proofs.«900554_g7700000000000555_dist_matmul_gelu_kshard_i_m512_n512_k256_v7x_i4_bf16_1_alg».proof.Proof.KernelContents
import Idealize.ShloMosaic.Lib.Pipeline.Launch
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Buffers and their pieces -/

abbrev aM : Memref sig .tc .vmem S512x256 .f32 := Memref.whole cc0_stg0_0
abbrev bM : Memref sig .tc .vmem S256x512 .f32 := Memref.whole cc0_stg1_0
/-- The result's staging buffer, 512 rows. -/
abbrev oM : Memref sig .tc .vmem S512x512 .bf16 := Memref.whole cc0_stg2_0
/-- The partial product, four slabs. -/
abbrev pM : Memref sig .tc .vmem S4x128x512 .bf16 := Memref.whole cc0_scratch0
/-- The receive buffer, four slabs. -/
abbrev rM : Memref sig .tc .vmem S4x128x512 .bf16 := Memref.whole cc0_scratch1

theorem rsDst_inb : ∀ k ch : Fin 4, ∀ a, (![k.val, 32 * ch.val, 0] : Fin 3 → Nat) a + S1x32x512.size a ≤ S4x128x512.size a := by decide

/-- Piece `ch` of slab `k` of the receive buffer: where the copy from the device `k` places on lands. -/
abbrev rsDst (k ch : Fin 4) : Memref sig .tc .vmem S32x512 .bf16 :=
  (rM.slice (Rect.unit (s := S4x128x512) ![k.val, 32 * ch.val, 0] S1x32x512.size (rsDst_inb k ch)) (fun _ => rfl)).squeeze S32x512 squeezes_S1x32x512_S32x512

/-- The printed offsets of the source of the copy to the device `r + 1` places on, piece `ch`: slab `c + r + 1`, rows `32·ch …`. -/
def srcOff (c : Dev nD) (r : Fin 3) : Fin 4 → (Fin 3 → Nat)
  | 0 => k0_off1 c (BitVec.ofNat 32 (1 + r.val))
  | 1 => k0_off2 c (BitVec.ofNat 32 (1 + r.val))
  | 2 => k0_off3 c (BitVec.ofNat 32 (1 + r.val))
  | 3 => k0_off4 c (BitVec.ofNat 32 (1 + r.val))
  | ⟨_ + 4, h⟩ => absurd h (Nat.not_lt.2 (Nat.le_add_left _ _))

theorem srcOff_inb (c : Dev nD) (r : Fin 3) : ∀ (ch : Fin 4), ∀ a, srcOff c r ch a + S1x32x512.size a ≤ S4x128x512.size a
  | 0 => k0_off1_inb c r
  | 1 => k0_off2_inb c r
  | 2 => k0_off3_inb c r
  | 3 => k0_off4_inb c r
  | ⟨_ + 4, h⟩ => absurd h (Nat.not_lt.2 (Nat.le_add_left _ _))

/-- Piece `ch` of the slab of the partial product that goes to the device `r + 1` places on. -/
abbrev rsSrc (c : Dev nD) (r : Fin 3) (ch : Fin 4) : Memref sig .tc .vmem S32x512 .bf16 :=
  (pM.slice (Rect.unit (s := S4x128x512) (srcOff c r ch) S1x32x512.size (srcOff_inb c r ch)) (fun _ => rfl)).squeeze S32x512 squeezes_S1x32x512_S32x512

/-- Rows `128·c + 32·ch …` of the result: device `c`'s piece `ch`. -/
abbrev outSl (c : Dev nD) (ch : Fin 4) : Memref sig .tc .vmem S32x512 .bf16 :=
  oM.slice (Rect.unit (s := S512x512) (k0_off6 c (BitVec.ofNat 32 (32 * ch.val))) S32x512.size (k0_off6_inb c ch)) (fun _ => rfl)

/-- A piece of a buffer on device `c`, owned whole, at contents `f`. -/
def pts {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

instance pts_storable {sp : Space} {s : Shape} {e : EltTy} (M : Memref sig .tc sp s e) (c : Dev nD) (f : Buf (Elt F) (M.view.loc (c : Thread nD τ))) :
    BI.Storable (upEmb : UEmb _ 𝕄) (pts M c f) := by unfold pts; infer_instance

/-! ## Cells -/

abbrev barS : Sem sig := (SemArray.scalar (sig.barrier 0 rfl) : Sems sig S_).sem
abbrev barCell (c : Dev nD) : GSem nD τ sig := ((c : Thread nD τ), .reg barS)

theorem semOf_inb : ∀ a b : Fin 4, ∀ i, (![a.val, b.val] : Fin 2 → Nat) i + S1x1.size i ≤ S4x4.size i := by decide

/-- Entry `(a, b)` of one of the four 4×4 semaphore arrays. -/
def semOf (A : DmaSems sig S4x4) (a b : Fin 4) : DmaSem sig :=
  ((A.slice (Rect.unit (s := S4x4) ![a.val, b.val] S1x1.size (semOf_inb a b))).squeeze S_ squeezes_S1x1_S_).sem

/-- Send cell of the partial-product copy to the device `d` places on, piece `ch`; its receive cell on the target is
    `rsR` at slab `4 − d`. Likewise `agS` / `agR` for the finished pieces. -/
abbrev rsS (c : Dev nD) (d ch : Fin 4) : GSem nD τ sig := ((c : Thread nD τ), .dma (semOf cc0_scratch2 d ch))
abbrev rsR (c : Dev nD) (k ch : Fin 4) : GSem nD τ sig := ((c : Thread nD τ), .dma (semOf cc0_scratch3 k ch))
abbrev agS (c : Dev nD) (d ch : Fin 4) : GSem nD τ sig := ((c : Thread nD τ), .dma (semOf cc0_scratch4 d ch))
abbrev agR (c : Dev nD) (k ch : Fin 4) : GSem nD τ sig := ((c : Thread nD τ), .dma (semOf cc0_scratch5 k ch))

/-- Which array, row and column a scratch DMA semaphore is (the three staging semaphores come first). -/
def arrOf (q : DmaSem sig) : ℕ := (q.val - 3) / 16
def rowOf (q : DmaSem sig) : ℕ := (q.val - 3) % 16 / 4
def colOf (q : DmaSem sig) : ℕ := (q.val - 3) % 4

theorem rowLt (n : ℕ) : n % 16 / 4 % 4 < 4 := Nat.mod_lt _ (by decide)

/-- The credit of one 32×512 piece, on the receive buffer / partial product and on the result. -/
abbrev Nr : ℕ := sig.dmaCredit .tc (Kind.table .tc .vmem) (rM : Memref sig .tc .vmem S4x128x512 .bf16).view.buf S32x512 .bf16
abbrev No : ℕ := sig.dmaCredit .tc (Kind.table .tc .vmem) (oM : Memref sig .tc .vmem S512x512 .bf16).view.buf S32x512 .bf16
theorem Nr_pos : 0 < Nr := sig.dmaCredit_pos _ _ _ _ _ (by decide)
theorem No_pos : 0 < No := sig.dmaCredit_pos _ _ _ _ _ (by decide)

/-! ## The schedule -/

/-- What the device `d` places BEFORE `c` (it signals `c` with offset `d`) hands `c` at entry: the four pieces of
    slab `d` of its receive buffer and the four pieces of `c`'s rows of its result, all to be written by `c`. -/
def barPay (c : Dev nD) (d : Fin 4) : sProp 𝕄 :=
  iprop((∃ f, pts (rsDst d 0) (pl c (4 - d.val)) f) ∗ (∃ f, pts (rsDst d 1) (pl c (4 - d.val)) f) ∗ (∃ f, pts (rsDst d 2) (pl c (4 - d.val)) f) ∗ (∃ f, pts (rsDst d 3) (pl c (4 - d.val)) f)
    ∗ (∃ f, pts (outSl c 0) (pl c (4 - d.val)) f) ∗ (∃ f, pts (outSl c 1) (pl c (4 - d.val)) f) ∗ (∃ f, pts (outSl c 2) (pl c (4 - d.val)) f) ∗ (∃ f, pts (outSl c 3) (pl c (4 - d.val)) f))

/-- A finished piece goes to three devices at once, each copy reading a third of the piece's share: the copies to the
    devices 2, 1 and 3 places on (the program's order) read the left half, the right half's left and its right. -/
def agShare (a : ℕ) : PosShare TreeShare := if a = 2 then fullShare.left else if a = 1 then fullShare.right.left else fullShare.right.right

/-- What a copy's completion hands the cell's owner: on a send cell the source piece back, on a receive cell the
    written piece at its final contents. -/
def dmaPay (c : Dev nD) (A a b : ℕ) : sProp 𝕄 :=
  if A = 0 then pts (rsSrc c ⟨(a + 2) % 3, Nat.mod_lt _ (by decide)⟩ ⟨b % 4, Nat.mod_lt _ (by decide)⟩) c (Pblk m c)
  else if A = 1 then pts (rsDst ⟨a % 4, Nat.mod_lt _ (by decide)⟩ ⟨b % 4, Nat.mod_lt _ (by decide)⟩) c (RSfun m c)
  else if A = 2 then ((outSl c ⟨b % 4, Nat.mod_lt _ (by decide)⟩).view.loc (c : Thread nD τ) ↦[(outSl c ⟨b % 4, Nat.mod_lt _ (by decide)⟩).view.set]{agShare a} OUT m)
  else pts (outSl (pl c a) ⟨b % 4, Nat.mod_lt _ (by decide)⟩) c (OUT m)

def Rd : Rounds.Schedule (GSem nD τ sig) (Fin 4) 𝕄 where
  duties g r := if r = 0 ∧ g.1.2 = .tc then
      (match g.2 with
        | .reg s => if s = barS then {1, 2, 3} else ∅
        | .dma q => if 3 ≤ q.val ∧ rowOf q ≠ 0 then {0} else ∅)
    else ∅
  unitless _ := False
  amount g _ _ := match g.2 with
    | .reg _ => 1
    | .dma q => if arrOf q < 2 then Nr else No
  payload g _ d := match g.2 with
    | .reg _ => barPay g.1.1 d
    | .dma q => dmaPay m g.1.1 (arrOf q) (rowOf q) (colOf q)
  amount_pos g _ _ _ := by
    cases g.2 with
    | reg _ => exact Nat.one_pos
    | dma q => dsimp only; split; exact Nr_pos; exact No_pos

instance Rd_payload_storable (g : GSem nD τ sig) (r : ℕ) (d : Fin 4) : BI.Storable (upEmb : UEmb _ 𝕄) ((Rd m).payload g r d) := by
  show BI.Storable upEmb (match g.2 with | .reg _ => barPay g.1.1 d | .dma q => dmaPay m g.1.1 (arrOf q) (rowOf q) (colOf q))
  cases g.2 with
  | reg _ => dsimp only; unfold barPay; infer_instance
  | dma q => dsimp only; unfold dmaPay; (repeat' split) <;> infer_instance

end Cert.Kernel.Hand

end
-- ==== Proof.KernelState.lean ====
/-
  What a device holds when its kernel body starts and when it ends, what it owes the other devices at launch,
  and the levels that order the waits: the barrier below the partial-product receives, those below the
  finished-piece receives; sends and staging at the bottom.
-/
import proofs.«900554_g7700000000000555_dist_matmul_gelu_kshard_i_m512_n512_k256_v7x_i4_bf16_1_alg».proof.Proof.KernelProto

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells of one device, numbered: 0 the barrier, `1 + i` the scratch DMA semaphore `3 + i` -/

theorem csem_lt (j : Fin 65) : j.val + 2 < 67 := by omega
def csem (j : Fin 65) : SemLoc sig := if j.val = 0 then .reg barS else .dma ⟨j.val + 2, csem_lt j⟩
abbrev kcell (ck : Dev nD × Fin 65) : GSem nD τ sig := ((ck.1 : Thread nD τ), csem ck.2)
/-- The number of entry `(a, b)` of array `A` (0 the partial-product sends, 1 their receives, 2 the finished-piece
    sends, 3 their receives). -/
def jOf (A a b : Fin 4) : Fin 65 := ⟨1 + 16 * A.val + 4 * a.val + b.val, by omega⟩

/-! ## What each device owes at launch, in the order it pays -/

/-- The cells device `c` pays and the amounts, in program order: the three entry signals, the twelve partial-product
    copies (piece by piece, to the devices 2, 1, 3 places on), the twelve finished-piece copies. -/
def payList (c : Dev nD) : List (GSem nD τ sig × ℕ) :=
  [(barCell (pl c 1), 1),
   (barCell (pl c 2), 1),
   (barCell (pl c 3), 1),
   (rsR (pl c 2) 2 0, Nr),
   (rsR (pl c 1) 3 0, Nr),
   (rsR (pl c 3) 1 0, Nr),
   (rsR (pl c 2) 2 1, Nr),
   (rsR (pl c 1) 3 1, Nr),
   (rsR (pl c 3) 1 1, Nr),
   (rsR (pl c 2) 2 2, Nr),
   (rsR (pl c 1) 3 2, Nr),
   (rsR (pl c 3) 1 2, Nr),
   (rsR (pl c 2) 2 3, Nr),
   (rsR (pl c 1) 3 3, Nr),
   (rsR (pl c 3) 1 3, Nr),
   (agR (pl c 2) 2 0, No),
   (agR (pl c 1) 3 0, No),
   (agR (pl c 3) 1 0, No),
   (agR (pl c 2) 2 1, No),
   (agR (pl c 1) 3 1, No),
   (agR (pl c 3) 1 1, No),
   (agR (pl c 2) 2 2, No),
   (agR (pl c 1) 3 2, No),
   (agR (pl c 3) 1 2, No),
   (agR (pl c 2) 2 3, No),
   (agR (pl c 1) 3 3, No),
   (agR (pl c 3) 1 3, No)]

/-- What is still owed once the first `k` payments are made; paying the next peels the outermost summand. -/
def owedFrom (c : Dev nD) (k : ℕ) : CellTallies nD τ sig Unit :=
  ((payList c).drop k).foldr (fun p acc => acc + tallyAt p.1 () p.2) 0

def O₀ (c : Dev nD) : CellTallies nD τ sig Unit := owedFrom c 0

def L (g : GSem nD τ sig) : Finset Unit := if g.1.2 = .tc then {()} else ∅
/-- The barrier at 1, the partial-product receives at 2, the finished-piece receives at 3, everything else at 0. -/
def lv (g : GSem nD τ sig) (_ : Unit) : ℕ := match g.2 with
  | .reg _ => 1
  | .dma q => if 3 ≤ q.val ∧ arrOf q = 1 then 2 else if 3 ≤ q.val ∧ arrOf q = 3 then 3 else 0

/-! ## The ghost state -/

/-- Every cell's invariant at the names the launch allocated, and that round 0 of every cell is reached. -/
def records (K : Dev nD × Fin 65 → ℕ) : sProp 𝕄 :=
  iprop((bigSep Finset.univ fun ck : Dev nD × Fin 65 => cellInv ER (Rd m) (K ck) (kcell ck))
    ∗ bigSep Finset.univ fun ck : Dev nD × Fin 65 => reached ER (kcell ck) 0)

instance records_persistent (K : Dev nD × Fin 65 → ℕ) : BI.Persistent (records m K) := by unfold records; infer_instance

/-- The device's positions on its own sixty-five cells. -/
def positions (c : Dev nD) : sProp 𝕄 := bigSep Finset.univ fun j : Fin 65 => atPos ER (kcell (c, j)) 0 ∅ 0

/-- The tokens of the duties device `c` pays: its three entry signals; per copy its own send cell's and the target's
    receive cell's. -/
def payToks (c : Dev nD) : sProp 𝕄 :=
  iprop((dutyTok ER (barCell (pl c 1)) 0 1 ∗ dutyTok ER (barCell (pl c 2)) 0 2 ∗ dutyTok ER (barCell (pl c 3)) 0 3)
    ∗ bigSep Finset.univ fun x : Fin 3 × Fin 4 =>
        iprop(dutyTok ER (rsS c x.1.succ x.2) 0 0 ∗ dutyTok ER (rsR (pl c (x.1.val + 1)) x.1.rev.succ x.2) 0 0
          ∗ dutyTok ER (agS c x.1.succ x.2) 0 0 ∗ dutyTok ER (agR (pl c (x.1.val + 1)) x.1.rev.succ x.2) 0 0))

def ghost (K : Dev nD × Fin 65 → ℕ) (c : Dev nD) : sProp 𝕄 := iprop(records m K ∗ positions c ∗ payToks c)

/-- The credit a device is dealt at launch for what the others owe its cells. -/
def creds (c : Dev nD) : sProp 𝕄 :=
  iprop(cred (tallyAt (barCell c) () 3)
    ∗ bigSep Finset.univ fun x : Fin 3 × Fin 4 => iprop(cred (tallyAt (rsR c x.1.succ x.2) () Nr) ∗ cred (tallyAt (agR c x.1.succ x.2) () No)))

def start (c : Dev nD) : sProp 𝕄 := iprop((∃ K, ghost m K c) ∗ creds c ∗ levAts L lv)

/-- Before the body: that, and the two scratch buffers at some contents. -/
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- After it: the scratch buffers again, and the sixty-four scratch semaphores at zero, closed. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ bigSep Finset.univ fun j : Fin 64 => semVal (kcell (c, j.succ)) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => Ablk m c
    | ⟨1, _⟩ => Bblk m c
    | ⟨2, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.Hand

end
-- ==== Proof.KernelPieces.lean ====
/-
  The pieces of the three buffers that the copies of the sharded matmul move, by coordinates.

  The receive buffer and the partial product are four slabs of 128 rows, each cut into four pieces of 32 rows; the
  result is 512 rows, cut into sixteen pieces of 32 rows. An element lies in a piece when its slab is the piece's slab
  and its row is among the piece's 32 rows (for the result: when its row is among the piece's 32 rows). Different
  pieces share no element, and the sixteen pieces of the result cover it.
-/
import proofs.«900554_g7700000000000555_dist_matmul_gelu_kshard_i_m512_n512_k256_v7x_i4_bf16_1_alg».proof.Proof.KernelProto
import Idealize.ShloMosaic.Lib.ValueLayout

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Which elements a piece holds -/

/-- The source offsets in closed form: slab `c + r + 1` round the ring, rows from `32·ch`. -/
theorem srcOff_eq (c : Dev nD) (r : Fin 3) (ch : Fin 4) :
    srcOff c r ch = ![(c.val + r.val + 1) % 4, 32 * ch.val, 0] := by
  have h : ∀ ch : Fin 4, ch = 0 ∨ ch = 1 ∨ ch = 2 ∨ ch = 3 := by decide
  rcases h ch with rfl | rfl | rfl | rfl
  · exact k0_off1_eq c r
  · exact k0_off2_eq c r
  · exact k0_off3_eq c r
  · exact k0_off4_eq c r

/-- Piece `ch` of slab `k` of the receive buffer: slab `k`, rows `32·ch … 32·ch + 31`, every column. -/
theorem mem_rsDst (k ch : Fin 4) (i : S4x128x512.Idx) :
    i ∈ (rsDst k ch).view.set ↔ (i 0).val = k.val ∧ 32 * ch.val ≤ (i 1).val ∧ (i 1).val < 32 * ch.val + 32 := by
  simp only [Memref.view_squeeze, Memref.view_slice, Memref.view_whole, View.set_reshape, View.set_slice_whole, Rect.mem_set_unit]
  constructor
  · intro h
    have h0 : k.val ≤ (i 0).val ∧ (i 0).val < k.val + 1 := h 0
    have h1 : 32 * ch.val ≤ (i 1).val ∧ (i 1).val < 32 * ch.val + 32 := h 1
    exact ⟨by omega, h1.1, h1.2⟩
  · rintro ⟨h0, h1, h2⟩ a
    match a with
    | ⟨0, _⟩ => exact (show k.val ≤ (i 0).val ∧ (i 0).val < k.val + 1 from ⟨by omega, by omega⟩)
    | ⟨1, _⟩ => exact (show 32 * ch.val ≤ (i 1).val ∧ (i 1).val < 32 * ch.val + 32 from ⟨h1, h2⟩)
    | ⟨2, _⟩ => exact (show 0 ≤ (i 2).val ∧ (i 2).val < 0 + 512 from ⟨Nat.zero_le _, by have h : (i 2).val < 512 := (i 2).isLt; omega⟩)

/-- Piece `ch` of the slab of the partial product that goes `r + 1` places on: slab `c + r + 1` round the ring. -/
theorem mem_rsSrc (c : Dev nD) (r : Fin 3) (ch : Fin 4) (i : S4x128x512.Idx) :
    i ∈ (rsSrc c r ch).view.set
      ↔ (i 0).val = (c.val + r.val + 1) % 4 ∧ 32 * ch.val ≤ (i 1).val ∧ (i 1).val < 32 * ch.val + 32 := by
  simp only [Memref.view_squeeze, Memref.view_slice, Memref.view_whole, View.set_reshape, View.set_slice_whole, Rect.mem_set_unit]
  rw [srcOff_eq]
  constructor
  · intro h
    have h0 : (c.val + r.val + 1) % 4 ≤ (i 0).val ∧ (i 0).val < (c.val + r.val + 1) % 4 + 1 := h 0
    have h1 : 32 * ch.val ≤ (i 1).val ∧ (i 1).val < 32 * ch.val + 32 := h 1
    exact ⟨by omega, h1.1, h1.2⟩
  · rintro ⟨h0, h1, h2⟩ a
    match a with
    | ⟨0, _⟩ => exact (show (c.val + r.val + 1) % 4 ≤ (i 0).val ∧ (i 0).val < (c.val + r.val + 1) % 4 + 1 from ⟨by omega, by omega⟩)
    | ⟨1, _⟩ => exact (show 32 * ch.val ≤ (i 1).val ∧ (i 1).val < 32 * ch.val + 32 from ⟨h1, h2⟩)
    | ⟨2, _⟩ => exact (show 0 ≤ (i 2).val ∧ (i 2).val < 0 + 512 from ⟨Nat.zero_le _, by have h : (i 2).val < 512 := (i 2).isLt; omega⟩)

/-- Piece `ch` of device `s`'s rows of the result: rows `128·s + 32·ch … + 31`, every column. -/
theorem mem_outSl (s : Dev nD) (ch : Fin 4) (i : S512x512.Idx) :
    i ∈ (outSl s ch).view.set
      ↔ 128 * s.val + 32 * ch.val ≤ (i 0).val ∧ (i 0).val < 128 * s.val + 32 * ch.val + 32 := by
  simp only [Memref.view_slice, Memref.view_whole, View.set_slice_whole, Rect.mem_set_unit]
  rw [k0_off6_eq s ch]
  constructor
  · intro h
    have h0 : 128 * s.val + 32 * ch.val ≤ (i 0).val ∧ (i 0).val < 128 * s.val + 32 * ch.val + 32 := h 0
    exact h0
  · rintro ⟨h0, h1⟩ a
    match a with
    | ⟨0, _⟩ => exact (show 128 * s.val + 32 * ch.val ≤ (i 0).val ∧ (i 0).val < 128 * s.val + 32 * ch.val + 32 from ⟨h0, h1⟩)
    | ⟨1, _⟩ => exact (show 0 ≤ (i 1).val ∧ (i 1).val < 0 + 512 from ⟨Nat.zero_le _, by have h : (i 1).val < 512 := (i 1).isLt; omega⟩)

/-! ## Different pieces share no element; the result's pieces cover it -/

theorem rsDst_disjoint (k ch k' ch' : Fin 4) (h : k ≠ k' ∨ ch ≠ ch') :
    Disjoint (rsDst k ch).view.set (rsDst k' ch').view.set := by
  rw [Finset.disjoint_left]
  intro i h1 h2
  have h1 := (mem_rsDst k ch i).mp h1
  have h2 := (mem_rsDst k' ch' i).mp h2
  rcases h with h | h
  · exact h (Fin.ext (by omega))
  · exact h (Fin.ext (by omega))

theorem rsSrc_disjoint (c : Dev nD) (r r' : Fin 3) (ch ch' : Fin 4) (h : r ≠ r' ∨ ch ≠ ch') :
    Disjoint (rsSrc c r ch).view.set (rsSrc c r' ch').view.set := by
  rw [Finset.disjoint_left]
  intro i h1 h2
  have h1 := (mem_rsSrc c r ch i).mp h1
  have h2 := (mem_rsSrc c r' ch' i).mp h2
  have hr := r.isLt
  have hr' := r'.isLt
  rcases h with h | h
  · exact h (Fin.ext (by omega))
  · exact h (Fin.ext (by omega))

theorem outSl_disjoint (s s' : Dev nD) (ch ch' : Fin 4) (h : s ≠ s' ∨ ch ≠ ch') :
    Disjoint (outSl s ch).view.set (outSl s' ch').view.set := by
  rw [Finset.disjoint_left]
  intro i h1 h2
  have h1 := (mem_outSl s ch i).mp h1
  have h2 := (mem_outSl s' ch' i).mp h2
  have hc := ch.isLt
  have hc' := ch'.isLt
  rcases h with h | h
  · exact h (Fin.ext (by omega))
  · exact h (Fin.ext (by omega))

/-- The piece of the result that holds row `p`: device `p / 128`, -/
def devOfRow (p : Fin 512) : Dev nD := ⟨p.val / 128, by have h := p.isLt; show _ < 4; omega⟩
/-- piece `p % 128 / 32`. -/
def pieceOfRow (p : Fin 512) : Fin 4 := ⟨p.val % 128 / 32, by omega⟩

theorem mem_outSl_of_row (i : S512x512.Idx) : i ∈ (outSl (devOfRow (i 0)) (pieceOfRow (i 0))).view.set := by
  rw [mem_outSl]
  show 128 * ((i 0).val / 128) + 32 * ((i 0).val % 128 / 32) ≤ (i 0).val
    ∧ (i 0).val < 128 * ((i 0).val / 128) + 32 * ((i 0).val % 128 / 32) + 32
  omega

/-- Every element of the result lies in exactly one of the sixteen pieces. -/
theorem outSl_cover (i : S512x512.Idx) : ∃! p : Dev nD × Fin 4, i ∈ (outSl p.1 p.2).view.set := by
  refine ⟨(devOfRow (i 0), pieceOfRow (i 0)), mem_outSl_of_row i, ?_⟩
  rintro ⟨s, ch⟩ h
  have h := (mem_outSl s ch i).mp h
  have hc := ch.isLt
  exact Prod.ext (Fin.ext (by show s.val = (i 0).val / 128; omega)) (Fin.ext (by show ch.val = (i 0).val % 128 / 32; omega))

/-! ## Where a piece's index sits in its buffer -/

/-- Index (x, y) of piece `ch` of slab `k` of the receive buffer is row `32·ch + x`, column `y` of slab `k`. -/
theorem emb_rsDst (k ch : Fin 4) (x : Fin 32) (y : Fin 512) :
    (rsDst k ch).view.emb (ValueIdx.ix2 x y)
      = (ValueIdx.ix3 k (⟨32 * ch.val + x.val, by have := ch.isLt; have := x.isLt; omega⟩ : Fin 128) y : S4x128x512.Idx) := by
  show (Rect.unit (s := S4x128x512) ![k.val, 32 * ch.val, 0] S1x32x512.size (rsDst_inb k ch)).emb
    (Shape.reshapeEquiv squeezes_S1x32x512_S32x512.numel_eq (ValueIdx.ix2 x y)) = _
  rw [ValueIdx.reshapeEquiv_ix2_1ab]
  funext a
  apply Fin.ext
  match a with
  | ⟨0, _⟩ => show k.val + 1 * 0 = k.val; omega
  | ⟨1, _⟩ => show 32 * ch.val + 1 * x.val = 32 * ch.val + x.val; omega
  | ⟨2, _⟩ => show 0 + 1 * y.val = y.val; omega

/-- The same for the piece of the partial product that goes `r + 1` places on: slab `c + r + 1` round the ring. -/
theorem emb_rsSrc (c : Dev nD) (r : Fin 3) (ch : Fin 4) (x : Fin 32) (y : Fin 512) :
    (rsSrc c r ch).view.emb (ValueIdx.ix2 x y)
      = (ValueIdx.ix3 (pl c (r.val + 1)) (⟨32 * ch.val + x.val, by have := ch.isLt; have := x.isLt; omega⟩ : Fin 128) y : S4x128x512.Idx) := by
  show (Rect.unit (s := S4x128x512) (srcOff c r ch) S1x32x512.size (srcOff_inb c r ch)).emb
    (Shape.reshapeEquiv squeezes_S1x32x512_S32x512.numel_eq (ValueIdx.ix2 x y)) = _
  rw [ValueIdx.reshapeEquiv_ix2_1ab]
  funext a
  apply Fin.ext
  show srcOff c r ch a + 1 * ((ValueIdx.ix3 (⟨0, Nat.one_pos⟩ : Fin 1) x y : S1x32x512.Idx) a).val = _
  rw [srcOff_eq]
  match a with
  | ⟨0, _⟩ => show (c.val + r.val + 1) % 4 + 1 * 0 = (c.val + (r.val + 1)) % 4; omega
  | ⟨1, _⟩ => show 32 * ch.val + 1 * x.val = 32 * ch.val + x.val; omega
  | ⟨2, _⟩ => show 0 + 1 * y.val = y.val; omega

/-- Index (x, y) of piece `ch` of device `s`'s rows of the result is row `128·s + 32·ch + x`, column `y`. -/
theorem emb_outSl (s : Dev nD) (ch : Fin 4) (x : Fin 32) (y : Fin 512) :
    (outSl s ch).view.emb (ValueIdx.ix2 x y)
      = (ValueIdx.ix2 (⟨128 * s.val + 32 * ch.val + x.val, by have hs : s.val < 4 := s.isLt; have := ch.isLt; have := x.isLt; omega⟩ : Fin 512) y : S512x512.Idx) := by
  funext a
  apply Fin.ext
  show k0_off6 s (BitVec.ofNat 32 (32 * ch.val)) a + 1 * ((ValueIdx.ix2 x y : S32x512.Idx) a).val = _
  rw [k0_off6_eq s ch]
  match a with
  | ⟨0, _⟩ => show 128 * s.val + 32 * ch.val + 1 * x.val = 128 * s.val + 32 * ch.val + x.val; omega
  | ⟨1, _⟩ => show 0 + 1 * y.val = y.val; omega

/-! ## What a copy leaves on its piece -/

/-- Device `c` sends piece `ch` of slab `c + d` of its partial product, `d = r + 1`, into slab `4 − d` of the receive buffer of
    the device `d` places on. That device's receive buffer is to hold, in slab `k`, its own slab of the partial product
    of the device `k` places after it; `4 − d` places after the receiver is the sender, so the piece lands at its final
    contents. -/
theorem rs_landed (m : (ℓ : Loc nD τ sig) → Buf (Elt F) ℓ) (c : Dev nD) (r : Fin 3) (ch : Fin 4)
    (fd : Vec F S4x128x512 .bf16) :
    ∀ i ∈ (rsDst r.rev.succ ch).view.set,
      ((rsDst r.rev.succ ch).view.write (Elt F) fd ((rsSrc c r ch).view.read (Elt F) (Pblk m c)) Finset.univ) i
        = RSfun m (pl c (r.val + 1)) i := by
  intro i hi
  have hi' := (mem_rsDst r.rev.succ ch i).mp hi
  have hk : (r.rev.succ : Fin 4).val = 3 - r.val := by
    rw [Fin.val_succ, Fin.val_rev]; have := r.isLt; omega
  have hc := ch.isLt
  have h2 : (i 2).val < 512 := (i 2).isLt
  obtain ⟨x, y, rfl⟩ : ∃ (x : Fin 32) (y : Fin 512), i = (rsDst r.rev.succ ch).view.emb (ValueIdx.ix2 x y) := by
    refine ⟨⟨(i 1).val - 32 * ch.val, by omega⟩, ⟨(i 2).val, h2⟩, ?_⟩
    rw [emb_rsDst]
    funext a
    apply Fin.ext
    match a with
    | ⟨0, _⟩ => exact hi'.1
    | ⟨1, _⟩ => show (i 1).val = 32 * ch.val + ((i 1).val - 32 * ch.val); omega
    | ⟨2, _⟩ => rfl
  rw [View.write_emb_of_mem _ _ (Finset.mem_univ _), View.read_apply, emb_rsSrc, emb_rsDst]
  simp only [cast_cast, cast_eq]
  show Pblk m c _ = Pblk m (pl (pl c (r.val + 1)) (r.rev.succ : Fin 4).val) _
  have hpl : pl (pl c (r.val + 1)) (r.rev.succ : Fin 4).val = c := Fin.ext (by
    show ((c.val + (r.val + 1)) % 4 + (r.rev.succ : Fin 4).val) % 4 = c.val
    have hc4 : c.val < 4 := c.isLt; have := r.isLt; omega)
  rw [hpl]

/-- The finished piece `ch` of device `s`'s rows, copied from a device's result buffer that holds the final result there,
    lands at the final result. -/
theorem ag_landed (m : (ℓ : Loc nD τ sig) → Buf (Elt F) ℓ) (s : Dev nD) (ch : Fin 4) (fd : Vec F S512x512 .bf16) :
    ∀ i ∈ (outSl s ch).view.set,
      ((outSl s ch).view.write (Elt F) fd ((outSl s ch).view.read (Elt F) (OUT m)) Finset.univ) i = OUT m i := by
  intro i hi
  have hi' := (mem_outSl s ch i).mp hi
  have h1 : (i 1).val < 512 := (i 1).isLt
  obtain ⟨x, y, rfl⟩ : ∃ (x : Fin 32) (y : Fin 512), i = (outSl s ch).view.emb (ValueIdx.ix2 x y) := by
    refine ⟨⟨(i 0).val - (128 * s.val + 32 * ch.val), by omega⟩, ⟨(i 1).val, h1⟩, ?_⟩
    rw [emb_outSl]
    funext a
    apply Fin.ext
    match a with
    | ⟨0, _⟩ => show (i 0).val = 128 * s.val + 32 * ch.val + ((i 0).val - (128 * s.val + 32 * ch.val)); omega
    | ⟨1, _⟩ => rfl
  rw [View.write_emb_of_mem _ _ (Finset.mem_univ _), View.read_apply]
  simp only [cast_cast, cast_eq]

/-- The same two as equalities of assertions: owning the written piece is owning it at its final contents. -/
theorem rs_landed_pts (m : (ℓ : Loc nD τ sig) → Buf (Elt F) ℓ) (c : Dev nD) (r : Fin 3) (ch : Fin 4)
    (fd : Vec F S4x128x512 .bf16) :
    pts (F := F) (rsDst r.rev.succ ch) (pl c (r.val + 1))
        ((rsDst r.rev.succ ch).view.write (Elt F) fd ((rsSrc c r ch).view.read (Elt F) (Pblk m c)) Finset.univ)
      = pts (F := F) (rsDst r.rev.succ ch) (pl c (r.val + 1)) (RSfun m (pl c (r.val + 1))) := by
  unfold pts
  exact BI.Region.is_congr (rs_landed m c r ch fd)

theorem ag_landed_pts (m : (ℓ : Loc nD τ sig) → Buf (Elt F) ℓ) (s c' : Dev nD) (ch : Fin 4) (fd : Vec F S512x512 .bf16) :
    pts (F := F) (outSl s ch) c' ((outSl s ch).view.write (Elt F) fd ((outSl s ch).view.read (Elt F) (OUT m)) Finset.univ)
      = pts (F := F) (outSl s ch) c' (OUT m) := by
  unfold pts
  exact BI.Region.is_congr (ag_landed m s ch fd)

/-! ## Cutting a whole buffer into pieces and putting it back

Each of the three buffers is cut by a KEY: a function of the element's index that names its piece (for the result the
device whose rows it is and the 32-row piece; for the two slab buffers the slab and the 32-row piece). A piece is the
elements of one key; pieces of different keys share no element, and the elements whose keys are on a list without
repetition are owned exactly when each key's piece is. -/

section Keys

local notation "𝕄" => MT nD τ sig Unit (Elt F) ℕ UU ℕ

/-- A right-nested chain of assertions. -/
def sepChain : List (sProp 𝕄) → sProp 𝕄
  | [] => iprop(emp)
  | P :: L => match L with
    | [] => P
    | _ :: _ => iprop(P ∗ sepChain L)

theorem sepChain_nil : sepChain (F := F) [] = iprop(emp) := by simp only [sepChain]
theorem sepChain_one (P : sProp 𝕄) : sepChain (F := F) [P] = P := by simp only [sepChain]
theorem sepChain_cons₂ (P Q : sProp 𝕄) (L : List (sProp 𝕄)) :
    sepChain (F := F) (P :: Q :: L) = iprop(P ∗ sepChain (F := F) (Q :: L)) := by
  conv_lhs => unfold sepChain

theorem sepChain_cons (P : sProp 𝕄) (L : List (sProp 𝕄)) : sepChain (F := F) (P :: L) = iprop(P ∗ sepChain (F := F) L) := by
  cases L with
  | nil =>
    rw [sepChain_one, sepChain_nil]
    exact (BI.equiv_iff.mp ⟨(Laws.sep_emp (P := P)).1, (Laws.sep_emp (P := P)).2⟩).symm
  | cons Q L => exact sepChain_cons₂ P Q L

theorem sepChain_snoc (R : sProp 𝕄) : ∀ L : List (sProp 𝕄), sepChain (F := F) (L ++ [R]) = iprop(sepChain (F := F) L ∗ R)
  | [] => by
    rw [List.nil_append, sepChain_one, sepChain_nil]
    exact (BI.equiv_iff.mp ⟨(BIClass.emp_sep (P := R)).1, (BIClass.emp_sep (P := R)).2⟩).symm
  | P :: L => by
    rw [List.cons_append, sepChain_cons, sepChain_cons, sepChain_snoc R L]
    exact (BI.equiv_iff.mp ⟨(Laws.sep_assoc (P := P) (Q := sepChain (F := F) L) (R := R)).1, (Laws.sep_assoc (P := P) (Q := sepChain (F := F) L) (R := R)).2⟩).symm

variable {ℓ : Loc nD τ sig} {κ : Type} [DecidableEq κ]

/-- The elements of key `k`, -/
def keySet (key : Idx ℓ → κ) (k : κ) : Finset (Idx ℓ) := Finset.univ.filter fun i => key i = k
/-- and those whose key is on the list. -/
def keysSet (key : Idx ℓ → κ) (ks : List κ) : Finset (Idx ℓ) := Finset.univ.filter fun i => key i ∈ ks

theorem mem_keySet (key : Idx ℓ → κ) (k : κ) (i : Idx ℓ) : i ∈ keySet key k ↔ key i = k := by
  simp only [keySet, Finset.mem_filter, Finset.mem_univ, true_and]
theorem mem_keysSet (key : Idx ℓ → κ) (ks : List κ) (i : Idx ℓ) : i ∈ keysSet key ks ↔ key i ∈ ks := by
  simp only [keysSet, Finset.mem_filter, Finset.mem_univ, true_and]

/-- Owning every listed key's piece, piece `k` at contents `gs k`, is owning the listed elements at the contents that is
    `gs k` on piece `k`. -/
theorem pts_keys (key : Idx ℓ → κ) (gs : κ → Buf (Elt F) ℓ) (q : PosShare TreeShare) : ∀ ks : List κ, ks.Nodup →
    sepChain (F := F) (ks.map fun k => (ℓ ↦[keySet key k]{q} gs k : sProp 𝕄))
      = (ℓ ↦[keysSet key ks]{q} (fun i => gs (key i) i) : sProp 𝕄)
  | [], _ => by
    have he : keysSet key ([] : List κ) = ∅ := by
      ext i; rw [mem_keysSet]; simp only [List.not_mem_nil, Finset.notMem_empty]
    rw [he, pointsTo_empty, List.map_nil, sepChain_nil]
  | k :: ks, h => by
    rw [List.map_cons, sepChain_cons, pts_keys key gs q ks (List.nodup_cons.mp h).2]
    have hd : Disjoint (keySet key k) (keysSet key ks) := by
      rw [Finset.disjoint_left]
      intro i h1 h2
      rw [mem_keySet] at h1
      rw [mem_keysSet] at h2
      exact (List.nodup_cons.mp h).1 (h1 ▸ h2)
    have hu : keysSet key (k :: ks) = keySet key k ∪ keysSet key ks := by
      ext i
      rw [Finset.mem_union, mem_keysSet, mem_keysSet, mem_keySet, List.mem_cons]
    have hU := pointsTo_union (Val := Elt F) (Ix := Unit) (Name := ℕ) (U := UU) (Lvl := ℕ) (ℓ := ℓ) (q := q) (f := fun i => gs (key i) i) hd
    rw [hu, BI.equiv_iff.mp ⟨hU.1, hU.2⟩]
    congr 1
    exact pointsTo_congr fun i hi => by rw [(mem_keySet key k i).mp hi]

/-- All at one contents. -/
theorem pts_keys_one (key : Idx ℓ → κ) (f : Buf (Elt F) ℓ) (q : PosShare TreeShare) (ks : List κ) (h : ks.Nodup) :
    sepChain (F := F) (ks.map fun k => (ℓ ↦[keySet key k]{q} f : sProp 𝕄)) = (ℓ ↦[keysSet key ks]{q} f : sProp 𝕄) :=
  pts_keys key (fun _ => f) q ks h

end Keys

/-! ## The result's buffer: sixteen pieces, no rest -/

section Out

local notation "𝕄" => MT nD τ sig Unit (Elt F) ℕ UU ℕ

/-- The result's staging buffer on device `c`. -/
abbrev outLoc (c : Dev nD) : Loc nD τ sig := (c : Thread nD τ).loc cc0_stg2_0

/-- The piece an element of the result lies in: the device whose rows, and the 32-row piece. -/
def outKey (c : Dev nD) : Idx (outLoc c) → Dev nD × Fin 4 :=
  fun i => (devOfRow ((i : S512x512.Idx) 0), pieceOfRow ((i : S512x512.Idx) 0))

theorem outSl_set (c s : Dev nD) (ch : Fin 4) : (outSl s ch).view.set = keySet (outKey c) (s, ch) := by
  ext i
  rw [mem_keySet]
  refine (mem_outSl s ch i).trans ?_
  have hc := ch.isLt
  have h0 : ((i : S512x512.Idx) 0).val < 512 := ((i : S512x512.Idx) 0).isLt
  constructor
  · intro h
    exact Prod.ext (Fin.ext (by show ((i : S512x512.Idx) 0).val / 128 = s.val; omega))
      (Fin.ext (by show ((i : S512x512.Idx) 0).val % 128 / 32 = ch.val; omega))
  · intro h
    have h1 : ((i : S512x512.Idx) 0).val / 128 = s.val := congrArg (fun p : Dev nD × Fin 4 => p.1.val) h
    have h2 : ((i : S512x512.Idx) 0).val % 128 / 32 = ch.val := congrArg (fun p : Dev nD × Fin 4 => p.2.val) h
    omega

theorem pts_outSl (c s : Dev nD) (ch : Fin 4) (f : Buf (Elt F) (outLoc c)) :
    pts (F := F) (outSl s ch) c f = (outLoc c ↦[keySet (outKey c) (s, ch)]{fullShare} f : sProp 𝕄) := by
  show (outLoc c ↦[(outSl s ch).view.set]{fullShare} f : sProp 𝕄) = _
  rw [outSl_set c s ch]

/-- Device `c`'s own rows first, then those of the devices one, two and three places on. -/
def outKeys (c : Dev nD) : List (Dev nD × Fin 4) := [(c, (0 : Fin 4)), (c, (1 : Fin 4)), (c, (2 : Fin 4)), (c, (3 : Fin 4)), ((pl c 1), (0 : Fin 4)), ((pl c 1), (1 : Fin 4)), ((pl c 1), (2 : Fin 4)), ((pl c 1), (3 : Fin 4)), ((pl c 2), (0 : Fin 4)), ((pl c 2), (1 : Fin 4)), ((pl c 2), (2 : Fin 4)), ((pl c 2), (3 : Fin 4)), ((pl c 3), (0 : Fin 4)), ((pl c 3), (1 : Fin 4)), ((pl c 3), (2 : Fin 4)), ((pl c 3), (3 : Fin 4))]

theorem outKeys_nodup : ∀ c : Dev nD, (outKeys c).Nodup := by decide
theorem outKeys_all : ∀ (c : Dev nD) (p : Dev nD × Fin 4), p ∈ outKeys c := by decide

theorem outKeys_cover (c : Dev nD) : keysSet (outKey c) (outKeys c) = Finset.univ :=
  Finset.eq_univ_iff_forall.mpr fun i => (mem_keysSet _ _ i).mpr (outKeys_all c _)

/-- The whole result buffer of device `c` is its sixteen pieces, all at one contents. -/
theorem split_out_eq (c : Dev nD) (f : Buf (Elt F) (outLoc c)) :
    (outLoc c ↦{fullShare} f : sProp 𝕄) = iprop(
      pts (F := F) (outSl c (0 : Fin 4)) c f
      ∗ pts (F := F) (outSl c (1 : Fin 4)) c f
      ∗ pts (F := F) (outSl c (2 : Fin 4)) c f
      ∗ pts (F := F) (outSl c (3 : Fin 4)) c f
      ∗ pts (F := F) (outSl (pl c 1) (0 : Fin 4)) c f
      ∗ pts (F := F) (outSl (pl c 1) (1 : Fin 4)) c f
      ∗ pts (F := F) (outSl (pl c 1) (2 : Fin 4)) c f
      ∗ pts (F := F) (outSl (pl c 1) (3 : Fin 4)) c f
      ∗ pts (F := F) (outSl (pl c 2) (0 : Fin 4)) c f
      ∗ pts (F := F) (outSl (pl c 2) (1 : Fin 4)) c f
      ∗ pts (F := F) (outSl (pl c 2) (2 : Fin 4)) c f
      ∗ pts (F := F) (outSl (pl c 2) (3 : Fin 4)) c f
      ∗ pts (F := F) (outSl (pl c 3) (0 : Fin 4)) c f
      ∗ pts (F := F) (outSl (pl c 3) (1 : Fin 4)) c f
      ∗ pts (F := F) (outSl (pl c 3) (2 : Fin 4)) c f
      ∗ pts (F := F) (outSl (pl c 3) (3 : Fin 4)) c f) := by
  have key := pts_keys_one (F := F) (outKey c) f fullShare (outKeys c) (outKeys_nodup c)
  rw [outKeys_cover c] at key
  simp only [pts_outSl]
  simp only [outKeys, List.map, sepChain] at key
  exact key.symm

theorem split_out (c : Dev nD) (f : Buf (Elt F) (outLoc c)) :
    (outLoc c ↦{fullShare} f : sProp 𝕄) ⊣⊢ iprop(
      pts (F := F) (outSl c (0 : Fin 4)) c f
      ∗ pts (F := F) (outSl c (1 : Fin 4)) c f
      ∗ pts (F := F) (outSl c (2 : Fin 4)) c f
      ∗ pts (F := F) (outSl c (3 : Fin 4)) c f
      ∗ pts (F := F) (outSl (pl c 1) (0 : Fin 4)) c f
      ∗ pts (F := F) (outSl (pl c 1) (1 : Fin 4)) c f
      ∗ pts (F := F) (outSl (pl c 1) (2 : Fin 4)) c f
      ∗ pts (F := F) (outSl (pl c 1) (3 : Fin 4)) c f
      ∗ pts (F := F) (outSl (pl c 2) (0 : Fin 4)) c f
      ∗ pts (F := F) (outSl (pl c 2) (1 : Fin 4)) c f
      ∗ pts (F := F) (outSl (pl c 2) (2 : Fin 4)) c f
      ∗ pts (F := F) (outSl (pl c 2) (3 : Fin 4)) c f
      ∗ pts (F := F) (outSl (pl c 3) (0 : Fin 4)) c f
      ∗ pts (F := F) (outSl (pl c 3) (1 : Fin 4)) c f
      ∗ pts (F := F) (outSl (pl c 3) (2 : Fin 4)) c f
      ∗ pts (F := F) (outSl (pl c 3) (3 : Fin 4)) c f) :=
  ⟨Entails.of_eq (split_out_eq c f), Entails.of_eq (split_out_eq c f).symm⟩

end Out

/-! ## The two four-slab buffers: twelve pieces and a rest -/

section Slabs

local notation "𝕄" => MT nD τ sig Unit (Elt F) ℕ UU ℕ

/-- The receive buffer and the partial product on device `c`. -/
abbrev rsLoc (c : Dev nD) : Loc nD τ sig := (c : Thread nD τ).loc cc0_scratch1
abbrev pLoc (c : Dev nD) : Loc nD τ sig := (c : Thread nD τ).loc cc0_scratch0

/-- The piece an element of a four-slab buffer lies in: its slab and its 32-row piece. -/
def slabKey (i : S4x128x512.Idx) : Dev nD × Fin 4 :=
  (⟨(i 0).val, (i 0).isLt⟩, ⟨(i 1).val / 32, by have h : (i 1).val < 128 := (i 1).isLt; omega⟩)
def rsKey (c : Dev nD) : Idx (rsLoc c) → Dev nD × Fin 4 := fun i => slabKey i
def pKey (c : Dev nD) : Idx (pLoc c) → Dev nD × Fin 4 := fun i => slabKey i

theorem rsDst_set (c : Dev nD) (k ch : Fin 4) : (rsDst k ch).view.set = keySet (rsKey c) (k, ch) := by
  ext i
  rw [mem_keySet]
  refine (mem_rsDst k ch i).trans ?_
  have hc := ch.isLt
  have h1 : ((i : S4x128x512.Idx) 1).val < 128 := ((i : S4x128x512.Idx) 1).isLt
  constructor
  · intro h
    exact Prod.ext (Fin.ext (by show ((i : S4x128x512.Idx) 0).val = k.val; omega))
      (Fin.ext (by show ((i : S4x128x512.Idx) 1).val / 32 = ch.val; omega))
  · intro h
    have e1 : ((i : S4x128x512.Idx) 0).val = k.val := congrArg (fun p : Dev nD × Fin 4 => p.1.val) h
    have e2 : ((i : S4x128x512.Idx) 1).val / 32 = ch.val := congrArg (fun p : Dev nD × Fin 4 => p.2.val) h
    omega

theorem rsSrc_set (c : Dev nD) (r : Fin 3) (ch : Fin 4) : (rsSrc c r ch).view.set = keySet (pKey c) (pl c (r.val + 1), ch) := by
  ext i
  rw [mem_keySet]
  refine (mem_rsSrc c r ch i).trans ?_
  have hc := ch.isLt
  have h1 : ((i : S4x128x512.Idx) 1).val < 128 := ((i : S4x128x512.Idx) 1).isLt
  constructor
  · intro h
    exact Prod.ext (Fin.ext (by show ((i : S4x128x512.Idx) 0).val = (c.val + (r.val + 1)) % 4; omega))
      (Fin.ext (by show ((i : S4x128x512.Idx) 1).val / 32 = ch.val; omega))
  · intro h
    have e1 : ((i : S4x128x512.Idx) 0).val = (c.val + (r.val + 1)) % 4 := congrArg (fun p : Dev nD × Fin 4 => p.1.val) h
    have e2 : ((i : S4x128x512.Idx) 1).val / 32 = ch.val := congrArg (fun p : Dev nD × Fin 4 => p.2.val) h
    omega

theorem pts_rsDst (c : Dev nD) (k ch : Fin 4) (f : Buf (Elt F) (rsLoc c)) :
    pts (F := F) (rsDst k ch) c f = (rsLoc c ↦[keySet (rsKey c) (k, ch)]{fullShare} f : sProp 𝕄) := by
  show (rsLoc c ↦[(rsDst k ch).view.set]{fullShare} f : sProp 𝕄) = _
  rw [rsDst_set c k ch]

theorem pts_rsSrc (c : Dev nD) (r : Fin 3) (ch : Fin 4) (f : Buf (Elt F) (pLoc c)) :
    pts (F := F) (rsSrc c r ch) c f = (pLoc c ↦[keySet (pKey c) (pl c (r.val + 1), ch)]{fullShare} f : sProp 𝕄) := by
  show (pLoc c ↦[(rsSrc c r ch).view.set]{fullShare} f : sProp 𝕄) = _
  rw [rsSrc_set c r ch]

/-- Slabs one, two and three of the receive buffer: the slabs the other devices write. -/
def rsKeys : List (Dev nD × Fin 4) := [((1 : Fin 4), (0 : Fin 4)), ((1 : Fin 4), (1 : Fin 4)), ((1 : Fin 4), (2 : Fin 4)), ((1 : Fin 4), (3 : Fin 4)), ((2 : Fin 4), (0 : Fin 4)), ((2 : Fin 4), (1 : Fin 4)), ((2 : Fin 4), (2 : Fin 4)), ((2 : Fin 4), (3 : Fin 4)), ((3 : Fin 4), (0 : Fin 4)), ((3 : Fin 4), (1 : Fin 4)), ((3 : Fin 4), (2 : Fin 4)), ((3 : Fin 4), (3 : Fin 4))]
/-- The slabs of the partial product that go to the devices one, two and three places on. -/
def pKeys (c : Dev nD) : List (Dev nD × Fin 4) := [(pl c ((0 : Fin 3).val + 1), (0 : Fin 4)), (pl c ((0 : Fin 3).val + 1), (1 : Fin 4)), (pl c ((0 : Fin 3).val + 1), (2 : Fin 4)), (pl c ((0 : Fin 3).val + 1), (3 : Fin 4)), (pl c ((1 : Fin 3).val + 1), (0 : Fin 4)), (pl c ((1 : Fin 3).val + 1), (1 : Fin 4)), (pl c ((1 : Fin 3).val + 1), (2 : Fin 4)), (pl c ((1 : Fin 3).val + 1), (3 : Fin 4)), (pl c ((2 : Fin 3).val + 1), (0 : Fin 4)), (pl c ((2 : Fin 3).val + 1), (1 : Fin 4)), (pl c ((2 : Fin 3).val + 1), (2 : Fin 4)), (pl c ((2 : Fin 3).val + 1), (3 : Fin 4))]

/-- How many places on, less one, the slab `d` of device `c`'s partial product goes. -/
def rOf (c d : Dev nD) : Fin 3 := ⟨(d.val + 3 - c.val) % 4 % 3, Nat.mod_lt _ (by decide)⟩
theorem rOf_pl : ∀ (c : Dev nD) (r : Fin 3), rOf c (pl c (r.val + 1)) = r := by decide

theorem rsKeys_nodup : rsKeys.Nodup := by decide
theorem pKeys_nodup : ∀ c : Dev nD, (pKeys c).Nodup := by decide

/-- What is left of the receive buffer: its slab 0, which no copy writes. -/
def rsRest (c : Dev nD) (f : Buf (Elt F) (rsLoc c)) : sProp 𝕄 :=
  rsLoc c ↦[Finset.univ \ keysSet (rsKey c) rsKeys]{fullShare} f
/-- What is left of the partial product: the device's own slab, which it keeps. -/
def pRest (c : Dev nD) (f : Buf (Elt F) (pLoc c)) : sProp 𝕄 :=
  pLoc c ↦[Finset.univ \ keysSet (pKey c) (pKeys c)]{fullShare} f

/-- The twelve pieces of the receive buffer, piece (k, ch) at contents `g k ch`, and the rest at `f`, as one chain. -/
theorem rs_chain (c : Dev nD) (f : Buf (Elt F) (rsLoc c)) (g : Fin 4 → Fin 4 → Buf (Elt F) (rsLoc c)) :
    iprop(
      pts (F := F) (rsDst (1 : Fin 4) (0 : Fin 4)) c (g (1 : Fin 4) (0 : Fin 4))
      ∗ pts (F := F) (rsDst (1 : Fin 4) (1 : Fin 4)) c (g (1 : Fin 4) (1 : Fin 4))
      ∗ pts (F := F) (rsDst (1 : Fin 4) (2 : Fin 4)) c (g (1 : Fin 4) (2 : Fin 4))
      ∗ pts (F := F) (rsDst (1 : Fin 4) (3 : Fin 4)) c (g (1 : Fin 4) (3 : Fin 4))
      ∗ pts (F := F) (rsDst (2 : Fin 4) (0 : Fin 4)) c (g (2 : Fin 4) (0 : Fin 4))
      ∗ pts (F := F) (rsDst (2 : Fin 4) (1 : Fin 4)) c (g (2 : Fin 4) (1 : Fin 4))
      ∗ pts (F := F) (rsDst (2 : Fin 4) (2 : Fin 4)) c (g (2 : Fin 4) (2 : Fin 4))
      ∗ pts (F := F) (rsDst (2 : Fin 4) (3 : Fin 4)) c (g (2 : Fin 4) (3 : Fin 4))
      ∗ pts (F := F) (rsDst (3 : Fin 4) (0 : Fin 4)) c (g (3 : Fin 4) (0 : Fin 4))
      ∗ pts (F := F) (rsDst (3 : Fin 4) (1 : Fin 4)) c (g (3 : Fin 4) (1 : Fin 4))
      ∗ pts (F := F) (rsDst (3 : Fin 4) (2 : Fin 4)) c (g (3 : Fin 4) (2 : Fin 4))
      ∗ pts (F := F) (rsDst (3 : Fin 4) (3 : Fin 4)) c (g (3 : Fin 4) (3 : Fin 4))
      ∗ rsRest (F := F) c f)
    = iprop((rsLoc c ↦[keysSet (rsKey c) rsKeys]{fullShare} (fun i => g (rsKey c i).1 (rsKey c i).2 i) : sProp 𝕄)
        ∗ rsLoc c ↦[Finset.univ \ keysSet (rsKey c) rsKeys]{fullShare} f) := by
  have key := pts_keys (F := F) (rsKey c) (fun p => g p.1 p.2) fullShare rsKeys rsKeys_nodup
  rw [← key, ← sepChain_snoc]
  simp only [pts_rsDst, rsRest]
  simp only [rsKeys, List.map, List.cons_append, List.nil_append, sepChain]

/-- The receive buffer of device `c` is its twelve written pieces and the rest, all at one contents. -/
theorem split_rs_eq (c : Dev nD) (f : Buf (Elt F) (rsLoc c)) :
    (rsLoc c ↦{fullShare} f : sProp 𝕄) = iprop(
      pts (F := F) (rsDst (1 : Fin 4) (0 : Fin 4)) c f
      ∗ pts (F := F) (rsDst (1 : Fin 4) (1 : Fin 4)) c f
      ∗ pts (F := F) (rsDst (1 : Fin 4) (2 : Fin 4)) c f
      ∗ pts (F := F) (rsDst (1 : Fin 4) (3 : Fin 4)) c f
      ∗ pts (F := F) (rsDst (2 : Fin 4) (0 : Fin 4)) c f
      ∗ pts (F := F) (rsDst (2 : Fin 4) (1 : Fin 4)) c f
      ∗ pts (F := F) (rsDst (2 : Fin 4) (2 : Fin 4)) c f
      ∗ pts (F := F) (rsDst (2 : Fin 4) (3 : Fin 4)) c f
      ∗ pts (F := F) (rsDst (3 : Fin 4) (0 : Fin 4)) c f
      ∗ pts (F := F) (rsDst (3 : Fin 4) (1 : Fin 4)) c f
      ∗ pts (F := F) (rsDst (3 : Fin 4) (2 : Fin 4)) c f
      ∗ pts (F := F) (rsDst (3 : Fin 4) (3 : Fin 4)) c f
      ∗ rsRest (F := F) c f) := by
  rw [rs_chain c f (fun _ _ => f)]
  have hs := pointsTo_split_subset (Val := Elt F) (Ix := Unit) (Name := ℕ) (U := UU) (Lvl := ℕ) (ℓ := rsLoc c) (q := fullShare) (f := f)
    (Finset.subset_univ (keysSet (rsKey c) rsKeys))
  exact BI.equiv_iff.mp ⟨hs.1, hs.2⟩

theorem split_rs (c : Dev nD) (f : Buf (Elt F) (rsLoc c)) :
    (rsLoc c ↦{fullShare} f : sProp 𝕄) ⊣⊢ iprop(
      pts (F := F) (rsDst (1 : Fin 4) (0 : Fin 4)) c f
      ∗ pts (F := F) (rsDst (1 : Fin 4) (1 : Fin 4)) c f
      ∗ pts (F := F) (rsDst (1 : Fin 4) (2 : Fin 4)) c f
      ∗ pts (F := F) (rsDst (1 : Fin 4) (3 : Fin 4)) c f
      ∗ pts (F := F) (rsDst (2 : Fin 4) (0 : Fin 4)) c f
      ∗ pts (F := F) (rsDst (2 : Fin 4) (1 : Fin 4)) c f
      ∗ pts (F := F) (rsDst (2 : Fin 4) (2 : Fin 4)) c f
      ∗ pts (F := F) (rsDst (2 : Fin 4) (3 : Fin 4)) c f
      ∗ pts (F := F) (rsDst (3 : Fin 4) (0 : Fin 4)) c f
      ∗ pts (F := F) (rsDst (3 : Fin 4) (1 : Fin 4)) c f
      ∗ pts (F := F) (rsDst (3 : Fin 4) (2 : Fin 4)) c f
      ∗ pts (F := F) (rsDst (3 : Fin 4) (3 : Fin 4)) c f
      ∗ rsRest (F := F) c f) :=
  ⟨Entails.of_eq (split_rs_eq c f), Entails.of_eq (split_rs_eq c f).symm⟩

/-- The twelve pieces at any contents and the rest make the whole receive buffer at some contents. -/
theorem join_rs (c : Dev nD) (f : Buf (Elt F) (rsLoc c)) (g : Fin 4 → Fin 4 → Buf (Elt F) (rsLoc c)) :
    iprop(
      pts (F := F) (rsDst (1 : Fin 4) (0 : Fin 4)) c (g (1 : Fin 4) (0 : Fin 4))
      ∗ pts (F := F) (rsDst (1 : Fin 4) (1 : Fin 4)) c (g (1 : Fin 4) (1 : Fin 4))
      ∗ pts (F := F) (rsDst (1 : Fin 4) (2 : Fin 4)) c (g (1 : Fin 4) (2 : Fin 4))
      ∗ pts (F := F) (rsDst (1 : Fin 4) (3 : Fin 4)) c (g (1 : Fin 4) (3 : Fin 4))
      ∗ pts (F := F) (rsDst (2 : Fin 4) (0 : Fin 4)) c (g (2 : Fin 4) (0 : Fin 4))
      ∗ pts (F := F) (rsDst (2 : Fin 4) (1 : Fin 4)) c (g (2 : Fin 4) (1 : Fin 4))
      ∗ pts (F := F) (rsDst (2 : Fin 4) (2 : Fin 4)) c (g (2 : Fin 4) (2 : Fin 4))
      ∗ pts (F := F) (rsDst (2 : Fin 4) (3 : Fin 4)) c (g (2 : Fin 4) (3 : Fin 4))
      ∗ pts (F := F) (rsDst (3 : Fin 4) (0 : Fin 4)) c (g (3 : Fin 4) (0 : Fin 4))
      ∗ pts (F := F) (rsDst (3 : Fin 4) (1 : Fin 4)) c (g (3 : Fin 4) (1 : Fin 4))
      ∗ pts (F := F) (rsDst (3 : Fin 4) (2 : Fin 4)) c (g (3 : Fin 4) (2 : Fin 4))
      ∗ pts (F := F) (rsDst (3 : Fin 4) (3 : Fin 4)) c (g (3 : Fin 4) (3 : Fin 4))
      ∗ rsRest (F := F) c f)
    ⊢ iprop(∃ f', (rsLoc c ↦{fullShare} f' : sProp 𝕄)) := by
  rw [rs_chain c f g]
  refine (pointsTo_join_subset (Finset.subset_univ (keysSet (rsKey c) rsKeys))).trans ?_
  iintro H
  iexists _
  iexact H

/-- The same for the partial product: piece (r, ch) is the piece that goes `r + 1` places on. -/
theorem p_chain (c : Dev nD) (f : Buf (Elt F) (pLoc c)) (g : Fin 3 → Fin 4 → Buf (Elt F) (pLoc c)) :
    iprop(
      pts (F := F) (rsSrc c (0 : Fin 3) (0 : Fin 4)) c (g (0 : Fin 3) (0 : Fin 4))
      ∗ pts (F := F) (rsSrc c (0 : Fin 3) (1 : Fin 4)) c (g (0 : Fin 3) (1 : Fin 4))
      ∗ pts (F := F) (rsSrc c (0 : Fin 3) (2 : Fin 4)) c (g (0 : Fin 3) (2 : Fin 4))
      ∗ pts (F := F) (rsSrc c (0 : Fin 3) (3 : Fin 4)) c (g (0 : Fin 3) (3 : Fin 4))
      ∗ pts (F := F) (rsSrc c (1 : Fin 3) (0 : Fin 4)) c (g (1 : Fin 3) (0 : Fin 4))
      ∗ pts (F := F) (rsSrc c (1 : Fin 3) (1 : Fin 4)) c (g (1 : Fin 3) (1 : Fin 4))
      ∗ pts (F := F) (rsSrc c (1 : Fin 3) (2 : Fin 4)) c (g (1 : Fin 3) (2 : Fin 4))
      ∗ pts (F := F) (rsSrc c (1 : Fin 3) (3 : Fin 4)) c (g (1 : Fin 3) (3 : Fin 4))
      ∗ pts (F := F) (rsSrc c (2 : Fin 3) (0 : Fin 4)) c (g (2 : Fin 3) (0 : Fin 4))
      ∗ pts (F := F) (rsSrc c (2 : Fin 3) (1 : Fin 4)) c (g (2 : Fin 3) (1 : Fin 4))
      ∗ pts (F := F) (rsSrc c (2 : Fin 3) (2 : Fin 4)) c (g (2 : Fin 3) (2 : Fin 4))
      ∗ pts (F := F) (rsSrc c (2 : Fin 3) (3 : Fin 4)) c (g (2 : Fin 3) (3 : Fin 4))
      ∗ pRest (F := F) c f)
    = iprop((pLoc c ↦[keysSet (pKey c) (pKeys c)]{fullShare} (fun i => g (rOf c (pKey c i).1) (pKey c i).2 i) : sProp 𝕄)
        ∗ pLoc c ↦[Finset.univ \ keysSet (pKey c) (pKeys c)]{fullShare} f) := by
  have key := pts_keys (F := F) (pKey c) (fun p => g (rOf c p.1) p.2) fullShare (pKeys c) (pKeys_nodup c)
  rw [← key, ← sepChain_snoc]
  simp only [pts_rsSrc, pRest]
  simp only [pKeys, List.map, List.cons_append, List.nil_append, sepChain, rOf_pl]

theorem split_p_eq (c : Dev nD) (f : Buf (Elt F) (pLoc c)) :
    (pLoc c ↦{fullShare} f : sProp 𝕄) = iprop(
      pts (F := F) (rsSrc c (0 : Fin 3) (0 : Fin 4)) c f
      ∗ pts (F := F) (rsSrc c (0 : Fin 3) (1 : Fin 4)) c f
      ∗ pts (F := F) (rsSrc c (0 : Fin 3) (2 : Fin 4)) c f
      ∗ pts (F := F) (rsSrc c (0 : Fin 3) (3 : Fin 4)) c f
      ∗ pts (F := F) (rsSrc c (1 : Fin 3) (0 : Fin 4)) c f
      ∗ pts (F := F) (rsSrc c (1 : Fin 3) (1 : Fin 4)) c f
      ∗ pts (F := F) (rsSrc c (1 : Fin 3) (2 : Fin 4)) c f
      ∗ pts (F := F) (rsSrc c (1 : Fin 3) (3 : Fin 4)) c f
      ∗ pts (F := F) (rsSrc c (2 : Fin 3) (0 : Fin 4)) c f
      ∗ pts (F := F) (rsSrc c (2 : Fin 3) (1 : Fin 4)) c f
      ∗ pts (F := F) (rsSrc c (2 : Fin 3) (2 : Fin 4)) c f
      ∗ pts (F := F) (rsSrc c (2 : Fin 3) (3 : Fin 4)) c f
      ∗ pRest (F := F) c f) := by
  rw [p_chain c f (fun _ _ => f)]
  have hs := pointsTo_split_subset (Val := Elt F) (Ix := Unit) (Name := ℕ) (U := UU) (Lvl := ℕ) (ℓ := pLoc c) (q := fullShare) (f := f)
    (Finset.subset_univ (keysSet (pKey c) (pKeys c)))
  exact BI.equiv_iff.mp ⟨hs.1, hs.2⟩

theorem split_p (c : Dev nD) (f : Buf (Elt F) (pLoc c)) :
    (pLoc c ↦{fullShare} f : sProp 𝕄) ⊣⊢ iprop(
      pts (F := F) (rsSrc c (0 : Fin 3) (0 : Fin 4)) c f
      ∗ pts (F := F) (rsSrc c (0 : Fin 3) (1 : Fin 4)) c f
      ∗ pts (F := F) (rsSrc c (0 : Fin 3) (2 : Fin 4)) c f
      ∗ pts (F := F) (rsSrc c (0 : Fin 3) (3 : Fin 4)) c f
      ∗ pts (F := F) (rsSrc c (1 : Fin 3) (0 : Fin 4)) c f
      ∗ pts (F := F) (rsSrc c (1 : Fin 3) (1 : Fin 4)) c f
      ∗ pts (F := F) (rsSrc c (1 : Fin 3) (2 : Fin 4)) c f
      ∗ pts (F := F) (rsSrc c (1 : Fin 3) (3 : Fin 4)) c f
      ∗ pts (F := F) (rsSrc c (2 : Fin 3) (0 : Fin 4)) c f
      ∗ pts (F := F) (rsSrc c (2 : Fin 3) (1 : Fin 4)) c f
      ∗ pts (F := F) (rsSrc c (2 : Fin 3) (2 : Fin 4)) c f
      ∗ pts (F := F) (rsSrc c (2 : Fin 3) (3 : Fin 4)) c f
      ∗ pRest (F := F) c f) :=
  ⟨Entails.of_eq (split_p_eq c f), Entails.of_eq (split_p_eq c f).symm⟩

theorem join_p (c : Dev nD) (f : Buf (Elt F) (pLoc c)) (g : Fin 3 → Fin 4 → Buf (Elt F) (pLoc c)) :
    iprop(
      pts (F := F) (rsSrc c (0 : Fin 3) (0 : Fin 4)) c (g (0 : Fin 3) (0 : Fin 4))
      ∗ pts (F := F) (rsSrc c (0 : Fin 3) (1 : Fin 4)) c (g (0 : Fin 3) (1 : Fin 4))
      ∗ pts (F := F) (rsSrc c (0 : Fin 3) (2 : Fin 4)) c (g (0 : Fin 3) (2 : Fin 4))
      ∗ pts (F := F) (rsSrc c (0 : Fin 3) (3 : Fin 4)) c (g (0 : Fin 3) (3 : Fin 4))
      ∗ pts (F := F) (rsSrc c (1 : Fin 3) (0 : Fin 4)) c (g (1 : Fin 3) (0 : Fin 4))
      ∗ pts (F := F) (rsSrc c (1 : Fin 3) (1 : Fin 4)) c (g (1 : Fin 3) (1 : Fin 4))
      ∗ pts (F := F) (rsSrc c (1 : Fin 3) (2 : Fin 4)) c (g (1 : Fin 3) (2 : Fin 4))
      ∗ pts (F := F) (rsSrc c (1 : Fin 3) (3 : Fin 4)) c (g (1 : Fin 3) (3 : Fin 4))
      ∗ pts (F := F) (rsSrc c (2 : Fin 3) (0 : Fin 4)) c (g (2 : Fin 3) (0 : Fin 4))
      ∗ pts (F := F) (rsSrc c (2 : Fin 3) (1 : Fin 4)) c (g (2 : Fin 3) (1 : Fin 4))
      ∗ pts (F := F) (rsSrc c (2 : Fin 3) (2 : Fin 4)) c (g (2 : Fin 3) (2 : Fin 4))
      ∗ pts (F := F) (rsSrc c (2 : Fin 3) (3 : Fin 4)) c (g (2 : Fin 3) (3 : Fin 4))
      ∗ pRest (F := F) c f)
    ⊢ iprop(∃ f', (pLoc c ↦{fullShare} f' : sProp 𝕄)) := by
  rw [p_chain c f g]
  refine (pointsTo_join_subset (Finset.subset_univ (keysSet (pKey c) (pKeys c)))).trans ?_
  iintro H
  iexists _
  iexact H

end Slabs

/-- info: 'Cert.Kernel.Hand.rs_landed_pts' depends on axioms: [propext, Classical.choice, Quot.sound] -/
#guard_msgs in #print axioms rs_landed_pts
/-- info: 'Cert.Kernel.Hand.ag_landed_pts' depends on axioms: [propext, Classical.choice, Quot.sound] -/
#guard_msgs in #print axioms ag_landed_pts
/-- info: 'Cert.Kernel.Hand.split_out' depends on axioms: [propext, Classical.choice, Quot.sound] -/
#guard_msgs in #print axioms split_out
/-- info: 'Cert.Kernel.Hand.split_rs' depends on axioms: [propext, Classical.choice, Quot.sound] -/
#guard_msgs in #print axioms split_rs
/-- info: 'Cert.Kernel.Hand.join_rs' depends on axioms: [propext, Classical.choice, Quot.sound] -/
#guard_msgs in #print axioms join_rs
/-- info: 'Cert.Kernel.Hand.split_p' depends on axioms: [propext, Classical.choice, Quot.sound] -/
#guard_msgs in #print axioms split_p
/-- info: 'Cert.Kernel.Hand.join_p' depends on axioms: [propext, Classical.choice, Quot.sound] -/
#guard_msgs in #print axioms join_p

end Cert.Kernel.Hand

end
-- ==== Proof.KernelTables.lean ====
/-
  The schedule's tables, cell by cell, and the two remote-copy rules at this protocol's cells.

  The sixty-four scratch DMA semaphores are numbered 3 … 66: array `A` (0 the partial-product sends, 1 their
  receives, 2 the finished-piece sends, 3 their receives), row `a`, column `b` is number `3 + 16·A + 4·a + b`. A
  cell of row 0 has no duty; a cell of row `a ≠ 0` has the one duty `0` of one piece's credit in round 0, and what
  it hands its owner is read off the array and the row.
-/
import proofs.«900554_g7700000000000555_dist_matmul_gelu_kshard_i_m512_n512_k256_v7x_i4_bf16_1_alg».proof.Proof.KernelState
import proofs.«900554_g7700000000000555_dist_matmul_gelu_kshard_i_m512_n512_k256_v7x_i4_bf16_1_alg».proof.Proof.KernelPieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The scratch semaphores by number -/

theorem semOf_val2 (a b : Fin 4) : (semOf cc0_scratch2 a b).val = 3 + 16 * 0 + 4 * a.val + b.val := by revert a b; decide
theorem semOf_val3 (a b : Fin 4) : (semOf cc0_scratch3 a b).val = 3 + 16 * 1 + 4 * a.val + b.val := by revert a b; decide
theorem semOf_val4 (a b : Fin 4) : (semOf cc0_scratch4 a b).val = 3 + 16 * 2 + 4 * a.val + b.val := by revert a b; decide
theorem semOf_val5 (a b : Fin 4) : (semOf cc0_scratch5 a b).val = 3 + 16 * 3 + 4 * a.val + b.val := by revert a b; decide

theorem three_le2 (a b : Fin 4) : 3 ≤ (semOf cc0_scratch2 a b).val := by rw [semOf_val2]; omega
theorem three_le3 (a b : Fin 4) : 3 ≤ (semOf cc0_scratch3 a b).val := by rw [semOf_val3]; omega
theorem three_le4 (a b : Fin 4) : 3 ≤ (semOf cc0_scratch4 a b).val := by rw [semOf_val4]; omega
theorem three_le5 (a b : Fin 4) : 3 ≤ (semOf cc0_scratch5 a b).val := by rw [semOf_val5]; omega

theorem arrOf2 (a b : Fin 4) : arrOf (semOf cc0_scratch2 a b) = 0 := by unfold arrOf; rw [semOf_val2]; omega
theorem arrOf3 (a b : Fin 4) : arrOf (semOf cc0_scratch3 a b) = 1 := by unfold arrOf; rw [semOf_val3]; omega
theorem arrOf4 (a b : Fin 4) : arrOf (semOf cc0_scratch4 a b) = 2 := by unfold arrOf; rw [semOf_val4]; omega
theorem arrOf5 (a b : Fin 4) : arrOf (semOf cc0_scratch5 a b) = 3 := by unfold arrOf; rw [semOf_val5]; omega

theorem rowOf2 (a b : Fin 4) : rowOf (semOf cc0_scratch2 a b) = a.val := by unfold rowOf; rw [semOf_val2]; omega
theorem rowOf3 (a b : Fin 4) : rowOf (semOf cc0_scratch3 a b) = a.val := by unfold rowOf; rw [semOf_val3]; omega
theorem rowOf4 (a b : Fin 4) : rowOf (semOf cc0_scratch4 a b) = a.val := by unfold rowOf; rw [semOf_val4]; omega
theorem rowOf5 (a b : Fin 4) : rowOf (semOf cc0_scratch5 a b) = a.val := by unfold rowOf; rw [semOf_val5]; omega

theorem colOf2 (a b : Fin 4) : colOf (semOf cc0_scratch2 a b) = b.val := by unfold colOf; rw [semOf_val2]; omega
theorem colOf3 (a b : Fin 4) : colOf (semOf cc0_scratch3 a b) = b.val := by unfold colOf; rw [semOf_val3]; omega
theorem colOf4 (a b : Fin 4) : colOf (semOf cc0_scratch4 a b) = b.val := by unfold colOf; rw [semOf_val4]; omega
theorem colOf5 (a b : Fin 4) : colOf (semOf cc0_scratch5 a b) = b.val := by unfold colOf; rw [semOf_val5]; omega

/-! ## What a copy's completion hands over, by array -/

/-- Array 0, row `r + 1`: the source piece of the copy to the device `r + 1` places on comes back. -/
theorem dmaPay_0 (c : Dev nD) (a b : ℕ) (r : Fin 3) (ch : Fin 4) (ha : (a + 2) % 3 = r.val) (hb : b % 4 = ch.val) :
    dmaPay m c 0 a b = pts (rsSrc c r ch) c (Pblk m c) := by
  obtain ⟨rv, hr⟩ := r; obtain ⟨cv, hc⟩ := ch
  dsimp only at ha hb; subst ha hb
  unfold dmaPay; rw [if_pos rfl]
/-- Array 1, row `k`: slab `k` of the receive buffer is written. -/
theorem dmaPay_1 (c : Dev nD) (a b : ℕ) (k ch : Fin 4) (ha : a % 4 = k.val) (hb : b % 4 = ch.val) :
    dmaPay m c 1 a b = pts (rsDst k ch) c (RSfun m c) := by
  obtain ⟨kv, hk⟩ := k; obtain ⟨cv, hc⟩ := ch
  dsimp only at ha hb; subst ha hb
  unfold dmaPay; rw [if_neg (by decide), if_pos rfl]
/-- Array 2, row `a`: the share of the finished piece that the copy to the device `a` places on read comes back. -/
theorem dmaPay_2 (c : Dev nD) (a b : ℕ) (ch : Fin 4) (hb : b % 4 = ch.val) :
    dmaPay m c 2 a b = ((outSl c ch).view.loc (c : Thread nD τ) ↦[(outSl c ch).view.set]{agShare a} OUT m) := by
  obtain ⟨cv, hc⟩ := ch
  dsimp only at hb; subst hb
  unfold dmaPay; rw [if_neg (by decide), if_neg (by decide), if_pos rfl]
/-- Array 3, row `a`: the piece of the device `a` places on is written. -/
theorem dmaPay_3 (c : Dev nD) (a b : ℕ) (ch : Fin 4) (hb : b % 4 = ch.val) :
    dmaPay m c 3 a b = pts (outSl (pl c a) ch) c (OUT m) := by
  obtain ⟨cv, hc⟩ := ch
  dsimp only at hb; subst hb
  unfold dmaPay; rw [if_neg (by decide), if_neg (by decide), if_neg (by decide)]

/-- The three thirds of a finished piece's share, by the row of the send cell. -/
theorem agShare_1 : agShare 1 = fullShare.right.left := rfl
theorem agShare_2 : agShare 2 = fullShare.left := rfl
theorem agShare_3 : agShare 3 = fullShare.right.right := rfl

/-! ## The tables -/

section Sched
variable (c : Dev nD) (r : Fin 3) (ch : Fin 4)

theorem duties_later (g : GSem nD τ sig) : ∀ r, 1 ≤ r → (Rd m).duties g r = ∅ :=
  fun r hr => by dsimp only [Rd]; rw [if_neg fun h => by have := h.1; omega]

theorem succ_ne_zero : (r.succ : Fin 4).val ≠ 0 := Nat.succ_ne_zero _

theorem duties_rsS : (Rd m).duties (rsS c r.succ ch) 0 = {0} := by
  dsimp only [Rd]; rw [if_pos ⟨rfl, rfl⟩]; exact if_pos ⟨three_le2 _ _, by rw [rowOf2]; exact succ_ne_zero r⟩
theorem duties_rsR : (Rd m).duties (rsR c r.succ ch) 0 = {0} := by
  dsimp only [Rd]; rw [if_pos ⟨rfl, rfl⟩]; exact if_pos ⟨three_le3 _ _, by rw [rowOf3]; exact succ_ne_zero r⟩
theorem duties_agS : (Rd m).duties (agS c r.succ ch) 0 = {0} := by
  dsimp only [Rd]; rw [if_pos ⟨rfl, rfl⟩]; exact if_pos ⟨three_le4 _ _, by rw [rowOf4]; exact succ_ne_zero r⟩
theorem duties_agR : (Rd m).duties (agR c r.succ ch) 0 = {0} := by
  dsimp only [Rd]; rw [if_pos ⟨rfl, rfl⟩]; exact if_pos ⟨three_le5 _ _, by rw [rowOf5]; exact succ_ne_zero r⟩

/-- Row 0 of each array is never copied on. -/
theorem duties_rsS_row0 (R : ℕ) : (Rd m).duties (rsS c 0 ch) R = ∅ := by
  dsimp only [Rd]; split
  · exact if_neg fun h => h.2 (by rw [rowOf2]; rfl)
  · rfl
theorem duties_rsR_row0 (R : ℕ) : (Rd m).duties (rsR c 0 ch) R = ∅ := by
  dsimp only [Rd]; split
  · exact if_neg fun h => h.2 (by rw [rowOf3]; rfl)
  · rfl
theorem duties_agS_row0 (R : ℕ) : (Rd m).duties (agS c 0 ch) R = ∅ := by
  dsimp only [Rd]; split
  · exact if_neg fun h => h.2 (by rw [rowOf4]; rfl)
  · rfl
theorem duties_agR_row0 (R : ℕ) : (Rd m).duties (agR c 0 ch) R = ∅ := by
  dsimp only [Rd]; split
  · exact if_neg fun h => h.2 (by rw [rowOf5]; rfl)
  · rfl

theorem amount_rsS (d : Fin 4) : (Rd m).amount (rsS c r.succ ch) 0 d = Nr := by
  dsimp only [Rd]; exact if_pos (by rw [arrOf2]; decide)
theorem amount_rsR (d : Fin 4) : (Rd m).amount (rsR c r.succ ch) 0 d = Nr := by
  dsimp only [Rd]; exact if_pos (by rw [arrOf3]; decide)
theorem amount_agS (d : Fin 4) : (Rd m).amount (agS c r.succ ch) 0 d = No := by
  dsimp only [Rd]; exact if_neg (by rw [arrOf4]; decide)
theorem amount_agR (d : Fin 4) : (Rd m).amount (agR c r.succ ch) 0 d = No := by
  dsimp only [Rd]; exact if_neg (by rw [arrOf5]; decide)

theorem expect_rsS : (Rd m).expect (rsS c r.succ ch) 0 = Nr := by
  unfold Schedule.expect Schedule.amountOf; rw [duties_rsS, Finset.sum_singleton, amount_rsS]
theorem expect_rsR : (Rd m).expect (rsR c r.succ ch) 0 = Nr := by
  unfold Schedule.expect Schedule.amountOf; rw [duties_rsR, Finset.sum_singleton, amount_rsR]
theorem expect_agS : (Rd m).expect (agS c r.succ ch) 0 = No := by
  unfold Schedule.expect Schedule.amountOf; rw [duties_agS, Finset.sum_singleton, amount_agS]
theorem expect_agR : (Rd m).expect (agR c r.succ ch) 0 = No := by
  unfold Schedule.expect Schedule.amountOf; rw [duties_agR, Finset.sum_singleton, amount_agR]

theorem payload_rsS (d : Fin 4) : (Rd m).payload (rsS c r.succ ch) 0 d
    = ((rsSrc c r ch).view.loc (c : Thread nD τ) ↦[(rsSrc c r ch).view.set]{fullShare} Pblk m c) := by
  dsimp only [Rd]; rw [arrOf2, rowOf2, colOf2]
  exact dmaPay_0 m c _ _ r ch (by have := r.isLt; rw [Fin.val_succ]; omega) (Nat.mod_eq_of_lt ch.isLt)
theorem payload_rsR (d : Fin 4) : (Rd m).payload (rsR c r.succ ch) 0 d
    = ((rsDst r.succ ch).view.loc (c : Thread nD τ) ↦[(rsDst r.succ ch).view.set]{fullShare} RSfun m c) := by
  dsimp only [Rd]; rw [arrOf3, rowOf3, colOf3]
  exact dmaPay_1 m c _ _ r.succ ch (Nat.mod_eq_of_lt r.succ.isLt) (Nat.mod_eq_of_lt ch.isLt)
theorem payload_agS (d : Fin 4) : (Rd m).payload (agS c r.succ ch) 0 d
    = ((outSl c ch).view.loc (c : Thread nD τ) ↦[(outSl c ch).view.set]{agShare (r.val + 1)} OUT m) := by
  dsimp only [Rd]; rw [arrOf4, rowOf4, colOf4, Fin.val_succ]
  exact dmaPay_2 m c _ _ ch (Nat.mod_eq_of_lt ch.isLt)
theorem payload_agR (d : Fin 4) : (Rd m).payload (agR c r.succ ch) 0 d
    = ((outSl (pl c (r.val + 1)) ch).view.loc (c : Thread nD τ) ↦[(outSl (pl c (r.val + 1)) ch).view.set]{fullShare} OUT m) := by
  dsimp only [Rd]; rw [arrOf5, rowOf5, colOf5, Fin.val_succ]
  exact dmaPay_3 m c _ _ ch (Nat.mod_eq_of_lt ch.isLt)

theorem rest_rsS : bigSep ((Rd m).duties (rsS c r.succ ch) 0 \ ∅) (fun d => (Rd m).payload (rsS c r.succ ch) 0 d)
    = ((rsSrc c r ch).view.loc (c : Thread nD τ) ↦[(rsSrc c r ch).view.set]{fullShare} Pblk m c) := by
  rw [Finset.sdiff_empty, duties_rsS, bigSep_singleton, payload_rsS]
theorem rest_rsR : bigSep ((Rd m).duties (rsR c r.succ ch) 0 \ ∅) (fun d => (Rd m).payload (rsR c r.succ ch) 0 d)
    = ((rsDst r.succ ch).view.loc (c : Thread nD τ) ↦[(rsDst r.succ ch).view.set]{fullShare} RSfun m c) := by
  rw [Finset.sdiff_empty, duties_rsR, bigSep_singleton, payload_rsR]
theorem rest_agS : bigSep ((Rd m).duties (agS c r.succ ch) 0 \ ∅) (fun d => (Rd m).payload (agS c r.succ ch) 0 d)
    = ((outSl c ch).view.loc (c : Thread nD τ) ↦[(outSl c ch).view.set]{agShare (r.val + 1)} OUT m) := by
  rw [Finset.sdiff_empty, duties_agS, bigSep_singleton, payload_agS]
theorem rest_agR : bigSep ((Rd m).duties (agR c r.succ ch) 0 \ ∅) (fun d => (Rd m).payload (agR c r.succ ch) 0 d)
    = ((outSl (pl c (r.val + 1)) ch).view.loc (c : Thread nD τ) ↦[(outSl (pl c (r.val + 1)) ch).view.set]{fullShare} OUT m) := by
  rw [Finset.sdiff_empty, duties_agR, bigSep_singleton, payload_agR]

end Sched

/-! ## The tables at the rows the program names (rows 1, 2, 3 as numerals; the piece stays a variable) -/

section Rows
variable (c : Dev nD) (ch : Fin 4)

theorem duties_rsS_1 : (Rd m).duties (rsS c 1 ch) 0 = {0} := duties_rsS m c 0 ch
theorem duties_rsS_2 : (Rd m).duties (rsS c 2 ch) 0 = {0} := duties_rsS m c 1 ch
theorem duties_rsS_3 : (Rd m).duties (rsS c 3 ch) 0 = {0} := duties_rsS m c 2 ch
theorem duties_rsR_1 : (Rd m).duties (rsR c 1 ch) 0 = {0} := duties_rsR m c 0 ch
theorem duties_rsR_2 : (Rd m).duties (rsR c 2 ch) 0 = {0} := duties_rsR m c 1 ch
theorem duties_rsR_3 : (Rd m).duties (rsR c 3 ch) 0 = {0} := duties_rsR m c 2 ch
theorem duties_agS_1 : (Rd m).duties (agS c 1 ch) 0 = {0} := duties_agS m c 0 ch
theorem duties_agS_2 : (Rd m).duties (agS c 2 ch) 0 = {0} := duties_agS m c 1 ch
theorem duties_agS_3 : (Rd m).duties (agS c 3 ch) 0 = {0} := duties_agS m c 2 ch
theorem duties_agR_1 : (Rd m).duties (agR c 1 ch) 0 = {0} := duties_agR m c 0 ch
theorem duties_agR_2 : (Rd m).duties (agR c 2 ch) 0 = {0} := duties_agR m c 1 ch
theorem duties_agR_3 : (Rd m).duties (agR c 3 ch) 0 = {0} := duties_agR m c 2 ch

theorem amount_rsS_1 (d : Fin 4) : (Rd m).amount (rsS c 1 ch) 0 d = Nr := amount_rsS m c 0 ch d
theorem amount_rsS_2 (d : Fin 4) : (Rd m).amount (rsS c 2 ch) 0 d = Nr := amount_rsS m c 1 ch d
theorem amount_rsS_3 (d : Fin 4) : (Rd m).amount (rsS c 3 ch) 0 d = Nr := amount_rsS m c 2 ch d
theorem amount_rsR_1 (d : Fin 4) : (Rd m).amount (rsR c 1 ch) 0 d = Nr := amount_rsR m c 0 ch d
theorem amount_rsR_2 (d : Fin 4) : (Rd m).amount (rsR c 2 ch) 0 d = Nr := amount_rsR m c 1 ch d
theorem amount_rsR_3 (d : Fin 4) : (Rd m).amount (rsR c 3 ch) 0 d = Nr := amount_rsR m c 2 ch d
theorem amount_agS_1 (d : Fin 4) : (Rd m).amount (agS c 1 ch) 0 d = No := amount_agS m c 0 ch d
theorem amount_agS_2 (d : Fin 4) : (Rd m).amount (agS c 2 ch) 0 d = No := amount_agS m c 1 ch d
theorem amount_agS_3 (d : Fin 4) : (Rd m).amount (agS c 3 ch) 0 d = No := amount_agS m c 2 ch d
theorem amount_agR_1 (d : Fin 4) : (Rd m).amount (agR c 1 ch) 0 d = No := amount_agR m c 0 ch d
theorem amount_agR_2 (d : Fin 4) : (Rd m).amount (agR c 2 ch) 0 d = No := amount_agR m c 1 ch d
theorem amount_agR_3 (d : Fin 4) : (Rd m).amount (agR c 3 ch) 0 d = No := amount_agR m c 2 ch d

theorem expect_rsS_1 : (Rd m).expect (rsS c 1 ch) 0 = Nr := expect_rsS m c 0 ch
theorem expect_rsS_2 : (Rd m).expect (rsS c 2 ch) 0 = Nr := expect_rsS m c 1 ch
theorem expect_rsS_3 : (Rd m).expect (rsS c 3 ch) 0 = Nr := expect_rsS m c 2 ch
theorem expect_rsR_1 : (Rd m).expect (rsR c 1 ch) 0 = Nr := expect_rsR m c 0 ch
theorem expect_rsR_2 : (Rd m).expect (rsR c 2 ch) 0 = Nr := expect_rsR m c 1 ch
theorem expect_rsR_3 : (Rd m).expect (rsR c 3 ch) 0 = Nr := expect_rsR m c 2 ch
theorem expect_agS_1 : (Rd m).expect (agS c 1 ch) 0 = No := expect_agS m c 0 ch
theorem expect_agS_2 : (Rd m).expect (agS c 2 ch) 0 = No := expect_agS m c 1 ch
theorem expect_agS_3 : (Rd m).expect (agS c 3 ch) 0 = No := expect_agS m c 2 ch
theorem expect_agR_1 : (Rd m).expect (agR c 1 ch) 0 = No := expect_agR m c 0 ch
theorem expect_agR_2 : (Rd m).expect (agR c 2 ch) 0 = No := expect_agR m c 1 ch
theorem expect_agR_3 : (Rd m).expect (agR c 3 ch) 0 = No := expect_agR m c 2 ch

theorem payload_rsS_1 (d : Fin 4) : (Rd m).payload (rsS c 1 ch) 0 d
    = ((rsSrc c 0 ch).view.loc (c : Thread nD τ) ↦[(rsSrc c 0 ch).view.set]{fullShare} Pblk m c) := payload_rsS m c 0 ch d
theorem payload_rsS_2 (d : Fin 4) : (Rd m).payload (rsS c 2 ch) 0 d
    = ((rsSrc c 1 ch).view.loc (c : Thread nD τ) ↦[(rsSrc c 1 ch).view.set]{fullShare} Pblk m c) := payload_rsS m c 1 ch d
theorem payload_rsS_3 (d : Fin 4) : (Rd m).payload (rsS c 3 ch) 0 d
    = ((rsSrc c 2 ch).view.loc (c : Thread nD τ) ↦[(rsSrc c 2 ch).view.set]{fullShare} Pblk m c) := payload_rsS m c 2 ch d
theorem payload_rsR_1 (d : Fin 4) : (Rd m).payload (rsR c 1 ch) 0 d
    = ((rsDst 1 ch).view.loc (c : Thread nD τ) ↦[(rsDst 1 ch).view.set]{fullShare} RSfun m c) := payload_rsR m c 0 ch d
theorem payload_rsR_2 (d : Fin 4) : (Rd m).payload (rsR c 2 ch) 0 d
    = ((rsDst 2 ch).view.loc (c : Thread nD τ) ↦[(rsDst 2 ch).view.set]{fullShare} RSfun m c) := payload_rsR m c 1 ch d
theorem payload_rsR_3 (d : Fin 4) : (Rd m).payload (rsR c 3 ch) 0 d
    = ((rsDst 3 ch).view.loc (c : Thread nD τ) ↦[(rsDst 3 ch).view.set]{fullShare} RSfun m c) := payload_rsR m c 2 ch d
theorem payload_agS_1 (d : Fin 4) : (Rd m).payload (agS c 1 ch) 0 d
    = ((outSl c ch).view.loc (c : Thread nD τ) ↦[(outSl c ch).view.set]{fullShare.right.left} OUT m) := payload_agS m c 0 ch d
theorem payload_agS_2 (d : Fin 4) : (Rd m).payload (agS c 2 ch) 0 d
    = ((outSl c ch).view.loc (c : Thread nD τ) ↦[(outSl c ch).view.set]{fullShare.left} OUT m) := payload_agS m c 1 ch d
theorem payload_agS_3 (d : Fin 4) : (Rd m).payload (agS c 3 ch) 0 d
    = ((outSl c ch).view.loc (c : Thread nD τ) ↦[(outSl c ch).view.set]{fullShare.right.right} OUT m) := payload_agS m c 2 ch d
theorem payload_agR_1 (d : Fin 4) : (Rd m).payload (agR c 1 ch) 0 d
    = ((outSl (pl c 1) ch).view.loc (c : Thread nD τ) ↦[(outSl (pl c 1) ch).view.set]{fullShare} OUT m) := payload_agR m c 0 ch d
theorem payload_agR_2 (d : Fin 4) : (Rd m).payload (agR c 2 ch) 0 d
    = ((outSl (pl c 2) ch).view.loc (c : Thread nD τ) ↦[(outSl (pl c 2) ch).view.set]{fullShare} OUT m) := payload_agR m c 1 ch d
theorem payload_agR_3 (d : Fin 4) : (Rd m).payload (agR c 3 ch) 0 d
    = ((outSl (pl c 3) ch).view.loc (c : Thread nD τ) ↦[(outSl (pl c 3) ch).view.set]{fullShare} OUT m) := payload_agR m c 2 ch d

theorem rest_rsS_1 : bigSep ((Rd m).duties (rsS c 1 ch) 0 \ ∅) (fun d => (Rd m).payload (rsS c 1 ch) 0 d)
    = ((rsSrc c 0 ch).view.loc (c : Thread nD τ) ↦[(rsSrc c 0 ch).view.set]{fullShare} Pblk m c) := rest_rsS m c 0 ch
theorem rest_rsS_2 : bigSep ((Rd m).duties (rsS c 2 ch) 0 \ ∅) (fun d => (Rd m).payload (rsS c 2 ch) 0 d)
    = ((rsSrc c 1 ch).view.loc (c : Thread nD τ) ↦[(rsSrc c 1 ch).view.set]{fullShare} Pblk m c) := rest_rsS m c 1 ch
theorem rest_rsS_3 : bigSep ((Rd m).duties (rsS c 3 ch) 0 \ ∅) (fun d => (Rd m).payload (rsS c 3 ch) 0 d)
    = ((rsSrc c 2 ch).view.loc (c : Thread nD τ) ↦[(rsSrc c 2 ch).view.set]{fullShare} Pblk m c) := rest_rsS m c 2 ch
theorem rest_rsR_1 : bigSep ((Rd m).duties (rsR c 1 ch) 0 \ ∅) (fun d => (Rd m).payload (rsR c 1 ch) 0 d)
    = ((rsDst 1 ch).view.loc (c : Thread nD τ) ↦[(rsDst 1 ch).view.set]{fullShare} RSfun m c) := rest_rsR m c 0 ch
theorem rest_rsR_2 : bigSep ((Rd m).duties (rsR c 2 ch) 0 \ ∅) (fun d => (Rd m).payload (rsR c 2 ch) 0 d)
    = ((rsDst 2 ch).view.loc (c : Thread nD τ) ↦[(rsDst 2 ch).view.set]{fullShare} RSfun m c) := rest_rsR m c 1 ch
theorem rest_rsR_3 : bigSep ((Rd m).duties (rsR c 3 ch) 0 \ ∅) (fun d => (Rd m).payload (rsR c 3 ch) 0 d)
    = ((rsDst 3 ch).view.loc (c : Thread nD τ) ↦[(rsDst 3 ch).view.set]{fullShare} RSfun m c) := rest_rsR m c 2 ch
theorem rest_agS_1 : bigSep ((Rd m).duties (agS c 1 ch) 0 \ ∅) (fun d => (Rd m).payload (agS c 1 ch) 0 d)
    = ((outSl c ch).view.loc (c : Thread nD τ) ↦[(outSl c ch).view.set]{fullShare.right.left} OUT m) := rest_agS m c 0 ch
theorem rest_agS_2 : bigSep ((Rd m).duties (agS c 2 ch) 0 \ ∅) (fun d => (Rd m).payload (agS c 2 ch) 0 d)
    = ((outSl c ch).view.loc (c : Thread nD τ) ↦[(outSl c ch).view.set]{fullShare.left} OUT m) := rest_agS m c 1 ch
theorem rest_agS_3 : bigSep ((Rd m).duties (agS c 3 ch) 0 \ ∅) (fun d => (Rd m).payload (agS c 3 ch) 0 d)
    = ((outSl c ch).view.loc (c : Thread nD τ) ↦[(outSl c ch).view.set]{fullShare.right.right} OUT m) := rest_agS m c 2 ch
theorem rest_agR_1 : bigSep ((Rd m).duties (agR c 1 ch) 0 \ ∅) (fun d => (Rd m).payload (agR c 1 ch) 0 d)
    = ((outSl (pl c 1) ch).view.loc (c : Thread nD τ) ↦[(outSl (pl c 1) ch).view.set]{fullShare} OUT m) := rest_agR m c 0 ch
theorem rest_agR_2 : bigSep ((Rd m).duties (agR c 2 ch) 0 \ ∅) (fun d => (Rd m).payload (agR c 2 ch) 0 d)
    = ((outSl (pl c 2) ch).view.loc (c : Thread nD τ) ↦[(outSl (pl c 2) ch).view.set]{fullShare} OUT m) := rest_agR m c 1 ch
theorem rest_agR_3 : bigSep ((Rd m).duties (agR c 3 ch) 0 \ ∅) (fun d => (Rd m).payload (agR c 3 ch) 0 d)
    = ((outSl (pl c 3) ch).view.loc (c : Thread nD τ) ↦[(outSl (pl c 3) ch).view.set]{fullShare} OUT m) := rest_agR m c 2 ch

end Rows

/-! ## The two remote copies -/

/-- The copy of piece `ch` of a slab of device `c`'s partial product into the receive buffer of the device `r + 1`
    places on, at this protocol's cells (the peer, the semaphores and the two pieces as the program spells them,
    substituted): the source piece comes back on the send cell unchanged; what lands is the piece at its final contents,
    which is what the target's receive cell hands its owner. -/
theorem wp_rs_send (c : Dev nD) (r : Fin 3) (ch : Fin 4) (n : Dev nD) (hn : n = pl c (r.val + 1))
    (sS sR : DmaSem sig) (hS : sS = semOf cc0_scratch2 r.succ ch) (hR : sR = semOf cc0_scratch3 r.rev.succ ch)
    (src dst : Memref sig .tc .vmem S32x512 .bf16) (hsrc' : src = rsSrc c r ch) (hdst' : dst = rsDst r.rev.succ ch)
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (κ₁ κ₂ : ℕ)
    (fd : Buf (Elt F) ((rsDst r.rev.succ ch).view.loc (pl c (r.val + 1) : Thread nD τ)))
    (O : CellTallies nD τ sig Unit) (W : Waits sig Unit) :
    iprop(cellInv ER (Rd m) κ₁ (rsS c r.succ ch) ∗ cellInv ER (Rd m) κ₂ (rsR (pl c (r.val + 1)) r.rev.succ ch)
        ∗ ((rsSrc c r ch).view.loc (c : Thread nD τ) ↦[(rsSrc c r ch).view.set]{fullShare} Pblk m c)
        ∗ ((rsDst r.rev.succ ch).view.loc (pl c (r.val + 1) : Thread nD τ) ↦[(rsDst r.rev.succ ch).view.set]{fullShare} fd)
        ∗ owes (c : Thread nD τ) (O + tallyAt (rsR (pl c (r.val + 1)) r.rev.succ ch) () Nr) W
        ∗ dutyTok ER (rsS c r.succ ch) 0 0 ∗ reached ER (rsS c r.succ ch) 0
        ∗ dutyTok ER (rsR (pl c (r.val + 1)) r.rev.succ ch) 0 0 ∗ reached ER (rsR (pl c (r.val + 1)) r.rev.succ ch) 0)
      ⊢ iprop(((cred (tallyAt (rsS c r.succ ch) () Nr) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR hsrc' hdst'
  exact Rounds.wp_send_pointsTo 𝒱₀ ER (Rd m) (c : Thread nD τ) none
    (c' := (pl c (r.val + 1) : Thread nD τ)) (src := rsSrc c r ch) (dst := rsDst r.rev.succ ch) (q := fullShare) (fs := Pblk m c) (fd := fd)
    (κ₁ := κ₁) (κ₂ := κ₂) (r₁ := 0) (r₂ := 0) (d₁ := 0) (d₂ := 0)
    (by rw [duties_rsS]; exact Finset.mem_singleton_self _) (by rw [duties_rsR]; exact Finset.mem_singleton_self _)
    () () Nr rfl (amount_rsS m c r ch 0) (amount_rsR m (pl c (r.val + 1)) r.rev ch 0) O rfl (W := W)
    (by rw [payload_rsS])
    (by have h := rs_landed_pts m c r ch fd; unfold pts at h; rw [payload_rsR, h])

theorem pl_pl_rev (c : Dev nD) (r : Fin 3) : pl (pl c (r.val + 1)) (r.rev.val + 1) = c := by revert c r; decide

/-- The finished piece of rows of `x`, on device `c'`, named through an equal device. -/
theorem outSl_pts_congr (c' x y : Dev nD) (ch : Fin 4) (h : x = y) :
    ((outSl x ch).view.loc (c' : Thread nD τ) ↦[(outSl x ch).view.set]{fullShare} OUT m : sProp 𝕄)
      = ((outSl y ch).view.loc (c' : Thread nD τ) ↦[(outSl y ch).view.set]{fullShare} OUT m) := by
  subst h; rfl

/-- The copy of device `c`'s finished piece `ch` onto the same rows of the result on the device `r + 1` places on:
    the third of the piece's share that this copy reads comes back on the send cell; what lands is the final result on those rows, which is what the target's
    receive cell (row `3 − r`, the sender being that many places on from the target) hands its owner. -/
theorem wp_ag_send (c : Dev nD) (r : Fin 3) (ch : Fin 4) (n : Dev nD) (hn : n = pl c (r.val + 1))
    (sS sR : DmaSem sig) (hS : sS = semOf cc0_scratch4 r.succ ch) (hR : sR = semOf cc0_scratch5 r.rev.succ ch)
    (src dst : Memref sig .tc .vmem S32x512 .bf16) (hsrc' : src = outSl c ch) (hdst' : dst = outSl c ch)
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (κ₁ κ₂ : ℕ)
    (fd : Buf (Elt F) ((outSl c ch).view.loc (pl c (r.val + 1) : Thread nD τ)))
    (O : CellTallies nD τ sig Unit) (W : Waits sig Unit) :
    iprop(cellInv ER (Rd m) κ₁ (agS c r.succ ch) ∗ cellInv ER (Rd m) κ₂ (agR (pl c (r.val + 1)) r.rev.succ ch)
        ∗ ((outSl c ch).view.loc (c : Thread nD τ) ↦[(outSl c ch).view.set]{agShare (r.val + 1)} OUT m)
        ∗ ((outSl c ch).view.loc (pl c (r.val + 1) : Thread nD τ) ↦[(outSl c ch).view.set]{fullShare} fd)
        ∗ owes (c : Thread nD τ) (O + tallyAt (agR (pl c (r.val + 1)) r.rev.succ ch) () No) W
        ∗ dutyTok ER (agS c r.succ ch) 0 0 ∗ reached ER (agS c r.succ ch) 0
        ∗ dutyTok ER (agR (pl c (r.val + 1)) r.rev.succ ch) 0 0 ∗ reached ER (agR (pl c (r.val + 1)) r.rev.succ ch) 0)
      ⊢ iprop(((cred (tallyAt (agS c r.succ ch) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR hsrc' hdst'
  exact Rounds.wp_send_pointsTo 𝒱₀ ER (Rd m) (c : Thread nD τ) none
    (c' := (pl c (r.val + 1) : Thread nD τ)) (src := outSl c ch) (dst := outSl c ch) (q := agShare (r.val + 1)) (fs := OUT m) (fd := fd)
    (κ₁ := κ₁) (κ₂ := κ₂) (r₁ := 0) (r₂ := 0) (d₁ := 0) (d₂ := 0)
    (by rw [duties_agS]; exact Finset.mem_singleton_self _) (by rw [duties_agR]; exact Finset.mem_singleton_self _)
    () () No rfl (amount_agS m c r ch 0) (amount_agR m (pl c (r.val + 1)) r.rev ch 0) O rfl (W := W)
    (by rw [payload_agS])
    (by have h := ag_landed_pts m c (pl c (r.val + 1)) ch fd; unfold pts at h; rw [payload_agR, outSl_pts_congr m _ _ c ch (pl_pl_rev c r), h])

/-- info: 'Cert.Kernel.Hand.wp_rs_send' depends on axioms: [propext, Classical.choice, Quot.sound] -/
#guard_msgs in #print axioms wp_rs_send
/-- info: 'Cert.Kernel.Hand.wp_ag_send' depends on axioms: [propext, Classical.choice, Quot.sound] -/
#guard_msgs in #print axioms wp_ag_send

end Cert.Kernel.Hand

end
-- ==== Proof.KernelAccess.lean ====
/-
  The body's local loads and stores of pieces: which elements each touches, and what the stored piece is.

  Per 32-row piece the body loads the piece of its own slab of the partial product (which it keeps whole, beside the
  twelve pieces that go out), the three received pieces of the same rows (slabs 1, 3, 2 of the receive buffer), adds
  them in that order, applies the GELU and stores the result through the whole result buffer into the piece of its own
  rows. Each access stays inside the piece the body holds. The received piece of slab `k` at its final contents is the
  same piece of the sender's partial product, so what is stored is the result on that piece.
-/
import proofs.«900554_g7700000000000555_dist_matmul_gelu_kshard_i_m512_n512_k256_v7x_i4_bf16_1_alg».proof.Proof.KernelTables

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The device's own slab of the partial product -/

/-- The printed offsets of piece `ch` of the device's own slab: slab `c`, rows `32·ch …`. -/
def ownOff (c : Dev nD) : Fin 4 → (Fin 3 → Nat)
  | 0 => k0_off5 c
  | 1 => k0_off7 c
  | 2 => k0_off8 c
  | 3 => k0_off9 c
  | ⟨_ + 4, h⟩ => absurd h (Nat.not_lt.2 (Nat.le_add_left _ _))

theorem ownOff_inb (c : Dev nD) : ∀ (ch : Fin 4), ∀ a, ownOff c ch a + S1x32x512.size a ≤ S4x128x512.size a
  | 0 => k0_off5_inb c
  | 1 => k0_off7_inb c
  | 2 => k0_off8_inb c
  | 3 => k0_off9_inb c
  | ⟨_ + 4, h⟩ => absurd h (Nat.not_lt.2 (Nat.le_add_left _ _))

theorem ownOff_eq (c : Dev nD) (ch : Fin 4) : ownOff c ch = ![c.val, 32 * ch.val, 0] := by
  have h : ∀ ch : Fin 4, ch = 0 ∨ ch = 1 ∨ ch = 2 ∨ ch = 3 := by decide
  rcases h ch with rfl | rfl | rfl | rfl
  · exact k0_off5_eq c
  · exact k0_off7_eq c
  · exact k0_off8_eq c
  · exact k0_off9_eq c

/-- The rectangle of piece `ch` of the device's own slab. -/
abbrev ownRect (c : Dev nD) (ch : Fin 4) : Rect S4x128x512 :=
  Rect.unit (s := S4x128x512) (ownOff c ch) S1x32x512.size (ownOff_inb c ch)

/-- The device's own slab is none of the slabs that go out. -/
theorem own_key_not_sent : ∀ (c : Dev nD) (x : Fin 4), (c, x) ∉ pKeys c := by decide

/-- The elements of piece `ch` of the own slab are among those the device keeps. -/
theorem own_slab_sub (c : Dev nD) (ch : Fin 4) :
    (pM : Memref sig .tc .vmem S4x128x512 .bf16).view.setOn (ownRect c ch).toLoadRect.set
      ⊆ Finset.univ \ keysSet (pKey c) (pKeys c) := by
  intro i hi
  have hi₁ : i ∈ (ownRect c ch).set := by
    obtain ⟨j, hj, rfl⟩ := Finset.mem_map.mp hi
    exact hj
  have hi' := Rect.mem_set_unit.mp hi₁
  rw [ownOff_eq] at hi'
  have h0 : c.val ≤ ((i : S4x128x512.Idx) 0).val ∧ ((i : S4x128x512.Idx) 0).val < c.val + 1 := hi' 0
  rw [Finset.mem_sdiff, mem_keysSet]
  refine ⟨Finset.mem_univ _, fun hk => own_key_not_sent c (slabKey i).2 ?_⟩
  have he : pKey c i = (c, (slabKey i).2) := Prod.ext (Fin.ext (by show ((i : S4x128x512.Idx) 0).val = c.val; omega)) rfl
  rw [← he]; exact hk

/-- The load of piece `ch` of the own slab, the rectangle as the program spells it (substituted). -/
theorem wp_load_own (c : Dev nD) (ch : Fin 4) (f : Buf (Elt F) (pLoc c)) (r : Rect S4x128x512) (hr : r = ownRect c ch)
    {hl : (pM : Memref sig .tc .vmem S4x128x512 .bf16).view.LoadsAt r.toLoadRect}
    {α : Type} {Q : α → sProp 𝕄} {k : (r.toLoadRect.shape.Idx → Elt F .bf16) → Prog (TpuEff nD τ sig (Elt F) Λ₀ .tc) α} :
    pRest c f
      ⊢ iprop((pRest c f -∗ wp frame (wpE (defs₀ (F := F)) 𝒱₀ (c : Thread nD τ) none) Set.univ
              (k ((pM : Memref sig .tc .vmem S4x128x512 .bf16).view.readAt (Elt F) r.toLoadRect f)) Q)
          -∗ wp frame (wpE (defs₀ (F := F)) 𝒱₀ (c : Thread nD τ) none) Set.univ (.op (.load pM r.toLoadRect hl) k) Q) := by
  subst hr
  unfold pRest
  exact wp_load 𝒱₀ (c : Thread nD τ) none Set.univ (m := pM) (own_slab_sub c ch)

/-! ## The received pieces -/

/-- A load of piece `ch` of slab `k` through the whole receive buffer reads elements of that piece. -/
theorem rs_load_sub (k ch : Fin 4) :
    (rM : Memref sig .tc .vmem S4x128x512 .bf16).view.setOn
        (Rect.unit (s := S4x128x512) ![k.val, 32 * ch.val, 0] S1x32x512.size (rsDst_inb k ch)).toLoadRect.set
      ⊆ (rsDst k ch).view.set := by
  intro i hi
  simp only [Memref.view_squeeze, Memref.view_slice, Memref.view_whole, View.set_reshape, View.set_slice_whole]
  obtain ⟨j, hj, rfl⟩ := Finset.mem_map.mp hi
  exact hj

theorem wp_load_rs (c : Dev nD) (k ch : Fin 4) (g : Buf (Elt F) (rsLoc c)) (r : Rect S4x128x512)
    (hr : r = Rect.unit (s := S4x128x512) ![k.val, 32 * ch.val, 0] S1x32x512.size (rsDst_inb k ch))
    {hl : (rM : Memref sig .tc .vmem S4x128x512 .bf16).view.LoadsAt r.toLoadRect}
    {α : Type} {Q : α → sProp 𝕄} {k' : (r.toLoadRect.shape.Idx → Elt F .bf16) → Prog (TpuEff nD τ sig (Elt F) Λ₀ .tc) α} :
    ((rsDst k ch).view.loc (c : Thread nD τ) ↦[(rsDst k ch).view.set]{fullShare} g)
      ⊢ iprop((((rsDst k ch).view.loc (c : Thread nD τ) ↦[(rsDst k ch).view.set]{fullShare} g)
              -∗ wp frame (wpE (defs₀ (F := F)) 𝒱₀ (c : Thread nD τ) none) Set.univ
                (k' ((rM : Memref sig .tc .vmem S4x128x512 .bf16).view.readAt (Elt F) r.toLoadRect g)) Q)
          -∗ wp frame (wpE (defs₀ (F := F)) 𝒱₀ (c : Thread nD τ) none) Set.univ (.op (.load rM r.toLoadRect hl) k') Q) := by
  subst hr
  exact wp_load 𝒱₀ (c : Thread nD τ) none Set.univ (m := rM) (rs_load_sub k ch)

/-! ## The finished piece -/

/-- A load through a piece of the result reads elements of that piece. -/
theorem out_load_sub (c : Dev nD) (ch : Fin 4) (r : LoadRect S32x512) : (outSl c ch).view.setOn r.set ⊆ (outSl c ch).view.set :=
  View.setOn_subset_set _ _

/-- A store through the whole result into the rectangle of piece `ch` of the device's rows writes that piece. -/
theorem out_store_sub (c : Dev nD) (ch : Fin 4) :
    ((oM : Memref sig .tc .vmem S512x512 .bf16).access
        (Rect.unit (s := S512x512) (k0_off6 c (BitVec.ofNat 32 (32 * ch.val))) S32x512.size (k0_off6_inb c ch))).setOn Finset.univ
      ⊆ (outSl c ch).view.set :=
  Finset.Subset.refl _

theorem wp_load_out (c : Dev nD) (ch : Fin 4) (o0 : Buf (Elt F) (outLoc c))
    {r : LoadRect S32x512} {hl : (outSl c ch).view.LoadsAt r}
    {α : Type} {Q : α → sProp 𝕄} {k : (r.shape.Idx → Elt F .bf16) → Prog (TpuEff nD τ sig (Elt F) Λ₀ .tc) α} :
    ((outSl c ch).view.loc (c : Thread nD τ) ↦[(outSl c ch).view.set]{fullShare} o0)
      ⊢ iprop((((outSl c ch).view.loc (c : Thread nD τ) ↦[(outSl c ch).view.set]{fullShare} o0)
              -∗ wp frame (wpE (defs₀ (F := F)) 𝒱₀ (c : Thread nD τ) none) Set.univ (k ((outSl c ch).view.readAt (Elt F) r o0)) Q)
          -∗ wp frame (wpE (defs₀ (F := F)) 𝒱₀ (c : Thread nD τ) none) Set.univ (.op (.load (outSl c ch) r hl) k) Q) := by
  exact wp_load 𝒱₀ (c : Thread nD τ) none Set.univ (m := outSl c ch) (out_load_sub c ch r)

theorem wp_store_out (c : Dev nD) (ch : Fin 4) (o0 : Buf (Elt F) (outLoc c)) (r : Rect S512x512)
    (hr : r = Rect.unit (s := S512x512) (k0_off6 c (BitVec.ofNat 32 (32 * ch.val))) S32x512.size (k0_off6_inb c ch))
    {w : r.shape.Idx → Elt F .bf16} {hx : ((oM : Memref sig .tc .vmem S512x512 .bf16).access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    ((outSl c ch).view.loc (c : Thread nD τ) ↦[(outSl c ch).view.set]{fullShare} o0)
      ⊢ iprop((((outSl c ch).view.loc (c : Thread nD τ) ↦[(outSl c ch).view.set]{fullShare}
                ((oM : Memref sig .tc .vmem S512x512 .bf16).access r).write (Elt F) o0 w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store oM r w Finset.univ hx hm) k) Q) := by
  subst hr
  exact wp_store 𝒱₀ (c : Thread nD τ) none Set.univ (m := oM) (out_store_sub c ch)

/-! ## What the loads read -/

/-- Piece `ch` of the own slab of the partial product, as loaded. -/
theorem own_read (c : Dev nD) (ch : Fin 4) :
    (pM : Memref sig .tc .vmem S4x128x512 .bf16).view.readAt (Elt F) (ownRect c ch).toLoadRect (Pblk m c) = slab (Pblk m c) c ch := by
  funext j
  show Pblk m c ((ownRect c ch).toLoadRect.idx j) = Pblk m c _
  congr 1
  funext a
  apply Fin.ext
  show ownOff c ch a + 1 * (j a).val = _
  rw [ownOff_eq]
  have h0 : (j 0).val < 1 := (j 0).isLt
  match a with
  | ⟨0, _⟩ => show c.val + 1 * (j 0).val = c.val; omega
  | ⟨1, _⟩ => show 32 * ch.val + 1 * (j 1).val = 32 * ch.val + (j 1).val; omega
  | ⟨2, _⟩ => show 0 + 1 * (j 2).val = (j 2).val; omega

/-- Piece `ch` of slab `k` of the receive buffer at its final contents, as loaded: the same piece of the device's own
    slab of the partial product of the device `k` places on. -/
theorem rs_read (c : Dev nD) (k ch : Fin 4) :
    (rM : Memref sig .tc .vmem S4x128x512 .bf16).view.readAt (Elt F)
        (Rect.unit (s := S4x128x512) ![k.val, 32 * ch.val, 0] S1x32x512.size (rsDst_inb k ch)).toLoadRect (RSfun m c)
      = slab (Pblk m (pl c k.val)) c ch := by
  funext j
  have h0 : (j 0).val < 1 := (j 0).isLt
  show Pblk m (pl c (k.val + 1 * (j 0).val)) _ = Pblk m (pl c k.val) _
  rw [show k.val + 1 * (j 0).val = k.val by omega]
  congr 1
  funext a
  apply Fin.ext
  match a with
  | ⟨0, _⟩ => rfl
  | ⟨1, _⟩ => show 32 * ch.val + 1 * (j 1).val = 32 * ch.val + (j 1).val; omega
  | ⟨2, _⟩ => show 0 + 1 * (j 2).val = (j 2).val; omega

/-! ## The result, row by row -/

theorem OUT_row (p y : Fin 512) :
    OUT m (ValueIdx.ix2 p y)
      = chunkVal (slab (Pblk m (devOfRow p)) (devOfRow p) (pieceOfRow p)) (slab (Pblk m (pl (devOfRow p) 1)) (devOfRow p) (pieceOfRow p))
          (slab (Pblk m (pl (devOfRow p) 3)) (devOfRow p) (pieceOfRow p)) (slab (Pblk m (pl (devOfRow p) 2)) (devOfRow p) (pieceOfRow p))
          (ValueIdx.ix2 (⟨p.val % 32, Nat.mod_lt _ (by decide)⟩ : Fin 32) y) := rfl

/-- Row `x` of piece `ch` of device `s`'s rows of the result. -/
theorem OUT_at (s : Dev nD) (ch : Fin 4) (x : Fin 32) (y : Fin 512) (p : Fin 512) (hp : p.val = 128 * s.val + 32 * ch.val + x.val) :
    OUT m (ValueIdx.ix2 p y)
      = chunkVal (slab (Pblk m s) s ch) (slab (Pblk m (pl s 1)) s ch) (slab (Pblk m (pl s 3)) s ch) (slab (Pblk m (pl s 2)) s ch)
          (ValueIdx.ix2 x y) := by
  have hs : s.val < 4 := s.isLt
  have hc := ch.isLt
  have hx := x.isLt
  have e1 : devOfRow p = s := Fin.ext (by show p.val / 128 = s.val; omega)
  have e2 : pieceOfRow p = ch := Fin.ext (by show p.val % 128 / 32 = ch.val; omega)
  have e3 : (⟨p.val % 32, Nat.mod_lt _ (by decide)⟩ : Fin 32) = x := Fin.ext (by show p.val % 32 = x.val; omega)
  rw [OUT_row, e1, e2, e3]

/-! ## The stored piece -/

/-- The four loads of piece `ch`: the own slab's piece, and the received pieces of slabs `k`. -/
abbrev ldOwn (c : Dev nD) (ch : Fin 4) : Vec F S1x32x512 .bf16 :=
  (pM : Memref sig .tc .vmem S4x128x512 .bf16).view.readAt (Elt F) (ownRect c ch).toLoadRect (Pblk m c)
abbrev ldRs (c : Dev nD) (k ch : Fin 4) : Vec F S1x32x512 .bf16 :=
  (rM : Memref sig .tc .vmem S4x128x512 .bf16).view.readAt (Elt F)
    (Rect.unit (s := S4x128x512) ![k.val, 32 * ch.val, 0] S1x32x512.size (rsDst_inb k ch)).toLoadRect (RSfun m c)

/-- The sum of the four pieces in the kernel's order, then the GELU, written over piece `ch` of the device's own rows,
    is the result there. -/
theorem chunk_stored (c : Dev nD) (ch : Fin 4) (o0 : Vec F S512x512 .bf16) :
    ∀ i ∈ (outSl c ch).view.set,
      ((outSl c ch).view.write (Elt F) o0 (chunkVal (ldOwn m c ch) (ldRs m c 1 ch) (ldRs m c 3 ch) (ldRs m c 2 ch)) Finset.univ) i
        = OUT m i := by
  intro i hi
  have hi' := (mem_outSl c ch i).mp hi
  have h1 : (i 1).val < 512 := (i 1).isLt
  obtain ⟨x, y, rfl⟩ : ∃ (x : Fin 32) (y : Fin 512), i = (outSl c ch).view.emb (ValueIdx.ix2 x y) := by
    refine ⟨⟨(i 0).val - (128 * c.val + 32 * ch.val), by omega⟩, ⟨(i 1).val, h1⟩, ?_⟩
    rw [emb_outSl]
    funext a
    apply Fin.ext
    match a with
    | ⟨0, _⟩ => show (i 0).val = 128 * c.val + 32 * ch.val + ((i 0).val - (128 * c.val + 32 * ch.val)); omega
    | ⟨1, _⟩ => rfl
  rw [View.write_emb_of_mem _ _ (Finset.mem_univ _), emb_outSl, OUT_at m c ch x y _ rfl]
  simp only [cast_eq]
  rw [show ldOwn m c ch = slab (Pblk m c) c ch from own_read m c ch,
    show ldRs m c 1 ch = slab (Pblk m (pl c 1)) c ch from rs_read m c 1 ch,
    show ldRs m c 3 ch = slab (Pblk m (pl c 3)) c ch from rs_read m c 3 ch,
    show ldRs m c 2 ch = slab (Pblk m (pl c 2)) c ch from rs_read m c 2 ch]

/-- The same as an equality of assertions: the piece at what was stored is the piece at the result. -/
theorem chunk_stored_pts (c : Dev nD) (ch : Fin 4) (o0 : Vec F S512x512 .bf16) :
    (((outSl c ch).view.loc (c : Thread nD τ) ↦[(outSl c ch).view.set]{fullShare}
        ((outSl c ch).view.write (Elt F) o0 (chunkVal (ldOwn m c ch) (ldRs m c 1 ch) (ldRs m c 3 ch) (ldRs m c 2 ch)) Finset.univ)) : sProp 𝕄)
      = ((outSl c ch).view.loc (c : Thread nD τ) ↦[(outSl c ch).view.set]{fullShare} OUT m) :=
  BI.Region.is_congr (chunk_stored m c ch o0)

/-! ### The stored value as the program computes it, piece by piece -/

theorem stored_0 (x0 x1 x3 x2 : Vec F S1x32x512 .bf16) :
    k0_pay4 (k0_pay3 (k0_pay2 x0 x1) x3 x2) = chunkVal x0 x1 x3 x2 := rfl
theorem stored_1 (x0 x1 x3 x2 : Vec F S1x32x512 .bf16) :
    k0_pay10 (k0_pay7 (k0_pay5 x0 x1) x3 x2) (k0_pay8 (k0_pay5 x0 x1) x3 x2) (k0_pay9 (F := F)) = chunkVal x0 x1 x3 x2 := rfl
theorem stored_2 (x0 x1 x3 x2 : Vec F S1x32x512 .bf16) :
    k0_pay15 (k0_pay13 (k0_pay11 x0 x1) x3 x2) (k0_pay14 (k0_pay11 x0 x1) x3 x2) = chunkVal x0 x1 x3 x2 := rfl
theorem stored_3 (x0 x1 x3 x2 : Vec F S1x32x512 .bf16) :
    k0_pay21 (k0_pay18 (k0_pay16 x0 x1) x3 x2) (k0_pay19 (k0_pay16 x0 x1) x3 x2) (k0_pay20 (F := F)) = chunkVal x0 x1 x3 x2 := rfl

/-! ### The same, with the loads, the payload chain and the store spelt as the program spells them -/

theorem chunk_stored_pts_0 (c : Dev nD) (o0 : Vec F S512x512 .bf16) :
    (((outSl c 0).view.loc (c : Thread nD τ) ↦[(outSl c 0).view.set]{fullShare}
        (((oM : Memref sig .tc .vmem S512x512 .bf16).access (Rect.unit (s := S512x512) (k0_off6 c 0#32) S32x512.size (k0_off6_inb c 0))).write (Elt F) o0
          (k0_pay4 (k0_pay3 (k0_pay2
              ((pM : Memref sig .tc .vmem S4x128x512 .bf16).view.readAt (Elt F) (Rect.unit (s := S4x128x512) (k0_off5 c) S1x32x512.size (k0_off5_inb c)).toLoadRect (Pblk m c))
              ((rM : Memref sig .tc .vmem S4x128x512 .bf16).view.readAt (Elt F) (Rect.unit (s := S4x128x512) ![1, 0, 0] S1x32x512.size inb_S4x128x512_S1x32x512_1_0_0).toLoadRect (RSfun m c)))
            ((rM : Memref sig .tc .vmem S4x128x512 .bf16).view.readAt (Elt F) (Rect.unit (s := S4x128x512) ![3, 0, 0] S1x32x512.size inb_S4x128x512_S1x32x512_3_0_0).toLoadRect (RSfun m c))
            ((rM : Memref sig .tc .vmem S4x128x512 .bf16).view.readAt (Elt F) (Rect.unit (s := S4x128x512) ![2, 0, 0] S1x32x512.size inb_S4x128x512_S1x32x512_2_0_0).toLoadRect (RSfun m c))))
          Finset.univ)) : sProp 𝕄)
      = ((outSl c 0).view.loc (c : Thread nD τ) ↦[(outSl c 0).view.set]{fullShare} OUT m) :=
  chunk_stored_pts m c 0 o0

theorem chunk_stored_pts_1 (c : Dev nD) (o0 : Vec F S512x512 .bf16) :
    (((outSl c 1).view.loc (c : Thread nD τ) ↦[(outSl c 1).view.set]{fullShare}
        (((oM : Memref sig .tc .vmem S512x512 .bf16).access (Rect.unit (s := S512x512) (k0_off6 c 32#32) S32x512.size (k0_off6_inb c 1))).write (Elt F) o0
          (k0_pay10
            (k0_pay7 (k0_pay5
                ((pM : Memref sig .tc .vmem S4x128x512 .bf16).view.readAt (Elt F) (Rect.unit (s := S4x128x512) (k0_off7 c) S1x32x512.size (k0_off7_inb c)).toLoadRect (Pblk m c))
                ((rM : Memref sig .tc .vmem S4x128x512 .bf16).view.readAt (Elt F) (Rect.unit (s := S4x128x512) ![1, 32, 0] S1x32x512.size inb_S4x128x512_S1x32x512_1_32_0).toLoadRect (RSfun m c)))
              ((rM : Memref sig .tc .vmem S4x128x512 .bf16).view.readAt (Elt F) (Rect.unit (s := S4x128x512) ![3, 32, 0] S1x32x512.size inb_S4x128x512_S1x32x512_3_32_0).toLoadRect (RSfun m c))
              ((rM : Memref sig .tc .vmem S4x128x512 .bf16).view.readAt (Elt F) (Rect.unit (s := S4x128x512) ![2, 32, 0] S1x32x512.size inb_S4x128x512_S1x32x512_2_32_0).toLoadRect (RSfun m c)))
            (k0_pay8 (k0_pay5
                ((pM : Memref sig .tc .vmem S4x128x512 .bf16).view.readAt (Elt F) (Rect.unit (s := S4x128x512) (k0_off7 c) S1x32x512.size (k0_off7_inb c)).toLoadRect (Pblk m c))
                ((rM : Memref sig .tc .vmem S4x128x512 .bf16).view.readAt (Elt F) (Rect.unit (s := S4x128x512) ![1, 32, 0] S1x32x512.size inb_S4x128x512_S1x32x512_1_32_0).toLoadRect (RSfun m c)))
              ((rM : Memref sig .tc .vmem S4x128x512 .bf16).view.readAt (Elt F) (Rect.unit (s := S4x128x512) ![3, 32, 0] S1x32x512.size inb_S4x128x512_S1x32x512_3_32_0).toLoadRect (RSfun m c))
              ((rM : Memref sig .tc .vmem S4x128x512 .bf16).view.readAt (Elt F) (Rect.unit (s := S4x128x512) ![2, 32, 0] S1x32x512.size inb_S4x128x512_S1x32x512_2_32_0).toLoadRect (RSfun m c)))
            (k0_pay9 (F := F)))
          Finset.univ)) : sProp 𝕄)
      = ((outSl c 1).view.loc (c : Thread nD τ) ↦[(outSl c 1).view.set]{fullShare} OUT m) :=
  chunk_stored_pts m c 1 o0

theorem chunk_stored_pts_2 (c : Dev nD) (o0 : Vec F S512x512 .bf16) :
    (((outSl c 2).view.loc (c : Thread nD τ) ↦[(outSl c 2).view.set]{fullShare}
        (((oM : Memref sig .tc .vmem S512x512 .bf16).access (Rect.unit (s := S512x512) (k0_off6 c 64#32) S32x512.size (k0_off6_inb c 2))).write (Elt F) o0
          (k0_pay15
            (k0_pay13 (k0_pay11
                ((pM : Memref sig .tc .vmem S4x128x512 .bf16).view.readAt (Elt F) (Rect.unit (s := S4x128x512) (k0_off8 c) S1x32x512.size (k0_off8_inb c)).toLoadRect (Pblk m c))
                ((rM : Memref sig .tc .vmem S4x128x512 .bf16).view.readAt (Elt F) (Rect.unit (s := S4x128x512) ![1, 64, 0] S1x32x512.size inb_S4x128x512_S1x32x512_1_64_0).toLoadRect (RSfun m c)))
              ((rM : Memref sig .tc .vmem S4x128x512 .bf16).view.readAt (Elt F) (Rect.unit (s := S4x128x512) ![3, 64, 0] S1x32x512.size inb_S4x128x512_S1x32x512_3_64_0).toLoadRect (RSfun m c))
              ((rM : Memref sig .tc .vmem S4x128x512 .bf16).view.readAt (Elt F) (Rect.unit (s := S4x128x512) ![2, 64, 0] S1x32x512.size inb_S4x128x512_S1x32x512_2_64_0).toLoadRect (RSfun m c)))
            (k0_pay14 (k0_pay11
                ((pM : Memref sig .tc .vmem S4x128x512 .bf16).view.readAt (Elt F) (Rect.unit (s := S4x128x512) (k0_off8 c) S1x32x512.size (k0_off8_inb c)).toLoadRect (Pblk m c))
                ((rM : Memref sig .tc .vmem S4x128x512 .bf16).view.readAt (Elt F) (Rect.unit (s := S4x128x512) ![1, 64, 0] S1x32x512.size inb_S4x128x512_S1x32x512_1_64_0).toLoadRect (RSfun m c)))
              ((rM : Memref sig .tc .vmem S4x128x512 .bf16).view.readAt (Elt F) (Rect.unit (s := S4x128x512) ![3, 64, 0] S1x32x512.size inb_S4x128x512_S1x32x512_3_64_0).toLoadRect (RSfun m c))
              ((rM : Memref sig .tc .vmem S4x128x512 .bf16).view.readAt (Elt F) (Rect.unit (s := S4x128x512) ![2, 64, 0] S1x32x512.size inb_S4x128x512_S1x32x512_2_64_0).toLoadRect (RSfun m c))))
          Finset.univ)) : sProp 𝕄)
      = ((outSl c 2).view.loc (c : Thread nD τ) ↦[(outSl c 2).view.set]{fullShare} OUT m) :=
  chunk_stored_pts m c 2 o0

theorem chunk_stored_pts_3 (c : Dev nD) (o0 : Vec F S512x512 .bf16) :
    (((outSl c 3).view.loc (c : Thread nD τ) ↦[(outSl c 3).view.set]{fullShare}
        (((oM : Memref sig .tc .vmem S512x512 .bf16).access (Rect.unit (s := S512x512) (k0_off6 c 96#32) S32x512.size (k0_off6_inb c 3))).write (Elt F) o0
          (k0_pay21
            (k0_pay18 (k0_pay16
                ((pM : Memref sig .tc .vmem S4x128x512 .bf16).view.readAt (Elt F) (Rect.unit (s := S4x128x512) (k0_off9 c) S1x32x512.size (k0_off9_inb c)).toLoadRect (Pblk m c))
                ((rM : Memref sig .tc .vmem S4x128x512 .bf16).view.readAt (Elt F) (Rect.unit (s := S4x128x512) ![1, 96, 0] S1x32x512.size inb_S4x128x512_S1x32x512_1_96_0).toLoadRect (RSfun m c)))
              ((rM : Memref sig .tc .vmem S4x128x512 .bf16).view.readAt (Elt F) (Rect.unit (s := S4x128x512) ![3, 96, 0] S1x32x512.size inb_S4x128x512_S1x32x512_3_96_0).toLoadRect (RSfun m c))
              ((rM : Memref sig .tc .vmem S4x128x512 .bf16).view.readAt (Elt F) (Rect.unit (s := S4x128x512) ![2, 96, 0] S1x32x512.size inb_S4x128x512_S1x32x512_2_96_0).toLoadRect (RSfun m c)))
            (k0_pay19 (k0_pay16
                ((pM : Memref sig .tc .vmem S4x128x512 .bf16).view.readAt (Elt F) (Rect.unit (s := S4x128x512) (k0_off9 c) S1x32x512.size (k0_off9_inb c)).toLoadRect (Pblk m c))
                ((rM : Memref sig .tc .vmem S4x128x512 .bf16).view.readAt (Elt F) (Rect.unit (s := S4x128x512) ![1, 96, 0] S1x32x512.size inb_S4x128x512_S1x32x512_1_96_0).toLoadRect (RSfun m c)))
              ((rM : Memref sig .tc .vmem S4x128x512 .bf16).view.readAt (Elt F) (Rect.unit (s := S4x128x512) ![3, 96, 0] S1x32x512.size inb_S4x128x512_S1x32x512_3_96_0).toLoadRect (RSfun m c))
              ((rM : Memref sig .tc .vmem S4x128x512 .bf16).view.readAt (Elt F) (Rect.unit (s := S4x128x512) ![2, 96, 0] S1x32x512.size inb_S4x128x512_S1x32x512_2_96_0).toLoadRect (RSfun m c)))
            (k0_pay20 (F := F)))
          Finset.univ)) : sProp 𝕄)
      = ((outSl c 3).view.loc (c : Thread nD τ) ↦[(outSl c 3).view.set]{fullShare} OUT m) :=
  chunk_stored_pts m c 3 o0

/-- info: 'Cert.Kernel.Hand.chunk_stored_pts' depends on axioms: [propext, Classical.choice, Quot.sound] -/
#guard_msgs in #print axioms chunk_stored_pts
/-- info: 'Cert.Kernel.Hand.chunk_stored_pts_3' depends on axioms: [propext, Classical.choice, Quot.sound] -/
#guard_msgs in #print axioms chunk_stored_pts_3

end Cert.Kernel.Hand

end
-- ==== Proof.KernelWaits.lean ====
/-
  At which of its waits a device may wait: everything it still owes sits, in level, above the cell it waits on.
-/
import proofs.«900554_g7700000000000555_dist_matmul_gelu_kshard_i_m512_n512_k256_v7x_i4_bf16_1_alg».proof.Proof.KernelState

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem L_of_ne (g : GSem nD τ sig) (h : g.1.2 ≠ .tc) : L g = ∅ := if_neg h
theorem L_tc (c : Dev nD) (sm : SemLoc sig) : L ((c : Thread nD τ), sm) = {()} := if_pos rfl

/-- A sum of one-cell tallies over a list is positive only at a listed cell. -/
theorem foldr_pos (l : List (GSem nD τ sig × ℕ)) {g : GSem nD τ sig} {u : Unit}
    (h : 0 < (l.foldr (fun p acc => acc + tallyAt p.1 () p.2) (0 : CellTallies nD τ sig Unit)) g u) : ∃ p ∈ l, g = p.1 := by
  induction l with
  | nil => rw [List.foldr_nil, Pi.zero_apply, Finsupp.zero_apply] at h; exact absurd h (Nat.lt_irrefl 0)
  | cons p l ih =>
    rw [List.foldr_cons] at h
    rcases Pipeline.add_pos_cases h with h | h
    · obtain ⟨q, hq, e⟩ := ih h; exact ⟨q, List.mem_cons_of_mem _ hq, e⟩
    · exact ⟨p, List.mem_cons_self, (Pipeline.tallyAt_pos h).1⟩

/-- Every cell a device pays is a TensorCore's. -/
theorem payList_tc : ∀ c : Dev nD, ∀ p ∈ payList c, p.1.1.2 = Proc.tc := by decide

/-- What is still owed after `k` payments is positive only at a cell still to be paid. -/
theorem owedFrom_pos {c : Dev nD} {k : ℕ} {g : GSem nD τ sig} {u : Unit} (h : 0 < owedFrom c k g u) : ∃ p ∈ (payList c).drop k, g = p.1 :=
  foldr_pos _ h

/-- A wait on cell `sm` after `k` payments, every cell still to be paid being above it. -/
theorem mayWait_at (c : Dev nD) (k : ℕ) (sm : SemLoc sig)
    (h : ∀ p ∈ (payList c).drop k, lv ((c : Thread nD τ), sm) () < lv p.1 ()) :
    (levAts L lv : sProp 𝕄) ⊢ MayWait (c : Thread nD τ) sm () (owedFrom c k) :=
  Pipeline.mayWait_of_levAts (by rw [L_tc]; exact Finset.mem_singleton_self _) fun g u hg => by
    obtain ⟨p, hp, rfl⟩ := owedFrom_pos hg
    refine ⟨?_, h p hp⟩
    rw [show L p.1 = {()} from if_pos (payList_tc c p (List.mem_of_mem_drop hp))]; exact Finset.mem_singleton_self _

/-- The entry wait: the three signals sent, the copies still owed land on receive cells, above the barrier. -/
theorem mayWait_bar (c : Dev nD) : (levAts L lv : sProp 𝕄) ⊢ MayWait (c : Thread nD τ) (.reg barS) () (owedFrom c 3) :=
  mayWait_at c 3 _ (by revert c; decide)

/-- The finished-piece receive cells sit above every partial-product receive cell. -/
theorem rs_below : ∀ (c : Dev nD) (kk ch : Fin 4), ∀ p ∈ (payList c).drop 15, lv ((c : Thread nD τ), .dma (semOf cc0_scratch3 kk ch)) () < lv p.1 () := by decide

/-- A wait on a partial-product receive cell once all twelve partial-product copies of the piece and its predecessors are
    out: only finished-piece receives are owed from then on. -/
theorem mayWait_rs (c : Dev nD) (kk ch : Fin 4) (k : ℕ) (hk : 15 ≤ k) :
    (levAts L lv : sProp 𝕄) ⊢ MayWait (c : Thread nD τ) (.dma (semOf cc0_scratch3 kk ch)) () (owedFrom c k) :=
  mayWait_at c k _ fun p hp => by
    have h15 : p ∈ (payList c).drop 15 := by
      obtain ⟨j, rfl⟩ := Nat.exists_eq_add_of_le hk
      rw [← List.drop_drop] at hp; exact List.mem_of_mem_drop hp
    exact rs_below c kk ch p h15

theorem mayWait_rs15 (c : Dev nD) (kk ch : Fin 4) : (levAts L lv : sProp 𝕄) ⊢ MayWait (c : Thread nD τ) (.dma (semOf cc0_scratch3 kk ch)) () (owedFrom c 15) := mayWait_rs c kk ch 15 (by decide)
theorem mayWait_rs18 (c : Dev nD) (kk ch : Fin 4) : (levAts L lv : sProp 𝕄) ⊢ MayWait (c : Thread nD τ) (.dma (semOf cc0_scratch3 kk ch)) () (owedFrom c 18) := mayWait_rs c kk ch 18 (by decide)
theorem mayWait_rs21 (c : Dev nD) (kk ch : Fin 4) : (levAts L lv : sProp 𝕄) ⊢ MayWait (c : Thread nD τ) (.dma (semOf cc0_scratch3 kk ch)) () (owedFrom c 21) := mayWait_rs c kk ch 21 (by decide)
theorem mayWait_rs24 (c : Dev nD) (kk ch : Fin 4) : (levAts L lv : sProp 𝕄) ⊢ MayWait (c : Thread nD τ) (.dma (semOf cc0_scratch3 kk ch)) () (owedFrom c 24) := mayWait_rs c kk ch 24 (by decide)

/-- Owing nothing, a device may wait anywhere. -/
theorem mayWait_done (c : Dev nD) (sm : SemLoc sig) : (levAts L lv : sProp 𝕄) ⊢ MayWait (c : Thread nD τ) sm () (owedFrom c 27) := by
  rw [show owedFrom c 27 = 0 from rfl, MayWait_zero]; iintro -; iempintro

end Cert.Kernel.Hand

end
-- ==== Proof.KernelBodyDefs.lean ====
import proofs.«900554_g7700000000000555_dist_matmul_gelu_kshard_i_m512_n512_k256_v7x_i4_bf16_1_alg».proof.Proof.KernelPieces
import proofs.«900554_g7700000000000555_dist_matmul_gelu_kshard_i_m512_n512_k256_v7x_i4_bf16_1_alg».proof.Proof.KernelWaits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A cell's invariant at the name `K` gives it, under a name of its own (the long run carries many of them). -/
def cinv (K : GSem nD τ sig → ℕ) (g : GSem nD τ sig) : sProp 𝕄 := cellInv ER (Rd m) (K g) g

instance cinv_persistent (K : GSem nD τ sig → ℕ) (g : GSem nD τ sig) : BI.Persistent (cinv m K g) := by unfold cinv; infer_instance

/-- What device `c` holds when its body starts, spelt out: the invariants of its own cells and of the cells it pays
    (at the names `K`), the rounds reached, its tokens, positions and credits, the input blocks, the partial-product
    buffer whole, the receive buffer and the result cut into the pieces the others will write, and what it owes. -/
def bodyPre (K : GSem nD τ sig → ℕ) (c : Dev nD) (p0 r0 : Vec F S4x128x512 .bf16) (o0 : Vec F S512x512 .bf16) (W : Waits sig Unit) : sProp 𝕄 :=
  iprop(cinv m K (barCell c)
    ∗ cinv m K (barCell (pl c 1))
    ∗ cinv m K (barCell (pl c 2))
    ∗ cinv m K (barCell (pl c 3))
    ∗ cinv m K (rsS c 0 0)
    ∗ cinv m K (rsS c 0 1)
    ∗ cinv m K (rsS c 0 2)
    ∗ cinv m K (rsS c 0 3)
    ∗ cinv m K (rsR c 0 0)
    ∗ cinv m K (rsR c 0 1)
    ∗ cinv m K (rsR c 0 2)
    ∗ cinv m K (rsR c 0 3)
    ∗ cinv m K (agS c 0 0)
    ∗ cinv m K (agS c 0 1)
    ∗ cinv m K (agS c 0 2)
    ∗ cinv m K (agS c 0 3)
    ∗ cinv m K (agR c 0 0)
    ∗ cinv m K (agR c 0 1)
    ∗ cinv m K (agR c 0 2)
    ∗ cinv m K (agR c 0 3)
    ∗ cinv m K (rsS c 1 0)
    ∗ cinv m K (rsS c 1 1)
    ∗ cinv m K (rsS c 1 2)
    ∗ cinv m K (rsS c 1 3)
    ∗ cinv m K (rsS c 2 0)
    ∗ cinv m K (rsS c 2 1)
    ∗ cinv m K (rsS c 2 2)
    ∗ cinv m K (rsS c 2 3)
    ∗ cinv m K (rsS c 3 0)
    ∗ cinv m K (rsS c 3 1)
    ∗ cinv m K (rsS c 3 2)
    ∗ cinv m K (rsS c 3 3)
    ∗ cinv m K (rsR c 1 0)
    ∗ cinv m K (rsR c 1 1)
    ∗ cinv m K (rsR c 1 2)
    ∗ cinv m K (rsR c 1 3)
    ∗ cinv m K (rsR c 2 0)
    ∗ cinv m K (rsR c 2 1)
    ∗ cinv m K (rsR c 2 2)
    ∗ cinv m K (rsR c 2 3)
    ∗ cinv m K (rsR c 3 0)
    ∗ cinv m K (rsR c 3 1)
    ∗ cinv m K (rsR c 3 2)
    ∗ cinv m K (rsR c 3 3)
    ∗ cinv m K (agS c 1 0)
    ∗ cinv m K (agS c 1 1)
    ∗ cinv m K (agS c 1 2)
    ∗ cinv m K (agS c 1 3)
    ∗ cinv m K (agS c 2 0)
    ∗ cinv m K (agS c 2 1)
    ∗ cinv m K (agS c 2 2)
    ∗ cinv m K (agS c 2 3)
    ∗ cinv m K (agS c 3 0)
    ∗ cinv m K (agS c 3 1)
    ∗ cinv m K (agS c 3 2)
    ∗ cinv m K (agS c 3 3)
    ∗ cinv m K (agR c 1 0)
    ∗ cinv m K (agR c 1 1)
    ∗ cinv m K (agR c 1 2)
    ∗ cinv m K (agR c 1 3)
    ∗ cinv m K (agR c 2 0)
    ∗ cinv m K (agR c 2 1)
    ∗ cinv m K (agR c 2 2)
    ∗ cinv m K (agR c 2 3)
    ∗ cinv m K (agR c 3 0)
    ∗ cinv m K (agR c 3 1)
    ∗ cinv m K (agR c 3 2)
    ∗ cinv m K (agR c 3 3)
    ∗ cinv m K (rsR (pl c 1) 3 0)
    ∗ cinv m K (rsR (pl c 1) 3 1)
    ∗ cinv m K (rsR (pl c 1) 3 2)
    ∗ cinv m K (rsR (pl c 1) 3 3)
    ∗ cinv m K (rsR (pl c 2) 2 0)
    ∗ cinv m K (rsR (pl c 2) 2 1)
    ∗ cinv m K (rsR (pl c 2) 2 2)
    ∗ cinv m K (rsR (pl c 2) 2 3)
    ∗ cinv m K (rsR (pl c 3) 1 0)
    ∗ cinv m K (rsR (pl c 3) 1 1)
    ∗ cinv m K (rsR (pl c 3) 1 2)
    ∗ cinv m K (rsR (pl c 3) 1 3)
    ∗ cinv m K (agR (pl c 1) 3 0)
    ∗ cinv m K (agR (pl c 1) 3 1)
    ∗ cinv m K (agR (pl c 1) 3 2)
    ∗ cinv m K (agR (pl c 1) 3 3)
    ∗ cinv m K (agR (pl c 2) 2 0)
    ∗ cinv m K (agR (pl c 2) 2 1)
    ∗ cinv m K (agR (pl c 2) 2 2)
    ∗ cinv m K (agR (pl c 2) 2 3)
    ∗ cinv m K (agR (pl c 3) 1 0)
    ∗ cinv m K (agR (pl c 3) 1 1)
    ∗ cinv m K (agR (pl c 3) 1 2)
    ∗ cinv m K (agR (pl c 3) 1 3)
    ∗ reached ER (barCell (pl c 1)) 0
    ∗ reached ER (barCell (pl c 2)) 0
    ∗ reached ER (barCell (pl c 3)) 0
    ∗ reached ER (rsS c 1 0) 0
    ∗ reached ER (rsS c 1 1) 0
    ∗ reached ER (rsS c 1 2) 0
    ∗ reached ER (rsS c 1 3) 0
    ∗ reached ER (rsS c 2 0) 0
    ∗ reached ER (rsS c 2 1) 0
    ∗ reached ER (rsS c 2 2) 0
    ∗ reached ER (rsS c 2 3) 0
    ∗ reached ER (rsS c 3 0) 0
    ∗ reached ER (rsS c 3 1) 0
    ∗ reached ER (rsS c 3 2) 0
    ∗ reached ER (rsS c 3 3) 0
    ∗ reached ER (agS c 1 0) 0
    ∗ reached ER (agS c 1 1) 0
    ∗ reached ER (agS c 1 2) 0
    ∗ reached ER (agS c 1 3) 0
    ∗ reached ER (agS c 2 0) 0
    ∗ reached ER (agS c 2 1) 0
    ∗ reached ER (agS c 2 2) 0
    ∗ reached ER (agS c 2 3) 0
    ∗ reached ER (agS c 3 0) 0
    ∗ reached ER (agS c 3 1) 0
    ∗ reached ER (agS c 3 2) 0
    ∗ reached ER (agS c 3 3) 0
    ∗ reached ER (rsR (pl c 1) 3 0) 0
    ∗ reached ER (rsR (pl c 1) 3 1) 0
    ∗ reached ER (rsR (pl c 1) 3 2) 0
    ∗ reached ER (rsR (pl c 1) 3 3) 0
    ∗ reached ER (rsR (pl c 2) 2 0) 0
    ∗ reached ER (rsR (pl c 2) 2 1) 0
    ∗ reached ER (rsR (pl c 2) 2 2) 0
    ∗ reached ER (rsR (pl c 2) 2 3) 0
    ∗ reached ER (rsR (pl c 3) 1 0) 0
    ∗ reached ER (rsR (pl c 3) 1 1) 0
    ∗ reached ER (rsR (pl c 3) 1 2) 0
    ∗ reached ER (rsR (pl c 3) 1 3) 0
    ∗ reached ER (agR (pl c 1) 3 0) 0
    ∗ reached ER (agR (pl c 1) 3 1) 0
    ∗ reached ER (agR (pl c 1) 3 2) 0
    ∗ reached ER (agR (pl c 1) 3 3) 0
    ∗ reached ER (agR (pl c 2) 2 0) 0
    ∗ reached ER (agR (pl c 2) 2 1) 0
    ∗ reached ER (agR (pl c 2) 2 2) 0
    ∗ reached ER (agR (pl c 2) 2 3) 0
    ∗ reached ER (agR (pl c 3) 1 0) 0
    ∗ reached ER (agR (pl c 3) 1 1) 0
    ∗ reached ER (agR (pl c 3) 1 2) 0
    ∗ reached ER (agR (pl c 3) 1 3) 0
    ∗ levAts L lv
    ∗ ((aM).view.loc (c : Thread nD τ) ↦[(aM).view.set]{fullShare} Ablk m c)
    ∗ ((bM).view.loc (c : Thread nD τ) ↦[(bM).view.set]{fullShare} Bblk m c)
    ∗ ((pM).view.loc (c : Thread nD τ) ↦[(pM).view.set]{fullShare} p0)
    ∗ pts (rsDst 1 0) c r0
    ∗ pts (rsDst 1 1) c r0
    ∗ pts (rsDst 1 2) c r0
    ∗ pts (rsDst 1 3) c r0
    ∗ pts (rsDst 2 0) c r0
    ∗ pts (rsDst 2 1) c r0
    ∗ pts (rsDst 2 2) c r0
    ∗ pts (rsDst 2 3) c r0
    ∗ pts (rsDst 3 0) c r0
    ∗ pts (rsDst 3 1) c r0
    ∗ pts (rsDst 3 2) c r0
    ∗ pts (rsDst 3 3) c r0
    ∗ pts (outSl (pl c 1) 0) c o0
    ∗ pts (outSl (pl c 1) 1) c o0
    ∗ pts (outSl (pl c 1) 2) c o0
    ∗ pts (outSl (pl c 1) 3) c o0
    ∗ pts (outSl (pl c 2) 0) c o0
    ∗ pts (outSl (pl c 2) 1) c o0
    ∗ pts (outSl (pl c 2) 2) c o0
    ∗ pts (outSl (pl c 2) 3) c o0
    ∗ pts (outSl (pl c 3) 0) c o0
    ∗ pts (outSl (pl c 3) 1) c o0
    ∗ pts (outSl (pl c 3) 2) c o0
    ∗ pts (outSl (pl c 3) 3) c o0
    ∗ rsRest c r0
    ∗ pts (outSl c 0) c o0
    ∗ pts (outSl c 1) c o0
    ∗ pts (outSl c 2) c o0
    ∗ pts (outSl c 3) c o0
    ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr + tallyAt (barCell (pl c 3)) () 1 + tallyAt (barCell (pl c 2)) () 1 + tallyAt (barCell (pl c 1)) () 1) W
    ∗ dutyTok ER (barCell (pl c 1)) 0 1
    ∗ dutyTok ER (barCell (pl c 2)) 0 2
    ∗ dutyTok ER (barCell (pl c 3)) 0 3
    ∗ atPos ER (barCell c) 0 ∅ 0
    ∗ cred (tallyAt (barCell c) () 3)
    ∗ dutyTok ER (rsS c 2 0) 0 0
    ∗ dutyTok ER (rsR (pl c 2) 2 0) 0 0
    ∗ dutyTok ER (rsS c 1 0) 0 0
    ∗ dutyTok ER (rsR (pl c 1) 3 0) 0 0
    ∗ dutyTok ER (rsS c 3 0) 0 0
    ∗ dutyTok ER (rsR (pl c 3) 1 0) 0 0
    ∗ dutyTok ER (rsS c 2 1) 0 0
    ∗ dutyTok ER (rsR (pl c 2) 2 1) 0 0
    ∗ dutyTok ER (rsS c 1 1) 0 0
    ∗ dutyTok ER (rsR (pl c 1) 3 1) 0 0
    ∗ dutyTok ER (rsS c 3 1) 0 0
    ∗ dutyTok ER (rsR (pl c 3) 1 1) 0 0
    ∗ dutyTok ER (rsS c 2 2) 0 0
    ∗ dutyTok ER (rsR (pl c 2) 2 2) 0 0
    ∗ dutyTok ER (rsS c 1 2) 0 0
    ∗ dutyTok ER (rsR (pl c 1) 3 2) 0 0
    ∗ dutyTok ER (rsS c 3 2) 0 0
    ∗ dutyTok ER (rsR (pl c 3) 1 2) 0 0
    ∗ dutyTok ER (rsS c 2 3) 0 0
    ∗ dutyTok ER (rsR (pl c 2) 2 3) 0 0
    ∗ dutyTok ER (rsS c 1 3) 0 0
    ∗ dutyTok ER (rsR (pl c 1) 3 3) 0 0
    ∗ dutyTok ER (rsS c 3 3) 0 0
    ∗ dutyTok ER (rsR (pl c 3) 1 3) 0 0
    ∗ atPos ER (rsR c 1 0) 0 ∅ 0
    ∗ cred (tallyAt (rsR c 1 0) () Nr)
    ∗ atPos ER (rsR c 3 0) 0 ∅ 0
    ∗ cred (tallyAt (rsR c 3 0) () Nr)
    ∗ atPos ER (rsR c 2 0) 0 ∅ 0
    ∗ cred (tallyAt (rsR c 2 0) () Nr)
    ∗ dutyTok ER (agS c 2 0) 0 0
    ∗ dutyTok ER (agR (pl c 2) 2 0) 0 0
    ∗ dutyTok ER (agS c 1 0) 0 0
    ∗ dutyTok ER (agR (pl c 1) 3 0) 0 0
    ∗ dutyTok ER (agS c 3 0) 0 0
    ∗ dutyTok ER (agR (pl c 3) 1 0) 0 0
    ∗ atPos ER (rsR c 1 1) 0 ∅ 0
    ∗ cred (tallyAt (rsR c 1 1) () Nr)
    ∗ atPos ER (rsR c 3 1) 0 ∅ 0
    ∗ cred (tallyAt (rsR c 3 1) () Nr)
    ∗ atPos ER (rsR c 2 1) 0 ∅ 0
    ∗ cred (tallyAt (rsR c 2 1) () Nr)
    ∗ dutyTok ER (agS c 2 1) 0 0
    ∗ dutyTok ER (agR (pl c 2) 2 1) 0 0
    ∗ dutyTok ER (agS c 1 1) 0 0
    ∗ dutyTok ER (agR (pl c 1) 3 1) 0 0
    ∗ dutyTok ER (agS c 3 1) 0 0
    ∗ dutyTok ER (agR (pl c 3) 1 1) 0 0
    ∗ atPos ER (rsR c 1 2) 0 ∅ 0
    ∗ cred (tallyAt (rsR c 1 2) () Nr)
    ∗ atPos ER (rsR c 3 2) 0 ∅ 0
    ∗ cred (tallyAt (rsR c 3 2) () Nr)
    ∗ atPos ER (rsR c 2 2) 0 ∅ 0
    ∗ cred (tallyAt (rsR c 2 2) () Nr)
    ∗ dutyTok ER (agS c 2 2) 0 0
    ∗ dutyTok ER (agR (pl c 2) 2 2) 0 0
    ∗ dutyTok ER (agS c 1 2) 0 0
    ∗ dutyTok ER (agR (pl c 1) 3 2) 0 0
    ∗ dutyTok ER (agS c 3 2) 0 0
    ∗ dutyTok ER (agR (pl c 3) 1 2) 0 0
    ∗ atPos ER (rsR c 1 3) 0 ∅ 0
    ∗ cred (tallyAt (rsR c 1 3) () Nr)
    ∗ atPos ER (rsR c 3 3) 0 ∅ 0
    ∗ cred (tallyAt (rsR c 3 3) () Nr)
    ∗ atPos ER (rsR c 2 3) 0 ∅ 0
    ∗ cred (tallyAt (rsR c 2 3) () Nr)
    ∗ dutyTok ER (agS c 2 3) 0 0
    ∗ dutyTok ER (agR (pl c 2) 2 3) 0 0
    ∗ dutyTok ER (agS c 1 3) 0 0
    ∗ dutyTok ER (agR (pl c 1) 3 3) 0 0
    ∗ dutyTok ER (agS c 3 3) 0 0
    ∗ dutyTok ER (agR (pl c 3) 1 3) 0 0
    ∗ atPos ER (agR c 1 0) 0 ∅ 0
    ∗ cred (tallyAt (agR c 1 0) () No)
    ∗ atPos ER (agR c 3 0) 0 ∅ 0
    ∗ cred (tallyAt (agR c 3 0) () No)
    ∗ atPos ER (agR c 2 0) 0 ∅ 0
    ∗ cred (tallyAt (agR c 2 0) () No)
    ∗ atPos ER (agR c 1 1) 0 ∅ 0
    ∗ cred (tallyAt (agR c 1 1) () No)
    ∗ atPos ER (agR c 3 1) 0 ∅ 0
    ∗ cred (tallyAt (agR c 3 1) () No)
    ∗ atPos ER (agR c 2 1) 0 ∅ 0
    ∗ cred (tallyAt (agR c 2 1) () No)
    ∗ atPos ER (agR c 1 2) 0 ∅ 0
    ∗ cred (tallyAt (agR c 1 2) () No)
    ∗ atPos ER (agR c 3 2) 0 ∅ 0
    ∗ cred (tallyAt (agR c 3 2) () No)
    ∗ atPos ER (agR c 2 2) 0 ∅ 0
    ∗ cred (tallyAt (agR c 2 2) () No)
    ∗ atPos ER (agR c 1 3) 0 ∅ 0
    ∗ cred (tallyAt (agR c 1 3) () No)
    ∗ atPos ER (agR c 3 3) 0 ∅ 0
    ∗ cred (tallyAt (agR c 3 3) () No)
    ∗ atPos ER (agR c 2 3) 0 ∅ 0
    ∗ cred (tallyAt (agR c 2 3) () No)
    ∗ atPos ER (rsS c 2 0) 0 ∅ 0
    ∗ atPos ER (rsS c 1 0) 0 ∅ 0
    ∗ atPos ER (rsS c 3 0) 0 ∅ 0
    ∗ atPos ER (rsS c 2 1) 0 ∅ 0
    ∗ atPos ER (rsS c 1 1) 0 ∅ 0
    ∗ atPos ER (rsS c 3 1) 0 ∅ 0
    ∗ atPos ER (rsS c 2 2) 0 ∅ 0
    ∗ atPos ER (rsS c 1 2) 0 ∅ 0
    ∗ atPos ER (rsS c 3 2) 0 ∅ 0
    ∗ atPos ER (rsS c 2 3) 0 ∅ 0
    ∗ atPos ER (rsS c 1 3) 0 ∅ 0
    ∗ atPos ER (rsS c 3 3) 0 ∅ 0
    ∗ atPos ER (agS c 2 0) 0 ∅ 0
    ∗ atPos ER (agS c 1 0) 0 ∅ 0
    ∗ atPos ER (agS c 3 0) 0 ∅ 0
    ∗ atPos ER (agS c 2 1) 0 ∅ 0
    ∗ atPos ER (agS c 1 1) 0 ∅ 0
    ∗ atPos ER (agS c 3 1) 0 ∅ 0
    ∗ atPos ER (agS c 2 2) 0 ∅ 0
    ∗ atPos ER (agS c 1 2) 0 ∅ 0
    ∗ atPos ER (agS c 3 2) 0 ∅ 0
    ∗ atPos ER (agS c 2 3) 0 ∅ 0
    ∗ atPos ER (agS c 1 3) 0 ∅ 0
    ∗ atPos ER (agS c 3 3) 0 ∅ 0
    ∗ atPos ER (rsS c 0 0) 0 ∅ 0
    ∗ atPos ER (rsS c 0 1) 0 ∅ 0
    ∗ atPos ER (rsS c 0 2) 0 ∅ 0
    ∗ atPos ER (rsS c 0 3) 0 ∅ 0
    ∗ atPos ER (rsR c 0 0) 0 ∅ 0
    ∗ atPos ER (rsR c 0 1) 0 ∅ 0
    ∗ atPos ER (rsR c 0 2) 0 ∅ 0
    ∗ atPos ER (rsR c 0 3) 0 ∅ 0
    ∗ atPos ER (agS c 0 0) 0 ∅ 0
    ∗ atPos ER (agS c 0 1) 0 ∅ 0
    ∗ atPos ER (agS c 0 2) 0 ∅ 0
    ∗ atPos ER (agS c 0 3) 0 ∅ 0
    ∗ atPos ER (agR c 0 0) 0 ∅ 0
    ∗ atPos ER (agR c 0 1) 0 ∅ 0
    ∗ atPos ER (agR c 0 2) 0 ∅ 0
    ∗ atPos ER (agR c 0 3) 0 ∅ 0)

/-- What it holds when the body's last wait has returned: every used cell one round on, the source pieces back at
    the partial product, the received pieces at their final contents, every piece of the result at the result. -/
def bodyEnd (K : GSem nD τ sig → ℕ) (c : Dev nD) (r0 : Vec F S4x128x512 .bf16) : sProp 𝕄 :=
  iprop(cellInv ER (Rd m) (K (barCell c)) (barCell c)
    ∗ cellInv ER (Rd m) (K (barCell (pl c 1))) (barCell (pl c 1))
    ∗ cellInv ER (Rd m) (K (barCell (pl c 2))) (barCell (pl c 2))
    ∗ cellInv ER (Rd m) (K (barCell (pl c 3))) (barCell (pl c 3))
    ∗ cellInv ER (Rd m) (K (rsS c 0 0)) (rsS c 0 0)
    ∗ cellInv ER (Rd m) (K (rsS c 0 1)) (rsS c 0 1)
    ∗ cellInv ER (Rd m) (K (rsS c 0 2)) (rsS c 0 2)
    ∗ cellInv ER (Rd m) (K (rsS c 0 3)) (rsS c 0 3)
    ∗ cellInv ER (Rd m) (K (rsR c 0 0)) (rsR c 0 0)
    ∗ cellInv ER (Rd m) (K (rsR c 0 1)) (rsR c 0 1)
    ∗ cellInv ER (Rd m) (K (rsR c 0 2)) (rsR c 0 2)
    ∗ cellInv ER (Rd m) (K (rsR c 0 3)) (rsR c 0 3)
    ∗ cellInv ER (Rd m) (K (agS c 0 0)) (agS c 0 0)
    ∗ cellInv ER (Rd m) (K (agS c 0 1)) (agS c 0 1)
    ∗ cellInv ER (Rd m) (K (agS c 0 2)) (agS c 0 2)
    ∗ cellInv ER (Rd m) (K (agS c 0 3)) (agS c 0 3)
    ∗ cellInv ER (Rd m) (K (agR c 0 0)) (agR c 0 0)
    ∗ cellInv ER (Rd m) (K (agR c 0 1)) (agR c 0 1)
    ∗ cellInv ER (Rd m) (K (agR c 0 2)) (agR c 0 2)
    ∗ cellInv ER (Rd m) (K (agR c 0 3)) (agR c 0 3)
    ∗ cellInv ER (Rd m) (K (rsS c 1 0)) (rsS c 1 0)
    ∗ cellInv ER (Rd m) (K (rsS c 1 1)) (rsS c 1 1)
    ∗ cellInv ER (Rd m) (K (rsS c 1 2)) (rsS c 1 2)
    ∗ cellInv ER (Rd m) (K (rsS c 1 3)) (rsS c 1 3)
    ∗ cellInv ER (Rd m) (K (rsS c 2 0)) (rsS c 2 0)
    ∗ cellInv ER (Rd m) (K (rsS c 2 1)) (rsS c 2 1)
    ∗ cellInv ER (Rd m) (K (rsS c 2 2)) (rsS c 2 2)
    ∗ cellInv ER (Rd m) (K (rsS c 2 3)) (rsS c 2 3)
    ∗ cellInv ER (Rd m) (K (rsS c 3 0)) (rsS c 3 0)
    ∗ cellInv ER (Rd m) (K (rsS c 3 1)) (rsS c 3 1)
    ∗ cellInv ER (Rd m) (K (rsS c 3 2)) (rsS c 3 2)
    ∗ cellInv ER (Rd m) (K (rsS c 3 3)) (rsS c 3 3)
    ∗ cellInv ER (Rd m) (K (rsR c 1 0)) (rsR c 1 0)
    ∗ cellInv ER (Rd m) (K (rsR c 1 1)) (rsR c 1 1)
    ∗ cellInv ER (Rd m) (K (rsR c 1 2)) (rsR c 1 2)
    ∗ cellInv ER (Rd m) (K (rsR c 1 3)) (rsR c 1 3)
    ∗ cellInv ER (Rd m) (K (rsR c 2 0)) (rsR c 2 0)
    ∗ cellInv ER (Rd m) (K (rsR c 2 1)) (rsR c 2 1)
    ∗ cellInv ER (Rd m) (K (rsR c 2 2)) (rsR c 2 2)
    ∗ cellInv ER (Rd m) (K (rsR c 2 3)) (rsR c 2 3)
    ∗ cellInv ER (Rd m) (K (rsR c 3 0)) (rsR c 3 0)
    ∗ cellInv ER (Rd m) (K (rsR c 3 1)) (rsR c 3 1)
    ∗ cellInv ER (Rd m) (K (rsR c 3 2)) (rsR c 3 2)
    ∗ cellInv ER (Rd m) (K (rsR c 3 3)) (rsR c 3 3)
    ∗ cellInv ER (Rd m) (K (agS c 1 0)) (agS c 1 0)
    ∗ cellInv ER (Rd m) (K (agS c 1 1)) (agS c 1 1)
    ∗ cellInv ER (Rd m) (K (agS c 1 2)) (agS c 1 2)
    ∗ cellInv ER (Rd m) (K (agS c 1 3)) (agS c 1 3)
    ∗ cellInv ER (Rd m) (K (agS c 2 0)) (agS c 2 0)
    ∗ cellInv ER (Rd m) (K (agS c 2 1)) (agS c 2 1)
    ∗ cellInv ER (Rd m) (K (agS c 2 2)) (agS c 2 2)
    ∗ cellInv ER (Rd m) (K (agS c 2 3)) (agS c 2 3)
    ∗ cellInv ER (Rd m) (K (agS c 3 0)) (agS c 3 0)
    ∗ cellInv ER (Rd m) (K (agS c 3 1)) (agS c 3 1)
    ∗ cellInv ER (Rd m) (K (agS c 3 2)) (agS c 3 2)
    ∗ cellInv ER (Rd m) (K (agS c 3 3)) (agS c 3 3)
    ∗ cellInv ER (Rd m) (K (agR c 1 0)) (agR c 1 0)
    ∗ cellInv ER (Rd m) (K (agR c 1 1)) (agR c 1 1)
    ∗ cellInv ER (Rd m) (K (agR c 1 2)) (agR c 1 2)
    ∗ cellInv ER (Rd m) (K (agR c 1 3)) (agR c 1 3)
    ∗ cellInv ER (Rd m) (K (agR c 2 0)) (agR c 2 0)
    ∗ cellInv ER (Rd m) (K (agR c 2 1)) (agR c 2 1)
    ∗ cellInv ER (Rd m) (K (agR c 2 2)) (agR c 2 2)
    ∗ cellInv ER (Rd m) (K (agR c 2 3)) (agR c 2 3)
    ∗ cellInv ER (Rd m) (K (agR c 3 0)) (agR c 3 0)
    ∗ cellInv ER (Rd m) (K (agR c 3 1)) (agR c 3 1)
    ∗ cellInv ER (Rd m) (K (agR c 3 2)) (agR c 3 2)
    ∗ cellInv ER (Rd m) (K (agR c 3 3)) (agR c 3 3)
    ∗ cellInv ER (Rd m) (K (rsR (pl c 1) 3 0)) (rsR (pl c 1) 3 0)
    ∗ cellInv ER (Rd m) (K (rsR (pl c 1) 3 1)) (rsR (pl c 1) 3 1)
    ∗ cellInv ER (Rd m) (K (rsR (pl c 1) 3 2)) (rsR (pl c 1) 3 2)
    ∗ cellInv ER (Rd m) (K (rsR (pl c 1) 3 3)) (rsR (pl c 1) 3 3)
    ∗ cellInv ER (Rd m) (K (rsR (pl c 2) 2 0)) (rsR (pl c 2) 2 0)
    ∗ cellInv ER (Rd m) (K (rsR (pl c 2) 2 1)) (rsR (pl c 2) 2 1)
    ∗ cellInv ER (Rd m) (K (rsR (pl c 2) 2 2)) (rsR (pl c 2) 2 2)
    ∗ cellInv ER (Rd m) (K (rsR (pl c 2) 2 3)) (rsR (pl c 2) 2 3)
    ∗ cellInv ER (Rd m) (K (rsR (pl c 3) 1 0)) (rsR (pl c 3) 1 0)
    ∗ cellInv ER (Rd m) (K (rsR (pl c 3) 1 1)) (rsR (pl c 3) 1 1)
    ∗ cellInv ER (Rd m) (K (rsR (pl c 3) 1 2)) (rsR (pl c 3) 1 2)
    ∗ cellInv ER (Rd m) (K (rsR (pl c 3) 1 3)) (rsR (pl c 3) 1 3)
    ∗ cellInv ER (Rd m) (K (agR (pl c 1) 3 0)) (agR (pl c 1) 3 0)
    ∗ cellInv ER (Rd m) (K (agR (pl c 1) 3 1)) (agR (pl c 1) 3 1)
    ∗ cellInv ER (Rd m) (K (agR (pl c 1) 3 2)) (agR (pl c 1) 3 2)
    ∗ cellInv ER (Rd m) (K (agR (pl c 1) 3 3)) (agR (pl c 1) 3 3)
    ∗ cellInv ER (Rd m) (K (agR (pl c 2) 2 0)) (agR (pl c 2) 2 0)
    ∗ cellInv ER (Rd m) (K (agR (pl c 2) 2 1)) (agR (pl c 2) 2 1)
    ∗ cellInv ER (Rd m) (K (agR (pl c 2) 2 2)) (agR (pl c 2) 2 2)
    ∗ cellInv ER (Rd m) (K (agR (pl c 2) 2 3)) (agR (pl c 2) 2 3)
    ∗ cellInv ER (Rd m) (K (agR (pl c 3) 1 0)) (agR (pl c 3) 1 0)
    ∗ cellInv ER (Rd m) (K (agR (pl c 3) 1 1)) (agR (pl c 3) 1 1)
    ∗ cellInv ER (Rd m) (K (agR (pl c 3) 1 2)) (agR (pl c 3) 1 2)
    ∗ cellInv ER (Rd m) (K (agR (pl c 3) 1 3)) (agR (pl c 3) 1 3)
    ∗ reached ER (barCell (pl c 1)) 0
    ∗ reached ER (barCell (pl c 2)) 0
    ∗ reached ER (barCell (pl c 3)) 0
    ∗ reached ER (rsS c 1 0) 0
    ∗ reached ER (rsS c 1 1) 0
    ∗ reached ER (rsS c 1 2) 0
    ∗ reached ER (rsS c 1 3) 0
    ∗ reached ER (rsS c 2 0) 0
    ∗ reached ER (rsS c 2 1) 0
    ∗ reached ER (rsS c 2 2) 0
    ∗ reached ER (rsS c 2 3) 0
    ∗ reached ER (rsS c 3 0) 0
    ∗ reached ER (rsS c 3 1) 0
    ∗ reached ER (rsS c 3 2) 0
    ∗ reached ER (rsS c 3 3) 0
    ∗ reached ER (agS c 1 0) 0
    ∗ reached ER (agS c 1 1) 0
    ∗ reached ER (agS c 1 2) 0
    ∗ reached ER (agS c 1 3) 0
    ∗ reached ER (agS c 2 0) 0
    ∗ reached ER (agS c 2 1) 0
    ∗ reached ER (agS c 2 2) 0
    ∗ reached ER (agS c 2 3) 0
    ∗ reached ER (agS c 3 0) 0
    ∗ reached ER (agS c 3 1) 0
    ∗ reached ER (agS c 3 2) 0
    ∗ reached ER (agS c 3 3) 0
    ∗ reached ER (rsR (pl c 1) 3 0) 0
    ∗ reached ER (rsR (pl c 1) 3 1) 0
    ∗ reached ER (rsR (pl c 1) 3 2) 0
    ∗ reached ER (rsR (pl c 1) 3 3) 0
    ∗ reached ER (rsR (pl c 2) 2 0) 0
    ∗ reached ER (rsR (pl c 2) 2 1) 0
    ∗ reached ER (rsR (pl c 2) 2 2) 0
    ∗ reached ER (rsR (pl c 2) 2 3) 0
    ∗ reached ER (rsR (pl c 3) 1 0) 0
    ∗ reached ER (rsR (pl c 3) 1 1) 0
    ∗ reached ER (rsR (pl c 3) 1 2) 0
    ∗ reached ER (rsR (pl c 3) 1 3) 0
    ∗ reached ER (agR (pl c 1) 3 0) 0
    ∗ reached ER (agR (pl c 1) 3 1) 0
    ∗ reached ER (agR (pl c 1) 3 2) 0
    ∗ reached ER (agR (pl c 1) 3 3) 0
    ∗ reached ER (agR (pl c 2) 2 0) 0
    ∗ reached ER (agR (pl c 2) 2 1) 0
    ∗ reached ER (agR (pl c 2) 2 2) 0
    ∗ reached ER (agR (pl c 2) 2 3) 0
    ∗ reached ER (agR (pl c 3) 1 0) 0
    ∗ reached ER (agR (pl c 3) 1 1) 0
    ∗ reached ER (agR (pl c 3) 1 2) 0
    ∗ reached ER (agR (pl c 3) 1 3) 0
    ∗ levAts L lv
    ∗ atPos ER (barCell c) 1 ∅ 0
    ∗ atPos ER (rsS c 0 0) 0 ∅ 0
    ∗ atPos ER (rsS c 0 1) 0 ∅ 0
    ∗ atPos ER (rsS c 0 2) 0 ∅ 0
    ∗ atPos ER (rsS c 0 3) 0 ∅ 0
    ∗ atPos ER (rsS c 1 0) 1 ∅ 0
    ∗ atPos ER (rsS c 1 1) 1 ∅ 0
    ∗ atPos ER (rsS c 1 2) 1 ∅ 0
    ∗ atPos ER (rsS c 1 3) 1 ∅ 0
    ∗ atPos ER (rsS c 2 0) 1 ∅ 0
    ∗ atPos ER (rsS c 2 1) 1 ∅ 0
    ∗ atPos ER (rsS c 2 2) 1 ∅ 0
    ∗ atPos ER (rsS c 2 3) 1 ∅ 0
    ∗ atPos ER (rsS c 3 0) 1 ∅ 0
    ∗ atPos ER (rsS c 3 1) 1 ∅ 0
    ∗ atPos ER (rsS c 3 2) 1 ∅ 0
    ∗ atPos ER (rsS c 3 3) 1 ∅ 0
    ∗ atPos ER (rsR c 0 0) 0 ∅ 0
    ∗ atPos ER (rsR c 0 1) 0 ∅ 0
    ∗ atPos ER (rsR c 0 2) 0 ∅ 0
    ∗ atPos ER (rsR c 0 3) 0 ∅ 0
    ∗ atPos ER (rsR c 1 0) 1 ∅ 0
    ∗ atPos ER (rsR c 1 1) 1 ∅ 0
    ∗ atPos ER (rsR c 1 2) 1 ∅ 0
    ∗ atPos ER (rsR c 1 3) 1 ∅ 0
    ∗ atPos ER (rsR c 2 0) 1 ∅ 0
    ∗ atPos ER (rsR c 2 1) 1 ∅ 0
    ∗ atPos ER (rsR c 2 2) 1 ∅ 0
    ∗ atPos ER (rsR c 2 3) 1 ∅ 0
    ∗ atPos ER (rsR c 3 0) 1 ∅ 0
    ∗ atPos ER (rsR c 3 1) 1 ∅ 0
    ∗ atPos ER (rsR c 3 2) 1 ∅ 0
    ∗ atPos ER (rsR c 3 3) 1 ∅ 0
    ∗ atPos ER (agS c 0 0) 0 ∅ 0
    ∗ atPos ER (agS c 0 1) 0 ∅ 0
    ∗ atPos ER (agS c 0 2) 0 ∅ 0
    ∗ atPos ER (agS c 0 3) 0 ∅ 0
    ∗ atPos ER (agS c 1 0) 1 ∅ 0
    ∗ atPos ER (agS c 1 1) 1 ∅ 0
    ∗ atPos ER (agS c 1 2) 1 ∅ 0
    ∗ atPos ER (agS c 1 3) 1 ∅ 0
    ∗ atPos ER (agS c 2 0) 1 ∅ 0
    ∗ atPos ER (agS c 2 1) 1 ∅ 0
    ∗ atPos ER (agS c 2 2) 1 ∅ 0
    ∗ atPos ER (agS c 2 3) 1 ∅ 0
    ∗ atPos ER (agS c 3 0) 1 ∅ 0
    ∗ atPos ER (agS c 3 1) 1 ∅ 0
    ∗ atPos ER (agS c 3 2) 1 ∅ 0
    ∗ atPos ER (agS c 3 3) 1 ∅ 0
    ∗ atPos ER (agR c 0 0) 0 ∅ 0
    ∗ atPos ER (agR c 0 1) 0 ∅ 0
    ∗ atPos ER (agR c 0 2) 0 ∅ 0
    ∗ atPos ER (agR c 0 3) 0 ∅ 0
    ∗ atPos ER (agR c 1 0) 1 ∅ 0
    ∗ atPos ER (agR c 1 1) 1 ∅ 0
    ∗ atPos ER (agR c 1 2) 1 ∅ 0
    ∗ atPos ER (agR c 1 3) 1 ∅ 0
    ∗ atPos ER (agR c 2 0) 1 ∅ 0
    ∗ atPos ER (agR c 2 1) 1 ∅ 0
    ∗ atPos ER (agR c 2 2) 1 ∅ 0
    ∗ atPos ER (agR c 2 3) 1 ∅ 0
    ∗ atPos ER (agR c 3 0) 1 ∅ 0
    ∗ atPos ER (agR c 3 1) 1 ∅ 0
    ∗ atPos ER (agR c 3 2) 1 ∅ 0
    ∗ atPos ER (agR c 3 3) 1 ∅ 0
    ∗ ((aM).view.loc (c : Thread nD τ) ↦[(aM).view.set]{fullShare} Ablk m c)
    ∗ ((bM).view.loc (c : Thread nD τ) ↦[(bM).view.set]{fullShare} Bblk m c)
    ∗ ((rsSrc c 0 0).view.loc (c : Thread nD τ) ↦[(rsSrc c 0 0).view.set]{fullShare} Pblk m c)
    ∗ ((rsSrc c 0 1).view.loc (c : Thread nD τ) ↦[(rsSrc c 0 1).view.set]{fullShare} Pblk m c)
    ∗ ((rsSrc c 0 2).view.loc (c : Thread nD τ) ↦[(rsSrc c 0 2).view.set]{fullShare} Pblk m c)
    ∗ ((rsSrc c 0 3).view.loc (c : Thread nD τ) ↦[(rsSrc c 0 3).view.set]{fullShare} Pblk m c)
    ∗ ((rsSrc c 1 0).view.loc (c : Thread nD τ) ↦[(rsSrc c 1 0).view.set]{fullShare} Pblk m c)
    ∗ ((rsSrc c 1 1).view.loc (c : Thread nD τ) ↦[(rsSrc c 1 1).view.set]{fullShare} Pblk m c)
    ∗ ((rsSrc c 1 2).view.loc (c : Thread nD τ) ↦[(rsSrc c 1 2).view.set]{fullShare} Pblk m c)
    ∗ ((rsSrc c 1 3).view.loc (c : Thread nD τ) ↦[(rsSrc c 1 3).view.set]{fullShare} Pblk m c)
    ∗ ((rsSrc c 2 0).view.loc (c : Thread nD τ) ↦[(rsSrc c 2 0).view.set]{fullShare} Pblk m c)
    ∗ ((rsSrc c 2 1).view.loc (c : Thread nD τ) ↦[(rsSrc c 2 1).view.set]{fullShare} Pblk m c)
    ∗ ((rsSrc c 2 2).view.loc (c : Thread nD τ) ↦[(rsSrc c 2 2).view.set]{fullShare} Pblk m c)
    ∗ ((rsSrc c 2 3).view.loc (c : Thread nD τ) ↦[(rsSrc c 2 3).view.set]{fullShare} Pblk m c)
    ∗ pRest c (Pblk m c)
    ∗ ((rsDst 1 0).view.loc (c : Thread nD τ) ↦[(rsDst 1 0).view.set]{fullShare} RSfun m c)
    ∗ ((rsDst 1 1).view.loc (c : Thread nD τ) ↦[(rsDst 1 1).view.set]{fullShare} RSfun m c)
    ∗ ((rsDst 1 2).view.loc (c : Thread nD τ) ↦[(rsDst 1 2).view.set]{fullShare} RSfun m c)
    ∗ ((rsDst 1 3).view.loc (c : Thread nD τ) ↦[(rsDst 1 3).view.set]{fullShare} RSfun m c)
    ∗ ((rsDst 2 0).view.loc (c : Thread nD τ) ↦[(rsDst 2 0).view.set]{fullShare} RSfun m c)
    ∗ ((rsDst 2 1).view.loc (c : Thread nD τ) ↦[(rsDst 2 1).view.set]{fullShare} RSfun m c)
    ∗ ((rsDst 2 2).view.loc (c : Thread nD τ) ↦[(rsDst 2 2).view.set]{fullShare} RSfun m c)
    ∗ ((rsDst 2 3).view.loc (c : Thread nD τ) ↦[(rsDst 2 3).view.set]{fullShare} RSfun m c)
    ∗ ((rsDst 3 0).view.loc (c : Thread nD τ) ↦[(rsDst 3 0).view.set]{fullShare} RSfun m c)
    ∗ ((rsDst 3 1).view.loc (c : Thread nD τ) ↦[(rsDst 3 1).view.set]{fullShare} RSfun m c)
    ∗ ((rsDst 3 2).view.loc (c : Thread nD τ) ↦[(rsDst 3 2).view.set]{fullShare} RSfun m c)
    ∗ ((rsDst 3 3).view.loc (c : Thread nD τ) ↦[(rsDst 3 3).view.set]{fullShare} RSfun m c)
    ∗ rsRest c r0
    ∗ ((outSl c 0).view.loc (c : Thread nD τ) ↦[(outSl c 0).view.set]{fullShare.left} OUT m)
    ∗ ((outSl c 0).view.loc (c : Thread nD τ) ↦[(outSl c 0).view.set]{fullShare.right.left} OUT m)
    ∗ ((outSl c 0).view.loc (c : Thread nD τ) ↦[(outSl c 0).view.set]{fullShare.right.right} OUT m)
    ∗ ((outSl c 1).view.loc (c : Thread nD τ) ↦[(outSl c 1).view.set]{fullShare.left} OUT m)
    ∗ ((outSl c 1).view.loc (c : Thread nD τ) ↦[(outSl c 1).view.set]{fullShare.right.left} OUT m)
    ∗ ((outSl c 1).view.loc (c : Thread nD τ) ↦[(outSl c 1).view.set]{fullShare.right.right} OUT m)
    ∗ ((outSl c 2).view.loc (c : Thread nD τ) ↦[(outSl c 2).view.set]{fullShare.left} OUT m)
    ∗ ((outSl c 2).view.loc (c : Thread nD τ) ↦[(outSl c 2).view.set]{fullShare.right.left} OUT m)
    ∗ ((outSl c 2).view.loc (c : Thread nD τ) ↦[(outSl c 2).view.set]{fullShare.right.right} OUT m)
    ∗ ((outSl c 3).view.loc (c : Thread nD τ) ↦[(outSl c 3).view.set]{fullShare.left} OUT m)
    ∗ ((outSl c 3).view.loc (c : Thread nD τ) ↦[(outSl c 3).view.set]{fullShare.right.left} OUT m)
    ∗ ((outSl c 3).view.loc (c : Thread nD τ) ↦[(outSl c 3).view.set]{fullShare.right.right} OUT m)
    ∗ ((outSl (pl c 1) 0).view.loc (c : Thread nD τ) ↦[(outSl (pl c 1) 0).view.set]{fullShare} OUT m)
    ∗ ((outSl (pl c 1) 1).view.loc (c : Thread nD τ) ↦[(outSl (pl c 1) 1).view.set]{fullShare} OUT m)
    ∗ ((outSl (pl c 1) 2).view.loc (c : Thread nD τ) ↦[(outSl (pl c 1) 2).view.set]{fullShare} OUT m)
    ∗ ((outSl (pl c 1) 3).view.loc (c : Thread nD τ) ↦[(outSl (pl c 1) 3).view.set]{fullShare} OUT m)
    ∗ ((outSl (pl c 2) 0).view.loc (c : Thread nD τ) ↦[(outSl (pl c 2) 0).view.set]{fullShare} OUT m)
    ∗ ((outSl (pl c 2) 1).view.loc (c : Thread nD τ) ↦[(outSl (pl c 2) 1).view.set]{fullShare} OUT m)
    ∗ ((outSl (pl c 2) 2).view.loc (c : Thread nD τ) ↦[(outSl (pl c 2) 2).view.set]{fullShare} OUT m)
    ∗ ((outSl (pl c 2) 3).view.loc (c : Thread nD τ) ↦[(outSl (pl c 2) 3).view.set]{fullShare} OUT m)
    ∗ ((outSl (pl c 3) 0).view.loc (c : Thread nD τ) ↦[(outSl (pl c 3) 0).view.set]{fullShare} OUT m)
    ∗ ((outSl (pl c 3) 1).view.loc (c : Thread nD τ) ↦[(outSl (pl c 3) 1).view.set]{fullShare} OUT m)
    ∗ ((outSl (pl c 3) 2).view.loc (c : Thread nD τ) ↦[(outSl (pl c 3) 2).view.set]{fullShare} OUT m)
    ∗ ((outSl (pl c 3) 3).view.loc (c : Thread nD τ) ↦[(outSl (pl c 3) 3).view.set]{fullShare} OUT m)
    ∗ (∃ W', owes (c : Thread nD τ) 0 W'))

/-- The same once the cells are closed and the pieces joined: the scratch buffers whole again, the sixty-four scratch
    semaphores at zero, nothing owed, the input blocks as they were and the result's staging buffer at the result. -/
def closedEnd (c : Dev nD) : sProp 𝕄 :=
  iprop(Φ₁ (F := F) c ∗ (∃ W', owes (c : Thread nD τ) 0 W') ∗ ((aM).view.loc (c : Thread nD τ) ↦[(aM).view.set]{fullShare} Ablk m c) ∗ ((bM).view.loc (c : Thread nD τ) ↦[(bM).view.set]{fullShare} Bblk m c)
    ∗ (((c : Thread nD τ).loc cc0_stg2_0) ↦{fullShare} OUT m))

end Cert.Kernel.Hand

end
-- ==== Proof.KernelStepsCommon.lean ====
import proofs.«900554_g7700000000000555_dist_matmul_gelu_kshard_i_m512_n512_k256_v7x_i4_bf16_1_alg».proof.Proof.KernelAccess
import proofs.«900554_g7700000000000555_dist_matmul_gelu_kshard_i_m512_n512_k256_v7x_i4_bf16_1_alg».proof.Proof.KernelBodyDefs

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The printed device chains: every signal and copy names a device 1, 2 or 3 places on -/

theorem dev1_eq (c : Dev nD) : (⟨k0_dev1 c, k0_dev1_lt c⟩ : Dev nD) = pl c 1 := Fin.ext (k0_dev1_eq c)
theorem dev2_eq (c : Dev nD) : (⟨k0_dev2 c, k0_dev2_lt c⟩ : Dev nD) = pl c 2 := Fin.ext (k0_dev2_eq c)
theorem dev3_eq (c : Dev nD) : (⟨k0_dev3 c, k0_dev3_lt c⟩ : Dev nD) = pl c 3 := Fin.ext (k0_dev3_eq c)
theorem dev4_eq (c : Dev nD) : (⟨k0_dev4 c, k0_dev4_lt c⟩ : Dev nD) = pl c 2 := Fin.ext (k0_dev4_eq c)
theorem dev5_eq (c : Dev nD) : (⟨k0_dev5 c, k0_dev5_lt c⟩ : Dev nD) = pl c 1 := Fin.ext (k0_dev5_eq c)
theorem dev6_eq (c : Dev nD) : (⟨k0_dev6 c, k0_dev6_lt c⟩ : Dev nD) = pl c 3 := Fin.ext (k0_dev6_eq c)
theorem dev7_eq (c : Dev nD) : (⟨k0_dev7 c, k0_dev7_lt c⟩ : Dev nD) = pl c 2 := Fin.ext (k0_dev7_eq c)
theorem dev8_eq (c : Dev nD) : (⟨k0_dev8 c, k0_dev8_lt c⟩ : Dev nD) = pl c 1 := Fin.ext (k0_dev8_eq c)
theorem dev9_eq (c : Dev nD) : (⟨k0_dev9 c, k0_dev9_lt c⟩ : Dev nD) = pl c 3 := Fin.ext (k0_dev9_eq c)
theorem dev10_eq (c : Dev nD) : (⟨k0_dev10 c, k0_dev10_lt c⟩ : Dev nD) = pl c 2 := Fin.ext (k0_dev10_eq c)
theorem dev11_eq (c : Dev nD) : (⟨k0_dev11 c, k0_dev11_lt c⟩ : Dev nD) = pl c 1 := Fin.ext (k0_dev11_eq c)
theorem dev12_eq (c : Dev nD) : (⟨k0_dev12 c, k0_dev12_lt c⟩ : Dev nD) = pl c 3 := Fin.ext (k0_dev12_eq c)
theorem dev13_eq (c : Dev nD) : (⟨k0_dev13 c, k0_dev13_lt c⟩ : Dev nD) = pl c 2 := Fin.ext (k0_dev13_eq c)
theorem dev14_eq (c : Dev nD) : (⟨k0_dev14 c, k0_dev14_lt c⟩ : Dev nD) = pl c 1 := Fin.ext (k0_dev14_eq c)
theorem dev15_eq (c : Dev nD) : (⟨k0_dev15 c, k0_dev15_lt c⟩ : Dev nD) = pl c 3 := Fin.ext (k0_dev15_eq c)
theorem dev16_eq (c : Dev nD) : (⟨k0_dev16 c, k0_dev16_lt c⟩ : Dev nD) = pl c 2 := Fin.ext (k0_dev16_eq c)
theorem dev17_eq (c : Dev nD) : (⟨k0_dev17 c, k0_dev17_lt c⟩ : Dev nD) = pl c 1 := Fin.ext (k0_dev17_eq c)
theorem dev18_eq (c : Dev nD) : (⟨k0_dev18 c, k0_dev18_lt c⟩ : Dev nD) = pl c 3 := Fin.ext (k0_dev18_eq c)
theorem dev19_eq (c : Dev nD) : (⟨k0_dev19 c, k0_dev19_lt c⟩ : Dev nD) = pl c 2 := Fin.ext (k0_dev19_eq c)
theorem dev20_eq (c : Dev nD) : (⟨k0_dev20 c, k0_dev20_lt c⟩ : Dev nD) = pl c 1 := Fin.ext (k0_dev20_eq c)
theorem dev21_eq (c : Dev nD) : (⟨k0_dev21 c, k0_dev21_lt c⟩ : Dev nD) = pl c 3 := Fin.ext (k0_dev21_eq c)
theorem dev22_eq (c : Dev nD) : (⟨k0_dev22 c, k0_dev22_lt c⟩ : Dev nD) = pl c 2 := Fin.ext (k0_dev22_eq c)
theorem dev23_eq (c : Dev nD) : (⟨k0_dev23 c, k0_dev23_lt c⟩ : Dev nD) = pl c 1 := Fin.ext (k0_dev23_eq c)
theorem dev24_eq (c : Dev nD) : (⟨k0_dev24 c, k0_dev24_lt c⟩ : Dev nD) = pl c 3 := Fin.ext (k0_dev24_eq c)
theorem dev25_eq (c : Dev nD) : (⟨k0_dev25 c, k0_dev25_lt c⟩ : Dev nD) = pl c 2 := Fin.ext (k0_dev25_eq c)
theorem dev26_eq (c : Dev nD) : (⟨k0_dev26 c, k0_dev26_lt c⟩ : Dev nD) = pl c 1 := Fin.ext (k0_dev26_eq c)
theorem dev27_eq (c : Dev nD) : (⟨k0_dev27 c, k0_dev27_lt c⟩ : Dev nD) = pl c 3 := Fin.ext (k0_dev27_eq c)

theorem pl_pl (c : Dev nD) : ∀ d : Fin 4, pl (pl c d.val) (4 - d.val) = c := by revert c; decide

/-! ## The barrier cell's tables -/

theorem duties_bar (c : Dev nD) : (Rd m).duties (barCell c) 0 = {1, 2, 3} := by
  dsimp only [Rd]; rw [if_pos ⟨rfl, rfl⟩]; exact if_pos rfl
theorem amount_bar (c : Dev nD) (d : Fin 4) : (Rd m).amount (barCell c) 0 d = 1 := rfl
theorem expect_bar (c : Dev nD) : (Rd m).expect (barCell c) 0 = 3 := by
  unfold Schedule.expect Schedule.amountOf; rw [duties_bar]; rfl
theorem payload_give (c : Dev nD) (d : Fin 4) : (Rd m).payload (barCell (pl c d.val)) 0 d
    = iprop((∃ f, (rsDst d 0).view.loc (c : Thread nD τ) ↦[(rsDst d 0).view.set]{fullShare} f) ∗ (∃ f, (rsDst d 1).view.loc (c : Thread nD τ) ↦[(rsDst d 1).view.set]{fullShare} f) ∗ (∃ f, (rsDst d 2).view.loc (c : Thread nD τ) ↦[(rsDst d 2).view.set]{fullShare} f) ∗ (∃ f, (rsDst d 3).view.loc (c : Thread nD τ) ↦[(rsDst d 3).view.set]{fullShare} f) ∗ (∃ f, (outSl (pl c d.val) 0).view.loc (c : Thread nD τ) ↦[(outSl (pl c d.val) 0).view.set]{fullShare} f) ∗ (∃ f, (outSl (pl c d.val) 1).view.loc (c : Thread nD τ) ↦[(outSl (pl c d.val) 1).view.set]{fullShare} f) ∗ (∃ f, (outSl (pl c d.val) 2).view.loc (c : Thread nD τ) ↦[(outSl (pl c d.val) 2).view.set]{fullShare} f) ∗ (∃ f, (outSl (pl c d.val) 3).view.loc (c : Thread nD τ) ↦[(outSl (pl c d.val) 3).view.set]{fullShare} f)) := by
  show barPay (pl c d.val) d = _
  unfold barPay pts
  rw [pl_pl]
theorem payload_give1 (c : Dev nD) : (Rd m).payload (barCell (pl c 1)) 0 1
    = iprop((∃ f, (rsDst 1 0).view.loc (c : Thread nD τ) ↦[(rsDst 1 0).view.set]{fullShare} f) ∗ (∃ f, (rsDst 1 1).view.loc (c : Thread nD τ) ↦[(rsDst 1 1).view.set]{fullShare} f) ∗ (∃ f, (rsDst 1 2).view.loc (c : Thread nD τ) ↦[(rsDst 1 2).view.set]{fullShare} f) ∗ (∃ f, (rsDst 1 3).view.loc (c : Thread nD τ) ↦[(rsDst 1 3).view.set]{fullShare} f) ∗ (∃ f, (outSl (pl c 1) 0).view.loc (c : Thread nD τ) ↦[(outSl (pl c 1) 0).view.set]{fullShare} f) ∗ (∃ f, (outSl (pl c 1) 1).view.loc (c : Thread nD τ) ↦[(outSl (pl c 1) 1).view.set]{fullShare} f) ∗ (∃ f, (outSl (pl c 1) 2).view.loc (c : Thread nD τ) ↦[(outSl (pl c 1) 2).view.set]{fullShare} f) ∗ (∃ f, (outSl (pl c 1) 3).view.loc (c : Thread nD τ) ↦[(outSl (pl c 1) 3).view.set]{fullShare} f)) := payload_give m c 1
theorem payload_take1 (c : Dev nD) : (Rd m).payload (barCell c) 0 1
    = iprop((∃ f, (rsDst 1 0).view.loc (pl c 3 : Thread nD τ) ↦[(rsDst 1 0).view.set]{fullShare} f) ∗ (∃ f, (rsDst 1 1).view.loc (pl c 3 : Thread nD τ) ↦[(rsDst 1 1).view.set]{fullShare} f) ∗ (∃ f, (rsDst 1 2).view.loc (pl c 3 : Thread nD τ) ↦[(rsDst 1 2).view.set]{fullShare} f) ∗ (∃ f, (rsDst 1 3).view.loc (pl c 3 : Thread nD τ) ↦[(rsDst 1 3).view.set]{fullShare} f) ∗ (∃ f, (outSl c 0).view.loc (pl c 3 : Thread nD τ) ↦[(outSl c 0).view.set]{fullShare} f) ∗ (∃ f, (outSl c 1).view.loc (pl c 3 : Thread nD τ) ↦[(outSl c 1).view.set]{fullShare} f) ∗ (∃ f, (outSl c 2).view.loc (pl c 3 : Thread nD τ) ↦[(outSl c 2).view.set]{fullShare} f) ∗ (∃ f, (outSl c 3).view.loc (pl c 3 : Thread nD τ) ↦[(outSl c 3).view.set]{fullShare} f)) := by
  show barPay c 1 = _
  unfold barPay pts
  rfl
theorem payload_give2 (c : Dev nD) : (Rd m).payload (barCell (pl c 2)) 0 2
    = iprop((∃ f, (rsDst 2 0).view.loc (c : Thread nD τ) ↦[(rsDst 2 0).view.set]{fullShare} f) ∗ (∃ f, (rsDst 2 1).view.loc (c : Thread nD τ) ↦[(rsDst 2 1).view.set]{fullShare} f) ∗ (∃ f, (rsDst 2 2).view.loc (c : Thread nD τ) ↦[(rsDst 2 2).view.set]{fullShare} f) ∗ (∃ f, (rsDst 2 3).view.loc (c : Thread nD τ) ↦[(rsDst 2 3).view.set]{fullShare} f) ∗ (∃ f, (outSl (pl c 2) 0).view.loc (c : Thread nD τ) ↦[(outSl (pl c 2) 0).view.set]{fullShare} f) ∗ (∃ f, (outSl (pl c 2) 1).view.loc (c : Thread nD τ) ↦[(outSl (pl c 2) 1).view.set]{fullShare} f) ∗ (∃ f, (outSl (pl c 2) 2).view.loc (c : Thread nD τ) ↦[(outSl (pl c 2) 2).view.set]{fullShare} f) ∗ (∃ f, (outSl (pl c 2) 3).view.loc (c : Thread nD τ) ↦[(outSl (pl c 2) 3).view.set]{fullShare} f)) := payload_give m c 2
theorem payload_take2 (c : Dev nD) : (Rd m).payload (barCell c) 0 2
    = iprop((∃ f, (rsDst 2 0).view.loc (pl c 2 : Thread nD τ) ↦[(rsDst 2 0).view.set]{fullShare} f) ∗ (∃ f, (rsDst 2 1).view.loc (pl c 2 : Thread nD τ) ↦[(rsDst 2 1).view.set]{fullShare} f) ∗ (∃ f, (rsDst 2 2).view.loc (pl c 2 : Thread nD τ) ↦[(rsDst 2 2).view.set]{fullShare} f) ∗ (∃ f, (rsDst 2 3).view.loc (pl c 2 : Thread nD τ) ↦[(rsDst 2 3).view.set]{fullShare} f) ∗ (∃ f, (outSl c 0).view.loc (pl c 2 : Thread nD τ) ↦[(outSl c 0).view.set]{fullShare} f) ∗ (∃ f, (outSl c 1).view.loc (pl c 2 : Thread nD τ) ↦[(outSl c 1).view.set]{fullShare} f) ∗ (∃ f, (outSl c 2).view.loc (pl c 2 : Thread nD τ) ↦[(outSl c 2).view.set]{fullShare} f) ∗ (∃ f, (outSl c 3).view.loc (pl c 2 : Thread nD τ) ↦[(outSl c 3).view.set]{fullShare} f)) := by
  show barPay c 2 = _
  unfold barPay pts
  rfl
theorem payload_give3 (c : Dev nD) : (Rd m).payload (barCell (pl c 3)) 0 3
    = iprop((∃ f, (rsDst 3 0).view.loc (c : Thread nD τ) ↦[(rsDst 3 0).view.set]{fullShare} f) ∗ (∃ f, (rsDst 3 1).view.loc (c : Thread nD τ) ↦[(rsDst 3 1).view.set]{fullShare} f) ∗ (∃ f, (rsDst 3 2).view.loc (c : Thread nD τ) ↦[(rsDst 3 2).view.set]{fullShare} f) ∗ (∃ f, (rsDst 3 3).view.loc (c : Thread nD τ) ↦[(rsDst 3 3).view.set]{fullShare} f) ∗ (∃ f, (outSl (pl c 3) 0).view.loc (c : Thread nD τ) ↦[(outSl (pl c 3) 0).view.set]{fullShare} f) ∗ (∃ f, (outSl (pl c 3) 1).view.loc (c : Thread nD τ) ↦[(outSl (pl c 3) 1).view.set]{fullShare} f) ∗ (∃ f, (outSl (pl c 3) 2).view.loc (c : Thread nD τ) ↦[(outSl (pl c 3) 2).view.set]{fullShare} f) ∗ (∃ f, (outSl (pl c 3) 3).view.loc (c : Thread nD τ) ↦[(outSl (pl c 3) 3).view.set]{fullShare} f)) := payload_give m c 3
theorem payload_take3 (c : Dev nD) : (Rd m).payload (barCell c) 0 3
    = iprop((∃ f, (rsDst 3 0).view.loc (pl c 1 : Thread nD τ) ↦[(rsDst 3 0).view.set]{fullShare} f) ∗ (∃ f, (rsDst 3 1).view.loc (pl c 1 : Thread nD τ) ↦[(rsDst 3 1).view.set]{fullShare} f) ∗ (∃ f, (rsDst 3 2).view.loc (pl c 1 : Thread nD τ) ↦[(rsDst 3 2).view.set]{fullShare} f) ∗ (∃ f, (rsDst 3 3).view.loc (pl c 1 : Thread nD τ) ↦[(rsDst 3 3).view.set]{fullShare} f) ∗ (∃ f, (outSl c 0).view.loc (pl c 1 : Thread nD τ) ↦[(outSl c 0).view.set]{fullShare} f) ∗ (∃ f, (outSl c 1).view.loc (pl c 1 : Thread nD τ) ↦[(outSl c 1).view.set]{fullShare} f) ∗ (∃ f, (outSl c 2).view.loc (pl c 1 : Thread nD τ) ↦[(outSl c 2).view.set]{fullShare} f) ∗ (∃ f, (outSl c 3).view.loc (pl c 1 : Thread nD τ) ↦[(outSl c 3).view.set]{fullShare} f)) := by
  show barPay c 3 = _
  unfold barPay pts
  rfl

/-- A piece's points-to, unfolded. -/
theorem pts_def {sp : Space} {s : Shape} {e : EltTy} (M : Memref sig .tc sp s e) (c : Dev nD) (f : Buf (Elt F) (M.view.loc (c : Thread nD τ))) :
    (pts M c f : sProp 𝕄) = (M.view.loc (c : Thread nD τ) ↦[M.view.set]{fullShare} f) := rfl

/-- A cell's invariant, unfolded. -/
theorem cinv_def (K : GSem nD τ sig → ℕ) (g : GSem nD τ sig) : (cinv m K g : sProp 𝕄) = cellInv ER (Rd m) (K g) g := rfl

/-- The partial-product buffer held whole, through its memref and by its location. -/
theorem pM_whole (c : Dev nD) (f : Buf (Elt F) (pLoc c)) :
    ((pM : Memref sig .tc .vmem S4x128x512 .bf16).view.loc (c : Thread nD τ) ↦[(pM : Memref sig .tc .vmem S4x128x512 .bf16).view.set]{fullShare} f : sProp 𝕄) = (pLoc c ↦{fullShare} f) := by
  rw [show (pM : Memref sig .tc .vmem S4x128x512 .bf16).view.set = Finset.univ from View.set_whole _]

/-- The three entry signals' payloads, in the order of the duties. -/
theorem rest_bar (c : Dev nD) : bigSep ((Rd m).duties (barCell c) 0 \ ∅) (fun d => (Rd m).payload (barCell c) 0 d)
    = iprop(((∃ f, (rsDst 1 0).view.loc (pl c 3 : Thread nD τ) ↦[(rsDst 1 0).view.set]{fullShare} f) ∗ (∃ f, (rsDst 1 1).view.loc (pl c 3 : Thread nD τ) ↦[(rsDst 1 1).view.set]{fullShare} f) ∗ (∃ f, (rsDst 1 2).view.loc (pl c 3 : Thread nD τ) ↦[(rsDst 1 2).view.set]{fullShare} f) ∗ (∃ f, (rsDst 1 3).view.loc (pl c 3 : Thread nD τ) ↦[(rsDst 1 3).view.set]{fullShare} f) ∗ (∃ f, (outSl c 0).view.loc (pl c 3 : Thread nD τ) ↦[(outSl c 0).view.set]{fullShare} f) ∗ (∃ f, (outSl c 1).view.loc (pl c 3 : Thread nD τ) ↦[(outSl c 1).view.set]{fullShare} f) ∗ (∃ f, (outSl c 2).view.loc (pl c 3 : Thread nD τ) ↦[(outSl c 2).view.set]{fullShare} f) ∗ (∃ f, (outSl c 3).view.loc (pl c 3 : Thread nD τ) ↦[(outSl c 3).view.set]{fullShare} f)) ∗ ((∃ f, (rsDst 2 0).view.loc (pl c 2 : Thread nD τ) ↦[(rsDst 2 0).view.set]{fullShare} f) ∗ (∃ f, (rsDst 2 1).view.loc (pl c 2 : Thread nD τ) ↦[(rsDst 2 1).view.set]{fullShare} f) ∗ (∃ f, (rsDst 2 2).view.loc (pl c 2 : Thread nD τ) ↦[(rsDst 2 2).view.set]{fullShare} f) ∗ (∃ f, (rsDst 2 3).view.loc (pl c 2 : Thread nD τ) ↦[(rsDst 2 3).view.set]{fullShare} f) ∗ (∃ f, (outSl c 0).view.loc (pl c 2 : Thread nD τ) ↦[(outSl c 0).view.set]{fullShare} f) ∗ (∃ f, (outSl c 1).view.loc (pl c 2 : Thread nD τ) ↦[(outSl c 1).view.set]{fullShare} f) ∗ (∃ f, (outSl c 2).view.loc (pl c 2 : Thread nD τ) ↦[(outSl c 2).view.set]{fullShare} f) ∗ (∃ f, (outSl c 3).view.loc (pl c 2 : Thread nD τ) ↦[(outSl c 3).view.set]{fullShare} f)) ∗ ((∃ f, (rsDst 3 0).view.loc (pl c 1 : Thread nD τ) ↦[(rsDst 3 0).view.set]{fullShare} f) ∗ (∃ f, (rsDst 3 1).view.loc (pl c 1 : Thread nD τ) ↦[(rsDst 3 1).view.set]{fullShare} f) ∗ (∃ f, (rsDst 3 2).view.loc (pl c 1 : Thread nD τ) ↦[(rsDst 3 2).view.set]{fullShare} f) ∗ (∃ f, (rsDst 3 3).view.loc (pl c 1 : Thread nD τ) ↦[(rsDst 3 3).view.set]{fullShare} f) ∗ (∃ f, (outSl c 0).view.loc (pl c 1 : Thread nD τ) ↦[(outSl c 0).view.set]{fullShare} f) ∗ (∃ f, (outSl c 1).view.loc (pl c 1 : Thread nD τ) ↦[(outSl c 1).view.set]{fullShare} f) ∗ (∃ f, (outSl c 2).view.loc (pl c 1 : Thread nD τ) ↦[(outSl c 2).view.set]{fullShare} f) ∗ (∃ f, (outSl c 3).view.loc (pl c 1 : Thread nD τ) ↦[(outSl c 3).view.set]{fullShare} f))) := by
  rw [Finset.sdiff_empty, duties_bar, bigSep_eq_bigSepL_of_eq [(1 : Fin 4), 2, 3] (by decide) (by decide), bigSepL_cons_cons, bigSepL_cons_cons, bigSepL_singleton,
    payload_take1, payload_take2, payload_take3]
  rfl

/-- The partial product as the body stores it: the product of the two whole input blocks. -/
theorem pblk_stored (c : Dev nD) (p0 : Vec F S4x128x512 .bf16) :
    pM.view.writes (Elt F) p0
      [⟨Rect.unit ![0, 0, 0] S4x128x512.size inb_S4x128x512_S4x128x512_0_0_0,
          k0_pay1
            (View.readAt (Elt F) aM.view (Rect.unit ![0, 0] S512x256.size inb_S512x256_S512x256_0_0).toLoadRect (Ablk m c))
            (View.readAt (Elt F) bM.view (Rect.unit ![0, 0] S256x512.size inb_S256x512_S256x512_0_0).toLoadRect (Bblk m c))⟩]
      = Pblk m c := by
  have hz2 : (![0, 0] : Fin 2 → Nat) = fun _ => 0 := funext fun a => by fin_cases a <;> rfl
  have hz3 : (![0, 0, 0] : Fin 3 → Nat) = fun _ => 0 := funext fun a => by fin_cases a <;> rfl
  have ha : View.readAt (Elt F) aM.view (Rect.unit ![0, 0] S512x256.size inb_S512x256_S512x256_0_0).toLoadRect (Ablk m c) = Ablk m c :=
    Memref.readAt_unit_zero (Elt F) cc0_stg0_0 hz2 _ _
  have hb : View.readAt (Elt F) bM.view (Rect.unit ![0, 0] S256x512.size inb_S256x512_S256x512_0_0).toLoadRect (Bblk m c) = Bblk m c :=
    Memref.readAt_unit_zero (Elt F) cc0_stg1_0 hz2 _ _
  rw [ha, hb, View.writes_singleton]
  exact Memref.write_access_unit_zero_univ (Elt F) cc0_scratch0 hz3 _ _ _

/-- The same, the list of stores under any name. -/
theorem pblk_stored' (c : Dev nD) (p0 : Vec F S4x128x512 .bf16) (Ls : List (View.Piece (Elt F) S4x128x512 .bf16))
    (hL : Ls = [⟨Rect.unit ![0, 0, 0] S4x128x512.size inb_S4x128x512_S4x128x512_0_0_0,
          k0_pay1
            (View.readAt (Elt F) aM.view (Rect.unit ![0, 0] S512x256.size inb_S512x256_S512x256_0_0).toLoadRect (Ablk m c))
            (View.readAt (Elt F) bM.view (Rect.unit ![0, 0] S256x512.size inb_S256x512_S256x512_0_0).toLoadRect (Bblk m c))⟩]) :
    pM.view.writes (Elt F) p0 Ls = Pblk m c := by
  subst hL; exact pblk_stored m c p0

end Cert.Kernel.Hand
end
-- ==== Proof.KernelPartsA.lean ====
import proofs.«900554_g7700000000000555_dist_matmul_gelu_kshard_i_m512_n512_k256_v7x_i4_bf16_1_alg».proof.Proof.KernelStepsCommon

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

/-- A raw chain of three is the chain of three. -/
theorem sep3_raw (A B C : sProp 𝕄) : BI.sep A (BI.sep B C) ⊢ iprop(A ∗ B ∗ C) := .rfl

set_option maxHeartbeats 1000000 in
theorem part1_run (K : GSem nD τ sig → ℕ) (c : Dev nD) (r0 : Vec F S4x128x512 .bf16) (o0 : Vec F S512x512 .bf16) (p0 : Vec F S4x128x512 .bf16) (W : Waits sig Unit)
    :
    iprop(cellInv ER (Rd m) (K (barCell (pl c 1))) (barCell (pl c 1))
      ∗ reached ER (barCell (pl c 1)) 0
      ∗ cellInv ER (Rd m) (K (barCell (pl c 2))) (barCell (pl c 2))
      ∗ reached ER (barCell (pl c 2)) 0
      ∗ cellInv ER (Rd m) (K (barCell (pl c 3))) (barCell (pl c 3))
      ∗ reached ER (barCell (pl c 3)) 0
      ∗ dutyTok ER (barCell (pl c 1)) 0 1
      ∗ ((rsDst 1 0).view.loc (c : Thread nD τ) ↦[(rsDst 1 0).view.set]{fullShare} r0)
      ∗ ((rsDst 1 1).view.loc (c : Thread nD τ) ↦[(rsDst 1 1).view.set]{fullShare} r0)
      ∗ ((rsDst 1 2).view.loc (c : Thread nD τ) ↦[(rsDst 1 2).view.set]{fullShare} r0)
      ∗ ((rsDst 1 3).view.loc (c : Thread nD τ) ↦[(rsDst 1 3).view.set]{fullShare} r0)
      ∗ ((outSl (pl c 1) 0).view.loc (c : Thread nD τ) ↦[(outSl (pl c 1) 0).view.set]{fullShare} o0)
      ∗ ((outSl (pl c 1) 1).view.loc (c : Thread nD τ) ↦[(outSl (pl c 1) 1).view.set]{fullShare} o0)
      ∗ ((outSl (pl c 1) 2).view.loc (c : Thread nD τ) ↦[(outSl (pl c 1) 2).view.set]{fullShare} o0)
      ∗ ((outSl (pl c 1) 3).view.loc (c : Thread nD τ) ↦[(outSl (pl c 1) 3).view.set]{fullShare} o0)
      ∗ dutyTok ER (barCell (pl c 2)) 0 2
      ∗ ((rsDst 2 0).view.loc (c : Thread nD τ) ↦[(rsDst 2 0).view.set]{fullShare} r0)
      ∗ ((rsDst 2 1).view.loc (c : Thread nD τ) ↦[(rsDst 2 1).view.set]{fullShare} r0)
      ∗ ((rsDst 2 2).view.loc (c : Thread nD τ) ↦[(rsDst 2 2).view.set]{fullShare} r0)
      ∗ ((rsDst 2 3).view.loc (c : Thread nD τ) ↦[(rsDst 2 3).view.set]{fullShare} r0)
      ∗ ((outSl (pl c 2) 0).view.loc (c : Thread nD τ) ↦[(outSl (pl c 2) 0).view.set]{fullShare} o0)
      ∗ ((outSl (pl c 2) 1).view.loc (c : Thread nD τ) ↦[(outSl (pl c 2) 1).view.set]{fullShare} o0)
      ∗ ((outSl (pl c 2) 2).view.loc (c : Thread nD τ) ↦[(outSl (pl c 2) 2).view.set]{fullShare} o0)
      ∗ ((outSl (pl c 2) 3).view.loc (c : Thread nD τ) ↦[(outSl (pl c 2) 3).view.set]{fullShare} o0)
      ∗ dutyTok ER (barCell (pl c 3)) 0 3
      ∗ ((rsDst 3 0).view.loc (c : Thread nD τ) ↦[(rsDst 3 0).view.set]{fullShare} r0)
      ∗ ((rsDst 3 1).view.loc (c : Thread nD τ) ↦[(rsDst 3 1).view.set]{fullShare} r0)
      ∗ ((rsDst 3 2).view.loc (c : Thread nD τ) ↦[(rsDst 3 2).view.set]{fullShare} r0)
      ∗ ((rsDst 3 3).view.loc (c : Thread nD τ) ↦[(rsDst 3 3).view.set]{fullShare} r0)
      ∗ ((outSl (pl c 3) 0).view.loc (c : Thread nD τ) ↦[(outSl (pl c 3) 0).view.set]{fullShare} o0)
      ∗ ((outSl (pl c 3) 1).view.loc (c : Thread nD τ) ↦[(outSl (pl c 3) 1).view.set]{fullShare} o0)
      ∗ ((outSl (pl c 3) 2).view.loc (c : Thread nD τ) ↦[(outSl (pl c 3) 2).view.set]{fullShare} o0)
      ∗ ((outSl (pl c 3) 3).view.loc (c : Thread nD τ) ↦[(outSl (pl c 3) 3).view.set]{fullShare} o0)
      ∗ ((aM).view.loc (c : Thread nD τ) ↦[(aM).view.set]{fullShare} Ablk m c)
      ∗ ((bM).view.loc (c : Thread nD τ) ↦[(bM).view.set]{fullShare} Bblk m c)
      ∗ ((pM).view.loc (c : Thread nD τ) ↦[(pM).view.set]{fullShare} p0)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr + tallyAt (barCell (pl c 3)) () 1 + tallyAt (barCell (pl c 2)) () 1 + tallyAt (barCell (pl c 1)) () 1) W)
      ⊢ wp frame (wpE (defs₀ (F := F)) 𝒱₀ c none) Set.univ (k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5)
          (fun r : (Σ' (d0 : Dev nD) (v2 : BitVec 32), Sems sig S_) => iprop(((aM).view.loc (c : Thread nD τ) ↦[(aM).view.set]{fullShare} Ablk m c)
            ∗ ((bM).view.loc (c : Thread nD τ) ↦[(bM).view.set]{fullShare} Bblk m c)
            ∗ ((pM).view.loc (c : Thread nD τ) ↦[(pM).view.set]{fullShare} Pblk m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr) W')
            ∗ ⌜r.1 = c⌝
            ∗ ⌜r.2.2 = (SemArray.scalar (sig.barrier 0 rfl) : Sems sig S_)⌝)) := by
  iintro ⟨#Ib1, #Rb1, #Ib2, #Rb2, #Ib3, #Rb3, Tb1, Hr10, Hr11, Hr12, Hr13, Hog10, Hog11, Hog12, Hog13, Tb2, Hr20, Hr21, Hr22, Hr23, Hog20, Hog21, Hog22, Hog23, Tb3, Hr30, Hr31, Hr32, Hr33, Hog30, Hog31, Hog32, Hog33, Ha, Hb, Hp, HO⟩
  sl_exec
  ihave Hp := (Entails.of_eq (congrArg (fun f => ((pM.view.loc (c : Thread nD τ) ↦[pM.view.set]{fullShare} f : sProp 𝕄))) (pblk_stored m c p0))) $$ Hp
  sl_step
  isplitl [Ha]; · iexact Ha
  isplitl [Hb]; · iexact Hb
  isplitl [Hp]; · iexact Hp
  isplitl [HO]; · (iexists _; iexact HO)
  isplitr; · (ipureintro; rfl)
  (ipureintro; rfl)

set_option maxHeartbeats 1000000 in
theorem part2_run (K : GSem nD τ sig → ℕ) (c : Dev nD)  (W : Waits sig Unit) (v2 : BitVec 32)
    :
    iprop(cellInv ER (Rd m) (K (barCell c)) (barCell c)
      ∗ levAts L lv
      ∗ cellInv ER (Rd m) (K (rsS c 2 0)) (rsS c 2 0)
      ∗ cellInv ER (Rd m) (K (rsR (pl c 2) 2 0)) (rsR (pl c 2) 2 0)
      ∗ reached ER (rsS c 2 0) 0
      ∗ reached ER (rsR (pl c 2) 2 0) 0
      ∗ cellInv ER (Rd m) (K (rsS c 1 0)) (rsS c 1 0)
      ∗ cellInv ER (Rd m) (K (rsR (pl c 1) 3 0)) (rsR (pl c 1) 3 0)
      ∗ reached ER (rsS c 1 0) 0
      ∗ reached ER (rsR (pl c 1) 3 0) 0
      ∗ atPos ER (barCell c) 0 ∅ 0
      ∗ cred (tallyAt (barCell c) () 3)
      ∗ dutyTok ER (rsS c 2 0) 0 0
      ∗ dutyTok ER (rsR (pl c 2) 2 0) 0 0
      ∗ ((rsSrc c 1 0).view.loc (c : Thread nD τ) ↦[(rsSrc c 1 0).view.set]{fullShare} Pblk m c)
      ∗ dutyTok ER (rsS c 1 0) 0 0
      ∗ dutyTok ER (rsR (pl c 1) 3 0) 0 0
      ∗ ((rsSrc c 0 0).view.loc (c : Thread nD τ) ↦[(rsSrc c 0 0).view.set]{fullShare} Pblk m c)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr) W)
      ⊢ wp frame (wpE (defs₀ (F := F)) 𝒱₀ c none) Set.univ (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 (SemArray.scalar (sig.barrier 0 rfl) : Sems sig S_))
          (fun r : (BitVec 32) => iprop(atPos ER (barCell c) 1 ∅ 0
            ∗ iprop((∃ f, (rsDst 1 0).view.loc (pl c 3 : Thread nD τ) ↦[(rsDst 1 0).view.set]{fullShare} f) ∗ (∃ f, (rsDst 1 1).view.loc (pl c 3 : Thread nD τ) ↦[(rsDst 1 1).view.set]{fullShare} f) ∗ (∃ f, (rsDst 1 2).view.loc (pl c 3 : Thread nD τ) ↦[(rsDst 1 2).view.set]{fullShare} f) ∗ (∃ f, (rsDst 1 3).view.loc (pl c 3 : Thread nD τ) ↦[(rsDst 1 3).view.set]{fullShare} f) ∗ (∃ f, (outSl c 0).view.loc (pl c 3 : Thread nD τ) ↦[(outSl c 0).view.set]{fullShare} f) ∗ (∃ f, (outSl c 1).view.loc (pl c 3 : Thread nD τ) ↦[(outSl c 1).view.set]{fullShare} f) ∗ (∃ f, (outSl c 2).view.loc (pl c 3 : Thread nD τ) ↦[(outSl c 2).view.set]{fullShare} f) ∗ (∃ f, (outSl c 3).view.loc (pl c 3 : Thread nD τ) ↦[(outSl c 3).view.set]{fullShare} f))
            ∗ iprop((∃ f, (rsDst 2 1).view.loc (pl c 2 : Thread nD τ) ↦[(rsDst 2 1).view.set]{fullShare} f) ∗ (∃ f, (rsDst 2 2).view.loc (pl c 2 : Thread nD τ) ↦[(rsDst 2 2).view.set]{fullShare} f) ∗ (∃ f, (rsDst 2 3).view.loc (pl c 2 : Thread nD τ) ↦[(rsDst 2 3).view.set]{fullShare} f) ∗ (∃ f, (outSl c 0).view.loc (pl c 2 : Thread nD τ) ↦[(outSl c 0).view.set]{fullShare} f) ∗ (∃ f, (outSl c 1).view.loc (pl c 2 : Thread nD τ) ↦[(outSl c 1).view.set]{fullShare} f) ∗ (∃ f, (outSl c 2).view.loc (pl c 2 : Thread nD τ) ↦[(outSl c 2).view.set]{fullShare} f) ∗ (∃ f, (outSl c 3).view.loc (pl c 2 : Thread nD τ) ↦[(outSl c 3).view.set]{fullShare} f))
            ∗ iprop((∃ f, (rsDst 3 1).view.loc (pl c 1 : Thread nD τ) ↦[(rsDst 3 1).view.set]{fullShare} f) ∗ (∃ f, (rsDst 3 2).view.loc (pl c 1 : Thread nD τ) ↦[(rsDst 3 2).view.set]{fullShare} f) ∗ (∃ f, (rsDst 3 3).view.loc (pl c 1 : Thread nD τ) ↦[(rsDst 3 3).view.set]{fullShare} f) ∗ (∃ f, (outSl c 0).view.loc (pl c 1 : Thread nD τ) ↦[(outSl c 0).view.set]{fullShare} f) ∗ (∃ f, (outSl c 1).view.loc (pl c 1 : Thread nD τ) ↦[(outSl c 1).view.set]{fullShare} f) ∗ (∃ f, (outSl c 2).view.loc (pl c 1 : Thread nD τ) ↦[(outSl c 2).view.set]{fullShare} f) ∗ (∃ f, (outSl c 3).view.loc (pl c 1 : Thread nD τ) ↦[(outSl c 3).view.set]{fullShare} f))
            ∗ cred (tallyAt (rsS c 2 0) () Nr)
            ∗ cred (tallyAt (rsS c 1 0) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr) W'))) := by
  iintro ⟨#Ib0, #Hlev, #IsS20, #IpR20, #RsS20, #RpR20, #IsS10, #IpR10, #RsS10, #RpR10, Pb, Cb, TsS20, TpR20, Hs20, TsS10, TpR10, Hs10, HO⟩
  have hmw := mayWait_bar (F := F) c
  sl_exec
  icases Pb_pay1 with Hpay
  ihave Hpay := (sep3_raw (F := F) _ _ _) $$ Hpay
  icases Hpay with ⟨E3, E2, E1⟩
  icases E2 with ⟨Ed2r0, E2⟩
  icases Ed2r0 with ⟨%fd, Hd⟩
  iapply (wp_rs_send m c 1 0 _ (dev4_eq c) _ _ rfl rfl _ _ rfl rfl (K (rsS c 2 0)) (K (rsR (pl c 2) 2 0)) fd _ _) $$ [Hs20 Hd HO TsS20 TpR20]
  · isplitr; · iexact IsS20
    isplitr; · iexact IpR20
    isplitl [Hs20]; · iexact Hs20
    isplitl [Hd]; · iexact Hd
    isplitl [HO]; · iexact HO
    isplitl [TsS20]; · iexact TsS20
    isplitr; · iexact RsS20
    isplitl [TpR20]; · iexact TpR20
    iexact RpR20
  iintro ⟨Cs20, HO⟩
  sl_exec
  icases E1 with ⟨Ed1r0, E1⟩
  icases Ed1r0 with ⟨%fd, Hd⟩
  iapply (wp_rs_send m c 0 0 _ (dev5_eq c) _ _ rfl rfl _ _ rfl rfl (K (rsS c 1 0)) (K (rsR (pl c 1) 3 0)) fd _ _) $$ [Hs10 Hd HO TsS10 TpR10]
  · isplitr; · iexact IsS10
    isplitr; · iexact IpR10
    isplitl [Hs10]; · iexact Hs10
    isplitl [Hd]; · iexact Hd
    isplitl [HO]; · iexact HO
    isplitl [TsS10]; · iexact TsS10
    isplitr; · iexact RsS10
    isplitl [TpR10]; · iexact TpR10
    iexact RpR10
  iintro ⟨Cs10, HO⟩
  sl_exec
  sl_step
  isplitl [Pb]; · iexact Pb
  isplitl [E3]; · iexact E3
  isplitl [E2]; · iexact E2
  isplitl [E1]; · iexact E1
  isplitl [Cs20]; · iexact Cs20
  isplitl [Cs10]; · iexact Cs10
  (iexists _; iexact HO)

set_option maxHeartbeats 1000000 in
theorem part3_run (K : GSem nD τ sig → ℕ) (c : Dev nD)  (W : Waits sig Unit) (v2 : BitVec 32) (v53 : BitVec 32)
    :
    iprop(cellInv ER (Rd m) (K (rsS c 3 0)) (rsS c 3 0)
      ∗ cellInv ER (Rd m) (K (rsR (pl c 3) 1 0)) (rsR (pl c 3) 1 0)
      ∗ reached ER (rsS c 3 0) 0
      ∗ reached ER (rsR (pl c 3) 1 0) 0
      ∗ cellInv ER (Rd m) (K (rsS c 2 1)) (rsS c 2 1)
      ∗ cellInv ER (Rd m) (K (rsR (pl c 2) 2 1)) (rsR (pl c 2) 2 1)
      ∗ reached ER (rsS c 2 1) 0
      ∗ reached ER (rsR (pl c 2) 2 1) 0
      ∗ dutyTok ER (rsS c 3 0) 0 0
      ∗ dutyTok ER (rsR (pl c 3) 1 0) 0 0
      ∗ ((rsSrc c 2 0).view.loc (c : Thread nD τ) ↦[(rsSrc c 2 0).view.set]{fullShare} Pblk m c)
      ∗ (∃ f, (rsDst 1 0).view.loc (pl c 3 : Thread nD τ) ↦[(rsDst 1 0).view.set]{fullShare} f)
      ∗ dutyTok ER (rsS c 2 1) 0 0
      ∗ dutyTok ER (rsR (pl c 2) 2 1) 0 0
      ∗ ((rsSrc c 1 1).view.loc (c : Thread nD τ) ↦[(rsSrc c 1 1).view.set]{fullShare} Pblk m c)
      ∗ (∃ f, (rsDst 2 1).view.loc (pl c 2 : Thread nD τ) ↦[(rsDst 2 1).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr) W)
      ⊢ wp frame (wpE (defs₀ (F := F)) 𝒱₀ c none) Set.univ (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v53)
          (fun r : (PUnit) => iprop(cred (tallyAt (rsS c 3 0) () Nr)
            ∗ cred (tallyAt (rsS c 2 1) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr) W'))) := by
  iintro ⟨#IsS30, #IpR30, #RsS30, #RpR30, #IsS21, #IpR21, #RsS21, #RpR21, TsS30, TpR30, Hs30, Ed3r0, TsS21, TpR21, Hs21, Ed2r1, HO⟩
  sl_exec
  icases Ed3r0 with ⟨%fd, Hd⟩
  iapply (wp_rs_send m c 2 0 _ (dev6_eq c) _ _ rfl rfl _ _ rfl rfl (K (rsS c 3 0)) (K (rsR (pl c 3) 1 0)) fd _ _) $$ [Hs30 Hd HO TsS30 TpR30]
  · isplitr; · iexact IsS30
    isplitr; · iexact IpR30
    isplitl [Hs30]; · iexact Hs30
    isplitl [Hd]; · iexact Hd
    isplitl [HO]; · iexact HO
    isplitl [TsS30]; · iexact TsS30
    isplitr; · iexact RsS30
    isplitl [TpR30]; · iexact TpR30
    iexact RpR30
  iintro ⟨Cs30, HO⟩
  sl_exec
  icases Ed2r1 with ⟨%fd, Hd⟩
  iapply (wp_rs_send m c 1 1 _ (dev7_eq c) _ _ rfl rfl _ _ rfl rfl (K (rsS c 2 1)) (K (rsR (pl c 2) 2 1)) fd _ _) $$ [Hs21 Hd HO TsS21 TpR21]
  · isplitr; · iexact IsS21
    isplitr; · iexact IpR21
    isplitl [Hs21]; · iexact Hs21
    isplitl [Hd]; · iexact Hd
    isplitl [HO]; · iexact HO
    isplitl [TsS21]; · iexact TsS21
    isplitr; · iexact RsS21
    isplitl [TpR21]; · iexact TpR21
    iexact RpR21
  iintro ⟨Cs21, HO⟩
  sl_exec
  sl_step
  isplitl [Cs30]; · iexact Cs30
  isplitl [Cs21]; · iexact Cs21
  (iexists _; iexact HO)

set_option maxHeartbeats 1000000 in
theorem part4_run (K : GSem nD τ sig → ℕ) (c : Dev nD)  (W : Waits sig Unit) (v2 : BitVec 32)
    :
    iprop(cellInv ER (Rd m) (K (rsS c 1 1)) (rsS c 1 1)
      ∗ cellInv ER (Rd m) (K (rsR (pl c 1) 3 1)) (rsR (pl c 1) 3 1)
      ∗ reached ER (rsS c 1 1) 0
      ∗ reached ER (rsR (pl c 1) 3 1) 0
      ∗ cellInv ER (Rd m) (K (rsS c 3 1)) (rsS c 3 1)
      ∗ cellInv ER (Rd m) (K (rsR (pl c 3) 1 1)) (rsR (pl c 3) 1 1)
      ∗ reached ER (rsS c 3 1) 0
      ∗ reached ER (rsR (pl c 3) 1 1) 0
      ∗ dutyTok ER (rsS c 1 1) 0 0
      ∗ dutyTok ER (rsR (pl c 1) 3 1) 0 0
      ∗ ((rsSrc c 0 1).view.loc (c : Thread nD τ) ↦[(rsSrc c 0 1).view.set]{fullShare} Pblk m c)
      ∗ (∃ f, (rsDst 3 1).view.loc (pl c 1 : Thread nD τ) ↦[(rsDst 3 1).view.set]{fullShare} f)
      ∗ dutyTok ER (rsS c 3 1) 0 0
      ∗ dutyTok ER (rsR (pl c 3) 1 1) 0 0
      ∗ ((rsSrc c 2 1).view.loc (c : Thread nD τ) ↦[(rsSrc c 2 1).view.set]{fullShare} Pblk m c)
      ∗ (∃ f, (rsDst 1 1).view.loc (pl c 3 : Thread nD τ) ↦[(rsDst 1 1).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr) W)
      ⊢ wp frame (wpE (defs₀ (F := F)) 𝒱₀ c none) Set.univ (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (PUnit) => iprop(cred (tallyAt (rsS c 1 1) () Nr)
            ∗ cred (tallyAt (rsS c 3 1) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr) W'))) := by
  iintro ⟨#IsS11, #IpR11, #RsS11, #RpR11, #IsS31, #IpR31, #RsS31, #RpR31, TsS11, TpR11, Hs11, Ed1r1, TsS31, TpR31, Hs31, Ed3r1, HO⟩
  sl_exec
  icases Ed1r1 with ⟨%fd, Hd⟩
  iapply (wp_rs_send m c 0 1 _ (dev8_eq c) _ _ rfl rfl _ _ rfl rfl (K (rsS c 1 1)) (K (rsR (pl c 1) 3 1)) fd _ _) $$ [Hs11 Hd HO TsS11 TpR11]
  · isplitr; · iexact IsS11
    isplitr; · iexact IpR11
    isplitl [Hs11]; · iexact Hs11
    isplitl [Hd]; · iexact Hd
    isplitl [HO]; · iexact HO
    isplitl [TsS11]; · iexact TsS11
    isplitr; · iexact RsS11
    isplitl [TpR11]; · iexact TpR11
    iexact RpR11
  iintro ⟨Cs11, HO⟩
  sl_exec
  icases Ed3r1 with ⟨%fd, Hd⟩
  iapply (wp_rs_send m c 2 1 _ (dev9_eq c) _ _ rfl rfl _ _ rfl rfl (K (rsS c 3 1)) (K (rsR (pl c 3) 1 1)) fd _ _) $$ [Hs31 Hd HO TsS31 TpR31]
  · isplitr; · iexact IsS31
    isplitr; · iexact IpR31
    isplitl [Hs31]; · iexact Hs31
    isplitl [Hd]; · iexact Hd
    isplitl [HO]; · iexact HO
    isplitl [TsS31]; · iexact TsS31
    isplitr; · iexact RsS31
    isplitl [TpR31]; · iexact TpR31
    iexact RpR31
  iintro ⟨Cs31, HO⟩
  sl_exec
  sl_step
  isplitl [Cs11]; · iexact Cs11
  isplitl [Cs31]; · iexact Cs31
  (iexists _; iexact HO)

set_option maxHeartbeats 1000000 in
theorem part5_run (K : GSem nD τ sig → ℕ) (c : Dev nD)  (W : Waits sig Unit) (v2 : BitVec 32)
    :
    iprop(cellInv ER (Rd m) (K (rsS c 2 2)) (rsS c 2 2)
      ∗ cellInv ER (Rd m) (K (rsR (pl c 2) 2 2)) (rsR (pl c 2) 2 2)
      ∗ reached ER (rsS c 2 2) 0
      ∗ reached ER (rsR (pl c 2) 2 2) 0
      ∗ cellInv ER (Rd m) (K (rsS c 1 2)) (rsS c 1 2)
      ∗ cellInv ER (Rd m) (K (rsR (pl c 1) 3 2)) (rsR (pl c 1) 3 2)
      ∗ reached ER (rsS c 1 2) 0
      ∗ reached ER (rsR (pl c 1) 3 2) 0
      ∗ cellInv ER (Rd m) (K (rsS c 3 2)) (rsS c 3 2)
      ∗ cellInv ER (Rd m) (K (rsR (pl c 3) 1 2)) (rsR (pl c 3) 1 2)
      ∗ reached ER (rsS c 3 2) 0
      ∗ reached ER (rsR (pl c 3) 1 2) 0
      ∗ dutyTok ER (rsS c 2 2) 0 0
      ∗ dutyTok ER (rsR (pl c 2) 2 2) 0 0
      ∗ ((rsSrc c 1 2).view.loc (c : Thread nD τ) ↦[(rsSrc c 1 2).view.set]{fullShare} Pblk m c)
      ∗ (∃ f, (rsDst 2 2).view.loc (pl c 2 : Thread nD τ) ↦[(rsDst 2 2).view.set]{fullShare} f)
      ∗ dutyTok ER (rsS c 1 2) 0 0
      ∗ dutyTok ER (rsR (pl c 1) 3 2) 0 0
      ∗ ((rsSrc c 0 2).view.loc (c : Thread nD τ) ↦[(rsSrc c 0 2).view.set]{fullShare} Pblk m c)
      ∗ (∃ f, (rsDst 3 2).view.loc (pl c 1 : Thread nD τ) ↦[(rsDst 3 2).view.set]{fullShare} f)
      ∗ dutyTok ER (rsS c 3 2) 0 0
      ∗ dutyTok ER (rsR (pl c 3) 1 2) 0 0
      ∗ ((rsSrc c 2 2).view.loc (c : Thread nD τ) ↦[(rsSrc c 2 2).view.set]{fullShare} Pblk m c)
      ∗ (∃ f, (rsDst 1 2).view.loc (pl c 3 : Thread nD τ) ↦[(rsDst 1 2).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr) W)
      ⊢ wp frame (wpE (defs₀ (F := F)) 𝒱₀ c none) Set.univ (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (BitVec 32) => iprop(cred (tallyAt (rsS c 2 2) () Nr)
            ∗ cred (tallyAt (rsS c 1 2) () Nr)
            ∗ cred (tallyAt (rsS c 3 2) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr) W'))) := by
  iintro ⟨#IsS22, #IpR22, #RsS22, #RpR22, #IsS12, #IpR12, #RsS12, #RpR12, #IsS32, #IpR32, #RsS32, #RpR32, TsS22, TpR22, Hs22, Ed2r2, TsS12, TpR12, Hs12, Ed1r2, TsS32, TpR32, Hs32, Ed3r2, HO⟩
  sl_exec
  icases Ed2r2 with ⟨%fd, Hd⟩
  iapply (wp_rs_send m c 1 2 _ (dev10_eq c) _ _ rfl rfl _ _ rfl rfl (K (rsS c 2 2)) (K (rsR (pl c 2) 2 2)) fd _ _) $$ [Hs22 Hd HO TsS22 TpR22]
  · isplitr; · iexact IsS22
    isplitr; · iexact IpR22
    isplitl [Hs22]; · iexact Hs22
    isplitl [Hd]; · iexact Hd
    isplitl [HO]; · iexact HO
    isplitl [TsS22]; · iexact TsS22
    isplitr; · iexact RsS22
    isplitl [TpR22]; · iexact TpR22
    iexact RpR22
  iintro ⟨Cs22, HO⟩
  sl_exec
  icases Ed1r2 with ⟨%fd, Hd⟩
  iapply (wp_rs_send m c 0 2 _ (dev11_eq c) _ _ rfl rfl _ _ rfl rfl (K (rsS c 1 2)) (K (rsR (pl c 1) 3 2)) fd _ _) $$ [Hs12 Hd HO TsS12 TpR12]
  · isplitr; · iexact IsS12
    isplitr; · iexact IpR12
    isplitl [Hs12]; · iexact Hs12
    isplitl [Hd]; · iexact Hd
    isplitl [HO]; · iexact HO
    isplitl [TsS12]; · iexact TsS12
    isplitr; · iexact RsS12
    isplitl [TpR12]; · iexact TpR12
    iexact RpR12
  iintro ⟨Cs12, HO⟩
  sl_exec
  icases Ed3r2 with ⟨%fd, Hd⟩
  iapply (wp_rs_send m c 2 2 _ (dev12_eq c) _ _ rfl rfl _ _ rfl rfl (K (rsS c 3 2)) (K (rsR (pl c 3) 1 2)) fd _ _) $$ [Hs32 Hd HO TsS32 TpR32]
  · isplitr; · iexact IsS32
    isplitr; · iexact IpR32
    isplitl [Hs32]; · iexact Hs32
    isplitl [Hd]; · iexact Hd
    isplitl [HO]; · iexact HO
    isplitl [TsS32]; · iexact TsS32
    isplitr; · iexact RsS32
    isplitl [TpR32]; · iexact TpR32
    iexact RpR32
  iintro ⟨Cs32, HO⟩
  sl_exec
  sl_step
  isplitl [Cs22]; · iexact Cs22
  isplitl [Cs12]; · iexact Cs12
  isplitl [Cs32]; · iexact Cs32
  (iexists _; iexact HO)

set_option maxHeartbeats 1000000 in
theorem part6_run (K : GSem nD τ sig → ℕ) (c : Dev nD)  (W : Waits sig Unit) (v2 : BitVec 32) (v137 : BitVec 32)
    :
    iprop(cellInv ER (Rd m) (K (rsS c 2 3)) (rsS c 2 3)
      ∗ cellInv ER (Rd m) (K (rsR (pl c 2) 2 3)) (rsR (pl c 2) 2 3)
      ∗ reached ER (rsS c 2 3) 0
      ∗ reached ER (rsR (pl c 2) 2 3) 0
      ∗ cellInv ER (Rd m) (K (rsS c 1 3)) (rsS c 1 3)
      ∗ cellInv ER (Rd m) (K (rsR (pl c 1) 3 3)) (rsR (pl c 1) 3 3)
      ∗ reached ER (rsS c 1 3) 0
      ∗ reached ER (rsR (pl c 1) 3 3) 0
      ∗ dutyTok ER (rsS c 2 3) 0 0
      ∗ dutyTok ER (rsR (pl c 2) 2 3) 0 0
      ∗ ((rsSrc c 1 3).view.loc (c : Thread nD τ) ↦[(rsSrc c 1 3).view.set]{fullShare} Pblk m c)
      ∗ (∃ f, (rsDst 2 3).view.loc (pl c 2 : Thread nD τ) ↦[(rsDst 2 3).view.set]{fullShare} f)
      ∗ dutyTok ER (rsS c 1 3) 0 0
      ∗ dutyTok ER (rsR (pl c 1) 3 3) 0 0
      ∗ ((rsSrc c 0 3).view.loc (c : Thread nD τ) ↦[(rsSrc c 0 3).view.set]{fullShare} Pblk m c)
      ∗ (∃ f, (rsDst 3 3).view.loc (pl c 1 : Thread nD τ) ↦[(rsDst 3 3).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr) W)
      ⊢ wp frame (wpE (defs₀ (F := F)) 𝒱₀ c none) Set.univ (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v137)
          (fun r : (PUnit) => iprop(cred (tallyAt (rsS c 2 3) () Nr)
            ∗ cred (tallyAt (rsS c 1 3) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr) W'))) := by
  iintro ⟨#IsS23, #IpR23, #RsS23, #RpR23, #IsS13, #IpR13, #RsS13, #RpR13, TsS23, TpR23, Hs23, Ed2r3, TsS13, TpR13, Hs13, Ed1r3, HO⟩
  sl_exec
  icases Ed2r3 with ⟨%fd, Hd⟩
  iapply (wp_rs_send m c 1 3 _ (dev13_eq c) _ _ rfl rfl _ _ rfl rfl (K (rsS c 2 3)) (K (rsR (pl c 2) 2 3)) fd _ _) $$ [Hs23 Hd HO TsS23 TpR23]
  · isplitr; · iexact IsS23
    isplitr; · iexact IpR23
    isplitl [Hs23]; · iexact Hs23
    isplitl [Hd]; · iexact Hd
    isplitl [HO]; · iexact HO
    isplitl [TsS23]; · iexact TsS23
    isplitr; · iexact RsS23
    isplitl [TpR23]; · iexact TpR23
    iexact RpR23
  iintro ⟨Cs23, HO⟩
  sl_exec
  icases Ed1r3 with ⟨%fd, Hd⟩
  iapply (wp_rs_send m c 0 3 _ (dev14_eq c) _ _ rfl rfl _ _ rfl rfl (K (rsS c 1 3)) (K (rsR (pl c 1) 3 3)) fd _ _) $$ [Hs13 Hd HO TsS13 TpR13]
  · isplitr; · iexact IsS13
    isplitr; · iexact IpR13
    isplitl [Hs13]; · iexact Hs13
    isplitl [Hd]; · iexact Hd
    isplitl [HO]; · iexact HO
    isplitl [TsS13]; · iexact TsS13
    isplitr; · iexact RsS13
    isplitl [TpR13]; · iexact TpR13
    iexact RpR13
  iintro ⟨Cs13, HO⟩
  sl_exec
  sl_step
  isplitl [Cs23]; · iexact Cs23
  isplitl [Cs13]; · iexact Cs13
  (iexists _; iexact HO)

end Cert.Kernel.Hand
end
-- ==== Proof.KernelPartsB.lean ====
import proofs.«900554_g7700000000000555_dist_matmul_gelu_kshard_i_m512_n512_k256_v7x_i4_bf16_1_alg».proof.Proof.KernelStepsCommon

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

set_option maxHeartbeats 1000000 in
theorem part7_run (K : GSem nD τ sig → ℕ) (c : Dev nD)  (W : Waits sig Unit) (v2 : BitVec 32)
    :
    iprop(cellInv ER (Rd m) (K (rsS c 3 3)) (rsS c 3 3)
      ∗ cellInv ER (Rd m) (K (rsR (pl c 3) 1 3)) (rsR (pl c 3) 1 3)
      ∗ reached ER (rsS c 3 3) 0
      ∗ reached ER (rsR (pl c 3) 1 3) 0
      ∗ levAts L lv
      ∗ cellInv ER (Rd m) (K (rsR c 1 0)) (rsR c 1 0)
      ∗ dutyTok ER (rsS c 3 3) 0 0
      ∗ dutyTok ER (rsR (pl c 3) 1 3) 0 0
      ∗ ((rsSrc c 2 3).view.loc (c : Thread nD τ) ↦[(rsSrc c 2 3).view.set]{fullShare} Pblk m c)
      ∗ (∃ f, (rsDst 1 3).view.loc (pl c 3 : Thread nD τ) ↦[(rsDst 1 3).view.set]{fullShare} f)
      ∗ pRest c (Pblk m c)
      ∗ atPos ER (rsR c 1 0) 0 ∅ 0
      ∗ cred (tallyAt (rsR c 1 0) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr) W)
      ⊢ wp frame (wpE (defs₀ (F := F)) 𝒱₀ c none) Set.univ (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (FVec F S32x512 .f32) => iprop(cred (tallyAt (rsS c 3 3) () Nr)
            ∗ pRest c (Pblk m c)
            ∗ atPos ER (rsR c 1 0) 1 ∅ 0
            ∗ ((rsDst 1 0).view.loc (c : Thread nD τ) ↦[(rsDst 1 0).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No) W')
            ∗ ⌜r = k0_pay2 (pM.view.readAt (Elt F) (Rect.unit (s := S4x128x512) (k0_off5 c) S1x32x512.size (k0_off5_inb c)).toLoadRect (Pblk m c)) (rM.view.readAt (Elt F) (Rect.unit (s := S4x128x512) ![1, 0, 0] S1x32x512.size inb_S4x128x512_S1x32x512_1_0_0).toLoadRect (RSfun m c))⌝)) := by
  iintro ⟨#IsS33, #IpR33, #RsS33, #RpR33, #Hlev, #IsR10, TsS33, TpR33, Hs33, Ed3r3, Hpr, PsR10, CsR10, HO⟩
  have hmw := mayWait_rs15 (F := F) c 1 0
  sl_exec
  icases Ed3r3 with ⟨%fd, Hd⟩
  iapply (wp_rs_send m c 2 3 _ (dev15_eq c) _ _ rfl rfl _ _ rfl rfl (K (rsS c 3 3)) (K (rsR (pl c 3) 1 3)) fd _ _) $$ [Hs33 Hd HO TsS33 TpR33]
  · isplitr; · iexact IsS33
    isplitr; · iexact IpR33
    isplitl [Hs33]; · iexact Hs33
    isplitl [Hd]; · iexact Hd
    isplitl [HO]; · iexact HO
    isplitl [TsS33]; · iexact TsS33
    isplitr; · iexact RsS33
    isplitl [TpR33]; · iexact TpR33
    iexact RpR33
  iintro ⟨Cs33, HO⟩
  iapply (wp_load_own c 0 (Pblk m c) _ rfl) $$ Hpr
  iintro Hpr
  sl_rw [Prog.bind]
  sl_exec
  sl_step
  isplitl [Cs33]; · iexact Cs33
  isplitl [Hpr]; · iexact Hpr
  isplitl [PsR10]; · iexact PsR10
  isplitl [PsR10_pay1]; · iexact PsR10_pay1
  isplitl [HO]; · (iexists _; iexact HO)
  (ipureintro; rfl)

set_option maxHeartbeats 1000000 in
theorem part8_run (K : GSem nD τ sig → ℕ) (c : Dev nD)  (W : Waits sig Unit) (v2 : BitVec 32) (v187 : FVec F S32x512 .f32)
    :
    iprop(levAts L lv
      ∗ cellInv ER (Rd m) (K (rsR c 3 0)) (rsR c 3 0)
      ∗ cellInv ER (Rd m) (K (rsR c 2 0)) (rsR c 2 0)
      ∗ atPos ER (rsR c 3 0) 0 ∅ 0
      ∗ cred (tallyAt (rsR c 3 0) () Nr)
      ∗ atPos ER (rsR c 2 0) 0 ∅ 0
      ∗ cred (tallyAt (rsR c 2 0) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No) W)
      ⊢ wp frame (wpE (defs₀ (F := F)) 𝒱₀ c none) Set.univ (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 v2 v187)
          (fun r : (FVec F S32x512 .f32) => iprop(atPos ER (rsR c 3 0) 1 ∅ 0
            ∗ ((rsDst 3 0).view.loc (c : Thread nD τ) ↦[(rsDst 3 0).view.set]{fullShare} RSfun m c)
            ∗ atPos ER (rsR c 2 0) 1 ∅ 0
            ∗ ((rsDst 2 0).view.loc (c : Thread nD τ) ↦[(rsDst 2 0).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No) W')
            ∗ ⌜r = k0_pay3 v187 (rM.view.readAt (Elt F) (Rect.unit (s := S4x128x512) ![3, 0, 0] S1x32x512.size inb_S4x128x512_S1x32x512_3_0_0).toLoadRect (RSfun m c)) (rM.view.readAt (Elt F) (Rect.unit (s := S4x128x512) ![2, 0, 0] S1x32x512.size inb_S4x128x512_S1x32x512_2_0_0).toLoadRect (RSfun m c))⌝)) := by
  iintro ⟨#Hlev, #IsR30, #IsR20, PsR30, CsR30, PsR20, CsR20, HO⟩
  have hmw3 := mayWait_rs15 (F := F) c 3 0
  have hmw2 := mayWait_rs15 (F := F) c 2 0
  sl_exec
  sl_step
  isplitl [PsR30]; · iexact PsR30
  isplitl [PsR30_pay1]; · iexact PsR30_pay1
  isplitl [PsR20]; · iexact PsR20
  isplitl [PsR20_pay1]; · iexact PsR20_pay1
  isplitl [HO]; · (iexists _; iexact HO)
  (ipureintro; rfl)

set_option maxHeartbeats 1000000 in
theorem part9_run (K : GSem nD τ sig → ℕ) (c : Dev nD) (o0 : Vec F S512x512 .bf16) (W : Waits sig Unit) (v2 : BitVec 32) (v224 : FVec F S32x512 .f32)
    (hv224 : v224 = k0_pay3 (k0_pay2 (pM.view.readAt (Elt F) (Rect.unit (s := S4x128x512) (k0_off5 c) S1x32x512.size (k0_off5_inb c)).toLoadRect (Pblk m c)) (rM.view.readAt (Elt F) (Rect.unit (s := S4x128x512) ![1, 0, 0] S1x32x512.size inb_S4x128x512_S1x32x512_1_0_0).toLoadRect (RSfun m c))) (rM.view.readAt (Elt F) (Rect.unit (s := S4x128x512) ![3, 0, 0] S1x32x512.size inb_S4x128x512_S1x32x512_3_0_0).toLoadRect (RSfun m c)) (rM.view.readAt (Elt F) (Rect.unit (s := S4x128x512) ![2, 0, 0] S1x32x512.size inb_S4x128x512_S1x32x512_2_0_0).toLoadRect (RSfun m c)))
    :
    iprop(cellInv ER (Rd m) (K (agS c 2 0)) (agS c 2 0)
      ∗ cellInv ER (Rd m) (K (agR (pl c 2) 2 0)) (agR (pl c 2) 2 0)
      ∗ reached ER (agS c 2 0) 0
      ∗ reached ER (agR (pl c 2) 2 0) 0
      ∗ cellInv ER (Rd m) (K (agS c 1 0)) (agS c 1 0)
      ∗ cellInv ER (Rd m) (K (agR (pl c 1) 3 0)) (agR (pl c 1) 3 0)
      ∗ reached ER (agS c 1 0) 0
      ∗ reached ER (agR (pl c 1) 3 0) 0
      ∗ ((outSl c 0).view.loc (c : Thread nD τ) ↦[(outSl c 0).view.set]{fullShare} o0)
      ∗ dutyTok ER (agS c 2 0) 0 0
      ∗ dutyTok ER (agR (pl c 2) 2 0) 0 0
      ∗ (∃ f, (outSl c 0).view.loc (pl c 2 : Thread nD τ) ↦[(outSl c 0).view.set]{fullShare} f)
      ∗ dutyTok ER (agS c 1 0) 0 0
      ∗ dutyTok ER (agR (pl c 1) 3 0) 0 0
      ∗ (∃ f, (outSl c 0).view.loc (pl c 1 : Thread nD τ) ↦[(outSl c 0).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No) W)
      ⊢ wp frame (wpE (defs₀ (F := F)) 𝒱₀ c none) Set.univ (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v224)
          (fun r : (BitVec 32) => iprop(((outSl c 0).view.loc (c : Thread nD τ) ↦[(outSl c 0).view.set]{fullShare.right.right} OUT m)
            ∗ cred (tallyAt (agS c 2 0) () No)
            ∗ cred (tallyAt (agS c 1 0) () No)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No) W'))) := by
  iintro ⟨#IaS20, #IpA20, #RaS20, #RpA20, #IaS10, #IpA10, #RaS10, #RpA10, Ho00, TaS20, TpA20, Ed2o0, TaS10, TpA10, Ed1o0, HO⟩
  subst hv224
  sl_exec
  iapply (wp_store_out c 0 o0 _ rfl) $$ Ho00
  iintro Ho00
  ihave Ho00 := (Entails.of_eq (chunk_stored_pts_0 m c o0)) $$ Ho00
  ihave Ho00 := (pointsTo_share (PosShare.mem_left_op_right fullShare)).1 $$ Ho00
  icases Ho00 with ⟨Ho00_2, Ho00_r⟩
  ihave Ho00_r := (pointsTo_share (PosShare.mem_left_op_right fullShare.right)).1 $$ Ho00_r
  icases Ho00_r with ⟨Ho00_1, Ho00_3⟩
  sl_exec
  icases Ed2o0 with ⟨%fd, Hd⟩
  iapply (wp_ag_send m c 1 0 _ (dev16_eq c) _ _ rfl rfl _ _ rfl rfl (K (agS c 2 0)) (K (agR (pl c 2) 2 0)) fd _ _) $$ [Ho00_2 Hd HO TaS20 TpA20]
  · isplitr; · iexact IaS20
    isplitr; · iexact IpA20
    isplitl [Ho00_2]; · iexact Ho00_2
    isplitl [Hd]; · iexact Hd
    isplitl [HO]; · iexact HO
    isplitl [TaS20]; · iexact TaS20
    isplitr; · iexact RaS20
    isplitl [TpA20]; · iexact TpA20
    iexact RpA20
  iintro ⟨Ca20, HO⟩
  sl_exec
  icases Ed1o0 with ⟨%fd, Hd⟩
  iapply (wp_ag_send m c 0 0 _ (dev17_eq c) _ _ rfl rfl _ _ rfl rfl (K (agS c 1 0)) (K (agR (pl c 1) 3 0)) fd _ _) $$ [Ho00_1 Hd HO TaS10 TpA10]
  · isplitr; · iexact IaS10
    isplitr; · iexact IpA10
    isplitl [Ho00_1]; · iexact Ho00_1
    isplitl [Hd]; · iexact Hd
    isplitl [HO]; · iexact HO
    isplitl [TaS10]; · iexact TaS10
    isplitr; · iexact RaS10
    isplitl [TpA10]; · iexact TpA10
    iexact RpA10
  iintro ⟨Ca10, HO⟩
  sl_exec
  sl_step
  isplitl [Ho00_3]; · iexact Ho00_3
  isplitl [Ca20]; · iexact Ca20
  isplitl [Ca10]; · iexact Ca10
  (iexists _; iexact HO)

set_option maxHeartbeats 1000000 in
theorem part10_run (K : GSem nD τ sig → ℕ) (c : Dev nD)  (W : Waits sig Unit) (v2 : BitVec 32) (v251 : BitVec 32)
    :
    iprop(cellInv ER (Rd m) (K (agS c 3 0)) (agS c 3 0)
      ∗ cellInv ER (Rd m) (K (agR (pl c 3) 1 0)) (agR (pl c 3) 1 0)
      ∗ reached ER (agS c 3 0) 0
      ∗ reached ER (agR (pl c 3) 1 0) 0
      ∗ levAts L lv
      ∗ cellInv ER (Rd m) (K (rsR c 1 1)) (rsR c 1 1)
      ∗ dutyTok ER (agS c 3 0) 0 0
      ∗ dutyTok ER (agR (pl c 3) 1 0) 0 0
      ∗ ((outSl c 0).view.loc (c : Thread nD τ) ↦[(outSl c 0).view.set]{fullShare.right.right} OUT m)
      ∗ (∃ f, (outSl c 0).view.loc (pl c 3 : Thread nD τ) ↦[(outSl c 0).view.set]{fullShare} f)
      ∗ pRest c (Pblk m c)
      ∗ atPos ER (rsR c 1 1) 0 ∅ 0
      ∗ cred (tallyAt (rsR c 1 1) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No) W)
      ⊢ wp frame (wpE (defs₀ (F := F)) 𝒱₀ c none) Set.univ (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v251)
          (fun r : (FVec F S32x512 .f32) => iprop(cred (tallyAt (agS c 3 0) () No)
            ∗ pRest c (Pblk m c)
            ∗ atPos ER (rsR c 1 1) 1 ∅ 0
            ∗ ((rsDst 1 1).view.loc (c : Thread nD τ) ↦[(rsDst 1 1).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No) W')
            ∗ ⌜r = k0_pay5 (pM.view.readAt (Elt F) (Rect.unit (s := S4x128x512) (k0_off7 c) S1x32x512.size (k0_off7_inb c)).toLoadRect (Pblk m c)) (rM.view.readAt (Elt F) (Rect.unit (s := S4x128x512) ![1, 32, 0] S1x32x512.size inb_S4x128x512_S1x32x512_1_32_0).toLoadRect (RSfun m c))⌝)) := by
  iintro ⟨#IaS30, #IpA30, #RaS30, #RpA30, #Hlev, #IsR11, TaS30, TpA30, Ho00_3, Ed3o0, Hpr, PsR11, CsR11, HO⟩
  have hmw := mayWait_rs18 (F := F) c 1 1
  sl_exec
  icases Ed3o0 with ⟨%fd, Hd⟩
  iapply (wp_ag_send m c 2 0 _ (dev18_eq c) _ _ rfl rfl _ _ rfl rfl (K (agS c 3 0)) (K (agR (pl c 3) 1 0)) fd _ _) $$ [Ho00_3 Hd HO TaS30 TpA30]
  · isplitr; · iexact IaS30
    isplitr; · iexact IpA30
    isplitl [Ho00_3]; · iexact Ho00_3
    isplitl [Hd]; · iexact Hd
    isplitl [HO]; · iexact HO
    isplitl [TaS30]; · iexact TaS30
    isplitr; · iexact RaS30
    isplitl [TpA30]; · iexact TpA30
    iexact RpA30
  iintro ⟨Ca30, HO⟩
  iapply (wp_load_own c 1 (Pblk m c) _ rfl) $$ Hpr
  iintro Hpr
  sl_rw [Prog.bind]
  sl_exec
  sl_step
  isplitl [Ca30]; · iexact Ca30
  isplitl [Hpr]; · iexact Hpr
  isplitl [PsR11]; · iexact PsR11
  isplitl [PsR11_pay1]; · iexact PsR11_pay1
  isplitl [HO]; · (iexists _; iexact HO)
  (ipureintro; rfl)

set_option maxHeartbeats 1000000 in
theorem part11_run (K : GSem nD τ sig → ℕ) (c : Dev nD)  (W : Waits sig Unit) (v2 : BitVec 32) (v275 : FVec F S32x512 .f32)
    :
    iprop(levAts L lv
      ∗ cellInv ER (Rd m) (K (rsR c 3 1)) (rsR c 3 1)
      ∗ cellInv ER (Rd m) (K (rsR c 2 1)) (rsR c 2 1)
      ∗ atPos ER (rsR c 3 1) 0 ∅ 0
      ∗ cred (tallyAt (rsR c 3 1) () Nr)
      ∗ atPos ER (rsR c 2 1) 0 ∅ 0
      ∗ cred (tallyAt (rsR c 2 1) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No) W)
      ⊢ wp frame (wpE (defs₀ (F := F)) 𝒱₀ c none) Set.univ (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 v2 v275)
          (fun r : (Σ' (v301 : FVec F S32x512 .f32) (v309 : FVec F S32x512 .f32), FVec F S32x512 .f32) => iprop(atPos ER (rsR c 3 1) 1 ∅ 0
            ∗ ((rsDst 3 1).view.loc (c : Thread nD τ) ↦[(rsDst 3 1).view.set]{fullShare} RSfun m c)
            ∗ atPos ER (rsR c 2 1) 1 ∅ 0
            ∗ ((rsDst 2 1).view.loc (c : Thread nD τ) ↦[(rsDst 2 1).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No) W')
            ∗ ⌜r.1 = k0_pay7 v275 (rM.view.readAt (Elt F) (Rect.unit (s := S4x128x512) ![3, 32, 0] S1x32x512.size inb_S4x128x512_S1x32x512_3_32_0).toLoadRect (RSfun m c)) (rM.view.readAt (Elt F) (Rect.unit (s := S4x128x512) ![2, 32, 0] S1x32x512.size inb_S4x128x512_S1x32x512_2_32_0).toLoadRect (RSfun m c))⌝
            ∗ ⌜r.2.1 = k0_pay8 v275 (rM.view.readAt (Elt F) (Rect.unit (s := S4x128x512) ![3, 32, 0] S1x32x512.size inb_S4x128x512_S1x32x512_3_32_0).toLoadRect (RSfun m c)) (rM.view.readAt (Elt F) (Rect.unit (s := S4x128x512) ![2, 32, 0] S1x32x512.size inb_S4x128x512_S1x32x512_2_32_0).toLoadRect (RSfun m c))⌝
            ∗ ⌜r.2.2 = k0_pay9 (F := F)⌝)) := by
  iintro ⟨#Hlev, #IsR31, #IsR21, PsR31, CsR31, PsR21, CsR21, HO⟩
  have hmw3 := mayWait_rs18 (F := F) c 3 1
  have hmw2 := mayWait_rs18 (F := F) c 2 1
  sl_exec
  sl_step
  isplitl [PsR31]; · iexact PsR31
  isplitl [PsR31_pay1]; · iexact PsR31_pay1
  isplitl [PsR21]; · iexact PsR21
  isplitl [PsR21_pay1]; · iexact PsR21_pay1
  isplitl [HO]; · (iexists _; iexact HO)
  isplitr; · (ipureintro; rfl)
  isplitr; · (ipureintro; rfl)
  (ipureintro; rfl)

set_option maxHeartbeats 1000000 in
theorem part12_run (K : GSem nD τ sig → ℕ) (c : Dev nD) (o0 : Vec F S512x512 .bf16) (W : Waits sig Unit) (v2 : BitVec 32) (v301 : FVec F S32x512 .f32) (v309 : FVec F S32x512 .f32) (v310 : FVec F S32x512 .f32)
    (hv301 : v301 = k0_pay7 (k0_pay5 (pM.view.readAt (Elt F) (Rect.unit (s := S4x128x512) (k0_off7 c) S1x32x512.size (k0_off7_inb c)).toLoadRect (Pblk m c)) (rM.view.readAt (Elt F) (Rect.unit (s := S4x128x512) ![1, 32, 0] S1x32x512.size inb_S4x128x512_S1x32x512_1_32_0).toLoadRect (RSfun m c))) (rM.view.readAt (Elt F) (Rect.unit (s := S4x128x512) ![3, 32, 0] S1x32x512.size inb_S4x128x512_S1x32x512_3_32_0).toLoadRect (RSfun m c)) (rM.view.readAt (Elt F) (Rect.unit (s := S4x128x512) ![2, 32, 0] S1x32x512.size inb_S4x128x512_S1x32x512_2_32_0).toLoadRect (RSfun m c)))
    (hv309 : v309 = k0_pay8 (k0_pay5 (pM.view.readAt (Elt F) (Rect.unit (s := S4x128x512) (k0_off7 c) S1x32x512.size (k0_off7_inb c)).toLoadRect (Pblk m c)) (rM.view.readAt (Elt F) (Rect.unit (s := S4x128x512) ![1, 32, 0] S1x32x512.size inb_S4x128x512_S1x32x512_1_32_0).toLoadRect (RSfun m c))) (rM.view.readAt (Elt F) (Rect.unit (s := S4x128x512) ![3, 32, 0] S1x32x512.size inb_S4x128x512_S1x32x512_3_32_0).toLoadRect (RSfun m c)) (rM.view.readAt (Elt F) (Rect.unit (s := S4x128x512) ![2, 32, 0] S1x32x512.size inb_S4x128x512_S1x32x512_2_32_0).toLoadRect (RSfun m c)))
    (hv310 : v310 = k0_pay9 (F := F))
    :
    iprop(cellInv ER (Rd m) (K (agS c 2 1)) (agS c 2 1)
      ∗ cellInv ER (Rd m) (K (agR (pl c 2) 2 1)) (agR (pl c 2) 2 1)
      ∗ reached ER (agS c 2 1) 0
      ∗ reached ER (agR (pl c 2) 2 1) 0
      ∗ cellInv ER (Rd m) (K (agS c 1 1)) (agS c 1 1)
      ∗ cellInv ER (Rd m) (K (agR (pl c 1) 3 1)) (agR (pl c 1) 3 1)
      ∗ reached ER (agS c 1 1) 0
      ∗ reached ER (agR (pl c 1) 3 1) 0
      ∗ ((outSl c 1).view.loc (c : Thread nD τ) ↦[(outSl c 1).view.set]{fullShare} o0)
      ∗ dutyTok ER (agS c 2 1) 0 0
      ∗ dutyTok ER (agR (pl c 2) 2 1) 0 0
      ∗ (∃ f, (outSl c 1).view.loc (pl c 2 : Thread nD τ) ↦[(outSl c 1).view.set]{fullShare} f)
      ∗ dutyTok ER (agS c 1 1) 0 0
      ∗ dutyTok ER (agR (pl c 1) 3 1) 0 0
      ∗ (∃ f, (outSl c 1).view.loc (pl c 1 : Thread nD τ) ↦[(outSl c 1).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No) W)
      ⊢ wp frame (wpE (defs₀ (F := F)) 𝒱₀ c none) Set.univ (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v301 v309 v310)
          (fun r : (BitVec 32) => iprop(((outSl c 1).view.loc (c : Thread nD τ) ↦[(outSl c 1).view.set]{fullShare.right.right} OUT m)
            ∗ cred (tallyAt (agS c 2 1) () No)
            ∗ cred (tallyAt (agS c 1 1) () No)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No) W'))) := by
  iintro ⟨#IaS21, #IpA21, #RaS21, #RpA21, #IaS11, #IpA11, #RaS11, #RpA11, Ho01, TaS21, TpA21, Ed2o1, TaS11, TpA11, Ed1o1, HO⟩
  subst hv301
  subst hv309
  subst hv310
  sl_exec
  iapply (wp_store_out c 1 o0 _ rfl) $$ Ho01
  iintro Ho01
  ihave Ho01 := (Entails.of_eq (chunk_stored_pts_1 m c o0)) $$ Ho01
  ihave Ho01 := (pointsTo_share (PosShare.mem_left_op_right fullShare)).1 $$ Ho01
  icases Ho01 with ⟨Ho01_2, Ho01_r⟩
  ihave Ho01_r := (pointsTo_share (PosShare.mem_left_op_right fullShare.right)).1 $$ Ho01_r
  icases Ho01_r with ⟨Ho01_1, Ho01_3⟩
  sl_exec
  icases Ed2o1 with ⟨%fd, Hd⟩
  iapply (wp_ag_send m c 1 1 _ (dev19_eq c) _ _ rfl rfl _ _ rfl rfl (K (agS c 2 1)) (K (agR (pl c 2) 2 1)) fd _ _) $$ [Ho01_2 Hd HO TaS21 TpA21]
  · isplitr; · iexact IaS21
    isplitr; · iexact IpA21
    isplitl [Ho01_2]; · iexact Ho01_2
    isplitl [Hd]; · iexact Hd
    isplitl [HO]; · iexact HO
    isplitl [TaS21]; · iexact TaS21
    isplitr; · iexact RaS21
    isplitl [TpA21]; · iexact TpA21
    iexact RpA21
  iintro ⟨Ca21, HO⟩
  sl_exec
  icases Ed1o1 with ⟨%fd, Hd⟩
  iapply (wp_ag_send m c 0 1 _ (dev20_eq c) _ _ rfl rfl _ _ rfl rfl (K (agS c 1 1)) (K (agR (pl c 1) 3 1)) fd _ _) $$ [Ho01_1 Hd HO TaS11 TpA11]
  · isplitr; · iexact IaS11
    isplitr; · iexact IpA11
    isplitl [Ho01_1]; · iexact Ho01_1
    isplitl [Hd]; · iexact Hd
    isplitl [HO]; · iexact HO
    isplitl [TaS11]; · iexact TaS11
    isplitr; · iexact RaS11
    isplitl [TpA11]; · iexact TpA11
    iexact RpA11
  iintro ⟨Ca11, HO⟩
  sl_exec
  sl_step
  isplitl [Ho01_3]; · iexact Ho01_3
  isplitl [Ca21]; · iexact Ca21
  isplitl [Ca11]; · iexact Ca11
  (iexists _; iexact HO)

end Cert.Kernel.Hand
end
-- ==== Proof.KernelPartsC.lean ====
import proofs.«900554_g7700000000000555_dist_matmul_gelu_kshard_i_m512_n512_k256_v7x_i4_bf16_1_alg».proof.Proof.KernelStepsCommon

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

/-- Running a returned value through the rest of the program. -/
private theorem ret_bind_prog {E : Type → Type} {α β : Type} (a : α) (k : α → Prog E β) : (Prog.ret a).bind k = k a := rfl

set_option maxHeartbeats 1000000 in
theorem part13_run (K : GSem nD τ sig → ℕ) (c : Dev nD)  (W : Waits sig Unit) (v2 : BitVec 32) (v339 : BitVec 32)
    :
    iprop(cellInv ER (Rd m) (K (agS c 3 1)) (agS c 3 1)
      ∗ cellInv ER (Rd m) (K (agR (pl c 3) 1 1)) (agR (pl c 3) 1 1)
      ∗ reached ER (agS c 3 1) 0
      ∗ reached ER (agR (pl c 3) 1 1) 0
      ∗ levAts L lv
      ∗ cellInv ER (Rd m) (K (rsR c 1 2)) (rsR c 1 2)
      ∗ dutyTok ER (agS c 3 1) 0 0
      ∗ dutyTok ER (agR (pl c 3) 1 1) 0 0
      ∗ ((outSl c 1).view.loc (c : Thread nD τ) ↦[(outSl c 1).view.set]{fullShare.right.right} OUT m)
      ∗ (∃ f, (outSl c 1).view.loc (pl c 3 : Thread nD τ) ↦[(outSl c 1).view.set]{fullShare} f)
      ∗ pRest c (Pblk m c)
      ∗ atPos ER (rsR c 1 2) 0 ∅ 0
      ∗ cred (tallyAt (rsR c 1 2) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No) W)
      ⊢ wp frame (wpE (defs₀ (F := F)) 𝒱₀ c none) Set.univ (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v339)
          (fun r : (Σ' (v363 : FVec F S32x512 .f32) (v364 : BitVec 32), BitVec 32) => iprop(cred (tallyAt (agS c 3 1) () No)
            ∗ pRest c (Pblk m c)
            ∗ atPos ER (rsR c 1 2) 1 ∅ 0
            ∗ ((rsDst 1 2).view.loc (c : Thread nD τ) ↦[(rsDst 1 2).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No) W')
            ∗ ⌜r.1 = k0_pay11 (pM.view.readAt (Elt F) (Rect.unit (s := S4x128x512) (k0_off8 c) S1x32x512.size (k0_off8_inb c)).toLoadRect (Pblk m c)) (rM.view.readAt (Elt F) (Rect.unit (s := S4x128x512) ![1, 64, 0] S1x32x512.size inb_S4x128x512_S1x32x512_1_64_0).toLoadRect (RSfun m c))⌝)) := by
  iintro ⟨#IaS31, #IpA31, #RaS31, #RpA31, #Hlev, #IsR12, TaS31, TpA31, Ho01_3, Ed3o1, Hpr, PsR12, CsR12, HO⟩
  have hmw := mayWait_rs21 (F := F) c 1 2
  sl_exec
  icases Ed3o1 with ⟨%fd, Hd⟩
  iapply (wp_ag_send m c 2 1 _ (dev21_eq c) _ _ rfl rfl _ _ rfl rfl (K (agS c 3 1)) (K (agR (pl c 3) 1 1)) fd _ _) $$ [Ho01_3 Hd HO TaS31 TpA31]
  · isplitr; · iexact IaS31
    isplitr; · iexact IpA31
    isplitl [Ho01_3]; · iexact Ho01_3
    isplitl [Hd]; · iexact Hd
    isplitl [HO]; · iexact HO
    isplitl [TaS31]; · iexact TaS31
    isplitr; · iexact RaS31
    isplitl [TpA31]; · iexact TpA31
    iexact RpA31
  iintro ⟨Ca31, HO⟩
  iapply (wp_load_own c 2 (Pblk m c) _ rfl) $$ Hpr
  iintro Hpr
  rw [ret_bind_prog]
  sl_exec
  sl_step
  isplitl [Ca31]; · iexact Ca31
  isplitl [Hpr]; · iexact Hpr
  isplitl [PsR12]; · iexact PsR12
  isplitl [PsR12_pay1]; · iexact PsR12_pay1
  isplitl [HO]; · (iexists _; iexact HO)
  (ipureintro; rfl)

set_option maxHeartbeats 1000000 in
theorem part14_run (K : GSem nD τ sig → ℕ) (c : Dev nD)  (W : Waits sig Unit) (v2 : BitVec 32) (v363 : FVec F S32x512 .f32) (v364 : BitVec 32) (c0_i32_362 : BitVec 32)
    :
    iprop(levAts L lv
      ∗ cellInv ER (Rd m) (K (rsR c 3 2)) (rsR c 3 2)
      ∗ cellInv ER (Rd m) (K (rsR c 2 2)) (rsR c 2 2)
      ∗ atPos ER (rsR c 3 2) 0 ∅ 0
      ∗ cred (tallyAt (rsR c 3 2) () Nr)
      ∗ atPos ER (rsR c 2 2) 0 ∅ 0
      ∗ cred (tallyAt (rsR c 2 2) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No) W)
      ⊢ wp frame (wpE (defs₀ (F := F)) 𝒱₀ c none) Set.univ (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 v2 v363 v364 c0_i32_362)
          (fun r : (Σ' (v389 : FVec F S32x512 .f32), FVec F S32x512 .f32) => iprop(atPos ER (rsR c 3 2) 1 ∅ 0
            ∗ ((rsDst 3 2).view.loc (c : Thread nD τ) ↦[(rsDst 3 2).view.set]{fullShare} RSfun m c)
            ∗ atPos ER (rsR c 2 2) 1 ∅ 0
            ∗ ((rsDst 2 2).view.loc (c : Thread nD τ) ↦[(rsDst 2 2).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No) W')
            ∗ ⌜r.1 = k0_pay13 v363 (rM.view.readAt (Elt F) (Rect.unit (s := S4x128x512) ![3, 64, 0] S1x32x512.size inb_S4x128x512_S1x32x512_3_64_0).toLoadRect (RSfun m c)) (rM.view.readAt (Elt F) (Rect.unit (s := S4x128x512) ![2, 64, 0] S1x32x512.size inb_S4x128x512_S1x32x512_2_64_0).toLoadRect (RSfun m c))⌝
            ∗ ⌜r.2 = k0_pay14 v363 (rM.view.readAt (Elt F) (Rect.unit (s := S4x128x512) ![3, 64, 0] S1x32x512.size inb_S4x128x512_S1x32x512_3_64_0).toLoadRect (RSfun m c)) (rM.view.readAt (Elt F) (Rect.unit (s := S4x128x512) ![2, 64, 0] S1x32x512.size inb_S4x128x512_S1x32x512_2_64_0).toLoadRect (RSfun m c))⌝)) := by
  iintro ⟨#Hlev, #IsR32, #IsR22, PsR32, CsR32, PsR22, CsR22, HO⟩
  have hmw3 := mayWait_rs21 (F := F) c 3 2
  have hmw2 := mayWait_rs21 (F := F) c 2 2
  sl_exec
  sl_step
  isplitl [PsR32]; · iexact PsR32
  isplitl [PsR32_pay1]; · iexact PsR32_pay1
  isplitl [PsR22]; · iexact PsR22
  isplitl [PsR22_pay1]; · iexact PsR22_pay1
  isplitl [HO]; · (iexists _; iexact HO)
  isplitr; · (ipureintro; rfl)
  (ipureintro; rfl)

set_option maxHeartbeats 1000000 in
theorem part15_run (K : GSem nD τ sig → ℕ) (c : Dev nD) (o0 : Vec F S512x512 .bf16) (W : Waits sig Unit) (v2 : BitVec 32) (v389 : FVec F S32x512 .f32) (v397 : FVec F S32x512 .f32)
    (hv389 : v389 = k0_pay13 (k0_pay11 (pM.view.readAt (Elt F) (Rect.unit (s := S4x128x512) (k0_off8 c) S1x32x512.size (k0_off8_inb c)).toLoadRect (Pblk m c)) (rM.view.readAt (Elt F) (Rect.unit (s := S4x128x512) ![1, 64, 0] S1x32x512.size inb_S4x128x512_S1x32x512_1_64_0).toLoadRect (RSfun m c))) (rM.view.readAt (Elt F) (Rect.unit (s := S4x128x512) ![3, 64, 0] S1x32x512.size inb_S4x128x512_S1x32x512_3_64_0).toLoadRect (RSfun m c)) (rM.view.readAt (Elt F) (Rect.unit (s := S4x128x512) ![2, 64, 0] S1x32x512.size inb_S4x128x512_S1x32x512_2_64_0).toLoadRect (RSfun m c)))
    (hv397 : v397 = k0_pay14 (k0_pay11 (pM.view.readAt (Elt F) (Rect.unit (s := S4x128x512) (k0_off8 c) S1x32x512.size (k0_off8_inb c)).toLoadRect (Pblk m c)) (rM.view.readAt (Elt F) (Rect.unit (s := S4x128x512) ![1, 64, 0] S1x32x512.size inb_S4x128x512_S1x32x512_1_64_0).toLoadRect (RSfun m c))) (rM.view.readAt (Elt F) (Rect.unit (s := S4x128x512) ![3, 64, 0] S1x32x512.size inb_S4x128x512_S1x32x512_3_64_0).toLoadRect (RSfun m c)) (rM.view.readAt (Elt F) (Rect.unit (s := S4x128x512) ![2, 64, 0] S1x32x512.size inb_S4x128x512_S1x32x512_2_64_0).toLoadRect (RSfun m c)))
    :
    iprop(cellInv ER (Rd m) (K (agS c 2 2)) (agS c 2 2)
      ∗ cellInv ER (Rd m) (K (agR (pl c 2) 2 2)) (agR (pl c 2) 2 2)
      ∗ reached ER (agS c 2 2) 0
      ∗ reached ER (agR (pl c 2) 2 2) 0
      ∗ cellInv ER (Rd m) (K (agS c 1 2)) (agS c 1 2)
      ∗ cellInv ER (Rd m) (K (agR (pl c 1) 3 2)) (agR (pl c 1) 3 2)
      ∗ reached ER (agS c 1 2) 0
      ∗ reached ER (agR (pl c 1) 3 2) 0
      ∗ ((outSl c 2).view.loc (c : Thread nD τ) ↦[(outSl c 2).view.set]{fullShare} o0)
      ∗ dutyTok ER (agS c 2 2) 0 0
      ∗ dutyTok ER (agR (pl c 2) 2 2) 0 0
      ∗ (∃ f, (outSl c 2).view.loc (pl c 2 : Thread nD τ) ↦[(outSl c 2).view.set]{fullShare} f)
      ∗ dutyTok ER (agS c 1 2) 0 0
      ∗ dutyTok ER (agR (pl c 1) 3 2) 0 0
      ∗ (∃ f, (outSl c 2).view.loc (pl c 1 : Thread nD τ) ↦[(outSl c 2).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No) W)
      ⊢ wp frame (wpE (defs₀ (F := F)) 𝒱₀ c none) Set.univ (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v389 v397)
          (fun r : (BitVec 32) => iprop(((outSl c 2).view.loc (c : Thread nD τ) ↦[(outSl c 2).view.set]{fullShare.right.right} OUT m)
            ∗ cred (tallyAt (agS c 2 2) () No)
            ∗ cred (tallyAt (agS c 1 2) () No)
            ∗ (∃ W', owes (c : Thread nD τ) (0 + tallyAt (agR (pl c 3) 1 3) () No + tallyAt (agR (pl c 1) 3 3) () No + tallyAt (agR (pl c 2) 2 3) () No + tallyAt (agR (pl c 3) 1 2) () No) W'))) := by
  iintro ⟨#IaS22, #IpA22, #RaS22, #RpA22, #IaS12, #IpA12, #RaS12, #RpA12, Ho02, TaS22, TpA22, Ed2o2, TaS12, TpA12, Ed1o2, HO⟩
  subst hv389
  subst hv397
  sl_exec
  iapply (wp_store_out c 2 o0 _ rfl) $$ Ho02
  iintro Ho02
  ihave Ho02 := (Entails.of_eq (chunk_stored_pts_2 m c o0)) $$ Ho02
  ihave Ho02 := (pointsTo_share (PosShare.mem_left_op_right fullShare)).1 $$ Ho02
  icases Ho02 with ⟨Ho02_2, Ho02_r⟩
  ihave Ho02_r := (pointsTo_share (PosShare.mem_left_op_right fullShare.right)).1 $$ Ho02_r
  icases Ho02_r with ⟨Ho02_1, Ho02_3⟩
  sl_exec
  icases Ed2o2 with ⟨%fd, Hd⟩
  iapply (wp_ag_send m c 1 2 _ (dev22_eq c) _ _ rfl rfl _ _ rfl rfl (K (agS c 2 2)) (K (agR (pl c 2) 2 2)) fd _ _) $$ [Ho02_2 Hd HO TaS22 TpA22]
  · isplitr; · iexact IaS22
    isplitr; · iexact IpA22
    isplitl [Ho02_2]; · iexact Ho02_2
    isplitl [Hd]; · iexact Hd
    isplitl [HO]; · iexact HO
    isplitl [TaS22]; · iexact TaS22
    isplitr; · iexact RaS22
    isplitl [TpA22]; · iexact TpA22
    iexact RpA22
  iintro ⟨Ca22, HO⟩
  sl_exec
  icases Ed1o2 with ⟨%fd, Hd⟩
  iapply (wp_ag_send m c 0 2 _ (dev23_eq c) _ _ rfl rfl _ _ rfl rfl (K (agS c 1 2)) (K (agR (pl c 1) 3 2)) fd _ _) $$ [Ho02_1 Hd HO TaS12 TpA12]
  · isplitr; · iexact IaS12
    isplitr; · iexact IpA12
    isplitl [Ho02_1]; · iexact Ho02_1
    isplitl [Hd]; · iexact Hd
    isplitl [HO]; · iexact HO
    isplitl [TaS12]; · iexact TaS12
    isplitr; · iexact RaS12
    isplitl [TpA12]; · iexact TpA12
    iexact RpA12
  iintro ⟨Ca12, HO⟩
  sl_exec
  sl_step
  isplitl [Ho02_3]; · iexact Ho02_3
  isplitl [Ca22]; · iexact Ca22
  isplitl [Ca12]; · iexact Ca12
  (iexists _; iexact HO)

set_option maxHeartbeats 1000000 in
theorem part16_run (K : GSem nD τ sig → ℕ) (c : Dev nD)  (W : Waits sig Unit) (v2 : BitVec 32) (v426 : BitVec 32)
    :
    iprop(cellInv ER (Rd m) (K (agS c 3 2)) (agS c 3 2)
      ∗ cellInv ER (Rd m) (K (agR (pl c 3) 1 2)) (agR (pl c 3) 1 2)
      ∗ reached ER (agS c 3 2) 0
      ∗ reached ER (agR (pl c 3) 1 2) 0
      ∗ levAts L lv
      ∗ cellInv ER (Rd m) (K (rsR c 1 3)) (rsR c 1 3)
      ∗ dutyTok ER (agS c 3 2) 0 0
      ∗ dutyTok ER (agR (pl c 3) 1 2) 0 0
      ∗ ((outSl c 2).view.loc (c : Thread nD τ) ↦[(outSl c 2).view.set]{fullShare.right.right} OUT m)
      ∗ (∃ f, (outSl c 2).view.loc (pl c 3 : Thread nD τ) ↦[(outSl c 2).view.set]{fullShare} f)
      ∗ pRest c (Pblk m c)
      ∗ atPos ER (rsR c 1 3) 0 ∅ 0
      ∗ cred (tallyAt (rsR c 1 3) () Nr)
      ∗ owes (c : Thread nD τ) (0 + tallyAt (agR (pl c 3) 1 3) () No + tallyAt (agR (pl c 1) 3 3) () No + tallyAt (agR (pl c 2) 2 3) () No + tallyAt (agR (pl c 3) 1 2) () No) W)
      ⊢ wp frame (wpE (defs₀ (F := F)) 𝒱₀ c none) Set.univ (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v426)
          (fun r : (Σ' (v451 : FVec F S32x512 .f32), BitVec 32) => iprop(cred (tallyAt (agS c 3 2) () No)
            ∗ pRest c (Pblk m c)
            ∗ atPos ER (rsR c 1 3) 1 ∅ 0
            ∗ ((rsDst 1 3).view.loc (c : Thread nD τ) ↦[(rsDst 1 3).view.set]{fullShare} RSfun m c)
            ∗ (∃ W', owes (c : Thread nD τ) (0 + tallyAt (agR (pl c 3) 1 3) () No + tallyAt (agR (pl c 1) 3 3) () No + tallyAt (agR (pl c 2) 2 3) () No) W')
            ∗ ⌜r.1 = k0_pay16 (pM.view.readAt (Elt F) (Rect.unit (s := S4x128x512) (k0_off9 c) S1x32x512.size (k0_off9_inb c)).toLoadRect (Pblk m c)) (rM.view.readAt (Elt F) (Rect.unit (s := S4x128x512) ![1, 96, 0] S1x32x512.size inb_S4x128x512_S1x32x512_1_96_0).toLoadRect (RSfun m c))⌝)) := by
  iintro ⟨#IaS32, #IpA32, #RaS32, #RpA32, #Hlev, #IsR13, TaS32, TpA32, Ho02_3, Ed3o2, Hpr, PsR13, CsR13, HO⟩
  have hmw := mayWait_rs24 (F := F) c 1 3
  sl_exec
  icases Ed3o2 with ⟨%fd, Hd⟩
  iapply (wp_ag_send m c 2 2 _ (dev24_eq c) _ _ rfl rfl _ _ rfl rfl (K (agS c 3 2)) (K (agR (pl c 3) 1 2)) fd _ _) $$ [Ho02_3 Hd HO TaS32 TpA32]
  · isplitr; · iexact IaS32
    isplitr; · iexact IpA32
    isplitl [Ho02_3]; · iexact Ho02_3
    isplitl [Hd]; · iexact Hd
    isplitl [HO]; · iexact HO
    isplitl [TaS32]; · iexact TaS32
    isplitr; · iexact RaS32
    isplitl [TpA32]; · iexact TpA32
    iexact RpA32
  iintro ⟨Ca32, HO⟩
  iapply (wp_load_own c 3 (Pblk m c) _ rfl) $$ Hpr
  iintro Hpr
  rw [ret_bind_prog]
  sl_exec
  sl_step
  isplitl [Ca32]; · iexact Ca32
  isplitl [Hpr]; · iexact Hpr
  isplitl [PsR13]; · iexact PsR13
  isplitl [PsR13_pay1]; · iexact PsR13_pay1
  isplitl [HO]; · (iexists _; iexact HO)
  (ipureintro; rfl)

set_option maxHeartbeats 1000000 in
theorem part17_run (K : GSem nD τ sig → ℕ) (c : Dev nD)  (W : Waits sig Unit) (v2 : BitVec 32) (v451 : FVec F S32x512 .f32) (c1_i32_446 : BitVec 32)
    :
    iprop(levAts L lv
      ∗ cellInv ER (Rd m) (K (rsR c 3 3)) (rsR c 3 3)
      ∗ cellInv ER (Rd m) (K (rsR c 2 3)) (rsR c 2 3)
      ∗ atPos ER (rsR c 3 3) 0 ∅ 0
      ∗ cred (tallyAt (rsR c 3 3) () Nr)
      ∗ atPos ER (rsR c 2 3) 0 ∅ 0
      ∗ cred (tallyAt (rsR c 2 3) () Nr)
      ∗ owes (c : Thread nD τ) (0 + tallyAt (agR (pl c 3) 1 3) () No + tallyAt (agR (pl c 1) 3 3) () No + tallyAt (agR (pl c 2) 2 3) () No) W)
      ⊢ wp frame (wpE (defs₀ (F := F)) 𝒱₀ c none) Set.univ (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 v2 v451 c1_i32_446)
          (fun r : (Σ' (v477 : FVec F S32x512 .f32) (v482 : FVec F S32x512 .f32), FVec F S32x512 .f32) => iprop(atPos ER (rsR c 3 3) 1 ∅ 0
            ∗ ((rsDst 3 3).view.loc (c : Thread nD τ) ↦[(rsDst 3 3).view.set]{fullShare} RSfun m c)
            ∗ atPos ER (rsR c 2 3) 1 ∅ 0
            ∗ ((rsDst 2 3).view.loc (c : Thread nD τ) ↦[(rsDst 2 3).view.set]{fullShare} RSfun m c)
            ∗ (∃ W', owes (c : Thread nD τ) (0 + tallyAt (agR (pl c 3) 1 3) () No + tallyAt (agR (pl c 1) 3 3) () No + tallyAt (agR (pl c 2) 2 3) () No) W')
            ∗ ⌜r.1 = k0_pay18 v451 (rM.view.readAt (Elt F) (Rect.unit (s := S4x128x512) ![3, 96, 0] S1x32x512.size inb_S4x128x512_S1x32x512_3_96_0).toLoadRect (RSfun m c)) (rM.view.readAt (Elt F) (Rect.unit (s := S4x128x512) ![2, 96, 0] S1x32x512.size inb_S4x128x512_S1x32x512_2_96_0).toLoadRect (RSfun m c))⌝
            ∗ ⌜r.2.1 = k0_pay19 v451 (rM.view.readAt (Elt F) (Rect.unit (s := S4x128x512) ![3, 96, 0] S1x32x512.size inb_S4x128x512_S1x32x512_3_96_0).toLoadRect (RSfun m c)) (rM.view.readAt (Elt F) (Rect.unit (s := S4x128x512) ![2, 96, 0] S1x32x512.size inb_S4x128x512_S1x32x512_2_96_0).toLoadRect (RSfun m c))⌝
            ∗ ⌜r.2.2 = k0_pay20 (F := F)⌝)) := by
  iintro ⟨#Hlev, #IsR33, #IsR23, PsR33, CsR33, PsR23, CsR23, HO⟩
  have hmw3 := mayWait_rs24 (F := F) c 3 3
  have hmw2 := mayWait_rs24 (F := F) c 2 3
  sl_exec
  sl_step
  isplitl [PsR33]; · iexact PsR33
  isplitl [PsR33_pay1]; · iexact PsR33_pay1
  isplitl [PsR23]; · iexact PsR23
  isplitl [PsR23_pay1]; · iexact PsR23_pay1
  isplitl [HO]; · (iexists _; iexact HO)
  isplitr; · (ipureintro; rfl)
  isplitr; · (ipureintro; rfl)
  (ipureintro; rfl)

set_option maxHeartbeats 1000000 in
theorem part18_run (K : GSem nD τ sig → ℕ) (c : Dev nD) (o0 : Vec F S512x512 .bf16) (W : Waits sig Unit) (v2 : BitVec 32) (v477 : FVec F S32x512 .f32) (v482 : FVec F S32x512 .f32) (v483 : FVec F S32x512 .f32)
    (hv477 : v477 = k0_pay18 (k0_pay16 (pM.view.readAt (Elt F) (Rect.unit (s := S4x128x512) (k0_off9 c) S1x32x512.size (k0_off9_inb c)).toLoadRect (Pblk m c)) (rM.view.readAt (Elt F) (Rect.unit (s := S4x128x512) ![1, 96, 0] S1x32x512.size inb_S4x128x512_S1x32x512_1_96_0).toLoadRect (RSfun m c))) (rM.view.readAt (Elt F) (Rect.unit (s := S4x128x512) ![3, 96, 0] S1x32x512.size inb_S4x128x512_S1x32x512_3_96_0).toLoadRect (RSfun m c)) (rM.view.readAt (Elt F) (Rect.unit (s := S4x128x512) ![2, 96, 0] S1x32x512.size inb_S4x128x512_S1x32x512_2_96_0).toLoadRect (RSfun m c)))
    (hv482 : v482 = k0_pay19 (k0_pay16 (pM.view.readAt (Elt F) (Rect.unit (s := S4x128x512) (k0_off9 c) S1x32x512.size (k0_off9_inb c)).toLoadRect (Pblk m c)) (rM.view.readAt (Elt F) (Rect.unit (s := S4x128x512) ![1, 96, 0] S1x32x512.size inb_S4x128x512_S1x32x512_1_96_0).toLoadRect (RSfun m c))) (rM.view.readAt (Elt F) (Rect.unit (s := S4x128x512) ![3, 96, 0] S1x32x512.size inb_S4x128x512_S1x32x512_3_96_0).toLoadRect (RSfun m c)) (rM.view.readAt (Elt F) (Rect.unit (s := S4x128x512) ![2, 96, 0] S1x32x512.size inb_S4x128x512_S1x32x512_2_96_0).toLoadRect (RSfun m c)))
    (hv483 : v483 = k0_pay20 (F := F))
    :
    iprop(cellInv ER (Rd m) (K (agS c 2 3)) (agS c 2 3)
      ∗ cellInv ER (Rd m) (K (agR (pl c 2) 2 3)) (agR (pl c 2) 2 3)
      ∗ reached ER (agS c 2 3) 0
      ∗ reached ER (agR (pl c 2) 2 3) 0
      ∗ cellInv ER (Rd m) (K (agS c 1 3)) (agS c 1 3)
      ∗ cellInv ER (Rd m) (K (agR (pl c 1) 3 3)) (agR (pl c 1) 3 3)
      ∗ reached ER (agS c 1 3) 0
      ∗ reached ER (agR (pl c 1) 3 3) 0
      ∗ ((outSl c 3).view.loc (c : Thread nD τ) ↦[(outSl c 3).view.set]{fullShare} o0)
      ∗ dutyTok ER (agS c 2 3) 0 0
      ∗ dutyTok ER (agR (pl c 2) 2 3) 0 0
      ∗ (∃ f, (outSl c 3).view.loc (pl c 2 : Thread nD τ) ↦[(outSl c 3).view.set]{fullShare} f)
      ∗ dutyTok ER (agS c 1 3) 0 0
      ∗ dutyTok ER (agR (pl c 1) 3 3) 0 0
      ∗ (∃ f, (outSl c 3).view.loc (pl c 1 : Thread nD τ) ↦[(outSl c 3).view.set]{fullShare} f)
      ∗ owes (c : Thread nD τ) (0 + tallyAt (agR (pl c 3) 1 3) () No + tallyAt (agR (pl c 1) 3 3) () No + tallyAt (agR (pl c 2) 2 3) () No) W)
      ⊢ wp frame (wpE (defs₀ (F := F)) 𝒱₀ c none) Set.univ (k0_part18 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v477 v482 v483)
          (fun r : (PUnit) => iprop(((outSl c 3).view.loc (c : Thread nD τ) ↦[(outSl c 3).view.set]{fullShare.right.right} OUT m)
            ∗ cred (tallyAt (agS c 2 3) () No)
            ∗ cred (tallyAt (agS c 1 3) () No)
            ∗ (∃ W', owes (c : Thread nD τ) (0 + tallyAt (agR (pl c 3) 1 3) () No) W'))) := by
  iintro ⟨#IaS23, #IpA23, #RaS23, #RpA23, #IaS13, #IpA13, #RaS13, #RpA13, Ho03, TaS23, TpA23, Ed2o3, TaS13, TpA13, Ed1o3, HO⟩
  subst hv477
  subst hv482
  subst hv483
  sl_exec
  iapply (wp_store_out c 3 o0 _ rfl) $$ Ho03
  iintro Ho03
  ihave Ho03 := (Entails.of_eq (chunk_stored_pts_3 m c o0)) $$ Ho03
  ihave Ho03 := (pointsTo_share (PosShare.mem_left_op_right fullShare)).1 $$ Ho03
  icases Ho03 with ⟨Ho03_2, Ho03_r⟩
  ihave Ho03_r := (pointsTo_share (PosShare.mem_left_op_right fullShare.right)).1 $$ Ho03_r
  icases Ho03_r with ⟨Ho03_1, Ho03_3⟩
  sl_exec
  icases Ed2o3 with ⟨%fd, Hd⟩
  iapply (wp_ag_send m c 1 3 _ (dev25_eq c) _ _ rfl rfl _ _ rfl rfl (K (agS c 2 3)) (K (agR (pl c 2) 2 3)) fd _ _) $$ [Ho03_2 Hd HO TaS23 TpA23]
  · isplitr; · iexact IaS23
    isplitr; · iexact IpA23
    isplitl [Ho03_2]; · iexact Ho03_2
    isplitl [Hd]; · iexact Hd
    isplitl [HO]; · iexact HO
    isplitl [TaS23]; · iexact TaS23
    isplitr; · iexact RaS23
    isplitl [TpA23]; · iexact TpA23
    iexact RpA23
  iintro ⟨Ca23, HO⟩
  sl_exec
  icases Ed1o3 with ⟨%fd, Hd⟩
  iapply (wp_ag_send m c 0 3 _ (dev26_eq c) _ _ rfl rfl _ _ rfl rfl (K (agS c 1 3)) (K (agR (pl c 1) 3 3)) fd _ _) $$ [Ho03_1 Hd HO TaS13 TpA13]
  · isplitr; · iexact IaS13
    isplitr; · iexact IpA13
    isplitl [Ho03_1]; · iexact Ho03_1
    isplitl [Hd]; · iexact Hd
    isplitl [HO]; · iexact HO
    isplitl [TaS13]; · iexact TaS13
    isplitr; · iexact RaS13
    isplitl [TpA13]; · iexact TpA13
    iexact RpA13
  iintro ⟨Ca13, HO⟩
  sl_exec
  sl_step
  isplitl [Ho03_3]; · iexact Ho03_3
  isplitl [Ca23]; · iexact Ca23
  isplitl [Ca13]; · iexact Ca13
  (iexists _; iexact HO)

set_option maxHeartbeats 1000000 in
theorem part19_run (K : GSem nD τ sig → ℕ) (c : Dev nD)  (W : Waits sig Unit) (v2 : BitVec 32)
    :
    iprop(cellInv ER (Rd m) (K (agS c 3 3)) (agS c 3 3)
      ∗ cellInv ER (Rd m) (K (agR (pl c 3) 1 3)) (agR (pl c 3) 1 3)
      ∗ reached ER (agS c 3 3) 0
      ∗ reached ER (agR (pl c 3) 1 3) 0
      ∗ cellInv ER (Rd m) (K (agR c 1 0)) (agR c 1 0)
      ∗ dutyTok ER (agS c 3 3) 0 0
      ∗ dutyTok ER (agR (pl c 3) 1 3) 0 0
      ∗ ((outSl c 3).view.loc (c : Thread nD τ) ↦[(outSl c 3).view.set]{fullShare.right.right} OUT m)
      ∗ (∃ f, (outSl c 3).view.loc (pl c 3 : Thread nD τ) ↦[(outSl c 3).view.set]{fullShare} f)
      ∗ atPos ER (agR c 1 0) 0 ∅ 0
      ∗ cred (tallyAt (agR c 1 0) () No)
      ∗ owes (c : Thread nD τ) (0 + tallyAt (agR (pl c 3) 1 3) () No) W)
      ⊢ wp frame (wpE (defs₀ (F := F)) 𝒱₀ c none) Set.univ (k0_part19 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (PUnit) => iprop(cred (tallyAt (agS c 3 3) () No)
            ∗ atPos ER (agR c 1 0) 1 ∅ 0
            ∗ ((outSl (pl c 1) 0).view.loc (c : Thread nD τ) ↦[(outSl (pl c 1) 0).view.set]{fullShare} OUT m)
            ∗ (∃ W', owes (c : Thread nD τ) (0) W'))) := by
  iintro ⟨#IaS33, #IpA33, #RaS33, #RpA33, #IaR10, TaS33, TpA33, Ho03_3, Ed3o3, PaR10, CaR10, HO⟩
  sl_exec
  icases Ed3o3 with ⟨%fd, Hd⟩
  iapply (wp_ag_send m c 2 3 _ (dev27_eq c) _ _ rfl rfl _ _ rfl rfl (K (agS c 3 3)) (K (agR (pl c 3) 1 3)) fd _ _) $$ [Ho03_3 Hd HO TaS33 TpA33]
  · isplitr; · iexact IaS33
    isplitr; · iexact IpA33
    isplitl [Ho03_3]; · iexact Ho03_3
    isplitl [Hd]; · iexact Hd
    isplitl [HO]; · iexact HO
    isplitl [TaS33]; · iexact TaS33
    isplitr; · iexact RaS33
    isplitl [TpA33]; · iexact TpA33
    iexact RpA33
  iintro ⟨Ca33, HO⟩
  sl_exec
  sl_step
  isplitl [Ca33]; · iexact Ca33
  isplitl [PaR10]; · iexact PaR10
  isplitl [PaR10_pay1]; · iexact PaR10_pay1
  (iexists _; iexact HO)

end Cert.Kernel.Hand
end
-- ==== Proof.KernelPartsD.lean ====
import proofs.«900554_g7700000000000555_dist_matmul_gelu_kshard_i_m512_n512_k256_v7x_i4_bf16_1_alg».proof.Proof.KernelStepsCommon

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

set_option maxHeartbeats 1000000 in
theorem part20_run (K : GSem nD τ sig → ℕ) (c : Dev nD)  (W : Waits sig Unit) (v2 : BitVec 32)
    :
    iprop(cellInv ER (Rd m) (K (agR c 3 0)) (agR c 3 0)
      ∗ cellInv ER (Rd m) (K (agR c 2 0)) (agR c 2 0)
      ∗ cellInv ER (Rd m) (K (agR c 1 1)) (agR c 1 1)
      ∗ atPos ER (agR c 3 0) 0 ∅ 0
      ∗ cred (tallyAt (agR c 3 0) () No)
      ∗ atPos ER (agR c 2 0) 0 ∅ 0
      ∗ cred (tallyAt (agR c 2 0) () No)
      ∗ atPos ER (agR c 1 1) 0 ∅ 0
      ∗ cred (tallyAt (agR c 1 1) () No)
      ∗ owes (c : Thread nD τ) (0) W)
      ⊢ wp frame (wpE (defs₀ (F := F)) 𝒱₀ c none) Set.univ (k0_part20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (Σ' (v566 : BitVec 32), BitVec 32) => iprop(atPos ER (agR c 3 0) 1 ∅ 0
            ∗ ((outSl (pl c 3) 0).view.loc (c : Thread nD τ) ↦[(outSl (pl c 3) 0).view.set]{fullShare} OUT m)
            ∗ atPos ER (agR c 2 0) 1 ∅ 0
            ∗ ((outSl (pl c 2) 0).view.loc (c : Thread nD τ) ↦[(outSl (pl c 2) 0).view.set]{fullShare} OUT m)
            ∗ atPos ER (agR c 1 1) 1 ∅ 0
            ∗ ((outSl (pl c 1) 1).view.loc (c : Thread nD τ) ↦[(outSl (pl c 1) 1).view.set]{fullShare} OUT m)
            ∗ (∃ W', owes (c : Thread nD τ) (0) W'))) := by
  iintro ⟨#IaR30, #IaR20, #IaR11, PaR30, CaR30, PaR20, CaR20, PaR11, CaR11, HO⟩
  sl_exec
  sl_step
  isplitl [PaR30]; · iexact PaR30
  isplitl [PaR30_pay1]; · iexact PaR30_pay1
  isplitl [PaR20]; · iexact PaR20
  isplitl [PaR20_pay1]; · iexact PaR20_pay1
  isplitl [PaR11]; · iexact PaR11
  isplitl [PaR11_pay1]; · iexact PaR11_pay1
  (iexists _; iexact HO)

set_option maxHeartbeats 1000000 in
theorem part21_run (K : GSem nD τ sig → ℕ) (c : Dev nD)  (W : Waits sig Unit) (v2 : BitVec 32) (v566 : BitVec 32) (c32_i32_560 : BitVec 32)
    :
    iprop(cellInv ER (Rd m) (K (agR c 3 1)) (agR c 3 1)
      ∗ cellInv ER (Rd m) (K (agR c 2 1)) (agR c 2 1)
      ∗ atPos ER (agR c 3 1) 0 ∅ 0
      ∗ cred (tallyAt (agR c 3 1) () No)
      ∗ atPos ER (agR c 2 1) 0 ∅ 0
      ∗ cred (tallyAt (agR c 2 1) () No)
      ∗ owes (c : Thread nD τ) (0) W)
      ⊢ wp frame (wpE (defs₀ (F := F)) 𝒱₀ c none) Set.univ (k0_part21 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v566 c32_i32_560)
          (fun r : (PUnit) => iprop(atPos ER (agR c 3 1) 1 ∅ 0
            ∗ ((outSl (pl c 3) 1).view.loc (c : Thread nD τ) ↦[(outSl (pl c 3) 1).view.set]{fullShare} OUT m)
            ∗ atPos ER (agR c 2 1) 1 ∅ 0
            ∗ ((outSl (pl c 2) 1).view.loc (c : Thread nD τ) ↦[(outSl (pl c 2) 1).view.set]{fullShare} OUT m)
            ∗ (∃ W', owes (c : Thread nD τ) (0) W'))) := by
  iintro ⟨#IaR31, #IaR21, PaR31, CaR31, PaR21, CaR21, HO⟩
  sl_exec
  sl_step
  isplitl [PaR31]; · iexact PaR31
  isplitl [PaR31_pay1]; · iexact PaR31_pay1
  isplitl [PaR21]; · iexact PaR21
  isplitl [PaR21_pay1]; · iexact PaR21_pay1
  (iexists _; iexact HO)

set_option maxHeartbeats 1000000 in
theorem part22_run (K : GSem nD τ sig → ℕ) (c : Dev nD)  (W : Waits sig Unit) (v2 : BitVec 32)
    :
    iprop(cellInv ER (Rd m) (K (agR c 1 2)) (agR c 1 2)
      ∗ cellInv ER (Rd m) (K (agR c 3 2)) (agR c 3 2)
      ∗ cellInv ER (Rd m) (K (agR c 2 2)) (agR c 2 2)
      ∗ atPos ER (agR c 1 2) 0 ∅ 0
      ∗ cred (tallyAt (agR c 1 2) () No)
      ∗ atPos ER (agR c 3 2) 0 ∅ 0
      ∗ cred (tallyAt (agR c 3 2) () No)
      ∗ atPos ER (agR c 2 2) 0 ∅ 0
      ∗ cred (tallyAt (agR c 2 2) () No)
      ∗ owes (c : Thread nD τ) (0) W)
      ⊢ wp frame (wpE (defs₀ (F := F)) 𝒱₀ c none) Set.univ (k0_part22 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (PUnit) => iprop(atPos ER (agR c 1 2) 1 ∅ 0
            ∗ ((outSl (pl c 1) 2).view.loc (c : Thread nD τ) ↦[(outSl (pl c 1) 2).view.set]{fullShare} OUT m)
            ∗ atPos ER (agR c 3 2) 1 ∅ 0
            ∗ ((outSl (pl c 3) 2).view.loc (c : Thread nD τ) ↦[(outSl (pl c 3) 2).view.set]{fullShare} OUT m)
            ∗ atPos ER (agR c 2 2) 1 ∅ 0
            ∗ ((outSl (pl c 2) 2).view.loc (c : Thread nD τ) ↦[(outSl (pl c 2) 2).view.set]{fullShare} OUT m)
            ∗ (∃ W', owes (c : Thread nD τ) (0) W'))) := by
  iintro ⟨#IaR12, #IaR32, #IaR22, PaR12, CaR12, PaR32, CaR32, PaR22, CaR22, HO⟩
  sl_exec
  sl_step
  isplitl [PaR12]; · iexact PaR12
  isplitl [PaR12_pay1]; · iexact PaR12_pay1
  isplitl [PaR32]; · iexact PaR32
  isplitl [PaR32_pay1]; · iexact PaR32_pay1
  isplitl [PaR22]; · iexact PaR22
  isplitl [PaR22_pay1]; · iexact PaR22_pay1
  (iexists _; iexact HO)

set_option maxHeartbeats 1000000 in
theorem part23_run (K : GSem nD τ sig → ℕ) (c : Dev nD)  (W : Waits sig Unit) (v2 : BitVec 32)
    :
    iprop(cellInv ER (Rd m) (K (agR c 1 3)) (agR c 1 3)
      ∗ cellInv ER (Rd m) (K (agR c 3 3)) (agR c 3 3)
      ∗ cellInv ER (Rd m) (K (agR c 2 3)) (agR c 2 3)
      ∗ atPos ER (agR c 1 3) 0 ∅ 0
      ∗ cred (tallyAt (agR c 1 3) () No)
      ∗ atPos ER (agR c 3 3) 0 ∅ 0
      ∗ cred (tallyAt (agR c 3 3) () No)
      ∗ atPos ER (agR c 2 3) 0 ∅ 0
      ∗ cred (tallyAt (agR c 2 3) () No)
      ∗ owes (c : Thread nD τ) (0) W)
      ⊢ wp frame (wpE (defs₀ (F := F)) 𝒱₀ c none) Set.univ (k0_part23 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (PUnit) => iprop(atPos ER (agR c 1 3) 1 ∅ 0
            ∗ ((outSl (pl c 1) 3).view.loc (c : Thread nD τ) ↦[(outSl (pl c 1) 3).view.set]{fullShare} OUT m)
            ∗ atPos ER (agR c 3 3) 1 ∅ 0
            ∗ ((outSl (pl c 3) 3).view.loc (c : Thread nD τ) ↦[(outSl (pl c 3) 3).view.set]{fullShare} OUT m)
            ∗ atPos ER (agR c 2 3) 1 ∅ 0
            ∗ ((outSl (pl c 2) 3).view.loc (c : Thread nD τ) ↦[(outSl (pl c 2) 3).view.set]{fullShare} OUT m)
            ∗ (∃ W', owes (c : Thread nD τ) (0) W'))) := by
  iintro ⟨#IaR13, #IaR33, #IaR23, PaR13, CaR13, PaR33, CaR33, PaR23, CaR23, HO⟩
  sl_exec
  sl_step
  isplitl [PaR13]; · iexact PaR13
  isplitl [PaR13_pay1]; · iexact PaR13_pay1
  isplitl [PaR33]; · iexact PaR33
  isplitl [PaR33_pay1]; · iexact PaR33_pay1
  isplitl [PaR23]; · iexact PaR23
  isplitl [PaR23_pay1]; · iexact PaR23_pay1
  (iexists _; iexact HO)

set_option maxHeartbeats 1000000 in
theorem part24_run (K : GSem nD τ sig → ℕ) (c : Dev nD)  (W : Waits sig Unit)
    :
    iprop(cellInv ER (Rd m) (K (rsS c 2 0)) (rsS c 2 0)
      ∗ cellInv ER (Rd m) (K (rsS c 1 0)) (rsS c 1 0)
      ∗ cellInv ER (Rd m) (K (rsS c 3 0)) (rsS c 3 0)
      ∗ atPos ER (rsS c 2 0) 0 ∅ 0
      ∗ cred (tallyAt (rsS c 2 0) () Nr)
      ∗ atPos ER (rsS c 1 0) 0 ∅ 0
      ∗ cred (tallyAt (rsS c 1 0) () Nr)
      ∗ atPos ER (rsS c 3 0) 0 ∅ 0
      ∗ cred (tallyAt (rsS c 3 0) () Nr)
      ∗ owes (c : Thread nD τ) (0) W)
      ⊢ wp frame (wpE (defs₀ (F := F)) 𝒱₀ c none) Set.univ (k0_part24 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (rsS c 2 0) 1 ∅ 0
            ∗ ((rsSrc c 1 0).view.loc (c : Thread nD τ) ↦[(rsSrc c 1 0).view.set]{fullShare} Pblk m c)
            ∗ atPos ER (rsS c 1 0) 1 ∅ 0
            ∗ ((rsSrc c 0 0).view.loc (c : Thread nD τ) ↦[(rsSrc c 0 0).view.set]{fullShare} Pblk m c)
            ∗ atPos ER (rsS c 3 0) 1 ∅ 0
            ∗ ((rsSrc c 2 0).view.loc (c : Thread nD τ) ↦[(rsSrc c 2 0).view.set]{fullShare} Pblk m c)
            ∗ (∃ W', owes (c : Thread nD τ) (0) W'))) := by
  iintro ⟨#IsS20, #IsS10, #IsS30, PsS20, Cs20, PsS10, Cs10, PsS30, Cs30, HO⟩
  sl_exec
  sl_step
  isplitl [PsS20]; · iexact PsS20
  isplitl [PsS20_pay1]; · iexact PsS20_pay1
  isplitl [PsS10]; · iexact PsS10
  isplitl [PsS10_pay1]; · iexact PsS10_pay1
  isplitl [PsS30]; · iexact PsS30
  isplitl [PsS30_pay1]; · iexact PsS30_pay1
  (iexists _; iexact HO)

set_option maxHeartbeats 1000000 in
theorem part25_run (K : GSem nD τ sig → ℕ) (c : Dev nD)  (W : Waits sig Unit)
    :
    iprop(cellInv ER (Rd m) (K (rsS c 2 1)) (rsS c 2 1)
      ∗ cellInv ER (Rd m) (K (rsS c 1 1)) (rsS c 1 1)
      ∗ cellInv ER (Rd m) (K (rsS c 3 1)) (rsS c 3 1)
      ∗ cellInv ER (Rd m) (K (rsS c 2 2)) (rsS c 2 2)
      ∗ atPos ER (rsS c 2 1) 0 ∅ 0
      ∗ cred (tallyAt (rsS c 2 1) () Nr)
      ∗ atPos ER (rsS c 1 1) 0 ∅ 0
      ∗ cred (tallyAt (rsS c 1 1) () Nr)
      ∗ atPos ER (rsS c 3 1) 0 ∅ 0
      ∗ cred (tallyAt (rsS c 3 1) () Nr)
      ∗ atPos ER (rsS c 2 2) 0 ∅ 0
      ∗ cred (tallyAt (rsS c 2 2) () Nr)
      ∗ owes (c : Thread nD τ) (0) W)
      ⊢ wp frame (wpE (defs₀ (F := F)) 𝒱₀ c none) Set.univ (k0_part25 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (rsS c 2 1) 1 ∅ 0
            ∗ ((rsSrc c 1 1).view.loc (c : Thread nD τ) ↦[(rsSrc c 1 1).view.set]{fullShare} Pblk m c)
            ∗ atPos ER (rsS c 1 1) 1 ∅ 0
            ∗ ((rsSrc c 0 1).view.loc (c : Thread nD τ) ↦[(rsSrc c 0 1).view.set]{fullShare} Pblk m c)
            ∗ atPos ER (rsS c 3 1) 1 ∅ 0
            ∗ ((rsSrc c 2 1).view.loc (c : Thread nD τ) ↦[(rsSrc c 2 1).view.set]{fullShare} Pblk m c)
            ∗ atPos ER (rsS c 2 2) 1 ∅ 0
            ∗ ((rsSrc c 1 2).view.loc (c : Thread nD τ) ↦[(rsSrc c 1 2).view.set]{fullShare} Pblk m c)
            ∗ (∃ W', owes (c : Thread nD τ) (0) W'))) := by
  iintro ⟨#IsS21, #IsS11, #IsS31, #IsS22, PsS21, Cs21, PsS11, Cs11, PsS31, Cs31, PsS22, Cs22, HO⟩
  sl_exec
  sl_step
  isplitl [PsS21]; · iexact PsS21
  isplitl [PsS21_pay1]; · iexact PsS21_pay1
  isplitl [PsS11]; · iexact PsS11
  isplitl [PsS11_pay1]; · iexact PsS11_pay1
  isplitl [PsS31]; · iexact PsS31
  isplitl [PsS31_pay1]; · iexact PsS31_pay1
  isplitl [PsS22]; · iexact PsS22
  isplitl [PsS22_pay1]; · iexact PsS22_pay1
  (iexists _; iexact HO)

set_option maxHeartbeats 1000000 in
theorem part26_run (K : GSem nD τ sig → ℕ) (c : Dev nD)  (W : Waits sig Unit)
    :
    iprop(cellInv ER (Rd m) (K (rsS c 1 2)) (rsS c 1 2)
      ∗ cellInv ER (Rd m) (K (rsS c 3 2)) (rsS c 3 2)
      ∗ cellInv ER (Rd m) (K (rsS c 2 3)) (rsS c 2 3)
      ∗ atPos ER (rsS c 1 2) 0 ∅ 0
      ∗ cred (tallyAt (rsS c 1 2) () Nr)
      ∗ atPos ER (rsS c 3 2) 0 ∅ 0
      ∗ cred (tallyAt (rsS c 3 2) () Nr)
      ∗ atPos ER (rsS c 2 3) 0 ∅ 0
      ∗ cred (tallyAt (rsS c 2 3) () Nr)
      ∗ owes (c : Thread nD τ) (0) W)
      ⊢ wp frame (wpE (defs₀ (F := F)) 𝒱₀ c none) Set.univ (k0_part26 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (rsS c 1 2) 1 ∅ 0
            ∗ ((rsSrc c 0 2).view.loc (c : Thread nD τ) ↦[(rsSrc c 0 2).view.set]{fullShare} Pblk m c)
            ∗ atPos ER (rsS c 3 2) 1 ∅ 0
            ∗ ((rsSrc c 2 2).view.loc (c : Thread nD τ) ↦[(rsSrc c 2 2).view.set]{fullShare} Pblk m c)
            ∗ atPos ER (rsS c 2 3) 1 ∅ 0
            ∗ ((rsSrc c 1 3).view.loc (c : Thread nD τ) ↦[(rsSrc c 1 3).view.set]{fullShare} Pblk m c)
            ∗ (∃ W', owes (c : Thread nD τ) (0) W'))) := by
  iintro ⟨#IsS12, #IsS32, #IsS23, PsS12, Cs12, PsS32, Cs32, PsS23, Cs23, HO⟩
  sl_exec
  sl_step
  isplitl [PsS12]; · iexact PsS12
  isplitl [PsS12_pay1]; · iexact PsS12_pay1
  isplitl [PsS32]; · iexact PsS32
  isplitl [PsS32_pay1]; · iexact PsS32_pay1
  isplitl [PsS23]; · iexact PsS23
  isplitl [PsS23_pay1]; · iexact PsS23_pay1
  (iexists _; iexact HO)

set_option maxHeartbeats 1000000 in
theorem part27_run (K : GSem nD τ sig → ℕ) (c : Dev nD)  (W : Waits sig Unit)
    :
    iprop(cellInv ER (Rd m) (K (rsS c 1 3)) (rsS c 1 3)
      ∗ cellInv ER (Rd m) (K (rsS c 3 3)) (rsS c 3 3)
      ∗ cellInv ER (Rd m) (K (agS c 2 0)) (agS c 2 0)
      ∗ cellInv ER (Rd m) (K (agS c 1 0)) (agS c 1 0)
      ∗ cellInv ER (Rd m) (K (agS c 3 0)) (agS c 3 0)
      ∗ atPos ER (rsS c 1 3) 0 ∅ 0
      ∗ cred (tallyAt (rsS c 1 3) () Nr)
      ∗ atPos ER (rsS c 3 3) 0 ∅ 0
      ∗ cred (tallyAt (rsS c 3 3) () Nr)
      ∗ atPos ER (agS c 2 0) 0 ∅ 0
      ∗ cred (tallyAt (agS c 2 0) () No)
      ∗ atPos ER (agS c 1 0) 0 ∅ 0
      ∗ cred (tallyAt (agS c 1 0) () No)
      ∗ atPos ER (agS c 3 0) 0 ∅ 0
      ∗ cred (tallyAt (agS c 3 0) () No)
      ∗ owes (c : Thread nD τ) (0) W)
      ⊢ wp frame (wpE (defs₀ (F := F)) 𝒱₀ c none) Set.univ (k0_part27 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (rsS c 1 3) 1 ∅ 0
            ∗ ((rsSrc c 0 3).view.loc (c : Thread nD τ) ↦[(rsSrc c 0 3).view.set]{fullShare} Pblk m c)
            ∗ atPos ER (rsS c 3 3) 1 ∅ 0
            ∗ ((rsSrc c 2 3).view.loc (c : Thread nD τ) ↦[(rsSrc c 2 3).view.set]{fullShare} Pblk m c)
            ∗ atPos ER (agS c 2 0) 1 ∅ 0
            ∗ ((outSl c 0).view.loc (c : Thread nD τ) ↦[(outSl c 0).view.set]{fullShare.left} OUT m)
            ∗ atPos ER (agS c 1 0) 1 ∅ 0
            ∗ ((outSl c 0).view.loc (c : Thread nD τ) ↦[(outSl c 0).view.set]{fullShare.right.left} OUT m)
            ∗ atPos ER (agS c 3 0) 1 ∅ 0
            ∗ ((outSl c 0).view.loc (c : Thread nD τ) ↦[(outSl c 0).view.set]{fullShare.right.right} OUT m)
            ∗ (∃ W', owes (c : Thread nD τ) (0) W'))) := by
  iintro ⟨#IsS13, #IsS33, #IaS20, #IaS10, #IaS30, PsS13, Cs13, PsS33, Cs33, PaS20, Ca20, PaS10, Ca10, PaS30, Ca30, HO⟩
  sl_exec
  sl_step
  isplitl [PsS13]; · iexact PsS13
  isplitl [PsS13_pay1]; · iexact PsS13_pay1
  isplitl [PsS33]; · iexact PsS33
  isplitl [PsS33_pay1]; · iexact PsS33_pay1
  isplitl [PaS20]; · iexact PaS20
  isplitl [PaS20_pay1]; · iexact PaS20_pay1
  isplitl [PaS10]; · iexact PaS10
  isplitl [PaS10_pay1]; · iexact PaS10_pay1
  isplitl [PaS30]; · iexact PaS30
  isplitl [PaS30_pay1]; · iexact PaS30_pay1
  (iexists _; iexact HO)

set_option maxHeartbeats 1000000 in
theorem part28_run (K : GSem nD τ sig → ℕ) (c : Dev nD)  (W : Waits sig Unit)
    :
    iprop(cellInv ER (Rd m) (K (agS c 2 1)) (agS c 2 1)
      ∗ cellInv ER (Rd m) (K (agS c 1 1)) (agS c 1 1)
      ∗ cellInv ER (Rd m) (K (agS c 3 1)) (agS c 3 1)
      ∗ cellInv ER (Rd m) (K (agS c 2 2)) (agS c 2 2)
      ∗ cellInv ER (Rd m) (K (agS c 1 2)) (agS c 1 2)
      ∗ atPos ER (agS c 2 1) 0 ∅ 0
      ∗ cred (tallyAt (agS c 2 1) () No)
      ∗ atPos ER (agS c 1 1) 0 ∅ 0
      ∗ cred (tallyAt (agS c 1 1) () No)
      ∗ atPos ER (agS c 3 1) 0 ∅ 0
      ∗ cred (tallyAt (agS c 3 1) () No)
      ∗ atPos ER (agS c 2 2) 0 ∅ 0
      ∗ cred (tallyAt (agS c 2 2) () No)
      ∗ atPos ER (agS c 1 2) 0 ∅ 0
      ∗ cred (tallyAt (agS c 1 2) () No)
      ∗ owes (c : Thread nD τ) (0) W)
      ⊢ wp frame (wpE (defs₀ (F := F)) 𝒱₀ c none) Set.univ (k0_part28 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (agS c 2 1) 1 ∅ 0
            ∗ ((outSl c 1).view.loc (c : Thread nD τ) ↦[(outSl c 1).view.set]{fullShare.left} OUT m)
            ∗ atPos ER (agS c 1 1) 1 ∅ 0
            ∗ ((outSl c 1).view.loc (c : Thread nD τ) ↦[(outSl c 1).view.set]{fullShare.right.left} OUT m)
            ∗ atPos ER (agS c 3 1) 1 ∅ 0
            ∗ ((outSl c 1).view.loc (c : Thread nD τ) ↦[(outSl c 1).view.set]{fullShare.right.right} OUT m)
            ∗ atPos ER (agS c 2 2) 1 ∅ 0
            ∗ ((outSl c 2).view.loc (c : Thread nD τ) ↦[(outSl c 2).view.set]{fullShare.left} OUT m)
            ∗ atPos ER (agS c 1 2) 1 ∅ 0
            ∗ ((outSl c 2).view.loc (c : Thread nD τ) ↦[(outSl c 2).view.set]{fullShare.right.left} OUT m)
            ∗ (∃ W', owes (c : Thread nD τ) (0) W'))) := by
  iintro ⟨#IaS21, #IaS11, #IaS31, #IaS22, #IaS12, PaS21, Ca21, PaS11, Ca11, PaS31, Ca31, PaS22, Ca22, PaS12, Ca12, HO⟩
  sl_exec
  sl_step
  isplitl [PaS21]; · iexact PaS21
  isplitl [PaS21_pay1]; · iexact PaS21_pay1
  isplitl [PaS11]; · iexact PaS11
  isplitl [PaS11_pay1]; · iexact PaS11_pay1
  isplitl [PaS31]; · iexact PaS31
  isplitl [PaS31_pay1]; · iexact PaS31_pay1
  isplitl [PaS22]; · iexact PaS22
  isplitl [PaS22_pay1]; · iexact PaS22_pay1
  isplitl [PaS12]; · iexact PaS12
  isplitl [PaS12_pay1]; · iexact PaS12_pay1
  (iexists _; iexact HO)

end Cert.Kernel.Hand
end
-- ==== Proof.KernelPartsE.lean ====
import proofs.«900554_g7700000000000555_dist_matmul_gelu_kshard_i_m512_n512_k256_v7x_i4_bf16_1_alg».proof.Proof.KernelStepsCommon

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

/-- The last two waits of the last printed part, and its return. -/
noncomputable def tail29 (d0 : Dev nD) : Prog (TpuEff nD τ sig (Elt F) Λ₀ .tc) (Dev nD) := do
  let v748 : DmaSems sig S1x1 := cc0_scratch4.slice (Rect.unit (s := S4x4) ![3, 2] S1x1.size inb_S4x4_S1x1_3_2)
  let v749 : DmaSems sig S_ := v748.squeeze S_ squeezes_S1x1_S_
  let v750 : Memref sig .tc .vmem S32x512 .bf16 := (Memref.whole cc0_stg2_0 : Memref sig .tc .vmem S512x512 .bf16).slice (Rect.unit (s := S512x512) (k0_off6 d0 64#32) S32x512.size (k0_off6_inb d0 2)) (fun _ => rfl)
  let v751 : Memref sig .tc .vmem S32x512 .bf16 := (Memref.whole cc0_stg2_0 : Memref sig .tc .vmem S512x512 .bf16).slice (Rect.unit (s := S512x512) (k0_off6 d0 64#32) S32x512.size (k0_off6_inb d0 2)) (fun _ => rfl)
  Prog.lift (.waitDma2 v749.sem v751 v750 ((Memref.isWhole_whole cc0_stg2_0).wordExact_slice rfl _ (k0_off6_wordsbf16 d0 2)) ((Memref.isWhole_whole cc0_stg2_0).wordExact_slice rfl _ (k0_off6_wordsbf16 d0 2)))
  let v752 : DmaSems sig S1x1 := cc0_scratch4.slice (Rect.unit (s := S4x4) ![2, 3] S1x1.size inb_S4x4_S1x1_2_3)
  let v753 : DmaSems sig S_ := v752.squeeze S_ squeezes_S1x1_S_
  let v754 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  let v755 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  Prog.lift (.waitDma2 v753.sem v755 v754 ((Memref.isWhole_whole cc0_stg2_0).wordExact_slice rfl _ (k0_off6_wordsbf16 d0 3)) ((Memref.isWhole_whole cc0_stg2_0).wordExact_slice rfl _ (k0_off6_wordsbf16 d0 3)))
  pure d0

/-- The body's last two waits. -/
noncomputable def tailBody (d0 : Dev nD) : Prog (TpuEff nD τ sig (Elt F) Λ₀ .tc) PUnit := do
  let v756 : DmaSems sig S1x1 := cc0_scratch4.slice (Rect.unit (s := S4x4) ![1, 3] S1x1.size inb_S4x4_S1x1_1_3)
  let v757 : DmaSems sig S_ := v756.squeeze S_ squeezes_S1x1_S_
  let v758 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  let v759 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  Prog.lift (.waitDma2 v757.sem v759 v758 ((Memref.isWhole_whole cc0_stg2_0).wordExact_slice rfl _ (k0_off6_wordsbf16 d0 3)) ((Memref.isWhole_whole cc0_stg2_0).wordExact_slice rfl _ (k0_off6_wordsbf16 d0 3)))
  let v760 : DmaSems sig S1x1 := cc0_scratch4.slice (Rect.unit (s := S4x4) ![3, 3] S1x1.size inb_S4x4_S1x1_3_3)
  let v761 : DmaSems sig S_ := v760.squeeze S_ squeezes_S1x1_S_
  let v762 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  let v763 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  Prog.lift (.waitDma2 v761.sem v763 v762 ((Memref.isWhole_whole cc0_stg2_0).wordExact_slice rfl _ (k0_off6_wordsbf16 d0 3)) ((Memref.isWhole_whole cc0_stg2_0).wordExact_slice rfl _ (k0_off6_wordsbf16 d0 3)))
  pure ⟨⟩

set_option maxHeartbeats 1000000 in
theorem tail29_run (K : GSem nD τ sig → ℕ) (c : Dev nD) (W : Waits sig Unit) :
    iprop(cellInv ER (Rd m) (K (agS c 3 2)) (agS c 3 2)
      ∗ cellInv ER (Rd m) (K (agS c 2 3)) (agS c 2 3)
      ∗ atPos ER (agS c 3 2) 0 ∅ 0
      ∗ cred (tallyAt (agS c 3 2) () No)
      ∗ atPos ER (agS c 2 3) 0 ∅ 0
      ∗ cred (tallyAt (agS c 2 3) () No)
      ∗ owes (c : Thread nD τ) (0) W)
      ⊢ wp frame (wpE (defs₀ (F := F)) 𝒱₀ c none) Set.univ (tail29 (F := F) c)
          (fun r : Dev nD => iprop(atPos ER (agS c 3 2) 1 ∅ 0
            ∗ ((outSl c 2).view.loc (c : Thread nD τ) ↦[(outSl c 2).view.set]{fullShare.right.right} OUT m)
            ∗ atPos ER (agS c 2 3) 1 ∅ 0
            ∗ ((outSl c 3).view.loc (c : Thread nD τ) ↦[(outSl c 3).view.set]{fullShare.left} OUT m)
            ∗ (∃ W', owes (c : Thread nD τ) (0) W')
            ∗ ⌜r = c⌝)) := by
  iintro ⟨#IaS32, #IaS23, PaS32, Ca32, PaS23, Ca23, HO⟩
  unfold tail29
  sl_exec
  sl_step
  isplitl [PaS32]; · iexact PaS32
  isplitl [PaS32_pay1]; · iexact PaS32_pay1
  isplitl [PaS23]; · iexact PaS23
  isplitl [PaS23_pay1]; · iexact PaS23_pay1
  isplitl [HO]; · (iexists _; iexact HO)
  (ipureintro; rfl)

set_option maxHeartbeats 1000000 in
theorem tailBody_run (K : GSem nD τ sig → ℕ) (c : Dev nD) (W : Waits sig Unit) :
    iprop(cellInv ER (Rd m) (K (agS c 1 3)) (agS c 1 3)
      ∗ cellInv ER (Rd m) (K (agS c 3 3)) (agS c 3 3)
      ∗ atPos ER (agS c 1 3) 0 ∅ 0
      ∗ cred (tallyAt (agS c 1 3) () No)
      ∗ atPos ER (agS c 3 3) 0 ∅ 0
      ∗ cred (tallyAt (agS c 3 3) () No)
      ∗ owes (c : Thread nD τ) (0) W)
      ⊢ wp frame (wpE (defs₀ (F := F)) 𝒱₀ c none) Set.univ (tailBody (F := F) c)
          (fun r : PUnit => iprop(atPos ER (agS c 1 3) 1 ∅ 0
            ∗ ((outSl c 3).view.loc (c : Thread nD τ) ↦[(outSl c 3).view.set]{fullShare.right.left} OUT m)
            ∗ atPos ER (agS c 3 3) 1 ∅ 0
            ∗ ((outSl c 3).view.loc (c : Thread nD τ) ↦[(outSl c 3).view.set]{fullShare.right.right} OUT m)
            ∗ (∃ W', owes (c : Thread nD τ) (0) W'))) := by
  iintro ⟨#IaS13, #IaS33, PaS13, Ca13, PaS33, Ca33, HO⟩
  unfold tailBody
  sl_exec
  sl_step
  isplitl [PaS13]; · iexact PaS13
  isplitl [PaS13_pay1]; · iexact PaS13_pay1
  isplitl [PaS33]; · iexact PaS33
  isplitl [PaS33_pay1]; · iexact PaS33_pay1
  (iexists _; iexact HO)

end Cert.Kernel.Hand
end
-- ==== Proof.KernelBodyClose.lean ====
/-
  The end of one device's body: every scratch cell closes and every buffer is whole again.

  When the body has made its last wait, each of the device's sixty-four scratch cells stands at a round from which it
  has no duty (the forty-eight used cells past their one round, the sixteen cells of row 0 at the start) with nothing
  taken, so each closes and its counter reads zero. The twelve pieces of the partial product that went out and the
  device's own slab are the whole partial product; the twelve written pieces of the receive buffer and its slab 0 are
  the whole receive buffer; the three thirds of each own finished piece's share make the piece, and the sixteen pieces
  of the result, all at the result, are the whole staging buffer.
-/
import proofs.«900554_g7700000000000555_dist_matmul_gelu_kshard_i_m512_n512_k256_v7x_i4_bf16_1_alg».proof.Proof.KernelTables
import proofs.«900554_g7700000000000555_dist_matmul_gelu_kshard_i_m512_n512_k256_v7x_i4_bf16_1_alg».proof.Proof.KernelBodyDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Closing cells -/

/-- Four cells of the device, each at a round from which it has no duty and with nothing taken, close together:
    their counters read zero. -/
theorem close4 (g0 g1 g2 g3 : GSem nD τ sig) (κ0 κ1 κ2 κ3 R : ℕ)
    (h0 : ∀ r, R ≤ r → (Rd m).duties g0 r = ∅) (h1 : ∀ r, R ≤ r → (Rd m).duties g1 r = ∅)
    (h2 : ∀ r, R ≤ r → (Rd m).duties g2 r = ∅) (h3 : ∀ r, R ≤ r → (Rd m).duties g3 r = ∅) :
    iprop(cellInv ER (Rd m) κ0 g0 ∗ cellInv ER (Rd m) κ1 g1 ∗ cellInv ER (Rd m) κ2 g2 ∗ cellInv ER (Rd m) κ3 g3
        ∗ atPos ER g0 R ∅ 0 ∗ atPos ER g1 R ∅ 0 ∗ atPos ER g2 R ∅ 0 ∗ atPos ER g3 R ∅ 0)
      ⊢ iprop(|={Set.univ}=> ((semVal g0 0 : sProp 𝕄) ∗ semVal g1 0 ∗ semVal g2 0 ∗ semVal g3 0)) := by
  iintro ⟨I0, I1, I2, I3, P0, P1, P2, P3⟩
  imod (Rounds.cell_close ER (Rd m) (Set.mem_univ κ0) (fun h => h) h0) $$ [I0 P0] with Z0
  · isplitl [I0]; · iexact I0
    iexact P0
  imod (Rounds.cell_close ER (Rd m) (Set.mem_univ κ1) (fun h => h) h1) $$ [I1 P1] with Z1
  · isplitl [I1]; · iexact I1
    iexact P1
  imod (Rounds.cell_close ER (Rd m) (Set.mem_univ κ2) (fun h => h) h2) $$ [I2 P2] with Z2
  · isplitl [I2]; · iexact I2
    iexact P2
  imod (Rounds.cell_close ER (Rd m) (Set.mem_univ κ3) (fun h => h) h3) $$ [I3 P3] with Z3
  · isplitl [I3]; · iexact I3
    iexact P3
  imodintro
  iframe

/-- A row of used cells, past its one round. -/
theorem close4_used (g0 g1 g2 g3 : GSem nD τ sig) (κ0 κ1 κ2 κ3 : ℕ) :
    iprop(cellInv ER (Rd m) κ0 g0 ∗ cellInv ER (Rd m) κ1 g1 ∗ cellInv ER (Rd m) κ2 g2 ∗ cellInv ER (Rd m) κ3 g3
        ∗ atPos ER g0 1 ∅ 0 ∗ atPos ER g1 1 ∅ 0 ∗ atPos ER g2 1 ∅ 0 ∗ atPos ER g3 1 ∅ 0)
      ⊢ iprop(|={Set.univ}=> ((semVal g0 0 : sProp 𝕄) ∗ semVal g1 0 ∗ semVal g2 0 ∗ semVal g3 0)) :=
  close4 m g0 g1 g2 g3 κ0 κ1 κ2 κ3 1 (duties_later m g0) (duties_later m g1) (duties_later m g2) (duties_later m g3)

/-! ## The buffers whole again -/

/-- The twelve pieces of the partial product that went out and the device's own slab make the buffer whole. -/
theorem p_join (c : Dev nD) :
    iprop(((rsSrc c 0 0).view.loc (c : Thread nD τ) ↦[(rsSrc c 0 0).view.set]{fullShare} Pblk m c)
      ∗ ((rsSrc c 0 1).view.loc (c : Thread nD τ) ↦[(rsSrc c 0 1).view.set]{fullShare} Pblk m c)
      ∗ ((rsSrc c 0 2).view.loc (c : Thread nD τ) ↦[(rsSrc c 0 2).view.set]{fullShare} Pblk m c)
      ∗ ((rsSrc c 0 3).view.loc (c : Thread nD τ) ↦[(rsSrc c 0 3).view.set]{fullShare} Pblk m c)
      ∗ ((rsSrc c 1 0).view.loc (c : Thread nD τ) ↦[(rsSrc c 1 0).view.set]{fullShare} Pblk m c)
      ∗ ((rsSrc c 1 1).view.loc (c : Thread nD τ) ↦[(rsSrc c 1 1).view.set]{fullShare} Pblk m c)
      ∗ ((rsSrc c 1 2).view.loc (c : Thread nD τ) ↦[(rsSrc c 1 2).view.set]{fullShare} Pblk m c)
      ∗ ((rsSrc c 1 3).view.loc (c : Thread nD τ) ↦[(rsSrc c 1 3).view.set]{fullShare} Pblk m c)
      ∗ ((rsSrc c 2 0).view.loc (c : Thread nD τ) ↦[(rsSrc c 2 0).view.set]{fullShare} Pblk m c)
      ∗ ((rsSrc c 2 1).view.loc (c : Thread nD τ) ↦[(rsSrc c 2 1).view.set]{fullShare} Pblk m c)
      ∗ ((rsSrc c 2 2).view.loc (c : Thread nD τ) ↦[(rsSrc c 2 2).view.set]{fullShare} Pblk m c)
      ∗ ((rsSrc c 2 3).view.loc (c : Thread nD τ) ↦[(rsSrc c 2 3).view.set]{fullShare} Pblk m c)
      ∗ pRest c (Pblk m c))
    ⊢ iprop(∃ f, (((c : Thread nD τ).loc cc0_scratch0) ↦{fullShare} f : sProp 𝕄)) := by
  have h := join_p (F := F) c (Pblk m c) (fun _ _ => Pblk m c)
  unfold pts at h
  exact h

/-- The twelve written pieces of the receive buffer and its slab 0 make the buffer whole. -/
theorem rs_join (c : Dev nD) (r0 : Vec F S4x128x512 .bf16) :
    iprop(((rsDst 1 0).view.loc (c : Thread nD τ) ↦[(rsDst 1 0).view.set]{fullShare} RSfun m c)
      ∗ ((rsDst 1 1).view.loc (c : Thread nD τ) ↦[(rsDst 1 1).view.set]{fullShare} RSfun m c)
      ∗ ((rsDst 1 2).view.loc (c : Thread nD τ) ↦[(rsDst 1 2).view.set]{fullShare} RSfun m c)
      ∗ ((rsDst 1 3).view.loc (c : Thread nD τ) ↦[(rsDst 1 3).view.set]{fullShare} RSfun m c)
      ∗ ((rsDst 2 0).view.loc (c : Thread nD τ) ↦[(rsDst 2 0).view.set]{fullShare} RSfun m c)
      ∗ ((rsDst 2 1).view.loc (c : Thread nD τ) ↦[(rsDst 2 1).view.set]{fullShare} RSfun m c)
      ∗ ((rsDst 2 2).view.loc (c : Thread nD τ) ↦[(rsDst 2 2).view.set]{fullShare} RSfun m c)
      ∗ ((rsDst 2 3).view.loc (c : Thread nD τ) ↦[(rsDst 2 3).view.set]{fullShare} RSfun m c)
      ∗ ((rsDst 3 0).view.loc (c : Thread nD τ) ↦[(rsDst 3 0).view.set]{fullShare} RSfun m c)
      ∗ ((rsDst 3 1).view.loc (c : Thread nD τ) ↦[(rsDst 3 1).view.set]{fullShare} RSfun m c)
      ∗ ((rsDst 3 2).view.loc (c : Thread nD τ) ↦[(rsDst 3 2).view.set]{fullShare} RSfun m c)
      ∗ ((rsDst 3 3).view.loc (c : Thread nD τ) ↦[(rsDst 3 3).view.set]{fullShare} RSfun m c)
      ∗ rsRest c r0)
    ⊢ iprop(∃ f, (((c : Thread nD τ).loc cc0_scratch1) ↦{fullShare} f : sProp 𝕄)) := by
  have h := join_rs (F := F) c r0 (fun _ _ => RSfun m c)
  unfold pts at h
  exact h

/-- The three thirds of a finished piece's share make the full share. -/
theorem out_thirds (c : Dev nD) (ch : Fin 4) :
    iprop(((outSl c ch).view.loc (c : Thread nD τ) ↦[(outSl c ch).view.set]{fullShare.left} OUT m)
      ∗ ((outSl c ch).view.loc (c : Thread nD τ) ↦[(outSl c ch).view.set]{fullShare.right.left} OUT m)
      ∗ ((outSl c ch).view.loc (c : Thread nD τ) ↦[(outSl c ch).view.set]{fullShare.right.right} OUT m))
    ⊢ (((outSl c ch).view.loc (c : Thread nD τ) ↦[(outSl c ch).view.set]{fullShare} OUT m) : sProp 𝕄) :=
  (sep_mono_right (pointsTo_share (PosShare.mem_left_op_right fullShare.right)).2).trans
    (pointsTo_share (PosShare.mem_left_op_right fullShare)).2

/-- The sixteen pieces of the result, all at the result, make its staging buffer whole. -/
theorem out_join (c : Dev nD) :
    iprop(((outSl c 0).view.loc (c : Thread nD τ) ↦[(outSl c 0).view.set]{fullShare} OUT m)
      ∗ ((outSl c 1).view.loc (c : Thread nD τ) ↦[(outSl c 1).view.set]{fullShare} OUT m)
      ∗ ((outSl c 2).view.loc (c : Thread nD τ) ↦[(outSl c 2).view.set]{fullShare} OUT m)
      ∗ ((outSl c 3).view.loc (c : Thread nD τ) ↦[(outSl c 3).view.set]{fullShare} OUT m)
      ∗ ((outSl (pl c 1) 0).view.loc (c : Thread nD τ) ↦[(outSl (pl c 1) 0).view.set]{fullShare} OUT m)
      ∗ ((outSl (pl c 1) 1).view.loc (c : Thread nD τ) ↦[(outSl (pl c 1) 1).view.set]{fullShare} OUT m)
      ∗ ((outSl (pl c 1) 2).view.loc (c : Thread nD τ) ↦[(outSl (pl c 1) 2).view.set]{fullShare} OUT m)
      ∗ ((outSl (pl c 1) 3).view.loc (c : Thread nD τ) ↦[(outSl (pl c 1) 3).view.set]{fullShare} OUT m)
      ∗ ((outSl (pl c 2) 0).view.loc (c : Thread nD τ) ↦[(outSl (pl c 2) 0).view.set]{fullShare} OUT m)
      ∗ ((outSl (pl c 2) 1).view.loc (c : Thread nD τ) ↦[(outSl (pl c 2) 1).view.set]{fullShare} OUT m)
      ∗ ((outSl (pl c 2) 2).view.loc (c : Thread nD τ) ↦[(outSl (pl c 2) 2).view.set]{fullShare} OUT m)
      ∗ ((outSl (pl c 2) 3).view.loc (c : Thread nD τ) ↦[(outSl (pl c 2) 3).view.set]{fullShare} OUT m)
      ∗ ((outSl (pl c 3) 0).view.loc (c : Thread nD τ) ↦[(outSl (pl c 3) 0).view.set]{fullShare} OUT m)
      ∗ ((outSl (pl c 3) 1).view.loc (c : Thread nD τ) ↦[(outSl (pl c 3) 1).view.set]{fullShare} OUT m)
      ∗ ((outSl (pl c 3) 2).view.loc (c : Thread nD τ) ↦[(outSl (pl c 3) 2).view.set]{fullShare} OUT m)
      ∗ ((outSl (pl c 3) 3).view.loc (c : Thread nD τ) ↦[(outSl (pl c 3) 3).view.set]{fullShare} OUT m))
    ⊢ ((((c : Thread nD τ).loc cc0_stg2_0) ↦{fullShare} OUT m) : sProp 𝕄) := by
  have h := (split_out (F := F) c (OUT m)).2
  unfold pts at h
  exact h

/-! ## The sixty-four scratch semaphores, one by one -/

/-- The device's scratch cells in the order of their numbers: array by array, row by row. -/
theorem sems_chain (c : Dev nD) :
    (bigSep Finset.univ fun j : Fin 64 => (semVal (kcell (c, j.succ)) 0 : sProp 𝕄))
      = iprop(semVal (rsS c 0 0) 0 ∗ semVal (rsS c 0 1) 0 ∗ semVal (rsS c 0 2) 0 ∗ semVal (rsS c 0 3) 0
        ∗ semVal (rsS c 1 0) 0 ∗ semVal (rsS c 1 1) 0 ∗ semVal (rsS c 1 2) 0 ∗ semVal (rsS c 1 3) 0
        ∗ semVal (rsS c 2 0) 0 ∗ semVal (rsS c 2 1) 0 ∗ semVal (rsS c 2 2) 0 ∗ semVal (rsS c 2 3) 0
        ∗ semVal (rsS c 3 0) 0 ∗ semVal (rsS c 3 1) 0 ∗ semVal (rsS c 3 2) 0 ∗ semVal (rsS c 3 3) 0
        ∗ semVal (rsR c 0 0) 0 ∗ semVal (rsR c 0 1) 0 ∗ semVal (rsR c 0 2) 0 ∗ semVal (rsR c 0 3) 0
        ∗ semVal (rsR c 1 0) 0 ∗ semVal (rsR c 1 1) 0 ∗ semVal (rsR c 1 2) 0 ∗ semVal (rsR c 1 3) 0
        ∗ semVal (rsR c 2 0) 0 ∗ semVal (rsR c 2 1) 0 ∗ semVal (rsR c 2 2) 0 ∗ semVal (rsR c 2 3) 0
        ∗ semVal (rsR c 3 0) 0 ∗ semVal (rsR c 3 1) 0 ∗ semVal (rsR c 3 2) 0 ∗ semVal (rsR c 3 3) 0
        ∗ semVal (agS c 0 0) 0 ∗ semVal (agS c 0 1) 0 ∗ semVal (agS c 0 2) 0 ∗ semVal (agS c 0 3) 0
        ∗ semVal (agS c 1 0) 0 ∗ semVal (agS c 1 1) 0 ∗ semVal (agS c 1 2) 0 ∗ semVal (agS c 1 3) 0
        ∗ semVal (agS c 2 0) 0 ∗ semVal (agS c 2 1) 0 ∗ semVal (agS c 2 2) 0 ∗ semVal (agS c 2 3) 0
        ∗ semVal (agS c 3 0) 0 ∗ semVal (agS c 3 1) 0 ∗ semVal (agS c 3 2) 0 ∗ semVal (agS c 3 3) 0
        ∗ semVal (agR c 0 0) 0 ∗ semVal (agR c 0 1) 0 ∗ semVal (agR c 0 2) 0 ∗ semVal (agR c 0 3) 0
        ∗ semVal (agR c 1 0) 0 ∗ semVal (agR c 1 1) 0 ∗ semVal (agR c 1 2) 0 ∗ semVal (agR c 1 3) 0
        ∗ semVal (agR c 2 0) 0 ∗ semVal (agR c 2 1) 0 ∗ semVal (agR c 2 2) 0 ∗ semVal (agR c 2 3) 0
        ∗ semVal (agR c 3 0) 0 ∗ semVal (agR c 3 1) 0 ∗ semVal (agR c 3 2) 0 ∗ semVal (agR c 3 3) 0) :=
  bigSep_univ_eq_bigSepL
    [0, 1, 2, 3, 4, 5, 6, 7, 8, 9, 10, 11, 12, 13, 14, 15, 16, 17, 18, 19, 20, 21, 22, 23, 24, 25, 26, 27, 28, 29, 30, 31,
     32, 33, 34, 35, 36, 37, 38, 39, 40, 41, 42, 43, 44, 45, 46, 47, 48, 49, 50, 51, 52, 53, 54, 55, 56, 57, 58, 59, 60, 61, 62, 63]
    (by decide) (by decide) _

/-! ## The end of the body -/

/-- From what the device holds after its last wait: the sixty-four scratch cells close, the two scratch buffers and
    the result's staging buffer are whole, the input blocks and the empty debt pass through. -/
theorem body_close (K : GSem nD τ sig → ℕ) (c : Dev nD) (r0 : Vec F S4x128x512 .bf16) :
    bodyEnd m K c r0 ⊢ iprop(|={Set.univ}=> closedEnd m c) := by
  unfold bodyEnd closedEnd Φ₁
  rw [sems_chain]
  iintro ⟨-, -, -, -,
    Is00, Is01, Is02, Is03, Ir00, Ir01, Ir02, Ir03, Ia00, Ia01, Ia02, Ia03, Ig00, Ig01, Ig02, Ig03,
    Is10, Is11, Is12, Is13, Is20, Is21, Is22, Is23, Is30, Is31, Is32, Is33,
    Ir10, Ir11, Ir12, Ir13, Ir20, Ir21, Ir22, Ir23, Ir30, Ir31, Ir32, Ir33,
    Ia10, Ia11, Ia12, Ia13, Ia20, Ia21, Ia22, Ia23, Ia30, Ia31, Ia32, Ia33,
    Ig10, Ig11, Ig12, Ig13, Ig20, Ig21, Ig22, Ig23, Ig30, Ig31, Ig32, Ig33,
    -, -, -, -, -, -, -, -, -, -, -, -, -, -, -, -, -, -, -, -, -, -, -, -,
    -, -, -,
    -, -, -, -, -, -, -, -, -, -, -, -,
    -, -, -, -, -, -, -, -, -, -, -, -,
    -, -, -, -, -, -, -, -, -, -, -, -,
    -, -, -, -, -, -, -, -, -, -, -, -,
    -, -,
    Ps00, Ps01, Ps02, Ps03, Ps10, Ps11, Ps12, Ps13, Ps20, Ps21, Ps22, Ps23, Ps30, Ps31, Ps32, Ps33,
    Pr00, Pr01, Pr02, Pr03, Pr10, Pr11, Pr12, Pr13, Pr20, Pr21, Pr22, Pr23, Pr30, Pr31, Pr32, Pr33,
    Pa00, Pa01, Pa02, Pa03, Pa10, Pa11, Pa12, Pa13, Pa20, Pa21, Pa22, Pa23, Pa30, Pa31, Pa32, Pa33,
    Pg00, Pg01, Pg02, Pg03, Pg10, Pg11, Pg12, Pg13, Pg20, Pg21, Pg22, Pg23, Pg30, Pg31, Pg32, Pg33,
    HA, HB,
    Hp00, Hp01, Hp02, Hp03, Hp10, Hp11, Hp12, Hp13, Hp20, Hp21, Hp22, Hp23, HpR,
    Hr10, Hr11, Hr12, Hr13, Hr20, Hr21, Hr22, Hr23, Hr30, Hr31, Hr32, Hr33, HrR,
    T0a, T0b, T0c, T1a, T1b, T1c, T2a, T2b, T2c, T3a, T3b, T3c,
    Ho10, Ho11, Ho12, Ho13, Ho20, Ho21, Ho22, Ho23, Ho30, Ho31, Ho32, Ho33,
    HO⟩
  -- the partial-product send cells
  imod (close4 m (rsS c 0 0) (rsS c 0 1) (rsS c 0 2) (rsS c 0 3) (K (rsS c 0 0)) (K (rsS c 0 1)) (K (rsS c 0 2)) (K (rsS c 0 3)) 0
      (fun r _ => duties_rsS_row0 m c 0 r) (fun r _ => duties_rsS_row0 m c 1 r) (fun r _ => duties_rsS_row0 m c 2 r) (fun r _ => duties_rsS_row0 m c 3 r))
    $$ [Is00 Is01 Is02 Is03 Ps00 Ps01 Ps02 Ps03] with ⟨Zs00, Zs01, Zs02, Zs03⟩
  · iframe
  imod (close4_used m (rsS c 1 0) (rsS c 1 1) (rsS c 1 2) (rsS c 1 3) (K (rsS c 1 0)) (K (rsS c 1 1)) (K (rsS c 1 2)) (K (rsS c 1 3)))
    $$ [Is10 Is11 Is12 Is13 Ps10 Ps11 Ps12 Ps13] with ⟨Zs10, Zs11, Zs12, Zs13⟩
  · iframe
  imod (close4_used m (rsS c 2 0) (rsS c 2 1) (rsS c 2 2) (rsS c 2 3) (K (rsS c 2 0)) (K (rsS c 2 1)) (K (rsS c 2 2)) (K (rsS c 2 3)))
    $$ [Is20 Is21 Is22 Is23 Ps20 Ps21 Ps22 Ps23] with ⟨Zs20, Zs21, Zs22, Zs23⟩
  · iframe
  imod (close4_used m (rsS c 3 0) (rsS c 3 1) (rsS c 3 2) (rsS c 3 3) (K (rsS c 3 0)) (K (rsS c 3 1)) (K (rsS c 3 2)) (K (rsS c 3 3)))
    $$ [Is30 Is31 Is32 Is33 Ps30 Ps31 Ps32 Ps33] with ⟨Zs30, Zs31, Zs32, Zs33⟩
  · iframe
  -- the partial-product receive cells
  imod (close4 m (rsR c 0 0) (rsR c 0 1) (rsR c 0 2) (rsR c 0 3) (K (rsR c 0 0)) (K (rsR c 0 1)) (K (rsR c 0 2)) (K (rsR c 0 3)) 0
      (fun r _ => duties_rsR_row0 m c 0 r) (fun r _ => duties_rsR_row0 m c 1 r) (fun r _ => duties_rsR_row0 m c 2 r) (fun r _ => duties_rsR_row0 m c 3 r))
    $$ [Ir00 Ir01 Ir02 Ir03 Pr00 Pr01 Pr02 Pr03] with ⟨Zr00, Zr01, Zr02, Zr03⟩
  · iframe
  imod (close4_used m (rsR c 1 0) (rsR c 1 1) (rsR c 1 2) (rsR c 1 3) (K (rsR c 1 0)) (K (rsR c 1 1)) (K (rsR c 1 2)) (K (rsR c 1 3)))
    $$ [Ir10 Ir11 Ir12 Ir13 Pr10 Pr11 Pr12 Pr13] with ⟨Zr10, Zr11, Zr12, Zr13⟩
  · iframe
  imod (close4_used m (rsR c 2 0) (rsR c 2 1) (rsR c 2 2) (rsR c 2 3) (K (rsR c 2 0)) (K (rsR c 2 1)) (K (rsR c 2 2)) (K (rsR c 2 3)))
    $$ [Ir20 Ir21 Ir22 Ir23 Pr20 Pr21 Pr22 Pr23] with ⟨Zr20, Zr21, Zr22, Zr23⟩
  · iframe
  imod (close4_used m (rsR c 3 0) (rsR c 3 1) (rsR c 3 2) (rsR c 3 3) (K (rsR c 3 0)) (K (rsR c 3 1)) (K (rsR c 3 2)) (K (rsR c 3 3)))
    $$ [Ir30 Ir31 Ir32 Ir33 Pr30 Pr31 Pr32 Pr33] with ⟨Zr30, Zr31, Zr32, Zr33⟩
  · iframe
  -- the finished-piece send cells
  imod (close4 m (agS c 0 0) (agS c 0 1) (agS c 0 2) (agS c 0 3) (K (agS c 0 0)) (K (agS c 0 1)) (K (agS c 0 2)) (K (agS c 0 3)) 0
      (fun r _ => duties_agS_row0 m c 0 r) (fun r _ => duties_agS_row0 m c 1 r) (fun r _ => duties_agS_row0 m c 2 r) (fun r _ => duties_agS_row0 m c 3 r))
    $$ [Ia00 Ia01 Ia02 Ia03 Pa00 Pa01 Pa02 Pa03] with ⟨Za00, Za01, Za02, Za03⟩
  · iframe
  imod (close4_used m (agS c 1 0) (agS c 1 1) (agS c 1 2) (agS c 1 3) (K (agS c 1 0)) (K (agS c 1 1)) (K (agS c 1 2)) (K (agS c 1 3)))
    $$ [Ia10 Ia11 Ia12 Ia13 Pa10 Pa11 Pa12 Pa13] with ⟨Za10, Za11, Za12, Za13⟩
  · iframe
  imod (close4_used m (agS c 2 0) (agS c 2 1) (agS c 2 2) (agS c 2 3) (K (agS c 2 0)) (K (agS c 2 1)) (K (agS c 2 2)) (K (agS c 2 3)))
    $$ [Ia20 Ia21 Ia22 Ia23 Pa20 Pa21 Pa22 Pa23] with ⟨Za20, Za21, Za22, Za23⟩
  · iframe
  imod (close4_used m (agS c 3 0) (agS c 3 1) (agS c 3 2) (agS c 3 3) (K (agS c 3 0)) (K (agS c 3 1)) (K (agS c 3 2)) (K (agS c 3 3)))
    $$ [Ia30 Ia31 Ia32 Ia33 Pa30 Pa31 Pa32 Pa33] with ⟨Za30, Za31, Za32, Za33⟩
  · iframe
  -- the finished-piece receive cells
  imod (close4 m (agR c 0 0) (agR c 0 1) (agR c 0 2) (agR c 0 3) (K (agR c 0 0)) (K (agR c 0 1)) (K (agR c 0 2)) (K (agR c 0 3)) 0
      (fun r _ => duties_agR_row0 m c 0 r) (fun r _ => duties_agR_row0 m c 1 r) (fun r _ => duties_agR_row0 m c 2 r) (fun r _ => duties_agR_row0 m c 3 r))
    $$ [Ig00 Ig01 Ig02 Ig03 Pg00 Pg01 Pg02 Pg03] with ⟨Zg00, Zg01, Zg02, Zg03⟩
  · iframe
  imod (close4_used m (agR c 1 0) (agR c 1 1) (agR c 1 2) (agR c 1 3) (K (agR c 1 0)) (K (agR c 1 1)) (K (agR c 1 2)) (K (agR c 1 3)))
    $$ [Ig10 Ig11 Ig12 Ig13 Pg10 Pg11 Pg12 Pg13] with ⟨Zg10, Zg11, Zg12, Zg13⟩
  · iframe
  imod (close4_used m (agR c 2 0) (agR c 2 1) (agR c 2 2) (agR c 2 3) (K (agR c 2 0)) (K (agR c 2 1)) (K (agR c 2 2)) (K (agR c 2 3)))
    $$ [Ig20 Ig21 Ig22 Ig23 Pg20 Pg21 Pg22 Pg23] with ⟨Zg20, Zg21, Zg22, Zg23⟩
  · iframe
  imod (close4_used m (agR c 3 0) (agR c 3 1) (agR c 3 2) (agR c 3 3) (K (agR c 3 0)) (K (agR c 3 1)) (K (agR c 3 2)) (K (agR c 3 3)))
    $$ [Ig30 Ig31 Ig32 Ig33 Pg30 Pg31 Pg32 Pg33] with ⟨Zg30, Zg31, Zg32, Zg33⟩
  · iframe
  imodintro
  -- the two scratch buffers
  ihave Hp := (p_join m c) $$ [Hp00 Hp01 Hp02 Hp03 Hp10 Hp11 Hp12 Hp13 Hp20 Hp21 Hp22 Hp23 HpR]
  · iframe
  ihave Hr := (rs_join m c r0) $$ [Hr10 Hr11 Hr12 Hr13 Hr20 Hr21 Hr22 Hr23 Hr30 Hr31 Hr32 Hr33 HrR]
  · iframe
  -- the result
  ihave Ho00 := (out_thirds m c 0) $$ [T0a T0b T0c]
  · iframe
  ihave Ho01 := (out_thirds m c 1) $$ [T1a T1b T1c]
  · iframe
  ihave Ho02 := (out_thirds m c 2) $$ [T2a T2b T2c]
  · iframe
  ihave Ho03 := (out_thirds m c 3) $$ [T3a T3b T3c]
  · iframe
  ihave Hout := (out_join m c) $$ [Ho00 Ho01 Ho02 Ho03 Ho10 Ho11 Ho12 Ho13 Ho20 Ho21 Ho22 Ho23 Ho30 Ho31 Ho32 Ho33]
  · iframe
  iframe

/-- info: 'Cert.Kernel.Hand.body_close' depends on axioms: [propext, Classical.choice, Quot.sound] -/
#guard_msgs in #print axioms body_close

end Cert.Kernel.Hand

end
-- ==== Proof.KernelBodyRun.lean ====
/-
  One device's whole kernel body: the printed parts run one after the other, each from the pieces, tokens and positions it
  needs and handing on what it leaves; after the last wait every cell is closed and the pieces are joined.
-/
import proofs.«900554_g7700000000000555_dist_matmul_gelu_kshard_i_m512_n512_k256_v7x_i4_bf16_1_alg».proof.Proof.KernelPartsA
import proofs.«900554_g7700000000000555_dist_matmul_gelu_kshard_i_m512_n512_k256_v7x_i4_bf16_1_alg».proof.Proof.KernelPartsB
import proofs.«900554_g7700000000000555_dist_matmul_gelu_kshard_i_m512_n512_k256_v7x_i4_bf16_1_alg».proof.Proof.KernelPartsC
import proofs.«900554_g7700000000000555_dist_matmul_gelu_kshard_i_m512_n512_k256_v7x_i4_bf16_1_alg».proof.Proof.KernelPartsD
import proofs.«900554_g7700000000000555_dist_matmul_gelu_kshard_i_m512_n512_k256_v7x_i4_bf16_1_alg».proof.Proof.KernelPartsE
import proofs.«900554_g7700000000000555_dist_matmul_gelu_kshard_i_m512_n512_k256_v7x_i4_bf16_1_alg».proof.Proof.KernelBodyClose

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

set_option maxHeartbeats 4000000 in
/-- One device's whole body, part after part, from the spelt-out starting state to the closed final state. -/
theorem sound_run (K : GSem nD τ sig → ℕ) (c : Dev nD) (p0 r0 : Vec F S4x128x512 .bf16) (o0 : Vec F S512x512 .bf16) (W : Waits sig Unit) (Kt : PUnit → sProp 𝕄) :
    iprop(bodyPre m K c p0 r0 o0 W ∗ (closedEnd m c -∗ Kt ⟨⟩)) ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5) Kt := by
  unfold bodyPre
  iintro ⟨⟨#Ib0, #Ib1, #Ib2, #Ib3, #IzS0, #IzS1, #IzS2, #IzS3, #IzR0, #IzR1, #IzR2, #IzR3, #IzA0, #IzA1, #IzA2, #IzA3, #IzB0, #IzB1, #IzB2, #IzB3, #IsS10, #IsS11, #IsS12, #IsS13, #IsS20, #IsS21, #IsS22, #IsS23, #IsS30, #IsS31, #IsS32, #IsS33, #IsR10, #IsR11, #IsR12, #IsR13, #IsR20, #IsR21, #IsR22, #IsR23, #IsR30, #IsR31, #IsR32, #IsR33, #IaS10, #IaS11, #IaS12, #IaS13, #IaS20, #IaS21, #IaS22, #IaS23, #IaS30, #IaS31, #IaS32, #IaS33, #IaR10, #IaR11, #IaR12, #IaR13, #IaR20, #IaR21, #IaR22, #IaR23, #IaR30, #IaR31, #IaR32, #IaR33, #IpR10, #IpR11, #IpR12, #IpR13, #IpR20, #IpR21, #IpR22, #IpR23, #IpR30, #IpR31, #IpR32, #IpR33, #IpA10, #IpA11, #IpA12, #IpA13, #IpA20, #IpA21, #IpA22, #IpA23, #IpA30, #IpA31, #IpA32, #IpA33, #Rb1, #Rb2, #Rb3, #RsS10, #RsS11, #RsS12, #RsS13, #RsS20, #RsS21, #RsS22, #RsS23, #RsS30, #RsS31, #RsS32, #RsS33, #RaS10, #RaS11, #RaS12, #RaS13, #RaS20, #RaS21, #RaS22, #RaS23, #RaS30, #RaS31, #RaS32, #RaS33, #RpR10, #RpR11, #RpR12, #RpR13, #RpR20, #RpR21, #RpR22, #RpR23, #RpR30, #RpR31, #RpR32, #RpR33, #RpA10, #RpA11, #RpA12, #RpA13, #RpA20, #RpA21, #RpA22, #RpA23, #RpA30, #RpA31, #RpA32, #RpA33, #Hlev, Ha, Hb, Hp, Hr10, Hr11, Hr12, Hr13, Hr20, Hr21, Hr22, Hr23, Hr30, Hr31, Hr32, Hr33, Hog10, Hog11, Hog12, Hog13, Hog20, Hog21, Hog22, Hog23, Hog30, Hog31, Hog32, Hog33, Hrr, Ho00, Ho01, Ho02, Ho03, HO, Hq⟩, Hk⟩
  -- the body is its last printed part (parts 1 to 28 in order, then two waits) and two more waits
  rw [cc0_body_eq_skeleton]; unfold cc0_body_skel
  rw [wp_bind]
  rw [k0_part29_eq_skeleton]; unfold k0_part29_skel
  ihave Hr10 := (Entails.of_eq (pts_def _ _ _)) $$ Hr10
  ihave Hog10 := (Entails.of_eq (pts_def _ _ _)) $$ Hog10
  ihave Hr11 := (Entails.of_eq (pts_def _ _ _)) $$ Hr11
  ihave Hog11 := (Entails.of_eq (pts_def _ _ _)) $$ Hog11
  ihave Hr12 := (Entails.of_eq (pts_def _ _ _)) $$ Hr12
  ihave Hog12 := (Entails.of_eq (pts_def _ _ _)) $$ Hog12
  ihave Hr13 := (Entails.of_eq (pts_def _ _ _)) $$ Hr13
  ihave Hog13 := (Entails.of_eq (pts_def _ _ _)) $$ Hog13
  ihave Hr20 := (Entails.of_eq (pts_def _ _ _)) $$ Hr20
  ihave Hog20 := (Entails.of_eq (pts_def _ _ _)) $$ Hog20
  ihave Hr21 := (Entails.of_eq (pts_def _ _ _)) $$ Hr21
  ihave Hog21 := (Entails.of_eq (pts_def _ _ _)) $$ Hog21
  ihave Hr22 := (Entails.of_eq (pts_def _ _ _)) $$ Hr22
  ihave Hog22 := (Entails.of_eq (pts_def _ _ _)) $$ Hog22
  ihave Hr23 := (Entails.of_eq (pts_def _ _ _)) $$ Hr23
  ihave Hog23 := (Entails.of_eq (pts_def _ _ _)) $$ Hog23
  ihave Hr30 := (Entails.of_eq (pts_def _ _ _)) $$ Hr30
  ihave Hog30 := (Entails.of_eq (pts_def _ _ _)) $$ Hog30
  ihave Hr31 := (Entails.of_eq (pts_def _ _ _)) $$ Hr31
  ihave Hog31 := (Entails.of_eq (pts_def _ _ _)) $$ Hog31
  ihave Hr32 := (Entails.of_eq (pts_def _ _ _)) $$ Hr32
  ihave Hog32 := (Entails.of_eq (pts_def _ _ _)) $$ Hog32
  ihave Hr33 := (Entails.of_eq (pts_def _ _ _)) $$ Hr33
  ihave Hog33 := (Entails.of_eq (pts_def _ _ _)) $$ Hog33
  -- part 1
  icases Hq with ⟨Tb1, Hq⟩
  icases Hq with ⟨Tb2, Hq⟩
  icases Hq with ⟨Tb3, Hq⟩
  rw [wp_bind]
  iapply (wp_wand_r frame (wpE (defs₀ (F := F)) 𝒱₀ (c : Thread nD τ) none) Set.univ)
  isplitl [Tb1 Hr10 Hr11 Hr12 Hr13 Hog10 Hog11 Hog12 Hog13 Tb2 Hr20 Hr21 Hr22 Hr23 Hog20 Hog21 Hog22 Hog23 Tb3 Hr30 Hr31 Hr32 Hr33 Hog30 Hog31 Hog32 Hog33 Ha Hb Hp HO]
  · iapply (part1_run m K c r0 o0 p0 W  )
    isplitr; · (iapply (Entails.of_eq (cinv_def m K _)); iexact Ib1)
    isplitr; · iexact Rb1
    isplitr; · (iapply (Entails.of_eq (cinv_def m K _)); iexact Ib2)
    isplitr; · iexact Rb2
    isplitr; · (iapply (Entails.of_eq (cinv_def m K _)); iexact Ib3)
    isplitr; · iexact Rb3
    isplitl [Tb1]; · iexact Tb1
    isplitl [Hr10]; · iexact Hr10
    isplitl [Hr11]; · iexact Hr11
    isplitl [Hr12]; · iexact Hr12
    isplitl [Hr13]; · iexact Hr13
    isplitl [Hog10]; · iexact Hog10
    isplitl [Hog11]; · iexact Hog11
    isplitl [Hog12]; · iexact Hog12
    isplitl [Hog13]; · iexact Hog13
    isplitl [Tb2]; · iexact Tb2
    isplitl [Hr20]; · iexact Hr20
    isplitl [Hr21]; · iexact Hr21
    isplitl [Hr22]; · iexact Hr22
    isplitl [Hr23]; · iexact Hr23
    isplitl [Hog20]; · iexact Hog20
    isplitl [Hog21]; · iexact Hog21
    isplitl [Hog22]; · iexact Hog22
    isplitl [Hog23]; · iexact Hog23
    isplitl [Tb3]; · iexact Tb3
    isplitl [Hr30]; · iexact Hr30
    isplitl [Hr31]; · iexact Hr31
    isplitl [Hr32]; · iexact Hr32
    isplitl [Hr33]; · iexact Hr33
    isplitl [Hog30]; · iexact Hog30
    isplitl [Hog31]; · iexact Hog31
    isplitl [Hog32]; · iexact Hog32
    isplitl [Hog33]; · iexact Hog33
    isplitl [Ha]; · iexact Ha
    isplitl [Hb]; · iexact Hb
    isplitl [Hp]; · iexact Hp
    iexact HO
  iintro %r1 Hpost
  icases Hpost with ⟨Ha, Hb, Hp, ⟨%W1, HO⟩, %h1_0, %h1_1⟩
  obtain ⟨d0, v2, v3⟩ := r1
  dsimp only at h1_0 h1_1 ⊢
  have h1_0' := h1_0.symm
  subst h1_0'; subst h1_1
  -- the stored partial product is cut into the twelve source pieces and the rest
  ihave Hp := (Entails.of_eq (pM_whole c (Pblk m c))) $$ Hp
  ihave Hp := (split_p (F := F) c (Pblk m c)).1 $$ Hp
  icases Hp with ⟨Hs10, Hs11, Hs12, Hs13, Hs20, Hs21, Hs22, Hs23, Hs30, Hs31, Hs32, Hs33, Hpr⟩
  -- part 2
  icases Hq with ⟨Pb, Hq⟩
  icases Hq with ⟨Cb, Hq⟩
  icases Hq with ⟨TsS20, Hq⟩
  icases Hq with ⟨TpR20, Hq⟩
  ihave Hs20 := (Entails.of_eq (pts_def _ _ _)) $$ Hs20
  icases Hq with ⟨TsS10, Hq⟩
  icases Hq with ⟨TpR10, Hq⟩
  ihave Hs10 := (Entails.of_eq (pts_def _ _ _)) $$ Hs10
  rw [wp_bind]
  iapply (wp_wand_r frame (wpE (defs₀ (F := F)) 𝒱₀ (c : Thread nD τ) none) Set.univ)
  isplitl [Pb Cb TsS20 TpR20 Hs20 TsS10 TpR10 Hs10 HO]
  · iapply (part2_run m K c  W1 _ )
    isplitr; · (iapply (Entails.of_eq (cinv_def m K _)); iexact Ib0)
    isplitr; · iexact Hlev
    isplitr; · (iapply (Entails.of_eq (cinv_def m K _)); iexact IsS20)
    isplitr; · (iapply (Entails.of_eq (cinv_def m K _)); iexact IpR20)
    isplitr; · iexact RsS20
    isplitr; · iexact RpR20
    isplitr; · (iapply (Entails.of_eq (cinv_def m K _)); iexact IsS10)
    isplitr; · (iapply (Entails.of_eq (cinv_def m K _)); iexact IpR10)
    isplitr; · iexact RsS10
    isplitr; · iexact RpR10
    isplitl [Pb]; · iexact Pb
    isplitl [Cb]; · iexact Cb
    isplitl [TsS20]; · iexact TsS20
    isplitl [TpR20]; · iexact TpR20
    isplitl [Hs20]; · iexact Hs20
    isplitl [TsS10]; · iexact TsS10
    isplitl [TpR10]; · iexact TpR10
    isplitl [Hs10]; · iexact Hs10
    iexact HO
  iintro %r2 Hpost
  icases Hpost with ⟨Pb, E3, E2, E1, Cs20, Cs10, ⟨%W2, HO⟩⟩
  try dsimp only
  -- part 3
  icases Hq with ⟨TsS30, Hq⟩
  icases Hq with ⟨TpR30, Hq⟩
  ihave Hs30 := (Entails.of_eq (pts_def _ _ _)) $$ Hs30
  icases E3 with ⟨Ed3r0, E3⟩
  icases Hq with ⟨TsS21, Hq⟩
  icases Hq with ⟨TpR21, Hq⟩
  ihave Hs21 := (Entails.of_eq (pts_def _ _ _)) $$ Hs21
  icases E2 with ⟨Ed2r1, E2⟩
  rw [wp_bind]
  iapply (wp_wand_r frame (wpE (defs₀ (F := F)) 𝒱₀ (c : Thread nD τ) none) Set.univ)
  isplitl [TsS30 TpR30 Hs30 Ed3r0 TsS21 TpR21 Hs21 Ed2r1 HO]
  · iapply (part3_run m K c  W2 _ _ )
    isplitr; · (iapply (Entails.of_eq (cinv_def m K _)); iexact IsS30)
    isplitr; · (iapply (Entails.of_eq (cinv_def m K _)); iexact IpR30)
    isplitr; · iexact RsS30
    isplitr; · iexact RpR30
    isplitr; · (iapply (Entails.of_eq (cinv_def m K _)); iexact IsS21)
    isplitr; · (iapply (Entails.of_eq (cinv_def m K _)); iexact IpR21)
    isplitr; · iexact RsS21
    isplitr; · iexact RpR21
    isplitl [TsS30]; · iexact TsS30
    isplitl [TpR30]; · iexact TpR30
    isplitl [Hs30]; · iexact Hs30
    isplitl [Ed3r0]; · iexact Ed3r0
    isplitl [TsS21]; · iexact TsS21
    isplitl [TpR21]; · iexact TpR21
    isplitl [Hs21]; · iexact Hs21
    isplitl [Ed2r1]; · iexact Ed2r1
    iexact HO
  iintro %r3 Hpost
  icases Hpost with ⟨Cs30, Cs21, ⟨%W3, HO⟩⟩
  try dsimp only
  -- part 4
  icases Hq with ⟨TsS11, Hq⟩
  icases Hq with ⟨TpR11, Hq⟩
  ihave Hs11 := (Entails.of_eq (pts_def _ _ _)) $$ Hs11
  icases E1 with ⟨Ed1r1, E1⟩
  icases Hq with ⟨TsS31, Hq⟩
  icases Hq with ⟨TpR31, Hq⟩
  ihave Hs31 := (Entails.of_eq (pts_def _ _ _)) $$ Hs31
  icases E3 with ⟨Ed3r1, E3⟩
  rw [wp_bind]
  iapply (wp_wand_r frame (wpE (defs₀ (F := F)) 𝒱₀ (c : Thread nD τ) none) Set.univ)
  isplitl [TsS11 TpR11 Hs11 Ed1r1 TsS31 TpR31 Hs31 Ed3r1 HO]
  · iapply (part4_run m K c  W3 _ )
    isplitr; · (iapply (Entails.of_eq (cinv_def m K _)); iexact IsS11)
    isplitr; · (iapply (Entails.of_eq (cinv_def m K _)); iexact IpR11)
    isplitr; · iexact RsS11
    isplitr; · iexact RpR11
    isplitr; · (iapply (Entails.of_eq (cinv_def m K _)); iexact IsS31)
    isplitr; · (iapply (Entails.of_eq (cinv_def m K _)); iexact IpR31)
    isplitr; · iexact RsS31
    isplitr; · iexact RpR31
    isplitl [TsS11]; · iexact TsS11
    isplitl [TpR11]; · iexact TpR11
    isplitl [Hs11]; · iexact Hs11
    isplitl [Ed1r1]; · iexact Ed1r1
    isplitl [TsS31]; · iexact TsS31
    isplitl [TpR31]; · iexact TpR31
    isplitl [Hs31]; · iexact Hs31
    isplitl [Ed3r1]; · iexact Ed3r1
    iexact HO
  iintro %r4 Hpost
  icases Hpost with ⟨Cs11, Cs31, ⟨%W4, HO⟩⟩
  try dsimp only
  -- part 5
  icases Hq with ⟨TsS22, Hq⟩
  icases Hq with ⟨TpR22, Hq⟩
  ihave Hs22 := (Entails.of_eq (pts_def _ _ _)) $$ Hs22
  icases E2 with ⟨Ed2r2, E2⟩
  icases Hq with ⟨TsS12, Hq⟩
  icases Hq with ⟨TpR12, Hq⟩
  ihave Hs12 := (Entails.of_eq (pts_def _ _ _)) $$ Hs12
  icases E1 with ⟨Ed1r2, E1⟩
  icases Hq with ⟨TsS32, Hq⟩
  icases Hq with ⟨TpR32, Hq⟩
  ihave Hs32 := (Entails.of_eq (pts_def _ _ _)) $$ Hs32
  icases E3 with ⟨Ed3r2, E3⟩
  rw [wp_bind]
  iapply (wp_wand_r frame (wpE (defs₀ (F := F)) 𝒱₀ (c : Thread nD τ) none) Set.univ)
  isplitl [TsS22 TpR22 Hs22 Ed2r2 TsS12 TpR12 Hs12 Ed1r2 TsS32 TpR32 Hs32 Ed3r2 HO]
  · iapply (part5_run m K c  W4 _ )
    isplitr; · (iapply (Entails.of_eq (cinv_def m K _)); iexact IsS22)
    isplitr; · (iapply (Entails.of_eq (cinv_def m K _)); iexact IpR22)
    isplitr; · iexact RsS22
    isplitr; · iexact RpR22
    isplitr; · (iapply (Entails.of_eq (cinv_def m K _)); iexact IsS12)
    isplitr; · (iapply (Entails.of_eq (cinv_def m K _)); iexact IpR12)
    isplitr; · iexact RsS12
    isplitr; · iexact RpR12
    isplitr; · (iapply (Entails.of_eq (cinv_def m K _)); iexact IsS32)
    isplitr; · (iapply (Entails.of_eq (cinv_def m K _)); iexact IpR32)
    isplitr; · iexact RsS32
    isplitr; · iexact RpR32
    isplitl [TsS22]; · iexact TsS22
    isplitl [TpR22]; · iexact TpR22
    isplitl [Hs22]; · iexact Hs22
    isplitl [Ed2r2]; · iexact Ed2r2
    isplitl [TsS12]; · iexact TsS12
    isplitl [TpR12]; · iexact TpR12
    isplitl [Hs12]; · iexact Hs12
    isplitl [Ed1r2]; · iexact Ed1r2
    isplitl [TsS32]; · iexact TsS32
    isplitl [TpR32]; · iexact TpR32
    isplitl [Hs32]; · iexact Hs32
    isplitl [Ed3r2]; · iexact Ed3r2
    iexact HO
  iintro %r5 Hpost
  icases Hpost with ⟨Cs22, Cs12, Cs32, ⟨%W5, HO⟩⟩
  try dsimp only
  -- part 6
  icases Hq with ⟨TsS23, Hq⟩
  icases Hq with ⟨TpR23, Hq⟩
  ihave Hs23 := (Entails.of_eq (pts_def _ _ _)) $$ Hs23
  icases E2 with ⟨Ed2r3, E2⟩
  icases Hq with ⟨TsS13, Hq⟩
  icases Hq with ⟨TpR13, Hq⟩
  ihave Hs13 := (Entails.of_eq (pts_def _ _ _)) $$ Hs13
  icases E1 with ⟨Ed1r3, E1⟩
  rw [wp_bind]
  iapply (wp_wand_r frame (wpE (defs₀ (F := F)) 𝒱₀ (c : Thread nD τ) none) Set.univ)
  isplitl [TsS23 TpR23 Hs23 Ed2r3 TsS13 TpR13 Hs13 Ed1r3 HO]
  · iapply (part6_run m K c  W5 _ _ )
    isplitr; · (iapply (Entails.of_eq (cinv_def m K _)); iexact IsS23)
    isplitr; · (iapply (Entails.of_eq (cinv_def m K _)); iexact IpR23)
    isplitr; · iexact RsS23
    isplitr; · iexact RpR23
    isplitr; · (iapply (Entails.of_eq (cinv_def m K _)); iexact IsS13)
    isplitr; · (iapply (Entails.of_eq (cinv_def m K _)); iexact IpR13)
    isplitr; · iexact RsS13
    isplitr; · iexact RpR13
    isplitl [TsS23]; · iexact TsS23
    isplitl [TpR23]; · iexact TpR23
    isplitl [Hs23]; · iexact Hs23
    isplitl [Ed2r3]; · iexact Ed2r3
    isplitl [TsS13]; · iexact TsS13
    isplitl [TpR13]; · iexact TpR13
    isplitl [Hs13]; · iexact Hs13
    isplitl [Ed1r3]; · iexact Ed1r3
    iexact HO
  iintro %r6 Hpost
  icases Hpost with ⟨Cs23, Cs13, ⟨%W6, HO⟩⟩
  try dsimp only
  -- part 7
  icases Hq with ⟨TsS33, Hq⟩
  icases Hq with ⟨TpR33, Hq⟩
  ihave Hs33 := (Entails.of_eq (pts_def _ _ _)) $$ Hs33
  icases E3 with ⟨Ed3r3, E3⟩
  icases Hq with ⟨PsR10, Hq⟩
  icases Hq with ⟨CsR10, Hq⟩
  rw [wp_bind]
  iapply (wp_wand_r frame (wpE (defs₀ (F := F)) 𝒱₀ (c : Thread nD τ) none) Set.univ)
  isplitl [TsS33 TpR33 Hs33 Ed3r3 Hpr PsR10 CsR10 HO]
  · iapply (part7_run m K c  W6 _ )
    isplitr; · (iapply (Entails.of_eq (cinv_def m K _)); iexact IsS33)
    isplitr; · (iapply (Entails.of_eq (cinv_def m K _)); iexact IpR33)
    isplitr; · iexact RsS33
    isplitr; · iexact RpR33
    isplitr; · iexact Hlev
    isplitr; · (iapply (Entails.of_eq (cinv_def m K _)); iexact IsR10)
    isplitl [TsS33]; · iexact TsS33
    isplitl [TpR33]; · iexact TpR33
    isplitl [Hs33]; · iexact Hs33
    isplitl [Ed3r3]; · iexact Ed3r3
    isplitl [Hpr]; · iexact Hpr
    isplitl [PsR10]; · iexact PsR10
    isplitl [CsR10]; · iexact CsR10
    iexact HO
  iintro %r7 Hpost
  icases Hpost with ⟨Cs33, Hpr, PsR10, Hr10, ⟨%W7, HO⟩, %h7_0⟩
  try dsimp only
  -- part 8
  icases Hq with ⟨PsR30, Hq⟩
  icases Hq with ⟨CsR30, Hq⟩
  icases Hq with ⟨PsR20, Hq⟩
  icases Hq with ⟨CsR20, Hq⟩
  rw [wp_bind]
  iapply (wp_wand_r frame (wpE (defs₀ (F := F)) 𝒱₀ (c : Thread nD τ) none) Set.univ)
  isplitl [PsR30 CsR30 PsR20 CsR20 HO]
  · iapply (part8_run m K c  W7 _ _ )
    isplitr; · iexact Hlev
    isplitr; · (iapply (Entails.of_eq (cinv_def m K _)); iexact IsR30)
    isplitr; · (iapply (Entails.of_eq (cinv_def m K _)); iexact IsR20)
    isplitl [PsR30]; · iexact PsR30
    isplitl [CsR30]; · iexact CsR30
    isplitl [PsR20]; · iexact PsR20
    isplitl [CsR20]; · iexact CsR20
    iexact HO
  iintro %r8 Hpost
  icases Hpost with ⟨PsR30, Hr30, PsR20, Hr20, ⟨%W8, HO⟩, %h8_0⟩
  try dsimp only
  subst h7_0; have h_v224 := h8_0
  -- part 9
  ihave Ho00 := (Entails.of_eq (pts_def _ _ _)) $$ Ho00
  icases Hq with ⟨TaS20, Hq⟩
  icases Hq with ⟨TpA20, Hq⟩
  icases E2 with ⟨Ed2o0, E2⟩
  icases Hq with ⟨TaS10, Hq⟩
  icases Hq with ⟨TpA10, Hq⟩
  icases E1 with ⟨Ed1o0, E1⟩
  rw [wp_bind]
  iapply (wp_wand_r frame (wpE (defs₀ (F := F)) 𝒱₀ (c : Thread nD τ) none) Set.univ)
  isplitl [Ho00 TaS20 TpA20 Ed2o0 TaS10 TpA10 Ed1o0 HO]
  · iapply (part9_run m K c o0 W8 _ _ h_v224)
    isplitr; · (iapply (Entails.of_eq (cinv_def m K _)); iexact IaS20)
    isplitr; · (iapply (Entails.of_eq (cinv_def m K _)); iexact IpA20)
    isplitr; · iexact RaS20
    isplitr; · iexact RpA20
    isplitr; · (iapply (Entails.of_eq (cinv_def m K _)); iexact IaS10)
    isplitr; · (iapply (Entails.of_eq (cinv_def m K _)); iexact IpA10)
    isplitr; · iexact RaS10
    isplitr; · iexact RpA10
    isplitl [Ho00]; · iexact Ho00
    isplitl [TaS20]; · iexact TaS20
    isplitl [TpA20]; · iexact TpA20
    isplitl [Ed2o0]; · iexact Ed2o0
    isplitl [TaS10]; · iexact TaS10
    isplitl [TpA10]; · iexact TpA10
    isplitl [Ed1o0]; · iexact Ed1o0
    iexact HO
  iintro %r9 Hpost
  icases Hpost with ⟨Ho00_3, Ca20, Ca10, ⟨%W9, HO⟩⟩
  try dsimp only
  -- part 10
  icases Hq with ⟨TaS30, Hq⟩
  icases Hq with ⟨TpA30, Hq⟩
  icases E3 with ⟨Ed3o0, E3⟩
  icases Hq with ⟨PsR11, Hq⟩
  icases Hq with ⟨CsR11, Hq⟩
  rw [wp_bind]
  iapply (wp_wand_r frame (wpE (defs₀ (F := F)) 𝒱₀ (c : Thread nD τ) none) Set.univ)
  isplitl [TaS30 TpA30 Ho00_3 Ed3o0 Hpr PsR11 CsR11 HO]
  · iapply (part10_run m K c  W9 _ _ )
    isplitr; · (iapply (Entails.of_eq (cinv_def m K _)); iexact IaS30)
    isplitr; · (iapply (Entails.of_eq (cinv_def m K _)); iexact IpA30)
    isplitr; · iexact RaS30
    isplitr; · iexact RpA30
    isplitr; · iexact Hlev
    isplitr; · (iapply (Entails.of_eq (cinv_def m K _)); iexact IsR11)
    isplitl [TaS30]; · iexact TaS30
    isplitl [TpA30]; · iexact TpA30
    isplitl [Ho00_3]; · iexact Ho00_3
    isplitl [Ed3o0]; · iexact Ed3o0
    isplitl [Hpr]; · iexact Hpr
    isplitl [PsR11]; · iexact PsR11
    isplitl [CsR11]; · iexact CsR11
    iexact HO
  iintro %r10 Hpost
  icases Hpost with ⟨Ca30, Hpr, PsR11, Hr11, ⟨%W10, HO⟩, %h10_0⟩
  try dsimp only
  -- part 11
  icases Hq with ⟨PsR31, Hq⟩
  icases Hq with ⟨CsR31, Hq⟩
  icases Hq with ⟨PsR21, Hq⟩
  icases Hq with ⟨CsR21, Hq⟩
  rw [wp_bind]
  iapply (wp_wand_r frame (wpE (defs₀ (F := F)) 𝒱₀ (c : Thread nD τ) none) Set.univ)
  isplitl [PsR31 CsR31 PsR21 CsR21 HO]
  · iapply (part11_run m K c  W10 _ _ )
    isplitr; · iexact Hlev
    isplitr; · (iapply (Entails.of_eq (cinv_def m K _)); iexact IsR31)
    isplitr; · (iapply (Entails.of_eq (cinv_def m K _)); iexact IsR21)
    isplitl [PsR31]; · iexact PsR31
    isplitl [CsR31]; · iexact CsR31
    isplitl [PsR21]; · iexact PsR21
    isplitl [CsR21]; · iexact CsR21
    iexact HO
  iintro %r11 Hpost
  icases Hpost with ⟨PsR31, Hr31, PsR21, Hr21, ⟨%W11, HO⟩, %h11_0, %h11_1, %h11_2⟩
  obtain ⟨v301, v309, v310⟩ := r11
  dsimp only at h11_0 h11_1 h11_2 ⊢
  subst h10_0; have h_v301 := h11_0; have h_v309 := h11_1; have h_v310 := h11_2
  -- part 12
  ihave Ho01 := (Entails.of_eq (pts_def _ _ _)) $$ Ho01
  icases Hq with ⟨TaS21, Hq⟩
  icases Hq with ⟨TpA21, Hq⟩
  icases E2 with ⟨Ed2o1, E2⟩
  icases Hq with ⟨TaS11, Hq⟩
  icases Hq with ⟨TpA11, Hq⟩
  icases E1 with ⟨Ed1o1, E1⟩
  rw [wp_bind]
  iapply (wp_wand_r frame (wpE (defs₀ (F := F)) 𝒱₀ (c : Thread nD τ) none) Set.univ)
  isplitl [Ho01 TaS21 TpA21 Ed2o1 TaS11 TpA11 Ed1o1 HO]
  · iapply (part12_run m K c o0 W11 _ _ _ _ h_v301 h_v309 h_v310)
    isplitr; · (iapply (Entails.of_eq (cinv_def m K _)); iexact IaS21)
    isplitr; · (iapply (Entails.of_eq (cinv_def m K _)); iexact IpA21)
    isplitr; · iexact RaS21
    isplitr; · iexact RpA21
    isplitr; · (iapply (Entails.of_eq (cinv_def m K _)); iexact IaS11)
    isplitr; · (iapply (Entails.of_eq (cinv_def m K _)); iexact IpA11)
    isplitr; · iexact RaS11
    isplitr; · iexact RpA11
    isplitl [Ho01]; · iexact Ho01
    isplitl [TaS21]; · iexact TaS21
    isplitl [TpA21]; · iexact TpA21
    isplitl [Ed2o1]; · iexact Ed2o1
    isplitl [TaS11]; · iexact TaS11
    isplitl [TpA11]; · iexact TpA11
    isplitl [Ed1o1]; · iexact Ed1o1
    iexact HO
  iintro %r12 Hpost
  icases Hpost with ⟨Ho01_3, Ca21, Ca11, ⟨%W12, HO⟩⟩
  try dsimp only
  -- part 13
  icases Hq with ⟨TaS31, Hq⟩
  icases Hq with ⟨TpA31, Hq⟩
  icases E3 with ⟨Ed3o1, E3⟩
  icases Hq with ⟨PsR12, Hq⟩
  icases Hq with ⟨CsR12, Hq⟩
  rw [wp_bind]
  iapply (wp_wand_r frame (wpE (defs₀ (F := F)) 𝒱₀ (c : Thread nD τ) none) Set.univ)
  isplitl [TaS31 TpA31 Ho01_3 Ed3o1 Hpr PsR12 CsR12 HO]
  · iapply (part13_run m K c  W12 _ _ )
    isplitr; · (iapply (Entails.of_eq (cinv_def m K _)); iexact IaS31)
    isplitr; · (iapply (Entails.of_eq (cinv_def m K _)); iexact IpA31)
    isplitr; · iexact RaS31
    isplitr; · iexact RpA31
    isplitr; · iexact Hlev
    isplitr; · (iapply (Entails.of_eq (cinv_def m K _)); iexact IsR12)
    isplitl [TaS31]; · iexact TaS31
    isplitl [TpA31]; · iexact TpA31
    isplitl [Ho01_3]; · iexact Ho01_3
    isplitl [Ed3o1]; · iexact Ed3o1
    isplitl [Hpr]; · iexact Hpr
    isplitl [PsR12]; · iexact PsR12
    isplitl [CsR12]; · iexact CsR12
    iexact HO
  iintro %r13 Hpost
  icases Hpost with ⟨Ca31, Hpr, PsR12, Hr12, ⟨%W13, HO⟩, %h13_0⟩
  obtain ⟨v363, v364, c0_i32_362⟩ := r13
  dsimp only at h13_0 ⊢
  -- part 14
  icases Hq with ⟨PsR32, Hq⟩
  icases Hq with ⟨CsR32, Hq⟩
  icases Hq with ⟨PsR22, Hq⟩
  icases Hq with ⟨CsR22, Hq⟩
  rw [wp_bind]
  iapply (wp_wand_r frame (wpE (defs₀ (F := F)) 𝒱₀ (c : Thread nD τ) none) Set.univ)
  isplitl [PsR32 CsR32 PsR22 CsR22 HO]
  · iapply (part14_run m K c  W13 _ _ _ _ )
    isplitr; · iexact Hlev
    isplitr; · (iapply (Entails.of_eq (cinv_def m K _)); iexact IsR32)
    isplitr; · (iapply (Entails.of_eq (cinv_def m K _)); iexact IsR22)
    isplitl [PsR32]; · iexact PsR32
    isplitl [CsR32]; · iexact CsR32
    isplitl [PsR22]; · iexact PsR22
    isplitl [CsR22]; · iexact CsR22
    iexact HO
  iintro %r14 Hpost
  icases Hpost with ⟨PsR32, Hr32, PsR22, Hr22, ⟨%W14, HO⟩, %h14_0, %h14_1⟩
  obtain ⟨v389, v397⟩ := r14
  dsimp only at h14_0 h14_1 ⊢
  subst h13_0; have h_v389 := h14_0; have h_v397 := h14_1
  -- part 15
  ihave Ho02 := (Entails.of_eq (pts_def _ _ _)) $$ Ho02
  icases Hq with ⟨TaS22, Hq⟩
  icases Hq with ⟨TpA22, Hq⟩
  icases E2 with ⟨Ed2o2, E2⟩
  icases Hq with ⟨TaS12, Hq⟩
  icases Hq with ⟨TpA12, Hq⟩
  icases E1 with ⟨Ed1o2, E1⟩
  rw [wp_bind]
  iapply (wp_wand_r frame (wpE (defs₀ (F := F)) 𝒱₀ (c : Thread nD τ) none) Set.univ)
  isplitl [Ho02 TaS22 TpA22 Ed2o2 TaS12 TpA12 Ed1o2 HO]
  · iapply (part15_run m K c o0 W14 _ _ _ h_v389 h_v397)
    isplitr; · (iapply (Entails.of_eq (cinv_def m K _)); iexact IaS22)
    isplitr; · (iapply (Entails.of_eq (cinv_def m K _)); iexact IpA22)
    isplitr; · iexact RaS22
    isplitr; · iexact RpA22
    isplitr; · (iapply (Entails.of_eq (cinv_def m K _)); iexact IaS12)
    isplitr; · (iapply (Entails.of_eq (cinv_def m K _)); iexact IpA12)
    isplitr; · iexact RaS12
    isplitr; · iexact RpA12
    isplitl [Ho02]; · iexact Ho02
    isplitl [TaS22]; · iexact TaS22
    isplitl [TpA22]; · iexact TpA22
    isplitl [Ed2o2]; · iexact Ed2o2
    isplitl [TaS12]; · iexact TaS12
    isplitl [TpA12]; · iexact TpA12
    isplitl [Ed1o2]; · iexact Ed1o2
    iexact HO
  iintro %r15 Hpost
  icases Hpost with ⟨Ho02_3, Ca22, Ca12, ⟨%W15, HO⟩⟩
  try dsimp only
  -- part 16
  icases Hq with ⟨TaS32, Hq⟩
  icases Hq with ⟨TpA32, Hq⟩
  icases E3 with ⟨Ed3o2, E3⟩
  icases Hq with ⟨PsR13, Hq⟩
  icases Hq with ⟨CsR13, Hq⟩
  rw [wp_bind]
  iapply (wp_wand_r frame (wpE (defs₀ (F := F)) 𝒱₀ (c : Thread nD τ) none) Set.univ)
  isplitl [TaS32 TpA32 Ho02_3 Ed3o2 Hpr PsR13 CsR13 HO]
  · iapply (part16_run m K c  W15 _ _ )
    isplitr; · (iapply (Entails.of_eq (cinv_def m K _)); iexact IaS32)
    isplitr; · (iapply (Entails.of_eq (cinv_def m K _)); iexact IpA32)
    isplitr; · iexact RaS32
    isplitr; · iexact RpA32
    isplitr; · iexact Hlev
    isplitr; · (iapply (Entails.of_eq (cinv_def m K _)); iexact IsR13)
    isplitl [TaS32]; · iexact TaS32
    isplitl [TpA32]; · iexact TpA32
    isplitl [Ho02_3]; · iexact Ho02_3
    isplitl [Ed3o2]; · iexact Ed3o2
    isplitl [Hpr]; · iexact Hpr
    isplitl [PsR13]; · iexact PsR13
    isplitl [CsR13]; · iexact CsR13
    iexact HO
  iintro %r16 Hpost
  icases Hpost with ⟨Ca32, Hpr, PsR13, Hr13, ⟨%W16, HO⟩, %h16_0⟩
  obtain ⟨v451, c1_i32_446⟩ := r16
  dsimp only at h16_0 ⊢
  -- part 17
  icases Hq with ⟨PsR33, Hq⟩
  icases Hq with ⟨CsR33, Hq⟩
  icases Hq with ⟨PsR23, Hq⟩
  icases Hq with ⟨CsR23, Hq⟩
  rw [wp_bind]
  iapply (wp_wand_r frame (wpE (defs₀ (F := F)) 𝒱₀ (c : Thread nD τ) none) Set.univ)
  isplitl [PsR33 CsR33 PsR23 CsR23 HO]
  · iapply (part17_run m K c  W16 _ _ _ )
    isplitr; · iexact Hlev
    isplitr; · (iapply (Entails.of_eq (cinv_def m K _)); iexact IsR33)
    isplitr; · (iapply (Entails.of_eq (cinv_def m K _)); iexact IsR23)
    isplitl [PsR33]; · iexact PsR33
    isplitl [CsR33]; · iexact CsR33
    isplitl [PsR23]; · iexact PsR23
    isplitl [CsR23]; · iexact CsR23
    iexact HO
  iintro %r17 Hpost
  icases Hpost with ⟨PsR33, Hr33, PsR23, Hr23, ⟨%W17, HO⟩, %h17_0, %h17_1, %h17_2⟩
  obtain ⟨v477, v482, v483⟩ := r17
  dsimp only at h17_0 h17_1 h17_2 ⊢
  subst h16_0; have h_v477 := h17_0; have h_v482 := h17_1; have h_v483 := h17_2
  -- part 18
  ihave Ho03 := (Entails.of_eq (pts_def _ _ _)) $$ Ho03
  icases Hq with ⟨TaS23, Hq⟩
  icases Hq with ⟨TpA23, Hq⟩
  icases Hq with ⟨TaS13, Hq⟩
  icases Hq with ⟨TpA13, Hq⟩
  rw [wp_bind]
  iapply (wp_wand_r frame (wpE (defs₀ (F := F)) 𝒱₀ (c : Thread nD τ) none) Set.univ)
  isplitl [Ho03 TaS23 TpA23 E2 TaS13 TpA13 E1 HO]
  · iapply (part18_run m K c o0 W17 _ _ _ _ h_v477 h_v482 h_v483)
    isplitr; · (iapply (Entails.of_eq (cinv_def m K _)); iexact IaS23)
    isplitr; · (iapply (Entails.of_eq (cinv_def m K _)); iexact IpA23)
    isplitr; · iexact RaS23
    isplitr; · iexact RpA23
    isplitr; · (iapply (Entails.of_eq (cinv_def m K _)); iexact IaS13)
    isplitr; · (iapply (Entails.of_eq (cinv_def m K _)); iexact IpA13)
    isplitr; · iexact RaS13
    isplitr; · iexact RpA13
    isplitl [Ho03]; · iexact Ho03
    isplitl [TaS23]; · iexact TaS23
    isplitl [TpA23]; · iexact TpA23
    isplitl [E2]; · iexact E2
    isplitl [TaS13]; · iexact TaS13
    isplitl [TpA13]; · iexact TpA13
    isplitl [E1]; · iexact E1
    iexact HO
  iintro %r18 Hpost
  icases Hpost with ⟨Ho03_3, Ca23, Ca13, ⟨%W18, HO⟩⟩
  try dsimp only
  -- part 19
  icases Hq with ⟨TaS33, Hq⟩
  icases Hq with ⟨TpA33, Hq⟩
  icases Hq with ⟨PaR10, Hq⟩
  icases Hq with ⟨CaR10, Hq⟩
  rw [wp_bind]
  iapply (wp_wand_r frame (wpE (defs₀ (F := F)) 𝒱₀ (c : Thread nD τ) none) Set.univ)
  isplitl [TaS33 TpA33 Ho03_3 E3 PaR10 CaR10 HO]
  · iapply (part19_run m K c  W18 _ )
    isplitr; · (iapply (Entails.of_eq (cinv_def m K _)); iexact IaS33)
    isplitr; · (iapply (Entails.of_eq (cinv_def m K _)); iexact IpA33)
    isplitr; · iexact RaS33
    isplitr; · iexact RpA33
    isplitr; · (iapply (Entails.of_eq (cinv_def m K _)); iexact IaR10)
    isplitl [TaS33]; · iexact TaS33
    isplitl [TpA33]; · iexact TpA33
    isplitl [Ho03_3]; · iexact Ho03_3
    isplitl [E3]; · iexact E3
    isplitl [PaR10]; · iexact PaR10
    isplitl [CaR10]; · iexact CaR10
    iexact HO
  iintro %r19 Hpost
  icases Hpost with ⟨Ca33, PaR10, Ho10, ⟨%W19, HO⟩⟩
  try dsimp only
  -- part 20
  icases Hq with ⟨PaR30, Hq⟩
  icases Hq with ⟨CaR30, Hq⟩
  icases Hq with ⟨PaR20, Hq⟩
  icases Hq with ⟨CaR20, Hq⟩
  icases Hq with ⟨PaR11, Hq⟩
  icases Hq with ⟨CaR11, Hq⟩
  rw [wp_bind]
  iapply (wp_wand_r frame (wpE (defs₀ (F := F)) 𝒱₀ (c : Thread nD τ) none) Set.univ)
  isplitl [PaR30 CaR30 PaR20 CaR20 PaR11 CaR11 HO]
  · iapply (part20_run m K c  W19 _ )
    isplitr; · (iapply (Entails.of_eq (cinv_def m K _)); iexact IaR30)
    isplitr; · (iapply (Entails.of_eq (cinv_def m K _)); iexact IaR20)
    isplitr; · (iapply (Entails.of_eq (cinv_def m K _)); iexact IaR11)
    isplitl [PaR30]; · iexact PaR30
    isplitl [CaR30]; · iexact CaR30
    isplitl [PaR20]; · iexact PaR20
    isplitl [CaR20]; · iexact CaR20
    isplitl [PaR11]; · iexact PaR11
    isplitl [CaR11]; · iexact CaR11
    iexact HO
  iintro %r20 Hpost
  icases Hpost with ⟨PaR30, Ho30, PaR20, Ho20, PaR11, Ho11, ⟨%W20, HO⟩⟩
  obtain ⟨v566, c32_i32_560⟩ := r20
  try dsimp only
  -- part 21
  icases Hq with ⟨PaR31, Hq⟩
  icases Hq with ⟨CaR31, Hq⟩
  icases Hq with ⟨PaR21, Hq⟩
  icases Hq with ⟨CaR21, Hq⟩
  rw [wp_bind]
  iapply (wp_wand_r frame (wpE (defs₀ (F := F)) 𝒱₀ (c : Thread nD τ) none) Set.univ)
  isplitl [PaR31 CaR31 PaR21 CaR21 HO]
  · iapply (part21_run m K c  W20 _ _ _ )
    isplitr; · (iapply (Entails.of_eq (cinv_def m K _)); iexact IaR31)
    isplitr; · (iapply (Entails.of_eq (cinv_def m K _)); iexact IaR21)
    isplitl [PaR31]; · iexact PaR31
    isplitl [CaR31]; · iexact CaR31
    isplitl [PaR21]; · iexact PaR21
    isplitl [CaR21]; · iexact CaR21
    iexact HO
  iintro %r21 Hpost
  icases Hpost with ⟨PaR31, Ho31, PaR21, Ho21, ⟨%W21, HO⟩⟩
  try dsimp only
  -- part 22
  icases Hq with ⟨PaR12, Hq⟩
  icases Hq with ⟨CaR12, Hq⟩
  icases Hq with ⟨PaR32, Hq⟩
  icases Hq with ⟨CaR32, Hq⟩
  icases Hq with ⟨PaR22, Hq⟩
  icases Hq with ⟨CaR22, Hq⟩
  rw [wp_bind]
  iapply (wp_wand_r frame (wpE (defs₀ (F := F)) 𝒱₀ (c : Thread nD τ) none) Set.univ)
  isplitl [PaR12 CaR12 PaR32 CaR32 PaR22 CaR22 HO]
  · iapply (part22_run m K c  W21 _ )
    isplitr; · (iapply (Entails.of_eq (cinv_def m K _)); iexact IaR12)
    isplitr; · (iapply (Entails.of_eq (cinv_def m K _)); iexact IaR32)
    isplitr; · (iapply (Entails.of_eq (cinv_def m K _)); iexact IaR22)
    isplitl [PaR12]; · iexact PaR12
    isplitl [CaR12]; · iexact CaR12
    isplitl [PaR32]; · iexact PaR32
    isplitl [CaR32]; · iexact CaR32
    isplitl [PaR22]; · iexact PaR22
    isplitl [CaR22]; · iexact CaR22
    iexact HO
  iintro %r22 Hpost
  icases Hpost with ⟨PaR12, Ho12, PaR32, Ho32, PaR22, Ho22, ⟨%W22, HO⟩⟩
  try dsimp only
  -- part 23
  icases Hq with ⟨PaR13, Hq⟩
  icases Hq with ⟨CaR13, Hq⟩
  icases Hq with ⟨PaR33, Hq⟩
  icases Hq with ⟨CaR33, Hq⟩
  icases Hq with ⟨PaR23, Hq⟩
  icases Hq with ⟨CaR23, Hq⟩
  rw [wp_bind]
  iapply (wp_wand_r frame (wpE (defs₀ (F := F)) 𝒱₀ (c : Thread nD τ) none) Set.univ)
  isplitl [PaR13 CaR13 PaR33 CaR33 PaR23 CaR23 HO]
  · iapply (part23_run m K c  W22 _ )
    isplitr; · (iapply (Entails.of_eq (cinv_def m K _)); iexact IaR13)
    isplitr; · (iapply (Entails.of_eq (cinv_def m K _)); iexact IaR33)
    isplitr; · (iapply (Entails.of_eq (cinv_def m K _)); iexact IaR23)
    isplitl [PaR13]; · iexact PaR13
    isplitl [CaR13]; · iexact CaR13
    isplitl [PaR33]; · iexact PaR33
    isplitl [CaR33]; · iexact CaR33
    isplitl [PaR23]; · iexact PaR23
    isplitl [CaR23]; · iexact CaR23
    iexact HO
  iintro %r23 Hpost
  icases Hpost with ⟨PaR13, Ho13, PaR33, Ho33, PaR23, Ho23, ⟨%W23, HO⟩⟩
  try dsimp only
  -- part 24
  icases Hq with ⟨PsS20, Hq⟩
  icases Hq with ⟨PsS10, Hq⟩
  icases Hq with ⟨PsS30, Hq⟩
  rw [wp_bind]
  iapply (wp_wand_r frame (wpE (defs₀ (F := F)) 𝒱₀ (c : Thread nD τ) none) Set.univ)
  isplitl [PsS20 Cs20 PsS10 Cs10 PsS30 Cs30 HO]
  · iapply (part24_run m K c  W23  )
    isplitr; · (iapply (Entails.of_eq (cinv_def m K _)); iexact IsS20)
    isplitr; · (iapply (Entails.of_eq (cinv_def m K _)); iexact IsS10)
    isplitr; · (iapply (Entails.of_eq (cinv_def m K _)); iexact IsS30)
    isplitl [PsS20]; · iexact PsS20
    isplitl [Cs20]; · iexact Cs20
    isplitl [PsS10]; · iexact PsS10
    isplitl [Cs10]; · iexact Cs10
    isplitl [PsS30]; · iexact PsS30
    isplitl [Cs30]; · iexact Cs30
    iexact HO
  iintro %r24 Hpost
  icases Hpost with ⟨PsS20, Hs20, PsS10, Hs10, PsS30, Hs30, ⟨%W24, HO⟩⟩
  try dsimp only
  -- part 25
  icases Hq with ⟨PsS21, Hq⟩
  icases Hq with ⟨PsS11, Hq⟩
  icases Hq with ⟨PsS31, Hq⟩
  icases Hq with ⟨PsS22, Hq⟩
  rw [wp_bind]
  iapply (wp_wand_r frame (wpE (defs₀ (F := F)) 𝒱₀ (c : Thread nD τ) none) Set.univ)
  isplitl [PsS21 Cs21 PsS11 Cs11 PsS31 Cs31 PsS22 Cs22 HO]
  · iapply (part25_run m K c  W24  )
    isplitr; · (iapply (Entails.of_eq (cinv_def m K _)); iexact IsS21)
    isplitr; · (iapply (Entails.of_eq (cinv_def m K _)); iexact IsS11)
    isplitr; · (iapply (Entails.of_eq (cinv_def m K _)); iexact IsS31)
    isplitr; · (iapply (Entails.of_eq (cinv_def m K _)); iexact IsS22)
    isplitl [PsS21]; · iexact PsS21
    isplitl [Cs21]; · iexact Cs21
    isplitl [PsS11]; · iexact PsS11
    isplitl [Cs11]; · iexact Cs11
    isplitl [PsS31]; · iexact PsS31
    isplitl [Cs31]; · iexact Cs31
    isplitl [PsS22]; · iexact PsS22
    isplitl [Cs22]; · iexact Cs22
    iexact HO
  iintro %r25 Hpost
  icases Hpost with ⟨PsS21, Hs21, PsS11, Hs11, PsS31, Hs31, PsS22, Hs22, ⟨%W25, HO⟩⟩
  try dsimp only
  -- part 26
  icases Hq with ⟨PsS12, Hq⟩
  icases Hq with ⟨PsS32, Hq⟩
  icases Hq with ⟨PsS23, Hq⟩
  rw [wp_bind]
  iapply (wp_wand_r frame (wpE (defs₀ (F := F)) 𝒱₀ (c : Thread nD τ) none) Set.univ)
  isplitl [PsS12 Cs12 PsS32 Cs32 PsS23 Cs23 HO]
  · iapply (part26_run m K c  W25  )
    isplitr; · (iapply (Entails.of_eq (cinv_def m K _)); iexact IsS12)
    isplitr; · (iapply (Entails.of_eq (cinv_def m K _)); iexact IsS32)
    isplitr; · (iapply (Entails.of_eq (cinv_def m K _)); iexact IsS23)
    isplitl [PsS12]; · iexact PsS12
    isplitl [Cs12]; · iexact Cs12
    isplitl [PsS32]; · iexact PsS32
    isplitl [Cs32]; · iexact Cs32
    isplitl [PsS23]; · iexact PsS23
    isplitl [Cs23]; · iexact Cs23
    iexact HO
  iintro %r26 Hpost
  icases Hpost with ⟨PsS12, Hs12, PsS32, Hs32, PsS23, Hs23, ⟨%W26, HO⟩⟩
  try dsimp only
  -- part 27
  icases Hq with ⟨PsS13, Hq⟩
  icases Hq with ⟨PsS33, Hq⟩
  icases Hq with ⟨PaS20, Hq⟩
  icases Hq with ⟨PaS10, Hq⟩
  icases Hq with ⟨PaS30, Hq⟩
  rw [wp_bind]
  iapply (wp_wand_r frame (wpE (defs₀ (F := F)) 𝒱₀ (c : Thread nD τ) none) Set.univ)
  isplitl [PsS13 Cs13 PsS33 Cs33 PaS20 Ca20 PaS10 Ca10 PaS30 Ca30 HO]
  · iapply (part27_run m K c  W26  )
    isplitr; · (iapply (Entails.of_eq (cinv_def m K _)); iexact IsS13)
    isplitr; · (iapply (Entails.of_eq (cinv_def m K _)); iexact IsS33)
    isplitr; · (iapply (Entails.of_eq (cinv_def m K _)); iexact IaS20)
    isplitr; · (iapply (Entails.of_eq (cinv_def m K _)); iexact IaS10)
    isplitr; · (iapply (Entails.of_eq (cinv_def m K _)); iexact IaS30)
    isplitl [PsS13]; · iexact PsS13
    isplitl [Cs13]; · iexact Cs13
    isplitl [PsS33]; · iexact PsS33
    isplitl [Cs33]; · iexact Cs33
    isplitl [PaS20]; · iexact PaS20
    isplitl [Ca20]; · iexact Ca20
    isplitl [PaS10]; · iexact PaS10
    isplitl [Ca10]; · iexact Ca10
    isplitl [PaS30]; · iexact PaS30
    isplitl [Ca30]; · iexact Ca30
    iexact HO
  iintro %r27 Hpost
  icases Hpost with ⟨PsS13, Hs13, PsS33, Hs33, PaS20, Ho00_2, PaS10, Ho00_1, PaS30, Ho00_3, ⟨%W27, HO⟩⟩
  try dsimp only
  -- part 28
  icases Hq with ⟨PaS21, Hq⟩
  icases Hq with ⟨PaS11, Hq⟩
  icases Hq with ⟨PaS31, Hq⟩
  icases Hq with ⟨PaS22, Hq⟩
  icases Hq with ⟨PaS12, Hq⟩
  rw [wp_bind]
  iapply (wp_wand_r frame (wpE (defs₀ (F := F)) 𝒱₀ (c : Thread nD τ) none) Set.univ)
  isplitl [PaS21 Ca21 PaS11 Ca11 PaS31 Ca31 PaS22 Ca22 PaS12 Ca12 HO]
  · iapply (part28_run m K c  W27  )
    isplitr; · (iapply (Entails.of_eq (cinv_def m K _)); iexact IaS21)
    isplitr; · (iapply (Entails.of_eq (cinv_def m K _)); iexact IaS11)
    isplitr; · (iapply (Entails.of_eq (cinv_def m K _)); iexact IaS31)
    isplitr; · (iapply (Entails.of_eq (cinv_def m K _)); iexact IaS22)
    isplitr; · (iapply (Entails.of_eq (cinv_def m K _)); iexact IaS12)
    isplitl [PaS21]; · iexact PaS21
    isplitl [Ca21]; · iexact Ca21
    isplitl [PaS11]; · iexact PaS11
    isplitl [Ca11]; · iexact Ca11
    isplitl [PaS31]; · iexact PaS31
    isplitl [Ca31]; · iexact Ca31
    isplitl [PaS22]; · iexact PaS22
    isplitl [Ca22]; · iexact Ca22
    isplitl [PaS12]; · iexact PaS12
    isplitl [Ca12]; · iexact Ca12
    iexact HO
  iintro %r28 Hpost
  icases Hpost with ⟨PaS21, Ho01_2, PaS11, Ho01_1, PaS31, Ho01_3, PaS22, Ho02_2, PaS12, Ho02_1, ⟨%W28, HO⟩⟩
  try dsimp only
  -- the last two waits of the last printed part
  icases Hq with ⟨PaS32, Hq⟩
  icases Hq with ⟨PaS23, Hq⟩
  iapply (wp_wand_r frame (wpE (defs₀ (F := F)) 𝒱₀ (c : Thread nD τ) none) Set.univ)
  isplitl [PaS32 Ca32 PaS23 Ca23 HO]
  · iapply (tail29_run m K c W28)
    isplitr; · (iapply (Entails.of_eq (cinv_def m K _)); iexact IaS32)
    isplitr; · (iapply (Entails.of_eq (cinv_def m K _)); iexact IaS23)
    isplitl [PaS32]; · iexact PaS32
    isplitl [Ca32]; · iexact Ca32
    isplitl [PaS23]; · iexact PaS23
    isplitl [Ca23]; · iexact Ca23
    iexact HO
  iintro %r29 Hpost
  icases Hpost with ⟨PaS32, Ho02_3, PaS23, Ho03_2, ⟨%W29, HO⟩, %h29⟩
  have h29' := h29.symm
  subst h29'
  try dsimp only
  -- the body's last two waits; then every cell closes and the pieces are joined
  icases Hq with ⟨PaS13, Hq⟩
  icases Hq with ⟨PaS33, Hq⟩
  iapply (wp_fupd frame (wpE (defs₀ (F := F)) 𝒱₀ (c : Thread nD τ) none) Set.univ)
  iapply (wp_wand_r frame (wpE (defs₀ (F := F)) 𝒱₀ (c : Thread nD τ) none) Set.univ)
  isplitl [PaS13 Ca13 PaS33 Ca33 HO]
  · iapply (tailBody_run m K c W29)
    isplitr; · (iapply (Entails.of_eq (cinv_def m K _)); iexact IaS13)
    isplitr; · (iapply (Entails.of_eq (cinv_def m K _)); iexact IaS33)
    isplitl [PaS13]; · iexact PaS13
    isplitl [Ca13]; · iexact Ca13
    isplitl [PaS33]; · iexact PaS33
    isplitl [Ca33]; · iexact Ca33
    iexact HO
  iintro %u Hpost
  icases Hpost with ⟨PaS13, Ho03_1, PaS33, Ho03_3, ⟨%W30, HO⟩⟩
  icases Hq with ⟨PsS00, PsS01, PsS02, PsS03, PsR00, PsR01, PsR02, PsR03, PaS00, PaS01, PaS02, PaS03, PaR00, PaR01, PaR02, PaR03⟩
  imod (body_close m K c r0) $$ [Pb PsS00 PsS01 PsS02 PsS03 PsS10 PsS11 PsS12 PsS13 PsS20 PsS21 PsS22 PsS23 PsS30 PsS31 PsS32 PsS33 PsR00 PsR01 PsR02 PsR03 PsR10 PsR11 PsR12 PsR13 PsR20 PsR21 PsR22 PsR23 PsR30 PsR31 PsR32 PsR33 PaS00 PaS01 PaS02 PaS03 PaS10 PaS11 PaS12 PaS13 PaS20 PaS21 PaS22 PaS23 PaS30 PaS31 PaS32 PaS33 PaR00 PaR01 PaR02 PaR03 PaR10 PaR11 PaR12 PaR13 PaR20 PaR21 PaR22 PaR23 PaR30 PaR31 PaR32 PaR33 Ha Hb Hs10 Hs11 Hs12 Hs13 Hs20 Hs21 Hs22 Hs23 Hs30 Hs31 Hs32 Hs33 Hpr Hr10 Hr11 Hr12 Hr13 Hr20 Hr21 Hr22 Hr23 Hr30 Hr31 Hr32 Hr33 Hrr Ho00_2 Ho00_1 Ho00_3 Ho01_2 Ho01_1 Ho01_3 Ho02_2 Ho02_1 Ho02_3 Ho03_2 Ho03_1 Ho03_3 Ho10 Ho11 Ho12 Ho13 Ho20 Ho21 Ho22 Ho23 Ho30 Ho31 Ho32 Ho33 HO] with Hc
  · unfold bodyEnd
    isplitr; · (iapply (Entails.of_eq (cinv_def m K _)); iexact Ib0)
    isplitr; · (iapply (Entails.of_eq (cinv_def m K _)); iexact Ib1)
    isplitr; · (iapply (Entails.of_eq (cinv_def m K _)); iexact Ib2)
    isplitr; · (iapply (Entails.of_eq (cinv_def m K _)); iexact Ib3)
    isplitr; · (iapply (Entails.of_eq (cinv_def m K _)); iexact IzS0)
    isplitr; · (iapply (Entails.of_eq (cinv_def m K _)); iexact IzS1)
    isplitr; · (iapply (Entails.of_eq (cinv_def m K _)); iexact IzS2)
    isplitr; · (iapply (Entails.of_eq (cinv_def m K _)); iexact IzS3)
    isplitr; · (iapply (Entails.of_eq (cinv_def m K _)); iexact IzR0)
    isplitr; · (iapply (Entails.of_eq (cinv_def m K _)); iexact IzR1)
    isplitr; · (iapply (Entails.of_eq (cinv_def m K _)); iexact IzR2)
    isplitr; · (iapply (Entails.of_eq (cinv_def m K _)); iexact IzR3)
    isplitr; · (iapply (Entails.of_eq (cinv_def m K _)); iexact IzA0)
    isplitr; · (iapply (Entails.of_eq (cinv_def m K _)); iexact IzA1)
    isplitr; · (iapply (Entails.of_eq (cinv_def m K _)); iexact IzA2)
    isplitr; · (iapply (Entails.of_eq (cinv_def m K _)); iexact IzA3)
    isplitr; · (iapply (Entails.of_eq (cinv_def m K _)); iexact IzB0)
    isplitr; · (iapply (Entails.of_eq (cinv_def m K _)); iexact IzB1)
    isplitr; · (iapply (Entails.of_eq (cinv_def m K _)); iexact IzB2)
    isplitr; · (iapply (Entails.of_eq (cinv_def m K _)); iexact IzB3)
    isplitr; · (iapply (Entails.of_eq (cinv_def m K _)); iexact IsS10)
    isplitr; · (iapply (Entails.of_eq (cinv_def m K _)); iexact IsS11)
    isplitr; · (iapply (Entails.of_eq (cinv_def m K _)); iexact IsS12)
    isplitr; · (iapply (Entails.of_eq (cinv_def m K _)); iexact IsS13)
    isplitr; · (iapply (Entails.of_eq (cinv_def m K _)); iexact IsS20)
    isplitr; · (iapply (Entails.of_eq (cinv_def m K _)); iexact IsS21)
    isplitr; · (iapply (Entails.of_eq (cinv_def m K _)); iexact IsS22)
    isplitr; · (iapply (Entails.of_eq (cinv_def m K _)); iexact IsS23)
    isplitr; · (iapply (Entails.of_eq (cinv_def m K _)); iexact IsS30)
    isplitr; · (iapply (Entails.of_eq (cinv_def m K _)); iexact IsS31)
    isplitr; · (iapply (Entails.of_eq (cinv_def m K _)); iexact IsS32)
    isplitr; · (iapply (Entails.of_eq (cinv_def m K _)); iexact IsS33)
    isplitr; · (iapply (Entails.of_eq (cinv_def m K _)); iexact IsR10)
    isplitr; · (iapply (Entails.of_eq (cinv_def m K _)); iexact IsR11)
    isplitr; · (iapply (Entails.of_eq (cinv_def m K _)); iexact IsR12)
    isplitr; · (iapply (Entails.of_eq (cinv_def m K _)); iexact IsR13)
    isplitr; · (iapply (Entails.of_eq (cinv_def m K _)); iexact IsR20)
    isplitr; · (iapply (Entails.of_eq (cinv_def m K _)); iexact IsR21)
    isplitr; · (iapply (Entails.of_eq (cinv_def m K _)); iexact IsR22)
    isplitr; · (iapply (Entails.of_eq (cinv_def m K _)); iexact IsR23)
    isplitr; · (iapply (Entails.of_eq (cinv_def m K _)); iexact IsR30)
    isplitr; · (iapply (Entails.of_eq (cinv_def m K _)); iexact IsR31)
    isplitr; · (iapply (Entails.of_eq (cinv_def m K _)); iexact IsR32)
    isplitr; · (iapply (Entails.of_eq (cinv_def m K _)); iexact IsR33)
    isplitr; · (iapply (Entails.of_eq (cinv_def m K _)); iexact IaS10)
    isplitr; · (iapply (Entails.of_eq (cinv_def m K _)); iexact IaS11)
    isplitr; · (iapply (Entails.of_eq (cinv_def m K _)); iexact IaS12)
    isplitr; · (iapply (Entails.of_eq (cinv_def m K _)); iexact IaS13)
    isplitr; · (iapply (Entails.of_eq (cinv_def m K _)); iexact IaS20)
    isplitr; · (iapply (Entails.of_eq (cinv_def m K _)); iexact IaS21)
    isplitr; · (iapply (Entails.of_eq (cinv_def m K _)); iexact IaS22)
    isplitr; · (iapply (Entails.of_eq (cinv_def m K _)); iexact IaS23)
    isplitr; · (iapply (Entails.of_eq (cinv_def m K _)); iexact IaS30)
    isplitr; · (iapply (Entails.of_eq (cinv_def m K _)); iexact IaS31)
    isplitr; · (iapply (Entails.of_eq (cinv_def m K _)); iexact IaS32)
    isplitr; · (iapply (Entails.of_eq (cinv_def m K _)); iexact IaS33)
    isplitr; · (iapply (Entails.of_eq (cinv_def m K _)); iexact IaR10)
    isplitr; · (iapply (Entails.of_eq (cinv_def m K _)); iexact IaR11)
    isplitr; · (iapply (Entails.of_eq (cinv_def m K _)); iexact IaR12)
    isplitr; · (iapply (Entails.of_eq (cinv_def m K _)); iexact IaR13)
    isplitr; · (iapply (Entails.of_eq (cinv_def m K _)); iexact IaR20)
    isplitr; · (iapply (Entails.of_eq (cinv_def m K _)); iexact IaR21)
    isplitr; · (iapply (Entails.of_eq (cinv_def m K _)); iexact IaR22)
    isplitr; · (iapply (Entails.of_eq (cinv_def m K _)); iexact IaR23)
    isplitr; · (iapply (Entails.of_eq (cinv_def m K _)); iexact IaR30)
    isplitr; · (iapply (Entails.of_eq (cinv_def m K _)); iexact IaR31)
    isplitr; · (iapply (Entails.of_eq (cinv_def m K _)); iexact IaR32)
    isplitr; · (iapply (Entails.of_eq (cinv_def m K _)); iexact IaR33)
    isplitr; · (iapply (Entails.of_eq (cinv_def m K _)); iexact IpR10)
    isplitr; · (iapply (Entails.of_eq (cinv_def m K _)); iexact IpR11)
    isplitr; · (iapply (Entails.of_eq (cinv_def m K _)); iexact IpR12)
    isplitr; · (iapply (Entails.of_eq (cinv_def m K _)); iexact IpR13)
    isplitr; · (iapply (Entails.of_eq (cinv_def m K _)); iexact IpR20)
    isplitr; · (iapply (Entails.of_eq (cinv_def m K _)); iexact IpR21)
    isplitr; · (iapply (Entails.of_eq (cinv_def m K _)); iexact IpR22)
    isplitr; · (iapply (Entails.of_eq (cinv_def m K _)); iexact IpR23)
    isplitr; · (iapply (Entails.of_eq (cinv_def m K _)); iexact IpR30)
    isplitr; · (iapply (Entails.of_eq (cinv_def m K _)); iexact IpR31)
    isplitr; · (iapply (Entails.of_eq (cinv_def m K _)); iexact IpR32)
    isplitr; · (iapply (Entails.of_eq (cinv_def m K _)); iexact IpR33)
    isplitr; · (iapply (Entails.of_eq (cinv_def m K _)); iexact IpA10)
    isplitr; · (iapply (Entails.of_eq (cinv_def m K _)); iexact IpA11)
    isplitr; · (iapply (Entails.of_eq (cinv_def m K _)); iexact IpA12)
    isplitr; · (iapply (Entails.of_eq (cinv_def m K _)); iexact IpA13)
    isplitr; · (iapply (Entails.of_eq (cinv_def m K _)); iexact IpA20)
    isplitr; · (iapply (Entails.of_eq (cinv_def m K _)); iexact IpA21)
    isplitr; · (iapply (Entails.of_eq (cinv_def m K _)); iexact IpA22)
    isplitr; · (iapply (Entails.of_eq (cinv_def m K _)); iexact IpA23)
    isplitr; · (iapply (Entails.of_eq (cinv_def m K _)); iexact IpA30)
    isplitr; · (iapply (Entails.of_eq (cinv_def m K _)); iexact IpA31)
    isplitr; · (iapply (Entails.of_eq (cinv_def m K _)); iexact IpA32)
    isplitr; · (iapply (Entails.of_eq (cinv_def m K _)); iexact IpA33)
    isplitr; · iexact Rb1
    isplitr; · iexact Rb2
    isplitr; · iexact Rb3
    isplitr; · iexact RsS10
    isplitr; · iexact RsS11
    isplitr; · iexact RsS12
    isplitr; · iexact RsS13
    isplitr; · iexact RsS20
    isplitr; · iexact RsS21
    isplitr; · iexact RsS22
    isplitr; · iexact RsS23
    isplitr; · iexact RsS30
    isplitr; · iexact RsS31
    isplitr; · iexact RsS32
    isplitr; · iexact RsS33
    isplitr; · iexact RaS10
    isplitr; · iexact RaS11
    isplitr; · iexact RaS12
    isplitr; · iexact RaS13
    isplitr; · iexact RaS20
    isplitr; · iexact RaS21
    isplitr; · iexact RaS22
    isplitr; · iexact RaS23
    isplitr; · iexact RaS30
    isplitr; · iexact RaS31
    isplitr; · iexact RaS32
    isplitr; · iexact RaS33
    isplitr; · iexact RpR10
    isplitr; · iexact RpR11
    isplitr; · iexact RpR12
    isplitr; · iexact RpR13
    isplitr; · iexact RpR20
    isplitr; · iexact RpR21
    isplitr; · iexact RpR22
    isplitr; · iexact RpR23
    isplitr; · iexact RpR30
    isplitr; · iexact RpR31
    isplitr; · iexact RpR32
    isplitr; · iexact RpR33
    isplitr; · iexact RpA10
    isplitr; · iexact RpA11
    isplitr; · iexact RpA12
    isplitr; · iexact RpA13
    isplitr; · iexact RpA20
    isplitr; · iexact RpA21
    isplitr; · iexact RpA22
    isplitr; · iexact RpA23
    isplitr; · iexact RpA30
    isplitr; · iexact RpA31
    isplitr; · iexact RpA32
    isplitr; · iexact RpA33
    isplitr; · iexact Hlev
    isplitl [Pb]; · iexact Pb
    isplitl [PsS00]; · iexact PsS00
    isplitl [PsS01]; · iexact PsS01
    isplitl [PsS02]; · iexact PsS02
    isplitl [PsS03]; · iexact PsS03
    isplitl [PsS10]; · iexact PsS10
    isplitl [PsS11]; · iexact PsS11
    isplitl [PsS12]; · iexact PsS12
    isplitl [PsS13]; · iexact PsS13
    isplitl [PsS20]; · iexact PsS20
    isplitl [PsS21]; · iexact PsS21
    isplitl [PsS22]; · iexact PsS22
    isplitl [PsS23]; · iexact PsS23
    isplitl [PsS30]; · iexact PsS30
    isplitl [PsS31]; · iexact PsS31
    isplitl [PsS32]; · iexact PsS32
    isplitl [PsS33]; · iexact PsS33
    isplitl [PsR00]; · iexact PsR00
    isplitl [PsR01]; · iexact PsR01
    isplitl [PsR02]; · iexact PsR02
    isplitl [PsR03]; · iexact PsR03
    isplitl [PsR10]; · iexact PsR10
    isplitl [PsR11]; · iexact PsR11
    isplitl [PsR12]; · iexact PsR12
    isplitl [PsR13]; · iexact PsR13
    isplitl [PsR20]; · iexact PsR20
    isplitl [PsR21]; · iexact PsR21
    isplitl [PsR22]; · iexact PsR22
    isplitl [PsR23]; · iexact PsR23
    isplitl [PsR30]; · iexact PsR30
    isplitl [PsR31]; · iexact PsR31
    isplitl [PsR32]; · iexact PsR32
    isplitl [PsR33]; · iexact PsR33
    isplitl [PaS00]; · iexact PaS00
    isplitl [PaS01]; · iexact PaS01
    isplitl [PaS02]; · iexact PaS02
    isplitl [PaS03]; · iexact PaS03
    isplitl [PaS10]; · iexact PaS10
    isplitl [PaS11]; · iexact PaS11
    isplitl [PaS12]; · iexact PaS12
    isplitl [PaS13]; · iexact PaS13
    isplitl [PaS20]; · iexact PaS20
    isplitl [PaS21]; · iexact PaS21
    isplitl [PaS22]; · iexact PaS22
    isplitl [PaS23]; · iexact PaS23
    isplitl [PaS30]; · iexact PaS30
    isplitl [PaS31]; · iexact PaS31
    isplitl [PaS32]; · iexact PaS32
    isplitl [PaS33]; · iexact PaS33
    isplitl [PaR00]; · iexact PaR00
    isplitl [PaR01]; · iexact PaR01
    isplitl [PaR02]; · iexact PaR02
    isplitl [PaR03]; · iexact PaR03
    isplitl [PaR10]; · iexact PaR10
    isplitl [PaR11]; · iexact PaR11
    isplitl [PaR12]; · iexact PaR12
    isplitl [PaR13]; · iexact PaR13
    isplitl [PaR20]; · iexact PaR20
    isplitl [PaR21]; · iexact PaR21
    isplitl [PaR22]; · iexact PaR22
    isplitl [PaR23]; · iexact PaR23
    isplitl [PaR30]; · iexact PaR30
    isplitl [PaR31]; · iexact PaR31
    isplitl [PaR32]; · iexact PaR32
    isplitl [PaR33]; · iexact PaR33
    isplitl [Ha]; · iexact Ha
    isplitl [Hb]; · iexact Hb
    isplitl [Hs10]; · iexact Hs10
    isplitl [Hs11]; · iexact Hs11
    isplitl [Hs12]; · iexact Hs12
    isplitl [Hs13]; · iexact Hs13
    isplitl [Hs20]; · iexact Hs20
    isplitl [Hs21]; · iexact Hs21
    isplitl [Hs22]; · iexact Hs22
    isplitl [Hs23]; · iexact Hs23
    isplitl [Hs30]; · iexact Hs30
    isplitl [Hs31]; · iexact Hs31
    isplitl [Hs32]; · iexact Hs32
    isplitl [Hs33]; · iexact Hs33
    isplitl [Hpr]; · iexact Hpr
    isplitl [Hr10]; · iexact Hr10
    isplitl [Hr11]; · iexact Hr11
    isplitl [Hr12]; · iexact Hr12
    isplitl [Hr13]; · iexact Hr13
    isplitl [Hr20]; · iexact Hr20
    isplitl [Hr21]; · iexact Hr21
    isplitl [Hr22]; · iexact Hr22
    isplitl [Hr23]; · iexact Hr23
    isplitl [Hr30]; · iexact Hr30
    isplitl [Hr31]; · iexact Hr31
    isplitl [Hr32]; · iexact Hr32
    isplitl [Hr33]; · iexact Hr33
    isplitl [Hrr]; · iexact Hrr
    isplitl [Ho00_2]; · iexact Ho00_2
    isplitl [Ho00_1]; · iexact Ho00_1
    isplitl [Ho00_3]; · iexact Ho00_3
    isplitl [Ho01_2]; · iexact Ho01_2
    isplitl [Ho01_1]; · iexact Ho01_1
    isplitl [Ho01_3]; · iexact Ho01_3
    isplitl [Ho02_2]; · iexact Ho02_2
    isplitl [Ho02_1]; · iexact Ho02_1
    isplitl [Ho02_3]; · iexact Ho02_3
    isplitl [Ho03_2]; · iexact Ho03_2
    isplitl [Ho03_1]; · iexact Ho03_1
    isplitl [Ho03_3]; · iexact Ho03_3
    isplitl [Ho10]; · iexact Ho10
    isplitl [Ho11]; · iexact Ho11
    isplitl [Ho12]; · iexact Ho12
    isplitl [Ho13]; · iexact Ho13
    isplitl [Ho20]; · iexact Ho20
    isplitl [Ho21]; · iexact Ho21
    isplitl [Ho22]; · iexact Ho22
    isplitl [Ho23]; · iexact Ho23
    isplitl [Ho30]; · iexact Ho30
    isplitl [Ho31]; · iexact Ho31
    isplitl [Ho32]; · iexact Ho32
    isplitl [Ho33]; · iexact Ho33
    (iexists _; iexact HO)
  imodintro
  iapply Hk
  iexact Hc

end Cert.Kernel.Hand
end
-- ==== Proof.KernelLaunchGhost.lean ====
/-
  The launch's ghost state: the cells and duty tokens of the four devices funded at once, each cell's invariant
  allocated, and the tokens dealt from the cells' owners to the devices that pay them.
-/
import proofs.«900554_g7700000000000555_dist_matmul_gelu_kshard_i_m512_n512_k256_v7x_i4_bf16_1_alg».proof.Proof.KernelState

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

theorem csem_injective : Function.Injective csem := by
  intro j j' h
  unfold csem at h
  split at h <;> split at h
  · exact Fin.ext (by omega)
  · cases h
  · cases h
  · have h2 : j.val + 2 = j'.val + 2 := congrArg Fin.val (SemLoc.dma.inj h)
    exact Fin.ext (by omega)

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

theorem csem_jOf0 : ∀ a b : Fin 4, csem (jOf 0 a b) = .dma (semOf cc0_scratch2 a b) := by decide
theorem csem_jOf1 : ∀ a b : Fin 4, csem (jOf 1 a b) = .dma (semOf cc0_scratch3 a b) := by decide
theorem csem_jOf2 : ∀ a b : Fin 4, csem (jOf 2 a b) = .dma (semOf cc0_scratch4 a b) := by decide
theorem csem_jOf3 : ∀ a b : Fin 4, csem (jOf 3 a b) = .dma (semOf cc0_scratch5 a b) := by decide

theorem kcell_bar (c : Dev nD) : kcell (c, 0) = barCell c := rfl
theorem kcell_rsS (c : Dev nD) (a b : Fin 4) : kcell (c, jOf 0 a b) = rsS c a b := by unfold kcell; rw [csem_jOf0]
theorem kcell_rsR (c : Dev nD) (a b : Fin 4) : kcell (c, jOf 1 a b) = rsR c a b := by unfold kcell; rw [csem_jOf1]
theorem kcell_agS (c : Dev nD) (a b : Fin 4) : kcell (c, jOf 2 a b) = agS c a b := by unfold kcell; rw [csem_jOf2]
theorem kcell_agR (c : Dev nD) (a b : Fin 4) : kcell (c, jOf 3 a b) = agR c a b := by unfold kcell; rw [csem_jOf3]

/-! ## The ring: the device `d` places on -/

theorem pl_zero (c : Dev nD) : pl c 0 = c := by revert c; decide

/-- Going `d` places on is a permutation of the four devices. -/
def plE (d : ℕ) : Dev nD ≃ Dev nD where
  toFun c := pl c d
  invFun c := pl c (4 - d % 4)
  left_inv c := by
    apply Fin.ext; show ((c.val + d) % 4 + (4 - d % 4)) % 4 = c.val
    have hc : c.val < 4 := c.isLt; have hd : d % 4 < 4 := Nat.mod_lt _ (by decide); omega
  right_inv c := by
    apply Fin.ext; show ((c.val + (4 - d % 4)) % 4 + d) % 4 = c.val
    have hc : c.val < 4 := c.isLt; have hd : d % 4 < 4 := Nat.mod_lt _ (by decide); omega

/-! ## The duty tokens, indexed so that a token's owner and its payer differ by a rotation only -/

/-- A device's tokens: the three entry signals; per offset and piece the four cells of the two copies. -/
abbrev TokIx : Type := Fin 3 ⊕ ((Fin 3 × Fin 4) × Fin 4)

/-- The cell a token is minted on (numbered on its owner): a receive cell is listed under the offset of the device that
    pays it, so at row `4 − offset`. -/
def tokCell : TokIx → Fin 65
  | .inl _ => 0
  | .inr (x, 0) => jOf 0 x.1.succ x.2
  | .inr (x, 1) => jOf 1 x.1.rev.succ x.2
  | .inr (x, 2) => jOf 2 x.1.succ x.2
  | .inr (x, 3) => jOf 3 x.1.rev.succ x.2
/-- its duty, -/
def tokDuty : TokIx → Fin 4
  | .inl d => d.succ
  | .inr _ => 0
/-- and how many places before the owner its payer sits. -/
def tokOff : TokIx → ℕ
  | .inl d => d.val + 1
  | .inr (_, 0) => 0
  | .inr (x, 1) => x.1.val + 1
  | .inr (_, 2) => 0
  | .inr (x, 3) => x.1.val + 1

theorem jd_injective : Function.Injective fun t : TokIx => (tokCell t, tokDuty t) := by decide

abbrev tokOf (ct : Dev nD × TokIx) : GSem nD τ sig × ℕ × Fin 4 := (kcell (ct.1, tokCell ct.2), 0, tokDuty ct.2)

theorem tokOf_injective : Function.Injective (tokOf : Dev nD × TokIx → GSem nD τ sig × ℕ × Fin 4) := by
  rintro ⟨c, t⟩ ⟨c', t'⟩ h
  have h1 : (c, tokCell t) = (c', tokCell t') := kcell_injective (congrArg (fun x : GSem nD τ sig × ℕ × Fin 4 => x.1) h)
  have h2 : tokDuty t = tokDuty t' := congrArg (fun x : GSem nD τ sig × ℕ × Fin 4 => x.2.2) h
  have h3 : t = t' := jd_injective (Prod.ext (congrArg Prod.snd h1) h2)
  have hc : c = c' := congrArg Prod.fst h1
  rw [hc, h3]

def ringToks : Finset (GSem nD τ sig × ℕ × Fin 4) := Finset.univ.map ⟨tokOf, tokOf_injective⟩

/-- The tokens minted on device `c`'s cells, -/
def toks (c : Dev nD) : sProp 𝕄 := bigSep Finset.univ fun t : TokIx => dutyTok ER (kcell (c, tokCell t)) 0 (tokDuty t)
/-- and those device `c` pays with: each minted on the device `tokOff` places on. -/
def payToks' (c : Dev nD) : sProp 𝕄 := bigSep Finset.univ fun t : TokIx => dutyTok ER (kcell (pl c (tokOff t), tokCell t)) 0 (tokDuty t)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem payToks'_eq (c : Dev nD) : (payToks' c : sProp 𝕄) = payToks c := by
  unfold payToks' payToks
  rw [bigSep_univ_sum, bigSep_fin3, bigSep_univ_prod]
  congr 1
  refine bigSep_congr fun x _ => ?_
  rw [bigSep_fin4]
  show iprop(dutyTok ER (kcell (pl c 0, jOf 0 x.1.succ x.2)) 0 0 ∗ dutyTok ER (kcell (pl c (x.1.val + 1), jOf 1 x.1.rev.succ x.2)) 0 0
    ∗ dutyTok ER (kcell (pl c 0, jOf 2 x.1.succ x.2)) 0 0 ∗ dutyTok ER (kcell (pl c (x.1.val + 1), jOf 3 x.1.rev.succ x.2)) 0 0) = _
  rw [pl_zero, kcell_rsS, kcell_rsR, kcell_agS, kcell_agR]

omit [FloatOps F] in
/-- The tokens dealt around the ring: each from its cell's owner to the device that many places before it. -/
theorem toks_around : (bigSep Finset.univ fun c : Dev nD => (toks c : sProp 𝕄)) ⊢ bigSep Finset.univ fun c : Dev nD => payToks c := by
  refine Entails.of_eq ?_
  rw [bigSep_congr (s := Finset.univ) fun (c : Dev nD) _ => (payToks'_eq (F := F) c).symm]
  unfold toks payToks'
  rw [bigSep_univ_comm, bigSep_univ_comm (fun (c : Dev nD) (t : TokIx) => (dutyTok ER (kcell (pl c (tokOff t), tokCell t)) 0 (tokDuty t) : sProp 𝕄))]
  exact bigSep_congr fun t _ => bigSep_univ_equiv (plE (tokOff t)) (fun c : Dev nD => (dutyTok ER (kcell (c, tokCell t)) 0 (tokDuty t) : sProp 𝕄))

/-! ## Funding: the launch element, and what it deals each device -/

def u₀ : UU :=
  (initOf (Pipeline.cells cfgs cellOf_inj) (Pipeline.launchToks cfgs cellOf_inj), initOf ringCells ringToks)

/-- What the launch element deals device `c`: its cells' round states, its positions and the reached-marks, the tokens
    minted on its cells. -/
def G (c : Dev nD) : sProp 𝕄 :=
  iprop((bigSep Finset.univ fun k : Fin 65 => roundState ER (Rd m) (kcell (c, k)) 0)
    ∗ (bigSep Finset.univ fun k : Fin 65 => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero: the sixty-four scratch ones the kernel's own, the barrier's the runtime's -/

abbrev osem : Fin 64 → SemLoc sig := fun j => csem j.succ

theorem bigSep_fin_succ {n : ℕ} (Φ : Fin (n + 1) → sProp 𝕄) : bigSep Finset.univ Φ = iprop(Φ 0 ∗ bigSep Finset.univ fun j : Fin n => Φ j.succ) := by
  rw [Fin.univ_succ, Finset.cons_eq_insert, bigSep_insert (by simp [Fin.succ_ne_zero]), bigSep_map]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [unscopedSems0_eq, bigSep_fin_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 65 → ℕ) (c : Dev nD) : iprop(records m K ∗ positions c ∗ payToks c) ⊢ G' m c := by
  unfold G' ghost
  iintro H; iexists K; iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 65 => iprop(∃ κ : ℕ, cellInv ER (Rd m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.Hand.glob' depends on axioms: [propext, Classical.choice, Quot.sound] -/
#guard_msgs in #print axioms glob

end Cert.Kernel.Hand

end
-- ==== Proof.KernelBodyOpenA.lean ====
/-
  From what the launch hands a device to the table of everything it holds: the invariants and reached rounds of the cells it uses, read off the launch's records.
-/
import proofs.«900554_g7700000000000555_dist_matmul_gelu_kshard_i_m512_n512_k256_v7x_i4_bf16_1_alg».proof.Proof.KernelBodyDefs
import proofs.«900554_g7700000000000555_dist_matmul_gelu_kshard_i_m512_n512_k256_v7x_i4_bf16_1_alg».proof.Proof.KernelLaunchGhost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chains -/

/-- A chain over two lists laid end to end is the two chains. -/
theorem bigSepL_id_append : ∀ (l1 l2 : List (sProp 𝕄)), bigSepL (l1 ++ l2) id = iprop(bigSepL l1 id ∗ bigSepL l2 id)
  | [], l2 => by
    rw [List.nil_append, bigSepL_nil]
    exact (BI.equiv_iff.mp ⟨(BIClass.emp_sep (P := bigSepL l2 id)).1, (BIClass.emp_sep (P := bigSepL l2 id)).2⟩).symm
  | P :: l1, l2 => by
    rw [List.cons_append, bigSepL_cons, bigSepL_cons, bigSepL_id_append l1 l2]
    exact (BI.equiv_iff.mp ⟨(Laws.sep_assoc (P := id P) (Q := bigSepL l1 id) (R := bigSepL l2 id)).1, (Laws.sep_assoc (P := id P) (Q := bigSepL l1 id) (R := bigSepL l2 id)).2⟩).symm

/-- `P` gives every assertion on the list. -/
def allEnt (P : sProp 𝕄) : List (sProp 𝕄) → Prop
  | [] => True
  | Q :: L => (P ⊢ Q) ∧ allEnt P L

/-- A persistent assertion that gives each link of a chain gives the chain. -/
theorem persistent_chain (P : sProp 𝕄) [BI.Persistent P] : ∀ L : List (sProp 𝕄), allEnt (F := F) P L → P ⊢ bigSepL L id
  | [], _ => by
    rw [bigSepL_nil]
    iintro -
    iempintro
  | Q :: L, h => by
    rw [bigSepL_cons]
    have h1 : P ⊢ Q := h.1
    have h2 := persistent_chain P L h.2
    show P ⊢ iprop(Q ∗ bigSepL L id)
    iintro #H
    isplitl []
    · iapply h1; iexact H
    · iapply h2; iexact H

/-! ## One name function for all the cells -/

/-- A cell's number among its device's sixty-five: the inverse of `csem`. -/
def jInv : SemLoc sig → Fin 65
  | .reg _ => 0
  | .dma q => if h : 3 ≤ q.val then ⟨q.val - 2, by have h67 : q.val < 67 := q.isLt; omega⟩ else 0

theorem jInv_csem (j : Fin 65) : jInv (csem j) = j := by
  unfold csem
  split
  · rename_i h0
    exact Fin.ext h0.symm
  · rename_i h0
    show (if h : 3 ≤ j.val + 2 then (⟨j.val + 2 - 2, _⟩ : Fin 65) else 0) = j
    rw [dif_pos (by omega)]
    exact Fin.ext (by show j.val + 2 - 2 = j.val; omega)

/-- The launch's names, as one function of the cell. -/
def Kof (K : Dev nD × Fin 65 → ℕ) : GSem nD τ sig → ℕ := fun g => K (g.1.1, jInv g.2)

theorem Kof_kcell (K : Dev nD × Fin 65 → ℕ) (ck : Dev nD × Fin 65) : Kof K (kcell ck) = K ck := by
  show K (ck.1, jInv (csem ck.2)) = K ck
  rw [jInv_csem]

/-! ## A cell's invariant and its reached round, off the records -/

theorem inv_kcell (K : Dev nD × Fin 65 → ℕ) (ck : Dev nD × Fin 65) :
    records m K ⊢ cellInv ER (Rd m) (Kof K (kcell ck)) (kcell ck) := by
  rw [Kof_kcell]
  unfold records
  have hb : (bigSep Finset.univ fun ck : Dev nD × Fin 65 => cellInv ER (Rd m) (K ck) (kcell ck)) ⊢ cellInv ER (Rd m) (K ck) (kcell ck) :=
    bigSep_elim (Finset.mem_univ ck)
  iintro ⟨H, -⟩
  iapply hb
  iexact H

theorem reach_kcell (K : Dev nD × Fin 65 → ℕ) (ck : Dev nD × Fin 65) :
    records m K ⊢ reached ER (kcell ck) 0 := by
  unfold records
  have hb : (bigSep Finset.univ fun ck : Dev nD × Fin 65 => (reached ER (kcell ck) 0 : sProp 𝕄)) ⊢ reached ER (kcell ck) 0 :=
    bigSep_elim (Finset.mem_univ ck)
  iintro ⟨-, H⟩
  iapply hb
  iexact H

theorem inv_bar (K : Dev nD × Fin 65 → ℕ) (x : Dev nD) : records m K ⊢ cellInv ER (Rd m) (Kof K (barCell x)) (barCell x) := by
  have h := inv_kcell m K (x, 0); rw [kcell_bar] at h; exact h
theorem inv_rsS (K : Dev nD × Fin 65 → ℕ) (x : Dev nD) (a b : Fin 4) : records m K ⊢ cellInv ER (Rd m) (Kof K (rsS x a b)) (rsS x a b) := by
  have h := inv_kcell m K (x, jOf 0 a b); rw [kcell_rsS] at h; exact h
theorem inv_rsR (K : Dev nD × Fin 65 → ℕ) (x : Dev nD) (a b : Fin 4) : records m K ⊢ cellInv ER (Rd m) (Kof K (rsR x a b)) (rsR x a b) := by
  have h := inv_kcell m K (x, jOf 1 a b); rw [kcell_rsR] at h; exact h
theorem inv_agS (K : Dev nD × Fin 65 → ℕ) (x : Dev nD) (a b : Fin 4) : records m K ⊢ cellInv ER (Rd m) (Kof K (agS x a b)) (agS x a b) := by
  have h := inv_kcell m K (x, jOf 2 a b); rw [kcell_agS] at h; exact h
theorem inv_agR (K : Dev nD × Fin 65 → ℕ) (x : Dev nD) (a b : Fin 4) : records m K ⊢ cellInv ER (Rd m) (Kof K (agR x a b)) (agR x a b) := by
  have h := inv_kcell m K (x, jOf 3 a b); rw [kcell_agR] at h; exact h

theorem reach_bar (K : Dev nD × Fin 65 → ℕ) (x : Dev nD) : records m K ⊢ reached ER (barCell x) 0 := by
  have h := reach_kcell m K (x, 0); rw [kcell_bar] at h; exact h
theorem reach_rsS (K : Dev nD × Fin 65 → ℕ) (x : Dev nD) (a b : Fin 4) : records m K ⊢ reached ER (rsS x a b) 0 := by
  have h := reach_kcell m K (x, jOf 0 a b); rw [kcell_rsS] at h; exact h
theorem reach_rsR (K : Dev nD × Fin 65 → ℕ) (x : Dev nD) (a b : Fin 4) : records m K ⊢ reached ER (rsR x a b) 0 := by
  have h := reach_kcell m K (x, jOf 1 a b); rw [kcell_rsR] at h; exact h
theorem reach_agS (K : Dev nD × Fin 65 → ℕ) (x : Dev nD) (a b : Fin 4) : records m K ⊢ reached ER (agS x a b) 0 := by
  have h := reach_kcell m K (x, jOf 2 a b); rw [kcell_agS] at h; exact h
theorem reach_agR (K : Dev nD × Fin 65 → ℕ) (x : Dev nD) (a b : Fin 4) : records m K ⊢ reached ER (agR x a b) 0 := by
  have h := reach_kcell m K (x, jOf 3 a b); rw [kcell_agR] at h; exact h

/-! ## The invariants and the reached rounds device `c` uses -/

/-- The invariants of the device's own cells and of the cells it pays, at the names `K`. -/
def invList (K : GSem nD τ sig → ℕ) (c : Dev nD) : List (sProp 𝕄) :=
  [cinv m K (barCell c),
   cinv m K (barCell (pl c 1)),
   cinv m K (barCell (pl c 2)),
   cinv m K (barCell (pl c 3)),
   cinv m K (rsS c 0 0),
   cinv m K (rsS c 0 1),
   cinv m K (rsS c 0 2),
   cinv m K (rsS c 0 3),
   cinv m K (rsR c 0 0),
   cinv m K (rsR c 0 1),
   cinv m K (rsR c 0 2),
   cinv m K (rsR c 0 3),
   cinv m K (agS c 0 0),
   cinv m K (agS c 0 1),
   cinv m K (agS c 0 2),
   cinv m K (agS c 0 3),
   cinv m K (agR c 0 0),
   cinv m K (agR c 0 1),
   cinv m K (agR c 0 2),
   cinv m K (agR c 0 3),
   cinv m K (rsS c 1 0),
   cinv m K (rsS c 1 1),
   cinv m K (rsS c 1 2),
   cinv m K (rsS c 1 3),
   cinv m K (rsS c 2 0),
   cinv m K (rsS c 2 1),
   cinv m K (rsS c 2 2),
   cinv m K (rsS c 2 3),
   cinv m K (rsS c 3 0),
   cinv m K (rsS c 3 1),
   cinv m K (rsS c 3 2),
   cinv m K (rsS c 3 3),
   cinv m K (rsR c 1 0),
   cinv m K (rsR c 1 1),
   cinv m K (rsR c 1 2),
   cinv m K (rsR c 1 3),
   cinv m K (rsR c 2 0),
   cinv m K (rsR c 2 1),
   cinv m K (rsR c 2 2),
   cinv m K (rsR c 2 3),
   cinv m K (rsR c 3 0),
   cinv m K (rsR c 3 1),
   cinv m K (rsR c 3 2),
   cinv m K (rsR c 3 3),
   cinv m K (agS c 1 0),
   cinv m K (agS c 1 1),
   cinv m K (agS c 1 2),
   cinv m K (agS c 1 3),
   cinv m K (agS c 2 0),
   cinv m K (agS c 2 1),
   cinv m K (agS c 2 2),
   cinv m K (agS c 2 3),
   cinv m K (agS c 3 0),
   cinv m K (agS c 3 1),
   cinv m K (agS c 3 2),
   cinv m K (agS c 3 3),
   cinv m K (agR c 1 0),
   cinv m K (agR c 1 1),
   cinv m K (agR c 1 2),
   cinv m K (agR c 1 3),
   cinv m K (agR c 2 0),
   cinv m K (agR c 2 1),
   cinv m K (agR c 2 2),
   cinv m K (agR c 2 3),
   cinv m K (agR c 3 0),
   cinv m K (agR c 3 1),
   cinv m K (agR c 3 2),
   cinv m K (agR c 3 3),
   cinv m K (rsR (pl c 1) 3 0),
   cinv m K (rsR (pl c 1) 3 1),
   cinv m K (rsR (pl c 1) 3 2),
   cinv m K (rsR (pl c 1) 3 3),
   cinv m K (rsR (pl c 2) 2 0),
   cinv m K (rsR (pl c 2) 2 1),
   cinv m K (rsR (pl c 2) 2 2),
   cinv m K (rsR (pl c 2) 2 3),
   cinv m K (rsR (pl c 3) 1 0),
   cinv m K (rsR (pl c 3) 1 1),
   cinv m K (rsR (pl c 3) 1 2),
   cinv m K (rsR (pl c 3) 1 3),
   cinv m K (agR (pl c 1) 3 0),
   cinv m K (agR (pl c 1) 3 1),
   cinv m K (agR (pl c 1) 3 2),
   cinv m K (agR (pl c 1) 3 3),
   cinv m K (agR (pl c 2) 2 0),
   cinv m K (agR (pl c 2) 2 1),
   cinv m K (agR (pl c 2) 2 2),
   cinv m K (agR (pl c 2) 2 3),
   cinv m K (agR (pl c 3) 1 0),
   cinv m K (agR (pl c 3) 1 1),
   cinv m K (agR (pl c 3) 1 2),
   cinv m K (agR (pl c 3) 1 3)]

/-- The reached rounds of the cells it pays. -/
def reachList (c : Dev nD) : List (sProp 𝕄) :=
  [reached ER (barCell (pl c 1)) 0,
   reached ER (barCell (pl c 2)) 0,
   reached ER (barCell (pl c 3)) 0,
   reached ER (rsS c 1 0) 0,
   reached ER (rsS c 1 1) 0,
   reached ER (rsS c 1 2) 0,
   reached ER (rsS c 1 3) 0,
   reached ER (rsS c 2 0) 0,
   reached ER (rsS c 2 1) 0,
   reached ER (rsS c 2 2) 0,
   reached ER (rsS c 2 3) 0,
   reached ER (rsS c 3 0) 0,
   reached ER (rsS c 3 1) 0,
   reached ER (rsS c 3 2) 0,
   reached ER (rsS c 3 3) 0,
   reached ER (agS c 1 0) 0,
   reached ER (agS c 1 1) 0,
   reached ER (agS c 1 2) 0,
   reached ER (agS c 1 3) 0,
   reached ER (agS c 2 0) 0,
   reached ER (agS c 2 1) 0,
   reached ER (agS c 2 2) 0,
   reached ER (agS c 2 3) 0,
   reached ER (agS c 3 0) 0,
   reached ER (agS c 3 1) 0,
   reached ER (agS c 3 2) 0,
   reached ER (agS c 3 3) 0,
   reached ER (rsR (pl c 1) 3 0) 0,
   reached ER (rsR (pl c 1) 3 1) 0,
   reached ER (rsR (pl c 1) 3 2) 0,
   reached ER (rsR (pl c 1) 3 3) 0,
   reached ER (rsR (pl c 2) 2 0) 0,
   reached ER (rsR (pl c 2) 2 1) 0,
   reached ER (rsR (pl c 2) 2 2) 0,
   reached ER (rsR (pl c 2) 2 3) 0,
   reached ER (rsR (pl c 3) 1 0) 0,
   reached ER (rsR (pl c 3) 1 1) 0,
   reached ER (rsR (pl c 3) 1 2) 0,
   reached ER (rsR (pl c 3) 1 3) 0,
   reached ER (agR (pl c 1) 3 0) 0,
   reached ER (agR (pl c 1) 3 1) 0,
   reached ER (agR (pl c 1) 3 2) 0,
   reached ER (agR (pl c 1) 3 3) 0,
   reached ER (agR (pl c 2) 2 0) 0,
   reached ER (agR (pl c 2) 2 1) 0,
   reached ER (agR (pl c 2) 2 2) 0,
   reached ER (agR (pl c 2) 2 3) 0,
   reached ER (agR (pl c 3) 1 0) 0,
   reached ER (agR (pl c 3) 1 1) 0,
   reached ER (agR (pl c 3) 1 2) 0,
   reached ER (agR (pl c 3) 1 3) 0]

theorem open_inv (K : Dev nD × Fin 65 → ℕ) (c : Dev nD) : records m K ⊢ bigSepL (invList m (Kof K) c) id :=
  persistent_chain (records m K) (invList m (Kof K) c)
    ⟨inv_bar m K c,
     inv_bar m K (pl c 1),
     inv_bar m K (pl c 2),
     inv_bar m K (pl c 3),
     inv_rsS m K c 0 0,
     inv_rsS m K c 0 1,
     inv_rsS m K c 0 2,
     inv_rsS m K c 0 3,
     inv_rsR m K c 0 0,
     inv_rsR m K c 0 1,
     inv_rsR m K c 0 2,
     inv_rsR m K c 0 3,
     inv_agS m K c 0 0,
     inv_agS m K c 0 1,
     inv_agS m K c 0 2,
     inv_agS m K c 0 3,
     inv_agR m K c 0 0,
     inv_agR m K c 0 1,
     inv_agR m K c 0 2,
     inv_agR m K c 0 3,
     inv_rsS m K c 1 0,
     inv_rsS m K c 1 1,
     inv_rsS m K c 1 2,
     inv_rsS m K c 1 3,
     inv_rsS m K c 2 0,
     inv_rsS m K c 2 1,
     inv_rsS m K c 2 2,
     inv_rsS m K c 2 3,
     inv_rsS m K c 3 0,
     inv_rsS m K c 3 1,
     inv_rsS m K c 3 2,
     inv_rsS m K c 3 3,
     inv_rsR m K c 1 0,
     inv_rsR m K c 1 1,
     inv_rsR m K c 1 2,
     inv_rsR m K c 1 3,
     inv_rsR m K c 2 0,
     inv_rsR m K c 2 1,
     inv_rsR m K c 2 2,
     inv_rsR m K c 2 3,
     inv_rsR m K c 3 0,
     inv_rsR m K c 3 1,
     inv_rsR m K c 3 2,
     inv_rsR m K c 3 3,
     inv_agS m K c 1 0,
     inv_agS m K c 1 1,
     inv_agS m K c 1 2,
     inv_agS m K c 1 3,
     inv_agS m K c 2 0,
     inv_agS m K c 2 1,
     inv_agS m K c 2 2,
     inv_agS m K c 2 3,
     inv_agS m K c 3 0,
     inv_agS m K c 3 1,
     inv_agS m K c 3 2,
     inv_agS m K c 3 3,
     inv_agR m K c 1 0,
     inv_agR m K c 1 1,
     inv_agR m K c 1 2,
     inv_agR m K c 1 3,
     inv_agR m K c 2 0,
     inv_agR m K c 2 1,
     inv_agR m K c 2 2,
     inv_agR m K c 2 3,
     inv_agR m K c 3 0,
     inv_agR m K c 3 1,
     inv_agR m K c 3 2,
     inv_agR m K c 3 3,
     inv_rsR m K (pl c 1) 3 0,
     inv_rsR m K (pl c 1) 3 1,
     inv_rsR m K (pl c 1) 3 2,
     inv_rsR m K (pl c 1) 3 3,
     inv_rsR m K (pl c 2) 2 0,
     inv_rsR m K (pl c 2) 2 1,
     inv_rsR m K (pl c 2) 2 2,
     inv_rsR m K (pl c 2) 2 3,
     inv_rsR m K (pl c 3) 1 0,
     inv_rsR m K (pl c 3) 1 1,
     inv_rsR m K (pl c 3) 1 2,
     inv_rsR m K (pl c 3) 1 3,
     inv_agR m K (pl c 1) 3 0,
     inv_agR m K (pl c 1) 3 1,
     inv_agR m K (pl c 1) 3 2,
     inv_agR m K (pl c 1) 3 3,
     inv_agR m K (pl c 2) 2 0,
     inv_agR m K (pl c 2) 2 1,
     inv_agR m K (pl c 2) 2 2,
     inv_agR m K (pl c 2) 2 3,
     inv_agR m K (pl c 3) 1 0,
     inv_agR m K (pl c 3) 1 1,
     inv_agR m K (pl c 3) 1 2,
     inv_agR m K (pl c 3) 1 3, trivial⟩

theorem open_reach (K : Dev nD × Fin 65 → ℕ) (c : Dev nD) : records m K ⊢ bigSepL (reachList (F := F) c) id :=
  persistent_chain (records m K) (reachList (F := F) c)
    ⟨reach_bar m K (pl c 1),
     reach_bar m K (pl c 2),
     reach_bar m K (pl c 3),
     reach_rsS m K c 1 0,
     reach_rsS m K c 1 1,
     reach_rsS m K c 1 2,
     reach_rsS m K c 1 3,
     reach_rsS m K c 2 0,
     reach_rsS m K c 2 1,
     reach_rsS m K c 2 2,
     reach_rsS m K c 2 3,
     reach_rsS m K c 3 0,
     reach_rsS m K c 3 1,
     reach_rsS m K c 3 2,
     reach_rsS m K c 3 3,
     reach_agS m K c 1 0,
     reach_agS m K c 1 1,
     reach_agS m K c 1 2,
     reach_agS m K c 1 3,
     reach_agS m K c 2 0,
     reach_agS m K c 2 1,
     reach_agS m K c 2 2,
     reach_agS m K c 2 3,
     reach_agS m K c 3 0,
     reach_agS m K c 3 1,
     reach_agS m K c 3 2,
     reach_agS m K c 3 3,
     reach_rsR m K (pl c 1) 3 0,
     reach_rsR m K (pl c 1) 3 1,
     reach_rsR m K (pl c 1) 3 2,
     reach_rsR m K (pl c 1) 3 3,
     reach_rsR m K (pl c 2) 2 0,
     reach_rsR m K (pl c 2) 2 1,
     reach_rsR m K (pl c 2) 2 2,
     reach_rsR m K (pl c 2) 2 3,
     reach_rsR m K (pl c 3) 1 0,
     reach_rsR m K (pl c 3) 1 1,
     reach_rsR m K (pl c 3) 1 2,
     reach_rsR m K (pl c 3) 1 3,
     reach_agR m K (pl c 1) 3 0,
     reach_agR m K (pl c 1) 3 1,
     reach_agR m K (pl c 1) 3 2,
     reach_agR m K (pl c 1) 3 3,
     reach_agR m K (pl c 2) 2 0,
     reach_agR m K (pl c 2) 2 1,
     reach_agR m K (pl c 2) 2 2,
     reach_agR m K (pl c 2) 2 3,
     reach_agR m K (pl c 3) 1 0,
     reach_agR m K (pl c 3) 1 1,
     reach_agR m K (pl c 3) 1 2,
     reach_agR m K (pl c 3) 1 3, trivial⟩

end Cert.Kernel.Hand

end
-- ==== Proof.KernelBodyOpenB.lean ====
/-
  From what the launch hands a device to the table of everything it holds: its tokens, its positions and its credits, one line each.
-/
import proofs.«900554_g7700000000000555_dist_matmul_gelu_kshard_i_m512_n512_k256_v7x_i4_bf16_1_alg».proof.Proof.KernelBodyDefs
import proofs.«900554_g7700000000000555_dist_matmul_gelu_kshard_i_m512_n512_k256_v7x_i4_bf16_1_alg».proof.Proof.KernelLaunchGhost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The twelve (offset, piece) pairs, and the sixty-five cells, listed -/

def pairs34 : List (Fin 3 × Fin 4) := [((0 : Fin 3), (0 : Fin 4)), ((0 : Fin 3), (1 : Fin 4)), ((0 : Fin 3), (2 : Fin 4)), ((0 : Fin 3), (3 : Fin 4)), ((1 : Fin 3), (0 : Fin 4)), ((1 : Fin 3), (1 : Fin 4)), ((1 : Fin 3), (2 : Fin 4)), ((1 : Fin 3), (3 : Fin 4)), ((2 : Fin 3), (0 : Fin 4)), ((2 : Fin 3), (1 : Fin 4)), ((2 : Fin 3), (2 : Fin 4)), ((2 : Fin 3), (3 : Fin 4))]
theorem pairs34_univ : (Finset.univ : Finset (Fin 3 × Fin 4)) = pairs34.toFinset := by decide
theorem pairs34_nodup : pairs34.Nodup := by decide

def cells65 : List (Fin 65) := [(0 : Fin 65), jOf 0 0 0, jOf 0 0 1, jOf 0 0 2, jOf 0 0 3, jOf 0 1 0, jOf 0 1 1, jOf 0 1 2, jOf 0 1 3, jOf 0 2 0, jOf 0 2 1, jOf 0 2 2, jOf 0 2 3, jOf 0 3 0, jOf 0 3 1, jOf 0 3 2, jOf 0 3 3, jOf 1 0 0, jOf 1 0 1, jOf 1 0 2, jOf 1 0 3, jOf 1 1 0, jOf 1 1 1, jOf 1 1 2, jOf 1 1 3, jOf 1 2 0, jOf 1 2 1, jOf 1 2 2, jOf 1 2 3, jOf 1 3 0, jOf 1 3 1, jOf 1 3 2, jOf 1 3 3, jOf 2 0 0, jOf 2 0 1, jOf 2 0 2, jOf 2 0 3, jOf 2 1 0, jOf 2 1 1, jOf 2 1 2, jOf 2 1 3, jOf 2 2 0, jOf 2 2 1, jOf 2 2 2, jOf 2 2 3, jOf 2 3 0, jOf 2 3 1, jOf 2 3 2, jOf 2 3 3, jOf 3 0 0, jOf 3 0 1, jOf 3 0 2, jOf 3 0 3, jOf 3 1 0, jOf 3 1 1, jOf 3 1 2, jOf 3 1 3, jOf 3 2 0, jOf 3 2 1, jOf 3 2 2, jOf 3 2 3, jOf 3 3 0, jOf 3 3 1, jOf 3 3 2, jOf 3 3 3]
theorem cells65_univ : (Finset.univ : Finset (Fin 65)) = cells65.toFinset := by decide +kernel
theorem cells65_nodup : cells65.Nodup := by decide +kernel

/-! ## The tokens -/

def tokList (c : Dev nD) : List (sProp 𝕄) :=
  [dutyTok ER (barCell (pl c 1)) 0 1,
   dutyTok ER (barCell (pl c 2)) 0 2,
   dutyTok ER (barCell (pl c 3)) 0 3,
   dutyTok ER (rsS c 1 0) 0 0,
   dutyTok ER (rsR (pl c 1) 3 0) 0 0,
   dutyTok ER (agS c 1 0) 0 0,
   dutyTok ER (agR (pl c 1) 3 0) 0 0,
   dutyTok ER (rsS c 1 1) 0 0,
   dutyTok ER (rsR (pl c 1) 3 1) 0 0,
   dutyTok ER (agS c 1 1) 0 0,
   dutyTok ER (agR (pl c 1) 3 1) 0 0,
   dutyTok ER (rsS c 1 2) 0 0,
   dutyTok ER (rsR (pl c 1) 3 2) 0 0,
   dutyTok ER (agS c 1 2) 0 0,
   dutyTok ER (agR (pl c 1) 3 2) 0 0,
   dutyTok ER (rsS c 1 3) 0 0,
   dutyTok ER (rsR (pl c 1) 3 3) 0 0,
   dutyTok ER (agS c 1 3) 0 0,
   dutyTok ER (agR (pl c 1) 3 3) 0 0,
   dutyTok ER (rsS c 2 0) 0 0,
   dutyTok ER (rsR (pl c 2) 2 0) 0 0,
   dutyTok ER (agS c 2 0) 0 0,
   dutyTok ER (agR (pl c 2) 2 0) 0 0,
   dutyTok ER (rsS c 2 1) 0 0,
   dutyTok ER (rsR (pl c 2) 2 1) 0 0,
   dutyTok ER (agS c 2 1) 0 0,
   dutyTok ER (agR (pl c 2) 2 1) 0 0,
   dutyTok ER (rsS c 2 2) 0 0,
   dutyTok ER (rsR (pl c 2) 2 2) 0 0,
   dutyTok ER (agS c 2 2) 0 0,
   dutyTok ER (agR (pl c 2) 2 2) 0 0,
   dutyTok ER (rsS c 2 3) 0 0,
   dutyTok ER (rsR (pl c 2) 2 3) 0 0,
   dutyTok ER (agS c 2 3) 0 0,
   dutyTok ER (agR (pl c 2) 2 3) 0 0,
   dutyTok ER (rsS c 3 0) 0 0,
   dutyTok ER (rsR (pl c 3) 1 0) 0 0,
   dutyTok ER (agS c 3 0) 0 0,
   dutyTok ER (agR (pl c 3) 1 0) 0 0,
   dutyTok ER (rsS c 3 1) 0 0,
   dutyTok ER (rsR (pl c 3) 1 1) 0 0,
   dutyTok ER (agS c 3 1) 0 0,
   dutyTok ER (agR (pl c 3) 1 1) 0 0,
   dutyTok ER (rsS c 3 2) 0 0,
   dutyTok ER (rsR (pl c 3) 1 2) 0 0,
   dutyTok ER (agS c 3 2) 0 0,
   dutyTok ER (agR (pl c 3) 1 2) 0 0,
   dutyTok ER (rsS c 3 3) 0 0,
   dutyTok ER (rsR (pl c 3) 1 3) 0 0,
   dutyTok ER (agS c 3 3) 0 0,
   dutyTok ER (agR (pl c 3) 1 3) 0 0]

theorem open_tok (c : Dev nD) : payToks (F := F) c ⊢ bigSepL (tokList (F := F) c) id := by
  unfold payToks
  rw [bigSep_univ_eq_bigSepL pairs34 pairs34_univ pairs34_nodup]
  show (iprop((dutyTok ER (barCell (pl c 1)) 0 1 ∗ dutyTok ER (barCell (pl c 2)) 0 2 ∗ dutyTok ER (barCell (pl c 3)) 0 3)
      ∗ (dutyTok ER (rsS c 1 0) 0 0 ∗ dutyTok ER (rsR (pl c 1) 3 0) 0 0 ∗ dutyTok ER (agS c 1 0) 0 0 ∗ dutyTok ER (agR (pl c 1) 3 0) 0 0)
      ∗ (dutyTok ER (rsS c 1 1) 0 0 ∗ dutyTok ER (rsR (pl c 1) 3 1) 0 0 ∗ dutyTok ER (agS c 1 1) 0 0 ∗ dutyTok ER (agR (pl c 1) 3 1) 0 0)
      ∗ (dutyTok ER (rsS c 1 2) 0 0 ∗ dutyTok ER (rsR (pl c 1) 3 2) 0 0 ∗ dutyTok ER (agS c 1 2) 0 0 ∗ dutyTok ER (agR (pl c 1) 3 2) 0 0)
      ∗ (dutyTok ER (rsS c 1 3) 0 0 ∗ dutyTok ER (rsR (pl c 1) 3 3) 0 0 ∗ dutyTok ER (agS c 1 3) 0 0 ∗ dutyTok ER (agR (pl c 1) 3 3) 0 0)
      ∗ (dutyTok ER (rsS c 2 0) 0 0 ∗ dutyTok ER (rsR (pl c 2) 2 0) 0 0 ∗ dutyTok ER (agS c 2 0) 0 0 ∗ dutyTok ER (agR (pl c 2) 2 0) 0 0)
      ∗ (dutyTok ER (rsS c 2 1) 0 0 ∗ dutyTok ER (rsR (pl c 2) 2 1) 0 0 ∗ dutyTok ER (agS c 2 1) 0 0 ∗ dutyTok ER (agR (pl c 2) 2 1) 0 0)
      ∗ (dutyTok ER (rsS c 2 2) 0 0 ∗ dutyTok ER (rsR (pl c 2) 2 2) 0 0 ∗ dutyTok ER (agS c 2 2) 0 0 ∗ dutyTok ER (agR (pl c 2) 2 2) 0 0)
      ∗ (dutyTok ER (rsS c 2 3) 0 0 ∗ dutyTok ER (rsR (pl c 2) 2 3) 0 0 ∗ dutyTok ER (agS c 2 3) 0 0 ∗ dutyTok ER (agR (pl c 2) 2 3) 0 0)
      ∗ (dutyTok ER (rsS c 3 0) 0 0 ∗ dutyTok ER (rsR (pl c 3) 1 0) 0 0 ∗ dutyTok ER (agS c 3 0) 0 0 ∗ dutyTok ER (agR (pl c 3) 1 0) 0 0)
      ∗ (dutyTok ER (rsS c 3 1) 0 0 ∗ dutyTok ER (rsR (pl c 3) 1 1) 0 0 ∗ dutyTok ER (agS c 3 1) 0 0 ∗ dutyTok ER (agR (pl c 3) 1 1) 0 0)
      ∗ (dutyTok ER (rsS c 3 2) 0 0 ∗ dutyTok ER (rsR (pl c 3) 1 2) 0 0 ∗ dutyTok ER (agS c 3 2) 0 0 ∗ dutyTok ER (agR (pl c 3) 1 2) 0 0)
      ∗ (dutyTok ER (rsS c 3 3) 0 0 ∗ dutyTok ER (rsR (pl c 3) 1 3) 0 0 ∗ dutyTok ER (agS c 3 3) 0 0 ∗ dutyTok ER (agR (pl c 3) 1 3) 0 0)) : sProp 𝕄)
    ⊢ iprop(dutyTok ER (barCell (pl c 1)) 0 1
      ∗ dutyTok ER (barCell (pl c 2)) 0 2
      ∗ dutyTok ER (barCell (pl c 3)) 0 3
      ∗ dutyTok ER (rsS c 1 0) 0 0
      ∗ dutyTok ER (rsR (pl c 1) 3 0) 0 0
      ∗ dutyTok ER (agS c 1 0) 0 0
      ∗ dutyTok ER (agR (pl c 1) 3 0) 0 0
      ∗ dutyTok ER (rsS c 1 1) 0 0
      ∗ dutyTok ER (rsR (pl c 1) 3 1) 0 0
      ∗ dutyTok ER (agS c 1 1) 0 0
      ∗ dutyTok ER (agR (pl c 1) 3 1) 0 0
      ∗ dutyTok ER (rsS c 1 2) 0 0
      ∗ dutyTok ER (rsR (pl c 1) 3 2) 0 0
      ∗ dutyTok ER (agS c 1 2) 0 0
      ∗ dutyTok ER (agR (pl c 1) 3 2) 0 0
      ∗ dutyTok ER (rsS c 1 3) 0 0
      ∗ dutyTok ER (rsR (pl c 1) 3 3) 0 0
      ∗ dutyTok ER (agS c 1 3) 0 0
      ∗ dutyTok ER (agR (pl c 1) 3 3) 0 0
      ∗ dutyTok ER (rsS c 2 0) 0 0
      ∗ dutyTok ER (rsR (pl c 2) 2 0) 0 0
      ∗ dutyTok ER (agS c 2 0) 0 0
      ∗ dutyTok ER (agR (pl c 2) 2 0) 0 0
      ∗ dutyTok ER (rsS c 2 1) 0 0
      ∗ dutyTok ER (rsR (pl c 2) 2 1) 0 0
      ∗ dutyTok ER (agS c 2 1) 0 0
      ∗ dutyTok ER (agR (pl c 2) 2 1) 0 0
      ∗ dutyTok ER (rsS c 2 2) 0 0
      ∗ dutyTok ER (rsR (pl c 2) 2 2) 0 0
      ∗ dutyTok ER (agS c 2 2) 0 0
      ∗ dutyTok ER (agR (pl c 2) 2 2) 0 0
      ∗ dutyTok ER (rsS c 2 3) 0 0
      ∗ dutyTok ER (rsR (pl c 2) 2 3) 0 0
      ∗ dutyTok ER (agS c 2 3) 0 0
      ∗ dutyTok ER (agR (pl c 2) 2 3) 0 0
      ∗ dutyTok ER (rsS c 3 0) 0 0
      ∗ dutyTok ER (rsR (pl c 3) 1 0) 0 0
      ∗ dutyTok ER (agS c 3 0) 0 0
      ∗ dutyTok ER (agR (pl c 3) 1 0) 0 0
      ∗ dutyTok ER (rsS c 3 1) 0 0
      ∗ dutyTok ER (rsR (pl c 3) 1 1) 0 0
      ∗ dutyTok ER (agS c 3 1) 0 0
      ∗ dutyTok ER (agR (pl c 3) 1 1) 0 0
      ∗ dutyTok ER (rsS c 3 2) 0 0
      ∗ dutyTok ER (rsR (pl c 3) 1 2) 0 0
      ∗ dutyTok ER (agS c 3 2) 0 0
      ∗ dutyTok ER (agR (pl c 3) 1 2) 0 0
      ∗ dutyTok ER (rsS c 3 3) 0 0
      ∗ dutyTok ER (rsR (pl c 3) 1 3) 0 0
      ∗ dutyTok ER (agS c 3 3) 0 0
      ∗ dutyTok ER (agR (pl c 3) 1 3) 0 0)
  iintro ⟨⟨T0, T1, T2⟩, ⟨T3, T4, T5, T6⟩, ⟨T7, T8, T9, T10⟩, ⟨T11, T12, T13, T14⟩, ⟨T15, T16, T17, T18⟩, ⟨T19, T20, T21, T22⟩, ⟨T23, T24, T25, T26⟩, ⟨T27, T28, T29, T30⟩, ⟨T31, T32, T33, T34⟩, ⟨T35, T36, T37, T38⟩, ⟨T39, T40, T41, T42⟩, ⟨T43, T44, T45, T46⟩, ⟨T47, T48, T49, T50⟩⟩
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  isplitl [T29]; · iexact T29
  isplitl [T30]; · iexact T30
  isplitl [T31]; · iexact T31
  isplitl [T32]; · iexact T32
  isplitl [T33]; · iexact T33
  isplitl [T34]; · iexact T34
  isplitl [T35]; · iexact T35
  isplitl [T36]; · iexact T36
  isplitl [T37]; · iexact T37
  isplitl [T38]; · iexact T38
  isplitl [T39]; · iexact T39
  isplitl [T40]; · iexact T40
  isplitl [T41]; · iexact T41
  isplitl [T42]; · iexact T42
  isplitl [T43]; · iexact T43
  isplitl [T44]; · iexact T44
  isplitl [T45]; · iexact T45
  isplitl [T46]; · iexact T46
  isplitl [T47]; · iexact T47
  isplitl [T48]; · iexact T48
  isplitl [T49]; · iexact T49
  iexact T50

/-! ## The credits -/

def credList (c : Dev nD) : List (sProp 𝕄) :=
  [cred (tallyAt (barCell c) () 3),
   cred (tallyAt (rsR c 1 0) () Nr),
   cred (tallyAt (agR c 1 0) () No),
   cred (tallyAt (rsR c 1 1) () Nr),
   cred (tallyAt (agR c 1 1) () No),
   cred (tallyAt (rsR c 1 2) () Nr),
   cred (tallyAt (agR c 1 2) () No),
   cred (tallyAt (rsR c 1 3) () Nr),
   cred (tallyAt (agR c 1 3) () No),
   cred (tallyAt (rsR c 2 0) () Nr),
   cred (tallyAt (agR c 2 0) () No),
   cred (tallyAt (rsR c 2 1) () Nr),
   cred (tallyAt (agR c 2 1) () No),
   cred (tallyAt (rsR c 2 2) () Nr),
   cred (tallyAt (agR c 2 2) () No),
   cred (tallyAt (rsR c 2 3) () Nr),
   cred (tallyAt (agR c 2 3) () No),
   cred (tallyAt (rsR c 3 0) () Nr),
   cred (tallyAt (agR c 3 0) () No),
   cred (tallyAt (rsR c 3 1) () Nr),
   cred (tallyAt (agR c 3 1) () No),
   cred (tallyAt (rsR c 3 2) () Nr),
   cred (tallyAt (agR c 3 2) () No),
   cred (tallyAt (rsR c 3 3) () Nr),
   cred (tallyAt (agR c 3 3) () No)]

theorem open_cred (c : Dev nD) : creds (F := F) c ⊢ bigSepL (credList (F := F) c) id := by
  unfold creds
  rw [bigSep_univ_eq_bigSepL pairs34 pairs34_univ pairs34_nodup]
  show (iprop(cred (tallyAt (barCell c) () 3)
      ∗ (cred (tallyAt (rsR c 1 0) () Nr) ∗ cred (tallyAt (agR c 1 0) () No))
      ∗ (cred (tallyAt (rsR c 1 1) () Nr) ∗ cred (tallyAt (agR c 1 1) () No))
      ∗ (cred (tallyAt (rsR c 1 2) () Nr) ∗ cred (tallyAt (agR c 1 2) () No))
      ∗ (cred (tallyAt (rsR c 1 3) () Nr) ∗ cred (tallyAt (agR c 1 3) () No))
      ∗ (cred (tallyAt (rsR c 2 0) () Nr) ∗ cred (tallyAt (agR c 2 0) () No))
      ∗ (cred (tallyAt (rsR c 2 1) () Nr) ∗ cred (tallyAt (agR c 2 1) () No))
      ∗ (cred (tallyAt (rsR c 2 2) () Nr) ∗ cred (tallyAt (agR c 2 2) () No))
      ∗ (cred (tallyAt (rsR c 2 3) () Nr) ∗ cred (tallyAt (agR c 2 3) () No))
      ∗ (cred (tallyAt (rsR c 3 0) () Nr) ∗ cred (tallyAt (agR c 3 0) () No))
      ∗ (cred (tallyAt (rsR c 3 1) () Nr) ∗ cred (tallyAt (agR c 3 1) () No))
      ∗ (cred (tallyAt (rsR c 3 2) () Nr) ∗ cred (tallyAt (agR c 3 2) () No))
      ∗ (cred (tallyAt (rsR c 3 3) () Nr) ∗ cred (tallyAt (agR c 3 3) () No))) : sProp 𝕄)
    ⊢ iprop(cred (tallyAt (barCell c) () 3)
      ∗ cred (tallyAt (rsR c 1 0) () Nr)
      ∗ cred (tallyAt (agR c 1 0) () No)
      ∗ cred (tallyAt (rsR c 1 1) () Nr)
      ∗ cred (tallyAt (agR c 1 1) () No)
      ∗ cred (tallyAt (rsR c 1 2) () Nr)
      ∗ cred (tallyAt (agR c 1 2) () No)
      ∗ cred (tallyAt (rsR c 1 3) () Nr)
      ∗ cred (tallyAt (agR c 1 3) () No)
      ∗ cred (tallyAt (rsR c 2 0) () Nr)
      ∗ cred (tallyAt (agR c 2 0) () No)
      ∗ cred (tallyAt (rsR c 2 1) () Nr)
      ∗ cred (tallyAt (agR c 2 1) () No)
      ∗ cred (tallyAt (rsR c 2 2) () Nr)
      ∗ cred (tallyAt (agR c 2 2) () No)
      ∗ cred (tallyAt (rsR c 2 3) () Nr)
      ∗ cred (tallyAt (agR c 2 3) () No)
      ∗ cred (tallyAt (rsR c 3 0) () Nr)
      ∗ cred (tallyAt (agR c 3 0) () No)
      ∗ cred (tallyAt (rsR c 3 1) () Nr)
      ∗ cred (tallyAt (agR c 3 1) () No)
      ∗ cred (tallyAt (rsR c 3 2) () Nr)
      ∗ cred (tallyAt (agR c 3 2) () No)
      ∗ cred (tallyAt (rsR c 3 3) () Nr)
      ∗ cred (tallyAt (agR c 3 3) () No))
  iintro ⟨C0, ⟨C1, C2⟩, ⟨C3, C4⟩, ⟨C5, C6⟩, ⟨C7, C8⟩, ⟨C9, C10⟩, ⟨C11, C12⟩, ⟨C13, C14⟩, ⟨C15, C16⟩, ⟨C17, C18⟩, ⟨C19, C20⟩, ⟨C21, C22⟩, ⟨C23, C24⟩⟩
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  iexact C24

/-! ## The positions -/

def posList (c : Dev nD) : List (sProp 𝕄) :=
  [atPos ER (barCell c) 0 ∅ 0,
   atPos ER (rsS c 0 0) 0 ∅ 0,
   atPos ER (rsS c 0 1) 0 ∅ 0,
   atPos ER (rsS c 0 2) 0 ∅ 0,
   atPos ER (rsS c 0 3) 0 ∅ 0,
   atPos ER (rsS c 1 0) 0 ∅ 0,
   atPos ER (rsS c 1 1) 0 ∅ 0,
   atPos ER (rsS c 1 2) 0 ∅ 0,
   atPos ER (rsS c 1 3) 0 ∅ 0,
   atPos ER (rsS c 2 0) 0 ∅ 0,
   atPos ER (rsS c 2 1) 0 ∅ 0,
   atPos ER (rsS c 2 2) 0 ∅ 0,
   atPos ER (rsS c 2 3) 0 ∅ 0,
   atPos ER (rsS c 3 0) 0 ∅ 0,
   atPos ER (rsS c 3 1) 0 ∅ 0,
   atPos ER (rsS c 3 2) 0 ∅ 0,
   atPos ER (rsS c 3 3) 0 ∅ 0,
   atPos ER (rsR c 0 0) 0 ∅ 0,
   atPos ER (rsR c 0 1) 0 ∅ 0,
   atPos ER (rsR c 0 2) 0 ∅ 0,
   atPos ER (rsR c 0 3) 0 ∅ 0,
   atPos ER (rsR c 1 0) 0 ∅ 0,
   atPos ER (rsR c 1 1) 0 ∅ 0,
   atPos ER (rsR c 1 2) 0 ∅ 0,
   atPos ER (rsR c 1 3) 0 ∅ 0,
   atPos ER (rsR c 2 0) 0 ∅ 0,
   atPos ER (rsR c 2 1) 0 ∅ 0,
   atPos ER (rsR c 2 2) 0 ∅ 0,
   atPos ER (rsR c 2 3) 0 ∅ 0,
   atPos ER (rsR c 3 0) 0 ∅ 0,
   atPos ER (rsR c 3 1) 0 ∅ 0,
   atPos ER (rsR c 3 2) 0 ∅ 0,
   atPos ER (rsR c 3 3) 0 ∅ 0,
   atPos ER (agS c 0 0) 0 ∅ 0,
   atPos ER (agS c 0 1) 0 ∅ 0,
   atPos ER (agS c 0 2) 0 ∅ 0,
   atPos ER (agS c 0 3) 0 ∅ 0,
   atPos ER (agS c 1 0) 0 ∅ 0,
   atPos ER (agS c 1 1) 0 ∅ 0,
   atPos ER (agS c 1 2) 0 ∅ 0,
   atPos ER (agS c 1 3) 0 ∅ 0,
   atPos ER (agS c 2 0) 0 ∅ 0,
   atPos ER (agS c 2 1) 0 ∅ 0,
   atPos ER (agS c 2 2) 0 ∅ 0,
   atPos ER (agS c 2 3) 0 ∅ 0,
   atPos ER (agS c 3 0) 0 ∅ 0,
   atPos ER (agS c 3 1) 0 ∅ 0,
   atPos ER (agS c 3 2) 0 ∅ 0,
   atPos ER (agS c 3 3) 0 ∅ 0,
   atPos ER (agR c 0 0) 0 ∅ 0,
   atPos ER (agR c 0 1) 0 ∅ 0,
   atPos ER (agR c 0 2) 0 ∅ 0,
   atPos ER (agR c 0 3) 0 ∅ 0,
   atPos ER (agR c 1 0) 0 ∅ 0,
   atPos ER (agR c 1 1) 0 ∅ 0,
   atPos ER (agR c 1 2) 0 ∅ 0,
   atPos ER (agR c 1 3) 0 ∅ 0,
   atPos ER (agR c 2 0) 0 ∅ 0,
   atPos ER (agR c 2 1) 0 ∅ 0,
   atPos ER (agR c 2 2) 0 ∅ 0,
   atPos ER (agR c 2 3) 0 ∅ 0,
   atPos ER (agR c 3 0) 0 ∅ 0,
   atPos ER (agR c 3 1) 0 ∅ 0,
   atPos ER (agR c 3 2) 0 ∅ 0,
   atPos ER (agR c 3 3) 0 ∅ 0]

theorem open_pos (c : Dev nD) : positions (F := F) c ⊢ bigSepL (posList (F := F) c) id := by
  unfold positions
  rw [bigSep_univ_eq_bigSepL cells65 cells65_univ cells65_nodup]
  refine Entails.of_eq ?_
  simp only [cells65, posList, bigSepL_cons_cons, bigSepL_singleton, id, kcell_bar, kcell_rsS, kcell_rsR, kcell_agS, kcell_agR]

end Cert.Kernel.Hand

end
-- ==== Proof.KernelBody.lean ====
/-
  One device's kernel body, from the state the pipeline hands it to the state it hands back: the launch's records, tokens, positions and credits opened into the table the run is stated over, the buffers cut into the pieces the copies move, and at the end the result put back whole.
-/
import proofs.«900554_g7700000000000555_dist_matmul_gelu_kshard_i_m512_n512_k256_v7x_i4_bf16_1_alg».proof.Proof.KernelBodyRun
import proofs.«900554_g7700000000000555_dist_matmul_gelu_kshard_i_m512_n512_k256_v7x_i4_bf16_1_alg».proof.Proof.KernelBodyOpenA
import proofs.«900554_g7700000000000555_dist_matmul_gelu_kshard_i_m512_n512_k256_v7x_i4_bf16_1_alg».proof.Proof.KernelBodyOpenB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The buffers -/

/-- The whole of a staging or scratch buffer, spelt through its memref, is the buffer. -/
theorem aM_pts (c : Dev nD) (f : Buf (Elt F) ((c : Thread nD τ).loc cc0_stg0_0)) :
    ((aM).view.loc (c : Thread nD τ) ↦[(aM).view.set]{fullShare} f : sProp 𝕄) = ((c : Thread nD τ).loc cc0_stg0_0 ↦{fullShare} f) := by
  show ((c : Thread nD τ).loc cc0_stg0_0 ↦[(View.whole cc0_stg0_0 : View sig .tc _ _ _).set]{fullShare} f : sProp 𝕄) = _
  rw [View.set_whole]
theorem bM_pts (c : Dev nD) (f : Buf (Elt F) ((c : Thread nD τ).loc cc0_stg1_0)) :
    ((bM).view.loc (c : Thread nD τ) ↦[(bM).view.set]{fullShare} f : sProp 𝕄) = ((c : Thread nD τ).loc cc0_stg1_0 ↦{fullShare} f) := by
  show ((c : Thread nD τ).loc cc0_stg1_0 ↦[(View.whole cc0_stg1_0 : View sig .tc _ _ _).set]{fullShare} f : sProp 𝕄) = _
  rw [View.set_whole]
theorem pM_pts (c : Dev nD) (f : Buf (Elt F) ((c : Thread nD τ).loc cc0_scratch0)) :
    ((pM).view.loc (c : Thread nD τ) ↦[(pM).view.set]{fullShare} f : sProp 𝕄) = ((c : Thread nD τ).loc cc0_scratch0 ↦{fullShare} f) := by
  show ((c : Thread nD τ).loc cc0_scratch0 ↦[(View.whole cc0_scratch0 : View sig .tc _ _ _).set]{fullShare} f : sProp 𝕄) = _
  rw [View.set_whole]

/-- The receive buffer's twelve written pieces and its rest; the result's sixteen pieces. -/
def rsList (c : Dev nD) (r0 : Vec F S4x128x512 .bf16) : List (sProp 𝕄) :=
  [pts (rsDst 1 0) c r0,
   pts (rsDst 1 1) c r0,
   pts (rsDst 1 2) c r0,
   pts (rsDst 1 3) c r0,
   pts (rsDst 2 0) c r0,
   pts (rsDst 2 1) c r0,
   pts (rsDst 2 2) c r0,
   pts (rsDst 2 3) c r0,
   pts (rsDst 3 0) c r0,
   pts (rsDst 3 1) c r0,
   pts (rsDst 3 2) c r0,
   pts (rsDst 3 3) c r0,
   rsRest c r0]
def outList (c : Dev nD) (o0 : Vec F S512x512 .bf16) : List (sProp 𝕄) :=
  [pts (outSl c 0) c o0,
   pts (outSl c 1) c o0,
   pts (outSl c 2) c o0,
   pts (outSl c 3) c o0,
   pts (outSl (pl c 1) 0) c o0,
   pts (outSl (pl c 1) 1) c o0,
   pts (outSl (pl c 1) 2) c o0,
   pts (outSl (pl c 1) 3) c o0,
   pts (outSl (pl c 2) 0) c o0,
   pts (outSl (pl c 2) 1) c o0,
   pts (outSl (pl c 2) 2) c o0,
   pts (outSl (pl c 2) 3) c o0,
   pts (outSl (pl c 3) 0) c o0,
   pts (outSl (pl c 3) 1) c o0,
   pts (outSl (pl c 3) 2) c o0,
   pts (outSl (pl c 3) 3) c o0]

theorem open_rs (c : Dev nD) (r0 : Vec F S4x128x512 .bf16) :
    (rsLoc c ↦{fullShare} r0 : sProp 𝕄) ⊢ bigSepL (rsList (F := F) c r0) id := by
  rw [split_rs_eq c r0]
  exact .rfl
theorem open_out (c : Dev nD) (o0 : Vec F S512x512 .bf16) :
    (outLoc c ↦{fullShare} o0 : sProp 𝕄) ⊢ bigSepL (outList (F := F) c o0) id := by
  rw [split_out_eq c o0]
  exact .rfl

/-! ## The table, in the order it is opened, and in the order the run reads it -/

/-- Everything the run starts from, group by group. -/
def canonAll (K : GSem nD τ sig → ℕ) (c : Dev nD) (p0 r0 : Vec F S4x128x512 .bf16) (o0 : Vec F S512x512 .bf16) (W : Waits sig Unit) : List (sProp 𝕄) :=
  invList m K c ++ (reachList c ++ ([levAts L lv] ++ (tokList c ++ (posList c ++ (credList c ++ ([((aM).view.loc (c : Thread nD τ) ↦[(aM).view.set]{fullShare} Ablk m c)] ++ ([((bM).view.loc (c : Thread nD τ) ↦[(bM).view.set]{fullShare} Bblk m c)] ++ ([((pM).view.loc (c : Thread nD τ) ↦[(pM).view.set]{fullShare} p0)]
    ++ (rsList c r0 ++ (outList c o0 ++ [owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr + tallyAt (barCell (pl c 3)) () 1 + tallyAt (barCell (pl c 2)) () 1 + tallyAt (barCell (pl c 1)) () 1) W]))))))))))

/-- Where each line of the run's table sits among the groups. -/
def preIdx : List ℕ := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 285, 286, 287, 288, 289, 290, 291, 292, 293, 294, 295, 296, 297, 298, 299, 305, 306, 307, 308, 309, 310, 311, 312, 313, 314, 315, 316, 300, 301, 302, 303, 304, 317, 144, 145, 146, 195, 260, 163, 164, 147, 148, 179, 180, 167, 168, 151, 152, 183, 184, 171, 172, 155, 156, 187, 188, 175, 176, 159, 160, 191, 192, 216, 261, 224, 277, 220, 269, 165, 166, 149, 150, 181, 182, 217, 263, 225, 279, 221, 271, 169, 170, 153, 154, 185, 186, 218, 265, 226, 281, 222, 273, 173, 174, 157, 158, 189, 190, 219, 267, 227, 283, 223, 275, 177, 178, 161, 162, 193, 194, 248, 262, 256, 278, 252, 270, 249, 264, 257, 280, 253, 272, 250, 266, 258, 282, 254, 274, 251, 268, 259, 284, 255, 276, 204, 200, 208, 205, 201, 209, 206, 202, 210, 207, 203, 211, 236, 232, 240, 237, 233, 241, 238, 234, 242, 239, 235, 243, 196, 197, 198, 199, 212, 213, 214, 215, 228, 229, 230, 231, 244, 245, 246, 247]

theorem preIdx_nodup : preIdx.Nodup := by decide +kernel
theorem preIdx_all : preIdx.toFinset = (List.range 318).toFinset := by decide +kernel

set_option maxHeartbeats 4000000 in
/-- The run's table is the groups laid end to end, its lines in another order. -/
theorem bodyPre_canon (K : GSem nD τ sig → ℕ) (c : Dev nD) (p0 r0 : Vec F S4x128x512 .bf16) (o0 : Vec F S512x512 .bf16) (W : Waits sig Unit) :
    bodyPre m K c p0 r0 o0 W = bigSepL (canonAll m K c p0 r0 o0 W) id := by
  have e1 : bodyPre m K c p0 r0 o0 W = bigSepL preIdx (fun n => (canonAll m K c p0 r0 o0 W).getD n iprop(emp)) := rfl
  have e2 : bigSepL (List.range 318) (fun n => (canonAll m K c p0 r0 o0 W).getD n iprop(emp)) = bigSepL (canonAll m K c p0 r0 o0 W) id := rfl
  rw [e1, ← bigSep_eq_bigSepL preIdx preIdx_nodup, preIdx_all, bigSep_eq_bigSepL _ (List.nodup_range), e2]

theorem bodyPre_eq (K : GSem nD τ sig → ℕ) (c : Dev nD) (p0 r0 : Vec F S4x128x512 .bf16) (o0 : Vec F S512x512 .bf16) (W : Waits sig Unit) :
    bodyPre m K c p0 r0 o0 W = iprop(bigSepL (invList m K c) id ∗ bigSepL (reachList (F := F) c) id ∗ levAts L lv ∗ bigSepL (tokList (F := F) c) id ∗ bigSepL (posList (F := F) c) id
      ∗ bigSepL (credList (F := F) c) id ∗ ((aM).view.loc (c : Thread nD τ) ↦[(aM).view.set]{fullShare} Ablk m c) ∗ ((bM).view.loc (c : Thread nD τ) ↦[(bM).view.set]{fullShare} Bblk m c) ∗ ((pM).view.loc (c : Thread nD τ) ↦[(pM).view.set]{fullShare} p0)
      ∗ bigSepL (rsList (F := F) c r0) id ∗ bigSepL (outList (F := F) c o0) id ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr + tallyAt (barCell (pl c 3)) () 1 + tallyAt (barCell (pl c 2)) () 1 + tallyAt (barCell (pl c 1)) () 1) W) := by
  rw [bodyPre_canon]
  unfold canonAll
  simp only [bigSepL_id_append, bigSepL_singleton, id]

/-! ## What the pipeline hands the body, and what it takes back -/

theorem before0 (c : Dev nD) (d) : (dats (F := F) m 0 c).before 0 t0_0 d = Ablk m c := by
  unfold Dat.before; rw [if_pos (Gen.fetch0_0 _)]; rfl
theorem before1 (c : Dev nD) (d) : (dats (F := F) m 0 c).before 1 t0_0 d = Bblk m c := by
  unfold Dat.before; rw [if_pos (Gen.fetch0_1 _)]; rfl

def bodyPre' (c : Dev nD) : sProp 𝕄 :=
  iprop((dats m 0 c).Φ t0_0.castSucc ∗ (dats m 0 c).owesAt () t0_0.castSucc
    ∗ (∃ d f, ⌜f = (dats m 0 c).before 0 t0_0 d⌝ ∗ (c : Thread nD τ).loc cc0_stg0_0 ↦{fullShare} f)
    ∗ (∃ d f, ⌜f = (dats m 0 c).before 1 t0_0 d⌝ ∗ (c : Thread nD τ).loc cc0_stg1_0 ↦{fullShare} f)
    ∗ (∃ d f, ⌜f = (dats m 0 c).before 2 t0_0 d⌝ ∗ (c : Thread nD τ).loc cc0_stg2_0 ↦{fullShare} f))

def bodyPost (c : Dev nD) : sProp 𝕄 :=
  iprop((dats m 0 c).Φ t0_0.succ ∗ (dats m 0 c).owesAt () t0_0.succ
    ∗ (∃ f, ⌜f = (dats m 0 c).after 0 t0_0⌝ ∗ (c : Thread nD τ).loc cc0_stg0_0 ↦{fullShare} f)
    ∗ (∃ f, ⌜f = (dats m 0 c).after 1 t0_0⌝ ∗ (c : Thread nD τ).loc cc0_stg1_0 ↦{fullShare} f)
    ∗ (∃ f, ⌜f = (dats m 0 c).after 2 t0_0⌝ ∗ (c : Thread nD τ).loc cc0_stg2_0 ↦{fullShare} f))

/-- The state the pipeline hands over, opened into the run's table. -/
theorem open_pre (c : Dev nD) :
    bodyPre' m c ⊢ iprop(∃ (K : GSem nD τ sig → ℕ) (p0 r0 : Vec F S4x128x512 .bf16) (o0 : Vec F S512x512 .bf16) (W : Waits sig Unit), bodyPre m K c p0 r0 o0 W) := by
  unfold bodyPre'
  show iprop(Φ₀ m c ∗ _ ∗ _ ∗ _ ∗ _) ⊢ _
  unfold Φ₀ start ghost
  iintro ⟨⟨⟨⟨%K, #Hrec, Hpos, Htok⟩, Hcred, Hlev⟩, ⟨%p0, Hp⟩, ⟨%r0, Hr⟩⟩, ⟨%W, %hW, HO⟩, ⟨%d0, %f0, %hf0, Hx⟩, ⟨%d1, %f1, %hf1, Hy⟩, ⟨%d2, %o0, %ho0, Hz⟩⟩
  rw [before0] at hf0
  rw [before1] at hf1
  subst hf0 hf1
  iexists (Kof K)
  iexists p0
  iexists r0
  iexists o0
  iexists W
  rw [bodyPre_eq, aM_pts, bM_pts, pM_pts]
  isplitl []; · iapply (open_inv m K c); iexact Hrec
  isplitl []; · iapply (open_reach m K c); iexact Hrec
  isplitl [Hlev]; · iexact Hlev
  isplitl [Htok]; · iapply (open_tok c); iexact Htok
  isplitl [Hpos]; · iapply (open_pos c); iexact Hpos
  isplitl [Hcred]; · iapply (open_cred c); iexact Hcred
  isplitl [Hx]; · iexact Hx
  isplitl [Hy]; · iexact Hy
  isplitl [Hp]; · iexact Hp
  isplitl [Hr]; · iapply (open_rs c r0); iexact Hr
  isplitl [Hz]; · iapply (open_out c o0); iexact Hz
  iexact HO

/-- The closed end is what the pipeline takes back. -/
theorem close_post (c : Dev nD) : closedEnd m c ⊢ bodyPost m c := by
  unfold closedEnd bodyPost Dat.owesAt Pipeline.owesWithin
  rw [aM_pts, bM_pts, show (dats (F := F) m 0 c).Φ t0_0.succ = Φ₁ c from rfl, show (dats (F := F) m 0 c).owed t0_0.succ = 0 from rfl]
  iintro ⟨HΦ, ⟨%W', HO⟩, Ha, Hb, Ho⟩
  isplitl [HΦ]; · iexact HΦ
  isplitl [HO]
  · iexists W'
    isplitr
    · ipureintro; exact fun _ _ => Or.inl trivial
    iexact HO
  isplitl [Ha]
  · iexists _
    isplitr
    · ipureintro; rfl
    iexact Ha
  isplitl [Hb]
  · iexists _
    isplitr
    · ipureintro; rfl
    iexact Hb
  iexists _
  isplitr
  · ipureintro; rfl
  iexact Ho

/-- The library's body obligation on device `c`. -/
theorem body_obligation (c : Dev nD) : BodyObligation (dats (F := F) m 0 c) (defs₀ (F := F)) 𝒱₀ () Set.univ := fun t => by
  rw [Gen.fin_N0 t]
  rw [Gen.bigSep_W0, Gen.bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m c)
  iintro H
  ihave H' := open_pre m c $$ H
  icases H' with ⟨%K, %p0, %r0, %o0, %W, H'⟩
  iapply (sound_run m K c p0 r0 o0 W fun _ => bodyPost m c)
  isplitl [H']
  · iexact H'
  · iintro Hc
    iapply (close_post m c)
    iexact Hc

/-- info: 'Cert.Kernel.Hand.open_pre' depends on axioms: [propext, Classical.choice, Quot.sound] -/
#guard_msgs in #print axioms open_pre
/-- info: 'Cert.Kernel.Hand.close_post' depends on axioms: [propext, Classical.choice, Quot.sound] -/
#guard_msgs in #print axioms close_post

end Cert.Kernel.Hand

end
-- ==== Proof.KernelLaunchCred.lean ====
/-
  The launch credit: what the four devices owe a device's cells at launch, summed, is the credit that device waits with.
-/
import proofs.«900554_g7700000000000555_dist_matmul_gelu_kshard_i_m512_n512_k256_v7x_i4_bf16_1_alg».proof.Proof.KernelLaunchGhost

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The credit of a sum is the credits of the summands. -/
theorem cred_add_eq (a b : CellTallies nD τ sig Unit) : (cred (a + b) : sProp 𝕄) = iprop(cred a ∗ cred b) :=
  BI.Entails.antisymm (cred_add _ _).1 (cred_add _ _).2

/-- What ONE device pays onto the cells of the device `c`, at the row `row` of `c`'s receive arrays: an entry signal,
    and per piece a partial-product copy and a finished-piece copy. -/
def rowDue (row : Fin 4) (c : Dev nD) : CellTallies nD τ sig Unit :=
  tallyAt (barCell c) () 1
    + tallyAt (rsR c row 0) () Nr + tallyAt (rsR c row 1) () Nr + tallyAt (rsR c row 2) () Nr + tallyAt (rsR c row 3) () Nr
    + tallyAt (agR c row 0) () No + tallyAt (agR c row 1) () No + tallyAt (agR c row 2) () No + tallyAt (agR c row 3) () No

/-- What is owed to device `c`'s cells, by everybody. -/
def dueTo (c : Dev nD) : CellTallies nD τ sig Unit :=
  tallyAt (barCell c) () 3 + ∑ x : Fin 3 × Fin 4, (tallyAt (rsR c x.1.succ x.2) () Nr + tallyAt (agR c x.1.succ x.2) () No)

/-- A device owes the devices one, two and three places on: to each one row's worth. -/
theorem O₀_eq (d : Dev nD) : O₀ d = rowDue 3 (pl d 1) + rowDue 2 (pl d 2) + rowDue 1 (pl d 3) := by
  unfold O₀ owedFrom payList rowDue
  simp only [List.drop_zero, List.foldr_cons, List.foldr_nil]
  abel

theorem dueTo_eq (c : Dev nD) : dueTo c = rowDue 3 c + rowDue 2 c + rowDue 1 c := by
  have hb : (tallyAt (barCell c) () 3 : CellTallies nD τ sig Unit) = tallyAt (barCell c) () 1 + tallyAt (barCell c) () 1 + tallyAt (barCell c) () 1 := by
    rw [tallyAt_add, tallyAt_add]
  have e1 : Fin.succ (0 : Fin 3) = (1 : Fin 4) := rfl
  have e2 : Fin.succ (1 : Fin 3) = (2 : Fin 4) := rfl
  have e3 : Fin.succ (2 : Fin 3) = (3 : Fin 4) := rfl
  unfold dueTo rowDue
  rw [hb, Fintype.sum_prod_type, Fin.sum_univ_three]
  simp only [Fin.sum_univ_four]
  rw [e1, e2, e3]
  abel

theorem sum_owed : (∑ d : Dev nD, O₀ d) = ∑ d : Dev nD, dueTo d := by
  have h1 : ∑ d : Dev nD, rowDue 3 (pl d 1) = ∑ c : Dev nD, rowDue 3 c := Equiv.sum_comp (plE 1) (rowDue 3)
  have h2 : ∑ d : Dev nD, rowDue 2 (pl d 2) = ∑ c : Dev nD, rowDue 2 c := Equiv.sum_comp (plE 2) (rowDue 2)
  have h3 : ∑ d : Dev nD, rowDue 1 (pl d 3) = ∑ c : Dev nD, rowDue 1 c := Equiv.sum_comp (plE 3) (rowDue 1)
  rw [Finset.sum_congr rfl fun d _ => O₀_eq d, Finset.sum_congr rfl fun d _ => dueTo_eq d, Finset.sum_add_distrib, Finset.sum_add_distrib,
    Finset.sum_add_distrib, Finset.sum_add_distrib, h1, h2, h3]

theorem dueTo_own (d : Dev nD) (g : GSem nD τ sig) (h : dueTo d g ≠ 0) : g.1 = (d : Thread nD τ) := by
  by_contra hne
  refine h ?_
  unfold dueTo
  rw [Pi.add_apply, tallyAt_ne_cell (fun e => hne (by rw [e])), Finset.sum_apply, zero_add]
  exact Finset.sum_eq_zero fun x _ => by
    rw [Pi.add_apply, tallyAt_ne_cell (fun e => hne (by rw [e])), tallyAt_ne_cell (fun e => hne (by rw [e])), add_zero]

theorem creds_eq (c : Dev nD) : (creds c : sProp 𝕄) = cred (dueTo c) := by
  unfold creds dueTo
  rw [cred_add_eq, Pipeline.cred_finsetSum]
  congr 1
  exact bigSep_congr fun x _ => (cred_add_eq _ _).symm

/-- The launch deals each device the credit of what the others owe its cells. -/
theorem creds_intro (c : Dev nD) : (Pipeline.launchCred O₀ c : sProp 𝕄) ⊢ creds c := by
  rw [creds_eq, Pipeline.launchCred_of_sum O₀ dueTo sum_owed dueTo_own c]

/-- info: 'Cert.Kernel.Hand.creds_intro' depends on axioms: [propext, Classical.choice, Quot.sound] -/
#guard_msgs in #print axioms creds_intro

end Cert.Kernel.Hand

end
-- ==== Proof.KernelLaunch.lean ====
/-
  The launch: from each device's body to the run of the whole program on the four devices.
-/
import proofs.«900554_g7700000000000555_dist_matmul_gelu_kshard_i_m512_n512_k256_v7x_i4_bf16_1_alg».proof.Proof.KernelBody
import proofs.«900554_g7700000000000555_dist_matmul_gelu_kshard_i_m512_n512_k256_v7x_i4_bf16_1_alg».proof.Proof.KernelWaits
import proofs.«900554_g7700000000000555_dist_matmul_gelu_kshard_i_m512_n512_k256_v7x_i4_bf16_1_alg».proof.Proof.KernelLaunchCred

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The theorem's side conditions -/

theorem ownSemFacts : Pipeline.OwnSemFacts cfg0.spec osem :=
  ⟨by decide, fun a b h => Fin.succ_injective _ (csem_injective h), by decide⟩

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ Pipeline.ownSems0
  iintro ⟨H0, H1, HS⟩
  isplitr; · iempintro
  isplitl [HS]; · iexact HS
  isplitl [H0]; · iexact H0
  iexact H1

/-- The staging cells sit below every cell a device pays. -/
theorem stage_below : ∀ (c : Dev nD) (w : Fin cfg0.W) (s : Fin (cfg0.win w).nbuf), ∀ p ∈ (payList c).drop 0,
    lv ((c : Thread nD τ), .dma ((cfg0.win w).sem s)) () < lv p.1 () := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_at c 0 _ (stage_below c w s)
    · rw [show (dats m 0 c).owed ⟨_ + 1, ht⟩ = 0 from rfl, MayWait_zero]; iintro -; iempintro

/-! ## The arrays after the run -/

/-- The result array is written back whole: it ends as what the body left in the result's staging buffer. -/
theorem final_out (c : Dev nD) : (dats m 0 c).arrAt (2 : Fin 3) cfg0.N = OUT m := by
  rw [show cfg0.N = ((0 : Fin 1) : Fin cfg0.N).val + 1 from rfl, (dats m 0 c).arrAt_succ (2 : Fin 3) (0 : Fin 1)]
  rw [show (cfg0.win (2 : Fin 3)).flush (0 : Fin 1) = true from flush0_2 _, if_pos rfl]
  exact Memref.write_access_unit_zero_univ (Elt F) main_v1 (funext fun a => Nat.zero_mul _) _ _ _

/-! ## The run -/

set_option maxRecDepth 16384 in
/-- At the compiled mesh of four devices, for any float values, from any memory with zero counters: every weakly fair
    execution of @main terminates, and every final state has on each device the result array at the computed contents
    and the two argument arrays unchanged. -/
theorem run_main (ρ : Dev nD → PrngReg) : θ_run defs (onTc (τ := τ) (main (F := F))) ⟨m, fun _ => 0, ρ⟩ (fun r => ∀ c : Dev nD,
      r.2.mem ((c.tc : Thread nD τ).loc main_v1) = OUT m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 (2 : Fin 3)).trans (final_out m c),
      ((h c).1 (0 : Fin 3)).trans ((dats m 0 c).arrAt_in (0 : Fin 3) rfl _),
      ((h c).1 (1 : Fin 3)).trans ((dats m 0 c).arrAt_in (1 : Fin 3) rfl _)⟩)

/-- info: 'Cert.Kernel.Hand.run_main' depends on axioms: [propext, Classical.choice, Quot.sound] -/
#guard_msgs in #print axioms run_main

end Cert.Kernel.Hand

end
-- ==== Proof.KernelIdealContents.lean ====
/-
  The data of the sharded matmul with a fused GELU, as pure functions of what each device is launched with.

  Four devices hold column blocks `A_c` (512×256) of `A` and row blocks `B_c` (256×512) of `B`. Device `c` forms the
  partial product `P_c = A_c · B_c` (512×512, kept as four slabs of 128 rows). Row slab `s` of the full product is
  the sum over the four devices of slab `s` of their partials; device `s` gathers it in the order own, `s+1`,
  `s+3`, `s+2`, thirty-two rows at a time, applies the GELU, and every device ends with all sixteen 32-row pieces.
-/
import proofs.«900554_g7700000000000555_dist_matmul_gelu_kshard_i_m512_n512_k256_v7x_i4_bf16_1_alg».proof.Proof.Gen.KernelIdeal.Skeleton
import proofs.«900554_g7700000000000555_dist_matmul_gelu_kshard_i_m512_n512_k256_v7x_i4_bf16_1_alg».proof.Proof.Gen.KernelIdeal.Frame
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

/-- The device `d` places after `c` on the ring of four. -/
def pl (c : Dev nD) (d : ℕ) : Dev nD := ⟨(c.val + d) % 4, Nat.mod_lt _ (by decide)⟩

variable (m : (ℓ : Loc nD τ sig) → Buf (Elt F) ℓ)

/-- Device `c`'s column block of `A` and row block of `B`, as the region finds them. -/
abbrev Ablk (c : Dev nD) : Vec F S512x256 .f32 := iblk m c 0 t0_0
abbrev Bblk (c : Dev nD) : Vec F S256x512 .f32 := iblk m c 1 t0_0

/-- Device `c`'s partial product, four slabs of 128 rows. -/
def Pblk (c : Dev nD) : Vec F S4x128x512 .bf16 := k0_pay1 (Ablk m c) (Bblk m c)

/-- What device `c`'s receive buffer holds once everything has landed: slab `k` is slab `c` of the partial of the
    device `k` places after `c`. -/
def RSfun (c : Dev nD) : Vec F S4x128x512 .bf16 :=
  fun i => Pblk m (pl c (i 0).val) (ix3 (n0 := 4) (n1 := 128) (n2 := 512) c (i 1) (i 2))

/-- Thirty-two rows `32·ch …` of slab `s` of a partial. -/
def slab (P : Vec F S4x128x512 .bf16) (s : Fin 4) (ch : Fin 4) : Vec F S1x32x512 .bf16 :=
  fun i => P (ix3 (n0 := 4) (n1 := 128) (n2 := 512) s ⟨32 * ch.val + ((i 1 : Fin 32)).val, by have h1 : ((i 1 : Fin 32)).val < 32 := (i 1 : Fin 32).isLt; have h2 : ch.val < 4 := ch.isLt; omega⟩ (i 2))

/-- One 32-row piece of the result from the four partial pieces, summed in the order the kernel sums them, then the GELU. -/
def chunkVal (x0 x1 x3 x2 : Vec F S1x32x512 .bf16) : Vec F S32x512 .bf16 := k0_pay4 (k0_pay3 (k0_pay2 x0 x1) x3 x2)

/-- The whole result, the same on every device. -/
def OUT : Vec F S512x512 .bf16 := fun i =>
  let s : Dev nD := ⟨((i 0 : Fin 512)).val / 128, by have h0 : ((i 0 : Fin 512)).val < 512 := (i 0 : Fin 512).isLt; show _ < 4; omega⟩
  let ch : Fin 4 := ⟨((i 0 : Fin 512)).val % 128 / 32, by omega⟩
  let r : Fin 32 := ⟨((i 0 : Fin 512)).val % 32, Nat.mod_lt _ (by decide)⟩
  chunkVal (slab (Pblk m s) s ch) (slab (Pblk m (pl s 1)) s ch) (slab (Pblk m (pl s 3)) s ch) (slab (Pblk m (pl s 2)) s ch)
    (ix2 (n0 := 32) (n1 := 512) r (i 1))

end Cert.KernelIdeal.Hand

end
-- ==== Proof.KernelIdealProto.lean ====
/-
  The cross-device protocol of the sharded matmul with a fused GELU, stated once for a symbolic device.

  Every device signals the other three at entry and waits for their three signals: after that wait each peer is
  inside the kernel and has handed over the pieces of its receive buffer and of its result rows that this device
  will write. Then, per 32-row piece, three copies of partial products go out (the reduce-scatter), three come in
  and are added, the GELU is applied, and the finished piece goes to the other three devices (the all-gather).
  Each copy has a send cell on the sender (the source comes back on it) and a receive cell on the target (the
  written piece arrives on it). Every cell has one round.
-/
import proofs.«900554_g7700000000000555_dist_matmul_gelu_kshard_i_m512_n512_k256_v7x_i4_bf16_1_alg».proof.Proof.KernelIdealContents
import Idealize.ShloMosaic.Lib.Pipeline.Launch
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Buffers and their pieces -/

abbrev aM : Memref sig .tc .vmem S512x256 .f32 := Memref.whole cc0_stg0_0
abbrev bM : Memref sig .tc .vmem S256x512 .f32 := Memref.whole cc0_stg1_0
/-- The result's staging buffer, 512 rows. -/
abbrev oM : Memref sig .tc .vmem S512x512 .bf16 := Memref.whole cc0_stg2_0
/-- The partial product, four slabs. -/
abbrev pM : Memref sig .tc .vmem S4x128x512 .bf16 := Memref.whole cc0_scratch0
/-- The receive buffer, four slabs. -/
abbrev rM : Memref sig .tc .vmem S4x128x512 .bf16 := Memref.whole cc0_scratch1

theorem rsDst_inb : ∀ k ch : Fin 4, ∀ a, (![k.val, 32 * ch.val, 0] : Fin 3 → Nat) a + S1x32x512.size a ≤ S4x128x512.size a := by decide

/-- Piece `ch` of slab `k` of the receive buffer: where the copy from the device `k` places on lands. -/
abbrev rsDst (k ch : Fin 4) : Memref sig .tc .vmem S32x512 .bf16 :=
  (rM.slice (Rect.unit (s := S4x128x512) ![k.val, 32 * ch.val, 0] S1x32x512.size (rsDst_inb k ch)) (fun _ => rfl)).squeeze S32x512 squeezes_S1x32x512_S32x512

/-- The printed offsets of the source of the copy to the device `r + 1` places on, piece `ch`: slab `c + r + 1`, rows `32·ch …`. -/
def srcOff (c : Dev nD) (r : Fin 3) : Fin 4 → (Fin 3 → Nat)
  | 0 => k0_off1 c (BitVec.ofNat 32 (1 + r.val))
  | 1 => k0_off2 c (BitVec.ofNat 32 (1 + r.val))
  | 2 => k0_off3 c (BitVec.ofNat 32 (1 + r.val))
  | 3 => k0_off4 c (BitVec.ofNat 32 (1 + r.val))
  | ⟨_ + 4, h⟩ => absurd h (Nat.not_lt.2 (Nat.le_add_left _ _))

theorem srcOff_inb (c : Dev nD) (r : Fin 3) : ∀ (ch : Fin 4), ∀ a, srcOff c r ch a + S1x32x512.size a ≤ S4x128x512.size a
  | 0 => k0_off1_inb c r
  | 1 => k0_off2_inb c r
  | 2 => k0_off3_inb c r
  | 3 => k0_off4_inb c r
  | ⟨_ + 4, h⟩ => absurd h (Nat.not_lt.2 (Nat.le_add_left _ _))

/-- Piece `ch` of the slab of the partial product that goes to the device `r + 1` places on. -/
abbrev rsSrc (c : Dev nD) (r : Fin 3) (ch : Fin 4) : Memref sig .tc .vmem S32x512 .bf16 :=
  (pM.slice (Rect.unit (s := S4x128x512) (srcOff c r ch) S1x32x512.size (srcOff_inb c r ch)) (fun _ => rfl)).squeeze S32x512 squeezes_S1x32x512_S32x512

/-- Rows `128·c + 32·ch …` of the result: device `c`'s piece `ch`. -/
abbrev outSl (c : Dev nD) (ch : Fin 4) : Memref sig .tc .vmem S32x512 .bf16 :=
  oM.slice (Rect.unit (s := S512x512) (k0_off6 c (BitVec.ofNat 32 (32 * ch.val))) S32x512.size (k0_off6_inb c ch)) (fun _ => rfl)

/-- A piece of a buffer on device `c`, owned whole, at contents `f`. -/
def pts {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

instance pts_storable {sp : Space} {s : Shape} {e : EltTy} (M : Memref sig .tc sp s e) (c : Dev nD) (f : Buf (Elt F) (M.view.loc (c : Thread nD τ))) :
    BI.Storable (upEmb : UEmb _ 𝕄) (pts M c f) := by unfold pts; infer_instance

/-! ## Cells -/

abbrev barS : Sem sig := (SemArray.scalar (sig.barrier 0 rfl) : Sems sig S_).sem
abbrev barCell (c : Dev nD) : GSem nD τ sig := ((c : Thread nD τ), .reg barS)

theorem semOf_inb : ∀ a b : Fin 4, ∀ i, (![a.val, b.val] : Fin 2 → Nat) i + S1x1.size i ≤ S4x4.size i := by decide

/-- Entry `(a, b)` of one of the four 4×4 semaphore arrays. -/
def semOf (A : DmaSems sig S4x4) (a b : Fin 4) : DmaSem sig :=
  ((A.slice (Rect.unit (s := S4x4) ![a.val, b.val] S1x1.size (semOf_inb a b))).squeeze S_ squeezes_S1x1_S_).sem

/-- Send cell of the partial-product copy to the device `d` places on, piece `ch`; its receive cell on the target is
    `rsR` at slab `4 − d`. Likewise `agS` / `agR` for the finished pieces. -/
abbrev rsS (c : Dev nD) (d ch : Fin 4) : GSem nD τ sig := ((c : Thread nD τ), .dma (semOf cc0_scratch2 d ch))
abbrev rsR (c : Dev nD) (k ch : Fin 4) : GSem nD τ sig := ((c : Thread nD τ), .dma (semOf cc0_scratch3 k ch))
abbrev agS (c : Dev nD) (d ch : Fin 4) : GSem nD τ sig := ((c : Thread nD τ), .dma (semOf cc0_scratch4 d ch))
abbrev agR (c : Dev nD) (k ch : Fin 4) : GSem nD τ sig := ((c : Thread nD τ), .dma (semOf cc0_scratch5 k ch))

/-- Which array, row and column a scratch DMA semaphore is (the three staging semaphores come first). -/
def arrOf (q : DmaSem sig) : ℕ := (q.val - 3) / 16
def rowOf (q : DmaSem sig) : ℕ := (q.val - 3) % 16 / 4
def colOf (q : DmaSem sig) : ℕ := (q.val - 3) % 4

theorem rowLt (n : ℕ) : n % 16 / 4 % 4 < 4 := Nat.mod_lt _ (by decide)

/-- The credit of one 32×512 piece, on the receive buffer / partial product and on the result. -/
abbrev Nr : ℕ := sig.dmaCredit .tc (Kind.table .tc .vmem) (rM : Memref sig .tc .vmem S4x128x512 .bf16).view.buf S32x512 .bf16
abbrev No : ℕ := sig.dmaCredit .tc (Kind.table .tc .vmem) (oM : Memref sig .tc .vmem S512x512 .bf16).view.buf S32x512 .bf16
theorem Nr_pos : 0 < Nr := sig.dmaCredit_pos _ _ _ _ _ (by decide)
theorem No_pos : 0 < No := sig.dmaCredit_pos _ _ _ _ _ (by decide)

/-! ## The schedule -/

/-- What the device `d` places BEFORE `c` (it signals `c` with offset `d`) hands `c` at entry: the four pieces of
    slab `d` of its receive buffer and the four pieces of `c`'s rows of its result, all to be written by `c`. -/
def barPay (c : Dev nD) (d : Fin 4) : sProp 𝕄 :=
  iprop((∃ f, pts (rsDst d 0) (pl c (4 - d.val)) f) ∗ (∃ f, pts (rsDst d 1) (pl c (4 - d.val)) f) ∗ (∃ f, pts (rsDst d 2) (pl c (4 - d.val)) f) ∗ (∃ f, pts (rsDst d 3) (pl c (4 - d.val)) f)
    ∗ (∃ f, pts (outSl c 0) (pl c (4 - d.val)) f) ∗ (∃ f, pts (outSl c 1) (pl c (4 - d.val)) f) ∗ (∃ f, pts (outSl c 2) (pl c (4 - d.val)) f) ∗ (∃ f, pts (outSl c 3) (pl c (4 - d.val)) f))

/-- A finished piece goes to three devices at once, each copy reading a third of the piece's share: the copies to the
    devices 2, 1 and 3 places on (the program's order) read the left half, the right half's left and its right. -/
def agShare (a : ℕ) : PosShare TreeShare := if a = 2 then fullShare.left else if a = 1 then fullShare.right.left else fullShare.right.right

/-- What a copy's completion hands the cell's owner: on a send cell the source piece back, on a receive cell the
    written piece at its final contents. -/
def dmaPay (c : Dev nD) (A a b : ℕ) : sProp 𝕄 :=
  if A = 0 then pts (rsSrc c ⟨(a + 2) % 3, Nat.mod_lt _ (by decide)⟩ ⟨b % 4, Nat.mod_lt _ (by decide)⟩) c (Pblk m c)
  else if A = 1 then pts (rsDst ⟨a % 4, Nat.mod_lt _ (by decide)⟩ ⟨b % 4, Nat.mod_lt _ (by decide)⟩) c (RSfun m c)
  else if A = 2 then ((outSl c ⟨b % 4, Nat.mod_lt _ (by decide)⟩).view.loc (c : Thread nD τ) ↦[(outSl c ⟨b % 4, Nat.mod_lt _ (by decide)⟩).view.set]{agShare a} OUT m)
  else pts (outSl (pl c a) ⟨b % 4, Nat.mod_lt _ (by decide)⟩) c (OUT m)

def Rd : Rounds.Schedule (GSem nD τ sig) (Fin 4) 𝕄 where
  duties g r := if r = 0 ∧ g.1.2 = .tc then
      (match g.2 with
        | .reg s => if s = barS then {1, 2, 3} else ∅
        | .dma q => if 3 ≤ q.val ∧ rowOf q ≠ 0 then {0} else ∅)
    else ∅
  unitless _ := False
  amount g _ _ := match g.2 with
    | .reg _ => 1
    | .dma q => if arrOf q < 2 then Nr else No
  payload g _ d := match g.2 with
    | .reg _ => barPay g.1.1 d
    | .dma q => dmaPay m g.1.1 (arrOf q) (rowOf q) (colOf q)
  amount_pos g _ _ _ := by
    cases g.2 with
    | reg _ => exact Nat.one_pos
    | dma q => dsimp only; split; exact Nr_pos; exact No_pos

instance Rd_payload_storable (g : GSem nD τ sig) (r : ℕ) (d : Fin 4) : BI.Storable (upEmb : UEmb _ 𝕄) ((Rd m).payload g r d) := by
  show BI.Storable upEmb (match g.2 with | .reg _ => barPay g.1.1 d | .dma q => dmaPay m g.1.1 (arrOf q) (rowOf q) (colOf q))
  cases g.2 with
  | reg _ => dsimp only; unfold barPay; infer_instance
  | dma q => dsimp only; unfold dmaPay; (repeat' split) <;> infer_instance

end Cert.KernelIdeal.Hand

end
-- ==== Proof.KernelIdealState.lean ====
/-
  What a device holds when its kernel body starts and when it ends, what it owes the other devices at launch,
  and the levels that order the waits: the barrier below the partial-product receives, those below the
  finished-piece receives; sends and staging at the bottom.
-/
import proofs.«900554_g7700000000000555_dist_matmul_gelu_kshard_i_m512_n512_k256_v7x_i4_bf16_1_alg».proof.Proof.KernelIdealProto

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells of one device, numbered: 0 the barrier, `1 + i` the scratch DMA semaphore `3 + i` -/

theorem csem_lt (j : Fin 65) : j.val + 2 < 67 := by omega
def csem (j : Fin 65) : SemLoc sig := if j.val = 0 then .reg barS else .dma ⟨j.val + 2, csem_lt j⟩
abbrev kcell (ck : Dev nD × Fin 65) : GSem nD τ sig := ((ck.1 : Thread nD τ), csem ck.2)
/-- The number of entry `(a, b)` of array `A` (0 the partial-product sends, 1 their receives, 2 the finished-piece
    sends, 3 their receives). -/
def jOf (A a b : Fin 4) : Fin 65 := ⟨1 + 16 * A.val + 4 * a.val + b.val, by omega⟩

/-! ## What each device owes at launch, in the order it pays -/

/-- The cells device `c` pays and the amounts, in program order: the three entry signals, the twelve partial-product
    copies (piece by piece, to the devices 2, 1, 3 places on), the twelve finished-piece copies. -/
def payList (c : Dev nD) : List (GSem nD τ sig × ℕ) :=
  [(barCell (pl c 1), 1),
   (barCell (pl c 2), 1),
   (barCell (pl c 3), 1),
   (rsR (pl c 2) 2 0, Nr),
   (rsR (pl c 1) 3 0, Nr),
   (rsR (pl c 3) 1 0, Nr),
   (rsR (pl c 2) 2 1, Nr),
   (rsR (pl c 1) 3 1, Nr),
   (rsR (pl c 3) 1 1, Nr),
   (rsR (pl c 2) 2 2, Nr),
   (rsR (pl c 1) 3 2, Nr),
   (rsR (pl c 3) 1 2, Nr),
   (rsR (pl c 2) 2 3, Nr),
   (rsR (pl c 1) 3 3, Nr),
   (rsR (pl c 3) 1 3, Nr),
   (agR (pl c 2) 2 0, No),
   (agR (pl c 1) 3 0, No),
   (agR (pl c 3) 1 0, No),
   (agR (pl c 2) 2 1, No),
   (agR (pl c 1) 3 1, No),
   (agR (pl c 3) 1 1, No),
   (agR (pl c 2) 2 2, No),
   (agR (pl c 1) 3 2, No),
   (agR (pl c 3) 1 2, No),
   (agR (pl c 2) 2 3, No),
   (agR (pl c 1) 3 3, No),
   (agR (pl c 3) 1 3, No)]

/-- What is still owed once the first `k` payments are made; paying the next peels the outermost summand. -/
def owedFrom (c : Dev nD) (k : ℕ) : CellTallies nD τ sig Unit :=
  ((payList c).drop k).foldr (fun p acc => acc + tallyAt p.1 () p.2) 0

def O₀ (c : Dev nD) : CellTallies nD τ sig Unit := owedFrom c 0

def L (g : GSem nD τ sig) : Finset Unit := if g.1.2 = .tc then {()} else ∅
/-- The barrier at 1, the partial-product receives at 2, the finished-piece receives at 3, everything else at 0. -/
def lv (g : GSem nD τ sig) (_ : Unit) : ℕ := match g.2 with
  | .reg _ => 1
  | .dma q => if 3 ≤ q.val ∧ arrOf q = 1 then 2 else if 3 ≤ q.val ∧ arrOf q = 3 then 3 else 0

/-! ## The ghost state -/

/-- Every cell's invariant at the names the launch allocated, and that round 0 of every cell is reached. -/
def records (K : Dev nD × Fin 65 → ℕ) : sProp 𝕄 :=
  iprop((bigSep Finset.univ fun ck : Dev nD × Fin 65 => cellInv ER (Rd m) (K ck) (kcell ck))
    ∗ bigSep Finset.univ fun ck : Dev nD × Fin 65 => reached ER (kcell ck) 0)

instance records_persistent (K : Dev nD × Fin 65 → ℕ) : BI.Persistent (records m K) := by unfold records; infer_instance

/-- The device's positions on its own sixty-five cells. -/
def positions (c : Dev nD) : sProp 𝕄 := bigSep Finset.univ fun j : Fin 65 => atPos ER (kcell (c, j)) 0 ∅ 0

/-- The tokens of the duties device `c` pays: its three entry signals; per copy its own send cell's and the target's
    receive cell's. -/
def payToks (c : Dev nD) : sProp 𝕄 :=
  iprop((dutyTok ER (barCell (pl c 1)) 0 1 ∗ dutyTok ER (barCell (pl c 2)) 0 2 ∗ dutyTok ER (barCell (pl c 3)) 0 3)
    ∗ bigSep Finset.univ fun x : Fin 3 × Fin 4 =>
        iprop(dutyTok ER (rsS c x.1.succ x.2) 0 0 ∗ dutyTok ER (rsR (pl c (x.1.val + 1)) x.1.rev.succ x.2) 0 0
          ∗ dutyTok ER (agS c x.1.succ x.2) 0 0 ∗ dutyTok ER (agR (pl c (x.1.val + 1)) x.1.rev.succ x.2) 0 0))

def ghost (K : Dev nD × Fin 65 → ℕ) (c : Dev nD) : sProp 𝕄 := iprop(records m K ∗ positions c ∗ payToks c)

/-- The credit a device is dealt at launch for what the others owe its cells. -/
def creds (c : Dev nD) : sProp 𝕄 :=
  iprop(cred (tallyAt (barCell c) () 3)
    ∗ bigSep Finset.univ fun x : Fin 3 × Fin 4 => iprop(cred (tallyAt (rsR c x.1.succ x.2) () Nr) ∗ cred (tallyAt (agR c x.1.succ x.2) () No)))

def start (c : Dev nD) : sProp 𝕄 := iprop((∃ K, ghost m K c) ∗ creds c ∗ levAts L lv)

/-- Before the body: that, and the two scratch buffers at some contents. -/
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- After it: the scratch buffers again, and the sixty-four scratch semaphores at zero, closed. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ bigSep Finset.univ fun j : Fin 64 => semVal (kcell (c, j.succ)) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => Ablk m c
    | ⟨1, _⟩ => Bblk m c
    | ⟨2, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.Hand

end
-- ==== Proof.KernelIdealPieces.lean ====
/-
  The pieces of the three buffers that the copies of the sharded matmul move, by coordinates.

  The receive buffer and the partial product are four slabs of 128 rows, each cut into four pieces of 32 rows; the
  result is 512 rows, cut into sixteen pieces of 32 rows. An element lies in a piece when its slab is the piece's slab
  and its row is among the piece's 32 rows (for the result: when its row is among the piece's 32 rows). Different
  pieces share no element, and the sixteen pieces of the result cover it.
-/
import proofs.«900554_g7700000000000555_dist_matmul_gelu_kshard_i_m512_n512_k256_v7x_i4_bf16_1_alg».proof.Proof.KernelIdealProto
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Which elements a piece holds -/

/-- The source offsets in closed form: slab `c + r + 1` round the ring, rows from `32·ch`. -/
theorem srcOff_eq (c : Dev nD) (r : Fin 3) (ch : Fin 4) :
    srcOff c r ch = ![(c.val + r.val + 1) % 4, 32 * ch.val, 0] := by
  have h : ∀ ch : Fin 4, ch = 0 ∨ ch = 1 ∨ ch = 2 ∨ ch = 3 := by decide
  rcases h ch with rfl | rfl | rfl | rfl
  · exact k0_off1_eq c r
  · exact k0_off2_eq c r
  · exact k0_off3_eq c r
  · exact k0_off4_eq c r

/-- Piece `ch` of slab `k` of the receive buffer: slab `k`, rows `32·ch … 32·ch + 31`, every column. -/
theorem mem_rsDst (k ch : Fin 4) (i : S4x128x512.Idx) :
    i ∈ (rsDst k ch).view.set ↔ (i 0).val = k.val ∧ 32 * ch.val ≤ (i 1).val ∧ (i 1).val < 32 * ch.val + 32 := by
  simp only [Memref.view_squeeze, Memref.view_slice, Memref.view_whole, View.set_reshape, View.set_slice_whole, Rect.mem_set_unit]
  constructor
  · intro h
    have h0 : k.val ≤ (i 0).val ∧ (i 0).val < k.val + 1 := h 0
    have h1 : 32 * ch.val ≤ (i 1).val ∧ (i 1).val < 32 * ch.val + 32 := h 1
    exact ⟨by omega, h1.1, h1.2⟩
  · rintro ⟨h0, h1, h2⟩ a
    match a with
    | ⟨0, _⟩ => exact (show k.val ≤ (i 0).val ∧ (i 0).val < k.val + 1 from ⟨by omega, by omega⟩)
    | ⟨1, _⟩ => exact (show 32 * ch.val ≤ (i 1).val ∧ (i 1).val < 32 * ch.val + 32 from ⟨h1, h2⟩)
    | ⟨2, _⟩ => exact (show 0 ≤ (i 2).val ∧ (i 2).val < 0 + 512 from ⟨Nat.zero_le _, by have h : (i 2).val < 512 := (i 2).isLt; omega⟩)

/-- Piece `ch` of the slab of the partial product that goes `r + 1` places on: slab `c + r + 1` round the ring. -/
theorem mem_rsSrc (c : Dev nD) (r : Fin 3) (ch : Fin 4) (i : S4x128x512.Idx) :
    i ∈ (rsSrc c r ch).view.set
      ↔ (i 0).val = (c.val + r.val + 1) % 4 ∧ 32 * ch.val ≤ (i 1).val ∧ (i 1).val < 32 * ch.val + 32 := by
  simp only [Memref.view_squeeze, Memref.view_slice, Memref.view_whole, View.set_reshape, View.set_slice_whole, Rect.mem_set_unit]
  rw [srcOff_eq]
  constructor
  · intro h
    have h0 : (c.val + r.val + 1) % 4 ≤ (i 0).val ∧ (i 0).val < (c.val + r.val + 1) % 4 + 1 := h 0
    have h1 : 32 * ch.val ≤ (i 1).val ∧ (i 1).val < 32 * ch.val + 32 := h 1
    exact ⟨by omega, h1.1, h1.2⟩
  · rintro ⟨h0, h1, h2⟩ a
    match a with
    | ⟨0, _⟩ => exact (show (c.val + r.val + 1) % 4 ≤ (i 0).val ∧ (i 0).val < (c.val + r.val + 1) % 4 + 1 from ⟨by omega, by omega⟩)
    | ⟨1, _⟩ => exact (show 32 * ch.val ≤ (i 1).val ∧ (i 1).val < 32 * ch.val + 32 from ⟨h1, h2⟩)
    | ⟨2, _⟩ => exact (show 0 ≤ (i 2).val ∧ (i 2).val < 0 + 512 from ⟨Nat.zero_le _, by have h : (i 2).val < 512 := (i 2).isLt; omega⟩)

/-- Piece `ch` of device `s`'s rows of the result: rows `128·s + 32·ch … + 31`, every column. -/
theorem mem_outSl (s : Dev nD) (ch : Fin 4) (i : S512x512.Idx) :
    i ∈ (outSl s ch).view.set
      ↔ 128 * s.val + 32 * ch.val ≤ (i 0).val ∧ (i 0).val < 128 * s.val + 32 * ch.val + 32 := by
  simp only [Memref.view_slice, Memref.view_whole, View.set_slice_whole, Rect.mem_set_unit]
  rw [k0_off6_eq s ch]
  constructor
  · intro h
    have h0 : 128 * s.val + 32 * ch.val ≤ (i 0).val ∧ (i 0).val < 128 * s.val + 32 * ch.val + 32 := h 0
    exact h0
  · rintro ⟨h0, h1⟩ a
    match a with
    | ⟨0, _⟩ => exact (show 128 * s.val + 32 * ch.val ≤ (i 0).val ∧ (i 0).val < 128 * s.val + 32 * ch.val + 32 from ⟨h0, h1⟩)
    | ⟨1, _⟩ => exact (show 0 ≤ (i 1).val ∧ (i 1).val < 0 + 512 from ⟨Nat.zero_le _, by have h : (i 1).val < 512 := (i 1).isLt; omega⟩)

/-! ## Different pieces share no element; the result's pieces cover it -/

theorem rsDst_disjoint (k ch k' ch' : Fin 4) (h : k ≠ k' ∨ ch ≠ ch') :
    Disjoint (rsDst k ch).view.set (rsDst k' ch').view.set := by
  rw [Finset.disjoint_left]
  intro i h1 h2
  have h1 := (mem_rsDst k ch i).mp h1
  have h2 := (mem_rsDst k' ch' i).mp h2
  rcases h with h | h
  · exact h (Fin.ext (by omega))
  · exact h (Fin.ext (by omega))

theorem rsSrc_disjoint (c : Dev nD) (r r' : Fin 3) (ch ch' : Fin 4) (h : r ≠ r' ∨ ch ≠ ch') :
    Disjoint (rsSrc c r ch).view.set (rsSrc c r' ch').view.set := by
  rw [Finset.disjoint_left]
  intro i h1 h2
  have h1 := (mem_rsSrc c r ch i).mp h1
  have h2 := (mem_rsSrc c r' ch' i).mp h2
  have hr := r.isLt
  have hr' := r'.isLt
  rcases h with h | h
  · exact h (Fin.ext (by omega))
  · exact h (Fin.ext (by omega))

theorem outSl_disjoint (s s' : Dev nD) (ch ch' : Fin 4) (h : s ≠ s' ∨ ch ≠ ch') :
    Disjoint (outSl s ch).view.set (outSl s' ch').view.set := by
  rw [Finset.disjoint_left]
  intro i h1 h2
  have h1 := (mem_outSl s ch i).mp h1
  have h2 := (mem_outSl s' ch' i).mp h2
  have hc := ch.isLt
  have hc' := ch'.isLt
  rcases h with h | h
  · exact h (Fin.ext (by omega))
  · exact h (Fin.ext (by omega))

/-- The piece of the result that holds row `p`: device `p / 128`, -/
def devOfRow (p : Fin 512) : Dev nD := ⟨p.val / 128, by have h := p.isLt; show _ < 4; omega⟩
/-- piece `p % 128 / 32`. -/
def pieceOfRow (p : Fin 512) : Fin 4 := ⟨p.val % 128 / 32, by omega⟩

theorem mem_outSl_of_row (i : S512x512.Idx) : i ∈ (outSl (devOfRow (i 0)) (pieceOfRow (i 0))).view.set := by
  rw [mem_outSl]
  show 128 * ((i 0).val / 128) + 32 * ((i 0).val % 128 / 32) ≤ (i 0).val
    ∧ (i 0).val < 128 * ((i 0).val / 128) + 32 * ((i 0).val % 128 / 32) + 32
  omega

/-- Every element of the result lies in exactly one of the sixteen pieces. -/
theorem outSl_cover (i : S512x512.Idx) : ∃! p : Dev nD × Fin 4, i ∈ (outSl p.1 p.2).view.set := by
  refine ⟨(devOfRow (i 0), pieceOfRow (i 0)), mem_outSl_of_row i, ?_⟩
  rintro ⟨s, ch⟩ h
  have h := (mem_outSl s ch i).mp h
  have hc := ch.isLt
  exact Prod.ext (Fin.ext (by show s.val = (i 0).val / 128; omega)) (Fin.ext (by show ch.val = (i 0).val % 128 / 32; omega))

/-! ## Where a piece's index sits in its buffer -/

/-- Index (x, y) of piece `ch` of slab `k` of the receive buffer is row `32·ch + x`, column `y` of slab `k`. -/
theorem emb_rsDst (k ch : Fin 4) (x : Fin 32) (y : Fin 512) :
    (rsDst k ch).view.emb (ValueIdx.ix2 x y)
      = (ValueIdx.ix3 k (⟨32 * ch.val + x.val, by have := ch.isLt; have := x.isLt; omega⟩ : Fin 128) y : S4x128x512.Idx) := by
  show (Rect.unit (s := S4x128x512) ![k.val, 32 * ch.val, 0] S1x32x512.size (rsDst_inb k ch)).emb
    (Shape.reshapeEquiv squeezes_S1x32x512_S32x512.numel_eq (ValueIdx.ix2 x y)) = _
  rw [ValueIdx.reshapeEquiv_ix2_1ab]
  funext a
  apply Fin.ext
  match a with
  | ⟨0, _⟩ => show k.val + 1 * 0 = k.val; omega
  | ⟨1, _⟩ => show 32 * ch.val + 1 * x.val = 32 * ch.val + x.val; omega
  | ⟨2, _⟩ => show 0 + 1 * y.val = y.val; omega

/-- The same for the piece of the partial product that goes `r + 1` places on: slab `c + r + 1` round the ring. -/
theorem emb_rsSrc (c : Dev nD) (r : Fin 3) (ch : Fin 4) (x : Fin 32) (y : Fin 512) :
    (rsSrc c r ch).view.emb (ValueIdx.ix2 x y)
      = (ValueIdx.ix3 (pl c (r.val + 1)) (⟨32 * ch.val + x.val, by have := ch.isLt; have := x.isLt; omega⟩ : Fin 128) y : S4x128x512.Idx) := by
  show (Rect.unit (s := S4x128x512) (srcOff c r ch) S1x32x512.size (srcOff_inb c r ch)).emb
    (Shape.reshapeEquiv squeezes_S1x32x512_S32x512.numel_eq (ValueIdx.ix2 x y)) = _
  rw [ValueIdx.reshapeEquiv_ix2_1ab]
  funext a
  apply Fin.ext
  show srcOff c r ch a + 1 * ((ValueIdx.ix3 (⟨0, Nat.one_pos⟩ : Fin 1) x y : S1x32x512.Idx) a).val = _
  rw [srcOff_eq]
  match a with
  | ⟨0, _⟩ => show (c.val + r.val + 1) % 4 + 1 * 0 = (c.val + (r.val + 1)) % 4; omega
  | ⟨1, _⟩ => show 32 * ch.val + 1 * x.val = 32 * ch.val + x.val; omega
  | ⟨2, _⟩ => show 0 + 1 * y.val = y.val; omega

/-- Index (x, y) of piece `ch` of device `s`'s rows of the result is row `128·s + 32·ch + x`, column `y`. -/
theorem emb_outSl (s : Dev nD) (ch : Fin 4) (x : Fin 32) (y : Fin 512) :
    (outSl s ch).view.emb (ValueIdx.ix2 x y)
      = (ValueIdx.ix2 (⟨128 * s.val + 32 * ch.val + x.val, by have hs : s.val < 4 := s.isLt; have := ch.isLt; have := x.isLt; omega⟩ : Fin 512) y : S512x512.Idx) := by
  funext a
  apply Fin.ext
  show k0_off6 s (BitVec.ofNat 32 (32 * ch.val)) a + 1 * ((ValueIdx.ix2 x y : S32x512.Idx) a).val = _
  rw [k0_off6_eq s ch]
  match a with
  | ⟨0, _⟩ => show 128 * s.val + 32 * ch.val + 1 * x.val = 128 * s.val + 32 * ch.val + x.val; omega
  | ⟨1, _⟩ => show 0 + 1 * y.val = y.val; omega

/-! ## What a copy leaves on its piece -/

/-- Device `c` sends piece `ch` of slab `c + d` of its partial product, `d = r + 1`, into slab `4 − d` of the receive buffer of
    the device `d` places on. That device's receive buffer is to hold, in slab `k`, its own slab of the partial product
    of the device `k` places after it; `4 − d` places after the receiver is the sender, so the piece lands at its final
    contents. -/
theorem rs_landed (m : (ℓ : Loc nD τ sig) → Buf (Elt F) ℓ) (c : Dev nD) (r : Fin 3) (ch : Fin 4)
    (fd : Vec F S4x128x512 .bf16) :
    ∀ i ∈ (rsDst r.rev.succ ch).view.set,
      ((rsDst r.rev.succ ch).view.write (Elt F) fd ((rsSrc c r ch).view.read (Elt F) (Pblk m c)) Finset.univ) i
        = RSfun m (pl c (r.val + 1)) i := by
  intro i hi
  have hi' := (mem_rsDst r.rev.succ ch i).mp hi
  have hk : (r.rev.succ : Fin 4).val = 3 - r.val := by
    rw [Fin.val_succ, Fin.val_rev]; have := r.isLt; omega
  have hc := ch.isLt
  have h2 : (i 2).val < 512 := (i 2).isLt
  obtain ⟨x, y, rfl⟩ : ∃ (x : Fin 32) (y : Fin 512), i = (rsDst r.rev.succ ch).view.emb (ValueIdx.ix2 x y) := by
    refine ⟨⟨(i 1).val - 32 * ch.val, by omega⟩, ⟨(i 2).val, h2⟩, ?_⟩
    rw [emb_rsDst]
    funext a
    apply Fin.ext
    match a with
    | ⟨0, _⟩ => exact hi'.1
    | ⟨1, _⟩ => show (i 1).val = 32 * ch.val + ((i 1).val - 32 * ch.val); omega
    | ⟨2, _⟩ => rfl
  rw [View.write_emb_of_mem _ _ (Finset.mem_univ _), View.read_apply, emb_rsSrc, emb_rsDst]
  simp only [cast_cast, cast_eq]
  show Pblk m c _ = Pblk m (pl (pl c (r.val + 1)) (r.rev.succ : Fin 4).val) _
  have hpl : pl (pl c (r.val + 1)) (r.rev.succ : Fin 4).val = c := Fin.ext (by
    show ((c.val + (r.val + 1)) % 4 + (r.rev.succ : Fin 4).val) % 4 = c.val
    have hc4 : c.val < 4 := c.isLt; have := r.isLt; omega)
  rw [hpl]

/-- The finished piece `ch` of device `s`'s rows, copied from a device's result buffer that holds the final result there,
    lands at the final result. -/
theorem ag_landed (m : (ℓ : Loc nD τ sig) → Buf (Elt F) ℓ) (s : Dev nD) (ch : Fin 4) (fd : Vec F S512x512 .bf16) :
    ∀ i ∈ (outSl s ch).view.set,
      ((outSl s ch).view.write (Elt F) fd ((outSl s ch).view.read (Elt F) (OUT m)) Finset.univ) i = OUT m i := by
  intro i hi
  have hi' := (mem_outSl s ch i).mp hi
  have h1 : (i 1).val < 512 := (i 1).isLt
  obtain ⟨x, y, rfl⟩ : ∃ (x : Fin 32) (y : Fin 512), i = (outSl s ch).view.emb (ValueIdx.ix2 x y) := by
    refine ⟨⟨(i 0).val - (128 * s.val + 32 * ch.val), by omega⟩, ⟨(i 1).val, h1⟩, ?_⟩
    rw [emb_outSl]
    funext a
    apply Fin.ext
    match a with
    | ⟨0, _⟩ => show (i 0).val = 128 * s.val + 32 * ch.val + ((i 0).val - (128 * s.val + 32 * ch.val)); omega
    | ⟨1, _⟩ => rfl
  rw [View.write_emb_of_mem _ _ (Finset.mem_univ _), View.read_apply]
  simp only [cast_cast, cast_eq]

/-- The same two as equalities of assertions: owning the written piece is owning it at its final contents. -/
theorem rs_landed_pts (m : (ℓ : Loc nD τ sig) → Buf (Elt F) ℓ) (c : Dev nD) (r : Fin 3) (ch : Fin 4)
    (fd : Vec F S4x128x512 .bf16) :
    pts (F := F) (rsDst r.rev.succ ch) (pl c (r.val + 1))
        ((rsDst r.rev.succ ch).view.write (Elt F) fd ((rsSrc c r ch).view.read (Elt F) (Pblk m c)) Finset.univ)
      = pts (F := F) (rsDst r.rev.succ ch) (pl c (r.val + 1)) (RSfun m (pl c (r.val + 1))) := by
  unfold pts
  exact BI.Region.is_congr (rs_landed m c r ch fd)

theorem ag_landed_pts (m : (ℓ : Loc nD τ sig) → Buf (Elt F) ℓ) (s c' : Dev nD) (ch : Fin 4) (fd : Vec F S512x512 .bf16) :
    pts (F := F) (outSl s ch) c' ((outSl s ch).view.write (Elt F) fd ((outSl s ch).view.read (Elt F) (OUT m)) Finset.univ)
      = pts (F := F) (outSl s ch) c' (OUT m) := by
  unfold pts
  exact BI.Region.is_congr (ag_landed m s ch fd)

/-! ## Cutting a whole buffer into pieces and putting it back

Each of the three buffers is cut by a KEY: a function of the element's index that names its piece (for the result the
device whose rows it is and the 32-row piece; for the two slab buffers the slab and the 32-row piece). A piece is the
elements of one key; pieces of different keys share no element, and the elements whose keys are on a list without
repetition are owned exactly when each key's piece is. -/

section Keys

local notation "𝕄" => MT nD τ sig Unit (Elt F) ℕ UU ℕ

/-- A right-nested chain of assertions. -/
def sepChain : List (sProp 𝕄) → sProp 𝕄
  | [] => iprop(emp)
  | P :: L => match L with
    | [] => P
    | _ :: _ => iprop(P ∗ sepChain L)

theorem sepChain_nil : sepChain (F := F) [] = iprop(emp) := by simp only [sepChain]
theorem sepChain_one (P : sProp 𝕄) : sepChain (F := F) [P] = P := by simp only [sepChain]
theorem sepChain_cons₂ (P Q : sProp 𝕄) (L : List (sProp 𝕄)) :
    sepChain (F := F) (P :: Q :: L) = iprop(P ∗ sepChain (F := F) (Q :: L)) := by
  conv_lhs => unfold sepChain

theorem sepChain_cons (P : sProp 𝕄) (L : List (sProp 𝕄)) : sepChain (F := F) (P :: L) = iprop(P ∗ sepChain (F := F) L) := by
  cases L with
  | nil =>
    rw [sepChain_one, sepChain_nil]
    exact (BI.equiv_iff.mp ⟨(Laws.sep_emp (P := P)).1, (Laws.sep_emp (P := P)).2⟩).symm
  | cons Q L => exact sepChain_cons₂ P Q L

theorem sepChain_snoc (R : sProp 𝕄) : ∀ L : List (sProp 𝕄), sepChain (F := F) (L ++ [R]) = iprop(sepChain (F := F) L ∗ R)
  | [] => by
    rw [List.nil_append, sepChain_one, sepChain_nil]
    exact (BI.equiv_iff.mp ⟨(BIClass.emp_sep (P := R)).1, (BIClass.emp_sep (P := R)).2⟩).symm
  | P :: L => by
    rw [List.cons_append, sepChain_cons, sepChain_cons, sepChain_snoc R L]
    exact (BI.equiv_iff.mp ⟨(Laws.sep_assoc (P := P) (Q := sepChain (F := F) L) (R := R)).1, (Laws.sep_assoc (P := P) (Q := sepChain (F := F) L) (R := R)).2⟩).symm

variable {ℓ : Loc nD τ sig} {κ : Type} [DecidableEq κ]

/-- The elements of key `k`, -/
def keySet (key : Idx ℓ → κ) (k : κ) : Finset (Idx ℓ) := Finset.univ.filter fun i => key i = k
/-- and those whose key is on the list. -/
def keysSet (key : Idx ℓ → κ) (ks : List κ) : Finset (Idx ℓ) := Finset.univ.filter fun i => key i ∈ ks

theorem mem_keySet (key : Idx ℓ → κ) (k : κ) (i : Idx ℓ) : i ∈ keySet key k ↔ key i = k := by
  simp only [keySet, Finset.mem_filter, Finset.mem_univ, true_and]
theorem mem_keysSet (key : Idx ℓ → κ) (ks : List κ) (i : Idx ℓ) : i ∈ keysSet key ks ↔ key i ∈ ks := by
  simp only [keysSet, Finset.mem_filter, Finset.mem_univ, true_and]

/-- Owning every listed key's piece, piece `k` at contents `gs k`, is owning the listed elements at the contents that is
    `gs k` on piece `k`. -/
theorem pts_keys (key : Idx ℓ → κ) (gs : κ → Buf (Elt F) ℓ) (q : PosShare TreeShare) : ∀ ks : List κ, ks.Nodup →
    sepChain (F := F) (ks.map fun k => (ℓ ↦[keySet key k]{q} gs k : sProp 𝕄))
      = (ℓ ↦[keysSet key ks]{q} (fun i => gs (key i) i) : sProp 𝕄)
  | [], _ => by
    have he : keysSet key ([] : List κ) = ∅ := by
      ext i; rw [mem_keysSet]; simp only [List.not_mem_nil, Finset.notMem_empty]
    rw [he, pointsTo_empty, List.map_nil, sepChain_nil]
  | k :: ks, h => by
    rw [List.map_cons, sepChain_cons, pts_keys key gs q ks (List.nodup_cons.mp h).2]
    have hd : Disjoint (keySet key k) (keysSet key ks) := by
      rw [Finset.disjoint_left]
      intro i h1 h2
      rw [mem_keySet] at h1
      rw [mem_keysSet] at h2
      exact (List.nodup_cons.mp h).1 (h1 ▸ h2)
    have hu : keysSet key (k :: ks) = keySet key k ∪ keysSet key ks := by
      ext i
      rw [Finset.mem_union, mem_keysSet, mem_keysSet, mem_keySet, List.mem_cons]
    have hU := pointsTo_union (Val := Elt F) (Ix := Unit) (Name := ℕ) (U := UU) (Lvl := ℕ) (ℓ := ℓ) (q := q) (f := fun i => gs (key i) i) hd
    rw [hu, BI.equiv_iff.mp ⟨hU.1, hU.2⟩]
    congr 1
    exact pointsTo_congr fun i hi => by rw [(mem_keySet key k i).mp hi]

/-- All at one contents. -/
theorem pts_keys_one (key : Idx ℓ → κ) (f : Buf (Elt F) ℓ) (q : PosShare TreeShare) (ks : List κ) (h : ks.Nodup) :
    sepChain (F := F) (ks.map fun k => (ℓ ↦[keySet key k]{q} f : sProp 𝕄)) = (ℓ ↦[keysSet key ks]{q} f : sProp 𝕄) :=
  pts_keys key (fun _ => f) q ks h

end Keys

/-! ## The result's buffer: sixteen pieces, no rest -/

section Out

local notation "𝕄" => MT nD τ sig Unit (Elt F) ℕ UU ℕ

/-- The result's staging buffer on device `c`. -/
abbrev outLoc (c : Dev nD) : Loc nD τ sig := (c : Thread nD τ).loc cc0_stg2_0

/-- The piece an element of the result lies in: the device whose rows, and the 32-row piece. -/
def outKey (c : Dev nD) : Idx (outLoc c) → Dev nD × Fin 4 :=
  fun i => (devOfRow ((i : S512x512.Idx) 0), pieceOfRow ((i : S512x512.Idx) 0))

theorem outSl_set (c s : Dev nD) (ch : Fin 4) : (outSl s ch).view.set = keySet (outKey c) (s, ch) := by
  ext i
  rw [mem_keySet]
  refine (mem_outSl s ch i).trans ?_
  have hc := ch.isLt
  have h0 : ((i : S512x512.Idx) 0).val < 512 := ((i : S512x512.Idx) 0).isLt
  constructor
  · intro h
    exact Prod.ext (Fin.ext (by show ((i : S512x512.Idx) 0).val / 128 = s.val; omega))
      (Fin.ext (by show ((i : S512x512.Idx) 0).val % 128 / 32 = ch.val; omega))
  · intro h
    have h1 : ((i : S512x512.Idx) 0).val / 128 = s.val := congrArg (fun p : Dev nD × Fin 4 => p.1.val) h
    have h2 : ((i : S512x512.Idx) 0).val % 128 / 32 = ch.val := congrArg (fun p : Dev nD × Fin 4 => p.2.val) h
    omega

theorem pts_outSl (c s : Dev nD) (ch : Fin 4) (f : Buf (Elt F) (outLoc c)) :
    pts (F := F) (outSl s ch) c f = (outLoc c ↦[keySet (outKey c) (s, ch)]{fullShare} f : sProp 𝕄) := by
  show (outLoc c ↦[(outSl s ch).view.set]{fullShare} f : sProp 𝕄) = _
  rw [outSl_set c s ch]

/-- Device `c`'s own rows first, then those of the devices one, two and three places on. -/
def outKeys (c : Dev nD) : List (Dev nD × Fin 4) := [(c, (0 : Fin 4)), (c, (1 : Fin 4)), (c, (2 : Fin 4)), (c, (3 : Fin 4)), ((pl c 1), (0 : Fin 4)), ((pl c 1), (1 : Fin 4)), ((pl c 1), (2 : Fin 4)), ((pl c 1), (3 : Fin 4)), ((pl c 2), (0 : Fin 4)), ((pl c 2), (1 : Fin 4)), ((pl c 2), (2 : Fin 4)), ((pl c 2), (3 : Fin 4)), ((pl c 3), (0 : Fin 4)), ((pl c 3), (1 : Fin 4)), ((pl c 3), (2 : Fin 4)), ((pl c 3), (3 : Fin 4))]

theorem outKeys_nodup : ∀ c : Dev nD, (outKeys c).Nodup := by decide
theorem outKeys_all : ∀ (c : Dev nD) (p : Dev nD × Fin 4), p ∈ outKeys c := by decide

theorem outKeys_cover (c : Dev nD) : keysSet (outKey c) (outKeys c) = Finset.univ :=
  Finset.eq_univ_iff_forall.mpr fun i => (mem_keysSet _ _ i).mpr (outKeys_all c _)

/-- The whole result buffer of device `c` is its sixteen pieces, all at one contents. -/
theorem split_out_eq (c : Dev nD) (f : Buf (Elt F) (outLoc c)) :
    (outLoc c ↦{fullShare} f : sProp 𝕄) = iprop(
      pts (F := F) (outSl c (0 : Fin 4)) c f
      ∗ pts (F := F) (outSl c (1 : Fin 4)) c f
      ∗ pts (F := F) (outSl c (2 : Fin 4)) c f
      ∗ pts (F := F) (outSl c (3 : Fin 4)) c f
      ∗ pts (F := F) (outSl (pl c 1) (0 : Fin 4)) c f
      ∗ pts (F := F) (outSl (pl c 1) (1 : Fin 4)) c f
      ∗ pts (F := F) (outSl (pl c 1) (2 : Fin 4)) c f
      ∗ pts (F := F) (outSl (pl c 1) (3 : Fin 4)) c f
      ∗ pts (F := F) (outSl (pl c 2) (0 : Fin 4)) c f
      ∗ pts (F := F) (outSl (pl c 2) (1 : Fin 4)) c f
      ∗ pts (F := F) (outSl (pl c 2) (2 : Fin 4)) c f
      ∗ pts (F := F) (outSl (pl c 2) (3 : Fin 4)) c f
      ∗ pts (F := F) (outSl (pl c 3) (0 : Fin 4)) c f
      ∗ pts (F := F) (outSl (pl c 3) (1 : Fin 4)) c f
      ∗ pts (F := F) (outSl (pl c 3) (2 : Fin 4)) c f
      ∗ pts (F := F) (outSl (pl c 3) (3 : Fin 4)) c f) := by
  have key := pts_keys_one (F := F) (outKey c) f fullShare (outKeys c) (outKeys_nodup c)
  rw [outKeys_cover c] at key
  simp only [pts_outSl]
  simp only [outKeys, List.map, sepChain] at key
  exact key.symm

theorem split_out (c : Dev nD) (f : Buf (Elt F) (outLoc c)) :
    (outLoc c ↦{fullShare} f : sProp 𝕄) ⊣⊢ iprop(
      pts (F := F) (outSl c (0 : Fin 4)) c f
      ∗ pts (F := F) (outSl c (1 : Fin 4)) c f
      ∗ pts (F := F) (outSl c (2 : Fin 4)) c f
      ∗ pts (F := F) (outSl c (3 : Fin 4)) c f
      ∗ pts (F := F) (outSl (pl c 1) (0 : Fin 4)) c f
      ∗ pts (F := F) (outSl (pl c 1) (1 : Fin 4)) c f
      ∗ pts (F := F) (outSl (pl c 1) (2 : Fin 4)) c f
      ∗ pts (F := F) (outSl (pl c 1) (3 : Fin 4)) c f
      ∗ pts (F := F) (outSl (pl c 2) (0 : Fin 4)) c f
      ∗ pts (F := F) (outSl (pl c 2) (1 : Fin 4)) c f
      ∗ pts (F := F) (outSl (pl c 2) (2 : Fin 4)) c f
      ∗ pts (F := F) (outSl (pl c 2) (3 : Fin 4)) c f
      ∗ pts (F := F) (outSl (pl c 3) (0 : Fin 4)) c f
      ∗ pts (F := F) (outSl (pl c 3) (1 : Fin 4)) c f
      ∗ pts (F := F) (outSl (pl c 3) (2 : Fin 4)) c f
      ∗ pts (F := F) (outSl (pl c 3) (3 : Fin 4)) c f) :=
  ⟨Entails.of_eq (split_out_eq c f), Entails.of_eq (split_out_eq c f).symm⟩

end Out

/-! ## The two four-slab buffers: twelve pieces and a rest -/

section Slabs

local notation "𝕄" => MT nD τ sig Unit (Elt F) ℕ UU ℕ

/-- The receive buffer and the partial product on device `c`. -/
abbrev rsLoc (c : Dev nD) : Loc nD τ sig := (c : Thread nD τ).loc cc0_scratch1
abbrev pLoc (c : Dev nD) : Loc nD τ sig := (c : Thread nD τ).loc cc0_scratch0

/-- The piece an element of a four-slab buffer lies in: its slab and its 32-row piece. -/
def slabKey (i : S4x128x512.Idx) : Dev nD × Fin 4 :=
  (⟨(i 0).val, (i 0).isLt⟩, ⟨(i 1).val / 32, by have h : (i 1).val < 128 := (i 1).isLt; omega⟩)
def rsKey (c : Dev nD) : Idx (rsLoc c) → Dev nD × Fin 4 := fun i => slabKey i
def pKey (c : Dev nD) : Idx (pLoc c) → Dev nD × Fin 4 := fun i => slabKey i

theorem rsDst_set (c : Dev nD) (k ch : Fin 4) : (rsDst k ch).view.set = keySet (rsKey c) (k, ch) := by
  ext i
  rw [mem_keySet]
  refine (mem_rsDst k ch i).trans ?_
  have hc := ch.isLt
  have h1 : ((i : S4x128x512.Idx) 1).val < 128 := ((i : S4x128x512.Idx) 1).isLt
  constructor
  · intro h
    exact Prod.ext (Fin.ext (by show ((i : S4x128x512.Idx) 0).val = k.val; omega))
      (Fin.ext (by show ((i : S4x128x512.Idx) 1).val / 32 = ch.val; omega))
  · intro h
    have e1 : ((i : S4x128x512.Idx) 0).val = k.val := congrArg (fun p : Dev nD × Fin 4 => p.1.val) h
    have e2 : ((i : S4x128x512.Idx) 1).val / 32 = ch.val := congrArg (fun p : Dev nD × Fin 4 => p.2.val) h
    omega

theorem rsSrc_set (c : Dev nD) (r : Fin 3) (ch : Fin 4) : (rsSrc c r ch).view.set = keySet (pKey c) (pl c (r.val + 1), ch) := by
  ext i
  rw [mem_keySet]
  refine (mem_rsSrc c r ch i).trans ?_
  have hc := ch.isLt
  have h1 : ((i : S4x128x512.Idx) 1).val < 128 := ((i : S4x128x512.Idx) 1).isLt
  constructor
  · intro h
    exact Prod.ext (Fin.ext (by show ((i : S4x128x512.Idx) 0).val = (c.val + (r.val + 1)) % 4; omega))
      (Fin.ext (by show ((i : S4x128x512.Idx) 1).val / 32 = ch.val; omega))
  · intro h
    have e1 : ((i : S4x128x512.Idx) 0).val = (c.val + (r.val + 1)) % 4 := congrArg (fun p : Dev nD × Fin 4 => p.1.val) h
    have e2 : ((i : S4x128x512.Idx) 1).val / 32 = ch.val := congrArg (fun p : Dev nD × Fin 4 => p.2.val) h
    omega

theorem pts_rsDst (c : Dev nD) (k ch : Fin 4) (f : Buf (Elt F) (rsLoc c)) :
    pts (F := F) (rsDst k ch) c f = (rsLoc c ↦[keySet (rsKey c) (k, ch)]{fullShare} f : sProp 𝕄) := by
  show (rsLoc c ↦[(rsDst k ch).view.set]{fullShare} f : sProp 𝕄) = _
  rw [rsDst_set c k ch]

theorem pts_rsSrc (c : Dev nD) (r : Fin 3) (ch : Fin 4) (f : Buf (Elt F) (pLoc c)) :
    pts (F := F) (rsSrc c r ch) c f = (pLoc c ↦[keySet (pKey c) (pl c (r.val + 1), ch)]{fullShare} f : sProp 𝕄) := by
  show (pLoc c ↦[(rsSrc c r ch).view.set]{fullShare} f : sProp 𝕄) = _
  rw [rsSrc_set c r ch]

/-- Slabs one, two and three of the receive buffer: the slabs the other devices write. -/
def rsKeys : List (Dev nD × Fin 4) := [((1 : Fin 4), (0 : Fin 4)), ((1 : Fin 4), (1 : Fin 4)), ((1 : Fin 4), (2 : Fin 4)), ((1 : Fin 4), (3 : Fin 4)), ((2 : Fin 4), (0 : Fin 4)), ((2 : Fin 4), (1 : Fin 4)), ((2 : Fin 4), (2 : Fin 4)), ((2 : Fin 4), (3 : Fin 4)), ((3 : Fin 4), (0 : Fin 4)), ((3 : Fin 4), (1 : Fin 4)), ((3 : Fin 4), (2 : Fin 4)), ((3 : Fin 4), (3 : Fin 4))]
/-- The slabs of the partial product that go to the devices one, two and three places on. -/
def pKeys (c : Dev nD) : List (Dev nD × Fin 4) := [(pl c ((0 : Fin 3).val + 1), (0 : Fin 4)), (pl c ((0 : Fin 3).val + 1), (1 : Fin 4)), (pl c ((0 : Fin 3).val + 1), (2 : Fin 4)), (pl c ((0 : Fin 3).val + 1), (3 : Fin 4)), (pl c ((1 : Fin 3).val + 1), (0 : Fin 4)), (pl c ((1 : Fin 3).val + 1), (1 : Fin 4)), (pl c ((1 : Fin 3).val + 1), (2 : Fin 4)), (pl c ((1 : Fin 3).val + 1), (3 : Fin 4)), (pl c ((2 : Fin 3).val + 1), (0 : Fin 4)), (pl c ((2 : Fin 3).val + 1), (1 : Fin 4)), (pl c ((2 : Fin 3).val + 1), (2 : Fin 4)), (pl c ((2 : Fin 3).val + 1), (3 : Fin 4))]

/-- How many places on, less one, the slab `d` of device `c`'s partial product goes. -/
def rOf (c d : Dev nD) : Fin 3 := ⟨(d.val + 3 - c.val) % 4 % 3, Nat.mod_lt _ (by decide)⟩
theorem rOf_pl : ∀ (c : Dev nD) (r : Fin 3), rOf c (pl c (r.val + 1)) = r := by decide

theorem rsKeys_nodup : rsKeys.Nodup := by decide
theorem pKeys_nodup : ∀ c : Dev nD, (pKeys c).Nodup := by decide

/-- What is left of the receive buffer: its slab 0, which no copy writes. -/
def rsRest (c : Dev nD) (f : Buf (Elt F) (rsLoc c)) : sProp 𝕄 :=
  rsLoc c ↦[Finset.univ \ keysSet (rsKey c) rsKeys]{fullShare} f
/-- What is left of the partial product: the device's own slab, which it keeps. -/
def pRest (c : Dev nD) (f : Buf (Elt F) (pLoc c)) : sProp 𝕄 :=
  pLoc c ↦[Finset.univ \ keysSet (pKey c) (pKeys c)]{fullShare} f

/-- The twelve pieces of the receive buffer, piece (k, ch) at contents `g k ch`, and the rest at `f`, as one chain. -/
theorem rs_chain (c : Dev nD) (f : Buf (Elt F) (rsLoc c)) (g : Fin 4 → Fin 4 → Buf (Elt F) (rsLoc c)) :
    iprop(
      pts (F := F) (rsDst (1 : Fin 4) (0 : Fin 4)) c (g (1 : Fin 4) (0 : Fin 4))
      ∗ pts (F := F) (rsDst (1 : Fin 4) (1 : Fin 4)) c (g (1 : Fin 4) (1 : Fin 4))
      ∗ pts (F := F) (rsDst (1 : Fin 4) (2 : Fin 4)) c (g (1 : Fin 4) (2 : Fin 4))
      ∗ pts (F := F) (rsDst (1 : Fin 4) (3 : Fin 4)) c (g (1 : Fin 4) (3 : Fin 4))
      ∗ pts (F := F) (rsDst (2 : Fin 4) (0 : Fin 4)) c (g (2 : Fin 4) (0 : Fin 4))
      ∗ pts (F := F) (rsDst (2 : Fin 4) (1 : Fin 4)) c (g (2 : Fin 4) (1 : Fin 4))
      ∗ pts (F := F) (rsDst (2 : Fin 4) (2 : Fin 4)) c (g (2 : Fin 4) (2 : Fin 4))
      ∗ pts (F := F) (rsDst (2 : Fin 4) (3 : Fin 4)) c (g (2 : Fin 4) (3 : Fin 4))
      ∗ pts (F := F) (rsDst (3 : Fin 4) (0 : Fin 4)) c (g (3 : Fin 4) (0 : Fin 4))
      ∗ pts (F := F) (rsDst (3 : Fin 4) (1 : Fin 4)) c (g (3 : Fin 4) (1 : Fin 4))
      ∗ pts (F := F) (rsDst (3 : Fin 4) (2 : Fin 4)) c (g (3 : Fin 4) (2 : Fin 4))
      ∗ pts (F := F) (rsDst (3 : Fin 4) (3 : Fin 4)) c (g (3 : Fin 4) (3 : Fin 4))
      ∗ rsRest (F := F) c f)
    = iprop((rsLoc c ↦[keysSet (rsKey c) rsKeys]{fullShare} (fun i => g (rsKey c i).1 (rsKey c i).2 i) : sProp 𝕄)
        ∗ rsLoc c ↦[Finset.univ \ keysSet (rsKey c) rsKeys]{fullShare} f) := by
  have key := pts_keys (F := F) (rsKey c) (fun p => g p.1 p.2) fullShare rsKeys rsKeys_nodup
  rw [← key, ← sepChain_snoc]
  simp only [pts_rsDst, rsRest]
  simp only [rsKeys, List.map, List.cons_append, List.nil_append, sepChain]

/-- The receive buffer of device `c` is its twelve written pieces and the rest, all at one contents. -/
theorem split_rs_eq (c : Dev nD) (f : Buf (Elt F) (rsLoc c)) :
    (rsLoc c ↦{fullShare} f : sProp 𝕄) = iprop(
      pts (F := F) (rsDst (1 : Fin 4) (0 : Fin 4)) c f
      ∗ pts (F := F) (rsDst (1 : Fin 4) (1 : Fin 4)) c f
      ∗ pts (F := F) (rsDst (1 : Fin 4) (2 : Fin 4)) c f
      ∗ pts (F := F) (rsDst (1 : Fin 4) (3 : Fin 4)) c f
      ∗ pts (F := F) (rsDst (2 : Fin 4) (0 : Fin 4)) c f
      ∗ pts (F := F) (rsDst (2 : Fin 4) (1 : Fin 4)) c f
      ∗ pts (F := F) (rsDst (2 : Fin 4) (2 : Fin 4)) c f
      ∗ pts (F := F) (rsDst (2 : Fin 4) (3 : Fin 4)) c f
      ∗ pts (F := F) (rsDst (3 : Fin 4) (0 : Fin 4)) c f
      ∗ pts (F := F) (rsDst (3 : Fin 4) (1 : Fin 4)) c f
      ∗ pts (F := F) (rsDst (3 : Fin 4) (2 : Fin 4)) c f
      ∗ pts (F := F) (rsDst (3 : Fin 4) (3 : Fin 4)) c f
      ∗ rsRest (F := F) c f) := by
  rw [rs_chain c f (fun _ _ => f)]
  have hs := pointsTo_split_subset (Val := Elt F) (Ix := Unit) (Name := ℕ) (U := UU) (Lvl := ℕ) (ℓ := rsLoc c) (q := fullShare) (f := f)
    (Finset.subset_univ (keysSet (rsKey c) rsKeys))
  exact BI.equiv_iff.mp ⟨hs.1, hs.2⟩

theorem split_rs (c : Dev nD) (f : Buf (Elt F) (rsLoc c)) :
    (rsLoc c ↦{fullShare} f : sProp 𝕄) ⊣⊢ iprop(
      pts (F := F) (rsDst (1 : Fin 4) (0 : Fin 4)) c f
      ∗ pts (F := F) (rsDst (1 : Fin 4) (1 : Fin 4)) c f
      ∗ pts (F := F) (rsDst (1 : Fin 4) (2 : Fin 4)) c f
      ∗ pts (F := F) (rsDst (1 : Fin 4) (3 : Fin 4)) c f
      ∗ pts (F := F) (rsDst (2 : Fin 4) (0 : Fin 4)) c f
      ∗ pts (F := F) (rsDst (2 : Fin 4) (1 : Fin 4)) c f
      ∗ pts (F := F) (rsDst (2 : Fin 4) (2 : Fin 4)) c f
      ∗ pts (F := F) (rsDst (2 : Fin 4) (3 : Fin 4)) c f
      ∗ pts (F := F) (rsDst (3 : Fin 4) (0 : Fin 4)) c f
      ∗ pts (F := F) (rsDst (3 : Fin 4) (1 : Fin 4)) c f
      ∗ pts (F := F) (rsDst (3 : Fin 4) (2 : Fin 4)) c f
      ∗ pts (F := F) (rsDst (3 : Fin 4) (3 : Fin 4)) c f
      ∗ rsRest (F := F) c f) :=
  ⟨Entails.of_eq (split_rs_eq c f), Entails.of_eq (split_rs_eq c f).symm⟩

/-- The twelve pieces at any contents and the rest make the whole receive buffer at some contents. -/
theorem join_rs (c : Dev nD) (f : Buf (Elt F) (rsLoc c)) (g : Fin 4 → Fin 4 → Buf (Elt F) (rsLoc c)) :
    iprop(
      pts (F := F) (rsDst (1 : Fin 4) (0 : Fin 4)) c (g (1 : Fin 4) (0 : Fin 4))
      ∗ pts (F := F) (rsDst (1 : Fin 4) (1 : Fin 4)) c (g (1 : Fin 4) (1 : Fin 4))
      ∗ pts (F := F) (rsDst (1 : Fin 4) (2 : Fin 4)) c (g (1 : Fin 4) (2 : Fin 4))
      ∗ pts (F := F) (rsDst (1 : Fin 4) (3 : Fin 4)) c (g (1 : Fin 4) (3 : Fin 4))
      ∗ pts (F := F) (rsDst (2 : Fin 4) (0 : Fin 4)) c (g (2 : Fin 4) (0 : Fin 4))
      ∗ pts (F := F) (rsDst (2 : Fin 4) (1 : Fin 4)) c (g (2 : Fin 4) (1 : Fin 4))
      ∗ pts (F := F) (rsDst (2 : Fin 4) (2 : Fin 4)) c (g (2 : Fin 4) (2 : Fin 4))
      ∗ pts (F := F) (rsDst (2 : Fin 4) (3 : Fin 4)) c (g (2 : Fin 4) (3 : Fin 4))
      ∗ pts (F := F) (rsDst (3 : Fin 4) (0 : Fin 4)) c (g (3 : Fin 4) (0 : Fin 4))
      ∗ pts (F := F) (rsDst (3 : Fin 4) (1 : Fin 4)) c (g (3 : Fin 4) (1 : Fin 4))
      ∗ pts (F := F) (rsDst (3 : Fin 4) (2 : Fin 4)) c (g (3 : Fin 4) (2 : Fin 4))
      ∗ pts (F := F) (rsDst (3 : Fin 4) (3 : Fin 4)) c (g (3 : Fin 4) (3 : Fin 4))
      ∗ rsRest (F := F) c f)
    ⊢ iprop(∃ f', (rsLoc c ↦{fullShare} f' : sProp 𝕄)) := by
  rw [rs_chain c f g]
  refine (pointsTo_join_subset (Finset.subset_univ (keysSet (rsKey c) rsKeys))).trans ?_
  iintro H
  iexists _
  iexact H

/-- The same for the partial product: piece (r, ch) is the piece that goes `r + 1` places on. -/
theorem p_chain (c : Dev nD) (f : Buf (Elt F) (pLoc c)) (g : Fin 3 → Fin 4 → Buf (Elt F) (pLoc c)) :
    iprop(
      pts (F := F) (rsSrc c (0 : Fin 3) (0 : Fin 4)) c (g (0 : Fin 3) (0 : Fin 4))
      ∗ pts (F := F) (rsSrc c (0 : Fin 3) (1 : Fin 4)) c (g (0 : Fin 3) (1 : Fin 4))
      ∗ pts (F := F) (rsSrc c (0 : Fin 3) (2 : Fin 4)) c (g (0 : Fin 3) (2 : Fin 4))
      ∗ pts (F := F) (rsSrc c (0 : Fin 3) (3 : Fin 4)) c (g (0 : Fin 3) (3 : Fin 4))
      ∗ pts (F := F) (rsSrc c (1 : Fin 3) (0 : Fin 4)) c (g (1 : Fin 3) (0 : Fin 4))
      ∗ pts (F := F) (rsSrc c (1 : Fin 3) (1 : Fin 4)) c (g (1 : Fin 3) (1 : Fin 4))
      ∗ pts (F := F) (rsSrc c (1 : Fin 3) (2 : Fin 4)) c (g (1 : Fin 3) (2 : Fin 4))
      ∗ pts (F := F) (rsSrc c (1 : Fin 3) (3 : Fin 4)) c (g (1 : Fin 3) (3 : Fin 4))
      ∗ pts (F := F) (rsSrc c (2 : Fin 3) (0 : Fin 4)) c (g (2 : Fin 3) (0 : Fin 4))
      ∗ pts (F := F) (rsSrc c (2 : Fin 3) (1 : Fin 4)) c (g (2 : Fin 3) (1 : Fin 4))
      ∗ pts (F := F) (rsSrc c (2 : Fin 3) (2 : Fin 4)) c (g (2 : Fin 3) (2 : Fin 4))
      ∗ pts (F := F) (rsSrc c (2 : Fin 3) (3 : Fin 4)) c (g (2 : Fin 3) (3 : Fin 4))
      ∗ pRest (F := F) c f)
    = iprop((pLoc c ↦[keysSet (pKey c) (pKeys c)]{fullShare} (fun i => g (rOf c (pKey c i).1) (pKey c i).2 i) : sProp 𝕄)
        ∗ pLoc c ↦[Finset.univ \ keysSet (pKey c) (pKeys c)]{fullShare} f) := by
  have key := pts_keys (F := F) (pKey c) (fun p => g (rOf c p.1) p.2) fullShare (pKeys c) (pKeys_nodup c)
  rw [← key, ← sepChain_snoc]
  simp only [pts_rsSrc, pRest]
  simp only [pKeys, List.map, List.cons_append, List.nil_append, sepChain, rOf_pl]

theorem split_p_eq (c : Dev nD) (f : Buf (Elt F) (pLoc c)) :
    (pLoc c ↦{fullShare} f : sProp 𝕄) = iprop(
      pts (F := F) (rsSrc c (0 : Fin 3) (0 : Fin 4)) c f
      ∗ pts (F := F) (rsSrc c (0 : Fin 3) (1 : Fin 4)) c f
      ∗ pts (F := F) (rsSrc c (0 : Fin 3) (2 : Fin 4)) c f
      ∗ pts (F := F) (rsSrc c (0 : Fin 3) (3 : Fin 4)) c f
      ∗ pts (F := F) (rsSrc c (1 : Fin 3) (0 : Fin 4)) c f
      ∗ pts (F := F) (rsSrc c (1 : Fin 3) (1 : Fin 4)) c f
      ∗ pts (F := F) (rsSrc c (1 : Fin 3) (2 : Fin 4)) c f
      ∗ pts (F := F) (rsSrc c (1 : Fin 3) (3 : Fin 4)) c f
      ∗ pts (F := F) (rsSrc c (2 : Fin 3) (0 : Fin 4)) c f
      ∗ pts (F := F) (rsSrc c (2 : Fin 3) (1 : Fin 4)) c f
      ∗ pts (F := F) (rsSrc c (2 : Fin 3) (2 : Fin 4)) c f
      ∗ pts (F := F) (rsSrc c (2 : Fin 3) (3 : Fin 4)) c f
      ∗ pRest (F := F) c f) := by
  rw [p_chain c f (fun _ _ => f)]
  have hs := pointsTo_split_subset (Val := Elt F) (Ix := Unit) (Name := ℕ) (U := UU) (Lvl := ℕ) (ℓ := pLoc c) (q := fullShare) (f := f)
    (Finset.subset_univ (keysSet (pKey c) (pKeys c)))
  exact BI.equiv_iff.mp ⟨hs.1, hs.2⟩

theorem split_p (c : Dev nD) (f : Buf (Elt F) (pLoc c)) :
    (pLoc c ↦{fullShare} f : sProp 𝕄) ⊣⊢ iprop(
      pts (F := F) (rsSrc c (0 : Fin 3) (0 : Fin 4)) c f
      ∗ pts (F := F) (rsSrc c (0 : Fin 3) (1 : Fin 4)) c f
      ∗ pts (F := F) (rsSrc c (0 : Fin 3) (2 : Fin 4)) c f
      ∗ pts (F := F) (rsSrc c (0 : Fin 3) (3 : Fin 4)) c f
      ∗ pts (F := F) (rsSrc c (1 : Fin 3) (0 : Fin 4)) c f
      ∗ pts (F := F) (rsSrc c (1 : Fin 3) (1 : Fin 4)) c f
      ∗ pts (F := F) (rsSrc c (1 : Fin 3) (2 : Fin 4)) c f
      ∗ pts (F := F) (rsSrc c (1 : Fin 3) (3 : Fin 4)) c f
      ∗ pts (F := F) (rsSrc c (2 : Fin 3) (0 : Fin 4)) c f
      ∗ pts (F := F) (rsSrc c (2 : Fin 3) (1 : Fin 4)) c f
      ∗ pts (F := F) (rsSrc c (2 : Fin 3) (2 : Fin 4)) c f
      ∗ pts (F := F) (rsSrc c (2 : Fin 3) (3 : Fin 4)) c f
      ∗ pRest (F := F) c f) :=
  ⟨Entails.of_eq (split_p_eq c f), Entails.of_eq (split_p_eq c f).symm⟩

theorem join_p (c : Dev nD) (f : Buf (Elt F) (pLoc c)) (g : Fin 3 → Fin 4 → Buf (Elt F) (pLoc c)) :
    iprop(
      pts (F := F) (rsSrc c (0 : Fin 3) (0 : Fin 4)) c (g (0 : Fin 3) (0 : Fin 4))
      ∗ pts (F := F) (rsSrc c (0 : Fin 3) (1 : Fin 4)) c (g (0 : Fin 3) (1 : Fin 4))
      ∗ pts (F := F) (rsSrc c (0 : Fin 3) (2 : Fin 4)) c (g (0 : Fin 3) (2 : Fin 4))
      ∗ pts (F := F) (rsSrc c (0 : Fin 3) (3 : Fin 4)) c (g (0 : Fin 3) (3 : Fin 4))
      ∗ pts (F := F) (rsSrc c (1 : Fin 3) (0 : Fin 4)) c (g (1 : Fin 3) (0 : Fin 4))
      ∗ pts (F := F) (rsSrc c (1 : Fin 3) (1 : Fin 4)) c (g (1 : Fin 3) (1 : Fin 4))
      ∗ pts (F := F) (rsSrc c (1 : Fin 3) (2 : Fin 4)) c (g (1 : Fin 3) (2 : Fin 4))
      ∗ pts (F := F) (rsSrc c (1 : Fin 3) (3 : Fin 4)) c (g (1 : Fin 3) (3 : Fin 4))
      ∗ pts (F := F) (rsSrc c (2 : Fin 3) (0 : Fin 4)) c (g (2 : Fin 3) (0 : Fin 4))
      ∗ pts (F := F) (rsSrc c (2 : Fin 3) (1 : Fin 4)) c (g (2 : Fin 3) (1 : Fin 4))
      ∗ pts (F := F) (rsSrc c (2 : Fin 3) (2 : Fin 4)) c (g (2 : Fin 3) (2 : Fin 4))
      ∗ pts (F := F) (rsSrc c (2 : Fin 3) (3 : Fin 4)) c (g (2 : Fin 3) (3 : Fin 4))
      ∗ pRest (F := F) c f)
    ⊢ iprop(∃ f', (pLoc c ↦{fullShare} f' : sProp 𝕄)) := by
  rw [p_chain c f g]
  refine (pointsTo_join_subset (Finset.subset_univ (keysSet (pKey c) (pKeys c)))).trans ?_
  iintro H
  iexists _
  iexact H

end Slabs

/-- info: 'Cert.KernelIdeal.Hand.rs_landed_pts' depends on axioms: [propext, Classical.choice, Quot.sound] -/
#guard_msgs in #print axioms rs_landed_pts
/-- info: 'Cert.KernelIdeal.Hand.ag_landed_pts' depends on axioms: [propext, Classical.choice, Quot.sound] -/
#guard_msgs in #print axioms ag_landed_pts
/-- info: 'Cert.KernelIdeal.Hand.split_out' depends on axioms: [propext, Classical.choice, Quot.sound] -/
#guard_msgs in #print axioms split_out
/-- info: 'Cert.KernelIdeal.Hand.split_rs' depends on axioms: [propext, Classical.choice, Quot.sound] -/
#guard_msgs in #print axioms split_rs
/-- info: 'Cert.KernelIdeal.Hand.join_rs' depends on axioms: [propext, Classical.choice, Quot.sound] -/
#guard_msgs in #print axioms join_rs
/-- info: 'Cert.KernelIdeal.Hand.split_p' depends on axioms: [propext, Classical.choice, Quot.sound] -/
#guard_msgs in #print axioms split_p
/-- info: 'Cert.KernelIdeal.Hand.join_p' depends on axioms: [propext, Classical.choice, Quot.sound] -/
#guard_msgs in #print axioms join_p

end Cert.KernelIdeal.Hand

end
-- ==== Proof.KernelIdealTables.lean ====
/-
  The schedule's tables, cell by cell, and the two remote-copy rules at this protocol's cells.

  The sixty-four scratch DMA semaphores are numbered 3 … 66: array `A` (0 the partial-product sends, 1 their
  receives, 2 the finished-piece sends, 3 their receives), row `a`, column `b` is number `3 + 16·A + 4·a + b`. A
  cell of row 0 has no duty; a cell of row `a ≠ 0` has the one duty `0` of one piece's credit in round 0, and what
  it hands its owner is read off the array and the row.
-/
import proofs.«900554_g7700000000000555_dist_matmul_gelu_kshard_i_m512_n512_k256_v7x_i4_bf16_1_alg».proof.Proof.KernelIdealState
import proofs.«900554_g7700000000000555_dist_matmul_gelu_kshard_i_m512_n512_k256_v7x_i4_bf16_1_alg».proof.Proof.KernelIdealPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The scratch semaphores by number -/

theorem semOf_val2 (a b : Fin 4) : (semOf cc0_scratch2 a b).val = 3 + 16 * 0 + 4 * a.val + b.val := by revert a b; decide
theorem semOf_val3 (a b : Fin 4) : (semOf cc0_scratch3 a b).val = 3 + 16 * 1 + 4 * a.val + b.val := by revert a b; decide
theorem semOf_val4 (a b : Fin 4) : (semOf cc0_scratch4 a b).val = 3 + 16 * 2 + 4 * a.val + b.val := by revert a b; decide
theorem semOf_val5 (a b : Fin 4) : (semOf cc0_scratch5 a b).val = 3 + 16 * 3 + 4 * a.val + b.val := by revert a b; decide

theorem three_le2 (a b : Fin 4) : 3 ≤ (semOf cc0_scratch2 a b).val := by rw [semOf_val2]; omega
theorem three_le3 (a b : Fin 4) : 3 ≤ (semOf cc0_scratch3 a b).val := by rw [semOf_val3]; omega
theorem three_le4 (a b : Fin 4) : 3 ≤ (semOf cc0_scratch4 a b).val := by rw [semOf_val4]; omega
theorem three_le5 (a b : Fin 4) : 3 ≤ (semOf cc0_scratch5 a b).val := by rw [semOf_val5]; omega

theorem arrOf2 (a b : Fin 4) : arrOf (semOf cc0_scratch2 a b) = 0 := by unfold arrOf; rw [semOf_val2]; omega
theorem arrOf3 (a b : Fin 4) : arrOf (semOf cc0_scratch3 a b) = 1 := by unfold arrOf; rw [semOf_val3]; omega
theorem arrOf4 (a b : Fin 4) : arrOf (semOf cc0_scratch4 a b) = 2 := by unfold arrOf; rw [semOf_val4]; omega
theorem arrOf5 (a b : Fin 4) : arrOf (semOf cc0_scratch5 a b) = 3 := by unfold arrOf; rw [semOf_val5]; omega

theorem rowOf2 (a b : Fin 4) : rowOf (semOf cc0_scratch2 a b) = a.val := by unfold rowOf; rw [semOf_val2]; omega
theorem rowOf3 (a b : Fin 4) : rowOf (semOf cc0_scratch3 a b) = a.val := by unfold rowOf; rw [semOf_val3]; omega
theorem rowOf4 (a b : Fin 4) : rowOf (semOf cc0_scratch4 a b) = a.val := by unfold rowOf; rw [semOf_val4]; omega
theorem rowOf5 (a b : Fin 4) : rowOf (semOf cc0_scratch5 a b) = a.val := by unfold rowOf; rw [semOf_val5]; omega

theorem colOf2 (a b : Fin 4) : colOf (semOf cc0_scratch2 a b) = b.val := by unfold colOf; rw [semOf_val2]; omega
theorem colOf3 (a b : Fin 4) : colOf (semOf cc0_scratch3 a b) = b.val := by unfold colOf; rw [semOf_val3]; omega
theorem colOf4 (a b : Fin 4) : colOf (semOf cc0_scratch4 a b) = b.val := by unfold colOf; rw [semOf_val4]; omega
theorem colOf5 (a b : Fin 4) : colOf (semOf cc0_scratch5 a b) = b.val := by unfold colOf; rw [semOf_val5]; omega

/-! ## What a copy's completion hands over, by array -/

/-- Array 0, row `r + 1`: the source piece of the copy to the device `r + 1` places on comes back. -/
theorem dmaPay_0 (c : Dev nD) (a b : ℕ) (r : Fin 3) (ch : Fin 4) (ha : (a + 2) % 3 = r.val) (hb : b % 4 = ch.val) :
    dmaPay m c 0 a b = pts (rsSrc c r ch) c (Pblk m c) := by
  obtain ⟨rv, hr⟩ := r; obtain ⟨cv, hc⟩ := ch
  dsimp only at ha hb; subst ha hb
  unfold dmaPay; rw [if_pos rfl]
/-- Array 1, row `k`: slab `k` of the receive buffer is written. -/
theorem dmaPay_1 (c : Dev nD) (a b : ℕ) (k ch : Fin 4) (ha : a % 4 = k.val) (hb : b % 4 = ch.val) :
    dmaPay m c 1 a b = pts (rsDst k ch) c (RSfun m c) := by
  obtain ⟨kv, hk⟩ := k; obtain ⟨cv, hc⟩ := ch
  dsimp only at ha hb; subst ha hb
  unfold dmaPay; rw [if_neg (by decide), if_pos rfl]
/-- Array 2, row `a`: the share of the finished piece that the copy to the device `a` places on read comes back. -/
theorem dmaPay_2 (c : Dev nD) (a b : ℕ) (ch : Fin 4) (hb : b % 4 = ch.val) :
    dmaPay m c 2 a b = ((outSl c ch).view.loc (c : Thread nD τ) ↦[(outSl c ch).view.set]{agShare a} OUT m) := by
  obtain ⟨cv, hc⟩ := ch
  dsimp only at hb; subst hb
  unfold dmaPay; rw [if_neg (by decide), if_neg (by decide), if_pos rfl]
/-- Array 3, row `a`: the piece of the device `a` places on is written. -/
theorem dmaPay_3 (c : Dev nD) (a b : ℕ) (ch : Fin 4) (hb : b % 4 = ch.val) :
    dmaPay m c 3 a b = pts (outSl (pl c a) ch) c (OUT m) := by
  obtain ⟨cv, hc⟩ := ch
  dsimp only at hb; subst hb
  unfold dmaPay; rw [if_neg (by decide), if_neg (by decide), if_neg (by decide)]

/-- The three thirds of a finished piece's share, by the row of the send cell. -/
theorem agShare_1 : agShare 1 = fullShare.right.left := rfl
theorem agShare_2 : agShare 2 = fullShare.left := rfl
theorem agShare_3 : agShare 3 = fullShare.right.right := rfl

/-! ## The tables -/

section Sched
variable (c : Dev nD) (r : Fin 3) (ch : Fin 4)

theorem duties_later (g : GSem nD τ sig) : ∀ r, 1 ≤ r → (Rd m).duties g r = ∅ :=
  fun r hr => by dsimp only [Rd]; rw [if_neg fun h => by have := h.1; omega]

theorem succ_ne_zero : (r.succ : Fin 4).val ≠ 0 := Nat.succ_ne_zero _

theorem duties_rsS : (Rd m).duties (rsS c r.succ ch) 0 = {0} := by
  dsimp only [Rd]; rw [if_pos ⟨rfl, rfl⟩]; exact if_pos ⟨three_le2 _ _, by rw [rowOf2]; exact succ_ne_zero r⟩
theorem duties_rsR : (Rd m).duties (rsR c r.succ ch) 0 = {0} := by
  dsimp only [Rd]; rw [if_pos ⟨rfl, rfl⟩]; exact if_pos ⟨three_le3 _ _, by rw [rowOf3]; exact succ_ne_zero r⟩
theorem duties_agS : (Rd m).duties (agS c r.succ ch) 0 = {0} := by
  dsimp only [Rd]; rw [if_pos ⟨rfl, rfl⟩]; exact if_pos ⟨three_le4 _ _, by rw [rowOf4]; exact succ_ne_zero r⟩
theorem duties_agR : (Rd m).duties (agR c r.succ ch) 0 = {0} := by
  dsimp only [Rd]; rw [if_pos ⟨rfl, rfl⟩]; exact if_pos ⟨three_le5 _ _, by rw [rowOf5]; exact succ_ne_zero r⟩

/-- Row 0 of each array is never copied on. -/
theorem duties_rsS_row0 (R : ℕ) : (Rd m).duties (rsS c 0 ch) R = ∅ := by
  dsimp only [Rd]; split
  · exact if_neg fun h => h.2 (by rw [rowOf2]; rfl)
  · rfl
theorem duties_rsR_row0 (R : ℕ) : (Rd m).duties (rsR c 0 ch) R = ∅ := by
  dsimp only [Rd]; split
  · exact if_neg fun h => h.2 (by rw [rowOf3]; rfl)
  · rfl
theorem duties_agS_row0 (R : ℕ) : (Rd m).duties (agS c 0 ch) R = ∅ := by
  dsimp only [Rd]; split
  · exact if_neg fun h => h.2 (by rw [rowOf4]; rfl)
  · rfl
theorem duties_agR_row0 (R : ℕ) : (Rd m).duties (agR c 0 ch) R = ∅ := by
  dsimp only [Rd]; split
  · exact if_neg fun h => h.2 (by rw [rowOf5]; rfl)
  · rfl

theorem amount_rsS (d : Fin 4) : (Rd m).amount (rsS c r.succ ch) 0 d = Nr := by
  dsimp only [Rd]; exact if_pos (by rw [arrOf2]; decide)
theorem amount_rsR (d : Fin 4) : (Rd m).amount (rsR c r.succ ch) 0 d = Nr := by
  dsimp only [Rd]; exact if_pos (by rw [arrOf3]; decide)
theorem amount_agS (d : Fin 4) : (Rd m).amount (agS c r.succ ch) 0 d = No := by
  dsimp only [Rd]; exact if_neg (by rw [arrOf4]; decide)
theorem amount_agR (d : Fin 4) : (Rd m).amount (agR c r.succ ch) 0 d = No := by
  dsimp only [Rd]; exact if_neg (by rw [arrOf5]; decide)

theorem expect_rsS : (Rd m).expect (rsS c r.succ ch) 0 = Nr := by
  unfold Schedule.expect Schedule.amountOf; rw [duties_rsS, Finset.sum_singleton, amount_rsS]
theorem expect_rsR : (Rd m).expect (rsR c r.succ ch) 0 = Nr := by
  unfold Schedule.expect Schedule.amountOf; rw [duties_rsR, Finset.sum_singleton, amount_rsR]
theorem expect_agS : (Rd m).expect (agS c r.succ ch) 0 = No := by
  unfold Schedule.expect Schedule.amountOf; rw [duties_agS, Finset.sum_singleton, amount_agS]
theorem expect_agR : (Rd m).expect (agR c r.succ ch) 0 = No := by
  unfold Schedule.expect Schedule.amountOf; rw [duties_agR, Finset.sum_singleton, amount_agR]

theorem payload_rsS (d : Fin 4) : (Rd m).payload (rsS c r.succ ch) 0 d
    = ((rsSrc c r ch).view.loc (c : Thread nD τ) ↦[(rsSrc c r ch).view.set]{fullShare} Pblk m c) := by
  dsimp only [Rd]; rw [arrOf2, rowOf2, colOf2]
  exact dmaPay_0 m c _ _ r ch (by have := r.isLt; rw [Fin.val_succ]; omega) (Nat.mod_eq_of_lt ch.isLt)
theorem payload_rsR (d : Fin 4) : (Rd m).payload (rsR c r.succ ch) 0 d
    = ((rsDst r.succ ch).view.loc (c : Thread nD τ) ↦[(rsDst r.succ ch).view.set]{fullShare} RSfun m c) := by
  dsimp only [Rd]; rw [arrOf3, rowOf3, colOf3]
  exact dmaPay_1 m c _ _ r.succ ch (Nat.mod_eq_of_lt r.succ.isLt) (Nat.mod_eq_of_lt ch.isLt)
theorem payload_agS (d : Fin 4) : (Rd m).payload (agS c r.succ ch) 0 d
    = ((outSl c ch).view.loc (c : Thread nD τ) ↦[(outSl c ch).view.set]{agShare (r.val + 1)} OUT m) := by
  dsimp only [Rd]; rw [arrOf4, rowOf4, colOf4, Fin.val_succ]
  exact dmaPay_2 m c _ _ ch (Nat.mod_eq_of_lt ch.isLt)
theorem payload_agR (d : Fin 4) : (Rd m).payload (agR c r.succ ch) 0 d
    = ((outSl (pl c (r.val + 1)) ch).view.loc (c : Thread nD τ) ↦[(outSl (pl c (r.val + 1)) ch).view.set]{fullShare} OUT m) := by
  dsimp only [Rd]; rw [arrOf5, rowOf5, colOf5, Fin.val_succ]
  exact dmaPay_3 m c _ _ ch (Nat.mod_eq_of_lt ch.isLt)

theorem rest_rsS : bigSep ((Rd m).duties (rsS c r.succ ch) 0 \ ∅) (fun d => (Rd m).payload (rsS c r.succ ch) 0 d)
    = ((rsSrc c r ch).view.loc (c : Thread nD τ) ↦[(rsSrc c r ch).view.set]{fullShare} Pblk m c) := by
  rw [Finset.sdiff_empty, duties_rsS, bigSep_singleton, payload_rsS]
theorem rest_rsR : bigSep ((Rd m).duties (rsR c r.succ ch) 0 \ ∅) (fun d => (Rd m).payload (rsR c r.succ ch) 0 d)
    = ((rsDst r.succ ch).view.loc (c : Thread nD τ) ↦[(rsDst r.succ ch).view.set]{fullShare} RSfun m c) := by
  rw [Finset.sdiff_empty, duties_rsR, bigSep_singleton, payload_rsR]
theorem rest_agS : bigSep ((Rd m).duties (agS c r.succ ch) 0 \ ∅) (fun d => (Rd m).payload (agS c r.succ ch) 0 d)
    = ((outSl c ch).view.loc (c : Thread nD τ) ↦[(outSl c ch).view.set]{agShare (r.val + 1)} OUT m) := by
  rw [Finset.sdiff_empty, duties_agS, bigSep_singleton, payload_agS]
theorem rest_agR : bigSep ((Rd m).duties (agR c r.succ ch) 0 \ ∅) (fun d => (Rd m).payload (agR c r.succ ch) 0 d)
    = ((outSl (pl c (r.val + 1)) ch).view.loc (c : Thread nD τ) ↦[(outSl (pl c (r.val + 1)) ch).view.set]{fullShare} OUT m) := by
  rw [Finset.sdiff_empty, duties_agR, bigSep_singleton, payload_agR]

end Sched

/-! ## The tables at the rows the program names (rows 1, 2, 3 as numerals; the piece stays a variable) -/

section Rows
variable (c : Dev nD) (ch : Fin 4)

theorem duties_rsS_1 : (Rd m).duties (rsS c 1 ch) 0 = {0} := duties_rsS m c 0 ch
theorem duties_rsS_2 : (Rd m).duties (rsS c 2 ch) 0 = {0} := duties_rsS m c 1 ch
theorem duties_rsS_3 : (Rd m).duties (rsS c 3 ch) 0 = {0} := duties_rsS m c 2 ch
theorem duties_rsR_1 : (Rd m).duties (rsR c 1 ch) 0 = {0} := duties_rsR m c 0 ch
theorem duties_rsR_2 : (Rd m).duties (rsR c 2 ch) 0 = {0} := duties_rsR m c 1 ch
theorem duties_rsR_3 : (Rd m).duties (rsR c 3 ch) 0 = {0} := duties_rsR m c 2 ch
theorem duties_agS_1 : (Rd m).duties (agS c 1 ch) 0 = {0} := duties_agS m c 0 ch
theorem duties_agS_2 : (Rd m).duties (agS c 2 ch) 0 = {0} := duties_agS m c 1 ch
theorem duties_agS_3 : (Rd m).duties (agS c 3 ch) 0 = {0} := duties_agS m c 2 ch
theorem duties_agR_1 : (Rd m).duties (agR c 1 ch) 0 = {0} := duties_agR m c 0 ch
theorem duties_agR_2 : (Rd m).duties (agR c 2 ch) 0 = {0} := duties_agR m c 1 ch
theorem duties_agR_3 : (Rd m).duties (agR c 3 ch) 0 = {0} := duties_agR m c 2 ch

theorem amount_rsS_1 (d : Fin 4) : (Rd m).amount (rsS c 1 ch) 0 d = Nr := amount_rsS m c 0 ch d
theorem amount_rsS_2 (d : Fin 4) : (Rd m).amount (rsS c 2 ch) 0 d = Nr := amount_rsS m c 1 ch d
theorem amount_rsS_3 (d : Fin 4) : (Rd m).amount (rsS c 3 ch) 0 d = Nr := amount_rsS m c 2 ch d
theorem amount_rsR_1 (d : Fin 4) : (Rd m).amount (rsR c 1 ch) 0 d = Nr := amount_rsR m c 0 ch d
theorem amount_rsR_2 (d : Fin 4) : (Rd m).amount (rsR c 2 ch) 0 d = Nr := amount_rsR m c 1 ch d
theorem amount_rsR_3 (d : Fin 4) : (Rd m).amount (rsR c 3 ch) 0 d = Nr := amount_rsR m c 2 ch d
theorem amount_agS_1 (d : Fin 4) : (Rd m).amount (agS c 1 ch) 0 d = No := amount_agS m c 0 ch d
theorem amount_agS_2 (d : Fin 4) : (Rd m).amount (agS c 2 ch) 0 d = No := amount_agS m c 1 ch d
theorem amount_agS_3 (d : Fin 4) : (Rd m).amount (agS c 3 ch) 0 d = No := amount_agS m c 2 ch d
theorem amount_agR_1 (d : Fin 4) : (Rd m).amount (agR c 1 ch) 0 d = No := amount_agR m c 0 ch d
theorem amount_agR_2 (d : Fin 4) : (Rd m).amount (agR c 2 ch) 0 d = No := amount_agR m c 1 ch d
theorem amount_agR_3 (d : Fin 4) : (Rd m).amount (agR c 3 ch) 0 d = No := amount_agR m c 2 ch d

theorem expect_rsS_1 : (Rd m).expect (rsS c 1 ch) 0 = Nr := expect_rsS m c 0 ch
theorem expect_rsS_2 : (Rd m).expect (rsS c 2 ch) 0 = Nr := expect_rsS m c 1 ch
theorem expect_rsS_3 : (Rd m).expect (rsS c 3 ch) 0 = Nr := expect_rsS m c 2 ch
theorem expect_rsR_1 : (Rd m).expect (rsR c 1 ch) 0 = Nr := expect_rsR m c 0 ch
theorem expect_rsR_2 : (Rd m).expect (rsR c 2 ch) 0 = Nr := expect_rsR m c 1 ch
theorem expect_rsR_3 : (Rd m).expect (rsR c 3 ch) 0 = Nr := expect_rsR m c 2 ch
theorem expect_agS_1 : (Rd m).expect (agS c 1 ch) 0 = No := expect_agS m c 0 ch
theorem expect_agS_2 : (Rd m).expect (agS c 2 ch) 0 = No := expect_agS m c 1 ch
theorem expect_agS_3 : (Rd m).expect (agS c 3 ch) 0 = No := expect_agS m c 2 ch
theorem expect_agR_1 : (Rd m).expect (agR c 1 ch) 0 = No := expect_agR m c 0 ch
theorem expect_agR_2 : (Rd m).expect (agR c 2 ch) 0 = No := expect_agR m c 1 ch
theorem expect_agR_3 : (Rd m).expect (agR c 3 ch) 0 = No := expect_agR m c 2 ch

theorem payload_rsS_1 (d : Fin 4) : (Rd m).payload (rsS c 1 ch) 0 d
    = ((rsSrc c 0 ch).view.loc (c : Thread nD τ) ↦[(rsSrc c 0 ch).view.set]{fullShare} Pblk m c) := payload_rsS m c 0 ch d
theorem payload_rsS_2 (d : Fin 4) : (Rd m).payload (rsS c 2 ch) 0 d
    = ((rsSrc c 1 ch).view.loc (c : Thread nD τ) ↦[(rsSrc c 1 ch).view.set]{fullShare} Pblk m c) := payload_rsS m c 1 ch d
theorem payload_rsS_3 (d : Fin 4) : (Rd m).payload (rsS c 3 ch) 0 d
    = ((rsSrc c 2 ch).view.loc (c : Thread nD τ) ↦[(rsSrc c 2 ch).view.set]{fullShare} Pblk m c) := payload_rsS m c 2 ch d
theorem payload_rsR_1 (d : Fin 4) : (Rd m).payload (rsR c 1 ch) 0 d
    = ((rsDst 1 ch).view.loc (c : Thread nD τ) ↦[(rsDst 1 ch).view.set]{fullShare} RSfun m c) := payload_rsR m c 0 ch d
theorem payload_rsR_2 (d : Fin 4) : (Rd m).payload (rsR c 2 ch) 0 d
    = ((rsDst 2 ch).view.loc (c : Thread nD τ) ↦[(rsDst 2 ch).view.set]{fullShare} RSfun m c) := payload_rsR m c 1 ch d
theorem payload_rsR_3 (d : Fin 4) : (Rd m).payload (rsR c 3 ch) 0 d
    = ((rsDst 3 ch).view.loc (c : Thread nD τ) ↦[(rsDst 3 ch).view.set]{fullShare} RSfun m c) := payload_rsR m c 2 ch d
theorem payload_agS_1 (d : Fin 4) : (Rd m).payload (agS c 1 ch) 0 d
    = ((outSl c ch).view.loc (c : Thread nD τ) ↦[(outSl c ch).view.set]{fullShare.right.left} OUT m) := payload_agS m c 0 ch d
theorem payload_agS_2 (d : Fin 4) : (Rd m).payload (agS c 2 ch) 0 d
    = ((outSl c ch).view.loc (c : Thread nD τ) ↦[(outSl c ch).view.set]{fullShare.left} OUT m) := payload_agS m c 1 ch d
theorem payload_agS_3 (d : Fin 4) : (Rd m).payload (agS c 3 ch) 0 d
    = ((outSl c ch).view.loc (c : Thread nD τ) ↦[(outSl c ch).view.set]{fullShare.right.right} OUT m) := payload_agS m c 2 ch d
theorem payload_agR_1 (d : Fin 4) : (Rd m).payload (agR c 1 ch) 0 d
    = ((outSl (pl c 1) ch).view.loc (c : Thread nD τ) ↦[(outSl (pl c 1) ch).view.set]{fullShare} OUT m) := payload_agR m c 0 ch d
theorem payload_agR_2 (d : Fin 4) : (Rd m).payload (agR c 2 ch) 0 d
    = ((outSl (pl c 2) ch).view.loc (c : Thread nD τ) ↦[(outSl (pl c 2) ch).view.set]{fullShare} OUT m) := payload_agR m c 1 ch d
theorem payload_agR_3 (d : Fin 4) : (Rd m).payload (agR c 3 ch) 0 d
    = ((outSl (pl c 3) ch).view.loc (c : Thread nD τ) ↦[(outSl (pl c 3) ch).view.set]{fullShare} OUT m) := payload_agR m c 2 ch d

theorem rest_rsS_1 : bigSep ((Rd m).duties (rsS c 1 ch) 0 \ ∅) (fun d => (Rd m).payload (rsS c 1 ch) 0 d)
    = ((rsSrc c 0 ch).view.loc (c : Thread nD τ) ↦[(rsSrc c 0 ch).view.set]{fullShare} Pblk m c) := rest_rsS m c 0 ch
theorem rest_rsS_2 : bigSep ((Rd m).duties (rsS c 2 ch) 0 \ ∅) (fun d => (Rd m).payload (rsS c 2 ch) 0 d)
    = ((rsSrc c 1 ch).view.loc (c : Thread nD τ) ↦[(rsSrc c 1 ch).view.set]{fullShare} Pblk m c) := rest_rsS m c 1 ch
theorem rest_rsS_3 : bigSep ((Rd m).duties (rsS c 3 ch) 0 \ ∅) (fun d => (Rd m).payload (rsS c 3 ch) 0 d)
    = ((rsSrc c 2 ch).view.loc (c : Thread nD τ) ↦[(rsSrc c 2 ch).view.set]{fullShare} Pblk m c) := rest_rsS m c 2 ch
theorem rest_rsR_1 : bigSep ((Rd m).duties (rsR c 1 ch) 0 \ ∅) (fun d => (Rd m).payload (rsR c 1 ch) 0 d)
    = ((rsDst 1 ch).view.loc (c : Thread nD τ) ↦[(rsDst 1 ch).view.set]{fullShare} RSfun m c) := rest_rsR m c 0 ch
theorem rest_rsR_2 : bigSep ((Rd m).duties (rsR c 2 ch) 0 \ ∅) (fun d => (Rd m).payload (rsR c 2 ch) 0 d)
    = ((rsDst 2 ch).view.loc (c : Thread nD τ) ↦[(rsDst 2 ch).view.set]{fullShare} RSfun m c) := rest_rsR m c 1 ch
theorem rest_rsR_3 : bigSep ((Rd m).duties (rsR c 3 ch) 0 \ ∅) (fun d => (Rd m).payload (rsR c 3 ch) 0 d)
    = ((rsDst 3 ch).view.loc (c : Thread nD τ) ↦[(rsDst 3 ch).view.set]{fullShare} RSfun m c) := rest_rsR m c 2 ch
theorem rest_agS_1 : bigSep ((Rd m).duties (agS c 1 ch) 0 \ ∅) (fun d => (Rd m).payload (agS c 1 ch) 0 d)
    = ((outSl c ch).view.loc (c : Thread nD τ) ↦[(outSl c ch).view.set]{fullShare.right.left} OUT m) := rest_agS m c 0 ch
theorem rest_agS_2 : bigSep ((Rd m).duties (agS c 2 ch) 0 \ ∅) (fun d => (Rd m).payload (agS c 2 ch) 0 d)
    = ((outSl c ch).view.loc (c : Thread nD τ) ↦[(outSl c ch).view.set]{fullShare.left} OUT m) := rest_agS m c 1 ch
theorem rest_agS_3 : bigSep ((Rd m).duties (agS c 3 ch) 0 \ ∅) (fun d => (Rd m).payload (agS c 3 ch) 0 d)
    = ((outSl c ch).view.loc (c : Thread nD τ) ↦[(outSl c ch).view.set]{fullShare.right.right} OUT m) := rest_agS m c 2 ch
theorem rest_agR_1 : bigSep ((Rd m).duties (agR c 1 ch) 0 \ ∅) (fun d => (Rd m).payload (agR c 1 ch) 0 d)
    = ((outSl (pl c 1) ch).view.loc (c : Thread nD τ) ↦[(outSl (pl c 1) ch).view.set]{fullShare} OUT m) := rest_agR m c 0 ch
theorem rest_agR_2 : bigSep ((Rd m).duties (agR c 2 ch) 0 \ ∅) (fun d => (Rd m).payload (agR c 2 ch) 0 d)
    = ((outSl (pl c 2) ch).view.loc (c : Thread nD τ) ↦[(outSl (pl c 2) ch).view.set]{fullShare} OUT m) := rest_agR m c 1 ch
theorem rest_agR_3 : bigSep ((Rd m).duties (agR c 3 ch) 0 \ ∅) (fun d => (Rd m).payload (agR c 3 ch) 0 d)
    = ((outSl (pl c 3) ch).view.loc (c : Thread nD τ) ↦[(outSl (pl c 3) ch).view.set]{fullShare} OUT m) := rest_agR m c 2 ch

end Rows

/-! ## The two remote copies -/

/-- The copy of piece `ch` of a slab of device `c`'s partial product into the receive buffer of the device `r + 1`
    places on, at this protocol's cells (the peer, the semaphores and the two pieces as the program spells them,
    substituted): the source piece comes back on the send cell unchanged; what lands is the piece at its final contents,
    which is what the target's receive cell hands its owner. -/
theorem wp_rs_send (c : Dev nD) (r : Fin 3) (ch : Fin 4) (n : Dev nD) (hn : n = pl c (r.val + 1))
    (sS sR : DmaSem sig) (hS : sS = semOf cc0_scratch2 r.succ ch) (hR : sR = semOf cc0_scratch3 r.rev.succ ch)
    (src dst : Memref sig .tc .vmem S32x512 .bf16) (hsrc' : src = rsSrc c r ch) (hdst' : dst = rsDst r.rev.succ ch)
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (κ₁ κ₂ : ℕ)
    (fd : Buf (Elt F) ((rsDst r.rev.succ ch).view.loc (pl c (r.val + 1) : Thread nD τ)))
    (O : CellTallies nD τ sig Unit) (W : Waits sig Unit) :
    iprop(cellInv ER (Rd m) κ₁ (rsS c r.succ ch) ∗ cellInv ER (Rd m) κ₂ (rsR (pl c (r.val + 1)) r.rev.succ ch)
        ∗ ((rsSrc c r ch).view.loc (c : Thread nD τ) ↦[(rsSrc c r ch).view.set]{fullShare} Pblk m c)
        ∗ ((rsDst r.rev.succ ch).view.loc (pl c (r.val + 1) : Thread nD τ) ↦[(rsDst r.rev.succ ch).view.set]{fullShare} fd)
        ∗ owes (c : Thread nD τ) (O + tallyAt (rsR (pl c (r.val + 1)) r.rev.succ ch) () Nr) W
        ∗ dutyTok ER (rsS c r.succ ch) 0 0 ∗ reached ER (rsS c r.succ ch) 0
        ∗ dutyTok ER (rsR (pl c (r.val + 1)) r.rev.succ ch) 0 0 ∗ reached ER (rsR (pl c (r.val + 1)) r.rev.succ ch) 0)
      ⊢ iprop(((cred (tallyAt (rsS c r.succ ch) () Nr) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR hsrc' hdst'
  exact Rounds.wp_send_pointsTo 𝒱₀ ER (Rd m) (c : Thread nD τ) none
    (c' := (pl c (r.val + 1) : Thread nD τ)) (src := rsSrc c r ch) (dst := rsDst r.rev.succ ch) (q := fullShare) (fs := Pblk m c) (fd := fd)
    (κ₁ := κ₁) (κ₂ := κ₂) (r₁ := 0) (r₂ := 0) (d₁ := 0) (d₂ := 0)
    (by rw [duties_rsS]; exact Finset.mem_singleton_self _) (by rw [duties_rsR]; exact Finset.mem_singleton_self _)
    () () Nr rfl (amount_rsS m c r ch 0) (amount_rsR m (pl c (r.val + 1)) r.rev ch 0) O rfl (W := W)
    (by rw [payload_rsS])
    (by have h := rs_landed_pts m c r ch fd; unfold pts at h; rw [payload_rsR, h])

theorem pl_pl_rev (c : Dev nD) (r : Fin 3) : pl (pl c (r.val + 1)) (r.rev.val + 1) = c := by revert c r; decide

/-- The finished piece of rows of `x`, on device `c'`, named through an equal device. -/
theorem outSl_pts_congr (c' x y : Dev nD) (ch : Fin 4) (h : x = y) :
    ((outSl x ch).view.loc (c' : Thread nD τ) ↦[(outSl x ch).view.set]{fullShare} OUT m : sProp 𝕄)
      = ((outSl y ch).view.loc (c' : Thread nD τ) ↦[(outSl y ch).view.set]{fullShare} OUT m) := by
  subst h; rfl

/-- The copy of device `c`'s finished piece `ch` onto the same rows of the result on the device `r + 1` places on:
    the third of the piece's share that this copy reads comes back on the send cell; what lands is the final result on those rows, which is what the target's
    receive cell (row `3 − r`, the sender being that many places on from the target) hands its owner. -/
theorem wp_ag_send (c : Dev nD) (r : Fin 3) (ch : Fin 4) (n : Dev nD) (hn : n = pl c (r.val + 1))
    (sS sR : DmaSem sig) (hS : sS = semOf cc0_scratch4 r.succ ch) (hR : sR = semOf cc0_scratch5 r.rev.succ ch)
    (src dst : Memref sig .tc .vmem S32x512 .bf16) (hsrc' : src = outSl c ch) (hdst' : dst = outSl c ch)
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (κ₁ κ₂ : ℕ)
    (fd : Buf (Elt F) ((outSl c ch).view.loc (pl c (r.val + 1) : Thread nD τ)))
    (O : CellTallies nD τ sig Unit) (W : Waits sig Unit) :
    iprop(cellInv ER (Rd m) κ₁ (agS c r.succ ch) ∗ cellInv ER (Rd m) κ₂ (agR (pl c (r.val + 1)) r.rev.succ ch)
        ∗ ((outSl c ch).view.loc (c : Thread nD τ) ↦[(outSl c ch).view.set]{agShare (r.val + 1)} OUT m)
        ∗ ((outSl c ch).view.loc (pl c (r.val + 1) : Thread nD τ) ↦[(outSl c ch).view.set]{fullShare} fd)
        ∗ owes (c : Thread nD τ) (O + tallyAt (agR (pl c (r.val + 1)) r.rev.succ ch) () No) W
        ∗ dutyTok ER (agS c r.succ ch) 0 0 ∗ reached ER (agS c r.succ ch) 0
        ∗ dutyTok ER (agR (pl c (r.val + 1)) r.rev.succ ch) 0 0 ∗ reached ER (agR (pl c (r.val + 1)) r.rev.succ ch) 0)
      ⊢ iprop(((cred (tallyAt (agS c r.succ ch) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR hsrc' hdst'
  exact Rounds.wp_send_pointsTo 𝒱₀ ER (Rd m) (c : Thread nD τ) none
    (c' := (pl c (r.val + 1) : Thread nD τ)) (src := outSl c ch) (dst := outSl c ch) (q := agShare (r.val + 1)) (fs := OUT m) (fd := fd)
    (κ₁ := κ₁) (κ₂ := κ₂) (r₁ := 0) (r₂ := 0) (d₁ := 0) (d₂ := 0)
    (by rw [duties_agS]; exact Finset.mem_singleton_self _) (by rw [duties_agR]; exact Finset.mem_singleton_self _)
    () () No rfl (amount_agS m c r ch 0) (amount_agR m (pl c (r.val + 1)) r.rev ch 0) O rfl (W := W)
    (by rw [payload_agS])
    (by have h := ag_landed_pts m c (pl c (r.val + 1)) ch fd; unfold pts at h; rw [payload_agR, outSl_pts_congr m _ _ c ch (pl_pl_rev c r), h])

/-- info: 'Cert.KernelIdeal.Hand.wp_rs_send' depends on axioms: [propext, Classical.choice, Quot.sound] -/
#guard_msgs in #print axioms wp_rs_send
/-- info: 'Cert.KernelIdeal.Hand.wp_ag_send' depends on axioms: [propext, Classical.choice, Quot.sound] -/
#guard_msgs in #print axioms wp_ag_send

end Cert.KernelIdeal.Hand

end
-- ==== Proof.KernelIdealAccess.lean ====
/-
  The body's local loads and stores of pieces: which elements each touches, and what the stored piece is.

  Per 32-row piece the body loads the piece of its own slab of the partial product (which it keeps whole, beside the
  twelve pieces that go out), the three received pieces of the same rows (slabs 1, 3, 2 of the receive buffer), adds
  them in that order, applies the GELU and stores the result through the whole result buffer into the piece of its own
  rows. Each access stays inside the piece the body holds. The received piece of slab `k` at its final contents is the
  same piece of the sender's partial product, so what is stored is the result on that piece.
-/
import proofs.«900554_g7700000000000555_dist_matmul_gelu_kshard_i_m512_n512_k256_v7x_i4_bf16_1_alg».proof.Proof.KernelIdealTables

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The device's own slab of the partial product -/

/-- The printed offsets of piece `ch` of the device's own slab: slab `c`, rows `32·ch …`. -/
def ownOff (c : Dev nD) : Fin 4 → (Fin 3 → Nat)
  | 0 => k0_off5 c
  | 1 => k0_off7 c
  | 2 => k0_off8 c
  | 3 => k0_off9 c
  | ⟨_ + 4, h⟩ => absurd h (Nat.not_lt.2 (Nat.le_add_left _ _))

theorem ownOff_inb (c : Dev nD) : ∀ (ch : Fin 4), ∀ a, ownOff c ch a + S1x32x512.size a ≤ S4x128x512.size a
  | 0 => k0_off5_inb c
  | 1 => k0_off7_inb c
  | 2 => k0_off8_inb c
  | 3 => k0_off9_inb c
  | ⟨_ + 4, h⟩ => absurd h (Nat.not_lt.2 (Nat.le_add_left _ _))

theorem ownOff_eq (c : Dev nD) (ch : Fin 4) : ownOff c ch = ![c.val, 32 * ch.val, 0] := by
  have h : ∀ ch : Fin 4, ch = 0 ∨ ch = 1 ∨ ch = 2 ∨ ch = 3 := by decide
  rcases h ch with rfl | rfl | rfl | rfl
  · exact k0_off5_eq c
  · exact k0_off7_eq c
  · exact k0_off8_eq c
  · exact k0_off9_eq c

/-- The rectangle of piece `ch` of the device's own slab. -/
abbrev ownRect (c : Dev nD) (ch : Fin 4) : Rect S4x128x512 :=
  Rect.unit (s := S4x128x512) (ownOff c ch) S1x32x512.size (ownOff_inb c ch)

/-- The device's own slab is none of the slabs that go out. -/
theorem own_key_not_sent : ∀ (c : Dev nD) (x : Fin 4), (c, x) ∉ pKeys c := by decide

/-- The elements of piece `ch` of the own slab are among those the device keeps. -/
theorem own_slab_sub (c : Dev nD) (ch : Fin 4) :
    (pM : Memref sig .tc .vmem S4x128x512 .bf16).view.setOn (ownRect c ch).toLoadRect.set
      ⊆ Finset.univ \ keysSet (pKey c) (pKeys c) := by
  intro i hi
  have hi₁ : i ∈ (ownRect c ch).set := by
    obtain ⟨j, hj, rfl⟩ := Finset.mem_map.mp hi
    exact hj
  have hi' := Rect.mem_set_unit.mp hi₁
  rw [ownOff_eq] at hi'
  have h0 : c.val ≤ ((i : S4x128x512.Idx) 0).val ∧ ((i : S4x128x512.Idx) 0).val < c.val + 1 := hi' 0
  rw [Finset.mem_sdiff, mem_keysSet]
  refine ⟨Finset.mem_univ _, fun hk => own_key_not_sent c (slabKey i).2 ?_⟩
  have he : pKey c i = (c, (slabKey i).2) := Prod.ext (Fin.ext (by show ((i : S4x128x512.Idx) 0).val = c.val; omega)) rfl
  rw [← he]; exact hk

/-- The load of piece `ch` of the own slab, the rectangle as the program spells it (substituted). -/
theorem wp_load_own (c : Dev nD) (ch : Fin 4) (f : Buf (Elt F) (pLoc c)) (r : Rect S4x128x512) (hr : r = ownRect c ch)
    {hl : (pM : Memref sig .tc .vmem S4x128x512 .bf16).view.LoadsAt r.toLoadRect}
    {α : Type} {Q : α → sProp 𝕄} {k : (r.toLoadRect.shape.Idx → Elt F .bf16) → Prog (TpuEff nD τ sig (Elt F) Λ₀ .tc) α} :
    pRest c f
      ⊢ iprop((pRest c f -∗ wp frame (wpE (defs₀ (F := F)) 𝒱₀ (c : Thread nD τ) none) Set.univ
              (k ((pM : Memref sig .tc .vmem S4x128x512 .bf16).view.readAt (Elt F) r.toLoadRect f)) Q)
          -∗ wp frame (wpE (defs₀ (F := F)) 𝒱₀ (c : Thread nD τ) none) Set.univ (.op (.load pM r.toLoadRect hl) k) Q) := by
  subst hr
  unfold pRest
  exact wp_load 𝒱₀ (c : Thread nD τ) none Set.univ (m := pM) (own_slab_sub c ch)

/-! ## The received pieces -/

/-- A load of piece `ch` of slab `k` through the whole receive buffer reads elements of that piece. -/
theorem rs_load_sub (k ch : Fin 4) :
    (rM : Memref sig .tc .vmem S4x128x512 .bf16).view.setOn
        (Rect.unit (s := S4x128x512) ![k.val, 32 * ch.val, 0] S1x32x512.size (rsDst_inb k ch)).toLoadRect.set
      ⊆ (rsDst k ch).view.set := by
  intro i hi
  simp only [Memref.view_squeeze, Memref.view_slice, Memref.view_whole, View.set_reshape, View.set_slice_whole]
  obtain ⟨j, hj, rfl⟩ := Finset.mem_map.mp hi
  exact hj

theorem wp_load_rs (c : Dev nD) (k ch : Fin 4) (g : Buf (Elt F) (rsLoc c)) (r : Rect S4x128x512)
    (hr : r = Rect.unit (s := S4x128x512) ![k.val, 32 * ch.val, 0] S1x32x512.size (rsDst_inb k ch))
    {hl : (rM : Memref sig .tc .vmem S4x128x512 .bf16).view.LoadsAt r.toLoadRect}
    {α : Type} {Q : α → sProp 𝕄} {k' : (r.toLoadRect.shape.Idx → Elt F .bf16) → Prog (TpuEff nD τ sig (Elt F) Λ₀ .tc) α} :
    ((rsDst k ch).view.loc (c : Thread nD τ) ↦[(rsDst k ch).view.set]{fullShare} g)
      ⊢ iprop((((rsDst k ch).view.loc (c : Thread nD τ) ↦[(rsDst k ch).view.set]{fullShare} g)
              -∗ wp frame (wpE (defs₀ (F := F)) 𝒱₀ (c : Thread nD τ) none) Set.univ
                (k' ((rM : Memref sig .tc .vmem S4x128x512 .bf16).view.readAt (Elt F) r.toLoadRect g)) Q)
          -∗ wp frame (wpE (defs₀ (F := F)) 𝒱₀ (c : Thread nD τ) none) Set.univ (.op (.load rM r.toLoadRect hl) k') Q) := by
  subst hr
  exact wp_load 𝒱₀ (c : Thread nD τ) none Set.univ (m := rM) (rs_load_sub k ch)

/-! ## The finished piece -/

/-- A load through a piece of the result reads elements of that piece. -/
theorem out_load_sub (c : Dev nD) (ch : Fin 4) (r : LoadRect S32x512) : (outSl c ch).view.setOn r.set ⊆ (outSl c ch).view.set :=
  View.setOn_subset_set _ _

/-- A store through the whole result into the rectangle of piece `ch` of the device's rows writes that piece. -/
theorem out_store_sub (c : Dev nD) (ch : Fin 4) :
    ((oM : Memref sig .tc .vmem S512x512 .bf16).access
        (Rect.unit (s := S512x512) (k0_off6 c (BitVec.ofNat 32 (32 * ch.val))) S32x512.size (k0_off6_inb c ch))).setOn Finset.univ
      ⊆ (outSl c ch).view.set :=
  Finset.Subset.refl _

theorem wp_load_out (c : Dev nD) (ch : Fin 4) (o0 : Buf (Elt F) (outLoc c))
    {r : LoadRect S32x512} {hl : (outSl c ch).view.LoadsAt r}
    {α : Type} {Q : α → sProp 𝕄} {k : (r.shape.Idx → Elt F .bf16) → Prog (TpuEff nD τ sig (Elt F) Λ₀ .tc) α} :
    ((outSl c ch).view.loc (c : Thread nD τ) ↦[(outSl c ch).view.set]{fullShare} o0)
      ⊢ iprop((((outSl c ch).view.loc (c : Thread nD τ) ↦[(outSl c ch).view.set]{fullShare} o0)
              -∗ wp frame (wpE (defs₀ (F := F)) 𝒱₀ (c : Thread nD τ) none) Set.univ (k ((outSl c ch).view.readAt (Elt F) r o0)) Q)
          -∗ wp frame (wpE (defs₀ (F := F)) 𝒱₀ (c : Thread nD τ) none) Set.univ (.op (.load (outSl c ch) r hl) k) Q) := by
  exact wp_load 𝒱₀ (c : Thread nD τ) none Set.univ (m := outSl c ch) (out_load_sub c ch r)

theorem wp_store_out (c : Dev nD) (ch : Fin 4) (o0 : Buf (Elt F) (outLoc c)) (r : Rect S512x512)
    (hr : r = Rect.unit (s := S512x512) (k0_off6 c (BitVec.ofNat 32 (32 * ch.val))) S32x512.size (k0_off6_inb c ch))
    {w : r.shape.Idx → Elt F .bf16} {hx : ((oM : Memref sig .tc .vmem S512x512 .bf16).access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    ((outSl c ch).view.loc (c : Thread nD τ) ↦[(outSl c ch).view.set]{fullShare} o0)
      ⊢ iprop((((outSl c ch).view.loc (c : Thread nD τ) ↦[(outSl c ch).view.set]{fullShare}
                ((oM : Memref sig .tc .vmem S512x512 .bf16).access r).write (Elt F) o0 w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store oM r w Finset.univ hx hm) k) Q) := by
  subst hr
  exact wp_store 𝒱₀ (c : Thread nD τ) none Set.univ (m := oM) (out_store_sub c ch)

/-! ## What the loads read -/

/-- Piece `ch` of the own slab of the partial product, as loaded. -/
theorem own_read (c : Dev nD) (ch : Fin 4) :
    (pM : Memref sig .tc .vmem S4x128x512 .bf16).view.readAt (Elt F) (ownRect c ch).toLoadRect (Pblk m c) = slab (Pblk m c) c ch := by
  funext j
  show Pblk m c ((ownRect c ch).toLoadRect.idx j) = Pblk m c _
  congr 1
  funext a
  apply Fin.ext
  show ownOff c ch a + 1 * (j a).val = _
  rw [ownOff_eq]
  have h0 : (j 0).val < 1 := (j 0).isLt
  match a with
  | ⟨0, _⟩ => show c.val + 1 * (j 0).val = c.val; omega
  | ⟨1, _⟩ => show 32 * ch.val + 1 * (j 1).val = 32 * ch.val + (j 1).val; omega
  | ⟨2, _⟩ => show 0 + 1 * (j 2).val = (j 2).val; omega

/-- Piece `ch` of slab `k` of the receive buffer at its final contents, as loaded: the same piece of the device's own
    slab of the partial product of the device `k` places on. -/
theorem rs_read (c : Dev nD) (k ch : Fin 4) :
    (rM : Memref sig .tc .vmem S4x128x512 .bf16).view.readAt (Elt F)
        (Rect.unit (s := S4x128x512) ![k.val, 32 * ch.val, 0] S1x32x512.size (rsDst_inb k ch)).toLoadRect (RSfun m c)
      = slab (Pblk m (pl c k.val)) c ch := by
  funext j
  have h0 : (j 0).val < 1 := (j 0).isLt
  show Pblk m (pl c (k.val + 1 * (j 0).val)) _ = Pblk m (pl c k.val) _
  rw [show k.val + 1 * (j 0).val = k.val by omega]
  congr 1
  funext a
  apply Fin.ext
  match a with
  | ⟨0, _⟩ => rfl
  | ⟨1, _⟩ => show 32 * ch.val + 1 * (j 1).val = 32 * ch.val + (j 1).val; omega
  | ⟨2, _⟩ => show 0 + 1 * (j 2).val = (j 2).val; omega

/-! ## The result, row by row -/

theorem OUT_row (p y : Fin 512) :
    OUT m (ValueIdx.ix2 p y)
      = chunkVal (slab (Pblk m (devOfRow p)) (devOfRow p) (pieceOfRow p)) (slab (Pblk m (pl (devOfRow p) 1)) (devOfRow p) (pieceOfRow p))
          (slab (Pblk m (pl (devOfRow p) 3)) (devOfRow p) (pieceOfRow p)) (slab (Pblk m (pl (devOfRow p) 2)) (devOfRow p) (pieceOfRow p))
          (ValueIdx.ix2 (⟨p.val % 32, Nat.mod_lt _ (by decide)⟩ : Fin 32) y) := rfl

/-- Row `x` of piece `ch` of device `s`'s rows of the result. -/
theorem OUT_at (s : Dev nD) (ch : Fin 4) (x : Fin 32) (y : Fin 512) (p : Fin 512) (hp : p.val = 128 * s.val + 32 * ch.val + x.val) :
    OUT m (ValueIdx.ix2 p y)
      = chunkVal (slab (Pblk m s) s ch) (slab (Pblk m (pl s 1)) s ch) (slab (Pblk m (pl s 3)) s ch) (slab (Pblk m (pl s 2)) s ch)
          (ValueIdx.ix2 x y) := by
  have hs : s.val < 4 := s.isLt
  have hc := ch.isLt
  have hx := x.isLt
  have e1 : devOfRow p = s := Fin.ext (by show p.val / 128 = s.val; omega)
  have e2 : pieceOfRow p = ch := Fin.ext (by show p.val % 128 / 32 = ch.val; omega)
  have e3 : (⟨p.val % 32, Nat.mod_lt _ (by decide)⟩ : Fin 32) = x := Fin.ext (by show p.val % 32 = x.val; omega)
  rw [OUT_row, e1, e2, e3]

/-! ## The stored piece -/

/-- The four loads of piece `ch`: the own slab's piece, and the received pieces of slabs `k`. -/
abbrev ldOwn (c : Dev nD) (ch : Fin 4) : Vec F S1x32x512 .bf16 :=
  (pM : Memref sig .tc .vmem S4x128x512 .bf16).view.readAt (Elt F) (ownRect c ch).toLoadRect (Pblk m c)
abbrev ldRs (c : Dev nD) (k ch : Fin 4) : Vec F S1x32x512 .bf16 :=
  (rM : Memref sig .tc .vmem S4x128x512 .bf16).view.readAt (Elt F)
    (Rect.unit (s := S4x128x512) ![k.val, 32 * ch.val, 0] S1x32x512.size (rsDst_inb k ch)).toLoadRect (RSfun m c)

/-- The sum of the four pieces in the kernel's order, then the GELU, written over piece `ch` of the device's own rows,
    is the result there. -/
theorem chunk_stored (c : Dev nD) (ch : Fin 4) (o0 : Vec F S512x512 .bf16) :
    ∀ i ∈ (outSl c ch).view.set,
      ((outSl c ch).view.write (Elt F) o0 (chunkVal (ldOwn m c ch) (ldRs m c 1 ch) (ldRs m c 3 ch) (ldRs m c 2 ch)) Finset.univ) i
        = OUT m i := by
  intro i hi
  have hi' := (mem_outSl c ch i).mp hi
  have h1 : (i 1).val < 512 := (i 1).isLt
  obtain ⟨x, y, rfl⟩ : ∃ (x : Fin 32) (y : Fin 512), i = (outSl c ch).view.emb (ValueIdx.ix2 x y) := by
    refine ⟨⟨(i 0).val - (128 * c.val + 32 * ch.val), by omega⟩, ⟨(i 1).val, h1⟩, ?_⟩
    rw [emb_outSl]
    funext a
    apply Fin.ext
    match a with
    | ⟨0, _⟩ => show (i 0).val = 128 * c.val + 32 * ch.val + ((i 0).val - (128 * c.val + 32 * ch.val)); omega
    | ⟨1, _⟩ => rfl
  rw [View.write_emb_of_mem _ _ (Finset.mem_univ _), emb_outSl, OUT_at m c ch x y _ rfl]
  simp only [cast_eq]
  rw [show ldOwn m c ch = slab (Pblk m c) c ch from own_read m c ch,
    show ldRs m c 1 ch = slab (Pblk m (pl c 1)) c ch from rs_read m c 1 ch,
    show ldRs m c 3 ch = slab (Pblk m (pl c 3)) c ch from rs_read m c 3 ch,
    show ldRs m c 2 ch = slab (Pblk m (pl c 2)) c ch from rs_read m c 2 ch]

/-- The same as an equality of assertions: the piece at what was stored is the piece at the result. -/
theorem chunk_stored_pts (c : Dev nD) (ch : Fin 4) (o0 : Vec F S512x512 .bf16) :
    (((outSl c ch).view.loc (c : Thread nD τ) ↦[(outSl c ch).view.set]{fullShare}
        ((outSl c ch).view.write (Elt F) o0 (chunkVal (ldOwn m c ch) (ldRs m c 1 ch) (ldRs m c 3 ch) (ldRs m c 2 ch)) Finset.univ)) : sProp 𝕄)
      = ((outSl c ch).view.loc (c : Thread nD τ) ↦[(outSl c ch).view.set]{fullShare} OUT m) :=
  BI.Region.is_congr (chunk_stored m c ch o0)

/-! ### The stored value as the program computes it, piece by piece -/

theorem stored_0 (x0 x1 x3 x2 : Vec F S1x32x512 .bf16) :
    k0_pay4 (k0_pay3 (k0_pay2 x0 x1) x3 x2) = chunkVal x0 x1 x3 x2 := rfl
theorem stored_1 (x0 x1 x3 x2 : Vec F S1x32x512 .bf16) :
    k0_pay10 (k0_pay7 (k0_pay5 x0 x1) x3 x2) (k0_pay8 (k0_pay5 x0 x1) x3 x2) (k0_pay9 (F := F)) = chunkVal x0 x1 x3 x2 := rfl
theorem stored_2 (x0 x1 x3 x2 : Vec F S1x32x512 .bf16) :
    k0_pay15 (k0_pay13 (k0_pay11 x0 x1) x3 x2) (k0_pay14 (k0_pay11 x0 x1) x3 x2) = chunkVal x0 x1 x3 x2 := rfl
theorem stored_3 (x0 x1 x3 x2 : Vec F S1x32x512 .bf16) :
    k0_pay21 (k0_pay18 (k0_pay16 x0 x1) x3 x2) (k0_pay19 (k0_pay16 x0 x1) x3 x2) (k0_pay20 (F := F)) = chunkVal x0 x1 x3 x2 := rfl

/-! ### The same, with the loads, the payload chain and the store spelt as the program spells them -/

theorem chunk_stored_pts_0 (c : Dev nD) (o0 : Vec F S512x512 .bf16) :
    (((outSl c 0).view.loc (c : Thread nD τ) ↦[(outSl c 0).view.set]{fullShare}
        (((oM : Memref sig .tc .vmem S512x512 .bf16).access (Rect.unit (s := S512x512) (k0_off6 c 0#32) S32x512.size (k0_off6_inb c 0))).write (Elt F) o0
          (k0_pay4 (k0_pay3 (k0_pay2
              ((pM : Memref sig .tc .vmem S4x128x512 .bf16).view.readAt (Elt F) (Rect.unit (s := S4x128x512) (k0_off5 c) S1x32x512.size (k0_off5_inb c)).toLoadRect (Pblk m c))
              ((rM : Memref sig .tc .vmem S4x128x512 .bf16).view.readAt (Elt F) (Rect.unit (s := S4x128x512) ![1, 0, 0] S1x32x512.size inb_S4x128x512_S1x32x512_1_0_0).toLoadRect (RSfun m c)))
            ((rM : Memref sig .tc .vmem S4x128x512 .bf16).view.readAt (Elt F) (Rect.unit (s := S4x128x512) ![3, 0, 0] S1x32x512.size inb_S4x128x512_S1x32x512_3_0_0).toLoadRect (RSfun m c))
            ((rM : Memref sig .tc .vmem S4x128x512 .bf16).view.readAt (Elt F) (Rect.unit (s := S4x128x512) ![2, 0, 0] S1x32x512.size inb_S4x128x512_S1x32x512_2_0_0).toLoadRect (RSfun m c))))
          Finset.univ)) : sProp 𝕄)
      = ((outSl c 0).view.loc (c : Thread nD τ) ↦[(outSl c 0).view.set]{fullShare} OUT m) :=
  chunk_stored_pts m c 0 o0

theorem chunk_stored_pts_1 (c : Dev nD) (o0 : Vec F S512x512 .bf16) :
    (((outSl c 1).view.loc (c : Thread nD τ) ↦[(outSl c 1).view.set]{fullShare}
        (((oM : Memref sig .tc .vmem S512x512 .bf16).access (Rect.unit (s := S512x512) (k0_off6 c 32#32) S32x512.size (k0_off6_inb c 1))).write (Elt F) o0
          (k0_pay10
            (k0_pay7 (k0_pay5
                ((pM : Memref sig .tc .vmem S4x128x512 .bf16).view.readAt (Elt F) (Rect.unit (s := S4x128x512) (k0_off7 c) S1x32x512.size (k0_off7_inb c)).toLoadRect (Pblk m c))
                ((rM : Memref sig .tc .vmem S4x128x512 .bf16).view.readAt (Elt F) (Rect.unit (s := S4x128x512) ![1, 32, 0] S1x32x512.size inb_S4x128x512_S1x32x512_1_32_0).toLoadRect (RSfun m c)))
              ((rM : Memref sig .tc .vmem S4x128x512 .bf16).view.readAt (Elt F) (Rect.unit (s := S4x128x512) ![3, 32, 0] S1x32x512.size inb_S4x128x512_S1x32x512_3_32_0).toLoadRect (RSfun m c))
              ((rM : Memref sig .tc .vmem S4x128x512 .bf16).view.readAt (Elt F) (Rect.unit (s := S4x128x512) ![2, 32, 0] S1x32x512.size inb_S4x128x512_S1x32x512_2_32_0).toLoadRect (RSfun m c)))
            (k0_pay8 (k0_pay5
                ((pM : Memref sig .tc .vmem S4x128x512 .bf16).view.readAt (Elt F) (Rect.unit (s := S4x128x512) (k0_off7 c) S1x32x512.size (k0_off7_inb c)).toLoadRect (Pblk m c))
                ((rM : Memref sig .tc .vmem S4x128x512 .bf16).view.readAt (Elt F) (Rect.unit (s := S4x128x512) ![1, 32, 0] S1x32x512.size inb_S4x128x512_S1x32x512_1_32_0).toLoadRect (RSfun m c)))
              ((rM : Memref sig .tc .vmem S4x128x512 .bf16).view.readAt (Elt F) (Rect.unit (s := S4x128x512) ![3, 32, 0] S1x32x512.size inb_S4x128x512_S1x32x512_3_32_0).toLoadRect (RSfun m c))
              ((rM : Memref sig .tc .vmem S4x128x512 .bf16).view.readAt (Elt F) (Rect.unit (s := S4x128x512) ![2, 32, 0] S1x32x512.size inb_S4x128x512_S1x32x512_2_32_0).toLoadRect (RSfun m c)))
            (k0_pay9 (F := F)))
          Finset.univ)) : sProp 𝕄)
      = ((outSl c 1).view.loc (c : Thread nD τ) ↦[(outSl c 1).view.set]{fullShare} OUT m) :=
  chunk_stored_pts m c 1 o0

theorem chunk_stored_pts_2 (c : Dev nD) (o0 : Vec F S512x512 .bf16) :
    (((outSl c 2).view.loc (c : Thread nD τ) ↦[(outSl c 2).view.set]{fullShare}
        (((oM : Memref sig .tc .vmem S512x512 .bf16).access (Rect.unit (s := S512x512) (k0_off6 c 64#32) S32x512.size (k0_off6_inb c 2))).write (Elt F) o0
          (k0_pay15
            (k0_pay13 (k0_pay11
                ((pM : Memref sig .tc .vmem S4x128x512 .bf16).view.readAt (Elt F) (Rect.unit (s := S4x128x512) (k0_off8 c) S1x32x512.size (k0_off8_inb c)).toLoadRect (Pblk m c))
                ((rM : Memref sig .tc .vmem S4x128x512 .bf16).view.readAt (Elt F) (Rect.unit (s := S4x128x512) ![1, 64, 0] S1x32x512.size inb_S4x128x512_S1x32x512_1_64_0).toLoadRect (RSfun m c)))
              ((rM : Memref sig .tc .vmem S4x128x512 .bf16).view.readAt (Elt F) (Rect.unit (s := S4x128x512) ![3, 64, 0] S1x32x512.size inb_S4x128x512_S1x32x512_3_64_0).toLoadRect (RSfun m c))
              ((rM : Memref sig .tc .vmem S4x128x512 .bf16).view.readAt (Elt F) (Rect.unit (s := S4x128x512) ![2, 64, 0] S1x32x512.size inb_S4x128x512_S1x32x512_2_64_0).toLoadRect (RSfun m c)))
            (k0_pay14 (k0_pay11
                ((pM : Memref sig .tc .vmem S4x128x512 .bf16).view.readAt (Elt F) (Rect.unit (s := S4x128x512) (k0_off8 c) S1x32x512.size (k0_off8_inb c)).toLoadRect (Pblk m c))
                ((rM : Memref sig .tc .vmem S4x128x512 .bf16).view.readAt (Elt F) (Rect.unit (s := S4x128x512) ![1, 64, 0] S1x32x512.size inb_S4x128x512_S1x32x512_1_64_0).toLoadRect (RSfun m c)))
              ((rM : Memref sig .tc .vmem S4x128x512 .bf16).view.readAt (Elt F) (Rect.unit (s := S4x128x512) ![3, 64, 0] S1x32x512.size inb_S4x128x512_S1x32x512_3_64_0).toLoadRect (RSfun m c))
              ((rM : Memref sig .tc .vmem S4x128x512 .bf16).view.readAt (Elt F) (Rect.unit (s := S4x128x512) ![2, 64, 0] S1x32x512.size inb_S4x128x512_S1x32x512_2_64_0).toLoadRect (RSfun m c))))
          Finset.univ)) : sProp 𝕄)
      = ((outSl c 2).view.loc (c : Thread nD τ) ↦[(outSl c 2).view.set]{fullShare} OUT m) :=
  chunk_stored_pts m c 2 o0

theorem chunk_stored_pts_3 (c : Dev nD) (o0 : Vec F S512x512 .bf16) :
    (((outSl c 3).view.loc (c : Thread nD τ) ↦[(outSl c 3).view.set]{fullShare}
        (((oM : Memref sig .tc .vmem S512x512 .bf16).access (Rect.unit (s := S512x512) (k0_off6 c 96#32) S32x512.size (k0_off6_inb c 3))).write (Elt F) o0
          (k0_pay21
            (k0_pay18 (k0_pay16
                ((pM : Memref sig .tc .vmem S4x128x512 .bf16).view.readAt (Elt F) (Rect.unit (s := S4x128x512) (k0_off9 c) S1x32x512.size (k0_off9_inb c)).toLoadRect (Pblk m c))
                ((rM : Memref sig .tc .vmem S4x128x512 .bf16).view.readAt (Elt F) (Rect.unit (s := S4x128x512) ![1, 96, 0] S1x32x512.size inb_S4x128x512_S1x32x512_1_96_0).toLoadRect (RSfun m c)))
              ((rM : Memref sig .tc .vmem S4x128x512 .bf16).view.readAt (Elt F) (Rect.unit (s := S4x128x512) ![3, 96, 0] S1x32x512.size inb_S4x128x512_S1x32x512_3_96_0).toLoadRect (RSfun m c))
              ((rM : Memref sig .tc .vmem S4x128x512 .bf16).view.readAt (Elt F) (Rect.unit (s := S4x128x512) ![2, 96, 0] S1x32x512.size inb_S4x128x512_S1x32x512_2_96_0).toLoadRect (RSfun m c)))
            (k0_pay19 (k0_pay16
                ((pM : Memref sig .tc .vmem S4x128x512 .bf16).view.readAt (Elt F) (Rect.unit (s := S4x128x512) (k0_off9 c) S1x32x512.size (k0_off9_inb c)).toLoadRect (Pblk m c))
                ((rM : Memref sig .tc .vmem S4x128x512 .bf16).view.readAt (Elt F) (Rect.unit (s := S4x128x512) ![1, 96, 0] S1x32x512.size inb_S4x128x512_S1x32x512_1_96_0).toLoadRect (RSfun m c)))
              ((rM : Memref sig .tc .vmem S4x128x512 .bf16).view.readAt (Elt F) (Rect.unit (s := S4x128x512) ![3, 96, 0] S1x32x512.size inb_S4x128x512_S1x32x512_3_96_0).toLoadRect (RSfun m c))
              ((rM : Memref sig .tc .vmem S4x128x512 .bf16).view.readAt (Elt F) (Rect.unit (s := S4x128x512) ![2, 96, 0] S1x32x512.size inb_S4x128x512_S1x32x512_2_96_0).toLoadRect (RSfun m c)))
            (k0_pay20 (F := F)))
          Finset.univ)) : sProp 𝕄)
      = ((outSl c 3).view.loc (c : Thread nD τ) ↦[(outSl c 3).view.set]{fullShare} OUT m) :=
  chunk_stored_pts m c 3 o0

/-- info: 'Cert.KernelIdeal.Hand.chunk_stored_pts' depends on axioms: [propext, Classical.choice, Quot.sound] -/
#guard_msgs in #print axioms chunk_stored_pts
/-- info: 'Cert.KernelIdeal.Hand.chunk_stored_pts_3' depends on axioms: [propext, Classical.choice, Quot.sound] -/
#guard_msgs in #print axioms chunk_stored_pts_3

end Cert.KernelIdeal.Hand

end
-- ==== Proof.KernelIdealWaits.lean ====
/-
  At which of its waits a device may wait: everything it still owes sits, in level, above the cell it waits on.
-/
import proofs.«900554_g7700000000000555_dist_matmul_gelu_kshard_i_m512_n512_k256_v7x_i4_bf16_1_alg».proof.Proof.KernelIdealState

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem L_of_ne (g : GSem nD τ sig) (h : g.1.2 ≠ .tc) : L g = ∅ := if_neg h
theorem L_tc (c : Dev nD) (sm : SemLoc sig) : L ((c : Thread nD τ), sm) = {()} := if_pos rfl

/-- A sum of one-cell tallies over a list is positive only at a listed cell. -/
theorem foldr_pos (l : List (GSem nD τ sig × ℕ)) {g : GSem nD τ sig} {u : Unit}
    (h : 0 < (l.foldr (fun p acc => acc + tallyAt p.1 () p.2) (0 : CellTallies nD τ sig Unit)) g u) : ∃ p ∈ l, g = p.1 := by
  induction l with
  | nil => rw [List.foldr_nil, Pi.zero_apply, Finsupp.zero_apply] at h; exact absurd h (Nat.lt_irrefl 0)
  | cons p l ih =>
    rw [List.foldr_cons] at h
    rcases Pipeline.add_pos_cases h with h | h
    · obtain ⟨q, hq, e⟩ := ih h; exact ⟨q, List.mem_cons_of_mem _ hq, e⟩
    · exact ⟨p, List.mem_cons_self, (Pipeline.tallyAt_pos h).1⟩

/-- Every cell a device pays is a TensorCore's. -/
theorem payList_tc : ∀ c : Dev nD, ∀ p ∈ payList c, p.1.1.2 = Proc.tc := by decide

/-- What is still owed after `k` payments is positive only at a cell still to be paid. -/
theorem owedFrom_pos {c : Dev nD} {k : ℕ} {g : GSem nD τ sig} {u : Unit} (h : 0 < owedFrom c k g u) : ∃ p ∈ (payList c).drop k, g = p.1 :=
  foldr_pos _ h

/-- A wait on cell `sm` after `k` payments, every cell still to be paid being above it. -/
theorem mayWait_at (c : Dev nD) (k : ℕ) (sm : SemLoc sig)
    (h : ∀ p ∈ (payList c).drop k, lv ((c : Thread nD τ), sm) () < lv p.1 ()) :
    (levAts L lv : sProp 𝕄) ⊢ MayWait (c : Thread nD τ) sm () (owedFrom c k) :=
  Pipeline.mayWait_of_levAts (by rw [L_tc]; exact Finset.mem_singleton_self _) fun g u hg => by
    obtain ⟨p, hp, rfl⟩ := owedFrom_pos hg
    refine ⟨?_, h p hp⟩
    rw [show L p.1 = {()} from if_pos (payList_tc c p (List.mem_of_mem_drop hp))]; exact Finset.mem_singleton_self _

/-- The entry wait: the three signals sent, the copies still owed land on receive cells, above the barrier. -/
theorem mayWait_bar (c : Dev nD) : (levAts L lv : sProp 𝕄) ⊢ MayWait (c : Thread nD τ) (.reg barS) () (owedFrom c 3) :=
  mayWait_at c 3 _ (by revert c; decide)

/-- The finished-piece receive cells sit above every partial-product receive cell. -/
theorem rs_below : ∀ (c : Dev nD) (kk ch : Fin 4), ∀ p ∈ (payList c).drop 15, lv ((c : Thread nD τ), .dma (semOf cc0_scratch3 kk ch)) () < lv p.1 () := by decide

/-- A wait on a partial-product receive cell once all twelve partial-product copies of the piece and its predecessors are
    out: only finished-piece receives are owed from then on. -/
theorem mayWait_rs (c : Dev nD) (kk ch : Fin 4) (k : ℕ) (hk : 15 ≤ k) :
    (levAts L lv : sProp 𝕄) ⊢ MayWait (c : Thread nD τ) (.dma (semOf cc0_scratch3 kk ch)) () (owedFrom c k) :=
  mayWait_at c k _ fun p hp => by
    have h15 : p ∈ (payList c).drop 15 := by
      obtain ⟨j, rfl⟩ := Nat.exists_eq_add_of_le hk
      rw [← List.drop_drop] at hp; exact List.mem_of_mem_drop hp
    exact rs_below c kk ch p h15

theorem mayWait_rs15 (c : Dev nD) (kk ch : Fin 4) : (levAts L lv : sProp 𝕄) ⊢ MayWait (c : Thread nD τ) (.dma (semOf cc0_scratch3 kk ch)) () (owedFrom c 15) := mayWait_rs c kk ch 15 (by decide)
theorem mayWait_rs18 (c : Dev nD) (kk ch : Fin 4) : (levAts L lv : sProp 𝕄) ⊢ MayWait (c : Thread nD τ) (.dma (semOf cc0_scratch3 kk ch)) () (owedFrom c 18) := mayWait_rs c kk ch 18 (by decide)
theorem mayWait_rs21 (c : Dev nD) (kk ch : Fin 4) : (levAts L lv : sProp 𝕄) ⊢ MayWait (c : Thread nD τ) (.dma (semOf cc0_scratch3 kk ch)) () (owedFrom c 21) := mayWait_rs c kk ch 21 (by decide)
theorem mayWait_rs24 (c : Dev nD) (kk ch : Fin 4) : (levAts L lv : sProp 𝕄) ⊢ MayWait (c : Thread nD τ) (.dma (semOf cc0_scratch3 kk ch)) () (owedFrom c 24) := mayWait_rs c kk ch 24 (by decide)

/-- Owing nothing, a device may wait anywhere. -/
theorem mayWait_done (c : Dev nD) (sm : SemLoc sig) : (levAts L lv : sProp 𝕄) ⊢ MayWait (c : Thread nD τ) sm () (owedFrom c 27) := by
  rw [show owedFrom c 27 = 0 from rfl, MayWait_zero]; iintro -; iempintro

end Cert.KernelIdeal.Hand

end
-- ==== Proof.KernelIdealBodyDefs.lean ====
import proofs.«900554_g7700000000000555_dist_matmul_gelu_kshard_i_m512_n512_k256_v7x_i4_bf16_1_alg».proof.Proof.KernelIdealPieces
import proofs.«900554_g7700000000000555_dist_matmul_gelu_kshard_i_m512_n512_k256_v7x_i4_bf16_1_alg».proof.Proof.KernelIdealWaits

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A cell's invariant at the name `K` gives it, under a name of its own (the long run carries many of them). -/
def cinv (K : GSem nD τ sig → ℕ) (g : GSem nD τ sig) : sProp 𝕄 := cellInv ER (Rd m) (K g) g

instance cinv_persistent (K : GSem nD τ sig → ℕ) (g : GSem nD τ sig) : BI.Persistent (cinv m K g) := by unfold cinv; infer_instance

/-- What device `c` holds when its body starts, spelt out: the invariants of its own cells and of the cells it pays
    (at the names `K`), the rounds reached, its tokens, positions and credits, the input blocks, the partial-product
    buffer whole, the receive buffer and the result cut into the pieces the others will write, and what it owes. -/
def bodyPre (K : GSem nD τ sig → ℕ) (c : Dev nD) (p0 r0 : Vec F S4x128x512 .bf16) (o0 : Vec F S512x512 .bf16) (W : Waits sig Unit) : sProp 𝕄 :=
  iprop(cinv m K (barCell c)
    ∗ cinv m K (barCell (pl c 1))
    ∗ cinv m K (barCell (pl c 2))
    ∗ cinv m K (barCell (pl c 3))
    ∗ cinv m K (rsS c 0 0)
    ∗ cinv m K (rsS c 0 1)
    ∗ cinv m K (rsS c 0 2)
    ∗ cinv m K (rsS c 0 3)
    ∗ cinv m K (rsR c 0 0)
    ∗ cinv m K (rsR c 0 1)
    ∗ cinv m K (rsR c 0 2)
    ∗ cinv m K (rsR c 0 3)
    ∗ cinv m K (agS c 0 0)
    ∗ cinv m K (agS c 0 1)
    ∗ cinv m K (agS c 0 2)
    ∗ cinv m K (agS c 0 3)
    ∗ cinv m K (agR c 0 0)
    ∗ cinv m K (agR c 0 1)
    ∗ cinv m K (agR c 0 2)
    ∗ cinv m K (agR c 0 3)
    ∗ cinv m K (rsS c 1 0)
    ∗ cinv m K (rsS c 1 1)
    ∗ cinv m K (rsS c 1 2)
    ∗ cinv m K (rsS c 1 3)
    ∗ cinv m K (rsS c 2 0)
    ∗ cinv m K (rsS c 2 1)
    ∗ cinv m K (rsS c 2 2)
    ∗ cinv m K (rsS c 2 3)
    ∗ cinv m K (rsS c 3 0)
    ∗ cinv m K (rsS c 3 1)
    ∗ cinv m K (rsS c 3 2)
    ∗ cinv m K (rsS c 3 3)
    ∗ cinv m K (rsR c 1 0)
    ∗ cinv m K (rsR c 1 1)
    ∗ cinv m K (rsR c 1 2)
    ∗ cinv m K (rsR c 1 3)
    ∗ cinv m K (rsR c 2 0)
    ∗ cinv m K (rsR c 2 1)
    ∗ cinv m K (rsR c 2 2)
    ∗ cinv m K (rsR c 2 3)
    ∗ cinv m K (rsR c 3 0)
    ∗ cinv m K (rsR c 3 1)
    ∗ cinv m K (rsR c 3 2)
    ∗ cinv m K (rsR c 3 3)
    ∗ cinv m K (agS c 1 0)
    ∗ cinv m K (agS c 1 1)
    ∗ cinv m K (agS c 1 2)
    ∗ cinv m K (agS c 1 3)
    ∗ cinv m K (agS c 2 0)
    ∗ cinv m K (agS c 2 1)
    ∗ cinv m K (agS c 2 2)
    ∗ cinv m K (agS c 2 3)
    ∗ cinv m K (agS c 3 0)
    ∗ cinv m K (agS c 3 1)
    ∗ cinv m K (agS c 3 2)
    ∗ cinv m K (agS c 3 3)
    ∗ cinv m K (agR c 1 0)
    ∗ cinv m K (agR c 1 1)
    ∗ cinv m K (agR c 1 2)
    ∗ cinv m K (agR c 1 3)
    ∗ cinv m K (agR c 2 0)
    ∗ cinv m K (agR c 2 1)
    ∗ cinv m K (agR c 2 2)
    ∗ cinv m K (agR c 2 3)
    ∗ cinv m K (agR c 3 0)
    ∗ cinv m K (agR c 3 1)
    ∗ cinv m K (agR c 3 2)
    ∗ cinv m K (agR c 3 3)
    ∗ cinv m K (rsR (pl c 1) 3 0)
    ∗ cinv m K (rsR (pl c 1) 3 1)
    ∗ cinv m K (rsR (pl c 1) 3 2)
    ∗ cinv m K (rsR (pl c 1) 3 3)
    ∗ cinv m K (rsR (pl c 2) 2 0)
    ∗ cinv m K (rsR (pl c 2) 2 1)
    ∗ cinv m K (rsR (pl c 2) 2 2)
    ∗ cinv m K (rsR (pl c 2) 2 3)
    ∗ cinv m K (rsR (pl c 3) 1 0)
    ∗ cinv m K (rsR (pl c 3) 1 1)
    ∗ cinv m K (rsR (pl c 3) 1 2)
    ∗ cinv m K (rsR (pl c 3) 1 3)
    ∗ cinv m K (agR (pl c 1) 3 0)
    ∗ cinv m K (agR (pl c 1) 3 1)
    ∗ cinv m K (agR (pl c 1) 3 2)
    ∗ cinv m K (agR (pl c 1) 3 3)
    ∗ cinv m K (agR (pl c 2) 2 0)
    ∗ cinv m K (agR (pl c 2) 2 1)
    ∗ cinv m K (agR (pl c 2) 2 2)
    ∗ cinv m K (agR (pl c 2) 2 3)
    ∗ cinv m K (agR (pl c 3) 1 0)
    ∗ cinv m K (agR (pl c 3) 1 1)
    ∗ cinv m K (agR (pl c 3) 1 2)
    ∗ cinv m K (agR (pl c 3) 1 3)
    ∗ reached ER (barCell (pl c 1)) 0
    ∗ reached ER (barCell (pl c 2)) 0
    ∗ reached ER (barCell (pl c 3)) 0
    ∗ reached ER (rsS c 1 0) 0
    ∗ reached ER (rsS c 1 1) 0
    ∗ reached ER (rsS c 1 2) 0
    ∗ reached ER (rsS c 1 3) 0
    ∗ reached ER (rsS c 2 0) 0
    ∗ reached ER (rsS c 2 1) 0
    ∗ reached ER (rsS c 2 2) 0
    ∗ reached ER (rsS c 2 3) 0
    ∗ reached ER (rsS c 3 0) 0
    ∗ reached ER (rsS c 3 1) 0
    ∗ reached ER (rsS c 3 2) 0
    ∗ reached ER (rsS c 3 3) 0
    ∗ reached ER (agS c 1 0) 0
    ∗ reached ER (agS c 1 1) 0
    ∗ reached ER (agS c 1 2) 0
    ∗ reached ER (agS c 1 3) 0
    ∗ reached ER (agS c 2 0) 0
    ∗ reached ER (agS c 2 1) 0
    ∗ reached ER (agS c 2 2) 0
    ∗ reached ER (agS c 2 3) 0
    ∗ reached ER (agS c 3 0) 0
    ∗ reached ER (agS c 3 1) 0
    ∗ reached ER (agS c 3 2) 0
    ∗ reached ER (agS c 3 3) 0
    ∗ reached ER (rsR (pl c 1) 3 0) 0
    ∗ reached ER (rsR (pl c 1) 3 1) 0
    ∗ reached ER (rsR (pl c 1) 3 2) 0
    ∗ reached ER (rsR (pl c 1) 3 3) 0
    ∗ reached ER (rsR (pl c 2) 2 0) 0
    ∗ reached ER (rsR (pl c 2) 2 1) 0
    ∗ reached ER (rsR (pl c 2) 2 2) 0
    ∗ reached ER (rsR (pl c 2) 2 3) 0
    ∗ reached ER (rsR (pl c 3) 1 0) 0
    ∗ reached ER (rsR (pl c 3) 1 1) 0
    ∗ reached ER (rsR (pl c 3) 1 2) 0
    ∗ reached ER (rsR (pl c 3) 1 3) 0
    ∗ reached ER (agR (pl c 1) 3 0) 0
    ∗ reached ER (agR (pl c 1) 3 1) 0
    ∗ reached ER (agR (pl c 1) 3 2) 0
    ∗ reached ER (agR (pl c 1) 3 3) 0
    ∗ reached ER (agR (pl c 2) 2 0) 0
    ∗ reached ER (agR (pl c 2) 2 1) 0
    ∗ reached ER (agR (pl c 2) 2 2) 0
    ∗ reached ER (agR (pl c 2) 2 3) 0
    ∗ reached ER (agR (pl c 3) 1 0) 0
    ∗ reached ER (agR (pl c 3) 1 1) 0
    ∗ reached ER (agR (pl c 3) 1 2) 0
    ∗ reached ER (agR (pl c 3) 1 3) 0
    ∗ levAts L lv
    ∗ ((aM).view.loc (c : Thread nD τ) ↦[(aM).view.set]{fullShare} Ablk m c)
    ∗ ((bM).view.loc (c : Thread nD τ) ↦[(bM).view.set]{fullShare} Bblk m c)
    ∗ ((pM).view.loc (c : Thread nD τ) ↦[(pM).view.set]{fullShare} p0)
    ∗ pts (rsDst 1 0) c r0
    ∗ pts (rsDst 1 1) c r0
    ∗ pts (rsDst 1 2) c r0
    ∗ pts (rsDst 1 3) c r0
    ∗ pts (rsDst 2 0) c r0
    ∗ pts (rsDst 2 1) c r0
    ∗ pts (rsDst 2 2) c r0
    ∗ pts (rsDst 2 3) c r0
    ∗ pts (rsDst 3 0) c r0
    ∗ pts (rsDst 3 1) c r0
    ∗ pts (rsDst 3 2) c r0
    ∗ pts (rsDst 3 3) c r0
    ∗ pts (outSl (pl c 1) 0) c o0
    ∗ pts (outSl (pl c 1) 1) c o0
    ∗ pts (outSl (pl c 1) 2) c o0
    ∗ pts (outSl (pl c 1) 3) c o0
    ∗ pts (outSl (pl c 2) 0) c o0
    ∗ pts (outSl (pl c 2) 1) c o0
    ∗ pts (outSl (pl c 2) 2) c o0
    ∗ pts (outSl (pl c 2) 3) c o0
    ∗ pts (outSl (pl c 3) 0) c o0
    ∗ pts (outSl (pl c 3) 1) c o0
    ∗ pts (outSl (pl c 3) 2) c o0
    ∗ pts (outSl (pl c 3) 3) c o0
    ∗ rsRest c r0
    ∗ pts (outSl c 0) c o0
    ∗ pts (outSl c 1) c o0
    ∗ pts (outSl c 2) c o0
    ∗ pts (outSl c 3) c o0
    ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr + tallyAt (barCell (pl c 3)) () 1 + tallyAt (barCell (pl c 2)) () 1 + tallyAt (barCell (pl c 1)) () 1) W
    ∗ dutyTok ER (barCell (pl c 1)) 0 1
    ∗ dutyTok ER (barCell (pl c 2)) 0 2
    ∗ dutyTok ER (barCell (pl c 3)) 0 3
    ∗ atPos ER (barCell c) 0 ∅ 0
    ∗ cred (tallyAt (barCell c) () 3)
    ∗ dutyTok ER (rsS c 2 0) 0 0
    ∗ dutyTok ER (rsR (pl c 2) 2 0) 0 0
    ∗ dutyTok ER (rsS c 1 0) 0 0
    ∗ dutyTok ER (rsR (pl c 1) 3 0) 0 0
    ∗ dutyTok ER (rsS c 3 0) 0 0
    ∗ dutyTok ER (rsR (pl c 3) 1 0) 0 0
    ∗ dutyTok ER (rsS c 2 1) 0 0
    ∗ dutyTok ER (rsR (pl c 2) 2 1) 0 0
    ∗ dutyTok ER (rsS c 1 1) 0 0
    ∗ dutyTok ER (rsR (pl c 1) 3 1) 0 0
    ∗ dutyTok ER (rsS c 3 1) 0 0
    ∗ dutyTok ER (rsR (pl c 3) 1 1) 0 0
    ∗ dutyTok ER (rsS c 2 2) 0 0
    ∗ dutyTok ER (rsR (pl c 2) 2 2) 0 0
    ∗ dutyTok ER (rsS c 1 2) 0 0
    ∗ dutyTok ER (rsR (pl c 1) 3 2) 0 0
    ∗ dutyTok ER (rsS c 3 2) 0 0
    ∗ dutyTok ER (rsR (pl c 3) 1 2) 0 0
    ∗ dutyTok ER (rsS c 2 3) 0 0
    ∗ dutyTok ER (rsR (pl c 2) 2 3) 0 0
    ∗ dutyTok ER (rsS c 1 3) 0 0
    ∗ dutyTok ER (rsR (pl c 1) 3 3) 0 0
    ∗ dutyTok ER (rsS c 3 3) 0 0
    ∗ dutyTok ER (rsR (pl c 3) 1 3) 0 0
    ∗ atPos ER (rsR c 1 0) 0 ∅ 0
    ∗ cred (tallyAt (rsR c 1 0) () Nr)
    ∗ atPos ER (rsR c 3 0) 0 ∅ 0
    ∗ cred (tallyAt (rsR c 3 0) () Nr)
    ∗ atPos ER (rsR c 2 0) 0 ∅ 0
    ∗ cred (tallyAt (rsR c 2 0) () Nr)
    ∗ dutyTok ER (agS c 2 0) 0 0
    ∗ dutyTok ER (agR (pl c 2) 2 0) 0 0
    ∗ dutyTok ER (agS c 1 0) 0 0
    ∗ dutyTok ER (agR (pl c 1) 3 0) 0 0
    ∗ dutyTok ER (agS c 3 0) 0 0
    ∗ dutyTok ER (agR (pl c 3) 1 0) 0 0
    ∗ atPos ER (rsR c 1 1) 0 ∅ 0
    ∗ cred (tallyAt (rsR c 1 1) () Nr)
    ∗ atPos ER (rsR c 3 1) 0 ∅ 0
    ∗ cred (tallyAt (rsR c 3 1) () Nr)
    ∗ atPos ER (rsR c 2 1) 0 ∅ 0
    ∗ cred (tallyAt (rsR c 2 1) () Nr)
    ∗ dutyTok ER (agS c 2 1) 0 0
    ∗ dutyTok ER (agR (pl c 2) 2 1) 0 0
    ∗ dutyTok ER (agS c 1 1) 0 0
    ∗ dutyTok ER (agR (pl c 1) 3 1) 0 0
    ∗ dutyTok ER (agS c 3 1) 0 0
    ∗ dutyTok ER (agR (pl c 3) 1 1) 0 0
    ∗ atPos ER (rsR c 1 2) 0 ∅ 0
    ∗ cred (tallyAt (rsR c 1 2) () Nr)
    ∗ atPos ER (rsR c 3 2) 0 ∅ 0
    ∗ cred (tallyAt (rsR c 3 2) () Nr)
    ∗ atPos ER (rsR c 2 2) 0 ∅ 0
    ∗ cred (tallyAt (rsR c 2 2) () Nr)
    ∗ dutyTok ER (agS c 2 2) 0 0
    ∗ dutyTok ER (agR (pl c 2) 2 2) 0 0
    ∗ dutyTok ER (agS c 1 2) 0 0
    ∗ dutyTok ER (agR (pl c 1) 3 2) 0 0
    ∗ dutyTok ER (agS c 3 2) 0 0
    ∗ dutyTok ER (agR (pl c 3) 1 2) 0 0
    ∗ atPos ER (rsR c 1 3) 0 ∅ 0
    ∗ cred (tallyAt (rsR c 1 3) () Nr)
    ∗ atPos ER (rsR c 3 3) 0 ∅ 0
    ∗ cred (tallyAt (rsR c 3 3) () Nr)
    ∗ atPos ER (rsR c 2 3) 0 ∅ 0
    ∗ cred (tallyAt (rsR c 2 3) () Nr)
    ∗ dutyTok ER (agS c 2 3) 0 0
    ∗ dutyTok ER (agR (pl c 2) 2 3) 0 0
    ∗ dutyTok ER (agS c 1 3) 0 0
    ∗ dutyTok ER (agR (pl c 1) 3 3) 0 0
    ∗ dutyTok ER (agS c 3 3) 0 0
    ∗ dutyTok ER (agR (pl c 3) 1 3) 0 0
    ∗ atPos ER (agR c 1 0) 0 ∅ 0
    ∗ cred (tallyAt (agR c 1 0) () No)
    ∗ atPos ER (agR c 3 0) 0 ∅ 0
    ∗ cred (tallyAt (agR c 3 0) () No)
    ∗ atPos ER (agR c 2 0) 0 ∅ 0
    ∗ cred (tallyAt (agR c 2 0) () No)
    ∗ atPos ER (agR c 1 1) 0 ∅ 0
    ∗ cred (tallyAt (agR c 1 1) () No)
    ∗ atPos ER (agR c 3 1) 0 ∅ 0
    ∗ cred (tallyAt (agR c 3 1) () No)
    ∗ atPos ER (agR c 2 1) 0 ∅ 0
    ∗ cred (tallyAt (agR c 2 1) () No)
    ∗ atPos ER (agR c 1 2) 0 ∅ 0
    ∗ cred (tallyAt (agR c 1 2) () No)
    ∗ atPos ER (agR c 3 2) 0 ∅ 0
    ∗ cred (tallyAt (agR c 3 2) () No)
    ∗ atPos ER (agR c 2 2) 0 ∅ 0
    ∗ cred (tallyAt (agR c 2 2) () No)
    ∗ atPos ER (agR c 1 3) 0 ∅ 0
    ∗ cred (tallyAt (agR c 1 3) () No)
    ∗ atPos ER (agR c 3 3) 0 ∅ 0
    ∗ cred (tallyAt (agR c 3 3) () No)
    ∗ atPos ER (agR c 2 3) 0 ∅ 0
    ∗ cred (tallyAt (agR c 2 3) () No)
    ∗ atPos ER (rsS c 2 0) 0 ∅ 0
    ∗ atPos ER (rsS c 1 0) 0 ∅ 0
    ∗ atPos ER (rsS c 3 0) 0 ∅ 0
    ∗ atPos ER (rsS c 2 1) 0 ∅ 0
    ∗ atPos ER (rsS c 1 1) 0 ∅ 0
    ∗ atPos ER (rsS c 3 1) 0 ∅ 0
    ∗ atPos ER (rsS c 2 2) 0 ∅ 0
    ∗ atPos ER (rsS c 1 2) 0 ∅ 0
    ∗ atPos ER (rsS c 3 2) 0 ∅ 0
    ∗ atPos ER (rsS c 2 3) 0 ∅ 0
    ∗ atPos ER (rsS c 1 3) 0 ∅ 0
    ∗ atPos ER (rsS c 3 3) 0 ∅ 0
    ∗ atPos ER (agS c 2 0) 0 ∅ 0
    ∗ atPos ER (agS c 1 0) 0 ∅ 0
    ∗ atPos ER (agS c 3 0) 0 ∅ 0
    ∗ atPos ER (agS c 2 1) 0 ∅ 0
    ∗ atPos ER (agS c 1 1) 0 ∅ 0
    ∗ atPos ER (agS c 3 1) 0 ∅ 0
    ∗ atPos ER (agS c 2 2) 0 ∅ 0
    ∗ atPos ER (agS c 1 2) 0 ∅ 0
    ∗ atPos ER (agS c 3 2) 0 ∅ 0
    ∗ atPos ER (agS c 2 3) 0 ∅ 0
    ∗ atPos ER (agS c 1 3) 0 ∅ 0
    ∗ atPos ER (agS c 3 3) 0 ∅ 0
    ∗ atPos ER (rsS c 0 0) 0 ∅ 0
    ∗ atPos ER (rsS c 0 1) 0 ∅ 0
    ∗ atPos ER (rsS c 0 2) 0 ∅ 0
    ∗ atPos ER (rsS c 0 3) 0 ∅ 0
    ∗ atPos ER (rsR c 0 0) 0 ∅ 0
    ∗ atPos ER (rsR c 0 1) 0 ∅ 0
    ∗ atPos ER (rsR c 0 2) 0 ∅ 0
    ∗ atPos ER (rsR c 0 3) 0 ∅ 0
    ∗ atPos ER (agS c 0 0) 0 ∅ 0
    ∗ atPos ER (agS c 0 1) 0 ∅ 0
    ∗ atPos ER (agS c 0 2) 0 ∅ 0
    ∗ atPos ER (agS c 0 3) 0 ∅ 0
    ∗ atPos ER (agR c 0 0) 0 ∅ 0
    ∗ atPos ER (agR c 0 1) 0 ∅ 0
    ∗ atPos ER (agR c 0 2) 0 ∅ 0
    ∗ atPos ER (agR c 0 3) 0 ∅ 0)

/-- What it holds when the body's last wait has returned: every used cell one round on, the source pieces back at
    the partial product, the received pieces at their final contents, every piece of the result at the result. -/
def bodyEnd (K : GSem nD τ sig → ℕ) (c : Dev nD) (r0 : Vec F S4x128x512 .bf16) : sProp 𝕄 :=
  iprop(cellInv ER (Rd m) (K (barCell c)) (barCell c)
    ∗ cellInv ER (Rd m) (K (barCell (pl c 1))) (barCell (pl c 1))
    ∗ cellInv ER (Rd m) (K (barCell (pl c 2))) (barCell (pl c 2))
    ∗ cellInv ER (Rd m) (K (barCell (pl c 3))) (barCell (pl c 3))
    ∗ cellInv ER (Rd m) (K (rsS c 0 0)) (rsS c 0 0)
    ∗ cellInv ER (Rd m) (K (rsS c 0 1)) (rsS c 0 1)
    ∗ cellInv ER (Rd m) (K (rsS c 0 2)) (rsS c 0 2)
    ∗ cellInv ER (Rd m) (K (rsS c 0 3)) (rsS c 0 3)
    ∗ cellInv ER (Rd m) (K (rsR c 0 0)) (rsR c 0 0)
    ∗ cellInv ER (Rd m) (K (rsR c 0 1)) (rsR c 0 1)
    ∗ cellInv ER (Rd m) (K (rsR c 0 2)) (rsR c 0 2)
    ∗ cellInv ER (Rd m) (K (rsR c 0 3)) (rsR c 0 3)
    ∗ cellInv ER (Rd m) (K (agS c 0 0)) (agS c 0 0)
    ∗ cellInv ER (Rd m) (K (agS c 0 1)) (agS c 0 1)
    ∗ cellInv ER (Rd m) (K (agS c 0 2)) (agS c 0 2)
    ∗ cellInv ER (Rd m) (K (agS c 0 3)) (agS c 0 3)
    ∗ cellInv ER (Rd m) (K (agR c 0 0)) (agR c 0 0)
    ∗ cellInv ER (Rd m) (K (agR c 0 1)) (agR c 0 1)
    ∗ cellInv ER (Rd m) (K (agR c 0 2)) (agR c 0 2)
    ∗ cellInv ER (Rd m) (K (agR c 0 3)) (agR c 0 3)
    ∗ cellInv ER (Rd m) (K (rsS c 1 0)) (rsS c 1 0)
    ∗ cellInv ER (Rd m) (K (rsS c 1 1)) (rsS c 1 1)
    ∗ cellInv ER (Rd m) (K (rsS c 1 2)) (rsS c 1 2)
    ∗ cellInv ER (Rd m) (K (rsS c 1 3)) (rsS c 1 3)
    ∗ cellInv ER (Rd m) (K (rsS c 2 0)) (rsS c 2 0)
    ∗ cellInv ER (Rd m) (K (rsS c 2 1)) (rsS c 2 1)
    ∗ cellInv ER (Rd m) (K (rsS c 2 2)) (rsS c 2 2)
    ∗ cellInv ER (Rd m) (K (rsS c 2 3)) (rsS c 2 3)
    ∗ cellInv ER (Rd m) (K (rsS c 3 0)) (rsS c 3 0)
    ∗ cellInv ER (Rd m) (K (rsS c 3 1)) (rsS c 3 1)
    ∗ cellInv ER (Rd m) (K (rsS c 3 2)) (rsS c 3 2)
    ∗ cellInv ER (Rd m) (K (rsS c 3 3)) (rsS c 3 3)
    ∗ cellInv ER (Rd m) (K (rsR c 1 0)) (rsR c 1 0)
    ∗ cellInv ER (Rd m) (K (rsR c 1 1)) (rsR c 1 1)
    ∗ cellInv ER (Rd m) (K (rsR c 1 2)) (rsR c 1 2)
    ∗ cellInv ER (Rd m) (K (rsR c 1 3)) (rsR c 1 3)
    ∗ cellInv ER (Rd m) (K (rsR c 2 0)) (rsR c 2 0)
    ∗ cellInv ER (Rd m) (K (rsR c 2 1)) (rsR c 2 1)
    ∗ cellInv ER (Rd m) (K (rsR c 2 2)) (rsR c 2 2)
    ∗ cellInv ER (Rd m) (K (rsR c 2 3)) (rsR c 2 3)
    ∗ cellInv ER (Rd m) (K (rsR c 3 0)) (rsR c 3 0)
    ∗ cellInv ER (Rd m) (K (rsR c 3 1)) (rsR c 3 1)
    ∗ cellInv ER (Rd m) (K (rsR c 3 2)) (rsR c 3 2)
    ∗ cellInv ER (Rd m) (K (rsR c 3 3)) (rsR c 3 3)
    ∗ cellInv ER (Rd m) (K (agS c 1 0)) (agS c 1 0)
    ∗ cellInv ER (Rd m) (K (agS c 1 1)) (agS c 1 1)
    ∗ cellInv ER (Rd m) (K (agS c 1 2)) (agS c 1 2)
    ∗ cellInv ER (Rd m) (K (agS c 1 3)) (agS c 1 3)
    ∗ cellInv ER (Rd m) (K (agS c 2 0)) (agS c 2 0)
    ∗ cellInv ER (Rd m) (K (agS c 2 1)) (agS c 2 1)
    ∗ cellInv ER (Rd m) (K (agS c 2 2)) (agS c 2 2)
    ∗ cellInv ER (Rd m) (K (agS c 2 3)) (agS c 2 3)
    ∗ cellInv ER (Rd m) (K (agS c 3 0)) (agS c 3 0)
    ∗ cellInv ER (Rd m) (K (agS c 3 1)) (agS c 3 1)
    ∗ cellInv ER (Rd m) (K (agS c 3 2)) (agS c 3 2)
    ∗ cellInv ER (Rd m) (K (agS c 3 3)) (agS c 3 3)
    ∗ cellInv ER (Rd m) (K (agR c 1 0)) (agR c 1 0)
    ∗ cellInv ER (Rd m) (K (agR c 1 1)) (agR c 1 1)
    ∗ cellInv ER (Rd m) (K (agR c 1 2)) (agR c 1 2)
    ∗ cellInv ER (Rd m) (K (agR c 1 3)) (agR c 1 3)
    ∗ cellInv ER (Rd m) (K (agR c 2 0)) (agR c 2 0)
    ∗ cellInv ER (Rd m) (K (agR c 2 1)) (agR c 2 1)
    ∗ cellInv ER (Rd m) (K (agR c 2 2)) (agR c 2 2)
    ∗ cellInv ER (Rd m) (K (agR c 2 3)) (agR c 2 3)
    ∗ cellInv ER (Rd m) (K (agR c 3 0)) (agR c 3 0)
    ∗ cellInv ER (Rd m) (K (agR c 3 1)) (agR c 3 1)
    ∗ cellInv ER (Rd m) (K (agR c 3 2)) (agR c 3 2)
    ∗ cellInv ER (Rd m) (K (agR c 3 3)) (agR c 3 3)
    ∗ cellInv ER (Rd m) (K (rsR (pl c 1) 3 0)) (rsR (pl c 1) 3 0)
    ∗ cellInv ER (Rd m) (K (rsR (pl c 1) 3 1)) (rsR (pl c 1) 3 1)
    ∗ cellInv ER (Rd m) (K (rsR (pl c 1) 3 2)) (rsR (pl c 1) 3 2)
    ∗ cellInv ER (Rd m) (K (rsR (pl c 1) 3 3)) (rsR (pl c 1) 3 3)
    ∗ cellInv ER (Rd m) (K (rsR (pl c 2) 2 0)) (rsR (pl c 2) 2 0)
    ∗ cellInv ER (Rd m) (K (rsR (pl c 2) 2 1)) (rsR (pl c 2) 2 1)
    ∗ cellInv ER (Rd m) (K (rsR (pl c 2) 2 2)) (rsR (pl c 2) 2 2)
    ∗ cellInv ER (Rd m) (K (rsR (pl c 2) 2 3)) (rsR (pl c 2) 2 3)
    ∗ cellInv ER (Rd m) (K (rsR (pl c 3) 1 0)) (rsR (pl c 3) 1 0)
    ∗ cellInv ER (Rd m) (K (rsR (pl c 3) 1 1)) (rsR (pl c 3) 1 1)
    ∗ cellInv ER (Rd m) (K (rsR (pl c 3) 1 2)) (rsR (pl c 3) 1 2)
    ∗ cellInv ER (Rd m) (K (rsR (pl c 3) 1 3)) (rsR (pl c 3) 1 3)
    ∗ cellInv ER (Rd m) (K (agR (pl c 1) 3 0)) (agR (pl c 1) 3 0)
    ∗ cellInv ER (Rd m) (K (agR (pl c 1) 3 1)) (agR (pl c 1) 3 1)
    ∗ cellInv ER (Rd m) (K (agR (pl c 1) 3 2)) (agR (pl c 1) 3 2)
    ∗ cellInv ER (Rd m) (K (agR (pl c 1) 3 3)) (agR (pl c 1) 3 3)
    ∗ cellInv ER (Rd m) (K (agR (pl c 2) 2 0)) (agR (pl c 2) 2 0)
    ∗ cellInv ER (Rd m) (K (agR (pl c 2) 2 1)) (agR (pl c 2) 2 1)
    ∗ cellInv ER (Rd m) (K (agR (pl c 2) 2 2)) (agR (pl c 2) 2 2)
    ∗ cellInv ER (Rd m) (K (agR (pl c 2) 2 3)) (agR (pl c 2) 2 3)
    ∗ cellInv ER (Rd m) (K (agR (pl c 3) 1 0)) (agR (pl c 3) 1 0)
    ∗ cellInv ER (Rd m) (K (agR (pl c 3) 1 1)) (agR (pl c 3) 1 1)
    ∗ cellInv ER (Rd m) (K (agR (pl c 3) 1 2)) (agR (pl c 3) 1 2)
    ∗ cellInv ER (Rd m) (K (agR (pl c 3) 1 3)) (agR (pl c 3) 1 3)
    ∗ reached ER (barCell (pl c 1)) 0
    ∗ reached ER (barCell (pl c 2)) 0
    ∗ reached ER (barCell (pl c 3)) 0
    ∗ reached ER (rsS c 1 0) 0
    ∗ reached ER (rsS c 1 1) 0
    ∗ reached ER (rsS c 1 2) 0
    ∗ reached ER (rsS c 1 3) 0
    ∗ reached ER (rsS c 2 0) 0
    ∗ reached ER (rsS c 2 1) 0
    ∗ reached ER (rsS c 2 2) 0
    ∗ reached ER (rsS c 2 3) 0
    ∗ reached ER (rsS c 3 0) 0
    ∗ reached ER (rsS c 3 1) 0
    ∗ reached ER (rsS c 3 2) 0
    ∗ reached ER (rsS c 3 3) 0
    ∗ reached ER (agS c 1 0) 0
    ∗ reached ER (agS c 1 1) 0
    ∗ reached ER (agS c 1 2) 0
    ∗ reached ER (agS c 1 3) 0
    ∗ reached ER (agS c 2 0) 0
    ∗ reached ER (agS c 2 1) 0
    ∗ reached ER (agS c 2 2) 0
    ∗ reached ER (agS c 2 3) 0
    ∗ reached ER (agS c 3 0) 0
    ∗ reached ER (agS c 3 1) 0
    ∗ reached ER (agS c 3 2) 0
    ∗ reached ER (agS c 3 3) 0
    ∗ reached ER (rsR (pl c 1) 3 0) 0
    ∗ reached ER (rsR (pl c 1) 3 1) 0
    ∗ reached ER (rsR (pl c 1) 3 2) 0
    ∗ reached ER (rsR (pl c 1) 3 3) 0
    ∗ reached ER (rsR (pl c 2) 2 0) 0
    ∗ reached ER (rsR (pl c 2) 2 1) 0
    ∗ reached ER (rsR (pl c 2) 2 2) 0
    ∗ reached ER (rsR (pl c 2) 2 3) 0
    ∗ reached ER (rsR (pl c 3) 1 0) 0
    ∗ reached ER (rsR (pl c 3) 1 1) 0
    ∗ reached ER (rsR (pl c 3) 1 2) 0
    ∗ reached ER (rsR (pl c 3) 1 3) 0
    ∗ reached ER (agR (pl c 1) 3 0) 0
    ∗ reached ER (agR (pl c 1) 3 1) 0
    ∗ reached ER (agR (pl c 1) 3 2) 0
    ∗ reached ER (agR (pl c 1) 3 3) 0
    ∗ reached ER (agR (pl c 2) 2 0) 0
    ∗ reached ER (agR (pl c 2) 2 1) 0
    ∗ reached ER (agR (pl c 2) 2 2) 0
    ∗ reached ER (agR (pl c 2) 2 3) 0
    ∗ reached ER (agR (pl c 3) 1 0) 0
    ∗ reached ER (agR (pl c 3) 1 1) 0
    ∗ reached ER (agR (pl c 3) 1 2) 0
    ∗ reached ER (agR (pl c 3) 1 3) 0
    ∗ levAts L lv
    ∗ atPos ER (barCell c) 1 ∅ 0
    ∗ atPos ER (rsS c 0 0) 0 ∅ 0
    ∗ atPos ER (rsS c 0 1) 0 ∅ 0
    ∗ atPos ER (rsS c 0 2) 0 ∅ 0
    ∗ atPos ER (rsS c 0 3) 0 ∅ 0
    ∗ atPos ER (rsS c 1 0) 1 ∅ 0
    ∗ atPos ER (rsS c 1 1) 1 ∅ 0
    ∗ atPos ER (rsS c 1 2) 1 ∅ 0
    ∗ atPos ER (rsS c 1 3) 1 ∅ 0
    ∗ atPos ER (rsS c 2 0) 1 ∅ 0
    ∗ atPos ER (rsS c 2 1) 1 ∅ 0
    ∗ atPos ER (rsS c 2 2) 1 ∅ 0
    ∗ atPos ER (rsS c 2 3) 1 ∅ 0
    ∗ atPos ER (rsS c 3 0) 1 ∅ 0
    ∗ atPos ER (rsS c 3 1) 1 ∅ 0
    ∗ atPos ER (rsS c 3 2) 1 ∅ 0
    ∗ atPos ER (rsS c 3 3) 1 ∅ 0
    ∗ atPos ER (rsR c 0 0) 0 ∅ 0
    ∗ atPos ER (rsR c 0 1) 0 ∅ 0
    ∗ atPos ER (rsR c 0 2) 0 ∅ 0
    ∗ atPos ER (rsR c 0 3) 0 ∅ 0
    ∗ atPos ER (rsR c 1 0) 1 ∅ 0
    ∗ atPos ER (rsR c 1 1) 1 ∅ 0
    ∗ atPos ER (rsR c 1 2) 1 ∅ 0
    ∗ atPos ER (rsR c 1 3) 1 ∅ 0
    ∗ atPos ER (rsR c 2 0) 1 ∅ 0
    ∗ atPos ER (rsR c 2 1) 1 ∅ 0
    ∗ atPos ER (rsR c 2 2) 1 ∅ 0
    ∗ atPos ER (rsR c 2 3) 1 ∅ 0
    ∗ atPos ER (rsR c 3 0) 1 ∅ 0
    ∗ atPos ER (rsR c 3 1) 1 ∅ 0
    ∗ atPos ER (rsR c 3 2) 1 ∅ 0
    ∗ atPos ER (rsR c 3 3) 1 ∅ 0
    ∗ atPos ER (agS c 0 0) 0 ∅ 0
    ∗ atPos ER (agS c 0 1) 0 ∅ 0
    ∗ atPos ER (agS c 0 2) 0 ∅ 0
    ∗ atPos ER (agS c 0 3) 0 ∅ 0
    ∗ atPos ER (agS c 1 0) 1 ∅ 0
    ∗ atPos ER (agS c 1 1) 1 ∅ 0
    ∗ atPos ER (agS c 1 2) 1 ∅ 0
    ∗ atPos ER (agS c 1 3) 1 ∅ 0
    ∗ atPos ER (agS c 2 0) 1 ∅ 0
    ∗ atPos ER (agS c 2 1) 1 ∅ 0
    ∗ atPos ER (agS c 2 2) 1 ∅ 0
    ∗ atPos ER (agS c 2 3) 1 ∅ 0
    ∗ atPos ER (agS c 3 0) 1 ∅ 0
    ∗ atPos ER (agS c 3 1) 1 ∅ 0
    ∗ atPos ER (agS c 3 2) 1 ∅ 0
    ∗ atPos ER (agS c 3 3) 1 ∅ 0
    ∗ atPos ER (agR c 0 0) 0 ∅ 0
    ∗ atPos ER (agR c 0 1) 0 ∅ 0
    ∗ atPos ER (agR c 0 2) 0 ∅ 0
    ∗ atPos ER (agR c 0 3) 0 ∅ 0
    ∗ atPos ER (agR c 1 0) 1 ∅ 0
    ∗ atPos ER (agR c 1 1) 1 ∅ 0
    ∗ atPos ER (agR c 1 2) 1 ∅ 0
    ∗ atPos ER (agR c 1 3) 1 ∅ 0
    ∗ atPos ER (agR c 2 0) 1 ∅ 0
    ∗ atPos ER (agR c 2 1) 1 ∅ 0
    ∗ atPos ER (agR c 2 2) 1 ∅ 0
    ∗ atPos ER (agR c 2 3) 1 ∅ 0
    ∗ atPos ER (agR c 3 0) 1 ∅ 0
    ∗ atPos ER (agR c 3 1) 1 ∅ 0
    ∗ atPos ER (agR c 3 2) 1 ∅ 0
    ∗ atPos ER (agR c 3 3) 1 ∅ 0
    ∗ ((aM).view.loc (c : Thread nD τ) ↦[(aM).view.set]{fullShare} Ablk m c)
    ∗ ((bM).view.loc (c : Thread nD τ) ↦[(bM).view.set]{fullShare} Bblk m c)
    ∗ ((rsSrc c 0 0).view.loc (c : Thread nD τ) ↦[(rsSrc c 0 0).view.set]{fullShare} Pblk m c)
    ∗ ((rsSrc c 0 1).view.loc (c : Thread nD τ) ↦[(rsSrc c 0 1).view.set]{fullShare} Pblk m c)
    ∗ ((rsSrc c 0 2).view.loc (c : Thread nD τ) ↦[(rsSrc c 0 2).view.set]{fullShare} Pblk m c)
    ∗ ((rsSrc c 0 3).view.loc (c : Thread nD τ) ↦[(rsSrc c 0 3).view.set]{fullShare} Pblk m c)
    ∗ ((rsSrc c 1 0).view.loc (c : Thread nD τ) ↦[(rsSrc c 1 0).view.set]{fullShare} Pblk m c)
    ∗ ((rsSrc c 1 1).view.loc (c : Thread nD τ) ↦[(rsSrc c 1 1).view.set]{fullShare} Pblk m c)
    ∗ ((rsSrc c 1 2).view.loc (c : Thread nD τ) ↦[(rsSrc c 1 2).view.set]{fullShare} Pblk m c)
    ∗ ((rsSrc c 1 3).view.loc (c : Thread nD τ) ↦[(rsSrc c 1 3).view.set]{fullShare} Pblk m c)
    ∗ ((rsSrc c 2 0).view.loc (c : Thread nD τ) ↦[(rsSrc c 2 0).view.set]{fullShare} Pblk m c)
    ∗ ((rsSrc c 2 1).view.loc (c : Thread nD τ) ↦[(rsSrc c 2 1).view.set]{fullShare} Pblk m c)
    ∗ ((rsSrc c 2 2).view.loc (c : Thread nD τ) ↦[(rsSrc c 2 2).view.set]{fullShare} Pblk m c)
    ∗ ((rsSrc c 2 3).view.loc (c : Thread nD τ) ↦[(rsSrc c 2 3).view.set]{fullShare} Pblk m c)
    ∗ pRest c (Pblk m c)
    ∗ ((rsDst 1 0).view.loc (c : Thread nD τ) ↦[(rsDst 1 0).view.set]{fullShare} RSfun m c)
    ∗ ((rsDst 1 1).view.loc (c : Thread nD τ) ↦[(rsDst 1 1).view.set]{fullShare} RSfun m c)
    ∗ ((rsDst 1 2).view.loc (c : Thread nD τ) ↦[(rsDst 1 2).view.set]{fullShare} RSfun m c)
    ∗ ((rsDst 1 3).view.loc (c : Thread nD τ) ↦[(rsDst 1 3).view.set]{fullShare} RSfun m c)
    ∗ ((rsDst 2 0).view.loc (c : Thread nD τ) ↦[(rsDst 2 0).view.set]{fullShare} RSfun m c)
    ∗ ((rsDst 2 1).view.loc (c : Thread nD τ) ↦[(rsDst 2 1).view.set]{fullShare} RSfun m c)
    ∗ ((rsDst 2 2).view.loc (c : Thread nD τ) ↦[(rsDst 2 2).view.set]{fullShare} RSfun m c)
    ∗ ((rsDst 2 3).view.loc (c : Thread nD τ) ↦[(rsDst 2 3).view.set]{fullShare} RSfun m c)
    ∗ ((rsDst 3 0).view.loc (c : Thread nD τ) ↦[(rsDst 3 0).view.set]{fullShare} RSfun m c)
    ∗ ((rsDst 3 1).view.loc (c : Thread nD τ) ↦[(rsDst 3 1).view.set]{fullShare} RSfun m c)
    ∗ ((rsDst 3 2).view.loc (c : Thread nD τ) ↦[(rsDst 3 2).view.set]{fullShare} RSfun m c)
    ∗ ((rsDst 3 3).view.loc (c : Thread nD τ) ↦[(rsDst 3 3).view.set]{fullShare} RSfun m c)
    ∗ rsRest c r0
    ∗ ((outSl c 0).view.loc (c : Thread nD τ) ↦[(outSl c 0).view.set]{fullShare.left} OUT m)
    ∗ ((outSl c 0).view.loc (c : Thread nD τ) ↦[(outSl c 0).view.set]{fullShare.right.left} OUT m)
    ∗ ((outSl c 0).view.loc (c : Thread nD τ) ↦[(outSl c 0).view.set]{fullShare.right.right} OUT m)
    ∗ ((outSl c 1).view.loc (c : Thread nD τ) ↦[(outSl c 1).view.set]{fullShare.left} OUT m)
    ∗ ((outSl c 1).view.loc (c : Thread nD τ) ↦[(outSl c 1).view.set]{fullShare.right.left} OUT m)
    ∗ ((outSl c 1).view.loc (c : Thread nD τ) ↦[(outSl c 1).view.set]{fullShare.right.right} OUT m)
    ∗ ((outSl c 2).view.loc (c : Thread nD τ) ↦[(outSl c 2).view.set]{fullShare.left} OUT m)
    ∗ ((outSl c 2).view.loc (c : Thread nD τ) ↦[(outSl c 2).view.set]{fullShare.right.left} OUT m)
    ∗ ((outSl c 2).view.loc (c : Thread nD τ) ↦[(outSl c 2).view.set]{fullShare.right.right} OUT m)
    ∗ ((outSl c 3).view.loc (c : Thread nD τ) ↦[(outSl c 3).view.set]{fullShare.left} OUT m)
    ∗ ((outSl c 3).view.loc (c : Thread nD τ) ↦[(outSl c 3).view.set]{fullShare.right.left} OUT m)
    ∗ ((outSl c 3).view.loc (c : Thread nD τ) ↦[(outSl c 3).view.set]{fullShare.right.right} OUT m)
    ∗ ((outSl (pl c 1) 0).view.loc (c : Thread nD τ) ↦[(outSl (pl c 1) 0).view.set]{fullShare} OUT m)
    ∗ ((outSl (pl c 1) 1).view.loc (c : Thread nD τ) ↦[(outSl (pl c 1) 1).view.set]{fullShare} OUT m)
    ∗ ((outSl (pl c 1) 2).view.loc (c : Thread nD τ) ↦[(outSl (pl c 1) 2).view.set]{fullShare} OUT m)
    ∗ ((outSl (pl c 1) 3).view.loc (c : Thread nD τ) ↦[(outSl (pl c 1) 3).view.set]{fullShare} OUT m)
    ∗ ((outSl (pl c 2) 0).view.loc (c : Thread nD τ) ↦[(outSl (pl c 2) 0).view.set]{fullShare} OUT m)
    ∗ ((outSl (pl c 2) 1).view.loc (c : Thread nD τ) ↦[(outSl (pl c 2) 1).view.set]{fullShare} OUT m)
    ∗ ((outSl (pl c 2) 2).view.loc (c : Thread nD τ) ↦[(outSl (pl c 2) 2).view.set]{fullShare} OUT m)
    ∗ ((outSl (pl c 2) 3).view.loc (c : Thread nD τ) ↦[(outSl (pl c 2) 3).view.set]{fullShare} OUT m)
    ∗ ((outSl (pl c 3) 0).view.loc (c : Thread nD τ) ↦[(outSl (pl c 3) 0).view.set]{fullShare} OUT m)
    ∗ ((outSl (pl c 3) 1).view.loc (c : Thread nD τ) ↦[(outSl (pl c 3) 1).view.set]{fullShare} OUT m)
    ∗ ((outSl (pl c 3) 2).view.loc (c : Thread nD τ) ↦[(outSl (pl c 3) 2).view.set]{fullShare} OUT m)
    ∗ ((outSl (pl c 3) 3).view.loc (c : Thread nD τ) ↦[(outSl (pl c 3) 3).view.set]{fullShare} OUT m)
    ∗ (∃ W', owes (c : Thread nD τ) 0 W'))

/-- The same once the cells are closed and the pieces joined: the scratch buffers whole again, the sixty-four scratch
    semaphores at zero, nothing owed, the input blocks as they were and the result's staging buffer at the result. -/
def closedEnd (c : Dev nD) : sProp 𝕄 :=
  iprop(Φ₁ (F := F) c ∗ (∃ W', owes (c : Thread nD τ) 0 W') ∗ ((aM).view.loc (c : Thread nD τ) ↦[(aM).view.set]{fullShare} Ablk m c) ∗ ((bM).view.loc (c : Thread nD τ) ↦[(bM).view.set]{fullShare} Bblk m c)
    ∗ (((c : Thread nD τ).loc cc0_stg2_0) ↦{fullShare} OUT m))

end Cert.KernelIdeal.Hand

end
-- ==== Proof.KernelIdealStepsCommon.lean ====
import proofs.«900554_g7700000000000555_dist_matmul_gelu_kshard_i_m512_n512_k256_v7x_i4_bf16_1_alg».proof.Proof.KernelIdealAccess
import proofs.«900554_g7700000000000555_dist_matmul_gelu_kshard_i_m512_n512_k256_v7x_i4_bf16_1_alg».proof.Proof.KernelIdealBodyDefs

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The printed device chains: every signal and copy names a device 1, 2 or 3 places on -/

theorem dev1_eq (c : Dev nD) : (⟨k0_dev1 c, k0_dev1_lt c⟩ : Dev nD) = pl c 1 := Fin.ext (k0_dev1_eq c)
theorem dev2_eq (c : Dev nD) : (⟨k0_dev2 c, k0_dev2_lt c⟩ : Dev nD) = pl c 2 := Fin.ext (k0_dev2_eq c)
theorem dev3_eq (c : Dev nD) : (⟨k0_dev3 c, k0_dev3_lt c⟩ : Dev nD) = pl c 3 := Fin.ext (k0_dev3_eq c)
theorem dev4_eq (c : Dev nD) : (⟨k0_dev4 c, k0_dev4_lt c⟩ : Dev nD) = pl c 2 := Fin.ext (k0_dev4_eq c)
theorem dev5_eq (c : Dev nD) : (⟨k0_dev5 c, k0_dev5_lt c⟩ : Dev nD) = pl c 1 := Fin.ext (k0_dev5_eq c)
theorem dev6_eq (c : Dev nD) : (⟨k0_dev6 c, k0_dev6_lt c⟩ : Dev nD) = pl c 3 := Fin.ext (k0_dev6_eq c)
theorem dev7_eq (c : Dev nD) : (⟨k0_dev7 c, k0_dev7_lt c⟩ : Dev nD) = pl c 2 := Fin.ext (k0_dev7_eq c)
theorem dev8_eq (c : Dev nD) : (⟨k0_dev8 c, k0_dev8_lt c⟩ : Dev nD) = pl c 1 := Fin.ext (k0_dev8_eq c)
theorem dev9_eq (c : Dev nD) : (⟨k0_dev9 c, k0_dev9_lt c⟩ : Dev nD) = pl c 3 := Fin.ext (k0_dev9_eq c)
theorem dev10_eq (c : Dev nD) : (⟨k0_dev10 c, k0_dev10_lt c⟩ : Dev nD) = pl c 2 := Fin.ext (k0_dev10_eq c)
theorem dev11_eq (c : Dev nD) : (⟨k0_dev11 c, k0_dev11_lt c⟩ : Dev nD) = pl c 1 := Fin.ext (k0_dev11_eq c)
theorem dev12_eq (c : Dev nD) : (⟨k0_dev12 c, k0_dev12_lt c⟩ : Dev nD) = pl c 3 := Fin.ext (k0_dev12_eq c)
theorem dev13_eq (c : Dev nD) : (⟨k0_dev13 c, k0_dev13_lt c⟩ : Dev nD) = pl c 2 := Fin.ext (k0_dev13_eq c)
theorem dev14_eq (c : Dev nD) : (⟨k0_dev14 c, k0_dev14_lt c⟩ : Dev nD) = pl c 1 := Fin.ext (k0_dev14_eq c)
theorem dev15_eq (c : Dev nD) : (⟨k0_dev15 c, k0_dev15_lt c⟩ : Dev nD) = pl c 3 := Fin.ext (k0_dev15_eq c)
theorem dev16_eq (c : Dev nD) : (⟨k0_dev16 c, k0_dev16_lt c⟩ : Dev nD) = pl c 2 := Fin.ext (k0_dev16_eq c)
theorem dev17_eq (c : Dev nD) : (⟨k0_dev17 c, k0_dev17_lt c⟩ : Dev nD) = pl c 1 := Fin.ext (k0_dev17_eq c)
theorem dev18_eq (c : Dev nD) : (⟨k0_dev18 c, k0_dev18_lt c⟩ : Dev nD) = pl c 3 := Fin.ext (k0_dev18_eq c)
theorem dev19_eq (c : Dev nD) : (⟨k0_dev19 c, k0_dev19_lt c⟩ : Dev nD) = pl c 2 := Fin.ext (k0_dev19_eq c)
theorem dev20_eq (c : Dev nD) : (⟨k0_dev20 c, k0_dev20_lt c⟩ : Dev nD) = pl c 1 := Fin.ext (k0_dev20_eq c)
theorem dev21_eq (c : Dev nD) : (⟨k0_dev21 c, k0_dev21_lt c⟩ : Dev nD) = pl c 3 := Fin.ext (k0_dev21_eq c)
theorem dev22_eq (c : Dev nD) : (⟨k0_dev22 c, k0_dev22_lt c⟩ : Dev nD) = pl c 2 := Fin.ext (k0_dev22_eq c)
theorem dev23_eq (c : Dev nD) : (⟨k0_dev23 c, k0_dev23_lt c⟩ : Dev nD) = pl c 1 := Fin.ext (k0_dev23_eq c)
theorem dev24_eq (c : Dev nD) : (⟨k0_dev24 c, k0_dev24_lt c⟩ : Dev nD) = pl c 3 := Fin.ext (k0_dev24_eq c)
theorem dev25_eq (c : Dev nD) : (⟨k0_dev25 c, k0_dev25_lt c⟩ : Dev nD) = pl c 2 := Fin.ext (k0_dev25_eq c)
theorem dev26_eq (c : Dev nD) : (⟨k0_dev26 c, k0_dev26_lt c⟩ : Dev nD) = pl c 1 := Fin.ext (k0_dev26_eq c)
theorem dev27_eq (c : Dev nD) : (⟨k0_dev27 c, k0_dev27_lt c⟩ : Dev nD) = pl c 3 := Fin.ext (k0_dev27_eq c)

theorem pl_pl (c : Dev nD) : ∀ d : Fin 4, pl (pl c d.val) (4 - d.val) = c := by revert c; decide

/-! ## The barrier cell's tables -/

theorem duties_bar (c : Dev nD) : (Rd m).duties (barCell c) 0 = {1, 2, 3} := by
  dsimp only [Rd]; rw [if_pos ⟨rfl, rfl⟩]; exact if_pos rfl
theorem amount_bar (c : Dev nD) (d : Fin 4) : (Rd m).amount (barCell c) 0 d = 1 := rfl
theorem expect_bar (c : Dev nD) : (Rd m).expect (barCell c) 0 = 3 := by
  unfold Schedule.expect Schedule.amountOf; rw [duties_bar]; rfl
theorem payload_give (c : Dev nD) (d : Fin 4) : (Rd m).payload (barCell (pl c d.val)) 0 d
    = iprop((∃ f, (rsDst d 0).view.loc (c : Thread nD τ) ↦[(rsDst d 0).view.set]{fullShare} f) ∗ (∃ f, (rsDst d 1).view.loc (c : Thread nD τ) ↦[(rsDst d 1).view.set]{fullShare} f) ∗ (∃ f, (rsDst d 2).view.loc (c : Thread nD τ) ↦[(rsDst d 2).view.set]{fullShare} f) ∗ (∃ f, (rsDst d 3).view.loc (c : Thread nD τ) ↦[(rsDst d 3).view.set]{fullShare} f) ∗ (∃ f, (outSl (pl c d.val) 0).view.loc (c : Thread nD τ) ↦[(outSl (pl c d.val) 0).view.set]{fullShare} f) ∗ (∃ f, (outSl (pl c d.val) 1).view.loc (c : Thread nD τ) ↦[(outSl (pl c d.val) 1).view.set]{fullShare} f) ∗ (∃ f, (outSl (pl c d.val) 2).view.loc (c : Thread nD τ) ↦[(outSl (pl c d.val) 2).view.set]{fullShare} f) ∗ (∃ f, (outSl (pl c d.val) 3).view.loc (c : Thread nD τ) ↦[(outSl (pl c d.val) 3).view.set]{fullShare} f)) := by
  show barPay (pl c d.val) d = _
  unfold barPay pts
  rw [pl_pl]
theorem payload_give1 (c : Dev nD) : (Rd m).payload (barCell (pl c 1)) 0 1
    = iprop((∃ f, (rsDst 1 0).view.loc (c : Thread nD τ) ↦[(rsDst 1 0).view.set]{fullShare} f) ∗ (∃ f, (rsDst 1 1).view.loc (c : Thread nD τ) ↦[(rsDst 1 1).view.set]{fullShare} f) ∗ (∃ f, (rsDst 1 2).view.loc (c : Thread nD τ) ↦[(rsDst 1 2).view.set]{fullShare} f) ∗ (∃ f, (rsDst 1 3).view.loc (c : Thread nD τ) ↦[(rsDst 1 3).view.set]{fullShare} f) ∗ (∃ f, (outSl (pl c 1) 0).view.loc (c : Thread nD τ) ↦[(outSl (pl c 1) 0).view.set]{fullShare} f) ∗ (∃ f, (outSl (pl c 1) 1).view.loc (c : Thread nD τ) ↦[(outSl (pl c 1) 1).view.set]{fullShare} f) ∗ (∃ f, (outSl (pl c 1) 2).view.loc (c : Thread nD τ) ↦[(outSl (pl c 1) 2).view.set]{fullShare} f) ∗ (∃ f, (outSl (pl c 1) 3).view.loc (c : Thread nD τ) ↦[(outSl (pl c 1) 3).view.set]{fullShare} f)) := payload_give m c 1
theorem payload_take1 (c : Dev nD) : (Rd m).payload (barCell c) 0 1
    = iprop((∃ f, (rsDst 1 0).view.loc (pl c 3 : Thread nD τ) ↦[(rsDst 1 0).view.set]{fullShare} f) ∗ (∃ f, (rsDst 1 1).view.loc (pl c 3 : Thread nD τ) ↦[(rsDst 1 1).view.set]{fullShare} f) ∗ (∃ f, (rsDst 1 2).view.loc (pl c 3 : Thread nD τ) ↦[(rsDst 1 2).view.set]{fullShare} f) ∗ (∃ f, (rsDst 1 3).view.loc (pl c 3 : Thread nD τ) ↦[(rsDst 1 3).view.set]{fullShare} f) ∗ (∃ f, (outSl c 0).view.loc (pl c 3 : Thread nD τ) ↦[(outSl c 0).view.set]{fullShare} f) ∗ (∃ f, (outSl c 1).view.loc (pl c 3 : Thread nD τ) ↦[(outSl c 1).view.set]{fullShare} f) ∗ (∃ f, (outSl c 2).view.loc (pl c 3 : Thread nD τ) ↦[(outSl c 2).view.set]{fullShare} f) ∗ (∃ f, (outSl c 3).view.loc (pl c 3 : Thread nD τ) ↦[(outSl c 3).view.set]{fullShare} f)) := by
  show barPay c 1 = _
  unfold barPay pts
  rfl
theorem payload_give2 (c : Dev nD) : (Rd m).payload (barCell (pl c 2)) 0 2
    = iprop((∃ f, (rsDst 2 0).view.loc (c : Thread nD τ) ↦[(rsDst 2 0).view.set]{fullShare} f) ∗ (∃ f, (rsDst 2 1).view.loc (c : Thread nD τ) ↦[(rsDst 2 1).view.set]{fullShare} f) ∗ (∃ f, (rsDst 2 2).view.loc (c : Thread nD τ) ↦[(rsDst 2 2).view.set]{fullShare} f) ∗ (∃ f, (rsDst 2 3).view.loc (c : Thread nD τ) ↦[(rsDst 2 3).view.set]{fullShare} f) ∗ (∃ f, (outSl (pl c 2) 0).view.loc (c : Thread nD τ) ↦[(outSl (pl c 2) 0).view.set]{fullShare} f) ∗ (∃ f, (outSl (pl c 2) 1).view.loc (c : Thread nD τ) ↦[(outSl (pl c 2) 1).view.set]{fullShare} f) ∗ (∃ f, (outSl (pl c 2) 2).view.loc (c : Thread nD τ) ↦[(outSl (pl c 2) 2).view.set]{fullShare} f) ∗ (∃ f, (outSl (pl c 2) 3).view.loc (c : Thread nD τ) ↦[(outSl (pl c 2) 3).view.set]{fullShare} f)) := payload_give m c 2
theorem payload_take2 (c : Dev nD) : (Rd m).payload (barCell c) 0 2
    = iprop((∃ f, (rsDst 2 0).view.loc (pl c 2 : Thread nD τ) ↦[(rsDst 2 0).view.set]{fullShare} f) ∗ (∃ f, (rsDst 2 1).view.loc (pl c 2 : Thread nD τ) ↦[(rsDst 2 1).view.set]{fullShare} f) ∗ (∃ f, (rsDst 2 2).view.loc (pl c 2 : Thread nD τ) ↦[(rsDst 2 2).view.set]{fullShare} f) ∗ (∃ f, (rsDst 2 3).view.loc (pl c 2 : Thread nD τ) ↦[(rsDst 2 3).view.set]{fullShare} f) ∗ (∃ f, (outSl c 0).view.loc (pl c 2 : Thread nD τ) ↦[(outSl c 0).view.set]{fullShare} f) ∗ (∃ f, (outSl c 1).view.loc (pl c 2 : Thread nD τ) ↦[(outSl c 1).view.set]{fullShare} f) ∗ (∃ f, (outSl c 2).view.loc (pl c 2 : Thread nD τ) ↦[(outSl c 2).view.set]{fullShare} f) ∗ (∃ f, (outSl c 3).view.loc (pl c 2 : Thread nD τ) ↦[(outSl c 3).view.set]{fullShare} f)) := by
  show barPay c 2 = _
  unfold barPay pts
  rfl
theorem payload_give3 (c : Dev nD) : (Rd m).payload (barCell (pl c 3)) 0 3
    = iprop((∃ f, (rsDst 3 0).view.loc (c : Thread nD τ) ↦[(rsDst 3 0).view.set]{fullShare} f) ∗ (∃ f, (rsDst 3 1).view.loc (c : Thread nD τ) ↦[(rsDst 3 1).view.set]{fullShare} f) ∗ (∃ f, (rsDst 3 2).view.loc (c : Thread nD τ) ↦[(rsDst 3 2).view.set]{fullShare} f) ∗ (∃ f, (rsDst 3 3).view.loc (c : Thread nD τ) ↦[(rsDst 3 3).view.set]{fullShare} f) ∗ (∃ f, (outSl (pl c 3) 0).view.loc (c : Thread nD τ) ↦[(outSl (pl c 3) 0).view.set]{fullShare} f) ∗ (∃ f, (outSl (pl c 3) 1).view.loc (c : Thread nD τ) ↦[(outSl (pl c 3) 1).view.set]{fullShare} f) ∗ (∃ f, (outSl (pl c 3) 2).view.loc (c : Thread nD τ) ↦[(outSl (pl c 3) 2).view.set]{fullShare} f) ∗ (∃ f, (outSl (pl c 3) 3).view.loc (c : Thread nD τ) ↦[(outSl (pl c 3) 3).view.set]{fullShare} f)) := payload_give m c 3
theorem payload_take3 (c : Dev nD) : (Rd m).payload (barCell c) 0 3
    = iprop((∃ f, (rsDst 3 0).view.loc (pl c 1 : Thread nD τ) ↦[(rsDst 3 0).view.set]{fullShare} f) ∗ (∃ f, (rsDst 3 1).view.loc (pl c 1 : Thread nD τ) ↦[(rsDst 3 1).view.set]{fullShare} f) ∗ (∃ f, (rsDst 3 2).view.loc (pl c 1 : Thread nD τ) ↦[(rsDst 3 2).view.set]{fullShare} f) ∗ (∃ f, (rsDst 3 3).view.loc (pl c 1 : Thread nD τ) ↦[(rsDst 3 3).view.set]{fullShare} f) ∗ (∃ f, (outSl c 0).view.loc (pl c 1 : Thread nD τ) ↦[(outSl c 0).view.set]{fullShare} f) ∗ (∃ f, (outSl c 1).view.loc (pl c 1 : Thread nD τ) ↦[(outSl c 1).view.set]{fullShare} f) ∗ (∃ f, (outSl c 2).view.loc (pl c 1 : Thread nD τ) ↦[(outSl c 2).view.set]{fullShare} f) ∗ (∃ f, (outSl c 3).view.loc (pl c 1 : Thread nD τ) ↦[(outSl c 3).view.set]{fullShare} f)) := by
  show barPay c 3 = _
  unfold barPay pts
  rfl

/-- A piece's points-to, unfolded. -/
theorem pts_def {sp : Space} {s : Shape} {e : EltTy} (M : Memref sig .tc sp s e) (c : Dev nD) (f : Buf (Elt F) (M.view.loc (c : Thread nD τ))) :
    (pts M c f : sProp 𝕄) = (M.view.loc (c : Thread nD τ) ↦[M.view.set]{fullShare} f) := rfl

/-- A cell's invariant, unfolded. -/
theorem cinv_def (K : GSem nD τ sig → ℕ) (g : GSem nD τ sig) : (cinv m K g : sProp 𝕄) = cellInv ER (Rd m) (K g) g := rfl

/-- The partial-product buffer held whole, through its memref and by its location. -/
theorem pM_whole (c : Dev nD) (f : Buf (Elt F) (pLoc c)) :
    ((pM : Memref sig .tc .vmem S4x128x512 .bf16).view.loc (c : Thread nD τ) ↦[(pM : Memref sig .tc .vmem S4x128x512 .bf16).view.set]{fullShare} f : sProp 𝕄) = (pLoc c ↦{fullShare} f) := by
  rw [show (pM : Memref sig .tc .vmem S4x128x512 .bf16).view.set = Finset.univ from View.set_whole _]

/-- The three entry signals' payloads, in the order of the duties. -/
theorem rest_bar (c : Dev nD) : bigSep ((Rd m).duties (barCell c) 0 \ ∅) (fun d => (Rd m).payload (barCell c) 0 d)
    = iprop(((∃ f, (rsDst 1 0).view.loc (pl c 3 : Thread nD τ) ↦[(rsDst 1 0).view.set]{fullShare} f) ∗ (∃ f, (rsDst 1 1).view.loc (pl c 3 : Thread nD τ) ↦[(rsDst 1 1).view.set]{fullShare} f) ∗ (∃ f, (rsDst 1 2).view.loc (pl c 3 : Thread nD τ) ↦[(rsDst 1 2).view.set]{fullShare} f) ∗ (∃ f, (rsDst 1 3).view.loc (pl c 3 : Thread nD τ) ↦[(rsDst 1 3).view.set]{fullShare} f) ∗ (∃ f, (outSl c 0).view.loc (pl c 3 : Thread nD τ) ↦[(outSl c 0).view.set]{fullShare} f) ∗ (∃ f, (outSl c 1).view.loc (pl c 3 : Thread nD τ) ↦[(outSl c 1).view.set]{fullShare} f) ∗ (∃ f, (outSl c 2).view.loc (pl c 3 : Thread nD τ) ↦[(outSl c 2).view.set]{fullShare} f) ∗ (∃ f, (outSl c 3).view.loc (pl c 3 : Thread nD τ) ↦[(outSl c 3).view.set]{fullShare} f)) ∗ ((∃ f, (rsDst 2 0).view.loc (pl c 2 : Thread nD τ) ↦[(rsDst 2 0).view.set]{fullShare} f) ∗ (∃ f, (rsDst 2 1).view.loc (pl c 2 : Thread nD τ) ↦[(rsDst 2 1).view.set]{fullShare} f) ∗ (∃ f, (rsDst 2 2).view.loc (pl c 2 : Thread nD τ) ↦[(rsDst 2 2).view.set]{fullShare} f) ∗ (∃ f, (rsDst 2 3).view.loc (pl c 2 : Thread nD τ) ↦[(rsDst 2 3).view.set]{fullShare} f) ∗ (∃ f, (outSl c 0).view.loc (pl c 2 : Thread nD τ) ↦[(outSl c 0).view.set]{fullShare} f) ∗ (∃ f, (outSl c 1).view.loc (pl c 2 : Thread nD τ) ↦[(outSl c 1).view.set]{fullShare} f) ∗ (∃ f, (outSl c 2).view.loc (pl c 2 : Thread nD τ) ↦[(outSl c 2).view.set]{fullShare} f) ∗ (∃ f, (outSl c 3).view.loc (pl c 2 : Thread nD τ) ↦[(outSl c 3).view.set]{fullShare} f)) ∗ ((∃ f, (rsDst 3 0).view.loc (pl c 1 : Thread nD τ) ↦[(rsDst 3 0).view.set]{fullShare} f) ∗ (∃ f, (rsDst 3 1).view.loc (pl c 1 : Thread nD τ) ↦[(rsDst 3 1).view.set]{fullShare} f) ∗ (∃ f, (rsDst 3 2).view.loc (pl c 1 : Thread nD τ) ↦[(rsDst 3 2).view.set]{fullShare} f) ∗ (∃ f, (rsDst 3 3).view.loc (pl c 1 : Thread nD τ) ↦[(rsDst 3 3).view.set]{fullShare} f) ∗ (∃ f, (outSl c 0).view.loc (pl c 1 : Thread nD τ) ↦[(outSl c 0).view.set]{fullShare} f) ∗ (∃ f, (outSl c 1).view.loc (pl c 1 : Thread nD τ) ↦[(outSl c 1).view.set]{fullShare} f) ∗ (∃ f, (outSl c 2).view.loc (pl c 1 : Thread nD τ) ↦[(outSl c 2).view.set]{fullShare} f) ∗ (∃ f, (outSl c 3).view.loc (pl c 1 : Thread nD τ) ↦[(outSl c 3).view.set]{fullShare} f))) := by
  rw [Finset.sdiff_empty, duties_bar, bigSep_eq_bigSepL_of_eq [(1 : Fin 4), 2, 3] (by decide) (by decide), bigSepL_cons_cons, bigSepL_cons_cons, bigSepL_singleton,
    payload_take1, payload_take2, payload_take3]
  rfl

/-- The partial product as the body stores it: the product of the two whole input blocks. -/
theorem pblk_stored (c : Dev nD) (p0 : Vec F S4x128x512 .bf16) :
    pM.view.writes (Elt F) p0
      [⟨Rect.unit ![0, 0, 0] S4x128x512.size inb_S4x128x512_S4x128x512_0_0_0,
          k0_pay1
            (View.readAt (Elt F) aM.view (Rect.unit ![0, 0] S512x256.size inb_S512x256_S512x256_0_0).toLoadRect (Ablk m c))
            (View.readAt (Elt F) bM.view (Rect.unit ![0, 0] S256x512.size inb_S256x512_S256x512_0_0).toLoadRect (Bblk m c))⟩]
      = Pblk m c := by
  have hz2 : (![0, 0] : Fin 2 → Nat) = fun _ => 0 := funext fun a => by fin_cases a <;> rfl
  have hz3 : (![0, 0, 0] : Fin 3 → Nat) = fun _ => 0 := funext fun a => by fin_cases a <;> rfl
  have ha : View.readAt (Elt F) aM.view (Rect.unit ![0, 0] S512x256.size inb_S512x256_S512x256_0_0).toLoadRect (Ablk m c) = Ablk m c :=
    Memref.readAt_unit_zero (Elt F) cc0_stg0_0 hz2 _ _
  have hb : View.readAt (Elt F) bM.view (Rect.unit ![0, 0] S256x512.size inb_S256x512_S256x512_0_0).toLoadRect (Bblk m c) = Bblk m c :=
    Memref.readAt_unit_zero (Elt F) cc0_stg1_0 hz2 _ _
  rw [ha, hb, View.writes_singleton]
  exact Memref.write_access_unit_zero_univ (Elt F) cc0_scratch0 hz3 _ _ _

/-- The same, the list of stores under any name. -/
theorem pblk_stored' (c : Dev nD) (p0 : Vec F S4x128x512 .bf16) (Ls : List (View.Piece (Elt F) S4x128x512 .bf16))
    (hL : Ls = [⟨Rect.unit ![0, 0, 0] S4x128x512.size inb_S4x128x512_S4x128x512_0_0_0,
          k0_pay1
            (View.readAt (Elt F) aM.view (Rect.unit ![0, 0] S512x256.size inb_S512x256_S512x256_0_0).toLoadRect (Ablk m c))
            (View.readAt (Elt F) bM.view (Rect.unit ![0, 0] S256x512.size inb_S256x512_S256x512_0_0).toLoadRect (Bblk m c))⟩]) :
    pM.view.writes (Elt F) p0 Ls = Pblk m c := by
  subst hL; exact pblk_stored m c p0

end Cert.KernelIdeal.Hand
end
-- ==== Proof.KernelIdealPartsA.lean ====
import proofs.«900554_g7700000000000555_dist_matmul_gelu_kshard_i_m512_n512_k256_v7x_i4_bf16_1_alg».proof.Proof.KernelIdealStepsCommon

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

/-- A raw chain of three is the chain of three. -/
theorem sep3_raw (A B C : sProp 𝕄) : BI.sep A (BI.sep B C) ⊢ iprop(A ∗ B ∗ C) := .rfl

set_option maxHeartbeats 1000000 in
theorem part1_run (K : GSem nD τ sig → ℕ) (c : Dev nD) (r0 : Vec F S4x128x512 .bf16) (o0 : Vec F S512x512 .bf16) (p0 : Vec F S4x128x512 .bf16) (W : Waits sig Unit)
    :
    iprop(cellInv ER (Rd m) (K (barCell (pl c 1))) (barCell (pl c 1))
      ∗ reached ER (barCell (pl c 1)) 0
      ∗ cellInv ER (Rd m) (K (barCell (pl c 2))) (barCell (pl c 2))
      ∗ reached ER (barCell (pl c 2)) 0
      ∗ cellInv ER (Rd m) (K (barCell (pl c 3))) (barCell (pl c 3))
      ∗ reached ER (barCell (pl c 3)) 0
      ∗ dutyTok ER (barCell (pl c 1)) 0 1
      ∗ ((rsDst 1 0).view.loc (c : Thread nD τ) ↦[(rsDst 1 0).view.set]{fullShare} r0)
      ∗ ((rsDst 1 1).view.loc (c : Thread nD τ) ↦[(rsDst 1 1).view.set]{fullShare} r0)
      ∗ ((rsDst 1 2).view.loc (c : Thread nD τ) ↦[(rsDst 1 2).view.set]{fullShare} r0)
      ∗ ((rsDst 1 3).view.loc (c : Thread nD τ) ↦[(rsDst 1 3).view.set]{fullShare} r0)
      ∗ ((outSl (pl c 1) 0).view.loc (c : Thread nD τ) ↦[(outSl (pl c 1) 0).view.set]{fullShare} o0)
      ∗ ((outSl (pl c 1) 1).view.loc (c : Thread nD τ) ↦[(outSl (pl c 1) 1).view.set]{fullShare} o0)
      ∗ ((outSl (pl c 1) 2).view.loc (c : Thread nD τ) ↦[(outSl (pl c 1) 2).view.set]{fullShare} o0)
      ∗ ((outSl (pl c 1) 3).view.loc (c : Thread nD τ) ↦[(outSl (pl c 1) 3).view.set]{fullShare} o0)
      ∗ dutyTok ER (barCell (pl c 2)) 0 2
      ∗ ((rsDst 2 0).view.loc (c : Thread nD τ) ↦[(rsDst 2 0).view.set]{fullShare} r0)
      ∗ ((rsDst 2 1).view.loc (c : Thread nD τ) ↦[(rsDst 2 1).view.set]{fullShare} r0)
      ∗ ((rsDst 2 2).view.loc (c : Thread nD τ) ↦[(rsDst 2 2).view.set]{fullShare} r0)
      ∗ ((rsDst 2 3).view.loc (c : Thread nD τ) ↦[(rsDst 2 3).view.set]{fullShare} r0)
      ∗ ((outSl (pl c 2) 0).view.loc (c : Thread nD τ) ↦[(outSl (pl c 2) 0).view.set]{fullShare} o0)
      ∗ ((outSl (pl c 2) 1).view.loc (c : Thread nD τ) ↦[(outSl (pl c 2) 1).view.set]{fullShare} o0)
      ∗ ((outSl (pl c 2) 2).view.loc (c : Thread nD τ) ↦[(outSl (pl c 2) 2).view.set]{fullShare} o0)
      ∗ ((outSl (pl c 2) 3).view.loc (c : Thread nD τ) ↦[(outSl (pl c 2) 3).view.set]{fullShare} o0)
      ∗ dutyTok ER (barCell (pl c 3)) 0 3
      ∗ ((rsDst 3 0).view.loc (c : Thread nD τ) ↦[(rsDst 3 0).view.set]{fullShare} r0)
      ∗ ((rsDst 3 1).view.loc (c : Thread nD τ) ↦[(rsDst 3 1).view.set]{fullShare} r0)
      ∗ ((rsDst 3 2).view.loc (c : Thread nD τ) ↦[(rsDst 3 2).view.set]{fullShare} r0)
      ∗ ((rsDst 3 3).view.loc (c : Thread nD τ) ↦[(rsDst 3 3).view.set]{fullShare} r0)
      ∗ ((outSl (pl c 3) 0).view.loc (c : Thread nD τ) ↦[(outSl (pl c 3) 0).view.set]{fullShare} o0)
      ∗ ((outSl (pl c 3) 1).view.loc (c : Thread nD τ) ↦[(outSl (pl c 3) 1).view.set]{fullShare} o0)
      ∗ ((outSl (pl c 3) 2).view.loc (c : Thread nD τ) ↦[(outSl (pl c 3) 2).view.set]{fullShare} o0)
      ∗ ((outSl (pl c 3) 3).view.loc (c : Thread nD τ) ↦[(outSl (pl c 3) 3).view.set]{fullShare} o0)
      ∗ ((aM).view.loc (c : Thread nD τ) ↦[(aM).view.set]{fullShare} Ablk m c)
      ∗ ((bM).view.loc (c : Thread nD τ) ↦[(bM).view.set]{fullShare} Bblk m c)
      ∗ ((pM).view.loc (c : Thread nD τ) ↦[(pM).view.set]{fullShare} p0)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr + tallyAt (barCell (pl c 3)) () 1 + tallyAt (barCell (pl c 2)) () 1 + tallyAt (barCell (pl c 1)) () 1) W)
      ⊢ wp frame (wpE (defs₀ (F := F)) 𝒱₀ c none) Set.univ (k0_part1 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5)
          (fun r : (Σ' (d0 : Dev nD) (v2 : BitVec 32), Sems sig S_) => iprop(((aM).view.loc (c : Thread nD τ) ↦[(aM).view.set]{fullShare} Ablk m c)
            ∗ ((bM).view.loc (c : Thread nD τ) ↦[(bM).view.set]{fullShare} Bblk m c)
            ∗ ((pM).view.loc (c : Thread nD τ) ↦[(pM).view.set]{fullShare} Pblk m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr) W')
            ∗ ⌜r.1 = c⌝
            ∗ ⌜r.2.2 = (SemArray.scalar (sig.barrier 0 rfl) : Sems sig S_)⌝)) := by
  iintro ⟨#Ib1, #Rb1, #Ib2, #Rb2, #Ib3, #Rb3, Tb1, Hr10, Hr11, Hr12, Hr13, Hog10, Hog11, Hog12, Hog13, Tb2, Hr20, Hr21, Hr22, Hr23, Hog20, Hog21, Hog22, Hog23, Tb3, Hr30, Hr31, Hr32, Hr33, Hog30, Hog31, Hog32, Hog33, Ha, Hb, Hp, HO⟩
  sl_exec
  ihave Hp := (Entails.of_eq (congrArg (fun f => ((pM.view.loc (c : Thread nD τ) ↦[pM.view.set]{fullShare} f : sProp 𝕄))) (pblk_stored m c p0))) $$ Hp
  sl_step
  isplitl [Ha]; · iexact Ha
  isplitl [Hb]; · iexact Hb
  isplitl [Hp]; · iexact Hp
  isplitl [HO]; · (iexists _; iexact HO)
  isplitr; · (ipureintro; rfl)
  (ipureintro; rfl)

set_option maxHeartbeats 1000000 in
theorem part2_run (K : GSem nD τ sig → ℕ) (c : Dev nD)  (W : Waits sig Unit) (v2 : BitVec 32)
    :
    iprop(cellInv ER (Rd m) (K (barCell c)) (barCell c)
      ∗ levAts L lv
      ∗ cellInv ER (Rd m) (K (rsS c 2 0)) (rsS c 2 0)
      ∗ cellInv ER (Rd m) (K (rsR (pl c 2) 2 0)) (rsR (pl c 2) 2 0)
      ∗ reached ER (rsS c 2 0) 0
      ∗ reached ER (rsR (pl c 2) 2 0) 0
      ∗ cellInv ER (Rd m) (K (rsS c 1 0)) (rsS c 1 0)
      ∗ cellInv ER (Rd m) (K (rsR (pl c 1) 3 0)) (rsR (pl c 1) 3 0)
      ∗ reached ER (rsS c 1 0) 0
      ∗ reached ER (rsR (pl c 1) 3 0) 0
      ∗ atPos ER (barCell c) 0 ∅ 0
      ∗ cred (tallyAt (barCell c) () 3)
      ∗ dutyTok ER (rsS c 2 0) 0 0
      ∗ dutyTok ER (rsR (pl c 2) 2 0) 0 0
      ∗ ((rsSrc c 1 0).view.loc (c : Thread nD τ) ↦[(rsSrc c 1 0).view.set]{fullShare} Pblk m c)
      ∗ dutyTok ER (rsS c 1 0) 0 0
      ∗ dutyTok ER (rsR (pl c 1) 3 0) 0 0
      ∗ ((rsSrc c 0 0).view.loc (c : Thread nD τ) ↦[(rsSrc c 0 0).view.set]{fullShare} Pblk m c)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr) W)
      ⊢ wp frame (wpE (defs₀ (F := F)) 𝒱₀ c none) Set.univ (k0_part2 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 (SemArray.scalar (sig.barrier 0 rfl) : Sems sig S_))
          (fun r : (BitVec 32) => iprop(atPos ER (barCell c) 1 ∅ 0
            ∗ iprop((∃ f, (rsDst 1 0).view.loc (pl c 3 : Thread nD τ) ↦[(rsDst 1 0).view.set]{fullShare} f) ∗ (∃ f, (rsDst 1 1).view.loc (pl c 3 : Thread nD τ) ↦[(rsDst 1 1).view.set]{fullShare} f) ∗ (∃ f, (rsDst 1 2).view.loc (pl c 3 : Thread nD τ) ↦[(rsDst 1 2).view.set]{fullShare} f) ∗ (∃ f, (rsDst 1 3).view.loc (pl c 3 : Thread nD τ) ↦[(rsDst 1 3).view.set]{fullShare} f) ∗ (∃ f, (outSl c 0).view.loc (pl c 3 : Thread nD τ) ↦[(outSl c 0).view.set]{fullShare} f) ∗ (∃ f, (outSl c 1).view.loc (pl c 3 : Thread nD τ) ↦[(outSl c 1).view.set]{fullShare} f) ∗ (∃ f, (outSl c 2).view.loc (pl c 3 : Thread nD τ) ↦[(outSl c 2).view.set]{fullShare} f) ∗ (∃ f, (outSl c 3).view.loc (pl c 3 : Thread nD τ) ↦[(outSl c 3).view.set]{fullShare} f))
            ∗ iprop((∃ f, (rsDst 2 1).view.loc (pl c 2 : Thread nD τ) ↦[(rsDst 2 1).view.set]{fullShare} f) ∗ (∃ f, (rsDst 2 2).view.loc (pl c 2 : Thread nD τ) ↦[(rsDst 2 2).view.set]{fullShare} f) ∗ (∃ f, (rsDst 2 3).view.loc (pl c 2 : Thread nD τ) ↦[(rsDst 2 3).view.set]{fullShare} f) ∗ (∃ f, (outSl c 0).view.loc (pl c 2 : Thread nD τ) ↦[(outSl c 0).view.set]{fullShare} f) ∗ (∃ f, (outSl c 1).view.loc (pl c 2 : Thread nD τ) ↦[(outSl c 1).view.set]{fullShare} f) ∗ (∃ f, (outSl c 2).view.loc (pl c 2 : Thread nD τ) ↦[(outSl c 2).view.set]{fullShare} f) ∗ (∃ f, (outSl c 3).view.loc (pl c 2 : Thread nD τ) ↦[(outSl c 3).view.set]{fullShare} f))
            ∗ iprop((∃ f, (rsDst 3 1).view.loc (pl c 1 : Thread nD τ) ↦[(rsDst 3 1).view.set]{fullShare} f) ∗ (∃ f, (rsDst 3 2).view.loc (pl c 1 : Thread nD τ) ↦[(rsDst 3 2).view.set]{fullShare} f) ∗ (∃ f, (rsDst 3 3).view.loc (pl c 1 : Thread nD τ) ↦[(rsDst 3 3).view.set]{fullShare} f) ∗ (∃ f, (outSl c 0).view.loc (pl c 1 : Thread nD τ) ↦[(outSl c 0).view.set]{fullShare} f) ∗ (∃ f, (outSl c 1).view.loc (pl c 1 : Thread nD τ) ↦[(outSl c 1).view.set]{fullShare} f) ∗ (∃ f, (outSl c 2).view.loc (pl c 1 : Thread nD τ) ↦[(outSl c 2).view.set]{fullShare} f) ∗ (∃ f, (outSl c 3).view.loc (pl c 1 : Thread nD τ) ↦[(outSl c 3).view.set]{fullShare} f))
            ∗ cred (tallyAt (rsS c 2 0) () Nr)
            ∗ cred (tallyAt (rsS c 1 0) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr) W'))) := by
  iintro ⟨#Ib0, #Hlev, #IsS20, #IpR20, #RsS20, #RpR20, #IsS10, #IpR10, #RsS10, #RpR10, Pb, Cb, TsS20, TpR20, Hs20, TsS10, TpR10, Hs10, HO⟩
  have hmw := mayWait_bar (F := F) c
  sl_exec
  icases Pb_pay1 with Hpay
  ihave Hpay := (sep3_raw (F := F) _ _ _) $$ Hpay
  icases Hpay with ⟨E3, E2, E1⟩
  icases E2 with ⟨Ed2r0, E2⟩
  icases Ed2r0 with ⟨%fd, Hd⟩
  iapply (wp_rs_send m c 1 0 _ (dev4_eq c) _ _ rfl rfl _ _ rfl rfl (K (rsS c 2 0)) (K (rsR (pl c 2) 2 0)) fd _ _) $$ [Hs20 Hd HO TsS20 TpR20]
  · isplitr; · iexact IsS20
    isplitr; · iexact IpR20
    isplitl [Hs20]; · iexact Hs20
    isplitl [Hd]; · iexact Hd
    isplitl [HO]; · iexact HO
    isplitl [TsS20]; · iexact TsS20
    isplitr; · iexact RsS20
    isplitl [TpR20]; · iexact TpR20
    iexact RpR20
  iintro ⟨Cs20, HO⟩
  sl_exec
  icases E1 with ⟨Ed1r0, E1⟩
  icases Ed1r0 with ⟨%fd, Hd⟩
  iapply (wp_rs_send m c 0 0 _ (dev5_eq c) _ _ rfl rfl _ _ rfl rfl (K (rsS c 1 0)) (K (rsR (pl c 1) 3 0)) fd _ _) $$ [Hs10 Hd HO TsS10 TpR10]
  · isplitr; · iexact IsS10
    isplitr; · iexact IpR10
    isplitl [Hs10]; · iexact Hs10
    isplitl [Hd]; · iexact Hd
    isplitl [HO]; · iexact HO
    isplitl [TsS10]; · iexact TsS10
    isplitr; · iexact RsS10
    isplitl [TpR10]; · iexact TpR10
    iexact RpR10
  iintro ⟨Cs10, HO⟩
  sl_exec
  sl_step
  isplitl [Pb]; · iexact Pb
  isplitl [E3]; · iexact E3
  isplitl [E2]; · iexact E2
  isplitl [E1]; · iexact E1
  isplitl [Cs20]; · iexact Cs20
  isplitl [Cs10]; · iexact Cs10
  (iexists _; iexact HO)

set_option maxHeartbeats 1000000 in
theorem part3_run (K : GSem nD τ sig → ℕ) (c : Dev nD)  (W : Waits sig Unit) (v2 : BitVec 32) (v53 : BitVec 32)
    :
    iprop(cellInv ER (Rd m) (K (rsS c 3 0)) (rsS c 3 0)
      ∗ cellInv ER (Rd m) (K (rsR (pl c 3) 1 0)) (rsR (pl c 3) 1 0)
      ∗ reached ER (rsS c 3 0) 0
      ∗ reached ER (rsR (pl c 3) 1 0) 0
      ∗ cellInv ER (Rd m) (K (rsS c 2 1)) (rsS c 2 1)
      ∗ cellInv ER (Rd m) (K (rsR (pl c 2) 2 1)) (rsR (pl c 2) 2 1)
      ∗ reached ER (rsS c 2 1) 0
      ∗ reached ER (rsR (pl c 2) 2 1) 0
      ∗ dutyTok ER (rsS c 3 0) 0 0
      ∗ dutyTok ER (rsR (pl c 3) 1 0) 0 0
      ∗ ((rsSrc c 2 0).view.loc (c : Thread nD τ) ↦[(rsSrc c 2 0).view.set]{fullShare} Pblk m c)
      ∗ (∃ f, (rsDst 1 0).view.loc (pl c 3 : Thread nD τ) ↦[(rsDst 1 0).view.set]{fullShare} f)
      ∗ dutyTok ER (rsS c 2 1) 0 0
      ∗ dutyTok ER (rsR (pl c 2) 2 1) 0 0
      ∗ ((rsSrc c 1 1).view.loc (c : Thread nD τ) ↦[(rsSrc c 1 1).view.set]{fullShare} Pblk m c)
      ∗ (∃ f, (rsDst 2 1).view.loc (pl c 2 : Thread nD τ) ↦[(rsDst 2 1).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr) W)
      ⊢ wp frame (wpE (defs₀ (F := F)) 𝒱₀ c none) Set.univ (k0_part3 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v53)
          (fun r : (PUnit) => iprop(cred (tallyAt (rsS c 3 0) () Nr)
            ∗ cred (tallyAt (rsS c 2 1) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr) W'))) := by
  iintro ⟨#IsS30, #IpR30, #RsS30, #RpR30, #IsS21, #IpR21, #RsS21, #RpR21, TsS30, TpR30, Hs30, Ed3r0, TsS21, TpR21, Hs21, Ed2r1, HO⟩
  sl_exec
  icases Ed3r0 with ⟨%fd, Hd⟩
  iapply (wp_rs_send m c 2 0 _ (dev6_eq c) _ _ rfl rfl _ _ rfl rfl (K (rsS c 3 0)) (K (rsR (pl c 3) 1 0)) fd _ _) $$ [Hs30 Hd HO TsS30 TpR30]
  · isplitr; · iexact IsS30
    isplitr; · iexact IpR30
    isplitl [Hs30]; · iexact Hs30
    isplitl [Hd]; · iexact Hd
    isplitl [HO]; · iexact HO
    isplitl [TsS30]; · iexact TsS30
    isplitr; · iexact RsS30
    isplitl [TpR30]; · iexact TpR30
    iexact RpR30
  iintro ⟨Cs30, HO⟩
  sl_exec
  icases Ed2r1 with ⟨%fd, Hd⟩
  iapply (wp_rs_send m c 1 1 _ (dev7_eq c) _ _ rfl rfl _ _ rfl rfl (K (rsS c 2 1)) (K (rsR (pl c 2) 2 1)) fd _ _) $$ [Hs21 Hd HO TsS21 TpR21]
  · isplitr; · iexact IsS21
    isplitr; · iexact IpR21
    isplitl [Hs21]; · iexact Hs21
    isplitl [Hd]; · iexact Hd
    isplitl [HO]; · iexact HO
    isplitl [TsS21]; · iexact TsS21
    isplitr; · iexact RsS21
    isplitl [TpR21]; · iexact TpR21
    iexact RpR21
  iintro ⟨Cs21, HO⟩
  sl_exec
  sl_step
  isplitl [Cs30]; · iexact Cs30
  isplitl [Cs21]; · iexact Cs21
  (iexists _; iexact HO)

set_option maxHeartbeats 1000000 in
theorem part4_run (K : GSem nD τ sig → ℕ) (c : Dev nD)  (W : Waits sig Unit) (v2 : BitVec 32)
    :
    iprop(cellInv ER (Rd m) (K (rsS c 1 1)) (rsS c 1 1)
      ∗ cellInv ER (Rd m) (K (rsR (pl c 1) 3 1)) (rsR (pl c 1) 3 1)
      ∗ reached ER (rsS c 1 1) 0
      ∗ reached ER (rsR (pl c 1) 3 1) 0
      ∗ cellInv ER (Rd m) (K (rsS c 3 1)) (rsS c 3 1)
      ∗ cellInv ER (Rd m) (K (rsR (pl c 3) 1 1)) (rsR (pl c 3) 1 1)
      ∗ reached ER (rsS c 3 1) 0
      ∗ reached ER (rsR (pl c 3) 1 1) 0
      ∗ dutyTok ER (rsS c 1 1) 0 0
      ∗ dutyTok ER (rsR (pl c 1) 3 1) 0 0
      ∗ ((rsSrc c 0 1).view.loc (c : Thread nD τ) ↦[(rsSrc c 0 1).view.set]{fullShare} Pblk m c)
      ∗ (∃ f, (rsDst 3 1).view.loc (pl c 1 : Thread nD τ) ↦[(rsDst 3 1).view.set]{fullShare} f)
      ∗ dutyTok ER (rsS c 3 1) 0 0
      ∗ dutyTok ER (rsR (pl c 3) 1 1) 0 0
      ∗ ((rsSrc c 2 1).view.loc (c : Thread nD τ) ↦[(rsSrc c 2 1).view.set]{fullShare} Pblk m c)
      ∗ (∃ f, (rsDst 1 1).view.loc (pl c 3 : Thread nD τ) ↦[(rsDst 1 1).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr) W)
      ⊢ wp frame (wpE (defs₀ (F := F)) 𝒱₀ c none) Set.univ (k0_part4 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (PUnit) => iprop(cred (tallyAt (rsS c 1 1) () Nr)
            ∗ cred (tallyAt (rsS c 3 1) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr) W'))) := by
  iintro ⟨#IsS11, #IpR11, #RsS11, #RpR11, #IsS31, #IpR31, #RsS31, #RpR31, TsS11, TpR11, Hs11, Ed1r1, TsS31, TpR31, Hs31, Ed3r1, HO⟩
  sl_exec
  icases Ed1r1 with ⟨%fd, Hd⟩
  iapply (wp_rs_send m c 0 1 _ (dev8_eq c) _ _ rfl rfl _ _ rfl rfl (K (rsS c 1 1)) (K (rsR (pl c 1) 3 1)) fd _ _) $$ [Hs11 Hd HO TsS11 TpR11]
  · isplitr; · iexact IsS11
    isplitr; · iexact IpR11
    isplitl [Hs11]; · iexact Hs11
    isplitl [Hd]; · iexact Hd
    isplitl [HO]; · iexact HO
    isplitl [TsS11]; · iexact TsS11
    isplitr; · iexact RsS11
    isplitl [TpR11]; · iexact TpR11
    iexact RpR11
  iintro ⟨Cs11, HO⟩
  sl_exec
  icases Ed3r1 with ⟨%fd, Hd⟩
  iapply (wp_rs_send m c 2 1 _ (dev9_eq c) _ _ rfl rfl _ _ rfl rfl (K (rsS c 3 1)) (K (rsR (pl c 3) 1 1)) fd _ _) $$ [Hs31 Hd HO TsS31 TpR31]
  · isplitr; · iexact IsS31
    isplitr; · iexact IpR31
    isplitl [Hs31]; · iexact Hs31
    isplitl [Hd]; · iexact Hd
    isplitl [HO]; · iexact HO
    isplitl [TsS31]; · iexact TsS31
    isplitr; · iexact RsS31
    isplitl [TpR31]; · iexact TpR31
    iexact RpR31
  iintro ⟨Cs31, HO⟩
  sl_exec
  sl_step
  isplitl [Cs11]; · iexact Cs11
  isplitl [Cs31]; · iexact Cs31
  (iexists _; iexact HO)

set_option maxHeartbeats 1000000 in
theorem part5_run (K : GSem nD τ sig → ℕ) (c : Dev nD)  (W : Waits sig Unit) (v2 : BitVec 32)
    :
    iprop(cellInv ER (Rd m) (K (rsS c 2 2)) (rsS c 2 2)
      ∗ cellInv ER (Rd m) (K (rsR (pl c 2) 2 2)) (rsR (pl c 2) 2 2)
      ∗ reached ER (rsS c 2 2) 0
      ∗ reached ER (rsR (pl c 2) 2 2) 0
      ∗ cellInv ER (Rd m) (K (rsS c 1 2)) (rsS c 1 2)
      ∗ cellInv ER (Rd m) (K (rsR (pl c 1) 3 2)) (rsR (pl c 1) 3 2)
      ∗ reached ER (rsS c 1 2) 0
      ∗ reached ER (rsR (pl c 1) 3 2) 0
      ∗ cellInv ER (Rd m) (K (rsS c 3 2)) (rsS c 3 2)
      ∗ cellInv ER (Rd m) (K (rsR (pl c 3) 1 2)) (rsR (pl c 3) 1 2)
      ∗ reached ER (rsS c 3 2) 0
      ∗ reached ER (rsR (pl c 3) 1 2) 0
      ∗ dutyTok ER (rsS c 2 2) 0 0
      ∗ dutyTok ER (rsR (pl c 2) 2 2) 0 0
      ∗ ((rsSrc c 1 2).view.loc (c : Thread nD τ) ↦[(rsSrc c 1 2).view.set]{fullShare} Pblk m c)
      ∗ (∃ f, (rsDst 2 2).view.loc (pl c 2 : Thread nD τ) ↦[(rsDst 2 2).view.set]{fullShare} f)
      ∗ dutyTok ER (rsS c 1 2) 0 0
      ∗ dutyTok ER (rsR (pl c 1) 3 2) 0 0
      ∗ ((rsSrc c 0 2).view.loc (c : Thread nD τ) ↦[(rsSrc c 0 2).view.set]{fullShare} Pblk m c)
      ∗ (∃ f, (rsDst 3 2).view.loc (pl c 1 : Thread nD τ) ↦[(rsDst 3 2).view.set]{fullShare} f)
      ∗ dutyTok ER (rsS c 3 2) 0 0
      ∗ dutyTok ER (rsR (pl c 3) 1 2) 0 0
      ∗ ((rsSrc c 2 2).view.loc (c : Thread nD τ) ↦[(rsSrc c 2 2).view.set]{fullShare} Pblk m c)
      ∗ (∃ f, (rsDst 1 2).view.loc (pl c 3 : Thread nD τ) ↦[(rsDst 1 2).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr) W)
      ⊢ wp frame (wpE (defs₀ (F := F)) 𝒱₀ c none) Set.univ (k0_part5 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (BitVec 32) => iprop(cred (tallyAt (rsS c 2 2) () Nr)
            ∗ cred (tallyAt (rsS c 1 2) () Nr)
            ∗ cred (tallyAt (rsS c 3 2) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr) W'))) := by
  iintro ⟨#IsS22, #IpR22, #RsS22, #RpR22, #IsS12, #IpR12, #RsS12, #RpR12, #IsS32, #IpR32, #RsS32, #RpR32, TsS22, TpR22, Hs22, Ed2r2, TsS12, TpR12, Hs12, Ed1r2, TsS32, TpR32, Hs32, Ed3r2, HO⟩
  sl_exec
  icases Ed2r2 with ⟨%fd, Hd⟩
  iapply (wp_rs_send m c 1 2 _ (dev10_eq c) _ _ rfl rfl _ _ rfl rfl (K (rsS c 2 2)) (K (rsR (pl c 2) 2 2)) fd _ _) $$ [Hs22 Hd HO TsS22 TpR22]
  · isplitr; · iexact IsS22
    isplitr; · iexact IpR22
    isplitl [Hs22]; · iexact Hs22
    isplitl [Hd]; · iexact Hd
    isplitl [HO]; · iexact HO
    isplitl [TsS22]; · iexact TsS22
    isplitr; · iexact RsS22
    isplitl [TpR22]; · iexact TpR22
    iexact RpR22
  iintro ⟨Cs22, HO⟩
  sl_exec
  icases Ed1r2 with ⟨%fd, Hd⟩
  iapply (wp_rs_send m c 0 2 _ (dev11_eq c) _ _ rfl rfl _ _ rfl rfl (K (rsS c 1 2)) (K (rsR (pl c 1) 3 2)) fd _ _) $$ [Hs12 Hd HO TsS12 TpR12]
  · isplitr; · iexact IsS12
    isplitr; · iexact IpR12
    isplitl [Hs12]; · iexact Hs12
    isplitl [Hd]; · iexact Hd
    isplitl [HO]; · iexact HO
    isplitl [TsS12]; · iexact TsS12
    isplitr; · iexact RsS12
    isplitl [TpR12]; · iexact TpR12
    iexact RpR12
  iintro ⟨Cs12, HO⟩
  sl_exec
  icases Ed3r2 with ⟨%fd, Hd⟩
  iapply (wp_rs_send m c 2 2 _ (dev12_eq c) _ _ rfl rfl _ _ rfl rfl (K (rsS c 3 2)) (K (rsR (pl c 3) 1 2)) fd _ _) $$ [Hs32 Hd HO TsS32 TpR32]
  · isplitr; · iexact IsS32
    isplitr; · iexact IpR32
    isplitl [Hs32]; · iexact Hs32
    isplitl [Hd]; · iexact Hd
    isplitl [HO]; · iexact HO
    isplitl [TsS32]; · iexact TsS32
    isplitr; · iexact RsS32
    isplitl [TpR32]; · iexact TpR32
    iexact RpR32
  iintro ⟨Cs32, HO⟩
  sl_exec
  sl_step
  isplitl [Cs22]; · iexact Cs22
  isplitl [Cs12]; · iexact Cs12
  isplitl [Cs32]; · iexact Cs32
  (iexists _; iexact HO)

set_option maxHeartbeats 1000000 in
theorem part6_run (K : GSem nD τ sig → ℕ) (c : Dev nD)  (W : Waits sig Unit) (v2 : BitVec 32) (v137 : BitVec 32)
    :
    iprop(cellInv ER (Rd m) (K (rsS c 2 3)) (rsS c 2 3)
      ∗ cellInv ER (Rd m) (K (rsR (pl c 2) 2 3)) (rsR (pl c 2) 2 3)
      ∗ reached ER (rsS c 2 3) 0
      ∗ reached ER (rsR (pl c 2) 2 3) 0
      ∗ cellInv ER (Rd m) (K (rsS c 1 3)) (rsS c 1 3)
      ∗ cellInv ER (Rd m) (K (rsR (pl c 1) 3 3)) (rsR (pl c 1) 3 3)
      ∗ reached ER (rsS c 1 3) 0
      ∗ reached ER (rsR (pl c 1) 3 3) 0
      ∗ dutyTok ER (rsS c 2 3) 0 0
      ∗ dutyTok ER (rsR (pl c 2) 2 3) 0 0
      ∗ ((rsSrc c 1 3).view.loc (c : Thread nD τ) ↦[(rsSrc c 1 3).view.set]{fullShare} Pblk m c)
      ∗ (∃ f, (rsDst 2 3).view.loc (pl c 2 : Thread nD τ) ↦[(rsDst 2 3).view.set]{fullShare} f)
      ∗ dutyTok ER (rsS c 1 3) 0 0
      ∗ dutyTok ER (rsR (pl c 1) 3 3) 0 0
      ∗ ((rsSrc c 0 3).view.loc (c : Thread nD τ) ↦[(rsSrc c 0 3).view.set]{fullShare} Pblk m c)
      ∗ (∃ f, (rsDst 3 3).view.loc (pl c 1 : Thread nD τ) ↦[(rsDst 3 3).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr) W)
      ⊢ wp frame (wpE (defs₀ (F := F)) 𝒱₀ c none) Set.univ (k0_part6 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v137)
          (fun r : (PUnit) => iprop(cred (tallyAt (rsS c 2 3) () Nr)
            ∗ cred (tallyAt (rsS c 1 3) () Nr)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr) W'))) := by
  iintro ⟨#IsS23, #IpR23, #RsS23, #RpR23, #IsS13, #IpR13, #RsS13, #RpR13, TsS23, TpR23, Hs23, Ed2r3, TsS13, TpR13, Hs13, Ed1r3, HO⟩
  sl_exec
  icases Ed2r3 with ⟨%fd, Hd⟩
  iapply (wp_rs_send m c 1 3 _ (dev13_eq c) _ _ rfl rfl _ _ rfl rfl (K (rsS c 2 3)) (K (rsR (pl c 2) 2 3)) fd _ _) $$ [Hs23 Hd HO TsS23 TpR23]
  · isplitr; · iexact IsS23
    isplitr; · iexact IpR23
    isplitl [Hs23]; · iexact Hs23
    isplitl [Hd]; · iexact Hd
    isplitl [HO]; · iexact HO
    isplitl [TsS23]; · iexact TsS23
    isplitr; · iexact RsS23
    isplitl [TpR23]; · iexact TpR23
    iexact RpR23
  iintro ⟨Cs23, HO⟩
  sl_exec
  icases Ed1r3 with ⟨%fd, Hd⟩
  iapply (wp_rs_send m c 0 3 _ (dev14_eq c) _ _ rfl rfl _ _ rfl rfl (K (rsS c 1 3)) (K (rsR (pl c 1) 3 3)) fd _ _) $$ [Hs13 Hd HO TsS13 TpR13]
  · isplitr; · iexact IsS13
    isplitr; · iexact IpR13
    isplitl [Hs13]; · iexact Hs13
    isplitl [Hd]; · iexact Hd
    isplitl [HO]; · iexact HO
    isplitl [TsS13]; · iexact TsS13
    isplitr; · iexact RsS13
    isplitl [TpR13]; · iexact TpR13
    iexact RpR13
  iintro ⟨Cs13, HO⟩
  sl_exec
  sl_step
  isplitl [Cs23]; · iexact Cs23
  isplitl [Cs13]; · iexact Cs13
  (iexists _; iexact HO)

end Cert.KernelIdeal.Hand
end
-- ==== Proof.KernelIdealPartsB.lean ====
import proofs.«900554_g7700000000000555_dist_matmul_gelu_kshard_i_m512_n512_k256_v7x_i4_bf16_1_alg».proof.Proof.KernelIdealStepsCommon

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

set_option maxHeartbeats 1000000 in
theorem part7_run (K : GSem nD τ sig → ℕ) (c : Dev nD)  (W : Waits sig Unit) (v2 : BitVec 32)
    :
    iprop(cellInv ER (Rd m) (K (rsS c 3 3)) (rsS c 3 3)
      ∗ cellInv ER (Rd m) (K (rsR (pl c 3) 1 3)) (rsR (pl c 3) 1 3)
      ∗ reached ER (rsS c 3 3) 0
      ∗ reached ER (rsR (pl c 3) 1 3) 0
      ∗ levAts L lv
      ∗ cellInv ER (Rd m) (K (rsR c 1 0)) (rsR c 1 0)
      ∗ dutyTok ER (rsS c 3 3) 0 0
      ∗ dutyTok ER (rsR (pl c 3) 1 3) 0 0
      ∗ ((rsSrc c 2 3).view.loc (c : Thread nD τ) ↦[(rsSrc c 2 3).view.set]{fullShare} Pblk m c)
      ∗ (∃ f, (rsDst 1 3).view.loc (pl c 3 : Thread nD τ) ↦[(rsDst 1 3).view.set]{fullShare} f)
      ∗ pRest c (Pblk m c)
      ∗ atPos ER (rsR c 1 0) 0 ∅ 0
      ∗ cred (tallyAt (rsR c 1 0) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr) W)
      ⊢ wp frame (wpE (defs₀ (F := F)) 𝒱₀ c none) Set.univ (k0_part7 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (FVec F S32x512 .f32) => iprop(cred (tallyAt (rsS c 3 3) () Nr)
            ∗ pRest c (Pblk m c)
            ∗ atPos ER (rsR c 1 0) 1 ∅ 0
            ∗ ((rsDst 1 0).view.loc (c : Thread nD τ) ↦[(rsDst 1 0).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No) W')
            ∗ ⌜r = k0_pay2 (pM.view.readAt (Elt F) (Rect.unit (s := S4x128x512) (k0_off5 c) S1x32x512.size (k0_off5_inb c)).toLoadRect (Pblk m c)) (rM.view.readAt (Elt F) (Rect.unit (s := S4x128x512) ![1, 0, 0] S1x32x512.size inb_S4x128x512_S1x32x512_1_0_0).toLoadRect (RSfun m c))⌝)) := by
  iintro ⟨#IsS33, #IpR33, #RsS33, #RpR33, #Hlev, #IsR10, TsS33, TpR33, Hs33, Ed3r3, Hpr, PsR10, CsR10, HO⟩
  have hmw := mayWait_rs15 (F := F) c 1 0
  sl_exec
  icases Ed3r3 with ⟨%fd, Hd⟩
  iapply (wp_rs_send m c 2 3 _ (dev15_eq c) _ _ rfl rfl _ _ rfl rfl (K (rsS c 3 3)) (K (rsR (pl c 3) 1 3)) fd _ _) $$ [Hs33 Hd HO TsS33 TpR33]
  · isplitr; · iexact IsS33
    isplitr; · iexact IpR33
    isplitl [Hs33]; · iexact Hs33
    isplitl [Hd]; · iexact Hd
    isplitl [HO]; · iexact HO
    isplitl [TsS33]; · iexact TsS33
    isplitr; · iexact RsS33
    isplitl [TpR33]; · iexact TpR33
    iexact RpR33
  iintro ⟨Cs33, HO⟩
  iapply (wp_load_own c 0 (Pblk m c) _ rfl) $$ Hpr
  iintro Hpr
  sl_rw [Prog.bind]
  sl_exec
  sl_step
  isplitl [Cs33]; · iexact Cs33
  isplitl [Hpr]; · iexact Hpr
  isplitl [PsR10]; · iexact PsR10
  isplitl [PsR10_pay1]; · iexact PsR10_pay1
  isplitl [HO]; · (iexists _; iexact HO)
  (ipureintro; rfl)

set_option maxHeartbeats 1000000 in
theorem part8_run (K : GSem nD τ sig → ℕ) (c : Dev nD)  (W : Waits sig Unit) (v2 : BitVec 32) (v187 : FVec F S32x512 .f32)
    :
    iprop(levAts L lv
      ∗ cellInv ER (Rd m) (K (rsR c 3 0)) (rsR c 3 0)
      ∗ cellInv ER (Rd m) (K (rsR c 2 0)) (rsR c 2 0)
      ∗ atPos ER (rsR c 3 0) 0 ∅ 0
      ∗ cred (tallyAt (rsR c 3 0) () Nr)
      ∗ atPos ER (rsR c 2 0) 0 ∅ 0
      ∗ cred (tallyAt (rsR c 2 0) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No) W)
      ⊢ wp frame (wpE (defs₀ (F := F)) 𝒱₀ c none) Set.univ (k0_part8 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 v2 v187)
          (fun r : (FVec F S32x512 .f32) => iprop(atPos ER (rsR c 3 0) 1 ∅ 0
            ∗ ((rsDst 3 0).view.loc (c : Thread nD τ) ↦[(rsDst 3 0).view.set]{fullShare} RSfun m c)
            ∗ atPos ER (rsR c 2 0) 1 ∅ 0
            ∗ ((rsDst 2 0).view.loc (c : Thread nD τ) ↦[(rsDst 2 0).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No) W')
            ∗ ⌜r = k0_pay3 v187 (rM.view.readAt (Elt F) (Rect.unit (s := S4x128x512) ![3, 0, 0] S1x32x512.size inb_S4x128x512_S1x32x512_3_0_0).toLoadRect (RSfun m c)) (rM.view.readAt (Elt F) (Rect.unit (s := S4x128x512) ![2, 0, 0] S1x32x512.size inb_S4x128x512_S1x32x512_2_0_0).toLoadRect (RSfun m c))⌝)) := by
  iintro ⟨#Hlev, #IsR30, #IsR20, PsR30, CsR30, PsR20, CsR20, HO⟩
  have hmw3 := mayWait_rs15 (F := F) c 3 0
  have hmw2 := mayWait_rs15 (F := F) c 2 0
  sl_exec
  sl_step
  isplitl [PsR30]; · iexact PsR30
  isplitl [PsR30_pay1]; · iexact PsR30_pay1
  isplitl [PsR20]; · iexact PsR20
  isplitl [PsR20_pay1]; · iexact PsR20_pay1
  isplitl [HO]; · (iexists _; iexact HO)
  (ipureintro; rfl)

set_option maxHeartbeats 1000000 in
theorem part9_run (K : GSem nD τ sig → ℕ) (c : Dev nD) (o0 : Vec F S512x512 .bf16) (W : Waits sig Unit) (v2 : BitVec 32) (v224 : FVec F S32x512 .f32)
    (hv224 : v224 = k0_pay3 (k0_pay2 (pM.view.readAt (Elt F) (Rect.unit (s := S4x128x512) (k0_off5 c) S1x32x512.size (k0_off5_inb c)).toLoadRect (Pblk m c)) (rM.view.readAt (Elt F) (Rect.unit (s := S4x128x512) ![1, 0, 0] S1x32x512.size inb_S4x128x512_S1x32x512_1_0_0).toLoadRect (RSfun m c))) (rM.view.readAt (Elt F) (Rect.unit (s := S4x128x512) ![3, 0, 0] S1x32x512.size inb_S4x128x512_S1x32x512_3_0_0).toLoadRect (RSfun m c)) (rM.view.readAt (Elt F) (Rect.unit (s := S4x128x512) ![2, 0, 0] S1x32x512.size inb_S4x128x512_S1x32x512_2_0_0).toLoadRect (RSfun m c)))
    :
    iprop(cellInv ER (Rd m) (K (agS c 2 0)) (agS c 2 0)
      ∗ cellInv ER (Rd m) (K (agR (pl c 2) 2 0)) (agR (pl c 2) 2 0)
      ∗ reached ER (agS c 2 0) 0
      ∗ reached ER (agR (pl c 2) 2 0) 0
      ∗ cellInv ER (Rd m) (K (agS c 1 0)) (agS c 1 0)
      ∗ cellInv ER (Rd m) (K (agR (pl c 1) 3 0)) (agR (pl c 1) 3 0)
      ∗ reached ER (agS c 1 0) 0
      ∗ reached ER (agR (pl c 1) 3 0) 0
      ∗ ((outSl c 0).view.loc (c : Thread nD τ) ↦[(outSl c 0).view.set]{fullShare} o0)
      ∗ dutyTok ER (agS c 2 0) 0 0
      ∗ dutyTok ER (agR (pl c 2) 2 0) 0 0
      ∗ (∃ f, (outSl c 0).view.loc (pl c 2 : Thread nD τ) ↦[(outSl c 0).view.set]{fullShare} f)
      ∗ dutyTok ER (agS c 1 0) 0 0
      ∗ dutyTok ER (agR (pl c 1) 3 0) 0 0
      ∗ (∃ f, (outSl c 0).view.loc (pl c 1 : Thread nD τ) ↦[(outSl c 0).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No) W)
      ⊢ wp frame (wpE (defs₀ (F := F)) 𝒱₀ c none) Set.univ (k0_part9 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v224)
          (fun r : (BitVec 32) => iprop(((outSl c 0).view.loc (c : Thread nD τ) ↦[(outSl c 0).view.set]{fullShare.right.right} OUT m)
            ∗ cred (tallyAt (agS c 2 0) () No)
            ∗ cred (tallyAt (agS c 1 0) () No)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No) W'))) := by
  iintro ⟨#IaS20, #IpA20, #RaS20, #RpA20, #IaS10, #IpA10, #RaS10, #RpA10, Ho00, TaS20, TpA20, Ed2o0, TaS10, TpA10, Ed1o0, HO⟩
  subst hv224
  sl_exec
  iapply (wp_store_out c 0 o0 _ rfl) $$ Ho00
  iintro Ho00
  ihave Ho00 := (Entails.of_eq (chunk_stored_pts_0 m c o0)) $$ Ho00
  ihave Ho00 := (pointsTo_share (PosShare.mem_left_op_right fullShare)).1 $$ Ho00
  icases Ho00 with ⟨Ho00_2, Ho00_r⟩
  ihave Ho00_r := (pointsTo_share (PosShare.mem_left_op_right fullShare.right)).1 $$ Ho00_r
  icases Ho00_r with ⟨Ho00_1, Ho00_3⟩
  sl_exec
  icases Ed2o0 with ⟨%fd, Hd⟩
  iapply (wp_ag_send m c 1 0 _ (dev16_eq c) _ _ rfl rfl _ _ rfl rfl (K (agS c 2 0)) (K (agR (pl c 2) 2 0)) fd _ _) $$ [Ho00_2 Hd HO TaS20 TpA20]
  · isplitr; · iexact IaS20
    isplitr; · iexact IpA20
    isplitl [Ho00_2]; · iexact Ho00_2
    isplitl [Hd]; · iexact Hd
    isplitl [HO]; · iexact HO
    isplitl [TaS20]; · iexact TaS20
    isplitr; · iexact RaS20
    isplitl [TpA20]; · iexact TpA20
    iexact RpA20
  iintro ⟨Ca20, HO⟩
  sl_exec
  icases Ed1o0 with ⟨%fd, Hd⟩
  iapply (wp_ag_send m c 0 0 _ (dev17_eq c) _ _ rfl rfl _ _ rfl rfl (K (agS c 1 0)) (K (agR (pl c 1) 3 0)) fd _ _) $$ [Ho00_1 Hd HO TaS10 TpA10]
  · isplitr; · iexact IaS10
    isplitr; · iexact IpA10
    isplitl [Ho00_1]; · iexact Ho00_1
    isplitl [Hd]; · iexact Hd
    isplitl [HO]; · iexact HO
    isplitl [TaS10]; · iexact TaS10
    isplitr; · iexact RaS10
    isplitl [TpA10]; · iexact TpA10
    iexact RpA10
  iintro ⟨Ca10, HO⟩
  sl_exec
  sl_step
  isplitl [Ho00_3]; · iexact Ho00_3
  isplitl [Ca20]; · iexact Ca20
  isplitl [Ca10]; · iexact Ca10
  (iexists _; iexact HO)

set_option maxHeartbeats 1000000 in
theorem part10_run (K : GSem nD τ sig → ℕ) (c : Dev nD)  (W : Waits sig Unit) (v2 : BitVec 32) (v251 : BitVec 32)
    :
    iprop(cellInv ER (Rd m) (K (agS c 3 0)) (agS c 3 0)
      ∗ cellInv ER (Rd m) (K (agR (pl c 3) 1 0)) (agR (pl c 3) 1 0)
      ∗ reached ER (agS c 3 0) 0
      ∗ reached ER (agR (pl c 3) 1 0) 0
      ∗ levAts L lv
      ∗ cellInv ER (Rd m) (K (rsR c 1 1)) (rsR c 1 1)
      ∗ dutyTok ER (agS c 3 0) 0 0
      ∗ dutyTok ER (agR (pl c 3) 1 0) 0 0
      ∗ ((outSl c 0).view.loc (c : Thread nD τ) ↦[(outSl c 0).view.set]{fullShare.right.right} OUT m)
      ∗ (∃ f, (outSl c 0).view.loc (pl c 3 : Thread nD τ) ↦[(outSl c 0).view.set]{fullShare} f)
      ∗ pRest c (Pblk m c)
      ∗ atPos ER (rsR c 1 1) 0 ∅ 0
      ∗ cred (tallyAt (rsR c 1 1) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No) W)
      ⊢ wp frame (wpE (defs₀ (F := F)) 𝒱₀ c none) Set.univ (k0_part10 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v251)
          (fun r : (FVec F S32x512 .f32) => iprop(cred (tallyAt (agS c 3 0) () No)
            ∗ pRest c (Pblk m c)
            ∗ atPos ER (rsR c 1 1) 1 ∅ 0
            ∗ ((rsDst 1 1).view.loc (c : Thread nD τ) ↦[(rsDst 1 1).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No) W')
            ∗ ⌜r = k0_pay5 (pM.view.readAt (Elt F) (Rect.unit (s := S4x128x512) (k0_off7 c) S1x32x512.size (k0_off7_inb c)).toLoadRect (Pblk m c)) (rM.view.readAt (Elt F) (Rect.unit (s := S4x128x512) ![1, 32, 0] S1x32x512.size inb_S4x128x512_S1x32x512_1_32_0).toLoadRect (RSfun m c))⌝)) := by
  iintro ⟨#IaS30, #IpA30, #RaS30, #RpA30, #Hlev, #IsR11, TaS30, TpA30, Ho00_3, Ed3o0, Hpr, PsR11, CsR11, HO⟩
  have hmw := mayWait_rs18 (F := F) c 1 1
  sl_exec
  icases Ed3o0 with ⟨%fd, Hd⟩
  iapply (wp_ag_send m c 2 0 _ (dev18_eq c) _ _ rfl rfl _ _ rfl rfl (K (agS c 3 0)) (K (agR (pl c 3) 1 0)) fd _ _) $$ [Ho00_3 Hd HO TaS30 TpA30]
  · isplitr; · iexact IaS30
    isplitr; · iexact IpA30
    isplitl [Ho00_3]; · iexact Ho00_3
    isplitl [Hd]; · iexact Hd
    isplitl [HO]; · iexact HO
    isplitl [TaS30]; · iexact TaS30
    isplitr; · iexact RaS30
    isplitl [TpA30]; · iexact TpA30
    iexact RpA30
  iintro ⟨Ca30, HO⟩
  iapply (wp_load_own c 1 (Pblk m c) _ rfl) $$ Hpr
  iintro Hpr
  sl_rw [Prog.bind]
  sl_exec
  sl_step
  isplitl [Ca30]; · iexact Ca30
  isplitl [Hpr]; · iexact Hpr
  isplitl [PsR11]; · iexact PsR11
  isplitl [PsR11_pay1]; · iexact PsR11_pay1
  isplitl [HO]; · (iexists _; iexact HO)
  (ipureintro; rfl)

set_option maxHeartbeats 1000000 in
theorem part11_run (K : GSem nD τ sig → ℕ) (c : Dev nD)  (W : Waits sig Unit) (v2 : BitVec 32) (v275 : FVec F S32x512 .f32)
    :
    iprop(levAts L lv
      ∗ cellInv ER (Rd m) (K (rsR c 3 1)) (rsR c 3 1)
      ∗ cellInv ER (Rd m) (K (rsR c 2 1)) (rsR c 2 1)
      ∗ atPos ER (rsR c 3 1) 0 ∅ 0
      ∗ cred (tallyAt (rsR c 3 1) () Nr)
      ∗ atPos ER (rsR c 2 1) 0 ∅ 0
      ∗ cred (tallyAt (rsR c 2 1) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No) W)
      ⊢ wp frame (wpE (defs₀ (F := F)) 𝒱₀ c none) Set.univ (k0_part11 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 v2 v275)
          (fun r : (Σ' (v301 : FVec F S32x512 .f32) (v309 : FVec F S32x512 .f32), FVec F S32x512 .f32) => iprop(atPos ER (rsR c 3 1) 1 ∅ 0
            ∗ ((rsDst 3 1).view.loc (c : Thread nD τ) ↦[(rsDst 3 1).view.set]{fullShare} RSfun m c)
            ∗ atPos ER (rsR c 2 1) 1 ∅ 0
            ∗ ((rsDst 2 1).view.loc (c : Thread nD τ) ↦[(rsDst 2 1).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No) W')
            ∗ ⌜r.1 = k0_pay7 v275 (rM.view.readAt (Elt F) (Rect.unit (s := S4x128x512) ![3, 32, 0] S1x32x512.size inb_S4x128x512_S1x32x512_3_32_0).toLoadRect (RSfun m c)) (rM.view.readAt (Elt F) (Rect.unit (s := S4x128x512) ![2, 32, 0] S1x32x512.size inb_S4x128x512_S1x32x512_2_32_0).toLoadRect (RSfun m c))⌝
            ∗ ⌜r.2.1 = k0_pay8 v275 (rM.view.readAt (Elt F) (Rect.unit (s := S4x128x512) ![3, 32, 0] S1x32x512.size inb_S4x128x512_S1x32x512_3_32_0).toLoadRect (RSfun m c)) (rM.view.readAt (Elt F) (Rect.unit (s := S4x128x512) ![2, 32, 0] S1x32x512.size inb_S4x128x512_S1x32x512_2_32_0).toLoadRect (RSfun m c))⌝
            ∗ ⌜r.2.2 = k0_pay9 (F := F)⌝)) := by
  iintro ⟨#Hlev, #IsR31, #IsR21, PsR31, CsR31, PsR21, CsR21, HO⟩
  have hmw3 := mayWait_rs18 (F := F) c 3 1
  have hmw2 := mayWait_rs18 (F := F) c 2 1
  sl_exec
  sl_step
  isplitl [PsR31]; · iexact PsR31
  isplitl [PsR31_pay1]; · iexact PsR31_pay1
  isplitl [PsR21]; · iexact PsR21
  isplitl [PsR21_pay1]; · iexact PsR21_pay1
  isplitl [HO]; · (iexists _; iexact HO)
  isplitr; · (ipureintro; rfl)
  isplitr; · (ipureintro; rfl)
  (ipureintro; rfl)

set_option maxHeartbeats 1000000 in
theorem part12_run (K : GSem nD τ sig → ℕ) (c : Dev nD) (o0 : Vec F S512x512 .bf16) (W : Waits sig Unit) (v2 : BitVec 32) (v301 : FVec F S32x512 .f32) (v309 : FVec F S32x512 .f32) (v310 : FVec F S32x512 .f32)
    (hv301 : v301 = k0_pay7 (k0_pay5 (pM.view.readAt (Elt F) (Rect.unit (s := S4x128x512) (k0_off7 c) S1x32x512.size (k0_off7_inb c)).toLoadRect (Pblk m c)) (rM.view.readAt (Elt F) (Rect.unit (s := S4x128x512) ![1, 32, 0] S1x32x512.size inb_S4x128x512_S1x32x512_1_32_0).toLoadRect (RSfun m c))) (rM.view.readAt (Elt F) (Rect.unit (s := S4x128x512) ![3, 32, 0] S1x32x512.size inb_S4x128x512_S1x32x512_3_32_0).toLoadRect (RSfun m c)) (rM.view.readAt (Elt F) (Rect.unit (s := S4x128x512) ![2, 32, 0] S1x32x512.size inb_S4x128x512_S1x32x512_2_32_0).toLoadRect (RSfun m c)))
    (hv309 : v309 = k0_pay8 (k0_pay5 (pM.view.readAt (Elt F) (Rect.unit (s := S4x128x512) (k0_off7 c) S1x32x512.size (k0_off7_inb c)).toLoadRect (Pblk m c)) (rM.view.readAt (Elt F) (Rect.unit (s := S4x128x512) ![1, 32, 0] S1x32x512.size inb_S4x128x512_S1x32x512_1_32_0).toLoadRect (RSfun m c))) (rM.view.readAt (Elt F) (Rect.unit (s := S4x128x512) ![3, 32, 0] S1x32x512.size inb_S4x128x512_S1x32x512_3_32_0).toLoadRect (RSfun m c)) (rM.view.readAt (Elt F) (Rect.unit (s := S4x128x512) ![2, 32, 0] S1x32x512.size inb_S4x128x512_S1x32x512_2_32_0).toLoadRect (RSfun m c)))
    (hv310 : v310 = k0_pay9 (F := F))
    :
    iprop(cellInv ER (Rd m) (K (agS c 2 1)) (agS c 2 1)
      ∗ cellInv ER (Rd m) (K (agR (pl c 2) 2 1)) (agR (pl c 2) 2 1)
      ∗ reached ER (agS c 2 1) 0
      ∗ reached ER (agR (pl c 2) 2 1) 0
      ∗ cellInv ER (Rd m) (K (agS c 1 1)) (agS c 1 1)
      ∗ cellInv ER (Rd m) (K (agR (pl c 1) 3 1)) (agR (pl c 1) 3 1)
      ∗ reached ER (agS c 1 1) 0
      ∗ reached ER (agR (pl c 1) 3 1) 0
      ∗ ((outSl c 1).view.loc (c : Thread nD τ) ↦[(outSl c 1).view.set]{fullShare} o0)
      ∗ dutyTok ER (agS c 2 1) 0 0
      ∗ dutyTok ER (agR (pl c 2) 2 1) 0 0
      ∗ (∃ f, (outSl c 1).view.loc (pl c 2 : Thread nD τ) ↦[(outSl c 1).view.set]{fullShare} f)
      ∗ dutyTok ER (agS c 1 1) 0 0
      ∗ dutyTok ER (agR (pl c 1) 3 1) 0 0
      ∗ (∃ f, (outSl c 1).view.loc (pl c 1 : Thread nD τ) ↦[(outSl c 1).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No) W)
      ⊢ wp frame (wpE (defs₀ (F := F)) 𝒱₀ c none) Set.univ (k0_part12 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v301 v309 v310)
          (fun r : (BitVec 32) => iprop(((outSl c 1).view.loc (c : Thread nD τ) ↦[(outSl c 1).view.set]{fullShare.right.right} OUT m)
            ∗ cred (tallyAt (agS c 2 1) () No)
            ∗ cred (tallyAt (agS c 1 1) () No)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No) W'))) := by
  iintro ⟨#IaS21, #IpA21, #RaS21, #RpA21, #IaS11, #IpA11, #RaS11, #RpA11, Ho01, TaS21, TpA21, Ed2o1, TaS11, TpA11, Ed1o1, HO⟩
  subst hv301
  subst hv309
  subst hv310
  sl_exec
  iapply (wp_store_out c 1 o0 _ rfl) $$ Ho01
  iintro Ho01
  ihave Ho01 := (Entails.of_eq (chunk_stored_pts_1 m c o0)) $$ Ho01
  ihave Ho01 := (pointsTo_share (PosShare.mem_left_op_right fullShare)).1 $$ Ho01
  icases Ho01 with ⟨Ho01_2, Ho01_r⟩
  ihave Ho01_r := (pointsTo_share (PosShare.mem_left_op_right fullShare.right)).1 $$ Ho01_r
  icases Ho01_r with ⟨Ho01_1, Ho01_3⟩
  sl_exec
  icases Ed2o1 with ⟨%fd, Hd⟩
  iapply (wp_ag_send m c 1 1 _ (dev19_eq c) _ _ rfl rfl _ _ rfl rfl (K (agS c 2 1)) (K (agR (pl c 2) 2 1)) fd _ _) $$ [Ho01_2 Hd HO TaS21 TpA21]
  · isplitr; · iexact IaS21
    isplitr; · iexact IpA21
    isplitl [Ho01_2]; · iexact Ho01_2
    isplitl [Hd]; · iexact Hd
    isplitl [HO]; · iexact HO
    isplitl [TaS21]; · iexact TaS21
    isplitr; · iexact RaS21
    isplitl [TpA21]; · iexact TpA21
    iexact RpA21
  iintro ⟨Ca21, HO⟩
  sl_exec
  icases Ed1o1 with ⟨%fd, Hd⟩
  iapply (wp_ag_send m c 0 1 _ (dev20_eq c) _ _ rfl rfl _ _ rfl rfl (K (agS c 1 1)) (K (agR (pl c 1) 3 1)) fd _ _) $$ [Ho01_1 Hd HO TaS11 TpA11]
  · isplitr; · iexact IaS11
    isplitr; · iexact IpA11
    isplitl [Ho01_1]; · iexact Ho01_1
    isplitl [Hd]; · iexact Hd
    isplitl [HO]; · iexact HO
    isplitl [TaS11]; · iexact TaS11
    isplitr; · iexact RaS11
    isplitl [TpA11]; · iexact TpA11
    iexact RpA11
  iintro ⟨Ca11, HO⟩
  sl_exec
  sl_step
  isplitl [Ho01_3]; · iexact Ho01_3
  isplitl [Ca21]; · iexact Ca21
  isplitl [Ca11]; · iexact Ca11
  (iexists _; iexact HO)

end Cert.KernelIdeal.Hand
end
-- ==== Proof.KernelIdealPartsC.lean ====
import proofs.«900554_g7700000000000555_dist_matmul_gelu_kshard_i_m512_n512_k256_v7x_i4_bf16_1_alg».proof.Proof.KernelIdealStepsCommon

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

/-- Running a returned value through the rest of the program. -/
private theorem ret_bind_prog {E : Type → Type} {α β : Type} (a : α) (k : α → Prog E β) : (Prog.ret a).bind k = k a := rfl

set_option maxHeartbeats 1000000 in
theorem part13_run (K : GSem nD τ sig → ℕ) (c : Dev nD)  (W : Waits sig Unit) (v2 : BitVec 32) (v339 : BitVec 32)
    :
    iprop(cellInv ER (Rd m) (K (agS c 3 1)) (agS c 3 1)
      ∗ cellInv ER (Rd m) (K (agR (pl c 3) 1 1)) (agR (pl c 3) 1 1)
      ∗ reached ER (agS c 3 1) 0
      ∗ reached ER (agR (pl c 3) 1 1) 0
      ∗ levAts L lv
      ∗ cellInv ER (Rd m) (K (rsR c 1 2)) (rsR c 1 2)
      ∗ dutyTok ER (agS c 3 1) 0 0
      ∗ dutyTok ER (agR (pl c 3) 1 1) 0 0
      ∗ ((outSl c 1).view.loc (c : Thread nD τ) ↦[(outSl c 1).view.set]{fullShare.right.right} OUT m)
      ∗ (∃ f, (outSl c 1).view.loc (pl c 3 : Thread nD τ) ↦[(outSl c 1).view.set]{fullShare} f)
      ∗ pRest c (Pblk m c)
      ∗ atPos ER (rsR c 1 2) 0 ∅ 0
      ∗ cred (tallyAt (rsR c 1 2) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No) W)
      ⊢ wp frame (wpE (defs₀ (F := F)) 𝒱₀ c none) Set.univ (k0_part13 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v339)
          (fun r : (Σ' (v363 : FVec F S32x512 .f32) (v364 : BitVec 32), BitVec 32) => iprop(cred (tallyAt (agS c 3 1) () No)
            ∗ pRest c (Pblk m c)
            ∗ atPos ER (rsR c 1 2) 1 ∅ 0
            ∗ ((rsDst 1 2).view.loc (c : Thread nD τ) ↦[(rsDst 1 2).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No) W')
            ∗ ⌜r.1 = k0_pay11 (pM.view.readAt (Elt F) (Rect.unit (s := S4x128x512) (k0_off8 c) S1x32x512.size (k0_off8_inb c)).toLoadRect (Pblk m c)) (rM.view.readAt (Elt F) (Rect.unit (s := S4x128x512) ![1, 64, 0] S1x32x512.size inb_S4x128x512_S1x32x512_1_64_0).toLoadRect (RSfun m c))⌝)) := by
  iintro ⟨#IaS31, #IpA31, #RaS31, #RpA31, #Hlev, #IsR12, TaS31, TpA31, Ho01_3, Ed3o1, Hpr, PsR12, CsR12, HO⟩
  have hmw := mayWait_rs21 (F := F) c 1 2
  sl_exec
  icases Ed3o1 with ⟨%fd, Hd⟩
  iapply (wp_ag_send m c 2 1 _ (dev21_eq c) _ _ rfl rfl _ _ rfl rfl (K (agS c 3 1)) (K (agR (pl c 3) 1 1)) fd _ _) $$ [Ho01_3 Hd HO TaS31 TpA31]
  · isplitr; · iexact IaS31
    isplitr; · iexact IpA31
    isplitl [Ho01_3]; · iexact Ho01_3
    isplitl [Hd]; · iexact Hd
    isplitl [HO]; · iexact HO
    isplitl [TaS31]; · iexact TaS31
    isplitr; · iexact RaS31
    isplitl [TpA31]; · iexact TpA31
    iexact RpA31
  iintro ⟨Ca31, HO⟩
  iapply (wp_load_own c 2 (Pblk m c) _ rfl) $$ Hpr
  iintro Hpr
  rw [ret_bind_prog]
  sl_exec
  sl_step
  isplitl [Ca31]; · iexact Ca31
  isplitl [Hpr]; · iexact Hpr
  isplitl [PsR12]; · iexact PsR12
  isplitl [PsR12_pay1]; · iexact PsR12_pay1
  isplitl [HO]; · (iexists _; iexact HO)
  (ipureintro; rfl)

set_option maxHeartbeats 1000000 in
theorem part14_run (K : GSem nD τ sig → ℕ) (c : Dev nD)  (W : Waits sig Unit) (v2 : BitVec 32) (v363 : FVec F S32x512 .f32) (v364 : BitVec 32) (c0_i32_362 : BitVec 32)
    :
    iprop(levAts L lv
      ∗ cellInv ER (Rd m) (K (rsR c 3 2)) (rsR c 3 2)
      ∗ cellInv ER (Rd m) (K (rsR c 2 2)) (rsR c 2 2)
      ∗ atPos ER (rsR c 3 2) 0 ∅ 0
      ∗ cred (tallyAt (rsR c 3 2) () Nr)
      ∗ atPos ER (rsR c 2 2) 0 ∅ 0
      ∗ cred (tallyAt (rsR c 2 2) () Nr)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No) W)
      ⊢ wp frame (wpE (defs₀ (F := F)) 𝒱₀ c none) Set.univ (k0_part14 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 v2 v363 v364 c0_i32_362)
          (fun r : (Σ' (v389 : FVec F S32x512 .f32), FVec F S32x512 .f32) => iprop(atPos ER (rsR c 3 2) 1 ∅ 0
            ∗ ((rsDst 3 2).view.loc (c : Thread nD τ) ↦[(rsDst 3 2).view.set]{fullShare} RSfun m c)
            ∗ atPos ER (rsR c 2 2) 1 ∅ 0
            ∗ ((rsDst 2 2).view.loc (c : Thread nD τ) ↦[(rsDst 2 2).view.set]{fullShare} RSfun m c)
            ∗ (∃ W', owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No) W')
            ∗ ⌜r.1 = k0_pay13 v363 (rM.view.readAt (Elt F) (Rect.unit (s := S4x128x512) ![3, 64, 0] S1x32x512.size inb_S4x128x512_S1x32x512_3_64_0).toLoadRect (RSfun m c)) (rM.view.readAt (Elt F) (Rect.unit (s := S4x128x512) ![2, 64, 0] S1x32x512.size inb_S4x128x512_S1x32x512_2_64_0).toLoadRect (RSfun m c))⌝
            ∗ ⌜r.2 = k0_pay14 v363 (rM.view.readAt (Elt F) (Rect.unit (s := S4x128x512) ![3, 64, 0] S1x32x512.size inb_S4x128x512_S1x32x512_3_64_0).toLoadRect (RSfun m c)) (rM.view.readAt (Elt F) (Rect.unit (s := S4x128x512) ![2, 64, 0] S1x32x512.size inb_S4x128x512_S1x32x512_2_64_0).toLoadRect (RSfun m c))⌝)) := by
  iintro ⟨#Hlev, #IsR32, #IsR22, PsR32, CsR32, PsR22, CsR22, HO⟩
  have hmw3 := mayWait_rs21 (F := F) c 3 2
  have hmw2 := mayWait_rs21 (F := F) c 2 2
  sl_exec
  sl_step
  isplitl [PsR32]; · iexact PsR32
  isplitl [PsR32_pay1]; · iexact PsR32_pay1
  isplitl [PsR22]; · iexact PsR22
  isplitl [PsR22_pay1]; · iexact PsR22_pay1
  isplitl [HO]; · (iexists _; iexact HO)
  isplitr; · (ipureintro; rfl)
  (ipureintro; rfl)

set_option maxHeartbeats 1000000 in
theorem part15_run (K : GSem nD τ sig → ℕ) (c : Dev nD) (o0 : Vec F S512x512 .bf16) (W : Waits sig Unit) (v2 : BitVec 32) (v389 : FVec F S32x512 .f32) (v397 : FVec F S32x512 .f32)
    (hv389 : v389 = k0_pay13 (k0_pay11 (pM.view.readAt (Elt F) (Rect.unit (s := S4x128x512) (k0_off8 c) S1x32x512.size (k0_off8_inb c)).toLoadRect (Pblk m c)) (rM.view.readAt (Elt F) (Rect.unit (s := S4x128x512) ![1, 64, 0] S1x32x512.size inb_S4x128x512_S1x32x512_1_64_0).toLoadRect (RSfun m c))) (rM.view.readAt (Elt F) (Rect.unit (s := S4x128x512) ![3, 64, 0] S1x32x512.size inb_S4x128x512_S1x32x512_3_64_0).toLoadRect (RSfun m c)) (rM.view.readAt (Elt F) (Rect.unit (s := S4x128x512) ![2, 64, 0] S1x32x512.size inb_S4x128x512_S1x32x512_2_64_0).toLoadRect (RSfun m c)))
    (hv397 : v397 = k0_pay14 (k0_pay11 (pM.view.readAt (Elt F) (Rect.unit (s := S4x128x512) (k0_off8 c) S1x32x512.size (k0_off8_inb c)).toLoadRect (Pblk m c)) (rM.view.readAt (Elt F) (Rect.unit (s := S4x128x512) ![1, 64, 0] S1x32x512.size inb_S4x128x512_S1x32x512_1_64_0).toLoadRect (RSfun m c))) (rM.view.readAt (Elt F) (Rect.unit (s := S4x128x512) ![3, 64, 0] S1x32x512.size inb_S4x128x512_S1x32x512_3_64_0).toLoadRect (RSfun m c)) (rM.view.readAt (Elt F) (Rect.unit (s := S4x128x512) ![2, 64, 0] S1x32x512.size inb_S4x128x512_S1x32x512_2_64_0).toLoadRect (RSfun m c)))
    :
    iprop(cellInv ER (Rd m) (K (agS c 2 2)) (agS c 2 2)
      ∗ cellInv ER (Rd m) (K (agR (pl c 2) 2 2)) (agR (pl c 2) 2 2)
      ∗ reached ER (agS c 2 2) 0
      ∗ reached ER (agR (pl c 2) 2 2) 0
      ∗ cellInv ER (Rd m) (K (agS c 1 2)) (agS c 1 2)
      ∗ cellInv ER (Rd m) (K (agR (pl c 1) 3 2)) (agR (pl c 1) 3 2)
      ∗ reached ER (agS c 1 2) 0
      ∗ reached ER (agR (pl c 1) 3 2) 0
      ∗ ((outSl c 2).view.loc (c : Thread nD τ) ↦[(outSl c 2).view.set]{fullShare} o0)
      ∗ dutyTok ER (agS c 2 2) 0 0
      ∗ dutyTok ER (agR (pl c 2) 2 2) 0 0
      ∗ (∃ f, (outSl c 2).view.loc (pl c 2 : Thread nD τ) ↦[(outSl c 2).view.set]{fullShare} f)
      ∗ dutyTok ER (agS c 1 2) 0 0
      ∗ dutyTok ER (agR (pl c 1) 3 2) 0 0
      ∗ (∃ f, (outSl c 2).view.loc (pl c 1 : Thread nD τ) ↦[(outSl c 2).view.set]{fullShare} f)
      ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No) W)
      ⊢ wp frame (wpE (defs₀ (F := F)) 𝒱₀ c none) Set.univ (k0_part15 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v389 v397)
          (fun r : (BitVec 32) => iprop(((outSl c 2).view.loc (c : Thread nD τ) ↦[(outSl c 2).view.set]{fullShare.right.right} OUT m)
            ∗ cred (tallyAt (agS c 2 2) () No)
            ∗ cred (tallyAt (agS c 1 2) () No)
            ∗ (∃ W', owes (c : Thread nD τ) (0 + tallyAt (agR (pl c 3) 1 3) () No + tallyAt (agR (pl c 1) 3 3) () No + tallyAt (agR (pl c 2) 2 3) () No + tallyAt (agR (pl c 3) 1 2) () No) W'))) := by
  iintro ⟨#IaS22, #IpA22, #RaS22, #RpA22, #IaS12, #IpA12, #RaS12, #RpA12, Ho02, TaS22, TpA22, Ed2o2, TaS12, TpA12, Ed1o2, HO⟩
  subst hv389
  subst hv397
  sl_exec
  iapply (wp_store_out c 2 o0 _ rfl) $$ Ho02
  iintro Ho02
  ihave Ho02 := (Entails.of_eq (chunk_stored_pts_2 m c o0)) $$ Ho02
  ihave Ho02 := (pointsTo_share (PosShare.mem_left_op_right fullShare)).1 $$ Ho02
  icases Ho02 with ⟨Ho02_2, Ho02_r⟩
  ihave Ho02_r := (pointsTo_share (PosShare.mem_left_op_right fullShare.right)).1 $$ Ho02_r
  icases Ho02_r with ⟨Ho02_1, Ho02_3⟩
  sl_exec
  icases Ed2o2 with ⟨%fd, Hd⟩
  iapply (wp_ag_send m c 1 2 _ (dev22_eq c) _ _ rfl rfl _ _ rfl rfl (K (agS c 2 2)) (K (agR (pl c 2) 2 2)) fd _ _) $$ [Ho02_2 Hd HO TaS22 TpA22]
  · isplitr; · iexact IaS22
    isplitr; · iexact IpA22
    isplitl [Ho02_2]; · iexact Ho02_2
    isplitl [Hd]; · iexact Hd
    isplitl [HO]; · iexact HO
    isplitl [TaS22]; · iexact TaS22
    isplitr; · iexact RaS22
    isplitl [TpA22]; · iexact TpA22
    iexact RpA22
  iintro ⟨Ca22, HO⟩
  sl_exec
  icases Ed1o2 with ⟨%fd, Hd⟩
  iapply (wp_ag_send m c 0 2 _ (dev23_eq c) _ _ rfl rfl _ _ rfl rfl (K (agS c 1 2)) (K (agR (pl c 1) 3 2)) fd _ _) $$ [Ho02_1 Hd HO TaS12 TpA12]
  · isplitr; · iexact IaS12
    isplitr; · iexact IpA12
    isplitl [Ho02_1]; · iexact Ho02_1
    isplitl [Hd]; · iexact Hd
    isplitl [HO]; · iexact HO
    isplitl [TaS12]; · iexact TaS12
    isplitr; · iexact RaS12
    isplitl [TpA12]; · iexact TpA12
    iexact RpA12
  iintro ⟨Ca12, HO⟩
  sl_exec
  sl_step
  isplitl [Ho02_3]; · iexact Ho02_3
  isplitl [Ca22]; · iexact Ca22
  isplitl [Ca12]; · iexact Ca12
  (iexists _; iexact HO)

set_option maxHeartbeats 1000000 in
theorem part16_run (K : GSem nD τ sig → ℕ) (c : Dev nD)  (W : Waits sig Unit) (v2 : BitVec 32) (v426 : BitVec 32)
    :
    iprop(cellInv ER (Rd m) (K (agS c 3 2)) (agS c 3 2)
      ∗ cellInv ER (Rd m) (K (agR (pl c 3) 1 2)) (agR (pl c 3) 1 2)
      ∗ reached ER (agS c 3 2) 0
      ∗ reached ER (agR (pl c 3) 1 2) 0
      ∗ levAts L lv
      ∗ cellInv ER (Rd m) (K (rsR c 1 3)) (rsR c 1 3)
      ∗ dutyTok ER (agS c 3 2) 0 0
      ∗ dutyTok ER (agR (pl c 3) 1 2) 0 0
      ∗ ((outSl c 2).view.loc (c : Thread nD τ) ↦[(outSl c 2).view.set]{fullShare.right.right} OUT m)
      ∗ (∃ f, (outSl c 2).view.loc (pl c 3 : Thread nD τ) ↦[(outSl c 2).view.set]{fullShare} f)
      ∗ pRest c (Pblk m c)
      ∗ atPos ER (rsR c 1 3) 0 ∅ 0
      ∗ cred (tallyAt (rsR c 1 3) () Nr)
      ∗ owes (c : Thread nD τ) (0 + tallyAt (agR (pl c 3) 1 3) () No + tallyAt (agR (pl c 1) 3 3) () No + tallyAt (agR (pl c 2) 2 3) () No + tallyAt (agR (pl c 3) 1 2) () No) W)
      ⊢ wp frame (wpE (defs₀ (F := F)) 𝒱₀ c none) Set.univ (k0_part16 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v426)
          (fun r : (Σ' (v451 : FVec F S32x512 .f32), BitVec 32) => iprop(cred (tallyAt (agS c 3 2) () No)
            ∗ pRest c (Pblk m c)
            ∗ atPos ER (rsR c 1 3) 1 ∅ 0
            ∗ ((rsDst 1 3).view.loc (c : Thread nD τ) ↦[(rsDst 1 3).view.set]{fullShare} RSfun m c)
            ∗ (∃ W', owes (c : Thread nD τ) (0 + tallyAt (agR (pl c 3) 1 3) () No + tallyAt (agR (pl c 1) 3 3) () No + tallyAt (agR (pl c 2) 2 3) () No) W')
            ∗ ⌜r.1 = k0_pay16 (pM.view.readAt (Elt F) (Rect.unit (s := S4x128x512) (k0_off9 c) S1x32x512.size (k0_off9_inb c)).toLoadRect (Pblk m c)) (rM.view.readAt (Elt F) (Rect.unit (s := S4x128x512) ![1, 96, 0] S1x32x512.size inb_S4x128x512_S1x32x512_1_96_0).toLoadRect (RSfun m c))⌝)) := by
  iintro ⟨#IaS32, #IpA32, #RaS32, #RpA32, #Hlev, #IsR13, TaS32, TpA32, Ho02_3, Ed3o2, Hpr, PsR13, CsR13, HO⟩
  have hmw := mayWait_rs24 (F := F) c 1 3
  sl_exec
  icases Ed3o2 with ⟨%fd, Hd⟩
  iapply (wp_ag_send m c 2 2 _ (dev24_eq c) _ _ rfl rfl _ _ rfl rfl (K (agS c 3 2)) (K (agR (pl c 3) 1 2)) fd _ _) $$ [Ho02_3 Hd HO TaS32 TpA32]
  · isplitr; · iexact IaS32
    isplitr; · iexact IpA32
    isplitl [Ho02_3]; · iexact Ho02_3
    isplitl [Hd]; · iexact Hd
    isplitl [HO]; · iexact HO
    isplitl [TaS32]; · iexact TaS32
    isplitr; · iexact RaS32
    isplitl [TpA32]; · iexact TpA32
    iexact RpA32
  iintro ⟨Ca32, HO⟩
  iapply (wp_load_own c 3 (Pblk m c) _ rfl) $$ Hpr
  iintro Hpr
  rw [ret_bind_prog]
  sl_exec
  sl_step
  isplitl [Ca32]; · iexact Ca32
  isplitl [Hpr]; · iexact Hpr
  isplitl [PsR13]; · iexact PsR13
  isplitl [PsR13_pay1]; · iexact PsR13_pay1
  isplitl [HO]; · (iexists _; iexact HO)
  (ipureintro; rfl)

set_option maxHeartbeats 1000000 in
theorem part17_run (K : GSem nD τ sig → ℕ) (c : Dev nD)  (W : Waits sig Unit) (v2 : BitVec 32) (v451 : FVec F S32x512 .f32) (c1_i32_446 : BitVec 32)
    :
    iprop(levAts L lv
      ∗ cellInv ER (Rd m) (K (rsR c 3 3)) (rsR c 3 3)
      ∗ cellInv ER (Rd m) (K (rsR c 2 3)) (rsR c 2 3)
      ∗ atPos ER (rsR c 3 3) 0 ∅ 0
      ∗ cred (tallyAt (rsR c 3 3) () Nr)
      ∗ atPos ER (rsR c 2 3) 0 ∅ 0
      ∗ cred (tallyAt (rsR c 2 3) () Nr)
      ∗ owes (c : Thread nD τ) (0 + tallyAt (agR (pl c 3) 1 3) () No + tallyAt (agR (pl c 1) 3 3) () No + tallyAt (agR (pl c 2) 2 3) () No) W)
      ⊢ wp frame (wpE (defs₀ (F := F)) 𝒱₀ c none) Set.univ (k0_part17 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 v2 v451 c1_i32_446)
          (fun r : (Σ' (v477 : FVec F S32x512 .f32) (v482 : FVec F S32x512 .f32), FVec F S32x512 .f32) => iprop(atPos ER (rsR c 3 3) 1 ∅ 0
            ∗ ((rsDst 3 3).view.loc (c : Thread nD τ) ↦[(rsDst 3 3).view.set]{fullShare} RSfun m c)
            ∗ atPos ER (rsR c 2 3) 1 ∅ 0
            ∗ ((rsDst 2 3).view.loc (c : Thread nD τ) ↦[(rsDst 2 3).view.set]{fullShare} RSfun m c)
            ∗ (∃ W', owes (c : Thread nD τ) (0 + tallyAt (agR (pl c 3) 1 3) () No + tallyAt (agR (pl c 1) 3 3) () No + tallyAt (agR (pl c 2) 2 3) () No) W')
            ∗ ⌜r.1 = k0_pay18 v451 (rM.view.readAt (Elt F) (Rect.unit (s := S4x128x512) ![3, 96, 0] S1x32x512.size inb_S4x128x512_S1x32x512_3_96_0).toLoadRect (RSfun m c)) (rM.view.readAt (Elt F) (Rect.unit (s := S4x128x512) ![2, 96, 0] S1x32x512.size inb_S4x128x512_S1x32x512_2_96_0).toLoadRect (RSfun m c))⌝
            ∗ ⌜r.2.1 = k0_pay19 v451 (rM.view.readAt (Elt F) (Rect.unit (s := S4x128x512) ![3, 96, 0] S1x32x512.size inb_S4x128x512_S1x32x512_3_96_0).toLoadRect (RSfun m c)) (rM.view.readAt (Elt F) (Rect.unit (s := S4x128x512) ![2, 96, 0] S1x32x512.size inb_S4x128x512_S1x32x512_2_96_0).toLoadRect (RSfun m c))⌝
            ∗ ⌜r.2.2 = k0_pay20 (F := F)⌝)) := by
  iintro ⟨#Hlev, #IsR33, #IsR23, PsR33, CsR33, PsR23, CsR23, HO⟩
  have hmw3 := mayWait_rs24 (F := F) c 3 3
  have hmw2 := mayWait_rs24 (F := F) c 2 3
  sl_exec
  sl_step
  isplitl [PsR33]; · iexact PsR33
  isplitl [PsR33_pay1]; · iexact PsR33_pay1
  isplitl [PsR23]; · iexact PsR23
  isplitl [PsR23_pay1]; · iexact PsR23_pay1
  isplitl [HO]; · (iexists _; iexact HO)
  isplitr; · (ipureintro; rfl)
  isplitr; · (ipureintro; rfl)
  (ipureintro; rfl)

set_option maxHeartbeats 1000000 in
theorem part18_run (K : GSem nD τ sig → ℕ) (c : Dev nD) (o0 : Vec F S512x512 .bf16) (W : Waits sig Unit) (v2 : BitVec 32) (v477 : FVec F S32x512 .f32) (v482 : FVec F S32x512 .f32) (v483 : FVec F S32x512 .f32)
    (hv477 : v477 = k0_pay18 (k0_pay16 (pM.view.readAt (Elt F) (Rect.unit (s := S4x128x512) (k0_off9 c) S1x32x512.size (k0_off9_inb c)).toLoadRect (Pblk m c)) (rM.view.readAt (Elt F) (Rect.unit (s := S4x128x512) ![1, 96, 0] S1x32x512.size inb_S4x128x512_S1x32x512_1_96_0).toLoadRect (RSfun m c))) (rM.view.readAt (Elt F) (Rect.unit (s := S4x128x512) ![3, 96, 0] S1x32x512.size inb_S4x128x512_S1x32x512_3_96_0).toLoadRect (RSfun m c)) (rM.view.readAt (Elt F) (Rect.unit (s := S4x128x512) ![2, 96, 0] S1x32x512.size inb_S4x128x512_S1x32x512_2_96_0).toLoadRect (RSfun m c)))
    (hv482 : v482 = k0_pay19 (k0_pay16 (pM.view.readAt (Elt F) (Rect.unit (s := S4x128x512) (k0_off9 c) S1x32x512.size (k0_off9_inb c)).toLoadRect (Pblk m c)) (rM.view.readAt (Elt F) (Rect.unit (s := S4x128x512) ![1, 96, 0] S1x32x512.size inb_S4x128x512_S1x32x512_1_96_0).toLoadRect (RSfun m c))) (rM.view.readAt (Elt F) (Rect.unit (s := S4x128x512) ![3, 96, 0] S1x32x512.size inb_S4x128x512_S1x32x512_3_96_0).toLoadRect (RSfun m c)) (rM.view.readAt (Elt F) (Rect.unit (s := S4x128x512) ![2, 96, 0] S1x32x512.size inb_S4x128x512_S1x32x512_2_96_0).toLoadRect (RSfun m c)))
    (hv483 : v483 = k0_pay20 (F := F))
    :
    iprop(cellInv ER (Rd m) (K (agS c 2 3)) (agS c 2 3)
      ∗ cellInv ER (Rd m) (K (agR (pl c 2) 2 3)) (agR (pl c 2) 2 3)
      ∗ reached ER (agS c 2 3) 0
      ∗ reached ER (agR (pl c 2) 2 3) 0
      ∗ cellInv ER (Rd m) (K (agS c 1 3)) (agS c 1 3)
      ∗ cellInv ER (Rd m) (K (agR (pl c 1) 3 3)) (agR (pl c 1) 3 3)
      ∗ reached ER (agS c 1 3) 0
      ∗ reached ER (agR (pl c 1) 3 3) 0
      ∗ ((outSl c 3).view.loc (c : Thread nD τ) ↦[(outSl c 3).view.set]{fullShare} o0)
      ∗ dutyTok ER (agS c 2 3) 0 0
      ∗ dutyTok ER (agR (pl c 2) 2 3) 0 0
      ∗ (∃ f, (outSl c 3).view.loc (pl c 2 : Thread nD τ) ↦[(outSl c 3).view.set]{fullShare} f)
      ∗ dutyTok ER (agS c 1 3) 0 0
      ∗ dutyTok ER (agR (pl c 1) 3 3) 0 0
      ∗ (∃ f, (outSl c 3).view.loc (pl c 1 : Thread nD τ) ↦[(outSl c 3).view.set]{fullShare} f)
      ∗ owes (c : Thread nD τ) (0 + tallyAt (agR (pl c 3) 1 3) () No + tallyAt (agR (pl c 1) 3 3) () No + tallyAt (agR (pl c 2) 2 3) () No) W)
      ⊢ wp frame (wpE (defs₀ (F := F)) 𝒱₀ c none) Set.univ (k0_part18 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v477 v482 v483)
          (fun r : (PUnit) => iprop(((outSl c 3).view.loc (c : Thread nD τ) ↦[(outSl c 3).view.set]{fullShare.right.right} OUT m)
            ∗ cred (tallyAt (agS c 2 3) () No)
            ∗ cred (tallyAt (agS c 1 3) () No)
            ∗ (∃ W', owes (c : Thread nD τ) (0 + tallyAt (agR (pl c 3) 1 3) () No) W'))) := by
  iintro ⟨#IaS23, #IpA23, #RaS23, #RpA23, #IaS13, #IpA13, #RaS13, #RpA13, Ho03, TaS23, TpA23, Ed2o3, TaS13, TpA13, Ed1o3, HO⟩
  subst hv477
  subst hv482
  subst hv483
  sl_exec
  iapply (wp_store_out c 3 o0 _ rfl) $$ Ho03
  iintro Ho03
  ihave Ho03 := (Entails.of_eq (chunk_stored_pts_3 m c o0)) $$ Ho03
  ihave Ho03 := (pointsTo_share (PosShare.mem_left_op_right fullShare)).1 $$ Ho03
  icases Ho03 with ⟨Ho03_2, Ho03_r⟩
  ihave Ho03_r := (pointsTo_share (PosShare.mem_left_op_right fullShare.right)).1 $$ Ho03_r
  icases Ho03_r with ⟨Ho03_1, Ho03_3⟩
  sl_exec
  icases Ed2o3 with ⟨%fd, Hd⟩
  iapply (wp_ag_send m c 1 3 _ (dev25_eq c) _ _ rfl rfl _ _ rfl rfl (K (agS c 2 3)) (K (agR (pl c 2) 2 3)) fd _ _) $$ [Ho03_2 Hd HO TaS23 TpA23]
  · isplitr; · iexact IaS23
    isplitr; · iexact IpA23
    isplitl [Ho03_2]; · iexact Ho03_2
    isplitl [Hd]; · iexact Hd
    isplitl [HO]; · iexact HO
    isplitl [TaS23]; · iexact TaS23
    isplitr; · iexact RaS23
    isplitl [TpA23]; · iexact TpA23
    iexact RpA23
  iintro ⟨Ca23, HO⟩
  sl_exec
  icases Ed1o3 with ⟨%fd, Hd⟩
  iapply (wp_ag_send m c 0 3 _ (dev26_eq c) _ _ rfl rfl _ _ rfl rfl (K (agS c 1 3)) (K (agR (pl c 1) 3 3)) fd _ _) $$ [Ho03_1 Hd HO TaS13 TpA13]
  · isplitr; · iexact IaS13
    isplitr; · iexact IpA13
    isplitl [Ho03_1]; · iexact Ho03_1
    isplitl [Hd]; · iexact Hd
    isplitl [HO]; · iexact HO
    isplitl [TaS13]; · iexact TaS13
    isplitr; · iexact RaS13
    isplitl [TpA13]; · iexact TpA13
    iexact RpA13
  iintro ⟨Ca13, HO⟩
  sl_exec
  sl_step
  isplitl [Ho03_3]; · iexact Ho03_3
  isplitl [Ca23]; · iexact Ca23
  isplitl [Ca13]; · iexact Ca13
  (iexists _; iexact HO)

set_option maxHeartbeats 1000000 in
theorem part19_run (K : GSem nD τ sig → ℕ) (c : Dev nD)  (W : Waits sig Unit) (v2 : BitVec 32)
    :
    iprop(cellInv ER (Rd m) (K (agS c 3 3)) (agS c 3 3)
      ∗ cellInv ER (Rd m) (K (agR (pl c 3) 1 3)) (agR (pl c 3) 1 3)
      ∗ reached ER (agS c 3 3) 0
      ∗ reached ER (agR (pl c 3) 1 3) 0
      ∗ cellInv ER (Rd m) (K (agR c 1 0)) (agR c 1 0)
      ∗ dutyTok ER (agS c 3 3) 0 0
      ∗ dutyTok ER (agR (pl c 3) 1 3) 0 0
      ∗ ((outSl c 3).view.loc (c : Thread nD τ) ↦[(outSl c 3).view.set]{fullShare.right.right} OUT m)
      ∗ (∃ f, (outSl c 3).view.loc (pl c 3 : Thread nD τ) ↦[(outSl c 3).view.set]{fullShare} f)
      ∗ atPos ER (agR c 1 0) 0 ∅ 0
      ∗ cred (tallyAt (agR c 1 0) () No)
      ∗ owes (c : Thread nD τ) (0 + tallyAt (agR (pl c 3) 1 3) () No) W)
      ⊢ wp frame (wpE (defs₀ (F := F)) 𝒱₀ c none) Set.univ (k0_part19 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (PUnit) => iprop(cred (tallyAt (agS c 3 3) () No)
            ∗ atPos ER (agR c 1 0) 1 ∅ 0
            ∗ ((outSl (pl c 1) 0).view.loc (c : Thread nD τ) ↦[(outSl (pl c 1) 0).view.set]{fullShare} OUT m)
            ∗ (∃ W', owes (c : Thread nD τ) (0) W'))) := by
  iintro ⟨#IaS33, #IpA33, #RaS33, #RpA33, #IaR10, TaS33, TpA33, Ho03_3, Ed3o3, PaR10, CaR10, HO⟩
  sl_exec
  icases Ed3o3 with ⟨%fd, Hd⟩
  iapply (wp_ag_send m c 2 3 _ (dev27_eq c) _ _ rfl rfl _ _ rfl rfl (K (agS c 3 3)) (K (agR (pl c 3) 1 3)) fd _ _) $$ [Ho03_3 Hd HO TaS33 TpA33]
  · isplitr; · iexact IaS33
    isplitr; · iexact IpA33
    isplitl [Ho03_3]; · iexact Ho03_3
    isplitl [Hd]; · iexact Hd
    isplitl [HO]; · iexact HO
    isplitl [TaS33]; · iexact TaS33
    isplitr; · iexact RaS33
    isplitl [TpA33]; · iexact TpA33
    iexact RpA33
  iintro ⟨Ca33, HO⟩
  sl_exec
  sl_step
  isplitl [Ca33]; · iexact Ca33
  isplitl [PaR10]; · iexact PaR10
  isplitl [PaR10_pay1]; · iexact PaR10_pay1
  (iexists _; iexact HO)

end Cert.KernelIdeal.Hand
end
-- ==== Proof.KernelIdealPartsD.lean ====
import proofs.«900554_g7700000000000555_dist_matmul_gelu_kshard_i_m512_n512_k256_v7x_i4_bf16_1_alg».proof.Proof.KernelIdealStepsCommon

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

set_option maxHeartbeats 1000000 in
theorem part20_run (K : GSem nD τ sig → ℕ) (c : Dev nD)  (W : Waits sig Unit) (v2 : BitVec 32)
    :
    iprop(cellInv ER (Rd m) (K (agR c 3 0)) (agR c 3 0)
      ∗ cellInv ER (Rd m) (K (agR c 2 0)) (agR c 2 0)
      ∗ cellInv ER (Rd m) (K (agR c 1 1)) (agR c 1 1)
      ∗ atPos ER (agR c 3 0) 0 ∅ 0
      ∗ cred (tallyAt (agR c 3 0) () No)
      ∗ atPos ER (agR c 2 0) 0 ∅ 0
      ∗ cred (tallyAt (agR c 2 0) () No)
      ∗ atPos ER (agR c 1 1) 0 ∅ 0
      ∗ cred (tallyAt (agR c 1 1) () No)
      ∗ owes (c : Thread nD τ) (0) W)
      ⊢ wp frame (wpE (defs₀ (F := F)) 𝒱₀ c none) Set.univ (k0_part20 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (Σ' (v566 : BitVec 32), BitVec 32) => iprop(atPos ER (agR c 3 0) 1 ∅ 0
            ∗ ((outSl (pl c 3) 0).view.loc (c : Thread nD τ) ↦[(outSl (pl c 3) 0).view.set]{fullShare} OUT m)
            ∗ atPos ER (agR c 2 0) 1 ∅ 0
            ∗ ((outSl (pl c 2) 0).view.loc (c : Thread nD τ) ↦[(outSl (pl c 2) 0).view.set]{fullShare} OUT m)
            ∗ atPos ER (agR c 1 1) 1 ∅ 0
            ∗ ((outSl (pl c 1) 1).view.loc (c : Thread nD τ) ↦[(outSl (pl c 1) 1).view.set]{fullShare} OUT m)
            ∗ (∃ W', owes (c : Thread nD τ) (0) W'))) := by
  iintro ⟨#IaR30, #IaR20, #IaR11, PaR30, CaR30, PaR20, CaR20, PaR11, CaR11, HO⟩
  sl_exec
  sl_step
  isplitl [PaR30]; · iexact PaR30
  isplitl [PaR30_pay1]; · iexact PaR30_pay1
  isplitl [PaR20]; · iexact PaR20
  isplitl [PaR20_pay1]; · iexact PaR20_pay1
  isplitl [PaR11]; · iexact PaR11
  isplitl [PaR11_pay1]; · iexact PaR11_pay1
  (iexists _; iexact HO)

set_option maxHeartbeats 1000000 in
theorem part21_run (K : GSem nD τ sig → ℕ) (c : Dev nD)  (W : Waits sig Unit) (v2 : BitVec 32) (v566 : BitVec 32) (c32_i32_560 : BitVec 32)
    :
    iprop(cellInv ER (Rd m) (K (agR c 3 1)) (agR c 3 1)
      ∗ cellInv ER (Rd m) (K (agR c 2 1)) (agR c 2 1)
      ∗ atPos ER (agR c 3 1) 0 ∅ 0
      ∗ cred (tallyAt (agR c 3 1) () No)
      ∗ atPos ER (agR c 2 1) 0 ∅ 0
      ∗ cred (tallyAt (agR c 2 1) () No)
      ∗ owes (c : Thread nD τ) (0) W)
      ⊢ wp frame (wpE (defs₀ (F := F)) 𝒱₀ c none) Set.univ (k0_part21 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2 v566 c32_i32_560)
          (fun r : (PUnit) => iprop(atPos ER (agR c 3 1) 1 ∅ 0
            ∗ ((outSl (pl c 3) 1).view.loc (c : Thread nD τ) ↦[(outSl (pl c 3) 1).view.set]{fullShare} OUT m)
            ∗ atPos ER (agR c 2 1) 1 ∅ 0
            ∗ ((outSl (pl c 2) 1).view.loc (c : Thread nD τ) ↦[(outSl (pl c 2) 1).view.set]{fullShare} OUT m)
            ∗ (∃ W', owes (c : Thread nD τ) (0) W'))) := by
  iintro ⟨#IaR31, #IaR21, PaR31, CaR31, PaR21, CaR21, HO⟩
  sl_exec
  sl_step
  isplitl [PaR31]; · iexact PaR31
  isplitl [PaR31_pay1]; · iexact PaR31_pay1
  isplitl [PaR21]; · iexact PaR21
  isplitl [PaR21_pay1]; · iexact PaR21_pay1
  (iexists _; iexact HO)

set_option maxHeartbeats 1000000 in
theorem part22_run (K : GSem nD τ sig → ℕ) (c : Dev nD)  (W : Waits sig Unit) (v2 : BitVec 32)
    :
    iprop(cellInv ER (Rd m) (K (agR c 1 2)) (agR c 1 2)
      ∗ cellInv ER (Rd m) (K (agR c 3 2)) (agR c 3 2)
      ∗ cellInv ER (Rd m) (K (agR c 2 2)) (agR c 2 2)
      ∗ atPos ER (agR c 1 2) 0 ∅ 0
      ∗ cred (tallyAt (agR c 1 2) () No)
      ∗ atPos ER (agR c 3 2) 0 ∅ 0
      ∗ cred (tallyAt (agR c 3 2) () No)
      ∗ atPos ER (agR c 2 2) 0 ∅ 0
      ∗ cred (tallyAt (agR c 2 2) () No)
      ∗ owes (c : Thread nD τ) (0) W)
      ⊢ wp frame (wpE (defs₀ (F := F)) 𝒱₀ c none) Set.univ (k0_part22 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (PUnit) => iprop(atPos ER (agR c 1 2) 1 ∅ 0
            ∗ ((outSl (pl c 1) 2).view.loc (c : Thread nD τ) ↦[(outSl (pl c 1) 2).view.set]{fullShare} OUT m)
            ∗ atPos ER (agR c 3 2) 1 ∅ 0
            ∗ ((outSl (pl c 3) 2).view.loc (c : Thread nD τ) ↦[(outSl (pl c 3) 2).view.set]{fullShare} OUT m)
            ∗ atPos ER (agR c 2 2) 1 ∅ 0
            ∗ ((outSl (pl c 2) 2).view.loc (c : Thread nD τ) ↦[(outSl (pl c 2) 2).view.set]{fullShare} OUT m)
            ∗ (∃ W', owes (c : Thread nD τ) (0) W'))) := by
  iintro ⟨#IaR12, #IaR32, #IaR22, PaR12, CaR12, PaR32, CaR32, PaR22, CaR22, HO⟩
  sl_exec
  sl_step
  isplitl [PaR12]; · iexact PaR12
  isplitl [PaR12_pay1]; · iexact PaR12_pay1
  isplitl [PaR32]; · iexact PaR32
  isplitl [PaR32_pay1]; · iexact PaR32_pay1
  isplitl [PaR22]; · iexact PaR22
  isplitl [PaR22_pay1]; · iexact PaR22_pay1
  (iexists _; iexact HO)

set_option maxHeartbeats 1000000 in
theorem part23_run (K : GSem nD τ sig → ℕ) (c : Dev nD)  (W : Waits sig Unit) (v2 : BitVec 32)
    :
    iprop(cellInv ER (Rd m) (K (agR c 1 3)) (agR c 1 3)
      ∗ cellInv ER (Rd m) (K (agR c 3 3)) (agR c 3 3)
      ∗ cellInv ER (Rd m) (K (agR c 2 3)) (agR c 2 3)
      ∗ atPos ER (agR c 1 3) 0 ∅ 0
      ∗ cred (tallyAt (agR c 1 3) () No)
      ∗ atPos ER (agR c 3 3) 0 ∅ 0
      ∗ cred (tallyAt (agR c 3 3) () No)
      ∗ atPos ER (agR c 2 3) 0 ∅ 0
      ∗ cred (tallyAt (agR c 2 3) () No)
      ∗ owes (c : Thread nD τ) (0) W)
      ⊢ wp frame (wpE (defs₀ (F := F)) 𝒱₀ c none) Set.univ (k0_part23 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c v2)
          (fun r : (PUnit) => iprop(atPos ER (agR c 1 3) 1 ∅ 0
            ∗ ((outSl (pl c 1) 3).view.loc (c : Thread nD τ) ↦[(outSl (pl c 1) 3).view.set]{fullShare} OUT m)
            ∗ atPos ER (agR c 3 3) 1 ∅ 0
            ∗ ((outSl (pl c 3) 3).view.loc (c : Thread nD τ) ↦[(outSl (pl c 3) 3).view.set]{fullShare} OUT m)
            ∗ atPos ER (agR c 2 3) 1 ∅ 0
            ∗ ((outSl (pl c 2) 3).view.loc (c : Thread nD τ) ↦[(outSl (pl c 2) 3).view.set]{fullShare} OUT m)
            ∗ (∃ W', owes (c : Thread nD τ) (0) W'))) := by
  iintro ⟨#IaR13, #IaR33, #IaR23, PaR13, CaR13, PaR33, CaR33, PaR23, CaR23, HO⟩
  sl_exec
  sl_step
  isplitl [PaR13]; · iexact PaR13
  isplitl [PaR13_pay1]; · iexact PaR13_pay1
  isplitl [PaR33]; · iexact PaR33
  isplitl [PaR33_pay1]; · iexact PaR33_pay1
  isplitl [PaR23]; · iexact PaR23
  isplitl [PaR23_pay1]; · iexact PaR23_pay1
  (iexists _; iexact HO)

set_option maxHeartbeats 1000000 in
theorem part24_run (K : GSem nD τ sig → ℕ) (c : Dev nD)  (W : Waits sig Unit)
    :
    iprop(cellInv ER (Rd m) (K (rsS c 2 0)) (rsS c 2 0)
      ∗ cellInv ER (Rd m) (K (rsS c 1 0)) (rsS c 1 0)
      ∗ cellInv ER (Rd m) (K (rsS c 3 0)) (rsS c 3 0)
      ∗ atPos ER (rsS c 2 0) 0 ∅ 0
      ∗ cred (tallyAt (rsS c 2 0) () Nr)
      ∗ atPos ER (rsS c 1 0) 0 ∅ 0
      ∗ cred (tallyAt (rsS c 1 0) () Nr)
      ∗ atPos ER (rsS c 3 0) 0 ∅ 0
      ∗ cred (tallyAt (rsS c 3 0) () Nr)
      ∗ owes (c : Thread nD τ) (0) W)
      ⊢ wp frame (wpE (defs₀ (F := F)) 𝒱₀ c none) Set.univ (k0_part24 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (rsS c 2 0) 1 ∅ 0
            ∗ ((rsSrc c 1 0).view.loc (c : Thread nD τ) ↦[(rsSrc c 1 0).view.set]{fullShare} Pblk m c)
            ∗ atPos ER (rsS c 1 0) 1 ∅ 0
            ∗ ((rsSrc c 0 0).view.loc (c : Thread nD τ) ↦[(rsSrc c 0 0).view.set]{fullShare} Pblk m c)
            ∗ atPos ER (rsS c 3 0) 1 ∅ 0
            ∗ ((rsSrc c 2 0).view.loc (c : Thread nD τ) ↦[(rsSrc c 2 0).view.set]{fullShare} Pblk m c)
            ∗ (∃ W', owes (c : Thread nD τ) (0) W'))) := by
  iintro ⟨#IsS20, #IsS10, #IsS30, PsS20, Cs20, PsS10, Cs10, PsS30, Cs30, HO⟩
  sl_exec
  sl_step
  isplitl [PsS20]; · iexact PsS20
  isplitl [PsS20_pay1]; · iexact PsS20_pay1
  isplitl [PsS10]; · iexact PsS10
  isplitl [PsS10_pay1]; · iexact PsS10_pay1
  isplitl [PsS30]; · iexact PsS30
  isplitl [PsS30_pay1]; · iexact PsS30_pay1
  (iexists _; iexact HO)

set_option maxHeartbeats 1000000 in
theorem part25_run (K : GSem nD τ sig → ℕ) (c : Dev nD)  (W : Waits sig Unit)
    :
    iprop(cellInv ER (Rd m) (K (rsS c 2 1)) (rsS c 2 1)
      ∗ cellInv ER (Rd m) (K (rsS c 1 1)) (rsS c 1 1)
      ∗ cellInv ER (Rd m) (K (rsS c 3 1)) (rsS c 3 1)
      ∗ cellInv ER (Rd m) (K (rsS c 2 2)) (rsS c 2 2)
      ∗ atPos ER (rsS c 2 1) 0 ∅ 0
      ∗ cred (tallyAt (rsS c 2 1) () Nr)
      ∗ atPos ER (rsS c 1 1) 0 ∅ 0
      ∗ cred (tallyAt (rsS c 1 1) () Nr)
      ∗ atPos ER (rsS c 3 1) 0 ∅ 0
      ∗ cred (tallyAt (rsS c 3 1) () Nr)
      ∗ atPos ER (rsS c 2 2) 0 ∅ 0
      ∗ cred (tallyAt (rsS c 2 2) () Nr)
      ∗ owes (c : Thread nD τ) (0) W)
      ⊢ wp frame (wpE (defs₀ (F := F)) 𝒱₀ c none) Set.univ (k0_part25 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (rsS c 2 1) 1 ∅ 0
            ∗ ((rsSrc c 1 1).view.loc (c : Thread nD τ) ↦[(rsSrc c 1 1).view.set]{fullShare} Pblk m c)
            ∗ atPos ER (rsS c 1 1) 1 ∅ 0
            ∗ ((rsSrc c 0 1).view.loc (c : Thread nD τ) ↦[(rsSrc c 0 1).view.set]{fullShare} Pblk m c)
            ∗ atPos ER (rsS c 3 1) 1 ∅ 0
            ∗ ((rsSrc c 2 1).view.loc (c : Thread nD τ) ↦[(rsSrc c 2 1).view.set]{fullShare} Pblk m c)
            ∗ atPos ER (rsS c 2 2) 1 ∅ 0
            ∗ ((rsSrc c 1 2).view.loc (c : Thread nD τ) ↦[(rsSrc c 1 2).view.set]{fullShare} Pblk m c)
            ∗ (∃ W', owes (c : Thread nD τ) (0) W'))) := by
  iintro ⟨#IsS21, #IsS11, #IsS31, #IsS22, PsS21, Cs21, PsS11, Cs11, PsS31, Cs31, PsS22, Cs22, HO⟩
  sl_exec
  sl_step
  isplitl [PsS21]; · iexact PsS21
  isplitl [PsS21_pay1]; · iexact PsS21_pay1
  isplitl [PsS11]; · iexact PsS11
  isplitl [PsS11_pay1]; · iexact PsS11_pay1
  isplitl [PsS31]; · iexact PsS31
  isplitl [PsS31_pay1]; · iexact PsS31_pay1
  isplitl [PsS22]; · iexact PsS22
  isplitl [PsS22_pay1]; · iexact PsS22_pay1
  (iexists _; iexact HO)

set_option maxHeartbeats 1000000 in
theorem part26_run (K : GSem nD τ sig → ℕ) (c : Dev nD)  (W : Waits sig Unit)
    :
    iprop(cellInv ER (Rd m) (K (rsS c 1 2)) (rsS c 1 2)
      ∗ cellInv ER (Rd m) (K (rsS c 3 2)) (rsS c 3 2)
      ∗ cellInv ER (Rd m) (K (rsS c 2 3)) (rsS c 2 3)
      ∗ atPos ER (rsS c 1 2) 0 ∅ 0
      ∗ cred (tallyAt (rsS c 1 2) () Nr)
      ∗ atPos ER (rsS c 3 2) 0 ∅ 0
      ∗ cred (tallyAt (rsS c 3 2) () Nr)
      ∗ atPos ER (rsS c 2 3) 0 ∅ 0
      ∗ cred (tallyAt (rsS c 2 3) () Nr)
      ∗ owes (c : Thread nD τ) (0) W)
      ⊢ wp frame (wpE (defs₀ (F := F)) 𝒱₀ c none) Set.univ (k0_part26 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (rsS c 1 2) 1 ∅ 0
            ∗ ((rsSrc c 0 2).view.loc (c : Thread nD τ) ↦[(rsSrc c 0 2).view.set]{fullShare} Pblk m c)
            ∗ atPos ER (rsS c 3 2) 1 ∅ 0
            ∗ ((rsSrc c 2 2).view.loc (c : Thread nD τ) ↦[(rsSrc c 2 2).view.set]{fullShare} Pblk m c)
            ∗ atPos ER (rsS c 2 3) 1 ∅ 0
            ∗ ((rsSrc c 1 3).view.loc (c : Thread nD τ) ↦[(rsSrc c 1 3).view.set]{fullShare} Pblk m c)
            ∗ (∃ W', owes (c : Thread nD τ) (0) W'))) := by
  iintro ⟨#IsS12, #IsS32, #IsS23, PsS12, Cs12, PsS32, Cs32, PsS23, Cs23, HO⟩
  sl_exec
  sl_step
  isplitl [PsS12]; · iexact PsS12
  isplitl [PsS12_pay1]; · iexact PsS12_pay1
  isplitl [PsS32]; · iexact PsS32
  isplitl [PsS32_pay1]; · iexact PsS32_pay1
  isplitl [PsS23]; · iexact PsS23
  isplitl [PsS23_pay1]; · iexact PsS23_pay1
  (iexists _; iexact HO)

set_option maxHeartbeats 1000000 in
theorem part27_run (K : GSem nD τ sig → ℕ) (c : Dev nD)  (W : Waits sig Unit)
    :
    iprop(cellInv ER (Rd m) (K (rsS c 1 3)) (rsS c 1 3)
      ∗ cellInv ER (Rd m) (K (rsS c 3 3)) (rsS c 3 3)
      ∗ cellInv ER (Rd m) (K (agS c 2 0)) (agS c 2 0)
      ∗ cellInv ER (Rd m) (K (agS c 1 0)) (agS c 1 0)
      ∗ cellInv ER (Rd m) (K (agS c 3 0)) (agS c 3 0)
      ∗ atPos ER (rsS c 1 3) 0 ∅ 0
      ∗ cred (tallyAt (rsS c 1 3) () Nr)
      ∗ atPos ER (rsS c 3 3) 0 ∅ 0
      ∗ cred (tallyAt (rsS c 3 3) () Nr)
      ∗ atPos ER (agS c 2 0) 0 ∅ 0
      ∗ cred (tallyAt (agS c 2 0) () No)
      ∗ atPos ER (agS c 1 0) 0 ∅ 0
      ∗ cred (tallyAt (agS c 1 0) () No)
      ∗ atPos ER (agS c 3 0) 0 ∅ 0
      ∗ cred (tallyAt (agS c 3 0) () No)
      ∗ owes (c : Thread nD τ) (0) W)
      ⊢ wp frame (wpE (defs₀ (F := F)) 𝒱₀ c none) Set.univ (k0_part27 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (rsS c 1 3) 1 ∅ 0
            ∗ ((rsSrc c 0 3).view.loc (c : Thread nD τ) ↦[(rsSrc c 0 3).view.set]{fullShare} Pblk m c)
            ∗ atPos ER (rsS c 3 3) 1 ∅ 0
            ∗ ((rsSrc c 2 3).view.loc (c : Thread nD τ) ↦[(rsSrc c 2 3).view.set]{fullShare} Pblk m c)
            ∗ atPos ER (agS c 2 0) 1 ∅ 0
            ∗ ((outSl c 0).view.loc (c : Thread nD τ) ↦[(outSl c 0).view.set]{fullShare.left} OUT m)
            ∗ atPos ER (agS c 1 0) 1 ∅ 0
            ∗ ((outSl c 0).view.loc (c : Thread nD τ) ↦[(outSl c 0).view.set]{fullShare.right.left} OUT m)
            ∗ atPos ER (agS c 3 0) 1 ∅ 0
            ∗ ((outSl c 0).view.loc (c : Thread nD τ) ↦[(outSl c 0).view.set]{fullShare.right.right} OUT m)
            ∗ (∃ W', owes (c : Thread nD τ) (0) W'))) := by
  iintro ⟨#IsS13, #IsS33, #IaS20, #IaS10, #IaS30, PsS13, Cs13, PsS33, Cs33, PaS20, Ca20, PaS10, Ca10, PaS30, Ca30, HO⟩
  sl_exec
  sl_step
  isplitl [PsS13]; · iexact PsS13
  isplitl [PsS13_pay1]; · iexact PsS13_pay1
  isplitl [PsS33]; · iexact PsS33
  isplitl [PsS33_pay1]; · iexact PsS33_pay1
  isplitl [PaS20]; · iexact PaS20
  isplitl [PaS20_pay1]; · iexact PaS20_pay1
  isplitl [PaS10]; · iexact PaS10
  isplitl [PaS10_pay1]; · iexact PaS10_pay1
  isplitl [PaS30]; · iexact PaS30
  isplitl [PaS30_pay1]; · iexact PaS30_pay1
  (iexists _; iexact HO)

set_option maxHeartbeats 1000000 in
theorem part28_run (K : GSem nD τ sig → ℕ) (c : Dev nD)  (W : Waits sig Unit)
    :
    iprop(cellInv ER (Rd m) (K (agS c 2 1)) (agS c 2 1)
      ∗ cellInv ER (Rd m) (K (agS c 1 1)) (agS c 1 1)
      ∗ cellInv ER (Rd m) (K (agS c 3 1)) (agS c 3 1)
      ∗ cellInv ER (Rd m) (K (agS c 2 2)) (agS c 2 2)
      ∗ cellInv ER (Rd m) (K (agS c 1 2)) (agS c 1 2)
      ∗ atPos ER (agS c 2 1) 0 ∅ 0
      ∗ cred (tallyAt (agS c 2 1) () No)
      ∗ atPos ER (agS c 1 1) 0 ∅ 0
      ∗ cred (tallyAt (agS c 1 1) () No)
      ∗ atPos ER (agS c 3 1) 0 ∅ 0
      ∗ cred (tallyAt (agS c 3 1) () No)
      ∗ atPos ER (agS c 2 2) 0 ∅ 0
      ∗ cred (tallyAt (agS c 2 2) () No)
      ∗ atPos ER (agS c 1 2) 0 ∅ 0
      ∗ cred (tallyAt (agS c 1 2) () No)
      ∗ owes (c : Thread nD τ) (0) W)
      ⊢ wp frame (wpE (defs₀ (F := F)) 𝒱₀ c none) Set.univ (k0_part28 (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5 c)
          (fun r : (PUnit) => iprop(atPos ER (agS c 2 1) 1 ∅ 0
            ∗ ((outSl c 1).view.loc (c : Thread nD τ) ↦[(outSl c 1).view.set]{fullShare.left} OUT m)
            ∗ atPos ER (agS c 1 1) 1 ∅ 0
            ∗ ((outSl c 1).view.loc (c : Thread nD τ) ↦[(outSl c 1).view.set]{fullShare.right.left} OUT m)
            ∗ atPos ER (agS c 3 1) 1 ∅ 0
            ∗ ((outSl c 1).view.loc (c : Thread nD τ) ↦[(outSl c 1).view.set]{fullShare.right.right} OUT m)
            ∗ atPos ER (agS c 2 2) 1 ∅ 0
            ∗ ((outSl c 2).view.loc (c : Thread nD τ) ↦[(outSl c 2).view.set]{fullShare.left} OUT m)
            ∗ atPos ER (agS c 1 2) 1 ∅ 0
            ∗ ((outSl c 2).view.loc (c : Thread nD τ) ↦[(outSl c 2).view.set]{fullShare.right.left} OUT m)
            ∗ (∃ W', owes (c : Thread nD τ) (0) W'))) := by
  iintro ⟨#IaS21, #IaS11, #IaS31, #IaS22, #IaS12, PaS21, Ca21, PaS11, Ca11, PaS31, Ca31, PaS22, Ca22, PaS12, Ca12, HO⟩
  sl_exec
  sl_step
  isplitl [PaS21]; · iexact PaS21
  isplitl [PaS21_pay1]; · iexact PaS21_pay1
  isplitl [PaS11]; · iexact PaS11
  isplitl [PaS11_pay1]; · iexact PaS11_pay1
  isplitl [PaS31]; · iexact PaS31
  isplitl [PaS31_pay1]; · iexact PaS31_pay1
  isplitl [PaS22]; · iexact PaS22
  isplitl [PaS22_pay1]; · iexact PaS22_pay1
  isplitl [PaS12]; · iexact PaS12
  isplitl [PaS12_pay1]; · iexact PaS12_pay1
  (iexists _; iexact HO)

end Cert.KernelIdeal.Hand
end
-- ==== Proof.KernelIdealPartsE.lean ====
import proofs.«900554_g7700000000000555_dist_matmul_gelu_kshard_i_m512_n512_k256_v7x_i4_bf16_1_alg».proof.Proof.KernelIdealStepsCommon

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

attribute [local sl_rounds high] payload_give1 payload_give2 payload_give3
attribute [local sl_rounds] duties_bar amount_bar expect_bar payload_take1 payload_take2 payload_take3
attribute [local sl_rounds] duties_rsS_1 duties_rsS_2 duties_rsS_3 duties_rsR_1 duties_rsR_2 duties_rsR_3 duties_agS_1 duties_agS_2 duties_agS_3 duties_agR_1 duties_agR_2 duties_agR_3 amount_rsS_1 amount_rsS_2 amount_rsS_3 amount_rsR_1 amount_rsR_2 amount_rsR_3 amount_agS_1 amount_agS_2 amount_agS_3 amount_agR_1 amount_agR_2 amount_agR_3 expect_rsS_1 expect_rsS_2 expect_rsS_3 expect_rsR_1 expect_rsR_2 expect_rsR_3 expect_agS_1 expect_agS_2 expect_agS_3 expect_agR_1 expect_agR_2 expect_agR_3 payload_rsS_1 payload_rsS_2 payload_rsS_3 payload_rsR_1 payload_rsR_2 payload_rsR_3 payload_agS_1 payload_agS_2 payload_agS_3 payload_agR_1 payload_agR_2 payload_agR_3 rest_rsS_1 rest_rsS_2 rest_rsS_3 rest_rsR_1 rest_rsR_2 rest_rsR_3 rest_agS_1 rest_agS_2 rest_agS_3 rest_agR_1 rest_agR_2 rest_agR_3
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq

/-- The last two waits of the last printed part, and its return. -/
noncomputable def tail29 (d0 : Dev nD) : Prog (TpuEff nD τ sig (Elt F) Λ₀ .tc) (Dev nD) := do
  let v748 : DmaSems sig S1x1 := cc0_scratch4.slice (Rect.unit (s := S4x4) ![3, 2] S1x1.size inb_S4x4_S1x1_3_2)
  let v749 : DmaSems sig S_ := v748.squeeze S_ squeezes_S1x1_S_
  let v750 : Memref sig .tc .vmem S32x512 .bf16 := (Memref.whole cc0_stg2_0 : Memref sig .tc .vmem S512x512 .bf16).slice (Rect.unit (s := S512x512) (k0_off6 d0 64#32) S32x512.size (k0_off6_inb d0 2)) (fun _ => rfl)
  let v751 : Memref sig .tc .vmem S32x512 .bf16 := (Memref.whole cc0_stg2_0 : Memref sig .tc .vmem S512x512 .bf16).slice (Rect.unit (s := S512x512) (k0_off6 d0 64#32) S32x512.size (k0_off6_inb d0 2)) (fun _ => rfl)
  Prog.lift (.waitDma2 v749.sem v751 v750 ((Memref.isWhole_whole cc0_stg2_0).wordExact_slice rfl _ (k0_off6_wordsbf16 d0 2)) ((Memref.isWhole_whole cc0_stg2_0).wordExact_slice rfl _ (k0_off6_wordsbf16 d0 2)))
  let v752 : DmaSems sig S1x1 := cc0_scratch4.slice (Rect.unit (s := S4x4) ![2, 3] S1x1.size inb_S4x4_S1x1_2_3)
  let v753 : DmaSems sig S_ := v752.squeeze S_ squeezes_S1x1_S_
  let v754 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  let v755 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  Prog.lift (.waitDma2 v753.sem v755 v754 ((Memref.isWhole_whole cc0_stg2_0).wordExact_slice rfl _ (k0_off6_wordsbf16 d0 3)) ((Memref.isWhole_whole cc0_stg2_0).wordExact_slice rfl _ (k0_off6_wordsbf16 d0 3)))
  pure d0

/-- The body's last two waits. -/
noncomputable def tailBody (d0 : Dev nD) : Prog (TpuEff nD τ sig (Elt F) Λ₀ .tc) PUnit := do
  let v756 : DmaSems sig S1x1 := cc0_scratch4.slice (Rect.unit (s := S4x4) ![1, 3] S1x1.size inb_S4x4_S1x1_1_3)
  let v757 : DmaSems sig S_ := v756.squeeze S_ squeezes_S1x1_S_
  let v758 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  let v759 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  Prog.lift (.waitDma2 v757.sem v759 v758 ((Memref.isWhole_whole cc0_stg2_0).wordExact_slice rfl _ (k0_off6_wordsbf16 d0 3)) ((Memref.isWhole_whole cc0_stg2_0).wordExact_slice rfl _ (k0_off6_wordsbf16 d0 3)))
  let v760 : DmaSems sig S1x1 := cc0_scratch4.slice (Rect.unit (s := S4x4) ![3, 3] S1x1.size inb_S4x4_S1x1_3_3)
  let v761 : DmaSems sig S_ := v760.squeeze S_ squeezes_S1x1_S_
  let v762 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  let v763 : Memref sig .tc .vmem S32x512 .bf16 := (Memref.whole cc0_stg2_0 : Memref sig .tc .vmem S512x512 .bf16).slice (Rect.unit (s := S512x512) (k0_off6 d0 96#32) S32x512.size (k0_off6_inb d0 3)) (fun _ => rfl)
  Prog.lift (.waitDma2 v761.sem v763 v762 ((Memref.isWhole_whole cc0_stg2_0).wordExact_slice rfl _ (k0_off6_wordsbf16 d0 3)) ((Memref.isWhole_whole cc0_stg2_0).wordExact_slice rfl _ (k0_off6_wordsbf16 d0 3)))
  pure ⟨⟩

set_option maxHeartbeats 1000000 in
theorem tail29_run (K : GSem nD τ sig → ℕ) (c : Dev nD) (W : Waits sig Unit) :
    iprop(cellInv ER (Rd m) (K (agS c 3 2)) (agS c 3 2)
      ∗ cellInv ER (Rd m) (K (agS c 2 3)) (agS c 2 3)
      ∗ atPos ER (agS c 3 2) 0 ∅ 0
      ∗ cred (tallyAt (agS c 3 2) () No)
      ∗ atPos ER (agS c 2 3) 0 ∅ 0
      ∗ cred (tallyAt (agS c 2 3) () No)
      ∗ owes (c : Thread nD τ) (0) W)
      ⊢ wp frame (wpE (defs₀ (F := F)) 𝒱₀ c none) Set.univ (tail29 (F := F) c)
          (fun r : Dev nD => iprop(atPos ER (agS c 3 2) 1 ∅ 0
            ∗ ((outSl c 2).view.loc (c : Thread nD τ) ↦[(outSl c 2).view.set]{fullShare.right.right} OUT m)
            ∗ atPos ER (agS c 2 3) 1 ∅ 0
            ∗ ((outSl c 3).view.loc (c : Thread nD τ) ↦[(outSl c 3).view.set]{fullShare.left} OUT m)
            ∗ (∃ W', owes (c : Thread nD τ) (0) W')
            ∗ ⌜r = c⌝)) := by
  iintro ⟨#IaS32, #IaS23, PaS32, Ca32, PaS23, Ca23, HO⟩
  unfold tail29
  sl_exec
  sl_step
  isplitl [PaS32]; · iexact PaS32
  isplitl [PaS32_pay1]; · iexact PaS32_pay1
  isplitl [PaS23]; · iexact PaS23
  isplitl [PaS23_pay1]; · iexact PaS23_pay1
  isplitl [HO]; · (iexists _; iexact HO)
  (ipureintro; rfl)

set_option maxHeartbeats 1000000 in
theorem tailBody_run (K : GSem nD τ sig → ℕ) (c : Dev nD) (W : Waits sig Unit) :
    iprop(cellInv ER (Rd m) (K (agS c 1 3)) (agS c 1 3)
      ∗ cellInv ER (Rd m) (K (agS c 3 3)) (agS c 3 3)
      ∗ atPos ER (agS c 1 3) 0 ∅ 0
      ∗ cred (tallyAt (agS c 1 3) () No)
      ∗ atPos ER (agS c 3 3) 0 ∅ 0
      ∗ cred (tallyAt (agS c 3 3) () No)
      ∗ owes (c : Thread nD τ) (0) W)
      ⊢ wp frame (wpE (defs₀ (F := F)) 𝒱₀ c none) Set.univ (tailBody (F := F) c)
          (fun r : PUnit => iprop(atPos ER (agS c 1 3) 1 ∅ 0
            ∗ ((outSl c 3).view.loc (c : Thread nD τ) ↦[(outSl c 3).view.set]{fullShare.right.left} OUT m)
            ∗ atPos ER (agS c 3 3) 1 ∅ 0
            ∗ ((outSl c 3).view.loc (c : Thread nD τ) ↦[(outSl c 3).view.set]{fullShare.right.right} OUT m)
            ∗ (∃ W', owes (c : Thread nD τ) (0) W'))) := by
  iintro ⟨#IaS13, #IaS33, PaS13, Ca13, PaS33, Ca33, HO⟩
  unfold tailBody
  sl_exec
  sl_step
  isplitl [PaS13]; · iexact PaS13
  isplitl [PaS13_pay1]; · iexact PaS13_pay1
  isplitl [PaS33]; · iexact PaS33
  isplitl [PaS33_pay1]; · iexact PaS33_pay1
  (iexists _; iexact HO)

end Cert.KernelIdeal.Hand
end
-- ==== Proof.KernelIdealBodyClose.lean ====
/-
  The end of one device's body: every scratch cell closes and every buffer is whole again.

  When the body has made its last wait, each of the device's sixty-four scratch cells stands at a round from which it
  has no duty (the forty-eight used cells past their one round, the sixteen cells of row 0 at the start) with nothing
  taken, so each closes and its counter reads zero. The twelve pieces of the partial product that went out and the
  device's own slab are the whole partial product; the twelve written pieces of the receive buffer and its slab 0 are
  the whole receive buffer; the three thirds of each own finished piece's share make the piece, and the sixteen pieces
  of the result, all at the result, are the whole staging buffer.
-/
import proofs.«900554_g7700000000000555_dist_matmul_gelu_kshard_i_m512_n512_k256_v7x_i4_bf16_1_alg».proof.Proof.KernelIdealTables
import proofs.«900554_g7700000000000555_dist_matmul_gelu_kshard_i_m512_n512_k256_v7x_i4_bf16_1_alg».proof.Proof.KernelIdealBodyDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Closing cells -/

/-- Four cells of the device, each at a round from which it has no duty and with nothing taken, close together:
    their counters read zero. -/
theorem close4 (g0 g1 g2 g3 : GSem nD τ sig) (κ0 κ1 κ2 κ3 R : ℕ)
    (h0 : ∀ r, R ≤ r → (Rd m).duties g0 r = ∅) (h1 : ∀ r, R ≤ r → (Rd m).duties g1 r = ∅)
    (h2 : ∀ r, R ≤ r → (Rd m).duties g2 r = ∅) (h3 : ∀ r, R ≤ r → (Rd m).duties g3 r = ∅) :
    iprop(cellInv ER (Rd m) κ0 g0 ∗ cellInv ER (Rd m) κ1 g1 ∗ cellInv ER (Rd m) κ2 g2 ∗ cellInv ER (Rd m) κ3 g3
        ∗ atPos ER g0 R ∅ 0 ∗ atPos ER g1 R ∅ 0 ∗ atPos ER g2 R ∅ 0 ∗ atPos ER g3 R ∅ 0)
      ⊢ iprop(|={Set.univ}=> ((semVal g0 0 : sProp 𝕄) ∗ semVal g1 0 ∗ semVal g2 0 ∗ semVal g3 0)) := by
  iintro ⟨I0, I1, I2, I3, P0, P1, P2, P3⟩
  imod (Rounds.cell_close ER (Rd m) (Set.mem_univ κ0) (fun h => h) h0) $$ [I0 P0] with Z0
  · isplitl [I0]; · iexact I0
    iexact P0
  imod (Rounds.cell_close ER (Rd m) (Set.mem_univ κ1) (fun h => h) h1) $$ [I1 P1] with Z1
  · isplitl [I1]; · iexact I1
    iexact P1
  imod (Rounds.cell_close ER (Rd m) (Set.mem_univ κ2) (fun h => h) h2) $$ [I2 P2] with Z2
  · isplitl [I2]; · iexact I2
    iexact P2
  imod (Rounds.cell_close ER (Rd m) (Set.mem_univ κ3) (fun h => h) h3) $$ [I3 P3] with Z3
  · isplitl [I3]; · iexact I3
    iexact P3
  imodintro
  iframe

/-- A row of used cells, past its one round. -/
theorem close4_used (g0 g1 g2 g3 : GSem nD τ sig) (κ0 κ1 κ2 κ3 : ℕ) :
    iprop(cellInv ER (Rd m) κ0 g0 ∗ cellInv ER (Rd m) κ1 g1 ∗ cellInv ER (Rd m) κ2 g2 ∗ cellInv ER (Rd m) κ3 g3
        ∗ atPos ER g0 1 ∅ 0 ∗ atPos ER g1 1 ∅ 0 ∗ atPos ER g2 1 ∅ 0 ∗ atPos ER g3 1 ∅ 0)
      ⊢ iprop(|={Set.univ}=> ((semVal g0 0 : sProp 𝕄) ∗ semVal g1 0 ∗ semVal g2 0 ∗ semVal g3 0)) :=
  close4 m g0 g1 g2 g3 κ0 κ1 κ2 κ3 1 (duties_later m g0) (duties_later m g1) (duties_later m g2) (duties_later m g3)

/-! ## The buffers whole again -/

/-- The twelve pieces of the partial product that went out and the device's own slab make the buffer whole. -/
theorem p_join (c : Dev nD) :
    iprop(((rsSrc c 0 0).view.loc (c : Thread nD τ) ↦[(rsSrc c 0 0).view.set]{fullShare} Pblk m c)
      ∗ ((rsSrc c 0 1).view.loc (c : Thread nD τ) ↦[(rsSrc c 0 1).view.set]{fullShare} Pblk m c)
      ∗ ((rsSrc c 0 2).view.loc (c : Thread nD τ) ↦[(rsSrc c 0 2).view.set]{fullShare} Pblk m c)
      ∗ ((rsSrc c 0 3).view.loc (c : Thread nD τ) ↦[(rsSrc c 0 3).view.set]{fullShare} Pblk m c)
      ∗ ((rsSrc c 1 0).view.loc (c : Thread nD τ) ↦[(rsSrc c 1 0).view.set]{fullShare} Pblk m c)
      ∗ ((rsSrc c 1 1).view.loc (c : Thread nD τ) ↦[(rsSrc c 1 1).view.set]{fullShare} Pblk m c)
      ∗ ((rsSrc c 1 2).view.loc (c : Thread nD τ) ↦[(rsSrc c 1 2).view.set]{fullShare} Pblk m c)
      ∗ ((rsSrc c 1 3).view.loc (c : Thread nD τ) ↦[(rsSrc c 1 3).view.set]{fullShare} Pblk m c)
      ∗ ((rsSrc c 2 0).view.loc (c : Thread nD τ) ↦[(rsSrc c 2 0).view.set]{fullShare} Pblk m c)
      ∗ ((rsSrc c 2 1).view.loc (c : Thread nD τ) ↦[(rsSrc c 2 1).view.set]{fullShare} Pblk m c)
      ∗ ((rsSrc c 2 2).view.loc (c : Thread nD τ) ↦[(rsSrc c 2 2).view.set]{fullShare} Pblk m c)
      ∗ ((rsSrc c 2 3).view.loc (c : Thread nD τ) ↦[(rsSrc c 2 3).view.set]{fullShare} Pblk m c)
      ∗ pRest c (Pblk m c))
    ⊢ iprop(∃ f, (((c : Thread nD τ).loc cc0_scratch0) ↦{fullShare} f : sProp 𝕄)) := by
  have h := join_p (F := F) c (Pblk m c) (fun _ _ => Pblk m c)
  unfold pts at h
  exact h

/-- The twelve written pieces of the receive buffer and its slab 0 make the buffer whole. -/
theorem rs_join (c : Dev nD) (r0 : Vec F S4x128x512 .bf16) :
    iprop(((rsDst 1 0).view.loc (c : Thread nD τ) ↦[(rsDst 1 0).view.set]{fullShare} RSfun m c)
      ∗ ((rsDst 1 1).view.loc (c : Thread nD τ) ↦[(rsDst 1 1).view.set]{fullShare} RSfun m c)
      ∗ ((rsDst 1 2).view.loc (c : Thread nD τ) ↦[(rsDst 1 2).view.set]{fullShare} RSfun m c)
      ∗ ((rsDst 1 3).view.loc (c : Thread nD τ) ↦[(rsDst 1 3).view.set]{fullShare} RSfun m c)
      ∗ ((rsDst 2 0).view.loc (c : Thread nD τ) ↦[(rsDst 2 0).view.set]{fullShare} RSfun m c)
      ∗ ((rsDst 2 1).view.loc (c : Thread nD τ) ↦[(rsDst 2 1).view.set]{fullShare} RSfun m c)
      ∗ ((rsDst 2 2).view.loc (c : Thread nD τ) ↦[(rsDst 2 2).view.set]{fullShare} RSfun m c)
      ∗ ((rsDst 2 3).view.loc (c : Thread nD τ) ↦[(rsDst 2 3).view.set]{fullShare} RSfun m c)
      ∗ ((rsDst 3 0).view.loc (c : Thread nD τ) ↦[(rsDst 3 0).view.set]{fullShare} RSfun m c)
      ∗ ((rsDst 3 1).view.loc (c : Thread nD τ) ↦[(rsDst 3 1).view.set]{fullShare} RSfun m c)
      ∗ ((rsDst 3 2).view.loc (c : Thread nD τ) ↦[(rsDst 3 2).view.set]{fullShare} RSfun m c)
      ∗ ((rsDst 3 3).view.loc (c : Thread nD τ) ↦[(rsDst 3 3).view.set]{fullShare} RSfun m c)
      ∗ rsRest c r0)
    ⊢ iprop(∃ f, (((c : Thread nD τ).loc cc0_scratch1) ↦{fullShare} f : sProp 𝕄)) := by
  have h := join_rs (F := F) c r0 (fun _ _ => RSfun m c)
  unfold pts at h
  exact h

/-- The three thirds of a finished piece's share make the full share. -/
theorem out_thirds (c : Dev nD) (ch : Fin 4) :
    iprop(((outSl c ch).view.loc (c : Thread nD τ) ↦[(outSl c ch).view.set]{fullShare.left} OUT m)
      ∗ ((outSl c ch).view.loc (c : Thread nD τ) ↦[(outSl c ch).view.set]{fullShare.right.left} OUT m)
      ∗ ((outSl c ch).view.loc (c : Thread nD τ) ↦[(outSl c ch).view.set]{fullShare.right.right} OUT m))
    ⊢ (((outSl c ch).view.loc (c : Thread nD τ) ↦[(outSl c ch).view.set]{fullShare} OUT m) : sProp 𝕄) :=
  (sep_mono_right (pointsTo_share (PosShare.mem_left_op_right fullShare.right)).2).trans
    (pointsTo_share (PosShare.mem_left_op_right fullShare)).2

/-- The sixteen pieces of the result, all at the result, make its staging buffer whole. -/
theorem out_join (c : Dev nD) :
    iprop(((outSl c 0).view.loc (c : Thread nD τ) ↦[(outSl c 0).view.set]{fullShare} OUT m)
      ∗ ((outSl c 1).view.loc (c : Thread nD τ) ↦[(outSl c 1).view.set]{fullShare} OUT m)
      ∗ ((outSl c 2).view.loc (c : Thread nD τ) ↦[(outSl c 2).view.set]{fullShare} OUT m)
      ∗ ((outSl c 3).view.loc (c : Thread nD τ) ↦[(outSl c 3).view.set]{fullShare} OUT m)
      ∗ ((outSl (pl c 1) 0).view.loc (c : Thread nD τ) ↦[(outSl (pl c 1) 0).view.set]{fullShare} OUT m)
      ∗ ((outSl (pl c 1) 1).view.loc (c : Thread nD τ) ↦[(outSl (pl c 1) 1).view.set]{fullShare} OUT m)
      ∗ ((outSl (pl c 1) 2).view.loc (c : Thread nD τ) ↦[(outSl (pl c 1) 2).view.set]{fullShare} OUT m)
      ∗ ((outSl (pl c 1) 3).view.loc (c : Thread nD τ) ↦[(outSl (pl c 1) 3).view.set]{fullShare} OUT m)
      ∗ ((outSl (pl c 2) 0).view.loc (c : Thread nD τ) ↦[(outSl (pl c 2) 0).view.set]{fullShare} OUT m)
      ∗ ((outSl (pl c 2) 1).view.loc (c : Thread nD τ) ↦[(outSl (pl c 2) 1).view.set]{fullShare} OUT m)
      ∗ ((outSl (pl c 2) 2).view.loc (c : Thread nD τ) ↦[(outSl (pl c 2) 2).view.set]{fullShare} OUT m)
      ∗ ((outSl (pl c 2) 3).view.loc (c : Thread nD τ) ↦[(outSl (pl c 2) 3).view.set]{fullShare} OUT m)
      ∗ ((outSl (pl c 3) 0).view.loc (c : Thread nD τ) ↦[(outSl (pl c 3) 0).view.set]{fullShare} OUT m)
      ∗ ((outSl (pl c 3) 1).view.loc (c : Thread nD τ) ↦[(outSl (pl c 3) 1).view.set]{fullShare} OUT m)
      ∗ ((outSl (pl c 3) 2).view.loc (c : Thread nD τ) ↦[(outSl (pl c 3) 2).view.set]{fullShare} OUT m)
      ∗ ((outSl (pl c 3) 3).view.loc (c : Thread nD τ) ↦[(outSl (pl c 3) 3).view.set]{fullShare} OUT m))
    ⊢ ((((c : Thread nD τ).loc cc0_stg2_0) ↦{fullShare} OUT m) : sProp 𝕄) := by
  have h := (split_out (F := F) c (OUT m)).2
  unfold pts at h
  exact h

/-! ## The sixty-four scratch semaphores, one by one -/

/-- The device's scratch cells in the order of their numbers: array by array, row by row. -/
theorem sems_chain (c : Dev nD) :
    (bigSep Finset.univ fun j : Fin 64 => (semVal (kcell (c, j.succ)) 0 : sProp 𝕄))
      = iprop(semVal (rsS c 0 0) 0 ∗ semVal (rsS c 0 1) 0 ∗ semVal (rsS c 0 2) 0 ∗ semVal (rsS c 0 3) 0
        ∗ semVal (rsS c 1 0) 0 ∗ semVal (rsS c 1 1) 0 ∗ semVal (rsS c 1 2) 0 ∗ semVal (rsS c 1 3) 0
        ∗ semVal (rsS c 2 0) 0 ∗ semVal (rsS c 2 1) 0 ∗ semVal (rsS c 2 2) 0 ∗ semVal (rsS c 2 3) 0
        ∗ semVal (rsS c 3 0) 0 ∗ semVal (rsS c 3 1) 0 ∗ semVal (rsS c 3 2) 0 ∗ semVal (rsS c 3 3) 0
        ∗ semVal (rsR c 0 0) 0 ∗ semVal (rsR c 0 1) 0 ∗ semVal (rsR c 0 2) 0 ∗ semVal (rsR c 0 3) 0
        ∗ semVal (rsR c 1 0) 0 ∗ semVal (rsR c 1 1) 0 ∗ semVal (rsR c 1 2) 0 ∗ semVal (rsR c 1 3) 0
        ∗ semVal (rsR c 2 0) 0 ∗ semVal (rsR c 2 1) 0 ∗ semVal (rsR c 2 2) 0 ∗ semVal (rsR c 2 3) 0
        ∗ semVal (rsR c 3 0) 0 ∗ semVal (rsR c 3 1) 0 ∗ semVal (rsR c 3 2) 0 ∗ semVal (rsR c 3 3) 0
        ∗ semVal (agS c 0 0) 0 ∗ semVal (agS c 0 1) 0 ∗ semVal (agS c 0 2) 0 ∗ semVal (agS c 0 3) 0
        ∗ semVal (agS c 1 0) 0 ∗ semVal (agS c 1 1) 0 ∗ semVal (agS c 1 2) 0 ∗ semVal (agS c 1 3) 0
        ∗ semVal (agS c 2 0) 0 ∗ semVal (agS c 2 1) 0 ∗ semVal (agS c 2 2) 0 ∗ semVal (agS c 2 3) 0
        ∗ semVal (agS c 3 0) 0 ∗ semVal (agS c 3 1) 0 ∗ semVal (agS c 3 2) 0 ∗ semVal (agS c 3 3) 0
        ∗ semVal (agR c 0 0) 0 ∗ semVal (agR c 0 1) 0 ∗ semVal (agR c 0 2) 0 ∗ semVal (agR c 0 3) 0
        ∗ semVal (agR c 1 0) 0 ∗ semVal (agR c 1 1) 0 ∗ semVal (agR c 1 2) 0 ∗ semVal (agR c 1 3) 0
        ∗ semVal (agR c 2 0) 0 ∗ semVal (agR c 2 1) 0 ∗ semVal (agR c 2 2) 0 ∗ semVal (agR c 2 3) 0
        ∗ semVal (agR c 3 0) 0 ∗ semVal (agR c 3 1) 0 ∗ semVal (agR c 3 2) 0 ∗ semVal (agR c 3 3) 0) :=
  bigSep_univ_eq_bigSepL
    [0, 1, 2, 3, 4, 5, 6, 7, 8, 9, 10, 11, 12, 13, 14, 15, 16, 17, 18, 19, 20, 21, 22, 23, 24, 25, 26, 27, 28, 29, 30, 31,
     32, 33, 34, 35, 36, 37, 38, 39, 40, 41, 42, 43, 44, 45, 46, 47, 48, 49, 50, 51, 52, 53, 54, 55, 56, 57, 58, 59, 60, 61, 62, 63]
    (by decide) (by decide) _

/-! ## The end of the body -/

/-- From what the device holds after its last wait: the sixty-four scratch cells close, the two scratch buffers and
    the result's staging buffer are whole, the input blocks and the empty debt pass through. -/
theorem body_close (K : GSem nD τ sig → ℕ) (c : Dev nD) (r0 : Vec F S4x128x512 .bf16) :
    bodyEnd m K c r0 ⊢ iprop(|={Set.univ}=> closedEnd m c) := by
  unfold bodyEnd closedEnd Φ₁
  rw [sems_chain]
  iintro ⟨-, -, -, -,
    Is00, Is01, Is02, Is03, Ir00, Ir01, Ir02, Ir03, Ia00, Ia01, Ia02, Ia03, Ig00, Ig01, Ig02, Ig03,
    Is10, Is11, Is12, Is13, Is20, Is21, Is22, Is23, Is30, Is31, Is32, Is33,
    Ir10, Ir11, Ir12, Ir13, Ir20, Ir21, Ir22, Ir23, Ir30, Ir31, Ir32, Ir33,
    Ia10, Ia11, Ia12, Ia13, Ia20, Ia21, Ia22, Ia23, Ia30, Ia31, Ia32, Ia33,
    Ig10, Ig11, Ig12, Ig13, Ig20, Ig21, Ig22, Ig23, Ig30, Ig31, Ig32, Ig33,
    -, -, -, -, -, -, -, -, -, -, -, -, -, -, -, -, -, -, -, -, -, -, -, -,
    -, -, -,
    -, -, -, -, -, -, -, -, -, -, -, -,
    -, -, -, -, -, -, -, -, -, -, -, -,
    -, -, -, -, -, -, -, -, -, -, -, -,
    -, -, -, -, -, -, -, -, -, -, -, -,
    -, -,
    Ps00, Ps01, Ps02, Ps03, Ps10, Ps11, Ps12, Ps13, Ps20, Ps21, Ps22, Ps23, Ps30, Ps31, Ps32, Ps33,
    Pr00, Pr01, Pr02, Pr03, Pr10, Pr11, Pr12, Pr13, Pr20, Pr21, Pr22, Pr23, Pr30, Pr31, Pr32, Pr33,
    Pa00, Pa01, Pa02, Pa03, Pa10, Pa11, Pa12, Pa13, Pa20, Pa21, Pa22, Pa23, Pa30, Pa31, Pa32, Pa33,
    Pg00, Pg01, Pg02, Pg03, Pg10, Pg11, Pg12, Pg13, Pg20, Pg21, Pg22, Pg23, Pg30, Pg31, Pg32, Pg33,
    HA, HB,
    Hp00, Hp01, Hp02, Hp03, Hp10, Hp11, Hp12, Hp13, Hp20, Hp21, Hp22, Hp23, HpR,
    Hr10, Hr11, Hr12, Hr13, Hr20, Hr21, Hr22, Hr23, Hr30, Hr31, Hr32, Hr33, HrR,
    T0a, T0b, T0c, T1a, T1b, T1c, T2a, T2b, T2c, T3a, T3b, T3c,
    Ho10, Ho11, Ho12, Ho13, Ho20, Ho21, Ho22, Ho23, Ho30, Ho31, Ho32, Ho33,
    HO⟩
  -- the partial-product send cells
  imod (close4 m (rsS c 0 0) (rsS c 0 1) (rsS c 0 2) (rsS c 0 3) (K (rsS c 0 0)) (K (rsS c 0 1)) (K (rsS c 0 2)) (K (rsS c 0 3)) 0
      (fun r _ => duties_rsS_row0 m c 0 r) (fun r _ => duties_rsS_row0 m c 1 r) (fun r _ => duties_rsS_row0 m c 2 r) (fun r _ => duties_rsS_row0 m c 3 r))
    $$ [Is00 Is01 Is02 Is03 Ps00 Ps01 Ps02 Ps03] with ⟨Zs00, Zs01, Zs02, Zs03⟩
  · iframe
  imod (close4_used m (rsS c 1 0) (rsS c 1 1) (rsS c 1 2) (rsS c 1 3) (K (rsS c 1 0)) (K (rsS c 1 1)) (K (rsS c 1 2)) (K (rsS c 1 3)))
    $$ [Is10 Is11 Is12 Is13 Ps10 Ps11 Ps12 Ps13] with ⟨Zs10, Zs11, Zs12, Zs13⟩
  · iframe
  imod (close4_used m (rsS c 2 0) (rsS c 2 1) (rsS c 2 2) (rsS c 2 3) (K (rsS c 2 0)) (K (rsS c 2 1)) (K (rsS c 2 2)) (K (rsS c 2 3)))
    $$ [Is20 Is21 Is22 Is23 Ps20 Ps21 Ps22 Ps23] with ⟨Zs20, Zs21, Zs22, Zs23⟩
  · iframe
  imod (close4_used m (rsS c 3 0) (rsS c 3 1) (rsS c 3 2) (rsS c 3 3) (K (rsS c 3 0)) (K (rsS c 3 1)) (K (rsS c 3 2)) (K (rsS c 3 3)))
    $$ [Is30 Is31 Is32 Is33 Ps30 Ps31 Ps32 Ps33] with ⟨Zs30, Zs31, Zs32, Zs33⟩
  · iframe
  -- the partial-product receive cells
  imod (close4 m (rsR c 0 0) (rsR c 0 1) (rsR c 0 2) (rsR c 0 3) (K (rsR c 0 0)) (K (rsR c 0 1)) (K (rsR c 0 2)) (K (rsR c 0 3)) 0
      (fun r _ => duties_rsR_row0 m c 0 r) (fun r _ => duties_rsR_row0 m c 1 r) (fun r _ => duties_rsR_row0 m c 2 r) (fun r _ => duties_rsR_row0 m c 3 r))
    $$ [Ir00 Ir01 Ir02 Ir03 Pr00 Pr01 Pr02 Pr03] with ⟨Zr00, Zr01, Zr02, Zr03⟩
  · iframe
  imod (close4_used m (rsR c 1 0) (rsR c 1 1) (rsR c 1 2) (rsR c 1 3) (K (rsR c 1 0)) (K (rsR c 1 1)) (K (rsR c 1 2)) (K (rsR c 1 3)))
    $$ [Ir10 Ir11 Ir12 Ir13 Pr10 Pr11 Pr12 Pr13] with ⟨Zr10, Zr11, Zr12, Zr13⟩
  · iframe
  imod (close4_used m (rsR c 2 0) (rsR c 2 1) (rsR c 2 2) (rsR c 2 3) (K (rsR c 2 0)) (K (rsR c 2 1)) (K (rsR c 2 2)) (K (rsR c 2 3)))
    $$ [Ir20 Ir21 Ir22 Ir23 Pr20 Pr21 Pr22 Pr23] with ⟨Zr20, Zr21, Zr22, Zr23⟩
  · iframe
  imod (close4_used m (rsR c 3 0) (rsR c 3 1) (rsR c 3 2) (rsR c 3 3) (K (rsR c 3 0)) (K (rsR c 3 1)) (K (rsR c 3 2)) (K (rsR c 3 3)))
    $$ [Ir30 Ir31 Ir32 Ir33 Pr30 Pr31 Pr32 Pr33] with ⟨Zr30, Zr31, Zr32, Zr33⟩
  · iframe
  -- the finished-piece send cells
  imod (close4 m (agS c 0 0) (agS c 0 1) (agS c 0 2) (agS c 0 3) (K (agS c 0 0)) (K (agS c 0 1)) (K (agS c 0 2)) (K (agS c 0 3)) 0
      (fun r _ => duties_agS_row0 m c 0 r) (fun r _ => duties_agS_row0 m c 1 r) (fun r _ => duties_agS_row0 m c 2 r) (fun r _ => duties_agS_row0 m c 3 r))
    $$ [Ia00 Ia01 Ia02 Ia03 Pa00 Pa01 Pa02 Pa03] with ⟨Za00, Za01, Za02, Za03⟩
  · iframe
  imod (close4_used m (agS c 1 0) (agS c 1 1) (agS c 1 2) (agS c 1 3) (K (agS c 1 0)) (K (agS c 1 1)) (K (agS c 1 2)) (K (agS c 1 3)))
    $$ [Ia10 Ia11 Ia12 Ia13 Pa10 Pa11 Pa12 Pa13] with ⟨Za10, Za11, Za12, Za13⟩
  · iframe
  imod (close4_used m (agS c 2 0) (agS c 2 1) (agS c 2 2) (agS c 2 3) (K (agS c 2 0)) (K (agS c 2 1)) (K (agS c 2 2)) (K (agS c 2 3)))
    $$ [Ia20 Ia21 Ia22 Ia23 Pa20 Pa21 Pa22 Pa23] with ⟨Za20, Za21, Za22, Za23⟩
  · iframe
  imod (close4_used m (agS c 3 0) (agS c 3 1) (agS c 3 2) (agS c 3 3) (K (agS c 3 0)) (K (agS c 3 1)) (K (agS c 3 2)) (K (agS c 3 3)))
    $$ [Ia30 Ia31 Ia32 Ia33 Pa30 Pa31 Pa32 Pa33] with ⟨Za30, Za31, Za32, Za33⟩
  · iframe
  -- the finished-piece receive cells
  imod (close4 m (agR c 0 0) (agR c 0 1) (agR c 0 2) (agR c 0 3) (K (agR c 0 0)) (K (agR c 0 1)) (K (agR c 0 2)) (K (agR c 0 3)) 0
      (fun r _ => duties_agR_row0 m c 0 r) (fun r _ => duties_agR_row0 m c 1 r) (fun r _ => duties_agR_row0 m c 2 r) (fun r _ => duties_agR_row0 m c 3 r))
    $$ [Ig00 Ig01 Ig02 Ig03 Pg00 Pg01 Pg02 Pg03] with ⟨Zg00, Zg01, Zg02, Zg03⟩
  · iframe
  imod (close4_used m (agR c 1 0) (agR c 1 1) (agR c 1 2) (agR c 1 3) (K (agR c 1 0)) (K (agR c 1 1)) (K (agR c 1 2)) (K (agR c 1 3)))
    $$ [Ig10 Ig11 Ig12 Ig13 Pg10 Pg11 Pg12 Pg13] with ⟨Zg10, Zg11, Zg12, Zg13⟩
  · iframe
  imod (close4_used m (agR c 2 0) (agR c 2 1) (agR c 2 2) (agR c 2 3) (K (agR c 2 0)) (K (agR c 2 1)) (K (agR c 2 2)) (K (agR c 2 3)))
    $$ [Ig20 Ig21 Ig22 Ig23 Pg20 Pg21 Pg22 Pg23] with ⟨Zg20, Zg21, Zg22, Zg23⟩
  · iframe
  imod (close4_used m (agR c 3 0) (agR c 3 1) (agR c 3 2) (agR c 3 3) (K (agR c 3 0)) (K (agR c 3 1)) (K (agR c 3 2)) (K (agR c 3 3)))
    $$ [Ig30 Ig31 Ig32 Ig33 Pg30 Pg31 Pg32 Pg33] with ⟨Zg30, Zg31, Zg32, Zg33⟩
  · iframe
  imodintro
  -- the two scratch buffers
  ihave Hp := (p_join m c) $$ [Hp00 Hp01 Hp02 Hp03 Hp10 Hp11 Hp12 Hp13 Hp20 Hp21 Hp22 Hp23 HpR]
  · iframe
  ihave Hr := (rs_join m c r0) $$ [Hr10 Hr11 Hr12 Hr13 Hr20 Hr21 Hr22 Hr23 Hr30 Hr31 Hr32 Hr33 HrR]
  · iframe
  -- the result
  ihave Ho00 := (out_thirds m c 0) $$ [T0a T0b T0c]
  · iframe
  ihave Ho01 := (out_thirds m c 1) $$ [T1a T1b T1c]
  · iframe
  ihave Ho02 := (out_thirds m c 2) $$ [T2a T2b T2c]
  · iframe
  ihave Ho03 := (out_thirds m c 3) $$ [T3a T3b T3c]
  · iframe
  ihave Hout := (out_join m c) $$ [Ho00 Ho01 Ho02 Ho03 Ho10 Ho11 Ho12 Ho13 Ho20 Ho21 Ho22 Ho23 Ho30 Ho31 Ho32 Ho33]
  · iframe
  iframe

/-- info: 'Cert.KernelIdeal.Hand.body_close' depends on axioms: [propext, Classical.choice, Quot.sound] -/
#guard_msgs in #print axioms body_close

end Cert.KernelIdeal.Hand

end
-- ==== Proof.KernelIdealBodyRun.lean ====
/-
  One device's whole kernel body: the printed parts run one after the other, each from the pieces, tokens and positions it
  needs and handing on what it leaves; after the last wait every cell is closed and the pieces are joined.
-/
import proofs.«900554_g7700000000000555_dist_matmul_gelu_kshard_i_m512_n512_k256_v7x_i4_bf16_1_alg».proof.Proof.KernelIdealPartsA
import proofs.«900554_g7700000000000555_dist_matmul_gelu_kshard_i_m512_n512_k256_v7x_i4_bf16_1_alg».proof.Proof.KernelIdealPartsB
import proofs.«900554_g7700000000000555_dist_matmul_gelu_kshard_i_m512_n512_k256_v7x_i4_bf16_1_alg».proof.Proof.KernelIdealPartsC
import proofs.«900554_g7700000000000555_dist_matmul_gelu_kshard_i_m512_n512_k256_v7x_i4_bf16_1_alg».proof.Proof.KernelIdealPartsD
import proofs.«900554_g7700000000000555_dist_matmul_gelu_kshard_i_m512_n512_k256_v7x_i4_bf16_1_alg».proof.Proof.KernelIdealPartsE
import proofs.«900554_g7700000000000555_dist_matmul_gelu_kshard_i_m512_n512_k256_v7x_i4_bf16_1_alg».proof.Proof.KernelIdealBodyClose

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

set_option maxHeartbeats 4000000 in
/-- One device's whole body, part after part, from the spelt-out starting state to the closed final state. -/
theorem sound_run (K : GSem nD τ sig → ℕ) (c : Dev nD) (p0 r0 : Vec F S4x128x512 .bf16) (o0 : Vec F S512x512 .bf16) (W : Waits sig Unit) (Kt : PUnit → sProp 𝕄) :
    iprop(bodyPre m K c p0 r0 o0 W ∗ (closedEnd m c -∗ Kt ⟨⟩)) ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5) Kt := by
  unfold bodyPre
  iintro ⟨⟨#Ib0, #Ib1, #Ib2, #Ib3, #IzS0, #IzS1, #IzS2, #IzS3, #IzR0, #IzR1, #IzR2, #IzR3, #IzA0, #IzA1, #IzA2, #IzA3, #IzB0, #IzB1, #IzB2, #IzB3, #IsS10, #IsS11, #IsS12, #IsS13, #IsS20, #IsS21, #IsS22, #IsS23, #IsS30, #IsS31, #IsS32, #IsS33, #IsR10, #IsR11, #IsR12, #IsR13, #IsR20, #IsR21, #IsR22, #IsR23, #IsR30, #IsR31, #IsR32, #IsR33, #IaS10, #IaS11, #IaS12, #IaS13, #IaS20, #IaS21, #IaS22, #IaS23, #IaS30, #IaS31, #IaS32, #IaS33, #IaR10, #IaR11, #IaR12, #IaR13, #IaR20, #IaR21, #IaR22, #IaR23, #IaR30, #IaR31, #IaR32, #IaR33, #IpR10, #IpR11, #IpR12, #IpR13, #IpR20, #IpR21, #IpR22, #IpR23, #IpR30, #IpR31, #IpR32, #IpR33, #IpA10, #IpA11, #IpA12, #IpA13, #IpA20, #IpA21, #IpA22, #IpA23, #IpA30, #IpA31, #IpA32, #IpA33, #Rb1, #Rb2, #Rb3, #RsS10, #RsS11, #RsS12, #RsS13, #RsS20, #RsS21, #RsS22, #RsS23, #RsS30, #RsS31, #RsS32, #RsS33, #RaS10, #RaS11, #RaS12, #RaS13, #RaS20, #RaS21, #RaS22, #RaS23, #RaS30, #RaS31, #RaS32, #RaS33, #RpR10, #RpR11, #RpR12, #RpR13, #RpR20, #RpR21, #RpR22, #RpR23, #RpR30, #RpR31, #RpR32, #RpR33, #RpA10, #RpA11, #RpA12, #RpA13, #RpA20, #RpA21, #RpA22, #RpA23, #RpA30, #RpA31, #RpA32, #RpA33, #Hlev, Ha, Hb, Hp, Hr10, Hr11, Hr12, Hr13, Hr20, Hr21, Hr22, Hr23, Hr30, Hr31, Hr32, Hr33, Hog10, Hog11, Hog12, Hog13, Hog20, Hog21, Hog22, Hog23, Hog30, Hog31, Hog32, Hog33, Hrr, Ho00, Ho01, Ho02, Ho03, HO, Hq⟩, Hk⟩
  -- the body is its last printed part (parts 1 to 28 in order, then two waits) and two more waits
  rw [cc0_body_eq_skeleton]; unfold cc0_body_skel
  rw [wp_bind]
  rw [k0_part29_eq_skeleton]; unfold k0_part29_skel
  ihave Hr10 := (Entails.of_eq (pts_def _ _ _)) $$ Hr10
  ihave Hog10 := (Entails.of_eq (pts_def _ _ _)) $$ Hog10
  ihave Hr11 := (Entails.of_eq (pts_def _ _ _)) $$ Hr11
  ihave Hog11 := (Entails.of_eq (pts_def _ _ _)) $$ Hog11
  ihave Hr12 := (Entails.of_eq (pts_def _ _ _)) $$ Hr12
  ihave Hog12 := (Entails.of_eq (pts_def _ _ _)) $$ Hog12
  ihave Hr13 := (Entails.of_eq (pts_def _ _ _)) $$ Hr13
  ihave Hog13 := (Entails.of_eq (pts_def _ _ _)) $$ Hog13
  ihave Hr20 := (Entails.of_eq (pts_def _ _ _)) $$ Hr20
  ihave Hog20 := (Entails.of_eq (pts_def _ _ _)) $$ Hog20
  ihave Hr21 := (Entails.of_eq (pts_def _ _ _)) $$ Hr21
  ihave Hog21 := (Entails.of_eq (pts_def _ _ _)) $$ Hog21
  ihave Hr22 := (Entails.of_eq (pts_def _ _ _)) $$ Hr22
  ihave Hog22 := (Entails.of_eq (pts_def _ _ _)) $$ Hog22
  ihave Hr23 := (Entails.of_eq (pts_def _ _ _)) $$ Hr23
  ihave Hog23 := (Entails.of_eq (pts_def _ _ _)) $$ Hog23
  ihave Hr30 := (Entails.of_eq (pts_def _ _ _)) $$ Hr30
  ihave Hog30 := (Entails.of_eq (pts_def _ _ _)) $$ Hog30
  ihave Hr31 := (Entails.of_eq (pts_def _ _ _)) $$ Hr31
  ihave Hog31 := (Entails.of_eq (pts_def _ _ _)) $$ Hog31
  ihave Hr32 := (Entails.of_eq (pts_def _ _ _)) $$ Hr32
  ihave Hog32 := (Entails.of_eq (pts_def _ _ _)) $$ Hog32
  ihave Hr33 := (Entails.of_eq (pts_def _ _ _)) $$ Hr33
  ihave Hog33 := (Entails.of_eq (pts_def _ _ _)) $$ Hog33
  -- part 1
  icases Hq with ⟨Tb1, Hq⟩
  icases Hq with ⟨Tb2, Hq⟩
  icases Hq with ⟨Tb3, Hq⟩
  rw [wp_bind]
  iapply (wp_wand_r frame (wpE (defs₀ (F := F)) 𝒱₀ (c : Thread nD τ) none) Set.univ)
  isplitl [Tb1 Hr10 Hr11 Hr12 Hr13 Hog10 Hog11 Hog12 Hog13 Tb2 Hr20 Hr21 Hr22 Hr23 Hog20 Hog21 Hog22 Hog23 Tb3 Hr30 Hr31 Hr32 Hr33 Hog30 Hog31 Hog32 Hog33 Ha Hb Hp HO]
  · iapply (part1_run m K c r0 o0 p0 W  )
    isplitr; · (iapply (Entails.of_eq (cinv_def m K _)); iexact Ib1)
    isplitr; · iexact Rb1
    isplitr; · (iapply (Entails.of_eq (cinv_def m K _)); iexact Ib2)
    isplitr; · iexact Rb2
    isplitr; · (iapply (Entails.of_eq (cinv_def m K _)); iexact Ib3)
    isplitr; · iexact Rb3
    isplitl [Tb1]; · iexact Tb1
    isplitl [Hr10]; · iexact Hr10
    isplitl [Hr11]; · iexact Hr11
    isplitl [Hr12]; · iexact Hr12
    isplitl [Hr13]; · iexact Hr13
    isplitl [Hog10]; · iexact Hog10
    isplitl [Hog11]; · iexact Hog11
    isplitl [Hog12]; · iexact Hog12
    isplitl [Hog13]; · iexact Hog13
    isplitl [Tb2]; · iexact Tb2
    isplitl [Hr20]; · iexact Hr20
    isplitl [Hr21]; · iexact Hr21
    isplitl [Hr22]; · iexact Hr22
    isplitl [Hr23]; · iexact Hr23
    isplitl [Hog20]; · iexact Hog20
    isplitl [Hog21]; · iexact Hog21
    isplitl [Hog22]; · iexact Hog22
    isplitl [Hog23]; · iexact Hog23
    isplitl [Tb3]; · iexact Tb3
    isplitl [Hr30]; · iexact Hr30
    isplitl [Hr31]; · iexact Hr31
    isplitl [Hr32]; · iexact Hr32
    isplitl [Hr33]; · iexact Hr33
    isplitl [Hog30]; · iexact Hog30
    isplitl [Hog31]; · iexact Hog31
    isplitl [Hog32]; · iexact Hog32
    isplitl [Hog33]; · iexact Hog33
    isplitl [Ha]; · iexact Ha
    isplitl [Hb]; · iexact Hb
    isplitl [Hp]; · iexact Hp
    iexact HO
  iintro %r1 Hpost
  icases Hpost with ⟨Ha, Hb, Hp, ⟨%W1, HO⟩, %h1_0, %h1_1⟩
  obtain ⟨d0, v2, v3⟩ := r1
  dsimp only at h1_0 h1_1 ⊢
  have h1_0' := h1_0.symm
  subst h1_0'; subst h1_1
  -- the stored partial product is cut into the twelve source pieces and the rest
  ihave Hp := (Entails.of_eq (pM_whole c (Pblk m c))) $$ Hp
  ihave Hp := (split_p (F := F) c (Pblk m c)).1 $$ Hp
  icases Hp with ⟨Hs10, Hs11, Hs12, Hs13, Hs20, Hs21, Hs22, Hs23, Hs30, Hs31, Hs32, Hs33, Hpr⟩
  -- part 2
  icases Hq with ⟨Pb, Hq⟩
  icases Hq with ⟨Cb, Hq⟩
  icases Hq with ⟨TsS20, Hq⟩
  icases Hq with ⟨TpR20, Hq⟩
  ihave Hs20 := (Entails.of_eq (pts_def _ _ _)) $$ Hs20
  icases Hq with ⟨TsS10, Hq⟩
  icases Hq with ⟨TpR10, Hq⟩
  ihave Hs10 := (Entails.of_eq (pts_def _ _ _)) $$ Hs10
  rw [wp_bind]
  iapply (wp_wand_r frame (wpE (defs₀ (F := F)) 𝒱₀ (c : Thread nD τ) none) Set.univ)
  isplitl [Pb Cb TsS20 TpR20 Hs20 TsS10 TpR10 Hs10 HO]
  · iapply (part2_run m K c  W1 _ )
    isplitr; · (iapply (Entails.of_eq (cinv_def m K _)); iexact Ib0)
    isplitr; · iexact Hlev
    isplitr; · (iapply (Entails.of_eq (cinv_def m K _)); iexact IsS20)
    isplitr; · (iapply (Entails.of_eq (cinv_def m K _)); iexact IpR20)
    isplitr; · iexact RsS20
    isplitr; · iexact RpR20
    isplitr; · (iapply (Entails.of_eq (cinv_def m K _)); iexact IsS10)
    isplitr; · (iapply (Entails.of_eq (cinv_def m K _)); iexact IpR10)
    isplitr; · iexact RsS10
    isplitr; · iexact RpR10
    isplitl [Pb]; · iexact Pb
    isplitl [Cb]; · iexact Cb
    isplitl [TsS20]; · iexact TsS20
    isplitl [TpR20]; · iexact TpR20
    isplitl [Hs20]; · iexact Hs20
    isplitl [TsS10]; · iexact TsS10
    isplitl [TpR10]; · iexact TpR10
    isplitl [Hs10]; · iexact Hs10
    iexact HO
  iintro %r2 Hpost
  icases Hpost with ⟨Pb, E3, E2, E1, Cs20, Cs10, ⟨%W2, HO⟩⟩
  try dsimp only
  -- part 3
  icases Hq with ⟨TsS30, Hq⟩
  icases Hq with ⟨TpR30, Hq⟩
  ihave Hs30 := (Entails.of_eq (pts_def _ _ _)) $$ Hs30
  icases E3 with ⟨Ed3r0, E3⟩
  icases Hq with ⟨TsS21, Hq⟩
  icases Hq with ⟨TpR21, Hq⟩
  ihave Hs21 := (Entails.of_eq (pts_def _ _ _)) $$ Hs21
  icases E2 with ⟨Ed2r1, E2⟩
  rw [wp_bind]
  iapply (wp_wand_r frame (wpE (defs₀ (F := F)) 𝒱₀ (c : Thread nD τ) none) Set.univ)
  isplitl [TsS30 TpR30 Hs30 Ed3r0 TsS21 TpR21 Hs21 Ed2r1 HO]
  · iapply (part3_run m K c  W2 _ _ )
    isplitr; · (iapply (Entails.of_eq (cinv_def m K _)); iexact IsS30)
    isplitr; · (iapply (Entails.of_eq (cinv_def m K _)); iexact IpR30)
    isplitr; · iexact RsS30
    isplitr; · iexact RpR30
    isplitr; · (iapply (Entails.of_eq (cinv_def m K _)); iexact IsS21)
    isplitr; · (iapply (Entails.of_eq (cinv_def m K _)); iexact IpR21)
    isplitr; · iexact RsS21
    isplitr; · iexact RpR21
    isplitl [TsS30]; · iexact TsS30
    isplitl [TpR30]; · iexact TpR30
    isplitl [Hs30]; · iexact Hs30
    isplitl [Ed3r0]; · iexact Ed3r0
    isplitl [TsS21]; · iexact TsS21
    isplitl [TpR21]; · iexact TpR21
    isplitl [Hs21]; · iexact Hs21
    isplitl [Ed2r1]; · iexact Ed2r1
    iexact HO
  iintro %r3 Hpost
  icases Hpost with ⟨Cs30, Cs21, ⟨%W3, HO⟩⟩
  try dsimp only
  -- part 4
  icases Hq with ⟨TsS11, Hq⟩
  icases Hq with ⟨TpR11, Hq⟩
  ihave Hs11 := (Entails.of_eq (pts_def _ _ _)) $$ Hs11
  icases E1 with ⟨Ed1r1, E1⟩
  icases Hq with ⟨TsS31, Hq⟩
  icases Hq with ⟨TpR31, Hq⟩
  ihave Hs31 := (Entails.of_eq (pts_def _ _ _)) $$ Hs31
  icases E3 with ⟨Ed3r1, E3⟩
  rw [wp_bind]
  iapply (wp_wand_r frame (wpE (defs₀ (F := F)) 𝒱₀ (c : Thread nD τ) none) Set.univ)
  isplitl [TsS11 TpR11 Hs11 Ed1r1 TsS31 TpR31 Hs31 Ed3r1 HO]
  · iapply (part4_run m K c  W3 _ )
    isplitr; · (iapply (Entails.of_eq (cinv_def m K _)); iexact IsS11)
    isplitr; · (iapply (Entails.of_eq (cinv_def m K _)); iexact IpR11)
    isplitr; · iexact RsS11
    isplitr; · iexact RpR11
    isplitr; · (iapply (Entails.of_eq (cinv_def m K _)); iexact IsS31)
    isplitr; · (iapply (Entails.of_eq (cinv_def m K _)); iexact IpR31)
    isplitr; · iexact RsS31
    isplitr; · iexact RpR31
    isplitl [TsS11]; · iexact TsS11
    isplitl [TpR11]; · iexact TpR11
    isplitl [Hs11]; · iexact Hs11
    isplitl [Ed1r1]; · iexact Ed1r1
    isplitl [TsS31]; · iexact TsS31
    isplitl [TpR31]; · iexact TpR31
    isplitl [Hs31]; · iexact Hs31
    isplitl [Ed3r1]; · iexact Ed3r1
    iexact HO
  iintro %r4 Hpost
  icases Hpost with ⟨Cs11, Cs31, ⟨%W4, HO⟩⟩
  try dsimp only
  -- part 5
  icases Hq with ⟨TsS22, Hq⟩
  icases Hq with ⟨TpR22, Hq⟩
  ihave Hs22 := (Entails.of_eq (pts_def _ _ _)) $$ Hs22
  icases E2 with ⟨Ed2r2, E2⟩
  icases Hq with ⟨TsS12, Hq⟩
  icases Hq with ⟨TpR12, Hq⟩
  ihave Hs12 := (Entails.of_eq (pts_def _ _ _)) $$ Hs12
  icases E1 with ⟨Ed1r2, E1⟩
  icases Hq with ⟨TsS32, Hq⟩
  icases Hq with ⟨TpR32, Hq⟩
  ihave Hs32 := (Entails.of_eq (pts_def _ _ _)) $$ Hs32
  icases E3 with ⟨Ed3r2, E3⟩
  rw [wp_bind]
  iapply (wp_wand_r frame (wpE (defs₀ (F := F)) 𝒱₀ (c : Thread nD τ) none) Set.univ)
  isplitl [TsS22 TpR22 Hs22 Ed2r2 TsS12 TpR12 Hs12 Ed1r2 TsS32 TpR32 Hs32 Ed3r2 HO]
  · iapply (part5_run m K c  W4 _ )
    isplitr; · (iapply (Entails.of_eq (cinv_def m K _)); iexact IsS22)
    isplitr; · (iapply (Entails.of_eq (cinv_def m K _)); iexact IpR22)
    isplitr; · iexact RsS22
    isplitr; · iexact RpR22
    isplitr; · (iapply (Entails.of_eq (cinv_def m K _)); iexact IsS12)
    isplitr; · (iapply (Entails.of_eq (cinv_def m K _)); iexact IpR12)
    isplitr; · iexact RsS12
    isplitr; · iexact RpR12
    isplitr; · (iapply (Entails.of_eq (cinv_def m K _)); iexact IsS32)
    isplitr; · (iapply (Entails.of_eq (cinv_def m K _)); iexact IpR32)
    isplitr; · iexact RsS32
    isplitr; · iexact RpR32
    isplitl [TsS22]; · iexact TsS22
    isplitl [TpR22]; · iexact TpR22
    isplitl [Hs22]; · iexact Hs22
    isplitl [Ed2r2]; · iexact Ed2r2
    isplitl [TsS12]; · iexact TsS12
    isplitl [TpR12]; · iexact TpR12
    isplitl [Hs12]; · iexact Hs12
    isplitl [Ed1r2]; · iexact Ed1r2
    isplitl [TsS32]; · iexact TsS32
    isplitl [TpR32]; · iexact TpR32
    isplitl [Hs32]; · iexact Hs32
    isplitl [Ed3r2]; · iexact Ed3r2
    iexact HO
  iintro %r5 Hpost
  icases Hpost with ⟨Cs22, Cs12, Cs32, ⟨%W5, HO⟩⟩
  try dsimp only
  -- part 6
  icases Hq with ⟨TsS23, Hq⟩
  icases Hq with ⟨TpR23, Hq⟩
  ihave Hs23 := (Entails.of_eq (pts_def _ _ _)) $$ Hs23
  icases E2 with ⟨Ed2r3, E2⟩
  icases Hq with ⟨TsS13, Hq⟩
  icases Hq with ⟨TpR13, Hq⟩
  ihave Hs13 := (Entails.of_eq (pts_def _ _ _)) $$ Hs13
  icases E1 with ⟨Ed1r3, E1⟩
  rw [wp_bind]
  iapply (wp_wand_r frame (wpE (defs₀ (F := F)) 𝒱₀ (c : Thread nD τ) none) Set.univ)
  isplitl [TsS23 TpR23 Hs23 Ed2r3 TsS13 TpR13 Hs13 Ed1r3 HO]
  · iapply (part6_run m K c  W5 _ _ )
    isplitr; · (iapply (Entails.of_eq (cinv_def m K _)); iexact IsS23)
    isplitr; · (iapply (Entails.of_eq (cinv_def m K _)); iexact IpR23)
    isplitr; · iexact RsS23
    isplitr; · iexact RpR23
    isplitr; · (iapply (Entails.of_eq (cinv_def m K _)); iexact IsS13)
    isplitr; · (iapply (Entails.of_eq (cinv_def m K _)); iexact IpR13)
    isplitr; · iexact RsS13
    isplitr; · iexact RpR13
    isplitl [TsS23]; · iexact TsS23
    isplitl [TpR23]; · iexact TpR23
    isplitl [Hs23]; · iexact Hs23
    isplitl [Ed2r3]; · iexact Ed2r3
    isplitl [TsS13]; · iexact TsS13
    isplitl [TpR13]; · iexact TpR13
    isplitl [Hs13]; · iexact Hs13
    isplitl [Ed1r3]; · iexact Ed1r3
    iexact HO
  iintro %r6 Hpost
  icases Hpost with ⟨Cs23, Cs13, ⟨%W6, HO⟩⟩
  try dsimp only
  -- part 7
  icases Hq with ⟨TsS33, Hq⟩
  icases Hq with ⟨TpR33, Hq⟩
  ihave Hs33 := (Entails.of_eq (pts_def _ _ _)) $$ Hs33
  icases E3 with ⟨Ed3r3, E3⟩
  icases Hq with ⟨PsR10, Hq⟩
  icases Hq with ⟨CsR10, Hq⟩
  rw [wp_bind]
  iapply (wp_wand_r frame (wpE (defs₀ (F := F)) 𝒱₀ (c : Thread nD τ) none) Set.univ)
  isplitl [TsS33 TpR33 Hs33 Ed3r3 Hpr PsR10 CsR10 HO]
  · iapply (part7_run m K c  W6 _ )
    isplitr; · (iapply (Entails.of_eq (cinv_def m K _)); iexact IsS33)
    isplitr; · (iapply (Entails.of_eq (cinv_def m K _)); iexact IpR33)
    isplitr; · iexact RsS33
    isplitr; · iexact RpR33
    isplitr; · iexact Hlev
    isplitr; · (iapply (Entails.of_eq (cinv_def m K _)); iexact IsR10)
    isplitl [TsS33]; · iexact TsS33
    isplitl [TpR33]; · iexact TpR33
    isplitl [Hs33]; · iexact Hs33
    isplitl [Ed3r3]; · iexact Ed3r3
    isplitl [Hpr]; · iexact Hpr
    isplitl [PsR10]; · iexact PsR10
    isplitl [CsR10]; · iexact CsR10
    iexact HO
  iintro %r7 Hpost
  icases Hpost with ⟨Cs33, Hpr, PsR10, Hr10, ⟨%W7, HO⟩, %h7_0⟩
  try dsimp only
  -- part 8
  icases Hq with ⟨PsR30, Hq⟩
  icases Hq with ⟨CsR30, Hq⟩
  icases Hq with ⟨PsR20, Hq⟩
  icases Hq with ⟨CsR20, Hq⟩
  rw [wp_bind]
  iapply (wp_wand_r frame (wpE (defs₀ (F := F)) 𝒱₀ (c : Thread nD τ) none) Set.univ)
  isplitl [PsR30 CsR30 PsR20 CsR20 HO]
  · iapply (part8_run m K c  W7 _ _ )
    isplitr; · iexact Hlev
    isplitr; · (iapply (Entails.of_eq (cinv_def m K _)); iexact IsR30)
    isplitr; · (iapply (Entails.of_eq (cinv_def m K _)); iexact IsR20)
    isplitl [PsR30]; · iexact PsR30
    isplitl [CsR30]; · iexact CsR30
    isplitl [PsR20]; · iexact PsR20
    isplitl [CsR20]; · iexact CsR20
    iexact HO
  iintro %r8 Hpost
  icases Hpost with ⟨PsR30, Hr30, PsR20, Hr20, ⟨%W8, HO⟩, %h8_0⟩
  try dsimp only
  subst h7_0; have h_v224 := h8_0
  -- part 9
  ihave Ho00 := (Entails.of_eq (pts_def _ _ _)) $$ Ho00
  icases Hq with ⟨TaS20, Hq⟩
  icases Hq with ⟨TpA20, Hq⟩
  icases E2 with ⟨Ed2o0, E2⟩
  icases Hq with ⟨TaS10, Hq⟩
  icases Hq with ⟨TpA10, Hq⟩
  icases E1 with ⟨Ed1o0, E1⟩
  rw [wp_bind]
  iapply (wp_wand_r frame (wpE (defs₀ (F := F)) 𝒱₀ (c : Thread nD τ) none) Set.univ)
  isplitl [Ho00 TaS20 TpA20 Ed2o0 TaS10 TpA10 Ed1o0 HO]
  · iapply (part9_run m K c o0 W8 _ _ h_v224)
    isplitr; · (iapply (Entails.of_eq (cinv_def m K _)); iexact IaS20)
    isplitr; · (iapply (Entails.of_eq (cinv_def m K _)); iexact IpA20)
    isplitr; · iexact RaS20
    isplitr; · iexact RpA20
    isplitr; · (iapply (Entails.of_eq (cinv_def m K _)); iexact IaS10)
    isplitr; · (iapply (Entails.of_eq (cinv_def m K _)); iexact IpA10)
    isplitr; · iexact RaS10
    isplitr; · iexact RpA10
    isplitl [Ho00]; · iexact Ho00
    isplitl [TaS20]; · iexact TaS20
    isplitl [TpA20]; · iexact TpA20
    isplitl [Ed2o0]; · iexact Ed2o0
    isplitl [TaS10]; · iexact TaS10
    isplitl [TpA10]; · iexact TpA10
    isplitl [Ed1o0]; · iexact Ed1o0
    iexact HO
  iintro %r9 Hpost
  icases Hpost with ⟨Ho00_3, Ca20, Ca10, ⟨%W9, HO⟩⟩
  try dsimp only
  -- part 10
  icases Hq with ⟨TaS30, Hq⟩
  icases Hq with ⟨TpA30, Hq⟩
  icases E3 with ⟨Ed3o0, E3⟩
  icases Hq with ⟨PsR11, Hq⟩
  icases Hq with ⟨CsR11, Hq⟩
  rw [wp_bind]
  iapply (wp_wand_r frame (wpE (defs₀ (F := F)) 𝒱₀ (c : Thread nD τ) none) Set.univ)
  isplitl [TaS30 TpA30 Ho00_3 Ed3o0 Hpr PsR11 CsR11 HO]
  · iapply (part10_run m K c  W9 _ _ )
    isplitr; · (iapply (Entails.of_eq (cinv_def m K _)); iexact IaS30)
    isplitr; · (iapply (Entails.of_eq (cinv_def m K _)); iexact IpA30)
    isplitr; · iexact RaS30
    isplitr; · iexact RpA30
    isplitr; · iexact Hlev
    isplitr; · (iapply (Entails.of_eq (cinv_def m K _)); iexact IsR11)
    isplitl [TaS30]; · iexact TaS30
    isplitl [TpA30]; · iexact TpA30
    isplitl [Ho00_3]; · iexact Ho00_3
    isplitl [Ed3o0]; · iexact Ed3o0
    isplitl [Hpr]; · iexact Hpr
    isplitl [PsR11]; · iexact PsR11
    isplitl [CsR11]; · iexact CsR11
    iexact HO
  iintro %r10 Hpost
  icases Hpost with ⟨Ca30, Hpr, PsR11, Hr11, ⟨%W10, HO⟩, %h10_0⟩
  try dsimp only
  -- part 11
  icases Hq with ⟨PsR31, Hq⟩
  icases Hq with ⟨CsR31, Hq⟩
  icases Hq with ⟨PsR21, Hq⟩
  icases Hq with ⟨CsR21, Hq⟩
  rw [wp_bind]
  iapply (wp_wand_r frame (wpE (defs₀ (F := F)) 𝒱₀ (c : Thread nD τ) none) Set.univ)
  isplitl [PsR31 CsR31 PsR21 CsR21 HO]
  · iapply (part11_run m K c  W10 _ _ )
    isplitr; · iexact Hlev
    isplitr; · (iapply (Entails.of_eq (cinv_def m K _)); iexact IsR31)
    isplitr; · (iapply (Entails.of_eq (cinv_def m K _)); iexact IsR21)
    isplitl [PsR31]; · iexact PsR31
    isplitl [CsR31]; · iexact CsR31
    isplitl [PsR21]; · iexact PsR21
    isplitl [CsR21]; · iexact CsR21
    iexact HO
  iintro %r11 Hpost
  icases Hpost with ⟨PsR31, Hr31, PsR21, Hr21, ⟨%W11, HO⟩, %h11_0, %h11_1, %h11_2⟩
  obtain ⟨v301, v309, v310⟩ := r11
  dsimp only at h11_0 h11_1 h11_2 ⊢
  subst h10_0; have h_v301 := h11_0; have h_v309 := h11_1; have h_v310 := h11_2
  -- part 12
  ihave Ho01 := (Entails.of_eq (pts_def _ _ _)) $$ Ho01
  icases Hq with ⟨TaS21, Hq⟩
  icases Hq with ⟨TpA21, Hq⟩
  icases E2 with ⟨Ed2o1, E2⟩
  icases Hq with ⟨TaS11, Hq⟩
  icases Hq with ⟨TpA11, Hq⟩
  icases E1 with ⟨Ed1o1, E1⟩
  rw [wp_bind]
  iapply (wp_wand_r frame (wpE (defs₀ (F := F)) 𝒱₀ (c : Thread nD τ) none) Set.univ)
  isplitl [Ho01 TaS21 TpA21 Ed2o1 TaS11 TpA11 Ed1o1 HO]
  · iapply (part12_run m K c o0 W11 _ _ _ _ h_v301 h_v309 h_v310)
    isplitr; · (iapply (Entails.of_eq (cinv_def m K _)); iexact IaS21)
    isplitr; · (iapply (Entails.of_eq (cinv_def m K _)); iexact IpA21)
    isplitr; · iexact RaS21
    isplitr; · iexact RpA21
    isplitr; · (iapply (Entails.of_eq (cinv_def m K _)); iexact IaS11)
    isplitr; · (iapply (Entails.of_eq (cinv_def m K _)); iexact IpA11)
    isplitr; · iexact RaS11
    isplitr; · iexact RpA11
    isplitl [Ho01]; · iexact Ho01
    isplitl [TaS21]; · iexact TaS21
    isplitl [TpA21]; · iexact TpA21
    isplitl [Ed2o1]; · iexact Ed2o1
    isplitl [TaS11]; · iexact TaS11
    isplitl [TpA11]; · iexact TpA11
    isplitl [Ed1o1]; · iexact Ed1o1
    iexact HO
  iintro %r12 Hpost
  icases Hpost with ⟨Ho01_3, Ca21, Ca11, ⟨%W12, HO⟩⟩
  try dsimp only
  -- part 13
  icases Hq with ⟨TaS31, Hq⟩
  icases Hq with ⟨TpA31, Hq⟩
  icases E3 with ⟨Ed3o1, E3⟩
  icases Hq with ⟨PsR12, Hq⟩
  icases Hq with ⟨CsR12, Hq⟩
  rw [wp_bind]
  iapply (wp_wand_r frame (wpE (defs₀ (F := F)) 𝒱₀ (c : Thread nD τ) none) Set.univ)
  isplitl [TaS31 TpA31 Ho01_3 Ed3o1 Hpr PsR12 CsR12 HO]
  · iapply (part13_run m K c  W12 _ _ )
    isplitr; · (iapply (Entails.of_eq (cinv_def m K _)); iexact IaS31)
    isplitr; · (iapply (Entails.of_eq (cinv_def m K _)); iexact IpA31)
    isplitr; · iexact RaS31
    isplitr; · iexact RpA31
    isplitr; · iexact Hlev
    isplitr; · (iapply (Entails.of_eq (cinv_def m K _)); iexact IsR12)
    isplitl [TaS31]; · iexact TaS31
    isplitl [TpA31]; · iexact TpA31
    isplitl [Ho01_3]; · iexact Ho01_3
    isplitl [Ed3o1]; · iexact Ed3o1
    isplitl [Hpr]; · iexact Hpr
    isplitl [PsR12]; · iexact PsR12
    isplitl [CsR12]; · iexact CsR12
    iexact HO
  iintro %r13 Hpost
  icases Hpost with ⟨Ca31, Hpr, PsR12, Hr12, ⟨%W13, HO⟩, %h13_0⟩
  obtain ⟨v363, v364, c0_i32_362⟩ := r13
  dsimp only at h13_0 ⊢
  -- part 14
  icases Hq with ⟨PsR32, Hq⟩
  icases Hq with ⟨CsR32, Hq⟩
  icases Hq with ⟨PsR22, Hq⟩
  icases Hq with ⟨CsR22, Hq⟩
  rw [wp_bind]
  iapply (wp_wand_r frame (wpE (defs₀ (F := F)) 𝒱₀ (c : Thread nD τ) none) Set.univ)
  isplitl [PsR32 CsR32 PsR22 CsR22 HO]
  · iapply (part14_run m K c  W13 _ _ _ _ )
    isplitr; · iexact Hlev
    isplitr; · (iapply (Entails.of_eq (cinv_def m K _)); iexact IsR32)
    isplitr; · (iapply (Entails.of_eq (cinv_def m K _)); iexact IsR22)
    isplitl [PsR32]; · iexact PsR32
    isplitl [CsR32]; · iexact CsR32
    isplitl [PsR22]; · iexact PsR22
    isplitl [CsR22]; · iexact CsR22
    iexact HO
  iintro %r14 Hpost
  icases Hpost with ⟨PsR32, Hr32, PsR22, Hr22, ⟨%W14, HO⟩, %h14_0, %h14_1⟩
  obtain ⟨v389, v397⟩ := r14
  dsimp only at h14_0 h14_1 ⊢
  subst h13_0; have h_v389 := h14_0; have h_v397 := h14_1
  -- part 15
  ihave Ho02 := (Entails.of_eq (pts_def _ _ _)) $$ Ho02
  icases Hq with ⟨TaS22, Hq⟩
  icases Hq with ⟨TpA22, Hq⟩
  icases E2 with ⟨Ed2o2, E2⟩
  icases Hq with ⟨TaS12, Hq⟩
  icases Hq with ⟨TpA12, Hq⟩
  icases E1 with ⟨Ed1o2, E1⟩
  rw [wp_bind]
  iapply (wp_wand_r frame (wpE (defs₀ (F := F)) 𝒱₀ (c : Thread nD τ) none) Set.univ)
  isplitl [Ho02 TaS22 TpA22 Ed2o2 TaS12 TpA12 Ed1o2 HO]
  · iapply (part15_run m K c o0 W14 _ _ _ h_v389 h_v397)
    isplitr; · (iapply (Entails.of_eq (cinv_def m K _)); iexact IaS22)
    isplitr; · (iapply (Entails.of_eq (cinv_def m K _)); iexact IpA22)
    isplitr; · iexact RaS22
    isplitr; · iexact RpA22
    isplitr; · (iapply (Entails.of_eq (cinv_def m K _)); iexact IaS12)
    isplitr; · (iapply (Entails.of_eq (cinv_def m K _)); iexact IpA12)
    isplitr; · iexact RaS12
    isplitr; · iexact RpA12
    isplitl [Ho02]; · iexact Ho02
    isplitl [TaS22]; · iexact TaS22
    isplitl [TpA22]; · iexact TpA22
    isplitl [Ed2o2]; · iexact Ed2o2
    isplitl [TaS12]; · iexact TaS12
    isplitl [TpA12]; · iexact TpA12
    isplitl [Ed1o2]; · iexact Ed1o2
    iexact HO
  iintro %r15 Hpost
  icases Hpost with ⟨Ho02_3, Ca22, Ca12, ⟨%W15, HO⟩⟩
  try dsimp only
  -- part 16
  icases Hq with ⟨TaS32, Hq⟩
  icases Hq with ⟨TpA32, Hq⟩
  icases E3 with ⟨Ed3o2, E3⟩
  icases Hq with ⟨PsR13, Hq⟩
  icases Hq with ⟨CsR13, Hq⟩
  rw [wp_bind]
  iapply (wp_wand_r frame (wpE (defs₀ (F := F)) 𝒱₀ (c : Thread nD τ) none) Set.univ)
  isplitl [TaS32 TpA32 Ho02_3 Ed3o2 Hpr PsR13 CsR13 HO]
  · iapply (part16_run m K c  W15 _ _ )
    isplitr; · (iapply (Entails.of_eq (cinv_def m K _)); iexact IaS32)
    isplitr; · (iapply (Entails.of_eq (cinv_def m K _)); iexact IpA32)
    isplitr; · iexact RaS32
    isplitr; · iexact RpA32
    isplitr; · iexact Hlev
    isplitr; · (iapply (Entails.of_eq (cinv_def m K _)); iexact IsR13)
    isplitl [TaS32]; · iexact TaS32
    isplitl [TpA32]; · iexact TpA32
    isplitl [Ho02_3]; · iexact Ho02_3
    isplitl [Ed3o2]; · iexact Ed3o2
    isplitl [Hpr]; · iexact Hpr
    isplitl [PsR13]; · iexact PsR13
    isplitl [CsR13]; · iexact CsR13
    iexact HO
  iintro %r16 Hpost
  icases Hpost with ⟨Ca32, Hpr, PsR13, Hr13, ⟨%W16, HO⟩, %h16_0⟩
  obtain ⟨v451, c1_i32_446⟩ := r16
  dsimp only at h16_0 ⊢
  -- part 17
  icases Hq with ⟨PsR33, Hq⟩
  icases Hq with ⟨CsR33, Hq⟩
  icases Hq with ⟨PsR23, Hq⟩
  icases Hq with ⟨CsR23, Hq⟩
  rw [wp_bind]
  iapply (wp_wand_r frame (wpE (defs₀ (F := F)) 𝒱₀ (c : Thread nD τ) none) Set.univ)
  isplitl [PsR33 CsR33 PsR23 CsR23 HO]
  · iapply (part17_run m K c  W16 _ _ _ )
    isplitr; · iexact Hlev
    isplitr; · (iapply (Entails.of_eq (cinv_def m K _)); iexact IsR33)
    isplitr; · (iapply (Entails.of_eq (cinv_def m K _)); iexact IsR23)
    isplitl [PsR33]; · iexact PsR33
    isplitl [CsR33]; · iexact CsR33
    isplitl [PsR23]; · iexact PsR23
    isplitl [CsR23]; · iexact CsR23
    iexact HO
  iintro %r17 Hpost
  icases Hpost with ⟨PsR33, Hr33, PsR23, Hr23, ⟨%W17, HO⟩, %h17_0, %h17_1, %h17_2⟩
  obtain ⟨v477, v482, v483⟩ := r17
  dsimp only at h17_0 h17_1 h17_2 ⊢
  subst h16_0; have h_v477 := h17_0; have h_v482 := h17_1; have h_v483 := h17_2
  -- part 18
  ihave Ho03 := (Entails.of_eq (pts_def _ _ _)) $$ Ho03
  icases Hq with ⟨TaS23, Hq⟩
  icases Hq with ⟨TpA23, Hq⟩
  icases Hq with ⟨TaS13, Hq⟩
  icases Hq with ⟨TpA13, Hq⟩
  rw [wp_bind]
  iapply (wp_wand_r frame (wpE (defs₀ (F := F)) 𝒱₀ (c : Thread nD τ) none) Set.univ)
  isplitl [Ho03 TaS23 TpA23 E2 TaS13 TpA13 E1 HO]
  · iapply (part18_run m K c o0 W17 _ _ _ _ h_v477 h_v482 h_v483)
    isplitr; · (iapply (Entails.of_eq (cinv_def m K _)); iexact IaS23)
    isplitr; · (iapply (Entails.of_eq (cinv_def m K _)); iexact IpA23)
    isplitr; · iexact RaS23
    isplitr; · iexact RpA23
    isplitr; · (iapply (Entails.of_eq (cinv_def m K _)); iexact IaS13)
    isplitr; · (iapply (Entails.of_eq (cinv_def m K _)); iexact IpA13)
    isplitr; · iexact RaS13
    isplitr; · iexact RpA13
    isplitl [Ho03]; · iexact Ho03
    isplitl [TaS23]; · iexact TaS23
    isplitl [TpA23]; · iexact TpA23
    isplitl [E2]; · iexact E2
    isplitl [TaS13]; · iexact TaS13
    isplitl [TpA13]; · iexact TpA13
    isplitl [E1]; · iexact E1
    iexact HO
  iintro %r18 Hpost
  icases Hpost with ⟨Ho03_3, Ca23, Ca13, ⟨%W18, HO⟩⟩
  try dsimp only
  -- part 19
  icases Hq with ⟨TaS33, Hq⟩
  icases Hq with ⟨TpA33, Hq⟩
  icases Hq with ⟨PaR10, Hq⟩
  icases Hq with ⟨CaR10, Hq⟩
  rw [wp_bind]
  iapply (wp_wand_r frame (wpE (defs₀ (F := F)) 𝒱₀ (c : Thread nD τ) none) Set.univ)
  isplitl [TaS33 TpA33 Ho03_3 E3 PaR10 CaR10 HO]
  · iapply (part19_run m K c  W18 _ )
    isplitr; · (iapply (Entails.of_eq (cinv_def m K _)); iexact IaS33)
    isplitr; · (iapply (Entails.of_eq (cinv_def m K _)); iexact IpA33)
    isplitr; · iexact RaS33
    isplitr; · iexact RpA33
    isplitr; · (iapply (Entails.of_eq (cinv_def m K _)); iexact IaR10)
    isplitl [TaS33]; · iexact TaS33
    isplitl [TpA33]; · iexact TpA33
    isplitl [Ho03_3]; · iexact Ho03_3
    isplitl [E3]; · iexact E3
    isplitl [PaR10]; · iexact PaR10
    isplitl [CaR10]; · iexact CaR10
    iexact HO
  iintro %r19 Hpost
  icases Hpost with ⟨Ca33, PaR10, Ho10, ⟨%W19, HO⟩⟩
  try dsimp only
  -- part 20
  icases Hq with ⟨PaR30, Hq⟩
  icases Hq with ⟨CaR30, Hq⟩
  icases Hq with ⟨PaR20, Hq⟩
  icases Hq with ⟨CaR20, Hq⟩
  icases Hq with ⟨PaR11, Hq⟩
  icases Hq with ⟨CaR11, Hq⟩
  rw [wp_bind]
  iapply (wp_wand_r frame (wpE (defs₀ (F := F)) 𝒱₀ (c : Thread nD τ) none) Set.univ)
  isplitl [PaR30 CaR30 PaR20 CaR20 PaR11 CaR11 HO]
  · iapply (part20_run m K c  W19 _ )
    isplitr; · (iapply (Entails.of_eq (cinv_def m K _)); iexact IaR30)
    isplitr; · (iapply (Entails.of_eq (cinv_def m K _)); iexact IaR20)
    isplitr; · (iapply (Entails.of_eq (cinv_def m K _)); iexact IaR11)
    isplitl [PaR30]; · iexact PaR30
    isplitl [CaR30]; · iexact CaR30
    isplitl [PaR20]; · iexact PaR20
    isplitl [CaR20]; · iexact CaR20
    isplitl [PaR11]; · iexact PaR11
    isplitl [CaR11]; · iexact CaR11
    iexact HO
  iintro %r20 Hpost
  icases Hpost with ⟨PaR30, Ho30, PaR20, Ho20, PaR11, Ho11, ⟨%W20, HO⟩⟩
  obtain ⟨v566, c32_i32_560⟩ := r20
  try dsimp only
  -- part 21
  icases Hq with ⟨PaR31, Hq⟩
  icases Hq with ⟨CaR31, Hq⟩
  icases Hq with ⟨PaR21, Hq⟩
  icases Hq with ⟨CaR21, Hq⟩
  rw [wp_bind]
  iapply (wp_wand_r frame (wpE (defs₀ (F := F)) 𝒱₀ (c : Thread nD τ) none) Set.univ)
  isplitl [PaR31 CaR31 PaR21 CaR21 HO]
  · iapply (part21_run m K c  W20 _ _ _ )
    isplitr; · (iapply (Entails.of_eq (cinv_def m K _)); iexact IaR31)
    isplitr; · (iapply (Entails.of_eq (cinv_def m K _)); iexact IaR21)
    isplitl [PaR31]; · iexact PaR31
    isplitl [CaR31]; · iexact CaR31
    isplitl [PaR21]; · iexact PaR21
    isplitl [CaR21]; · iexact CaR21
    iexact HO
  iintro %r21 Hpost
  icases Hpost with ⟨PaR31, Ho31, PaR21, Ho21, ⟨%W21, HO⟩⟩
  try dsimp only
  -- part 22
  icases Hq with ⟨PaR12, Hq⟩
  icases Hq with ⟨CaR12, Hq⟩
  icases Hq with ⟨PaR32, Hq⟩
  icases Hq with ⟨CaR32, Hq⟩
  icases Hq with ⟨PaR22, Hq⟩
  icases Hq with ⟨CaR22, Hq⟩
  rw [wp_bind]
  iapply (wp_wand_r frame (wpE (defs₀ (F := F)) 𝒱₀ (c : Thread nD τ) none) Set.univ)
  isplitl [PaR12 CaR12 PaR32 CaR32 PaR22 CaR22 HO]
  · iapply (part22_run m K c  W21 _ )
    isplitr; · (iapply (Entails.of_eq (cinv_def m K _)); iexact IaR12)
    isplitr; · (iapply (Entails.of_eq (cinv_def m K _)); iexact IaR32)
    isplitr; · (iapply (Entails.of_eq (cinv_def m K _)); iexact IaR22)
    isplitl [PaR12]; · iexact PaR12
    isplitl [CaR12]; · iexact CaR12
    isplitl [PaR32]; · iexact PaR32
    isplitl [CaR32]; · iexact CaR32
    isplitl [PaR22]; · iexact PaR22
    isplitl [CaR22]; · iexact CaR22
    iexact HO
  iintro %r22 Hpost
  icases Hpost with ⟨PaR12, Ho12, PaR32, Ho32, PaR22, Ho22, ⟨%W22, HO⟩⟩
  try dsimp only
  -- part 23
  icases Hq with ⟨PaR13, Hq⟩
  icases Hq with ⟨CaR13, Hq⟩
  icases Hq with ⟨PaR33, Hq⟩
  icases Hq with ⟨CaR33, Hq⟩
  icases Hq with ⟨PaR23, Hq⟩
  icases Hq with ⟨CaR23, Hq⟩
  rw [wp_bind]
  iapply (wp_wand_r frame (wpE (defs₀ (F := F)) 𝒱₀ (c : Thread nD τ) none) Set.univ)
  isplitl [PaR13 CaR13 PaR33 CaR33 PaR23 CaR23 HO]
  · iapply (part23_run m K c  W22 _ )
    isplitr; · (iapply (Entails.of_eq (cinv_def m K _)); iexact IaR13)
    isplitr; · (iapply (Entails.of_eq (cinv_def m K _)); iexact IaR33)
    isplitr; · (iapply (Entails.of_eq (cinv_def m K _)); iexact IaR23)
    isplitl [PaR13]; · iexact PaR13
    isplitl [CaR13]; · iexact CaR13
    isplitl [PaR33]; · iexact PaR33
    isplitl [CaR33]; · iexact CaR33
    isplitl [PaR23]; · iexact PaR23
    isplitl [CaR23]; · iexact CaR23
    iexact HO
  iintro %r23 Hpost
  icases Hpost with ⟨PaR13, Ho13, PaR33, Ho33, PaR23, Ho23, ⟨%W23, HO⟩⟩
  try dsimp only
  -- part 24
  icases Hq with ⟨PsS20, Hq⟩
  icases Hq with ⟨PsS10, Hq⟩
  icases Hq with ⟨PsS30, Hq⟩
  rw [wp_bind]
  iapply (wp_wand_r frame (wpE (defs₀ (F := F)) 𝒱₀ (c : Thread nD τ) none) Set.univ)
  isplitl [PsS20 Cs20 PsS10 Cs10 PsS30 Cs30 HO]
  · iapply (part24_run m K c  W23  )
    isplitr; · (iapply (Entails.of_eq (cinv_def m K _)); iexact IsS20)
    isplitr; · (iapply (Entails.of_eq (cinv_def m K _)); iexact IsS10)
    isplitr; · (iapply (Entails.of_eq (cinv_def m K _)); iexact IsS30)
    isplitl [PsS20]; · iexact PsS20
    isplitl [Cs20]; · iexact Cs20
    isplitl [PsS10]; · iexact PsS10
    isplitl [Cs10]; · iexact Cs10
    isplitl [PsS30]; · iexact PsS30
    isplitl [Cs30]; · iexact Cs30
    iexact HO
  iintro %r24 Hpost
  icases Hpost with ⟨PsS20, Hs20, PsS10, Hs10, PsS30, Hs30, ⟨%W24, HO⟩⟩
  try dsimp only
  -- part 25
  icases Hq with ⟨PsS21, Hq⟩
  icases Hq with ⟨PsS11, Hq⟩
  icases Hq with ⟨PsS31, Hq⟩
  icases Hq with ⟨PsS22, Hq⟩
  rw [wp_bind]
  iapply (wp_wand_r frame (wpE (defs₀ (F := F)) 𝒱₀ (c : Thread nD τ) none) Set.univ)
  isplitl [PsS21 Cs21 PsS11 Cs11 PsS31 Cs31 PsS22 Cs22 HO]
  · iapply (part25_run m K c  W24  )
    isplitr; · (iapply (Entails.of_eq (cinv_def m K _)); iexact IsS21)
    isplitr; · (iapply (Entails.of_eq (cinv_def m K _)); iexact IsS11)
    isplitr; · (iapply (Entails.of_eq (cinv_def m K _)); iexact IsS31)
    isplitr; · (iapply (Entails.of_eq (cinv_def m K _)); iexact IsS22)
    isplitl [PsS21]; · iexact PsS21
    isplitl [Cs21]; · iexact Cs21
    isplitl [PsS11]; · iexact PsS11
    isplitl [Cs11]; · iexact Cs11
    isplitl [PsS31]; · iexact PsS31
    isplitl [Cs31]; · iexact Cs31
    isplitl [PsS22]; · iexact PsS22
    isplitl [Cs22]; · iexact Cs22
    iexact HO
  iintro %r25 Hpost
  icases Hpost with ⟨PsS21, Hs21, PsS11, Hs11, PsS31, Hs31, PsS22, Hs22, ⟨%W25, HO⟩⟩
  try dsimp only
  -- part 26
  icases Hq with ⟨PsS12, Hq⟩
  icases Hq with ⟨PsS32, Hq⟩
  icases Hq with ⟨PsS23, Hq⟩
  rw [wp_bind]
  iapply (wp_wand_r frame (wpE (defs₀ (F := F)) 𝒱₀ (c : Thread nD τ) none) Set.univ)
  isplitl [PsS12 Cs12 PsS32 Cs32 PsS23 Cs23 HO]
  · iapply (part26_run m K c  W25  )
    isplitr; · (iapply (Entails.of_eq (cinv_def m K _)); iexact IsS12)
    isplitr; · (iapply (Entails.of_eq (cinv_def m K _)); iexact IsS32)
    isplitr; · (iapply (Entails.of_eq (cinv_def m K _)); iexact IsS23)
    isplitl [PsS12]; · iexact PsS12
    isplitl [Cs12]; · iexact Cs12
    isplitl [PsS32]; · iexact PsS32
    isplitl [Cs32]; · iexact Cs32
    isplitl [PsS23]; · iexact PsS23
    isplitl [Cs23]; · iexact Cs23
    iexact HO
  iintro %r26 Hpost
  icases Hpost with ⟨PsS12, Hs12, PsS32, Hs32, PsS23, Hs23, ⟨%W26, HO⟩⟩
  try dsimp only
  -- part 27
  icases Hq with ⟨PsS13, Hq⟩
  icases Hq with ⟨PsS33, Hq⟩
  icases Hq with ⟨PaS20, Hq⟩
  icases Hq with ⟨PaS10, Hq⟩
  icases Hq with ⟨PaS30, Hq⟩
  rw [wp_bind]
  iapply (wp_wand_r frame (wpE (defs₀ (F := F)) 𝒱₀ (c : Thread nD τ) none) Set.univ)
  isplitl [PsS13 Cs13 PsS33 Cs33 PaS20 Ca20 PaS10 Ca10 PaS30 Ca30 HO]
  · iapply (part27_run m K c  W26  )
    isplitr; · (iapply (Entails.of_eq (cinv_def m K _)); iexact IsS13)
    isplitr; · (iapply (Entails.of_eq (cinv_def m K _)); iexact IsS33)
    isplitr; · (iapply (Entails.of_eq (cinv_def m K _)); iexact IaS20)
    isplitr; · (iapply (Entails.of_eq (cinv_def m K _)); iexact IaS10)
    isplitr; · (iapply (Entails.of_eq (cinv_def m K _)); iexact IaS30)
    isplitl [PsS13]; · iexact PsS13
    isplitl [Cs13]; · iexact Cs13
    isplitl [PsS33]; · iexact PsS33
    isplitl [Cs33]; · iexact Cs33
    isplitl [PaS20]; · iexact PaS20
    isplitl [Ca20]; · iexact Ca20
    isplitl [PaS10]; · iexact PaS10
    isplitl [Ca10]; · iexact Ca10
    isplitl [PaS30]; · iexact PaS30
    isplitl [Ca30]; · iexact Ca30
    iexact HO
  iintro %r27 Hpost
  icases Hpost with ⟨PsS13, Hs13, PsS33, Hs33, PaS20, Ho00_2, PaS10, Ho00_1, PaS30, Ho00_3, ⟨%W27, HO⟩⟩
  try dsimp only
  -- part 28
  icases Hq with ⟨PaS21, Hq⟩
  icases Hq with ⟨PaS11, Hq⟩
  icases Hq with ⟨PaS31, Hq⟩
  icases Hq with ⟨PaS22, Hq⟩
  icases Hq with ⟨PaS12, Hq⟩
  rw [wp_bind]
  iapply (wp_wand_r frame (wpE (defs₀ (F := F)) 𝒱₀ (c : Thread nD τ) none) Set.univ)
  isplitl [PaS21 Ca21 PaS11 Ca11 PaS31 Ca31 PaS22 Ca22 PaS12 Ca12 HO]
  · iapply (part28_run m K c  W27  )
    isplitr; · (iapply (Entails.of_eq (cinv_def m K _)); iexact IaS21)
    isplitr; · (iapply (Entails.of_eq (cinv_def m K _)); iexact IaS11)
    isplitr; · (iapply (Entails.of_eq (cinv_def m K _)); iexact IaS31)
    isplitr; · (iapply (Entails.of_eq (cinv_def m K _)); iexact IaS22)
    isplitr; · (iapply (Entails.of_eq (cinv_def m K _)); iexact IaS12)
    isplitl [PaS21]; · iexact PaS21
    isplitl [Ca21]; · iexact Ca21
    isplitl [PaS11]; · iexact PaS11
    isplitl [Ca11]; · iexact Ca11
    isplitl [PaS31]; · iexact PaS31
    isplitl [Ca31]; · iexact Ca31
    isplitl [PaS22]; · iexact PaS22
    isplitl [Ca22]; · iexact Ca22
    isplitl [PaS12]; · iexact PaS12
    isplitl [Ca12]; · iexact Ca12
    iexact HO
  iintro %r28 Hpost
  icases Hpost with ⟨PaS21, Ho01_2, PaS11, Ho01_1, PaS31, Ho01_3, PaS22, Ho02_2, PaS12, Ho02_1, ⟨%W28, HO⟩⟩
  try dsimp only
  -- the last two waits of the last printed part
  icases Hq with ⟨PaS32, Hq⟩
  icases Hq with ⟨PaS23, Hq⟩
  iapply (wp_wand_r frame (wpE (defs₀ (F := F)) 𝒱₀ (c : Thread nD τ) none) Set.univ)
  isplitl [PaS32 Ca32 PaS23 Ca23 HO]
  · iapply (tail29_run m K c W28)
    isplitr; · (iapply (Entails.of_eq (cinv_def m K _)); iexact IaS32)
    isplitr; · (iapply (Entails.of_eq (cinv_def m K _)); iexact IaS23)
    isplitl [PaS32]; · iexact PaS32
    isplitl [Ca32]; · iexact Ca32
    isplitl [PaS23]; · iexact PaS23
    isplitl [Ca23]; · iexact Ca23
    iexact HO
  iintro %r29 Hpost
  icases Hpost with ⟨PaS32, Ho02_3, PaS23, Ho03_2, ⟨%W29, HO⟩, %h29⟩
  have h29' := h29.symm
  subst h29'
  try dsimp only
  -- the body's last two waits; then every cell closes and the pieces are joined
  icases Hq with ⟨PaS13, Hq⟩
  icases Hq with ⟨PaS33, Hq⟩
  iapply (wp_fupd frame (wpE (defs₀ (F := F)) 𝒱₀ (c : Thread nD τ) none) Set.univ)
  iapply (wp_wand_r frame (wpE (defs₀ (F := F)) 𝒱₀ (c : Thread nD τ) none) Set.univ)
  isplitl [PaS13 Ca13 PaS33 Ca33 HO]
  · iapply (tailBody_run m K c W29)
    isplitr; · (iapply (Entails.of_eq (cinv_def m K _)); iexact IaS13)
    isplitr; · (iapply (Entails.of_eq (cinv_def m K _)); iexact IaS33)
    isplitl [PaS13]; · iexact PaS13
    isplitl [Ca13]; · iexact Ca13
    isplitl [PaS33]; · iexact PaS33
    isplitl [Ca33]; · iexact Ca33
    iexact HO
  iintro %u Hpost
  icases Hpost with ⟨PaS13, Ho03_1, PaS33, Ho03_3, ⟨%W30, HO⟩⟩
  icases Hq with ⟨PsS00, PsS01, PsS02, PsS03, PsR00, PsR01, PsR02, PsR03, PaS00, PaS01, PaS02, PaS03, PaR00, PaR01, PaR02, PaR03⟩
  imod (body_close m K c r0) $$ [Pb PsS00 PsS01 PsS02 PsS03 PsS10 PsS11 PsS12 PsS13 PsS20 PsS21 PsS22 PsS23 PsS30 PsS31 PsS32 PsS33 PsR00 PsR01 PsR02 PsR03 PsR10 PsR11 PsR12 PsR13 PsR20 PsR21 PsR22 PsR23 PsR30 PsR31 PsR32 PsR33 PaS00 PaS01 PaS02 PaS03 PaS10 PaS11 PaS12 PaS13 PaS20 PaS21 PaS22 PaS23 PaS30 PaS31 PaS32 PaS33 PaR00 PaR01 PaR02 PaR03 PaR10 PaR11 PaR12 PaR13 PaR20 PaR21 PaR22 PaR23 PaR30 PaR31 PaR32 PaR33 Ha Hb Hs10 Hs11 Hs12 Hs13 Hs20 Hs21 Hs22 Hs23 Hs30 Hs31 Hs32 Hs33 Hpr Hr10 Hr11 Hr12 Hr13 Hr20 Hr21 Hr22 Hr23 Hr30 Hr31 Hr32 Hr33 Hrr Ho00_2 Ho00_1 Ho00_3 Ho01_2 Ho01_1 Ho01_3 Ho02_2 Ho02_1 Ho02_3 Ho03_2 Ho03_1 Ho03_3 Ho10 Ho11 Ho12 Ho13 Ho20 Ho21 Ho22 Ho23 Ho30 Ho31 Ho32 Ho33 HO] with Hc
  · unfold bodyEnd
    isplitr; · (iapply (Entails.of_eq (cinv_def m K _)); iexact Ib0)
    isplitr; · (iapply (Entails.of_eq (cinv_def m K _)); iexact Ib1)
    isplitr; · (iapply (Entails.of_eq (cinv_def m K _)); iexact Ib2)
    isplitr; · (iapply (Entails.of_eq (cinv_def m K _)); iexact Ib3)
    isplitr; · (iapply (Entails.of_eq (cinv_def m K _)); iexact IzS0)
    isplitr; · (iapply (Entails.of_eq (cinv_def m K _)); iexact IzS1)
    isplitr; · (iapply (Entails.of_eq (cinv_def m K _)); iexact IzS2)
    isplitr; · (iapply (Entails.of_eq (cinv_def m K _)); iexact IzS3)
    isplitr; · (iapply (Entails.of_eq (cinv_def m K _)); iexact IzR0)
    isplitr; · (iapply (Entails.of_eq (cinv_def m K _)); iexact IzR1)
    isplitr; · (iapply (Entails.of_eq (cinv_def m K _)); iexact IzR2)
    isplitr; · (iapply (Entails.of_eq (cinv_def m K _)); iexact IzR3)
    isplitr; · (iapply (Entails.of_eq (cinv_def m K _)); iexact IzA0)
    isplitr; · (iapply (Entails.of_eq (cinv_def m K _)); iexact IzA1)
    isplitr; · (iapply (Entails.of_eq (cinv_def m K _)); iexact IzA2)
    isplitr; · (iapply (Entails.of_eq (cinv_def m K _)); iexact IzA3)
    isplitr; · (iapply (Entails.of_eq (cinv_def m K _)); iexact IzB0)
    isplitr; · (iapply (Entails.of_eq (cinv_def m K _)); iexact IzB1)
    isplitr; · (iapply (Entails.of_eq (cinv_def m K _)); iexact IzB2)
    isplitr; · (iapply (Entails.of_eq (cinv_def m K _)); iexact IzB3)
    isplitr; · (iapply (Entails.of_eq (cinv_def m K _)); iexact IsS10)
    isplitr; · (iapply (Entails.of_eq (cinv_def m K _)); iexact IsS11)
    isplitr; · (iapply (Entails.of_eq (cinv_def m K _)); iexact IsS12)
    isplitr; · (iapply (Entails.of_eq (cinv_def m K _)); iexact IsS13)
    isplitr; · (iapply (Entails.of_eq (cinv_def m K _)); iexact IsS20)
    isplitr; · (iapply (Entails.of_eq (cinv_def m K _)); iexact IsS21)
    isplitr; · (iapply (Entails.of_eq (cinv_def m K _)); iexact IsS22)
    isplitr; · (iapply (Entails.of_eq (cinv_def m K _)); iexact IsS23)
    isplitr; · (iapply (Entails.of_eq (cinv_def m K _)); iexact IsS30)
    isplitr; · (iapply (Entails.of_eq (cinv_def m K _)); iexact IsS31)
    isplitr; · (iapply (Entails.of_eq (cinv_def m K _)); iexact IsS32)
    isplitr; · (iapply (Entails.of_eq (cinv_def m K _)); iexact IsS33)
    isplitr; · (iapply (Entails.of_eq (cinv_def m K _)); iexact IsR10)
    isplitr; · (iapply (Entails.of_eq (cinv_def m K _)); iexact IsR11)
    isplitr; · (iapply (Entails.of_eq (cinv_def m K _)); iexact IsR12)
    isplitr; · (iapply (Entails.of_eq (cinv_def m K _)); iexact IsR13)
    isplitr; · (iapply (Entails.of_eq (cinv_def m K _)); iexact IsR20)
    isplitr; · (iapply (Entails.of_eq (cinv_def m K _)); iexact IsR21)
    isplitr; · (iapply (Entails.of_eq (cinv_def m K _)); iexact IsR22)
    isplitr; · (iapply (Entails.of_eq (cinv_def m K _)); iexact IsR23)
    isplitr; · (iapply (Entails.of_eq (cinv_def m K _)); iexact IsR30)
    isplitr; · (iapply (Entails.of_eq (cinv_def m K _)); iexact IsR31)
    isplitr; · (iapply (Entails.of_eq (cinv_def m K _)); iexact IsR32)
    isplitr; · (iapply (Entails.of_eq (cinv_def m K _)); iexact IsR33)
    isplitr; · (iapply (Entails.of_eq (cinv_def m K _)); iexact IaS10)
    isplitr; · (iapply (Entails.of_eq (cinv_def m K _)); iexact IaS11)
    isplitr; · (iapply (Entails.of_eq (cinv_def m K _)); iexact IaS12)
    isplitr; · (iapply (Entails.of_eq (cinv_def m K _)); iexact IaS13)
    isplitr; · (iapply (Entails.of_eq (cinv_def m K _)); iexact IaS20)
    isplitr; · (iapply (Entails.of_eq (cinv_def m K _)); iexact IaS21)
    isplitr; · (iapply (Entails.of_eq (cinv_def m K _)); iexact IaS22)
    isplitr; · (iapply (Entails.of_eq (cinv_def m K _)); iexact IaS23)
    isplitr; · (iapply (Entails.of_eq (cinv_def m K _)); iexact IaS30)
    isplitr; · (iapply (Entails.of_eq (cinv_def m K _)); iexact IaS31)
    isplitr; · (iapply (Entails.of_eq (cinv_def m K _)); iexact IaS32)
    isplitr; · (iapply (Entails.of_eq (cinv_def m K _)); iexact IaS33)
    isplitr; · (iapply (Entails.of_eq (cinv_def m K _)); iexact IaR10)
    isplitr; · (iapply (Entails.of_eq (cinv_def m K _)); iexact IaR11)
    isplitr; · (iapply (Entails.of_eq (cinv_def m K _)); iexact IaR12)
    isplitr; · (iapply (Entails.of_eq (cinv_def m K _)); iexact IaR13)
    isplitr; · (iapply (Entails.of_eq (cinv_def m K _)); iexact IaR20)
    isplitr; · (iapply (Entails.of_eq (cinv_def m K _)); iexact IaR21)
    isplitr; · (iapply (Entails.of_eq (cinv_def m K _)); iexact IaR22)
    isplitr; · (iapply (Entails.of_eq (cinv_def m K _)); iexact IaR23)
    isplitr; · (iapply (Entails.of_eq (cinv_def m K _)); iexact IaR30)
    isplitr; · (iapply (Entails.of_eq (cinv_def m K _)); iexact IaR31)
    isplitr; · (iapply (Entails.of_eq (cinv_def m K _)); iexact IaR32)
    isplitr; · (iapply (Entails.of_eq (cinv_def m K _)); iexact IaR33)
    isplitr; · (iapply (Entails.of_eq (cinv_def m K _)); iexact IpR10)
    isplitr; · (iapply (Entails.of_eq (cinv_def m K _)); iexact IpR11)
    isplitr; · (iapply (Entails.of_eq (cinv_def m K _)); iexact IpR12)
    isplitr; · (iapply (Entails.of_eq (cinv_def m K _)); iexact IpR13)
    isplitr; · (iapply (Entails.of_eq (cinv_def m K _)); iexact IpR20)
    isplitr; · (iapply (Entails.of_eq (cinv_def m K _)); iexact IpR21)
    isplitr; · (iapply (Entails.of_eq (cinv_def m K _)); iexact IpR22)
    isplitr; · (iapply (Entails.of_eq (cinv_def m K _)); iexact IpR23)
    isplitr; · (iapply (Entails.of_eq (cinv_def m K _)); iexact IpR30)
    isplitr; · (iapply (Entails.of_eq (cinv_def m K _)); iexact IpR31)
    isplitr; · (iapply (Entails.of_eq (cinv_def m K _)); iexact IpR32)
    isplitr; · (iapply (Entails.of_eq (cinv_def m K _)); iexact IpR33)
    isplitr; · (iapply (Entails.of_eq (cinv_def m K _)); iexact IpA10)
    isplitr; · (iapply (Entails.of_eq (cinv_def m K _)); iexact IpA11)
    isplitr; · (iapply (Entails.of_eq (cinv_def m K _)); iexact IpA12)
    isplitr; · (iapply (Entails.of_eq (cinv_def m K _)); iexact IpA13)
    isplitr; · (iapply (Entails.of_eq (cinv_def m K _)); iexact IpA20)
    isplitr; · (iapply (Entails.of_eq (cinv_def m K _)); iexact IpA21)
    isplitr; · (iapply (Entails.of_eq (cinv_def m K _)); iexact IpA22)
    isplitr; · (iapply (Entails.of_eq (cinv_def m K _)); iexact IpA23)
    isplitr; · (iapply (Entails.of_eq (cinv_def m K _)); iexact IpA30)
    isplitr; · (iapply (Entails.of_eq (cinv_def m K _)); iexact IpA31)
    isplitr; · (iapply (Entails.of_eq (cinv_def m K _)); iexact IpA32)
    isplitr; · (iapply (Entails.of_eq (cinv_def m K _)); iexact IpA33)
    isplitr; · iexact Rb1
    isplitr; · iexact Rb2
    isplitr; · iexact Rb3
    isplitr; · iexact RsS10
    isplitr; · iexact RsS11
    isplitr; · iexact RsS12
    isplitr; · iexact RsS13
    isplitr; · iexact RsS20
    isplitr; · iexact RsS21
    isplitr; · iexact RsS22
    isplitr; · iexact RsS23
    isplitr; · iexact RsS30
    isplitr; · iexact RsS31
    isplitr; · iexact RsS32
    isplitr; · iexact RsS33
    isplitr; · iexact RaS10
    isplitr; · iexact RaS11
    isplitr; · iexact RaS12
    isplitr; · iexact RaS13
    isplitr; · iexact RaS20
    isplitr; · iexact RaS21
    isplitr; · iexact RaS22
    isplitr; · iexact RaS23
    isplitr; · iexact RaS30
    isplitr; · iexact RaS31
    isplitr; · iexact RaS32
    isplitr; · iexact RaS33
    isplitr; · iexact RpR10
    isplitr; · iexact RpR11
    isplitr; · iexact RpR12
    isplitr; · iexact RpR13
    isplitr; · iexact RpR20
    isplitr; · iexact RpR21
    isplitr; · iexact RpR22
    isplitr; · iexact RpR23
    isplitr; · iexact RpR30
    isplitr; · iexact RpR31
    isplitr; · iexact RpR32
    isplitr; · iexact RpR33
    isplitr; · iexact RpA10
    isplitr; · iexact RpA11
    isplitr; · iexact RpA12
    isplitr; · iexact RpA13
    isplitr; · iexact RpA20
    isplitr; · iexact RpA21
    isplitr; · iexact RpA22
    isplitr; · iexact RpA23
    isplitr; · iexact RpA30
    isplitr; · iexact RpA31
    isplitr; · iexact RpA32
    isplitr; · iexact RpA33
    isplitr; · iexact Hlev
    isplitl [Pb]; · iexact Pb
    isplitl [PsS00]; · iexact PsS00
    isplitl [PsS01]; · iexact PsS01
    isplitl [PsS02]; · iexact PsS02
    isplitl [PsS03]; · iexact PsS03
    isplitl [PsS10]; · iexact PsS10
    isplitl [PsS11]; · iexact PsS11
    isplitl [PsS12]; · iexact PsS12
    isplitl [PsS13]; · iexact PsS13
    isplitl [PsS20]; · iexact PsS20
    isplitl [PsS21]; · iexact PsS21
    isplitl [PsS22]; · iexact PsS22
    isplitl [PsS23]; · iexact PsS23
    isplitl [PsS30]; · iexact PsS30
    isplitl [PsS31]; · iexact PsS31
    isplitl [PsS32]; · iexact PsS32
    isplitl [PsS33]; · iexact PsS33
    isplitl [PsR00]; · iexact PsR00
    isplitl [PsR01]; · iexact PsR01
    isplitl [PsR02]; · iexact PsR02
    isplitl [PsR03]; · iexact PsR03
    isplitl [PsR10]; · iexact PsR10
    isplitl [PsR11]; · iexact PsR11
    isplitl [PsR12]; · iexact PsR12
    isplitl [PsR13]; · iexact PsR13
    isplitl [PsR20]; · iexact PsR20
    isplitl [PsR21]; · iexact PsR21
    isplitl [PsR22]; · iexact PsR22
    isplitl [PsR23]; · iexact PsR23
    isplitl [PsR30]; · iexact PsR30
    isplitl [PsR31]; · iexact PsR31
    isplitl [PsR32]; · iexact PsR32
    isplitl [PsR33]; · iexact PsR33
    isplitl [PaS00]; · iexact PaS00
    isplitl [PaS01]; · iexact PaS01
    isplitl [PaS02]; · iexact PaS02
    isplitl [PaS03]; · iexact PaS03
    isplitl [PaS10]; · iexact PaS10
    isplitl [PaS11]; · iexact PaS11
    isplitl [PaS12]; · iexact PaS12
    isplitl [PaS13]; · iexact PaS13
    isplitl [PaS20]; · iexact PaS20
    isplitl [PaS21]; · iexact PaS21
    isplitl [PaS22]; · iexact PaS22
    isplitl [PaS23]; · iexact PaS23
    isplitl [PaS30]; · iexact PaS30
    isplitl [PaS31]; · iexact PaS31
    isplitl [PaS32]; · iexact PaS32
    isplitl [PaS33]; · iexact PaS33
    isplitl [PaR00]; · iexact PaR00
    isplitl [PaR01]; · iexact PaR01
    isplitl [PaR02]; · iexact PaR02
    isplitl [PaR03]; · iexact PaR03
    isplitl [PaR10]; · iexact PaR10
    isplitl [PaR11]; · iexact PaR11
    isplitl [PaR12]; · iexact PaR12
    isplitl [PaR13]; · iexact PaR13
    isplitl [PaR20]; · iexact PaR20
    isplitl [PaR21]; · iexact PaR21
    isplitl [PaR22]; · iexact PaR22
    isplitl [PaR23]; · iexact PaR23
    isplitl [PaR30]; · iexact PaR30
    isplitl [PaR31]; · iexact PaR31
    isplitl [PaR32]; · iexact PaR32
    isplitl [PaR33]; · iexact PaR33
    isplitl [Ha]; · iexact Ha
    isplitl [Hb]; · iexact Hb
    isplitl [Hs10]; · iexact Hs10
    isplitl [Hs11]; · iexact Hs11
    isplitl [Hs12]; · iexact Hs12
    isplitl [Hs13]; · iexact Hs13
    isplitl [Hs20]; · iexact Hs20
    isplitl [Hs21]; · iexact Hs21
    isplitl [Hs22]; · iexact Hs22
    isplitl [Hs23]; · iexact Hs23
    isplitl [Hs30]; · iexact Hs30
    isplitl [Hs31]; · iexact Hs31
    isplitl [Hs32]; · iexact Hs32
    isplitl [Hs33]; · iexact Hs33
    isplitl [Hpr]; · iexact Hpr
    isplitl [Hr10]; · iexact Hr10
    isplitl [Hr11]; · iexact Hr11
    isplitl [Hr12]; · iexact Hr12
    isplitl [Hr13]; · iexact Hr13
    isplitl [Hr20]; · iexact Hr20
    isplitl [Hr21]; · iexact Hr21
    isplitl [Hr22]; · iexact Hr22
    isplitl [Hr23]; · iexact Hr23
    isplitl [Hr30]; · iexact Hr30
    isplitl [Hr31]; · iexact Hr31
    isplitl [Hr32]; · iexact Hr32
    isplitl [Hr33]; · iexact Hr33
    isplitl [Hrr]; · iexact Hrr
    isplitl [Ho00_2]; · iexact Ho00_2
    isplitl [Ho00_1]; · iexact Ho00_1
    isplitl [Ho00_3]; · iexact Ho00_3
    isplitl [Ho01_2]; · iexact Ho01_2
    isplitl [Ho01_1]; · iexact Ho01_1
    isplitl [Ho01_3]; · iexact Ho01_3
    isplitl [Ho02_2]; · iexact Ho02_2
    isplitl [Ho02_1]; · iexact Ho02_1
    isplitl [Ho02_3]; · iexact Ho02_3
    isplitl [Ho03_2]; · iexact Ho03_2
    isplitl [Ho03_1]; · iexact Ho03_1
    isplitl [Ho03_3]; · iexact Ho03_3
    isplitl [Ho10]; · iexact Ho10
    isplitl [Ho11]; · iexact Ho11
    isplitl [Ho12]; · iexact Ho12
    isplitl [Ho13]; · iexact Ho13
    isplitl [Ho20]; · iexact Ho20
    isplitl [Ho21]; · iexact Ho21
    isplitl [Ho22]; · iexact Ho22
    isplitl [Ho23]; · iexact Ho23
    isplitl [Ho30]; · iexact Ho30
    isplitl [Ho31]; · iexact Ho31
    isplitl [Ho32]; · iexact Ho32
    isplitl [Ho33]; · iexact Ho33
    (iexists _; iexact HO)
  imodintro
  iapply Hk
  iexact Hc

end Cert.KernelIdeal.Hand
end
-- ==== Proof.KernelIdealLaunchGhost.lean ====
/-
  The launch's ghost state: the cells and duty tokens of the four devices funded at once, each cell's invariant
  allocated, and the tokens dealt from the cells' owners to the devices that pay them.
-/
import proofs.«900554_g7700000000000555_dist_matmul_gelu_kshard_i_m512_n512_k256_v7x_i4_bf16_1_alg».proof.Proof.KernelIdealState

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

theorem csem_injective : Function.Injective csem := by
  intro j j' h
  unfold csem at h
  split at h <;> split at h
  · exact Fin.ext (by omega)
  · cases h
  · cases h
  · have h2 : j.val + 2 = j'.val + 2 := congrArg Fin.val (SemLoc.dma.inj h)
    exact Fin.ext (by omega)

theorem kcell_injective : Function.Injective (kcell : Dev nD × Fin 65 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

theorem csem_jOf0 : ∀ a b : Fin 4, csem (jOf 0 a b) = .dma (semOf cc0_scratch2 a b) := by decide
theorem csem_jOf1 : ∀ a b : Fin 4, csem (jOf 1 a b) = .dma (semOf cc0_scratch3 a b) := by decide
theorem csem_jOf2 : ∀ a b : Fin 4, csem (jOf 2 a b) = .dma (semOf cc0_scratch4 a b) := by decide
theorem csem_jOf3 : ∀ a b : Fin 4, csem (jOf 3 a b) = .dma (semOf cc0_scratch5 a b) := by decide

theorem kcell_bar (c : Dev nD) : kcell (c, 0) = barCell c := rfl
theorem kcell_rsS (c : Dev nD) (a b : Fin 4) : kcell (c, jOf 0 a b) = rsS c a b := by unfold kcell; rw [csem_jOf0]
theorem kcell_rsR (c : Dev nD) (a b : Fin 4) : kcell (c, jOf 1 a b) = rsR c a b := by unfold kcell; rw [csem_jOf1]
theorem kcell_agS (c : Dev nD) (a b : Fin 4) : kcell (c, jOf 2 a b) = agS c a b := by unfold kcell; rw [csem_jOf2]
theorem kcell_agR (c : Dev nD) (a b : Fin 4) : kcell (c, jOf 3 a b) = agR c a b := by unfold kcell; rw [csem_jOf3]

/-! ## The ring: the device `d` places on -/

theorem pl_zero (c : Dev nD) : pl c 0 = c := by revert c; decide

/-- Going `d` places on is a permutation of the four devices. -/
def plE (d : ℕ) : Dev nD ≃ Dev nD where
  toFun c := pl c d
  invFun c := pl c (4 - d % 4)
  left_inv c := by
    apply Fin.ext; show ((c.val + d) % 4 + (4 - d % 4)) % 4 = c.val
    have hc : c.val < 4 := c.isLt; have hd : d % 4 < 4 := Nat.mod_lt _ (by decide); omega
  right_inv c := by
    apply Fin.ext; show ((c.val + (4 - d % 4)) % 4 + d) % 4 = c.val
    have hc : c.val < 4 := c.isLt; have hd : d % 4 < 4 := Nat.mod_lt _ (by decide); omega

/-! ## The duty tokens, indexed so that a token's owner and its payer differ by a rotation only -/

/-- A device's tokens: the three entry signals; per offset and piece the four cells of the two copies. -/
abbrev TokIx : Type := Fin 3 ⊕ ((Fin 3 × Fin 4) × Fin 4)

/-- The cell a token is minted on (numbered on its owner): a receive cell is listed under the offset of the device that
    pays it, so at row `4 − offset`. -/
def tokCell : TokIx → Fin 65
  | .inl _ => 0
  | .inr (x, 0) => jOf 0 x.1.succ x.2
  | .inr (x, 1) => jOf 1 x.1.rev.succ x.2
  | .inr (x, 2) => jOf 2 x.1.succ x.2
  | .inr (x, 3) => jOf 3 x.1.rev.succ x.2
/-- its duty, -/
def tokDuty : TokIx → Fin 4
  | .inl d => d.succ
  | .inr _ => 0
/-- and how many places before the owner its payer sits. -/
def tokOff : TokIx → ℕ
  | .inl d => d.val + 1
  | .inr (_, 0) => 0
  | .inr (x, 1) => x.1.val + 1
  | .inr (_, 2) => 0
  | .inr (x, 3) => x.1.val + 1

theorem jd_injective : Function.Injective fun t : TokIx => (tokCell t, tokDuty t) := by decide

abbrev tokOf (ct : Dev nD × TokIx) : GSem nD τ sig × ℕ × Fin 4 := (kcell (ct.1, tokCell ct.2), 0, tokDuty ct.2)

theorem tokOf_injective : Function.Injective (tokOf : Dev nD × TokIx → GSem nD τ sig × ℕ × Fin 4) := by
  rintro ⟨c, t⟩ ⟨c', t'⟩ h
  have h1 : (c, tokCell t) = (c', tokCell t') := kcell_injective (congrArg (fun x : GSem nD τ sig × ℕ × Fin 4 => x.1) h)
  have h2 : tokDuty t = tokDuty t' := congrArg (fun x : GSem nD τ sig × ℕ × Fin 4 => x.2.2) h
  have h3 : t = t' := jd_injective (Prod.ext (congrArg Prod.snd h1) h2)
  have hc : c = c' := congrArg Prod.fst h1
  rw [hc, h3]

def ringToks : Finset (GSem nD τ sig × ℕ × Fin 4) := Finset.univ.map ⟨tokOf, tokOf_injective⟩

/-- The tokens minted on device `c`'s cells, -/
def toks (c : Dev nD) : sProp 𝕄 := bigSep Finset.univ fun t : TokIx => dutyTok ER (kcell (c, tokCell t)) 0 (tokDuty t)
/-- and those device `c` pays with: each minted on the device `tokOff` places on. -/
def payToks' (c : Dev nD) : sProp 𝕄 := bigSep Finset.univ fun t : TokIx => dutyTok ER (kcell (pl c (tokOff t), tokCell t)) 0 (tokDuty t)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem payToks'_eq (c : Dev nD) : (payToks' c : sProp 𝕄) = payToks c := by
  unfold payToks' payToks
  rw [bigSep_univ_sum, bigSep_fin3, bigSep_univ_prod]
  congr 1
  refine bigSep_congr fun x _ => ?_
  rw [bigSep_fin4]
  show iprop(dutyTok ER (kcell (pl c 0, jOf 0 x.1.succ x.2)) 0 0 ∗ dutyTok ER (kcell (pl c (x.1.val + 1), jOf 1 x.1.rev.succ x.2)) 0 0
    ∗ dutyTok ER (kcell (pl c 0, jOf 2 x.1.succ x.2)) 0 0 ∗ dutyTok ER (kcell (pl c (x.1.val + 1), jOf 3 x.1.rev.succ x.2)) 0 0) = _
  rw [pl_zero, kcell_rsS, kcell_rsR, kcell_agS, kcell_agR]

omit [FloatOps F] in
/-- The tokens dealt around the ring: each from its cell's owner to the device that many places before it. -/
theorem toks_around : (bigSep Finset.univ fun c : Dev nD => (toks c : sProp 𝕄)) ⊢ bigSep Finset.univ fun c : Dev nD => payToks c := by
  refine Entails.of_eq ?_
  rw [bigSep_congr (s := Finset.univ) fun (c : Dev nD) _ => (payToks'_eq (F := F) c).symm]
  unfold toks payToks'
  rw [bigSep_univ_comm, bigSep_univ_comm (fun (c : Dev nD) (t : TokIx) => (dutyTok ER (kcell (pl c (tokOff t), tokCell t)) 0 (tokDuty t) : sProp 𝕄))]
  exact bigSep_congr fun t _ => bigSep_univ_equiv (plE (tokOff t)) (fun c : Dev nD => (dutyTok ER (kcell (c, tokCell t)) 0 (tokDuty t) : sProp 𝕄))

/-! ## Funding: the launch element, and what it deals each device -/

def u₀ : UU :=
  (initOf (Pipeline.cells cfgs cellOf_inj) (Pipeline.launchToks cfgs cellOf_inj), initOf ringCells ringToks)

/-- What the launch element deals device `c`: its cells' round states, its positions and the reached-marks, the tokens
    minted on its cells. -/
def G (c : Dev nD) : sProp 𝕄 :=
  iprop((bigSep Finset.univ fun k : Fin 65 => roundState ER (Rd m) (kcell (c, k)) 0)
    ∗ (bigSep Finset.univ fun k : Fin 65 => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 65 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero: the sixty-four scratch ones the kernel's own, the barrier's the runtime's -/

abbrev osem : Fin 64 → SemLoc sig := fun j => csem j.succ

theorem bigSep_fin_succ {n : ℕ} (Φ : Fin (n + 1) → sProp 𝕄) : bigSep Finset.univ Φ = iprop(Φ 0 ∗ bigSep Finset.univ fun j : Fin n => Φ j.succ) := by
  rw [Fin.univ_succ, Finset.cons_eq_insert, bigSep_insert (by simp [Fin.succ_ne_zero]), bigSep_map]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 65 => semVal (kcell (c, k)) 0 : sProp 𝕄) := by
  rw [unscopedSems0_eq, bigSep_fin_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 65 → ℕ) (c : Dev nD) : iprop(records m K ∗ positions c ∗ payToks c) ⊢ G' m c := by
  unfold G' ghost
  iintro H; iexists K; iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 65 => iprop(∃ κ : ℕ, cellInv ER (Rd m) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.Hand.glob' depends on axioms: [propext, Classical.choice, Quot.sound] -/
#guard_msgs in #print axioms glob

end Cert.KernelIdeal.Hand

end
-- ==== Proof.KernelIdealBodyOpenA.lean ====
/-
  From what the launch hands a device to the table of everything it holds: the invariants and reached rounds of the cells it uses, read off the launch's records.
-/
import proofs.«900554_g7700000000000555_dist_matmul_gelu_kshard_i_m512_n512_k256_v7x_i4_bf16_1_alg».proof.Proof.KernelIdealBodyDefs
import proofs.«900554_g7700000000000555_dist_matmul_gelu_kshard_i_m512_n512_k256_v7x_i4_bf16_1_alg».proof.Proof.KernelIdealLaunchGhost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chains -/

/-- A chain over two lists laid end to end is the two chains. -/
theorem bigSepL_id_append : ∀ (l1 l2 : List (sProp 𝕄)), bigSepL (l1 ++ l2) id = iprop(bigSepL l1 id ∗ bigSepL l2 id)
  | [], l2 => by
    rw [List.nil_append, bigSepL_nil]
    exact (BI.equiv_iff.mp ⟨(BIClass.emp_sep (P := bigSepL l2 id)).1, (BIClass.emp_sep (P := bigSepL l2 id)).2⟩).symm
  | P :: l1, l2 => by
    rw [List.cons_append, bigSepL_cons, bigSepL_cons, bigSepL_id_append l1 l2]
    exact (BI.equiv_iff.mp ⟨(Laws.sep_assoc (P := id P) (Q := bigSepL l1 id) (R := bigSepL l2 id)).1, (Laws.sep_assoc (P := id P) (Q := bigSepL l1 id) (R := bigSepL l2 id)).2⟩).symm

/-- `P` gives every assertion on the list. -/
def allEnt (P : sProp 𝕄) : List (sProp 𝕄) → Prop
  | [] => True
  | Q :: L => (P ⊢ Q) ∧ allEnt P L

/-- A persistent assertion that gives each link of a chain gives the chain. -/
theorem persistent_chain (P : sProp 𝕄) [BI.Persistent P] : ∀ L : List (sProp 𝕄), allEnt (F := F) P L → P ⊢ bigSepL L id
  | [], _ => by
    rw [bigSepL_nil]
    iintro -
    iempintro
  | Q :: L, h => by
    rw [bigSepL_cons]
    have h1 : P ⊢ Q := h.1
    have h2 := persistent_chain P L h.2
    show P ⊢ iprop(Q ∗ bigSepL L id)
    iintro #H
    isplitl []
    · iapply h1; iexact H
    · iapply h2; iexact H

/-! ## One name function for all the cells -/

/-- A cell's number among its device's sixty-five: the inverse of `csem`. -/
def jInv : SemLoc sig → Fin 65
  | .reg _ => 0
  | .dma q => if h : 3 ≤ q.val then ⟨q.val - 2, by have h67 : q.val < 67 := q.isLt; omega⟩ else 0

theorem jInv_csem (j : Fin 65) : jInv (csem j) = j := by
  unfold csem
  split
  · rename_i h0
    exact Fin.ext h0.symm
  · rename_i h0
    show (if h : 3 ≤ j.val + 2 then (⟨j.val + 2 - 2, _⟩ : Fin 65) else 0) = j
    rw [dif_pos (by omega)]
    exact Fin.ext (by show j.val + 2 - 2 = j.val; omega)

/-- The launch's names, as one function of the cell. -/
def Kof (K : Dev nD × Fin 65 → ℕ) : GSem nD τ sig → ℕ := fun g => K (g.1.1, jInv g.2)

theorem Kof_kcell (K : Dev nD × Fin 65 → ℕ) (ck : Dev nD × Fin 65) : Kof K (kcell ck) = K ck := by
  show K (ck.1, jInv (csem ck.2)) = K ck
  rw [jInv_csem]

/-! ## A cell's invariant and its reached round, off the records -/

theorem inv_kcell (K : Dev nD × Fin 65 → ℕ) (ck : Dev nD × Fin 65) :
    records m K ⊢ cellInv ER (Rd m) (Kof K (kcell ck)) (kcell ck) := by
  rw [Kof_kcell]
  unfold records
  have hb : (bigSep Finset.univ fun ck : Dev nD × Fin 65 => cellInv ER (Rd m) (K ck) (kcell ck)) ⊢ cellInv ER (Rd m) (K ck) (kcell ck) :=
    bigSep_elim (Finset.mem_univ ck)
  iintro ⟨H, -⟩
  iapply hb
  iexact H

theorem reach_kcell (K : Dev nD × Fin 65 → ℕ) (ck : Dev nD × Fin 65) :
    records m K ⊢ reached ER (kcell ck) 0 := by
  unfold records
  have hb : (bigSep Finset.univ fun ck : Dev nD × Fin 65 => (reached ER (kcell ck) 0 : sProp 𝕄)) ⊢ reached ER (kcell ck) 0 :=
    bigSep_elim (Finset.mem_univ ck)
  iintro ⟨-, H⟩
  iapply hb
  iexact H

theorem inv_bar (K : Dev nD × Fin 65 → ℕ) (x : Dev nD) : records m K ⊢ cellInv ER (Rd m) (Kof K (barCell x)) (barCell x) := by
  have h := inv_kcell m K (x, 0); rw [kcell_bar] at h; exact h
theorem inv_rsS (K : Dev nD × Fin 65 → ℕ) (x : Dev nD) (a b : Fin 4) : records m K ⊢ cellInv ER (Rd m) (Kof K (rsS x a b)) (rsS x a b) := by
  have h := inv_kcell m K (x, jOf 0 a b); rw [kcell_rsS] at h; exact h
theorem inv_rsR (K : Dev nD × Fin 65 → ℕ) (x : Dev nD) (a b : Fin 4) : records m K ⊢ cellInv ER (Rd m) (Kof K (rsR x a b)) (rsR x a b) := by
  have h := inv_kcell m K (x, jOf 1 a b); rw [kcell_rsR] at h; exact h
theorem inv_agS (K : Dev nD × Fin 65 → ℕ) (x : Dev nD) (a b : Fin 4) : records m K ⊢ cellInv ER (Rd m) (Kof K (agS x a b)) (agS x a b) := by
  have h := inv_kcell m K (x, jOf 2 a b); rw [kcell_agS] at h; exact h
theorem inv_agR (K : Dev nD × Fin 65 → ℕ) (x : Dev nD) (a b : Fin 4) : records m K ⊢ cellInv ER (Rd m) (Kof K (agR x a b)) (agR x a b) := by
  have h := inv_kcell m K (x, jOf 3 a b); rw [kcell_agR] at h; exact h

theorem reach_bar (K : Dev nD × Fin 65 → ℕ) (x : Dev nD) : records m K ⊢ reached ER (barCell x) 0 := by
  have h := reach_kcell m K (x, 0); rw [kcell_bar] at h; exact h
theorem reach_rsS (K : Dev nD × Fin 65 → ℕ) (x : Dev nD) (a b : Fin 4) : records m K ⊢ reached ER (rsS x a b) 0 := by
  have h := reach_kcell m K (x, jOf 0 a b); rw [kcell_rsS] at h; exact h
theorem reach_rsR (K : Dev nD × Fin 65 → ℕ) (x : Dev nD) (a b : Fin 4) : records m K ⊢ reached ER (rsR x a b) 0 := by
  have h := reach_kcell m K (x, jOf 1 a b); rw [kcell_rsR] at h; exact h
theorem reach_agS (K : Dev nD × Fin 65 → ℕ) (x : Dev nD) (a b : Fin 4) : records m K ⊢ reached ER (agS x a b) 0 := by
  have h := reach_kcell m K (x, jOf 2 a b); rw [kcell_agS] at h; exact h
theorem reach_agR (K : Dev nD × Fin 65 → ℕ) (x : Dev nD) (a b : Fin 4) : records m K ⊢ reached ER (agR x a b) 0 := by
  have h := reach_kcell m K (x, jOf 3 a b); rw [kcell_agR] at h; exact h

/-! ## The invariants and the reached rounds device `c` uses -/

/-- The invariants of the device's own cells and of the cells it pays, at the names `K`. -/
def invList (K : GSem nD τ sig → ℕ) (c : Dev nD) : List (sProp 𝕄) :=
  [cinv m K (barCell c),
   cinv m K (barCell (pl c 1)),
   cinv m K (barCell (pl c 2)),
   cinv m K (barCell (pl c 3)),
   cinv m K (rsS c 0 0),
   cinv m K (rsS c 0 1),
   cinv m K (rsS c 0 2),
   cinv m K (rsS c 0 3),
   cinv m K (rsR c 0 0),
   cinv m K (rsR c 0 1),
   cinv m K (rsR c 0 2),
   cinv m K (rsR c 0 3),
   cinv m K (agS c 0 0),
   cinv m K (agS c 0 1),
   cinv m K (agS c 0 2),
   cinv m K (agS c 0 3),
   cinv m K (agR c 0 0),
   cinv m K (agR c 0 1),
   cinv m K (agR c 0 2),
   cinv m K (agR c 0 3),
   cinv m K (rsS c 1 0),
   cinv m K (rsS c 1 1),
   cinv m K (rsS c 1 2),
   cinv m K (rsS c 1 3),
   cinv m K (rsS c 2 0),
   cinv m K (rsS c 2 1),
   cinv m K (rsS c 2 2),
   cinv m K (rsS c 2 3),
   cinv m K (rsS c 3 0),
   cinv m K (rsS c 3 1),
   cinv m K (rsS c 3 2),
   cinv m K (rsS c 3 3),
   cinv m K (rsR c 1 0),
   cinv m K (rsR c 1 1),
   cinv m K (rsR c 1 2),
   cinv m K (rsR c 1 3),
   cinv m K (rsR c 2 0),
   cinv m K (rsR c 2 1),
   cinv m K (rsR c 2 2),
   cinv m K (rsR c 2 3),
   cinv m K (rsR c 3 0),
   cinv m K (rsR c 3 1),
   cinv m K (rsR c 3 2),
   cinv m K (rsR c 3 3),
   cinv m K (agS c 1 0),
   cinv m K (agS c 1 1),
   cinv m K (agS c 1 2),
   cinv m K (agS c 1 3),
   cinv m K (agS c 2 0),
   cinv m K (agS c 2 1),
   cinv m K (agS c 2 2),
   cinv m K (agS c 2 3),
   cinv m K (agS c 3 0),
   cinv m K (agS c 3 1),
   cinv m K (agS c 3 2),
   cinv m K (agS c 3 3),
   cinv m K (agR c 1 0),
   cinv m K (agR c 1 1),
   cinv m K (agR c 1 2),
   cinv m K (agR c 1 3),
   cinv m K (agR c 2 0),
   cinv m K (agR c 2 1),
   cinv m K (agR c 2 2),
   cinv m K (agR c 2 3),
   cinv m K (agR c 3 0),
   cinv m K (agR c 3 1),
   cinv m K (agR c 3 2),
   cinv m K (agR c 3 3),
   cinv m K (rsR (pl c 1) 3 0),
   cinv m K (rsR (pl c 1) 3 1),
   cinv m K (rsR (pl c 1) 3 2),
   cinv m K (rsR (pl c 1) 3 3),
   cinv m K (rsR (pl c 2) 2 0),
   cinv m K (rsR (pl c 2) 2 1),
   cinv m K (rsR (pl c 2) 2 2),
   cinv m K (rsR (pl c 2) 2 3),
   cinv m K (rsR (pl c 3) 1 0),
   cinv m K (rsR (pl c 3) 1 1),
   cinv m K (rsR (pl c 3) 1 2),
   cinv m K (rsR (pl c 3) 1 3),
   cinv m K (agR (pl c 1) 3 0),
   cinv m K (agR (pl c 1) 3 1),
   cinv m K (agR (pl c 1) 3 2),
   cinv m K (agR (pl c 1) 3 3),
   cinv m K (agR (pl c 2) 2 0),
   cinv m K (agR (pl c 2) 2 1),
   cinv m K (agR (pl c 2) 2 2),
   cinv m K (agR (pl c 2) 2 3),
   cinv m K (agR (pl c 3) 1 0),
   cinv m K (agR (pl c 3) 1 1),
   cinv m K (agR (pl c 3) 1 2),
   cinv m K (agR (pl c 3) 1 3)]

/-- The reached rounds of the cells it pays. -/
def reachList (c : Dev nD) : List (sProp 𝕄) :=
  [reached ER (barCell (pl c 1)) 0,
   reached ER (barCell (pl c 2)) 0,
   reached ER (barCell (pl c 3)) 0,
   reached ER (rsS c 1 0) 0,
   reached ER (rsS c 1 1) 0,
   reached ER (rsS c 1 2) 0,
   reached ER (rsS c 1 3) 0,
   reached ER (rsS c 2 0) 0,
   reached ER (rsS c 2 1) 0,
   reached ER (rsS c 2 2) 0,
   reached ER (rsS c 2 3) 0,
   reached ER (rsS c 3 0) 0,
   reached ER (rsS c 3 1) 0,
   reached ER (rsS c 3 2) 0,
   reached ER (rsS c 3 3) 0,
   reached ER (agS c 1 0) 0,
   reached ER (agS c 1 1) 0,
   reached ER (agS c 1 2) 0,
   reached ER (agS c 1 3) 0,
   reached ER (agS c 2 0) 0,
   reached ER (agS c 2 1) 0,
   reached ER (agS c 2 2) 0,
   reached ER (agS c 2 3) 0,
   reached ER (agS c 3 0) 0,
   reached ER (agS c 3 1) 0,
   reached ER (agS c 3 2) 0,
   reached ER (agS c 3 3) 0,
   reached ER (rsR (pl c 1) 3 0) 0,
   reached ER (rsR (pl c 1) 3 1) 0,
   reached ER (rsR (pl c 1) 3 2) 0,
   reached ER (rsR (pl c 1) 3 3) 0,
   reached ER (rsR (pl c 2) 2 0) 0,
   reached ER (rsR (pl c 2) 2 1) 0,
   reached ER (rsR (pl c 2) 2 2) 0,
   reached ER (rsR (pl c 2) 2 3) 0,
   reached ER (rsR (pl c 3) 1 0) 0,
   reached ER (rsR (pl c 3) 1 1) 0,
   reached ER (rsR (pl c 3) 1 2) 0,
   reached ER (rsR (pl c 3) 1 3) 0,
   reached ER (agR (pl c 1) 3 0) 0,
   reached ER (agR (pl c 1) 3 1) 0,
   reached ER (agR (pl c 1) 3 2) 0,
   reached ER (agR (pl c 1) 3 3) 0,
   reached ER (agR (pl c 2) 2 0) 0,
   reached ER (agR (pl c 2) 2 1) 0,
   reached ER (agR (pl c 2) 2 2) 0,
   reached ER (agR (pl c 2) 2 3) 0,
   reached ER (agR (pl c 3) 1 0) 0,
   reached ER (agR (pl c 3) 1 1) 0,
   reached ER (agR (pl c 3) 1 2) 0,
   reached ER (agR (pl c 3) 1 3) 0]

theorem open_inv (K : Dev nD × Fin 65 → ℕ) (c : Dev nD) : records m K ⊢ bigSepL (invList m (Kof K) c) id :=
  persistent_chain (records m K) (invList m (Kof K) c)
    ⟨inv_bar m K c,
     inv_bar m K (pl c 1),
     inv_bar m K (pl c 2),
     inv_bar m K (pl c 3),
     inv_rsS m K c 0 0,
     inv_rsS m K c 0 1,
     inv_rsS m K c 0 2,
     inv_rsS m K c 0 3,
     inv_rsR m K c 0 0,
     inv_rsR m K c 0 1,
     inv_rsR m K c 0 2,
     inv_rsR m K c 0 3,
     inv_agS m K c 0 0,
     inv_agS m K c 0 1,
     inv_agS m K c 0 2,
     inv_agS m K c 0 3,
     inv_agR m K c 0 0,
     inv_agR m K c 0 1,
     inv_agR m K c 0 2,
     inv_agR m K c 0 3,
     inv_rsS m K c 1 0,
     inv_rsS m K c 1 1,
     inv_rsS m K c 1 2,
     inv_rsS m K c 1 3,
     inv_rsS m K c 2 0,
     inv_rsS m K c 2 1,
     inv_rsS m K c 2 2,
     inv_rsS m K c 2 3,
     inv_rsS m K c 3 0,
     inv_rsS m K c 3 1,
     inv_rsS m K c 3 2,
     inv_rsS m K c 3 3,
     inv_rsR m K c 1 0,
     inv_rsR m K c 1 1,
     inv_rsR m K c 1 2,
     inv_rsR m K c 1 3,
     inv_rsR m K c 2 0,
     inv_rsR m K c 2 1,
     inv_rsR m K c 2 2,
     inv_rsR m K c 2 3,
     inv_rsR m K c 3 0,
     inv_rsR m K c 3 1,
     inv_rsR m K c 3 2,
     inv_rsR m K c 3 3,
     inv_agS m K c 1 0,
     inv_agS m K c 1 1,
     inv_agS m K c 1 2,
     inv_agS m K c 1 3,
     inv_agS m K c 2 0,
     inv_agS m K c 2 1,
     inv_agS m K c 2 2,
     inv_agS m K c 2 3,
     inv_agS m K c 3 0,
     inv_agS m K c 3 1,
     inv_agS m K c 3 2,
     inv_agS m K c 3 3,
     inv_agR m K c 1 0,
     inv_agR m K c 1 1,
     inv_agR m K c 1 2,
     inv_agR m K c 1 3,
     inv_agR m K c 2 0,
     inv_agR m K c 2 1,
     inv_agR m K c 2 2,
     inv_agR m K c 2 3,
     inv_agR m K c 3 0,
     inv_agR m K c 3 1,
     inv_agR m K c 3 2,
     inv_agR m K c 3 3,
     inv_rsR m K (pl c 1) 3 0,
     inv_rsR m K (pl c 1) 3 1,
     inv_rsR m K (pl c 1) 3 2,
     inv_rsR m K (pl c 1) 3 3,
     inv_rsR m K (pl c 2) 2 0,
     inv_rsR m K (pl c 2) 2 1,
     inv_rsR m K (pl c 2) 2 2,
     inv_rsR m K (pl c 2) 2 3,
     inv_rsR m K (pl c 3) 1 0,
     inv_rsR m K (pl c 3) 1 1,
     inv_rsR m K (pl c 3) 1 2,
     inv_rsR m K (pl c 3) 1 3,
     inv_agR m K (pl c 1) 3 0,
     inv_agR m K (pl c 1) 3 1,
     inv_agR m K (pl c 1) 3 2,
     inv_agR m K (pl c 1) 3 3,
     inv_agR m K (pl c 2) 2 0,
     inv_agR m K (pl c 2) 2 1,
     inv_agR m K (pl c 2) 2 2,
     inv_agR m K (pl c 2) 2 3,
     inv_agR m K (pl c 3) 1 0,
     inv_agR m K (pl c 3) 1 1,
     inv_agR m K (pl c 3) 1 2,
     inv_agR m K (pl c 3) 1 3, trivial⟩

theorem open_reach (K : Dev nD × Fin 65 → ℕ) (c : Dev nD) : records m K ⊢ bigSepL (reachList (F := F) c) id :=
  persistent_chain (records m K) (reachList (F := F) c)
    ⟨reach_bar m K (pl c 1),
     reach_bar m K (pl c 2),
     reach_bar m K (pl c 3),
     reach_rsS m K c 1 0,
     reach_rsS m K c 1 1,
     reach_rsS m K c 1 2,
     reach_rsS m K c 1 3,
     reach_rsS m K c 2 0,
     reach_rsS m K c 2 1,
     reach_rsS m K c 2 2,
     reach_rsS m K c 2 3,
     reach_rsS m K c 3 0,
     reach_rsS m K c 3 1,
     reach_rsS m K c 3 2,
     reach_rsS m K c 3 3,
     reach_agS m K c 1 0,
     reach_agS m K c 1 1,
     reach_agS m K c 1 2,
     reach_agS m K c 1 3,
     reach_agS m K c 2 0,
     reach_agS m K c 2 1,
     reach_agS m K c 2 2,
     reach_agS m K c 2 3,
     reach_agS m K c 3 0,
     reach_agS m K c 3 1,
     reach_agS m K c 3 2,
     reach_agS m K c 3 3,
     reach_rsR m K (pl c 1) 3 0,
     reach_rsR m K (pl c 1) 3 1,
     reach_rsR m K (pl c 1) 3 2,
     reach_rsR m K (pl c 1) 3 3,
     reach_rsR m K (pl c 2) 2 0,
     reach_rsR m K (pl c 2) 2 1,
     reach_rsR m K (pl c 2) 2 2,
     reach_rsR m K (pl c 2) 2 3,
     reach_rsR m K (pl c 3) 1 0,
     reach_rsR m K (pl c 3) 1 1,
     reach_rsR m K (pl c 3) 1 2,
     reach_rsR m K (pl c 3) 1 3,
     reach_agR m K (pl c 1) 3 0,
     reach_agR m K (pl c 1) 3 1,
     reach_agR m K (pl c 1) 3 2,
     reach_agR m K (pl c 1) 3 3,
     reach_agR m K (pl c 2) 2 0,
     reach_agR m K (pl c 2) 2 1,
     reach_agR m K (pl c 2) 2 2,
     reach_agR m K (pl c 2) 2 3,
     reach_agR m K (pl c 3) 1 0,
     reach_agR m K (pl c 3) 1 1,
     reach_agR m K (pl c 3) 1 2,
     reach_agR m K (pl c 3) 1 3, trivial⟩

end Cert.KernelIdeal.Hand

end
-- ==== Proof.KernelIdealBodyOpenB.lean ====
/-
  From what the launch hands a device to the table of everything it holds: its tokens, its positions and its credits, one line each.
-/
import proofs.«900554_g7700000000000555_dist_matmul_gelu_kshard_i_m512_n512_k256_v7x_i4_bf16_1_alg».proof.Proof.KernelIdealBodyDefs
import proofs.«900554_g7700000000000555_dist_matmul_gelu_kshard_i_m512_n512_k256_v7x_i4_bf16_1_alg».proof.Proof.KernelIdealLaunchGhost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The twelve (offset, piece) pairs, and the sixty-five cells, listed -/

def pairs34 : List (Fin 3 × Fin 4) := [((0 : Fin 3), (0 : Fin 4)), ((0 : Fin 3), (1 : Fin 4)), ((0 : Fin 3), (2 : Fin 4)), ((0 : Fin 3), (3 : Fin 4)), ((1 : Fin 3), (0 : Fin 4)), ((1 : Fin 3), (1 : Fin 4)), ((1 : Fin 3), (2 : Fin 4)), ((1 : Fin 3), (3 : Fin 4)), ((2 : Fin 3), (0 : Fin 4)), ((2 : Fin 3), (1 : Fin 4)), ((2 : Fin 3), (2 : Fin 4)), ((2 : Fin 3), (3 : Fin 4))]
theorem pairs34_univ : (Finset.univ : Finset (Fin 3 × Fin 4)) = pairs34.toFinset := by decide
theorem pairs34_nodup : pairs34.Nodup := by decide

def cells65 : List (Fin 65) := [(0 : Fin 65), jOf 0 0 0, jOf 0 0 1, jOf 0 0 2, jOf 0 0 3, jOf 0 1 0, jOf 0 1 1, jOf 0 1 2, jOf 0 1 3, jOf 0 2 0, jOf 0 2 1, jOf 0 2 2, jOf 0 2 3, jOf 0 3 0, jOf 0 3 1, jOf 0 3 2, jOf 0 3 3, jOf 1 0 0, jOf 1 0 1, jOf 1 0 2, jOf 1 0 3, jOf 1 1 0, jOf 1 1 1, jOf 1 1 2, jOf 1 1 3, jOf 1 2 0, jOf 1 2 1, jOf 1 2 2, jOf 1 2 3, jOf 1 3 0, jOf 1 3 1, jOf 1 3 2, jOf 1 3 3, jOf 2 0 0, jOf 2 0 1, jOf 2 0 2, jOf 2 0 3, jOf 2 1 0, jOf 2 1 1, jOf 2 1 2, jOf 2 1 3, jOf 2 2 0, jOf 2 2 1, jOf 2 2 2, jOf 2 2 3, jOf 2 3 0, jOf 2 3 1, jOf 2 3 2, jOf 2 3 3, jOf 3 0 0, jOf 3 0 1, jOf 3 0 2, jOf 3 0 3, jOf 3 1 0, jOf 3 1 1, jOf 3 1 2, jOf 3 1 3, jOf 3 2 0, jOf 3 2 1, jOf 3 2 2, jOf 3 2 3, jOf 3 3 0, jOf 3 3 1, jOf 3 3 2, jOf 3 3 3]
theorem cells65_univ : (Finset.univ : Finset (Fin 65)) = cells65.toFinset := by decide +kernel
theorem cells65_nodup : cells65.Nodup := by decide +kernel

/-! ## The tokens -/

def tokList (c : Dev nD) : List (sProp 𝕄) :=
  [dutyTok ER (barCell (pl c 1)) 0 1,
   dutyTok ER (barCell (pl c 2)) 0 2,
   dutyTok ER (barCell (pl c 3)) 0 3,
   dutyTok ER (rsS c 1 0) 0 0,
   dutyTok ER (rsR (pl c 1) 3 0) 0 0,
   dutyTok ER (agS c 1 0) 0 0,
   dutyTok ER (agR (pl c 1) 3 0) 0 0,
   dutyTok ER (rsS c 1 1) 0 0,
   dutyTok ER (rsR (pl c 1) 3 1) 0 0,
   dutyTok ER (agS c 1 1) 0 0,
   dutyTok ER (agR (pl c 1) 3 1) 0 0,
   dutyTok ER (rsS c 1 2) 0 0,
   dutyTok ER (rsR (pl c 1) 3 2) 0 0,
   dutyTok ER (agS c 1 2) 0 0,
   dutyTok ER (agR (pl c 1) 3 2) 0 0,
   dutyTok ER (rsS c 1 3) 0 0,
   dutyTok ER (rsR (pl c 1) 3 3) 0 0,
   dutyTok ER (agS c 1 3) 0 0,
   dutyTok ER (agR (pl c 1) 3 3) 0 0,
   dutyTok ER (rsS c 2 0) 0 0,
   dutyTok ER (rsR (pl c 2) 2 0) 0 0,
   dutyTok ER (agS c 2 0) 0 0,
   dutyTok ER (agR (pl c 2) 2 0) 0 0,
   dutyTok ER (rsS c 2 1) 0 0,
   dutyTok ER (rsR (pl c 2) 2 1) 0 0,
   dutyTok ER (agS c 2 1) 0 0,
   dutyTok ER (agR (pl c 2) 2 1) 0 0,
   dutyTok ER (rsS c 2 2) 0 0,
   dutyTok ER (rsR (pl c 2) 2 2) 0 0,
   dutyTok ER (agS c 2 2) 0 0,
   dutyTok ER (agR (pl c 2) 2 2) 0 0,
   dutyTok ER (rsS c 2 3) 0 0,
   dutyTok ER (rsR (pl c 2) 2 3) 0 0,
   dutyTok ER (agS c 2 3) 0 0,
   dutyTok ER (agR (pl c 2) 2 3) 0 0,
   dutyTok ER (rsS c 3 0) 0 0,
   dutyTok ER (rsR (pl c 3) 1 0) 0 0,
   dutyTok ER (agS c 3 0) 0 0,
   dutyTok ER (agR (pl c 3) 1 0) 0 0,
   dutyTok ER (rsS c 3 1) 0 0,
   dutyTok ER (rsR (pl c 3) 1 1) 0 0,
   dutyTok ER (agS c 3 1) 0 0,
   dutyTok ER (agR (pl c 3) 1 1) 0 0,
   dutyTok ER (rsS c 3 2) 0 0,
   dutyTok ER (rsR (pl c 3) 1 2) 0 0,
   dutyTok ER (agS c 3 2) 0 0,
   dutyTok ER (agR (pl c 3) 1 2) 0 0,
   dutyTok ER (rsS c 3 3) 0 0,
   dutyTok ER (rsR (pl c 3) 1 3) 0 0,
   dutyTok ER (agS c 3 3) 0 0,
   dutyTok ER (agR (pl c 3) 1 3) 0 0]

theorem open_tok (c : Dev nD) : payToks (F := F) c ⊢ bigSepL (tokList (F := F) c) id := by
  unfold payToks
  rw [bigSep_univ_eq_bigSepL pairs34 pairs34_univ pairs34_nodup]
  show (iprop((dutyTok ER (barCell (pl c 1)) 0 1 ∗ dutyTok ER (barCell (pl c 2)) 0 2 ∗ dutyTok ER (barCell (pl c 3)) 0 3)
      ∗ (dutyTok ER (rsS c 1 0) 0 0 ∗ dutyTok ER (rsR (pl c 1) 3 0) 0 0 ∗ dutyTok ER (agS c 1 0) 0 0 ∗ dutyTok ER (agR (pl c 1) 3 0) 0 0)
      ∗ (dutyTok ER (rsS c 1 1) 0 0 ∗ dutyTok ER (rsR (pl c 1) 3 1) 0 0 ∗ dutyTok ER (agS c 1 1) 0 0 ∗ dutyTok ER (agR (pl c 1) 3 1) 0 0)
      ∗ (dutyTok ER (rsS c 1 2) 0 0 ∗ dutyTok ER (rsR (pl c 1) 3 2) 0 0 ∗ dutyTok ER (agS c 1 2) 0 0 ∗ dutyTok ER (agR (pl c 1) 3 2) 0 0)
      ∗ (dutyTok ER (rsS c 1 3) 0 0 ∗ dutyTok ER (rsR (pl c 1) 3 3) 0 0 ∗ dutyTok ER (agS c 1 3) 0 0 ∗ dutyTok ER (agR (pl c 1) 3 3) 0 0)
      ∗ (dutyTok ER (rsS c 2 0) 0 0 ∗ dutyTok ER (rsR (pl c 2) 2 0) 0 0 ∗ dutyTok ER (agS c 2 0) 0 0 ∗ dutyTok ER (agR (pl c 2) 2 0) 0 0)
      ∗ (dutyTok ER (rsS c 2 1) 0 0 ∗ dutyTok ER (rsR (pl c 2) 2 1) 0 0 ∗ dutyTok ER (agS c 2 1) 0 0 ∗ dutyTok ER (agR (pl c 2) 2 1) 0 0)
      ∗ (dutyTok ER (rsS c 2 2) 0 0 ∗ dutyTok ER (rsR (pl c 2) 2 2) 0 0 ∗ dutyTok ER (agS c 2 2) 0 0 ∗ dutyTok ER (agR (pl c 2) 2 2) 0 0)
      ∗ (dutyTok ER (rsS c 2 3) 0 0 ∗ dutyTok ER (rsR (pl c 2) 2 3) 0 0 ∗ dutyTok ER (agS c 2 3) 0 0 ∗ dutyTok ER (agR (pl c 2) 2 3) 0 0)
      ∗ (dutyTok ER (rsS c 3 0) 0 0 ∗ dutyTok ER (rsR (pl c 3) 1 0) 0 0 ∗ dutyTok ER (agS c 3 0) 0 0 ∗ dutyTok ER (agR (pl c 3) 1 0) 0 0)
      ∗ (dutyTok ER (rsS c 3 1) 0 0 ∗ dutyTok ER (rsR (pl c 3) 1 1) 0 0 ∗ dutyTok ER (agS c 3 1) 0 0 ∗ dutyTok ER (agR (pl c 3) 1 1) 0 0)
      ∗ (dutyTok ER (rsS c 3 2) 0 0 ∗ dutyTok ER (rsR (pl c 3) 1 2) 0 0 ∗ dutyTok ER (agS c 3 2) 0 0 ∗ dutyTok ER (agR (pl c 3) 1 2) 0 0)
      ∗ (dutyTok ER (rsS c 3 3) 0 0 ∗ dutyTok ER (rsR (pl c 3) 1 3) 0 0 ∗ dutyTok ER (agS c 3 3) 0 0 ∗ dutyTok ER (agR (pl c 3) 1 3) 0 0)) : sProp 𝕄)
    ⊢ iprop(dutyTok ER (barCell (pl c 1)) 0 1
      ∗ dutyTok ER (barCell (pl c 2)) 0 2
      ∗ dutyTok ER (barCell (pl c 3)) 0 3
      ∗ dutyTok ER (rsS c 1 0) 0 0
      ∗ dutyTok ER (rsR (pl c 1) 3 0) 0 0
      ∗ dutyTok ER (agS c 1 0) 0 0
      ∗ dutyTok ER (agR (pl c 1) 3 0) 0 0
      ∗ dutyTok ER (rsS c 1 1) 0 0
      ∗ dutyTok ER (rsR (pl c 1) 3 1) 0 0
      ∗ dutyTok ER (agS c 1 1) 0 0
      ∗ dutyTok ER (agR (pl c 1) 3 1) 0 0
      ∗ dutyTok ER (rsS c 1 2) 0 0
      ∗ dutyTok ER (rsR (pl c 1) 3 2) 0 0
      ∗ dutyTok ER (agS c 1 2) 0 0
      ∗ dutyTok ER (agR (pl c 1) 3 2) 0 0
      ∗ dutyTok ER (rsS c 1 3) 0 0
      ∗ dutyTok ER (rsR (pl c 1) 3 3) 0 0
      ∗ dutyTok ER (agS c 1 3) 0 0
      ∗ dutyTok ER (agR (pl c 1) 3 3) 0 0
      ∗ dutyTok ER (rsS c 2 0) 0 0
      ∗ dutyTok ER (rsR (pl c 2) 2 0) 0 0
      ∗ dutyTok ER (agS c 2 0) 0 0
      ∗ dutyTok ER (agR (pl c 2) 2 0) 0 0
      ∗ dutyTok ER (rsS c 2 1) 0 0
      ∗ dutyTok ER (rsR (pl c 2) 2 1) 0 0
      ∗ dutyTok ER (agS c 2 1) 0 0
      ∗ dutyTok ER (agR (pl c 2) 2 1) 0 0
      ∗ dutyTok ER (rsS c 2 2) 0 0
      ∗ dutyTok ER (rsR (pl c 2) 2 2) 0 0
      ∗ dutyTok ER (agS c 2 2) 0 0
      ∗ dutyTok ER (agR (pl c 2) 2 2) 0 0
      ∗ dutyTok ER (rsS c 2 3) 0 0
      ∗ dutyTok ER (rsR (pl c 2) 2 3) 0 0
      ∗ dutyTok ER (agS c 2 3) 0 0
      ∗ dutyTok ER (agR (pl c 2) 2 3) 0 0
      ∗ dutyTok ER (rsS c 3 0) 0 0
      ∗ dutyTok ER (rsR (pl c 3) 1 0) 0 0
      ∗ dutyTok ER (agS c 3 0) 0 0
      ∗ dutyTok ER (agR (pl c 3) 1 0) 0 0
      ∗ dutyTok ER (rsS c 3 1) 0 0
      ∗ dutyTok ER (rsR (pl c 3) 1 1) 0 0
      ∗ dutyTok ER (agS c 3 1) 0 0
      ∗ dutyTok ER (agR (pl c 3) 1 1) 0 0
      ∗ dutyTok ER (rsS c 3 2) 0 0
      ∗ dutyTok ER (rsR (pl c 3) 1 2) 0 0
      ∗ dutyTok ER (agS c 3 2) 0 0
      ∗ dutyTok ER (agR (pl c 3) 1 2) 0 0
      ∗ dutyTok ER (rsS c 3 3) 0 0
      ∗ dutyTok ER (rsR (pl c 3) 1 3) 0 0
      ∗ dutyTok ER (agS c 3 3) 0 0
      ∗ dutyTok ER (agR (pl c 3) 1 3) 0 0)
  iintro ⟨⟨T0, T1, T2⟩, ⟨T3, T4, T5, T6⟩, ⟨T7, T8, T9, T10⟩, ⟨T11, T12, T13, T14⟩, ⟨T15, T16, T17, T18⟩, ⟨T19, T20, T21, T22⟩, ⟨T23, T24, T25, T26⟩, ⟨T27, T28, T29, T30⟩, ⟨T31, T32, T33, T34⟩, ⟨T35, T36, T37, T38⟩, ⟨T39, T40, T41, T42⟩, ⟨T43, T44, T45, T46⟩, ⟨T47, T48, T49, T50⟩⟩
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  isplitl [T29]; · iexact T29
  isplitl [T30]; · iexact T30
  isplitl [T31]; · iexact T31
  isplitl [T32]; · iexact T32
  isplitl [T33]; · iexact T33
  isplitl [T34]; · iexact T34
  isplitl [T35]; · iexact T35
  isplitl [T36]; · iexact T36
  isplitl [T37]; · iexact T37
  isplitl [T38]; · iexact T38
  isplitl [T39]; · iexact T39
  isplitl [T40]; · iexact T40
  isplitl [T41]; · iexact T41
  isplitl [T42]; · iexact T42
  isplitl [T43]; · iexact T43
  isplitl [T44]; · iexact T44
  isplitl [T45]; · iexact T45
  isplitl [T46]; · iexact T46
  isplitl [T47]; · iexact T47
  isplitl [T48]; · iexact T48
  isplitl [T49]; · iexact T49
  iexact T50

/-! ## The credits -/

def credList (c : Dev nD) : List (sProp 𝕄) :=
  [cred (tallyAt (barCell c) () 3),
   cred (tallyAt (rsR c 1 0) () Nr),
   cred (tallyAt (agR c 1 0) () No),
   cred (tallyAt (rsR c 1 1) () Nr),
   cred (tallyAt (agR c 1 1) () No),
   cred (tallyAt (rsR c 1 2) () Nr),
   cred (tallyAt (agR c 1 2) () No),
   cred (tallyAt (rsR c 1 3) () Nr),
   cred (tallyAt (agR c 1 3) () No),
   cred (tallyAt (rsR c 2 0) () Nr),
   cred (tallyAt (agR c 2 0) () No),
   cred (tallyAt (rsR c 2 1) () Nr),
   cred (tallyAt (agR c 2 1) () No),
   cred (tallyAt (rsR c 2 2) () Nr),
   cred (tallyAt (agR c 2 2) () No),
   cred (tallyAt (rsR c 2 3) () Nr),
   cred (tallyAt (agR c 2 3) () No),
   cred (tallyAt (rsR c 3 0) () Nr),
   cred (tallyAt (agR c 3 0) () No),
   cred (tallyAt (rsR c 3 1) () Nr),
   cred (tallyAt (agR c 3 1) () No),
   cred (tallyAt (rsR c 3 2) () Nr),
   cred (tallyAt (agR c 3 2) () No),
   cred (tallyAt (rsR c 3 3) () Nr),
   cred (tallyAt (agR c 3 3) () No)]

theorem open_cred (c : Dev nD) : creds (F := F) c ⊢ bigSepL (credList (F := F) c) id := by
  unfold creds
  rw [bigSep_univ_eq_bigSepL pairs34 pairs34_univ pairs34_nodup]
  show (iprop(cred (tallyAt (barCell c) () 3)
      ∗ (cred (tallyAt (rsR c 1 0) () Nr) ∗ cred (tallyAt (agR c 1 0) () No))
      ∗ (cred (tallyAt (rsR c 1 1) () Nr) ∗ cred (tallyAt (agR c 1 1) () No))
      ∗ (cred (tallyAt (rsR c 1 2) () Nr) ∗ cred (tallyAt (agR c 1 2) () No))
      ∗ (cred (tallyAt (rsR c 1 3) () Nr) ∗ cred (tallyAt (agR c 1 3) () No))
      ∗ (cred (tallyAt (rsR c 2 0) () Nr) ∗ cred (tallyAt (agR c 2 0) () No))
      ∗ (cred (tallyAt (rsR c 2 1) () Nr) ∗ cred (tallyAt (agR c 2 1) () No))
      ∗ (cred (tallyAt (rsR c 2 2) () Nr) ∗ cred (tallyAt (agR c 2 2) () No))
      ∗ (cred (tallyAt (rsR c 2 3) () Nr) ∗ cred (tallyAt (agR c 2 3) () No))
      ∗ (cred (tallyAt (rsR c 3 0) () Nr) ∗ cred (tallyAt (agR c 3 0) () No))
      ∗ (cred (tallyAt (rsR c 3 1) () Nr) ∗ cred (tallyAt (agR c 3 1) () No))
      ∗ (cred (tallyAt (rsR c 3 2) () Nr) ∗ cred (tallyAt (agR c 3 2) () No))
      ∗ (cred (tallyAt (rsR c 3 3) () Nr) ∗ cred (tallyAt (agR c 3 3) () No))) : sProp 𝕄)
    ⊢ iprop(cred (tallyAt (barCell c) () 3)
      ∗ cred (tallyAt (rsR c 1 0) () Nr)
      ∗ cred (tallyAt (agR c 1 0) () No)
      ∗ cred (tallyAt (rsR c 1 1) () Nr)
      ∗ cred (tallyAt (agR c 1 1) () No)
      ∗ cred (tallyAt (rsR c 1 2) () Nr)
      ∗ cred (tallyAt (agR c 1 2) () No)
      ∗ cred (tallyAt (rsR c 1 3) () Nr)
      ∗ cred (tallyAt (agR c 1 3) () No)
      ∗ cred (tallyAt (rsR c 2 0) () Nr)
      ∗ cred (tallyAt (agR c 2 0) () No)
      ∗ cred (tallyAt (rsR c 2 1) () Nr)
      ∗ cred (tallyAt (agR c 2 1) () No)
      ∗ cred (tallyAt (rsR c 2 2) () Nr)
      ∗ cred (tallyAt (agR c 2 2) () No)
      ∗ cred (tallyAt (rsR c 2 3) () Nr)
      ∗ cred (tallyAt (agR c 2 3) () No)
      ∗ cred (tallyAt (rsR c 3 0) () Nr)
      ∗ cred (tallyAt (agR c 3 0) () No)
      ∗ cred (tallyAt (rsR c 3 1) () Nr)
      ∗ cred (tallyAt (agR c 3 1) () No)
      ∗ cred (tallyAt (rsR c 3 2) () Nr)
      ∗ cred (tallyAt (agR c 3 2) () No)
      ∗ cred (tallyAt (rsR c 3 3) () Nr)
      ∗ cred (tallyAt (agR c 3 3) () No))
  iintro ⟨C0, ⟨C1, C2⟩, ⟨C3, C4⟩, ⟨C5, C6⟩, ⟨C7, C8⟩, ⟨C9, C10⟩, ⟨C11, C12⟩, ⟨C13, C14⟩, ⟨C15, C16⟩, ⟨C17, C18⟩, ⟨C19, C20⟩, ⟨C21, C22⟩, ⟨C23, C24⟩⟩
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  iexact C24

/-! ## The positions -/

def posList (c : Dev nD) : List (sProp 𝕄) :=
  [atPos ER (barCell c) 0 ∅ 0,
   atPos ER (rsS c 0 0) 0 ∅ 0,
   atPos ER (rsS c 0 1) 0 ∅ 0,
   atPos ER (rsS c 0 2) 0 ∅ 0,
   atPos ER (rsS c 0 3) 0 ∅ 0,
   atPos ER (rsS c 1 0) 0 ∅ 0,
   atPos ER (rsS c 1 1) 0 ∅ 0,
   atPos ER (rsS c 1 2) 0 ∅ 0,
   atPos ER (rsS c 1 3) 0 ∅ 0,
   atPos ER (rsS c 2 0) 0 ∅ 0,
   atPos ER (rsS c 2 1) 0 ∅ 0,
   atPos ER (rsS c 2 2) 0 ∅ 0,
   atPos ER (rsS c 2 3) 0 ∅ 0,
   atPos ER (rsS c 3 0) 0 ∅ 0,
   atPos ER (rsS c 3 1) 0 ∅ 0,
   atPos ER (rsS c 3 2) 0 ∅ 0,
   atPos ER (rsS c 3 3) 0 ∅ 0,
   atPos ER (rsR c 0 0) 0 ∅ 0,
   atPos ER (rsR c 0 1) 0 ∅ 0,
   atPos ER (rsR c 0 2) 0 ∅ 0,
   atPos ER (rsR c 0 3) 0 ∅ 0,
   atPos ER (rsR c 1 0) 0 ∅ 0,
   atPos ER (rsR c 1 1) 0 ∅ 0,
   atPos ER (rsR c 1 2) 0 ∅ 0,
   atPos ER (rsR c 1 3) 0 ∅ 0,
   atPos ER (rsR c 2 0) 0 ∅ 0,
   atPos ER (rsR c 2 1) 0 ∅ 0,
   atPos ER (rsR c 2 2) 0 ∅ 0,
   atPos ER (rsR c 2 3) 0 ∅ 0,
   atPos ER (rsR c 3 0) 0 ∅ 0,
   atPos ER (rsR c 3 1) 0 ∅ 0,
   atPos ER (rsR c 3 2) 0 ∅ 0,
   atPos ER (rsR c 3 3) 0 ∅ 0,
   atPos ER (agS c 0 0) 0 ∅ 0,
   atPos ER (agS c 0 1) 0 ∅ 0,
   atPos ER (agS c 0 2) 0 ∅ 0,
   atPos ER (agS c 0 3) 0 ∅ 0,
   atPos ER (agS c 1 0) 0 ∅ 0,
   atPos ER (agS c 1 1) 0 ∅ 0,
   atPos ER (agS c 1 2) 0 ∅ 0,
   atPos ER (agS c 1 3) 0 ∅ 0,
   atPos ER (agS c 2 0) 0 ∅ 0,
   atPos ER (agS c 2 1) 0 ∅ 0,
   atPos ER (agS c 2 2) 0 ∅ 0,
   atPos ER (agS c 2 3) 0 ∅ 0,
   atPos ER (agS c 3 0) 0 ∅ 0,
   atPos ER (agS c 3 1) 0 ∅ 0,
   atPos ER (agS c 3 2) 0 ∅ 0,
   atPos ER (agS c 3 3) 0 ∅ 0,
   atPos ER (agR c 0 0) 0 ∅ 0,
   atPos ER (agR c 0 1) 0 ∅ 0,
   atPos ER (agR c 0 2) 0 ∅ 0,
   atPos ER (agR c 0 3) 0 ∅ 0,
   atPos ER (agR c 1 0) 0 ∅ 0,
   atPos ER (agR c 1 1) 0 ∅ 0,
   atPos ER (agR c 1 2) 0 ∅ 0,
   atPos ER (agR c 1 3) 0 ∅ 0,
   atPos ER (agR c 2 0) 0 ∅ 0,
   atPos ER (agR c 2 1) 0 ∅ 0,
   atPos ER (agR c 2 2) 0 ∅ 0,
   atPos ER (agR c 2 3) 0 ∅ 0,
   atPos ER (agR c 3 0) 0 ∅ 0,
   atPos ER (agR c 3 1) 0 ∅ 0,
   atPos ER (agR c 3 2) 0 ∅ 0,
   atPos ER (agR c 3 3) 0 ∅ 0]

theorem open_pos (c : Dev nD) : positions (F := F) c ⊢ bigSepL (posList (F := F) c) id := by
  unfold positions
  rw [bigSep_univ_eq_bigSepL cells65 cells65_univ cells65_nodup]
  refine Entails.of_eq ?_
  simp only [cells65, posList, bigSepL_cons_cons, bigSepL_singleton, id, kcell_bar, kcell_rsS, kcell_rsR, kcell_agS, kcell_agR]

end Cert.KernelIdeal.Hand

end
-- ==== Proof.KernelIdealBody.lean ====
/-
  One device's kernel body, from the state the pipeline hands it to the state it hands back: the launch's records, tokens, positions and credits opened into the table the run is stated over, the buffers cut into the pieces the copies move, and at the end the result put back whole.
-/
import proofs.«900554_g7700000000000555_dist_matmul_gelu_kshard_i_m512_n512_k256_v7x_i4_bf16_1_alg».proof.Proof.KernelIdealBodyRun
import proofs.«900554_g7700000000000555_dist_matmul_gelu_kshard_i_m512_n512_k256_v7x_i4_bf16_1_alg».proof.Proof.KernelIdealBodyOpenA
import proofs.«900554_g7700000000000555_dist_matmul_gelu_kshard_i_m512_n512_k256_v7x_i4_bf16_1_alg».proof.Proof.KernelIdealBodyOpenB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The buffers -/

/-- The whole of a staging or scratch buffer, spelt through its memref, is the buffer. -/
theorem aM_pts (c : Dev nD) (f : Buf (Elt F) ((c : Thread nD τ).loc cc0_stg0_0)) :
    ((aM).view.loc (c : Thread nD τ) ↦[(aM).view.set]{fullShare} f : sProp 𝕄) = ((c : Thread nD τ).loc cc0_stg0_0 ↦{fullShare} f) := by
  show ((c : Thread nD τ).loc cc0_stg0_0 ↦[(View.whole cc0_stg0_0 : View sig .tc _ _ _).set]{fullShare} f : sProp 𝕄) = _
  rw [View.set_whole]
theorem bM_pts (c : Dev nD) (f : Buf (Elt F) ((c : Thread nD τ).loc cc0_stg1_0)) :
    ((bM).view.loc (c : Thread nD τ) ↦[(bM).view.set]{fullShare} f : sProp 𝕄) = ((c : Thread nD τ).loc cc0_stg1_0 ↦{fullShare} f) := by
  show ((c : Thread nD τ).loc cc0_stg1_0 ↦[(View.whole cc0_stg1_0 : View sig .tc _ _ _).set]{fullShare} f : sProp 𝕄) = _
  rw [View.set_whole]
theorem pM_pts (c : Dev nD) (f : Buf (Elt F) ((c : Thread nD τ).loc cc0_scratch0)) :
    ((pM).view.loc (c : Thread nD τ) ↦[(pM).view.set]{fullShare} f : sProp 𝕄) = ((c : Thread nD τ).loc cc0_scratch0 ↦{fullShare} f) := by
  show ((c : Thread nD τ).loc cc0_scratch0 ↦[(View.whole cc0_scratch0 : View sig .tc _ _ _).set]{fullShare} f : sProp 𝕄) = _
  rw [View.set_whole]

/-- The receive buffer's twelve written pieces and its rest; the result's sixteen pieces. -/
def rsList (c : Dev nD) (r0 : Vec F S4x128x512 .bf16) : List (sProp 𝕄) :=
  [pts (rsDst 1 0) c r0,
   pts (rsDst 1 1) c r0,
   pts (rsDst 1 2) c r0,
   pts (rsDst 1 3) c r0,
   pts (rsDst 2 0) c r0,
   pts (rsDst 2 1) c r0,
   pts (rsDst 2 2) c r0,
   pts (rsDst 2 3) c r0,
   pts (rsDst 3 0) c r0,
   pts (rsDst 3 1) c r0,
   pts (rsDst 3 2) c r0,
   pts (rsDst 3 3) c r0,
   rsRest c r0]
def outList (c : Dev nD) (o0 : Vec F S512x512 .bf16) : List (sProp 𝕄) :=
  [pts (outSl c 0) c o0,
   pts (outSl c 1) c o0,
   pts (outSl c 2) c o0,
   pts (outSl c 3) c o0,
   pts (outSl (pl c 1) 0) c o0,
   pts (outSl (pl c 1) 1) c o0,
   pts (outSl (pl c 1) 2) c o0,
   pts (outSl (pl c 1) 3) c o0,
   pts (outSl (pl c 2) 0) c o0,
   pts (outSl (pl c 2) 1) c o0,
   pts (outSl (pl c 2) 2) c o0,
   pts (outSl (pl c 2) 3) c o0,
   pts (outSl (pl c 3) 0) c o0,
   pts (outSl (pl c 3) 1) c o0,
   pts (outSl (pl c 3) 2) c o0,
   pts (outSl (pl c 3) 3) c o0]

theorem open_rs (c : Dev nD) (r0 : Vec F S4x128x512 .bf16) :
    (rsLoc c ↦{fullShare} r0 : sProp 𝕄) ⊢ bigSepL (rsList (F := F) c r0) id := by
  rw [split_rs_eq c r0]
  exact .rfl
theorem open_out (c : Dev nD) (o0 : Vec F S512x512 .bf16) :
    (outLoc c ↦{fullShare} o0 : sProp 𝕄) ⊢ bigSepL (outList (F := F) c o0) id := by
  rw [split_out_eq c o0]
  exact .rfl

/-! ## The table, in the order it is opened, and in the order the run reads it -/

/-- Everything the run starts from, group by group. -/
def canonAll (K : GSem nD τ sig → ℕ) (c : Dev nD) (p0 r0 : Vec F S4x128x512 .bf16) (o0 : Vec F S512x512 .bf16) (W : Waits sig Unit) : List (sProp 𝕄) :=
  invList m K c ++ (reachList c ++ ([levAts L lv] ++ (tokList c ++ (posList c ++ (credList c ++ ([((aM).view.loc (c : Thread nD τ) ↦[(aM).view.set]{fullShare} Ablk m c)] ++ ([((bM).view.loc (c : Thread nD τ) ↦[(bM).view.set]{fullShare} Bblk m c)] ++ ([((pM).view.loc (c : Thread nD τ) ↦[(pM).view.set]{fullShare} p0)]
    ++ (rsList c r0 ++ (outList c o0 ++ [owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr + tallyAt (barCell (pl c 3)) () 1 + tallyAt (barCell (pl c 2)) () 1 + tallyAt (barCell (pl c 1)) () 1) W]))))))))))

/-- Where each line of the run's table sits among the groups. -/
def preIdx : List ℕ := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 285, 286, 287, 288, 289, 290, 291, 292, 293, 294, 295, 296, 297, 298, 299, 305, 306, 307, 308, 309, 310, 311, 312, 313, 314, 315, 316, 300, 301, 302, 303, 304, 317, 144, 145, 146, 195, 260, 163, 164, 147, 148, 179, 180, 167, 168, 151, 152, 183, 184, 171, 172, 155, 156, 187, 188, 175, 176, 159, 160, 191, 192, 216, 261, 224, 277, 220, 269, 165, 166, 149, 150, 181, 182, 217, 263, 225, 279, 221, 271, 169, 170, 153, 154, 185, 186, 218, 265, 226, 281, 222, 273, 173, 174, 157, 158, 189, 190, 219, 267, 227, 283, 223, 275, 177, 178, 161, 162, 193, 194, 248, 262, 256, 278, 252, 270, 249, 264, 257, 280, 253, 272, 250, 266, 258, 282, 254, 274, 251, 268, 259, 284, 255, 276, 204, 200, 208, 205, 201, 209, 206, 202, 210, 207, 203, 211, 236, 232, 240, 237, 233, 241, 238, 234, 242, 239, 235, 243, 196, 197, 198, 199, 212, 213, 214, 215, 228, 229, 230, 231, 244, 245, 246, 247]

theorem preIdx_nodup : preIdx.Nodup := by decide +kernel
theorem preIdx_all : preIdx.toFinset = (List.range 318).toFinset := by decide +kernel

set_option maxHeartbeats 4000000 in
/-- The run's table is the groups laid end to end, its lines in another order. -/
theorem bodyPre_canon (K : GSem nD τ sig → ℕ) (c : Dev nD) (p0 r0 : Vec F S4x128x512 .bf16) (o0 : Vec F S512x512 .bf16) (W : Waits sig Unit) :
    bodyPre m K c p0 r0 o0 W = bigSepL (canonAll m K c p0 r0 o0 W) id := by
  have e1 : bodyPre m K c p0 r0 o0 W = bigSepL preIdx (fun n => (canonAll m K c p0 r0 o0 W).getD n iprop(emp)) := rfl
  have e2 : bigSepL (List.range 318) (fun n => (canonAll m K c p0 r0 o0 W).getD n iprop(emp)) = bigSepL (canonAll m K c p0 r0 o0 W) id := rfl
  rw [e1, ← bigSep_eq_bigSepL preIdx preIdx_nodup, preIdx_all, bigSep_eq_bigSepL _ (List.nodup_range), e2]

theorem bodyPre_eq (K : GSem nD τ sig → ℕ) (c : Dev nD) (p0 r0 : Vec F S4x128x512 .bf16) (o0 : Vec F S512x512 .bf16) (W : Waits sig Unit) :
    bodyPre m K c p0 r0 o0 W = iprop(bigSepL (invList m K c) id ∗ bigSepL (reachList (F := F) c) id ∗ levAts L lv ∗ bigSepL (tokList (F := F) c) id ∗ bigSepL (posList (F := F) c) id
      ∗ bigSepL (credList (F := F) c) id ∗ ((aM).view.loc (c : Thread nD τ) ↦[(aM).view.set]{fullShare} Ablk m c) ∗ ((bM).view.loc (c : Thread nD τ) ↦[(bM).view.set]{fullShare} Bblk m c) ∗ ((pM).view.loc (c : Thread nD τ) ↦[(pM).view.set]{fullShare} p0)
      ∗ bigSepL (rsList (F := F) c r0) id ∗ bigSepL (outList (F := F) c o0) id ∗ owes (c : Thread nD τ) (0 + tallyAt (agR (pl c 3) 1 3) () No + tallyAt (agR (pl c 1) 3 3) () No + tallyAt (agR (pl c 2) 2 3) () No + tallyAt (agR (pl c 3) 1 2) () No + tallyAt (agR (pl c 1) 3 2) () No + tallyAt (agR (pl c 2) 2 2) () No + tallyAt (agR (pl c 3) 1 1) () No + tallyAt (agR (pl c 1) 3 1) () No + tallyAt (agR (pl c 2) 2 1) () No + tallyAt (agR (pl c 3) 1 0) () No + tallyAt (agR (pl c 1) 3 0) () No + tallyAt (agR (pl c 2) 2 0) () No + tallyAt (rsR (pl c 3) 1 3) () Nr + tallyAt (rsR (pl c 1) 3 3) () Nr + tallyAt (rsR (pl c 2) 2 3) () Nr + tallyAt (rsR (pl c 3) 1 2) () Nr + tallyAt (rsR (pl c 1) 3 2) () Nr + tallyAt (rsR (pl c 2) 2 2) () Nr + tallyAt (rsR (pl c 3) 1 1) () Nr + tallyAt (rsR (pl c 1) 3 1) () Nr + tallyAt (rsR (pl c 2) 2 1) () Nr + tallyAt (rsR (pl c 3) 1 0) () Nr + tallyAt (rsR (pl c 1) 3 0) () Nr + tallyAt (rsR (pl c 2) 2 0) () Nr + tallyAt (barCell (pl c 3)) () 1 + tallyAt (barCell (pl c 2)) () 1 + tallyAt (barCell (pl c 1)) () 1) W) := by
  rw [bodyPre_canon]
  unfold canonAll
  simp only [bigSepL_id_append, bigSepL_singleton, id]

/-! ## What the pipeline hands the body, and what it takes back -/

theorem before0 (c : Dev nD) (d) : (dats (F := F) m 0 c).before 0 t0_0 d = Ablk m c := by
  unfold Dat.before; rw [if_pos (Gen.fetch0_0 _)]; rfl
theorem before1 (c : Dev nD) (d) : (dats (F := F) m 0 c).before 1 t0_0 d = Bblk m c := by
  unfold Dat.before; rw [if_pos (Gen.fetch0_1 _)]; rfl

def bodyPre' (c : Dev nD) : sProp 𝕄 :=
  iprop((dats m 0 c).Φ t0_0.castSucc ∗ (dats m 0 c).owesAt () t0_0.castSucc
    ∗ (∃ d f, ⌜f = (dats m 0 c).before 0 t0_0 d⌝ ∗ (c : Thread nD τ).loc cc0_stg0_0 ↦{fullShare} f)
    ∗ (∃ d f, ⌜f = (dats m 0 c).before 1 t0_0 d⌝ ∗ (c : Thread nD τ).loc cc0_stg1_0 ↦{fullShare} f)
    ∗ (∃ d f, ⌜f = (dats m 0 c).before 2 t0_0 d⌝ ∗ (c : Thread nD τ).loc cc0_stg2_0 ↦{fullShare} f))

def bodyPost (c : Dev nD) : sProp 𝕄 :=
  iprop((dats m 0 c).Φ t0_0.succ ∗ (dats m 0 c).owesAt () t0_0.succ
    ∗ (∃ f, ⌜f = (dats m 0 c).after 0 t0_0⌝ ∗ (c : Thread nD τ).loc cc0_stg0_0 ↦{fullShare} f)
    ∗ (∃ f, ⌜f = (dats m 0 c).after 1 t0_0⌝ ∗ (c : Thread nD τ).loc cc0_stg1_0 ↦{fullShare} f)
    ∗ (∃ f, ⌜f = (dats m 0 c).after 2 t0_0⌝ ∗ (c : Thread nD τ).loc cc0_stg2_0 ↦{fullShare} f))

/-- The state the pipeline hands over, opened into the run's table. -/
theorem open_pre (c : Dev nD) :
    bodyPre' m c ⊢ iprop(∃ (K : GSem nD τ sig → ℕ) (p0 r0 : Vec F S4x128x512 .bf16) (o0 : Vec F S512x512 .bf16) (W : Waits sig Unit), bodyPre m K c p0 r0 o0 W) := by
  unfold bodyPre'
  show iprop(Φ₀ m c ∗ _ ∗ _ ∗ _ ∗ _) ⊢ _
  unfold Φ₀ start ghost
  iintro ⟨⟨⟨⟨%K, #Hrec, Hpos, Htok⟩, Hcred, Hlev⟩, ⟨%p0, Hp⟩, ⟨%r0, Hr⟩⟩, ⟨%W, %hW, HO⟩, ⟨%d0, %f0, %hf0, Hx⟩, ⟨%d1, %f1, %hf1, Hy⟩, ⟨%d2, %o0, %ho0, Hz⟩⟩
  rw [before0] at hf0
  rw [before1] at hf1
  subst hf0 hf1
  iexists (Kof K)
  iexists p0
  iexists r0
  iexists o0
  iexists W
  rw [bodyPre_eq, aM_pts, bM_pts, pM_pts]
  isplitl []; · iapply (open_inv m K c); iexact Hrec
  isplitl []; · iapply (open_reach m K c); iexact Hrec
  isplitl [Hlev]; · iexact Hlev
  isplitl [Htok]; · iapply (open_tok c); iexact Htok
  isplitl [Hpos]; · iapply (open_pos c); iexact Hpos
  isplitl [Hcred]; · iapply (open_cred c); iexact Hcred
  isplitl [Hx]; · iexact Hx
  isplitl [Hy]; · iexact Hy
  isplitl [Hp]; · iexact Hp
  isplitl [Hr]; · iapply (open_rs c r0); iexact Hr
  isplitl [Hz]; · iapply (open_out c o0); iexact Hz
  iexact HO

/-- The closed end is what the pipeline takes back. -/
theorem close_post (c : Dev nD) : closedEnd m c ⊢ bodyPost m c := by
  unfold closedEnd bodyPost Dat.owesAt Pipeline.owesWithin
  rw [aM_pts, bM_pts, show (dats (F := F) m 0 c).Φ t0_0.succ = Φ₁ c from rfl, show (dats (F := F) m 0 c).owed t0_0.succ = 0 from rfl]
  iintro ⟨HΦ, ⟨%W', HO⟩, Ha, Hb, Ho⟩
  isplitl [HΦ]; · iexact HΦ
  isplitl [HO]
  · iexists W'
    isplitr
    · ipureintro; exact fun _ _ => Or.inl trivial
    iexact HO
  isplitl [Ha]
  · iexists _
    isplitr
    · ipureintro; rfl
    iexact Ha
  isplitl [Hb]
  · iexists _
    isplitr
    · ipureintro; rfl
    iexact Hb
  iexists _
  isplitr
  · ipureintro; rfl
  iexact Ho

/-- The library's body obligation on device `c`. -/
theorem body_obligation (c : Dev nD) : BodyObligation (dats (F := F) m 0 c) (defs₀ (F := F)) 𝒱₀ () Set.univ := fun t => by
  rw [Gen.fin_N0 t]
  rw [Gen.bigSep_W0, Gen.bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) cc0_scratch2 cc0_scratch3 cc0_scratch4 cc0_scratch5) (fun _ => bodyPost m c)
  iintro H
  ihave H' := open_pre m c $$ H
  icases H' with ⟨%K, %p0, %r0, %o0, %W, H'⟩
  iapply (sound_run m K c p0 r0 o0 W fun _ => bodyPost m c)
  isplitl [H']
  · iexact H'
  · iintro Hc
    iapply (close_post m c)
    iexact Hc

/-- info: 'Cert.KernelIdeal.Hand.open_pre' depends on axioms: [propext, Classical.choice, Quot.sound] -/
#guard_msgs in #print axioms open_pre
/-- info: 'Cert.KernelIdeal.Hand.close_post' depends on axioms: [propext, Classical.choice, Quot.sound] -/
#guard_msgs in #print axioms close_post

end Cert.KernelIdeal.Hand

end
-- ==== Proof.KernelIdealLaunchCred.lean ====
/-
  The launch credit: what the four devices owe a device's cells at launch, summed, is the credit that device waits with.
-/
import proofs.«900554_g7700000000000555_dist_matmul_gelu_kshard_i_m512_n512_k256_v7x_i4_bf16_1_alg».proof.Proof.KernelIdealLaunchGhost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The credit of a sum is the credits of the summands. -/
theorem cred_add_eq (a b : CellTallies nD τ sig Unit) : (cred (a + b) : sProp 𝕄) = iprop(cred a ∗ cred b) :=
  BI.Entails.antisymm (cred_add _ _).1 (cred_add _ _).2

/-- What ONE device pays onto the cells of the device `c`, at the row `row` of `c`'s receive arrays: an entry signal,
    and per piece a partial-product copy and a finished-piece copy. -/
def rowDue (row : Fin 4) (c : Dev nD) : CellTallies nD τ sig Unit :=
  tallyAt (barCell c) () 1
    + tallyAt (rsR c row 0) () Nr + tallyAt (rsR c row 1) () Nr + tallyAt (rsR c row 2) () Nr + tallyAt (rsR c row 3) () Nr
    + tallyAt (agR c row 0) () No + tallyAt (agR c row 1) () No + tallyAt (agR c row 2) () No + tallyAt (agR c row 3) () No

/-- What is owed to device `c`'s cells, by everybody. -/
def dueTo (c : Dev nD) : CellTallies nD τ sig Unit :=
  tallyAt (barCell c) () 3 + ∑ x : Fin 3 × Fin 4, (tallyAt (rsR c x.1.succ x.2) () Nr + tallyAt (agR c x.1.succ x.2) () No)

/-- A device owes the devices one, two and three places on: to each one row's worth. -/
theorem O₀_eq (d : Dev nD) : O₀ d = rowDue 3 (pl d 1) + rowDue 2 (pl d 2) + rowDue 1 (pl d 3) := by
  unfold O₀ owedFrom payList rowDue
  simp only [List.drop_zero, List.foldr_cons, List.foldr_nil]
  abel

theorem dueTo_eq (c : Dev nD) : dueTo c = rowDue 3 c + rowDue 2 c + rowDue 1 c := by
  have hb : (tallyAt (barCell c) () 3 : CellTallies nD τ sig Unit) = tallyAt (barCell c) () 1 + tallyAt (barCell c) () 1 + tallyAt (barCell c) () 1 := by
    rw [tallyAt_add, tallyAt_add]
  have e1 : Fin.succ (0 : Fin 3) = (1 : Fin 4) := rfl
  have e2 : Fin.succ (1 : Fin 3) = (2 : Fin 4) := rfl
  have e3 : Fin.succ (2 : Fin 3) = (3 : Fin 4) := rfl
  unfold dueTo rowDue
  rw [hb, Fintype.sum_prod_type, Fin.sum_univ_three]
  simp only [Fin.sum_univ_four]
  rw [e1, e2, e3]
  abel

theorem sum_owed : (∑ d : Dev nD, O₀ d) = ∑ d : Dev nD, dueTo d := by
  have h1 : ∑ d : Dev nD, rowDue 3 (pl d 1) = ∑ c : Dev nD, rowDue 3 c := Equiv.sum_comp (plE 1) (rowDue 3)
  have h2 : ∑ d : Dev nD, rowDue 2 (pl d 2) = ∑ c : Dev nD, rowDue 2 c := Equiv.sum_comp (plE 2) (rowDue 2)
  have h3 : ∑ d : Dev nD, rowDue 1 (pl d 3) = ∑ c : Dev nD, rowDue 1 c := Equiv.sum_comp (plE 3) (rowDue 1)
  rw [Finset.sum_congr rfl fun d _ => O₀_eq d, Finset.sum_congr rfl fun d _ => dueTo_eq d, Finset.sum_add_distrib, Finset.sum_add_distrib,
    Finset.sum_add_distrib, Finset.sum_add_distrib, h1, h2, h3]

theorem dueTo_own (d : Dev nD) (g : GSem nD τ sig) (h : dueTo d g ≠ 0) : g.1 = (d : Thread nD τ) := by
  by_contra hne
  refine h ?_
  unfold dueTo
  rw [Pi.add_apply, tallyAt_ne_cell (fun e => hne (by rw [e])), Finset.sum_apply, zero_add]
  exact Finset.sum_eq_zero fun x _ => by
    rw [Pi.add_apply, tallyAt_ne_cell (fun e => hne (by rw [e])), tallyAt_ne_cell (fun e => hne (by rw [e])), add_zero]

theorem creds_eq (c : Dev nD) : (creds c : sProp 𝕄) = cred (dueTo c) := by
  unfold creds dueTo
  rw [cred_add_eq, Pipeline.cred_finsetSum]
  congr 1
  exact bigSep_congr fun x _ => (cred_add_eq _ _).symm

/-- The launch deals each device the credit of what the others owe its cells. -/
theorem creds_intro (c : Dev nD) : (Pipeline.launchCred O₀ c : sProp 𝕄) ⊢ creds c := by
  rw [creds_eq, Pipeline.launchCred_of_sum O₀ dueTo sum_owed dueTo_own c]

/-- info: 'Cert.KernelIdeal.Hand.creds_intro' depends on axioms: [propext, Classical.choice, Quot.sound] -/
#guard_msgs in #print axioms creds_intro

end Cert.KernelIdeal.Hand

end
-- ==== Proof.KernelIdealLaunch.lean ====
/-
  The launch: from each device's body to the run of the whole program on the four devices.
-/
import proofs.«900554_g7700000000000555_dist_matmul_gelu_kshard_i_m512_n512_k256_v7x_i4_bf16_1_alg».proof.Proof.KernelIdealBody
import proofs.«900554_g7700000000000555_dist_matmul_gelu_kshard_i_m512_n512_k256_v7x_i4_bf16_1_alg».proof.Proof.KernelIdealWaits
import proofs.«900554_g7700000000000555_dist_matmul_gelu_kshard_i_m512_n512_k256_v7x_i4_bf16_1_alg».proof.Proof.KernelIdealLaunchCred

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The theorem's side conditions -/

theorem ownSemFacts : Pipeline.OwnSemFacts cfg0.spec osem :=
  ⟨by decide, fun a b h => Fin.succ_injective _ (csem_injective h), by decide⟩

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ Pipeline.ownSems0
  iintro ⟨H0, H1, HS⟩
  isplitr; · iempintro
  isplitl [HS]; · iexact HS
  isplitl [H0]; · iexact H0
  iexact H1

/-- The staging cells sit below every cell a device pays. -/
theorem stage_below : ∀ (c : Dev nD) (w : Fin cfg0.W) (s : Fin (cfg0.win w).nbuf), ∀ p ∈ (payList c).drop 0,
    lv ((c : Thread nD τ), .dma ((cfg0.win w).sem s)) () < lv p.1 () := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_at c 0 _ (stage_below c w s)
    · rw [show (dats m 0 c).owed ⟨_ + 1, ht⟩ = 0 from rfl, MayWait_zero]; iintro -; iempintro

/-! ## The arrays after the run -/

/-- The result array is written back whole: it ends as what the body left in the result's staging buffer. -/
theorem final_out (c : Dev nD) : (dats m 0 c).arrAt (2 : Fin 3) cfg0.N = OUT m := by
  rw [show cfg0.N = ((0 : Fin 1) : Fin cfg0.N).val + 1 from rfl, (dats m 0 c).arrAt_succ (2 : Fin 3) (0 : Fin 1)]
  rw [show (cfg0.win (2 : Fin 3)).flush (0 : Fin 1) = true from flush0_2 _, if_pos rfl]
  exact Memref.write_access_unit_zero_univ (Elt F) main_v1 (funext fun a => Nat.zero_mul _) _ _ _

/-! ## The run -/

set_option maxRecDepth 16384 in
/-- At the compiled mesh of four devices, for any float values, from any memory with zero counters: every weakly fair
    execution of @main terminates, and every final state has on each device the result array at the computed contents
    and the two argument arrays unchanged. -/
theorem run_main (ρ : Dev nD → PrngReg) : θ_run defs (onTc (τ := τ) (main (F := F))) ⟨m, fun _ => 0, ρ⟩ (fun r => ∀ c : Dev nD,
      r.2.mem ((c.tc : Thread nD τ).loc main_v1) = OUT m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 (2 : Fin 3)).trans (final_out m c),
      ((h c).1 (0 : Fin 3)).trans ((dats m 0 c).arrAt_in (0 : Fin 3) rfl _),
      ((h c).1 (1 : Fin 3)).trans ((dats m 0 c).arrAt_in (1 : Fin 3) rfl _)⟩)

/-- info: 'Cert.KernelIdeal.Hand.run_main' depends on axioms: [propext, Classical.choice, Quot.sound] -/
#guard_msgs in #print axioms run_main

end Cert.KernelIdeal.Hand

end
-- ==== Proof.ValueAlgebra.lean ====
/-
  The mathematics behind the sharded matmul with a fused GELU, on extended reals and on arrays of them.

  Entry (p, q) of the result is the GELU of the contraction sum Σ_{k<1024} A(p,k)·B(k,q). The kernel's four devices
  hold the column blocks of A and the row blocks of B, 256 contraction positions each; each forms the partial sum over
  its own positions, and the four partial sums are added in the order own, then those of the devices one, three and
  two places further round the ring. A sum over the 1024 positions is the sum, over the four devices, of the sums over
  each device's 256 positions, and the order in which the four partial sums are added does not matter. Both use only
  that addition of extended reals is commutative and associative: no term has to be finite. The GELU is applied to the
  same number on both sides, so nothing about it is needed beyond its formula.
-/
import Idealize.ShloMosaic.PureOps.Ideal
import Idealize.ShloMosaic.Lib.ValueIdx
import Idealize.ShloMosaic.Lib.Layout
import Mathlib.Algebra.BigOperators.Fin
import Mathlib.Logic.Equiv.Fin.Basic

noncomputable section

open scoped BigOperators

namespace Cert.Value

open Idealize.ShloMosaic Idealize.ShloMosaic.ValueIdx

/-- The tanh form of the GELU, `0.5 · z · (1 + tanh (0.7978845 · (z + 0.044715 · z · z · z)))`, on the extended reals,
    the four constants as the words both programs spell. -/
def gelu (z : EReal) : EReal :=
  (Ideal.ofBits .f32 0x3F000000#32 * z) *
    (Ideal.ofBits .f32 0x3F800000#32 +
      Ideal.tanh (Ideal.ofBits .f32 0x3F4C422A#32 * (z + ((Ideal.ofBits .f32 0x3D372713#32 * z) * z) * z)))

/-! ## The contraction sum, whole and by blocks -/

/-- Position `k` of block `c` among the 1024 contraction positions. -/
def kpos (c : Fin 4) (k : Fin 256) : Fin 1024 := ⟨c.val * 256 + k.val, by have := c.isLt; have := k.isLt; omega⟩

@[simp] theorem kpos_val (c : Fin 4) (k : Fin 256) : (kpos c k).val = c.val * 256 + k.val := rfl

/-- A sum over the 1024 positions, block by block. -/
theorem sum_blocks {M : Type*} [AddCommMonoid M] (f : Fin 1024 → M) :
    ∑ k : Fin 1024, f k = ∑ c : Fin 4, ∑ k : Fin 256, f (kpos c k) := by
  rw [← Fintype.sum_prod_type' (f := fun (c : Fin 4) (k : Fin 256) => f (kpos c k))]
  rw [← Equiv.sum_comp (finProdFinEquiv (m := 4) (n := 256)) f]
  refine Finset.sum_congr rfl fun x _ => congrArg f (Fin.ext ?_)
  show x.2.val + 256 * x.1.val = x.1.val * 256 + x.2.val
  omega

/-- The device `d` places after `s` on the ring of four. -/
def ringAdd (s : Fin 4) (d : ℕ) : Fin 4 := ⟨(s.val + d) % 4, Nat.mod_lt _ (by decide)⟩

/-- Own, then one, three and two places on: every device once, so the sum of the four in that order is the sum over
    the devices. -/
theorem sum_ring_order {M : Type*} [AddCommMonoid M] (P : Fin 4 → M) (s : Fin 4) :
    P s + P (ringAdd s 1) + P (ringAdd s 3) + P (ringAdd s 2) = ∑ c : Fin 4, P c := by
  rw [Fin.sum_univ_four]
  have h : ∀ s : Fin 4, (s = 0 ∨ s = 1) ∨ (s = 2 ∨ s = 3) := by decide
  rcases h s with (rfl | rfl) | (rfl | rfl)
  · show P 0 + P 1 + P 3 + P 2 = _
    rw [add_right_comm (P 0 + P 1) (P 3) (P 2)]
  · show P 1 + P 2 + P 0 + P 3 = _
    rw [add_right_comm (P 1) (P 2) (P 0), add_comm (P 1) (P 0)]
  · show P 2 + P 3 + P 1 + P 0 = _
    rw [add_comm (P 0 + P 1 + P 2) (P 3), add_comm (P 0 + P 1) (P 2), add_comm (P 0) (P 1), ← add_assoc, ← add_assoc,
      add_comm (P 3) (P 2)]
  · show P 3 + P 0 + P 2 + P 1 = _
    rw [add_comm (P 0 + P 1 + P 2) (P 3), ← add_assoc, ← add_assoc, add_right_comm (P 3 + P 0) (P 1) (P 2)]

/-! ## The arrays -/

/-- The contraction sum of row `p` of `A` against column `q` of `B`. -/
def dotAt (A : Vec Ideal ⟨2, ![512, 1024]⟩ .f32) (B : Vec Ideal ⟨2, ![1024, 512]⟩ .f32) (p q : Fin 512) : EReal :=
  ∑ k : Fin 1024, (A (ix2 p k) : EReal) * (B (ix2 k q) : EReal)

/-- The result as one function of the two whole arrays: the GELU of the contraction sum at every entry. -/
def refVal (A : Vec Ideal ⟨2, ![512, 1024]⟩ .f32) (B : Vec Ideal ⟨2, ![1024, 512]⟩ .f32) : Vec Ideal ⟨2, ![512, 512]⟩ .bf16 :=
  fun i => gelu (dotAt A B (i 0) (i 1))

/-- The partial sum over the 256 positions of a column block of `A` against the matching row block of `B`. -/
def partAt (X : Vec Ideal ⟨2, ![512, 256]⟩ .f32) (Y : Vec Ideal ⟨2, ![256, 512]⟩ .f32) (p q : Fin 512) : EReal :=
  ∑ k : Fin 256, (X (ix2 p k) : EReal) * (Y (ix2 k q) : EReal)

/-- Column `k` of column block `c` of `A` is column `256·c + k` of `A`. -/
theorem blockA_apply (A : Vec Ideal ⟨2, ![512, 1024]⟩ .f32) (c : Fin 4) (p : Fin 512) (k : Fin 256) :
    (Layout.block ⟨2, ![512, 256]⟩ ⟨2, ![512, 1024]⟩ 1 4 c A) (ix2 p k) = A (ix2 p (kpos c k)) := by
  rw [Layout.block_apply]
  refine congrArg A (funext fun b => Fin.ext ?_)
  match b with
  | ⟨0, _⟩ => rfl
  | ⟨1, _⟩ => rfl

/-- Row `k` of row block `c` of `B` is row `256·c + k` of `B`. -/
theorem blockB_apply (B : Vec Ideal ⟨2, ![1024, 512]⟩ .f32) (c : Fin 4) (k : Fin 256) (q : Fin 512) :
    (Layout.block ⟨2, ![256, 512]⟩ ⟨2, ![1024, 512]⟩ 0 4 c B) (ix2 k q) = B (ix2 (kpos c k) q) := by
  rw [Layout.block_apply]
  refine congrArg B (funext fun b => Fin.ext ?_)
  match b with
  | ⟨0, _⟩ => rfl
  | ⟨1, _⟩ => rfl

/-- The whole contraction sum is the sum of the four blocks' partial sums, -/
theorem dotAt_eq_sum_parts (A : Vec Ideal ⟨2, ![512, 1024]⟩ .f32) (B : Vec Ideal ⟨2, ![1024, 512]⟩ .f32) (p q : Fin 512) :
    dotAt A B p q = ∑ c : Fin 4, partAt (Layout.block ⟨2, ![512, 256]⟩ ⟨2, ![512, 1024]⟩ 1 4 c A)
      (Layout.block ⟨2, ![256, 512]⟩ ⟨2, ![1024, 512]⟩ 0 4 c B) p q := by
  unfold dotAt partAt
  rw [sum_blocks]
  refine Finset.sum_congr rfl fun c _ => Finset.sum_congr rfl fun k _ => ?_
  rw [blockA_apply, blockB_apply]

/-- and so is their sum in the order own, one, three, two places on, from any device `s`. -/
theorem ring_sum_parts (A : Vec Ideal ⟨2, ![512, 1024]⟩ .f32) (B : Vec Ideal ⟨2, ![1024, 512]⟩ .f32) (p q : Fin 512)
    (X : Fin 4 → Vec Ideal ⟨2, ![512, 256]⟩ .f32) (Y : Fin 4 → Vec Ideal ⟨2, ![256, 512]⟩ .f32)
    (hX : ∀ c, X c = Layout.block ⟨2, ![512, 256]⟩ ⟨2, ![512, 1024]⟩ 1 4 c A)
    (hY : ∀ c, Y c = Layout.block ⟨2, ![256, 512]⟩ ⟨2, ![1024, 512]⟩ 0 4 c B) (s : Fin 4) :
    partAt (X s) (Y s) p q + partAt (X (ringAdd s 1)) (Y (ringAdd s 1)) p q
      + partAt (X (ringAdd s 3)) (Y (ringAdd s 3)) p q + partAt (X (ringAdd s 2)) (Y (ringAdd s 2)) p q
      = dotAt A B p q := by
  rw [dotAt_eq_sum_parts, sum_ring_order (fun c => partAt (X c) (Y c) p q) s]
  exact Finset.sum_congr rfl fun c _ => by rw [hX c, hY c]

/-- info: 'Cert.Value.ring_sum_parts' depends on axioms: [propext, Classical.choice, Quot.sound] -/
#guard_msgs in #print axioms ring_sum_parts

end Cert.Value

end
-- ==== Proof.ValueRef.lean ====
/-
  The reference computes the GELU of the contraction sum, entry by entry.

  Its twenty host operations are one `dot_general` of the two whole arrays followed by pointwise operations; read at an
  entry (p, q) the `dot_general` is the sum over the 1024 contraction positions of A(p,k)·B(k,q), and the pointwise
  operations spell the tanh form of the GELU of that sum, the format change at the end being the identity on extended reals.
-/
import proofs.«900554_g7700000000000555_dist_matmul_gelu_kshard_i_m512_n512_k256_v7x_i4_bf16_1_alg».proof.Proof.Gen.ReferenceIdeal.Run
import proofs.«900554_g7700000000000555_dist_matmul_gelu_kshard_i_m512_n512_k256_v7x_i4_bf16_1_alg».proof.Proof.Gen.ReferenceIdeal.Read
import proofs.«900554_g7700000000000555_dist_matmul_gelu_kshard_i_m512_n512_k256_v7x_i4_bf16_1_alg».proof.Proof.ValueAlgebra

noncomputable section

namespace Cert.Value

open Idealize.ShloMosaic Idealize.ShloMosaic.TcCoe Idealize.SL.Sem Idealize.ShloMosaic.ValueIdx

/-- The left operand's index at entry `i` and contraction position `k`: row `i 0`, column `k`. -/
theorem ref_lidx (i : Cert.ReferenceIdeal.S512x512.Idx) (k : Fin 1024) :
    Cert.ReferenceIdeal.Read.lidx_main_v0 i k = ix2 (i 0) k :=
  funext fun a => by match a with | ⟨0, _⟩ => rfl | ⟨1, _⟩ => rfl

/-- The right operand's: row `k`, column `i 1`. -/
theorem ref_ridx (i : Cert.ReferenceIdeal.S512x512.Idx) (k : Fin 1024) :
    Cert.ReferenceIdeal.Read.ridx_main_v0 i k = ix2 k (i 1) :=
  funext fun a => by match a with | ⟨0, _⟩ => rfl | ⟨1, _⟩ => rfl

/-- The `dot_general` at an entry is the contraction sum. -/
theorem ref_dot (A : Vec Ideal ⟨2, ![512, 1024]⟩ .f32) (B : Vec Ideal ⟨2, ![1024, 512]⟩ .f32) (i : Cert.ReferenceIdeal.S512x512.Idx) :
    Cert.ReferenceIdeal.Read.val_main_v0 (F := Ideal) A B i = dotAt A B (i 0) (i 1) := by
  rw [Cert.ReferenceIdeal.Read.val_main_v0_apply]
  unfold dotAt
  exact Finset.sum_congr rfl fun k _ => by rw [ref_lidx, ref_ridx]; rfl

/-- The reference's last stage is `refVal` of the two arrays. -/
theorem ref_eq (A : Vec Ideal ⟨2, ![512, 1024]⟩ .f32) (B : Vec Ideal ⟨2, ![1024, 512]⟩ .f32) :
    Cert.ReferenceIdeal.Read.val_main_v14 (F := Ideal) A B = refVal A B := by
  funext i
  open Cert.ReferenceIdeal.Read in
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_cst_apply, val_main_cst_0_apply,
    val_main_cst_1_apply, val_main_cst_2_apply, ref_dot]
  rfl

/-- The reference's run, its result named `refVal` of the two argument arrays as launched. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v14)
          = refVal (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run (Cert.ReferenceIdeal.defs (F := Ideal)) _ _).mono
    (fun _ h => ⟨((h 0).1.trans (Cert.ReferenceIdeal.Read.val_main_v14_eq _ _)).trans (ref_eq _ _), (h 0).2⟩)
    (Cert.ReferenceIdeal.Value.run (F := Ideal) m' g')

/-- info: 'Cert.Value.ref_run' depends on axioms: [propext, Classical.choice, Quot.sound] -/
#guard_msgs in #print axioms ref_run

end Cert.Value

end
-- ==== Proof.ValueKernel.lean ====
/-
  What every device ends with, entry by entry.

  Device `c`'s partial product at row `p`, column `q` is the sum over its 256 contraction positions of its column block of
  `A` at (p, k) times its row block of `B` at (k, q): the matmul into a zero accumulator read at an entry, the format changes
  the identity on extended reals, and the regrouping of the 512 rows into four slabs of 128 a change of index
  (row `128·s + r` is row `r` of slab `s`). An entry of the result in row `p = 128·s + 32·ch + r` is the GELU of the four
  devices' partial products at (p, q), added in the order own, one, three, two places on from device `s`.
-/
import proofs.«900554_g7700000000000555_dist_matmul_gelu_kshard_i_m512_n512_k256_v7x_i4_bf16_1_alg».proof.Proof.KernelIdealContents
import proofs.«900554_g7700000000000555_dist_matmul_gelu_kshard_i_m512_n512_k256_v7x_i4_bf16_1_alg».proof.Proof.ValueAlgebra
import Idealize.ShloMosaic.Lib.Pipeline.Value
import Idealize.ShloMosaic.PureOps.Ideal.Laws

noncomputable section

namespace Cert.Value

open Cert.KernelIdeal Cert.KernelIdeal.Gen Cert.KernelIdeal.Hand
open Idealize.ShloMosaic Idealize.ShloMosaic.TcCoe Idealize.ShloMosaic.ValueIdx

/-! ## The blocks the region finds are the argument arrays -/

section Blocks
variable {F : FTy → Type} [FloatOps F]
variable (m : (ℓ : Loc nD τ sig) → Buf (Elt F) ℓ)

/-- The kernel has no grid: window 0's one block is the whole of the device's first argument, -/
theorem Ablk_eq (c : Dev nD) : iblk m c 0 t0_0 = m ((c.tc : Thread nD τ).loc main_arg0) := by
  have hz : (fun a => (win0_0.index t0_0) a * main_arg0.ty.shape.size a) = fun _ => 0 := funext fun a => by fin_cases a <;> decide
  exact Memref.read_access_unit_zero (Elt F) main_arg0 hz _ _

/-- and window 1's the whole of its second. -/
theorem Bblk_eq (c : Dev nD) : iblk m c 1 t0_0 = m ((c.tc : Thread nD τ).loc main_arg1) := by
  have hz : (fun a => (win0_1.index t0_0) a * main_arg1.ty.shape.size a) = fun _ => 0 := funext fun a => by fin_cases a <;> decide
  exact Memref.read_access_unit_zero (Elt F) main_arg1 hz _ _

end Blocks

/-! ## The matmul at an entry -/

theorem k_lhs_0 (i : S512x512.Idx) (q : Cert.KernelIdeal.dot_S512x256_S256x512_S512x512_1_0_0_1_n_n.contr.Idx) :
    (Cert.KernelIdeal.dot_S512x256_S256x512_S512x512_1_0_0_1_n_n.lhsIdx i q 0).val = (i 0).val := by
  unfold DotDims.lhsIdx
  rw [dif_neg (show ¬(0 : Fin S512x256.rank) ∈ Cert.KernelIdeal.dot_S512x256_S256x512_S512x512_1_0_0_1_n_n.lhsBatch by decide), dif_pos (show (0 : Fin S512x256.rank) ∈ Cert.KernelIdeal.dot_S512x256_S256x512_S512x512_1_0_0_1_n_n.lhsNonContracting by decide)]
  rfl
theorem k_lhs_1 (i : S512x512.Idx) (q : Cert.KernelIdeal.dot_S512x256_S256x512_S512x512_1_0_0_1_n_n.contr.Idx) :
    (Cert.KernelIdeal.dot_S512x256_S256x512_S512x512_1_0_0_1_n_n.lhsIdx i q 1).val = (q ⟨0, by decide⟩).val :=
  Cert.KernelIdeal.dot_S512x256_S256x512_S512x512_1_0_0_1_n_n.lhsIdx_val_of_single rfl i q
theorem k_rhs_0 (i : S512x512.Idx) (q : Cert.KernelIdeal.dot_S512x256_S256x512_S512x512_1_0_0_1_n_n.contr.Idx) :
    (Cert.KernelIdeal.dot_S512x256_S256x512_S512x512_1_0_0_1_n_n.rhsIdx i q 0).val = (q ⟨0, by decide⟩).val :=
  Cert.KernelIdeal.dot_S512x256_S256x512_S512x512_1_0_0_1_n_n.rhsIdx_val_of_single rfl i q
theorem k_rhs_1 (i : S512x512.Idx) (q : Cert.KernelIdeal.dot_S512x256_S256x512_S512x512_1_0_0_1_n_n.contr.Idx) :
    (Cert.KernelIdeal.dot_S512x256_S256x512_S512x512_1_0_0_1_n_n.rhsIdx i q 1).val = (i 1).val := by
  unfold DotDims.rhsIdx
  rw [dif_neg (show ¬(1 : Fin S256x512.rank) ∈ Cert.KernelIdeal.dot_S512x256_S256x512_S512x512_1_0_0_1_n_n.rhsBatch by decide), dif_pos (show (1 : Fin S256x512.rank) ∈ Cert.KernelIdeal.dot_S512x256_S256x512_S512x512_1_0_0_1_n_n.rhsNonContracting by decide)]
  rfl

/-- The matmul into the zero accumulator, read at entry (p, q): the sum over the 256 contraction positions. -/
theorem matmul_at (L : FVec Ideal S512x256 .bf16) (R : FVec Ideal S256x512 .bf16) (p q : Fin 512) :
    matmul Cert.KernelIdeal.dot_S512x256_S256x512_S512x512_1_0_0_1_n_n none L R (constant (F := Ideal) S512x512 .f32 0x00000000#32) (ix2 p q)
      = ∑ k : Fin 256, L (ix2 p k) * R (ix2 k q) := by
  simp only [matmul]
  rw [Ideal.matmul_constant_zero_apply, ← Equiv.sum_comp (ValueIdx.contrEquiv1 Cert.KernelIdeal.dot_S512x256_S256x512_S512x512_1_0_0_1_n_n 256 rfl rfl).symm]
  refine Finset.sum_congr rfl fun k _ => ?_
  have hk := ValueIdx.contrEquiv1_symm_val Cert.KernelIdeal.dot_S512x256_S256x512_S512x512_1_0_0_1_n_n 256 rfl rfl k
  have el : Cert.KernelIdeal.dot_S512x256_S256x512_S512x512_1_0_0_1_n_n.lhsIdx (ix2 p q) ((ValueIdx.contrEquiv1 Cert.KernelIdeal.dot_S512x256_S256x512_S512x512_1_0_0_1_n_n 256 rfl rfl).symm k) = ix2 p k := funext fun a => Fin.ext (by
    match a with
    | ⟨0, _⟩ => exact k_lhs_0 _ _
    | ⟨1, _⟩ => exact (k_lhs_1 _ _).trans hk)
  have er : Cert.KernelIdeal.dot_S512x256_S256x512_S512x512_1_0_0_1_n_n.rhsIdx (ix2 p q) ((ValueIdx.contrEquiv1 Cert.KernelIdeal.dot_S512x256_S256x512_S512x512_1_0_0_1_n_n 256 rfl rfl).symm k) = ix2 k q := funext fun a => Fin.ext (by
    match a with
    | ⟨0, _⟩ => exact (k_rhs_0 _ _).trans hk
    | ⟨1, _⟩ => exact k_rhs_1 _ _)
  rw [el, er]

/-! ## The payloads at an entry -/

/-- A device's partial product, kept as four slabs of 128 rows: row `r` of slab `s` is row `128·s + r` of the product. -/
theorem pay1_apply (X0 : Vec Ideal S512x256 .f32) (X1 : Vec Ideal S256x512 .f32) (s : Fin 4) (r : Fin 128) (q : Fin 512) :
    k0_pay1 (F := Ideal) X0 X1 (ix3 s r q)
      = partAt X0 X1 ⟨s.val * 128 + r.val, by have := s.isLt; have := r.isLt; omega⟩ q := by
  unfold k0_pay1
  simp only [shapeCast_self]
  refine (shapeCast_apply _ _ (ix3 s r q) (ix2 (n0 := 512) (n1 := 512) ⟨s.val * 128 + r.val, by have := s.isLt; have := r.isLt; omega⟩ q) ?_).trans ?_
  · rw [Shape.rowMajor_val_two, Shape.rowMajor_val_three]
    show (s.val * 128 + r.val) * 512 + q.val = (s.val * 128 + r.val) * 512 + q.val
    rfl
  · exact (matmul_at _ _ _ q).trans rfl

/-- A 32-row piece read off its leading unit axis. -/
theorem drop_apply (v : FVec Ideal S1x32x512 .bf16) (h : S1x32x512.ShapeCasts S32x512) (r : Fin 32) (q : Fin 512) :
    shapeCast S32x512 v h (ix2 r q) = v (ix3 (0 : Fin 1) r q) := by
  refine shapeCast_apply v h (ix2 r q) (ix3 (0 : Fin 1) r q) ?_
  rw [Shape.rowMajor_val_three, Shape.rowMajor_val_two]
  show ((0 : ℕ) * 32 + r.val) * 512 + q.val = r.val * 512 + q.val
  omega

/-- One 32-row piece of the result at row `r`, column `q`: the GELU of the four partial pieces there, added in the
    kernel's order. -/
theorem chunkVal_apply (x0 x1 x3 x2 : Vec Ideal S1x32x512 .bf16) (r : Fin 32) (q : Fin 512) :
    chunkVal (F := Ideal) x0 x1 x3 x2 (ix2 r q)
      = gelu (x0 (ix3 (0 : Fin 1) r q) + x1 (ix3 (0 : Fin 1) r q) + x3 (ix3 (0 : Fin 1) r q) + x2 (ix3 (0 : Fin 1) r q)) := by
  rw [← drop_apply x0 shapeCasts_S1x32x512_S32x512, ← drop_apply x1 shapeCasts_S1x32x512_S32x512,
    ← drop_apply x3 shapeCasts_S1x32x512_S32x512, ← drop_apply x2 shapeCasts_S1x32x512_S32x512]
  rfl

/-! ## The result at an entry -/

/-- Row `p = 128·s + 32·ch + r` of the result: the device `s` whose slab holds it, -/
def rowDev (p : Fin 512) : Dev nD := ⟨p.val / 128, by have := p.isLt; show _ < 4; omega⟩
/-- the 32-row piece `ch` of that slab, -/
def rowPiece (p : Fin 512) : Fin 4 := ⟨p.val % 128 / 32, by omega⟩
/-- and the row `r` inside the piece. -/
def rowIn (p : Fin 512) : Fin 32 := ⟨p.val % 32, Nat.mod_lt _ (by decide)⟩

/-- Row `r` of piece `ch` of slab `s` of device `c`'s partial product is its partial sum at row `p`. -/
theorem slab_apply (m : (ℓ : Loc nD τ sig) → Buf (Elt Ideal) ℓ) (c : Dev nD) (p q : Fin 512) :
    slab (Pblk m c) (rowDev p) (rowPiece p) (ix3 (0 : Fin 1) (rowIn p) q) = partAt (Ablk m c) (Bblk m c) p q := by
  have h0 : p.val < 512 := p.isLt
  refine (pay1_apply (Ablk m c) (Bblk m c) (rowDev p) ⟨32 * (p.val % 128 / 32) + p.val % 32, by omega⟩ q).trans ?_
  exact congrArg (fun p' => partAt (Ablk m c) (Bblk m c) p' q) (Fin.ext (by
    show p.val / 128 * 128 + (32 * (p.val % 128 / 32) + p.val % 32) = p.val
    omega))

/-- Entry (p, q) of what every device ends with: the GELU of the four devices' partial sums at (p, q), added in the
    order own, one, three, two places on from the device that owns row `p`. -/
theorem OUT_apply (m : (ℓ : Loc nD τ sig) → Buf (Elt Ideal) ℓ) (p q : Fin 512) :
    OUT (F := Ideal) m (ix2 p q) = gelu (
      partAt (Ablk m (rowDev p)) (Bblk m (rowDev p)) p q
      + partAt (Ablk m (pl (rowDev p) 1)) (Bblk m (pl (rowDev p) 1)) p q
      + partAt (Ablk m (pl (rowDev p) 3)) (Bblk m (pl (rowDev p) 3)) p q
      + partAt (Ablk m (pl (rowDev p) 2)) (Bblk m (pl (rowDev p) 2)) p q) := by
  refine (chunkVal_apply (slab (Pblk m (rowDev p)) (rowDev p) (rowPiece p)) (slab (Pblk m (pl (rowDev p) 1)) (rowDev p) (rowPiece p))
    (slab (Pblk m (pl (rowDev p) 3)) (rowDev p) (rowPiece p)) (slab (Pblk m (pl (rowDev p) 2)) (rowDev p) (rowPiece p)) (rowIn p) q).trans ?_
  rw [slab_apply, slab_apply, slab_apply, slab_apply]

/-- info: 'Cert.Value.OUT_apply' depends on axioms: [propext, Classical.choice, Quot.sound] -/
#guard_msgs in #print axioms OUT_apply

end Cert.Value

end
-- ==== Proof.Value.lean ====
/-
  The value of the sharded matmul with a fused GELU: the result every device ends with is the reference's.

  Device `c` holds column block `c` of `A` and row block `c` of `B`. An entry of the kernel's result is the GELU of the four
  devices' partial contraction sums, added in the order the ring delivers them; an entry of the reference's is the GELU
  of the whole contraction sum. The whole sum is the sum of the four partial sums in any order, by commutativity and
  associativity of addition on the extended reals alone.
-/
import proofs.«900554_g7700000000000555_dist_matmul_gelu_kshard_i_m512_n512_k256_v7x_i4_bf16_1_alg».proof.Proof.KernelIdealContents
import proofs.«900554_g7700000000000555_dist_matmul_gelu_kshard_i_m512_n512_k256_v7x_i4_bf16_1_alg».proof.Proof.Gen.ReferenceIdeal.Run
import proofs.«900554_g7700000000000555_dist_matmul_gelu_kshard_i_m512_n512_k256_v7x_i4_bf16_1_alg».proof.Proof.Gen.ReferenceIdeal.Read
import proofs.«900554_g7700000000000555_dist_matmul_gelu_kshard_i_m512_n512_k256_v7x_i4_bf16_1_alg».proof.Proof.ValueAlgebra
import proofs.«900554_g7700000000000555_dist_matmul_gelu_kshard_i_m512_n512_k256_v7x_i4_bf16_1_alg».proof.Proof.ValueRef
import proofs.«900554_g7700000000000555_dist_matmul_gelu_kshard_i_m512_n512_k256_v7x_i4_bf16_1_alg».proof.Proof.ValueKernel
import Idealize.ShloMosaic.Lib.Layout
import Idealize.ShloMosaic.Lib.ValueIdx
import Idealize.ShloMosaic.Lib.Pipeline.Value
import Idealize.ShloMosaic.PureOps.Ideal.Laws

noncomputable section

namespace Cert.Value

open Idealize.ShloMosaic Idealize.ShloMosaic.TcCoe Idealize.SL.Sem

/-- From memories where each device's two argument buffers are its blocks of the reference's two arrays, the array every
    device ends with is the reference's result. -/
theorem OUT_eq_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg1))) :
    Cert.KernelIdeal.Hand.OUT (F := Ideal) m
      = refVal (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1)) := by
  funext i
  obtain ⟨p, q, rfl⟩ : ∃ (p : Fin 512) (q : Fin 512), i = ValueIdx.ix2 p q := ⟨i 0, i 1, ValueIdx.eq_ix2 i⟩
  refine (OUT_apply m p q).trans (congrArg gelu ?_)
  exact ring_sum_parts _ _ p q (fun c => Cert.KernelIdeal.Hand.Ablk m c) (fun c => Cert.KernelIdeal.Hand.Bblk m c)
    (fun c => (Ablk_eq m c).trans (hagree c).1) (fun c => (Bblk_eq m c).trans (hagree c).2) (rowDev p)

/-- info: 'Cert.Value.OUT_eq_ref' depends on axioms: [propext, Classical.choice, Quot.sound] -/
#guard_msgs in #print axioms OUT_eq_ref

end Cert.Value

end
-- ==== Proof.lean ====
/- The five conjuncts of `Cert.Claim`: each frame is a run of its program with the value of the result dropped; the algebraic
   conjunct is the kernel's run and the reference's run, the kernel's result rewritten to the reference's by the value equation. -/
import proofs.«900554_g7700000000000555_dist_matmul_gelu_kshard_i_m512_n512_k256_v7x_i4_bf16_1_alg».proof.Defs
import proofs.«900554_g7700000000000555_dist_matmul_gelu_kshard_i_m512_n512_k256_v7x_i4_bf16_1_alg».proof.Proof.Gen.Kernel
import proofs.«900554_g7700000000000555_dist_matmul_gelu_kshard_i_m512_n512_k256_v7x_i4_bf16_1_alg».proof.Proof.Gen.Kernel.Skeleton
import proofs.«900554_g7700000000000555_dist_matmul_gelu_kshard_i_m512_n512_k256_v7x_i4_bf16_1_alg».proof.Proof.Gen.Kernel.Launch
import proofs.«900554_g7700000000000555_dist_matmul_gelu_kshard_i_m512_n512_k256_v7x_i4_bf16_1_alg».proof.Proof.Gen.Kernel.Points
import proofs.«900554_g7700000000000555_dist_matmul_gelu_kshard_i_m512_n512_k256_v7x_i4_bf16_1_alg».proof.Proof.Gen.Kernel.Frame
import proofs.«900554_g7700000000000555_dist_matmul_gelu_kshard_i_m512_n512_k256_v7x_i4_bf16_1_alg».proof.Proof.Gen.KernelIdeal
import proofs.«900554_g7700000000000555_dist_matmul_gelu_kshard_i_m512_n512_k256_v7x_i4_bf16_1_alg».proof.Proof.Gen.KernelIdeal.Skeleton
import proofs.«900554_g7700000000000555_dist_matmul_gelu_kshard_i_m512_n512_k256_v7x_i4_bf16_1_alg».proof.Proof.Gen.KernelIdeal.Launch
import proofs.«900554_g7700000000000555_dist_matmul_gelu_kshard_i_m512_n512_k256_v7x_i4_bf16_1_alg».proof.Proof.Gen.KernelIdeal.Points
import proofs.«900554_g7700000000000555_dist_matmul_gelu_kshard_i_m512_n512_k256_v7x_i4_bf16_1_alg».proof.Proof.Gen.KernelIdeal.Frame
import proofs.«900554_g7700000000000555_dist_matmul_gelu_kshard_i_m512_n512_k256_v7x_i4_bf16_1_alg».proof.Proof.Gen.ReferenceIdeal
import proofs.«900554_g7700000000000555_dist_matmul_gelu_kshard_i_m512_n512_k256_v7x_i4_bf16_1_alg».proof.Proof.Gen.Pre_finite_inputs_Kernel
import proofs.«900554_g7700000000000555_dist_matmul_gelu_kshard_i_m512_n512_k256_v7x_i4_bf16_1_alg».proof.Proof.Gen.Pre_finite_inputs_ReferenceIdeal
import proofs.«900554_g7700000000000555_dist_matmul_gelu_kshard_i_m512_n512_k256_v7x_i4_bf16_1_alg».proof.Proof.KernelLaunch
import proofs.«900554_g7700000000000555_dist_matmul_gelu_kshard_i_m512_n512_k256_v7x_i4_bf16_1_alg».proof.Proof.KernelIdealLaunch
import proofs.«900554_g7700000000000555_dist_matmul_gelu_kshard_i_m512_n512_k256_v7x_i4_bf16_1_alg».proof.Proof.Value
import Idealize.ShloMosaic.Adequacy
import Idealize.ShloMosaic.Init

noncomputable section

namespace Cert.Proof

open Idealize.ShloMosaic Idealize.SL.Sem Cert.Kernel

/-- The word-level kernel runs and leaves its two argument arrays as they were: its run, the result's value dropped. -/
theorem frame_k : Cert.frame_Kernel := fun m g _ =>
  (θ_run Cert.Kernel.defs _ _).mono (fun _ h c => (h c).2) (Cert.Kernel.Hand.run_main (F := Bits) m g)

/-- The same for the kernel read over the extended reals. -/
theorem frame_ki : Cert.frame_KernelIdeal := fun m g _ =>
  (θ_run Cert.KernelIdeal.defs _ _).mono (fun _ h c => (h c).2) (Cert.KernelIdeal.Hand.run_main (F := Ideal) m g)

/-- The reference, on its one device: its run, the result's value dropped. -/
theorem frame_ri : Cert.frame_ReferenceIdeal := fun m g _ =>
  (θ_run Cert.ReferenceIdeal.defs _ _).mono (fun _ h c => match c with | ⟨0, _⟩ => h.2) (Cert.Value.ref_run m g)

/-- From memories where each device's argument buffers are its blocks of the reference's arrays, every device's result array
    ends as the reference's: the GELU of the whole contraction sum, which the four partial sums add up to in any order. -/
theorem algebraic : Cert.algebraic_KernelIdeal_ReferenceIdeal := by
  intro m g m' g' _ hagree
  exact ⟨_, (θ_run Cert.KernelIdeal.defs _ _).mono (fun _ h c => ⟨(h c).1.trans (Cert.Value.OUT_eq_ref m m' hagree), (h c).2⟩)
      (Cert.KernelIdeal.Hand.run_main (F := Ideal) m g), Cert.Value.ref_run m' g'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
